-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 1024]⟩ ⟨2, ![1024, 8192]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  main_v3
-- ==== Pre_finite_inputs_ReferenceIdeal.lean ====
abbrev S1024x8192 : Shape := ⟨2, ![1024, 8192]⟩
abbrev S_ : Shape := ⟨0, ![]⟩

class Facts : Prop where
  bcast_S_S1024x8192 : S_.BroadcastsInDim S1024x8192 (![] : Fin 0 → Fin S1024x8192.rank)
  reducesTo_S1024x8192_S_d0_1 : S1024x8192.ReducesTo [0, 1] S_
  h_S_ : 0 < S_.numel

variable [Facts]

def fn {F : FTy → Type} [FloatOps F] (main_arg0 : FVec F S1024x8192 .f32) : IVec S_ 1 :=
  let main_v0 : FVec F S1024x8192 .f32 := Host.absf main_arg0
  let main_cst : FVec F S_ .f32 := constant S_ .f32 0x7F800000#32
  let main_v1 : FVec F S1024x8192 .f32 := broadcastInDim S1024x8192 ![] bcast_S_S1024x8192 main_cst
  let main_v2 : IVec S1024x8192 1 := cmpf .olt main_v0 main_v1
  let main_c : IVec S_ 1 := constantI S_ 1 1#1
  let main_v3 : IVec S_ 1 := (fun x v => Host.reduce IntOp.andi x v reducesTo_S1024x8192_S_d0_1 h_S_) main_v2 main_c
  main_v3
-- ==== Kernel.lean ====
abbrev S1024x1024 : Shape := ⟨2, ![1024, 1024]⟩
abbrev S2x1x512 : Shape := ⟨3, ![2, 1, 512]⟩
abbrev S8x2x1x512 : Shape := ⟨4, ![8, 2, 1, 512]⟩
abbrev S2x8 : Shape := ⟨2, ![2, 8]⟩
abbrev S_ : Shape := ⟨0, ![]⟩
abbrev S512x1024 : Shape := ⟨2, ![512, 1024]⟩
abbrev S512 : Shape := ⟨1, ![512]⟩
abbrev S512x1 : Shape := ⟨2, ![512, 1]⟩
abbrev S1x512 : Shape := ⟨2, ![1, 512]⟩
abbrev S1x1x512 : Shape := ⟨3, ![1, 1, 512]⟩
abbrev S1x1 : Shape := ⟨2, ![1, 1]⟩
abbrev S1x1x1x512 : Shape := ⟨4, ![1, 1, 1, 512]⟩
abbrev S8x1x1x512 : Shape := ⟨4, ![8, 1, 1, 512]⟩
abbrev S8x512 : Shape := ⟨2, ![8, 512]⟩

abbrev nBuf : Space → Nat
  | .hbm => 2
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S1024x1024, .bf16⟩
  | .local _ .vmem, ⟨0, _⟩ => ⟨S1024x1024, .f32⟩
  | .local _ .vmem, ⟨1, _⟩ => ⟨S1024x1024, .bf16⟩
  | .local _ .vmem, ⟨2, _⟩ => ⟨S2x1x512, .f32⟩
  | .local _ .vmem, ⟨3, _⟩ => ⟨S8x2x1x512, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_155 : BitVec 32 := 0#32
  let c0_i32_153 : BitVec 32 := 0#32
  let c1_i32_154 : BitVec 32 := 1#32
  let v238 : BitVec 32 := Scalar.muli c0_i32_153 c1_i32_154
  let v239 : BitVec 32 := Scalar.addi c0_i32_155 v238
  v239.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_155 : BitVec 32 := 0#32
  let c1_i32_153 : BitVec 32 := 1#32
  let c1_i32_154 : BitVec 32 := 1#32
  let v238 : BitVec 32 := Scalar.muli c1_i32_153 c1_i32_154
  let v239 : BitVec 32 := Scalar.addi c0_i32_155 v238
  v239.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_155 : BitVec 32 := 0#32
  let c2_i32_153 : BitVec 32 := 2#32
  let c1_i32_154 : BitVec 32 := 1#32
  let v238 : BitVec 32 := Scalar.muli c2_i32_153 c1_i32_154
  let v239 : BitVec 32 := Scalar.addi c0_i32_155 v238
  v239.toNat
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_155 : BitVec 32 := 0#32
  let c3_i32_153 : BitVec 32 := 3#32
  let c1_i32_154 : BitVec 32 := 1#32
  let v238 : BitVec 32 := Scalar.muli c3_i32_153 c1_i32_154
  let v239 : BitVec 32 := Scalar.addi c0_i32_155 v238
  v239.toNat
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_155 : BitVec 32 := 0#32
  let c4_i32_153 : BitVec 32 := 4#32
  let c1_i32_154 : BitVec 32 := 1#32
  let v238 : BitVec 32 := Scalar.muli c4_i32_153 c1_i32_154
  let v239 : BitVec 32 := Scalar.addi c0_i32_155 v238
  v239.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_155 : BitVec 32 := 0#32
  let c5_i32_153 : BitVec 32 := 5#32
  let c1_i32_154 : BitVec 32 := 1#32
  let v238 : BitVec 32 := Scalar.muli c5_i32_153 c1_i32_154
  let v239 : BitVec 32 := Scalar.addi c0_i32_155 v238
  v239.toNat
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_155 : BitVec 32 := 0#32
  let c6_i32_153 : BitVec 32 := 6#32
  let c1_i32_154 : BitVec 32 := 1#32
  let v238 : BitVec 32 := Scalar.muli c6_i32_153 c1_i32_154
  let v239 : BitVec 32 := Scalar.addi c0_i32_155 v238
  v239.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_155 : BitVec 32 := 0#32
  let c7_i32_153 : BitVec 32 := 7#32
  let c1_i32_154 : BitVec 32 := 1#32
  let v238 : BitVec 32 := Scalar.muli c7_i32_153 c1_i32_154
  let v239 : BitVec 32 := Scalar.addi c0_i32_155 v238
  v239.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_17 : BitVec 32 := 0#32
  let v41 : BitVec 1 := Scalar.cmpi .ne v2 c0_i32_17
  let v42 : BitVec 32 := Scalar.extui v41
  let c0_i32_18 : BitVec 32 := 0#32
  let v43 : BitVec 1 := Scalar.cmpi .ne v42 c0_i32_18
  v43

def k0_off1 (d0 : Dev nD) : Fin 2 → Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_153 : BitVec 32 := 0#32
  let c0_i32_160 : BitVec 32 := 0#32
  let c0_i32_161 : BitVec 32 := 0#32
  ![v2.toNat, 0, 0, 0]
def k0_dev9 : Nat :=
  let c0_i32_159 : BitVec 32 := 0#32
  let c0_i32_157 : BitVec 32 := 0#32
  let c1_i32_158 : BitVec 32 := 1#32
  let v238 : BitVec 32 := Scalar.muli c0_i32_157 c1_i32_158
  let v239 : BitVec 32 := Scalar.addi c0_i32_159 v238
  v239.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_19 : BitVec 32 := 1#32
  let v44 : BitVec 1 := Scalar.cmpi .ne v2 c1_i32_19
  let v45 : BitVec 32 := Scalar.extui v44
  let c0_i32_20 : BitVec 32 := 0#32
  let v46 : BitVec 1 := Scalar.cmpi .ne v45 c0_i32_20
  v46

def k0_off3 (d0 : Dev nD) : Fin 2 → Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off4 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_153 : BitVec 32 := 0#32
  let c0_i32_160 : BitVec 32 := 0#32
  let c0_i32_161 : BitVec 32 := 0#32
  ![v2.toNat, 0, 0, 0]
def k0_dev10 : Nat :=
  let c0_i32_159 : BitVec 32 := 0#32
  let c1_i32_157 : BitVec 32 := 1#32
  let c1_i32_158 : BitVec 32 := 1#32
  let v238 : BitVec 32 := Scalar.muli c1_i32_157 c1_i32_158
  let v239 : BitVec 32 := Scalar.addi c0_i32_159 v238
  v239.toNat
def k0_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_21 : BitVec 32 := 2#32
  let v47 : BitVec 1 := Scalar.cmpi .ne v2 c2_i32_21
  let v48 : BitVec 32 := Scalar.extui v47
  let c0_i32_22 : BitVec 32 := 0#32
  let v49 : BitVec 1 := Scalar.cmpi .ne v48 c0_i32_22
  v49

def k0_off5 (d0 : Dev nD) : Fin 2 → Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off6 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_153 : BitVec 32 := 0#32
  let c0_i32_160 : BitVec 32 := 0#32
  let c0_i32_161 : BitVec 32 := 0#32
  ![v2.toNat, 0, 0, 0]
def k0_dev11 : Nat :=
  let c0_i32_159 : BitVec 32 := 0#32
  let c2_i32_157 : BitVec 32 := 2#32
  let c1_i32_158 : BitVec 32 := 1#32
  let v238 : BitVec 32 := Scalar.muli c2_i32_157 c1_i32_158
  let v239 : BitVec 32 := Scalar.addi c0_i32_159 v238
  v239.toNat
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_23 : BitVec 32 := 3#32
  let v50 : BitVec 1 := Scalar.cmpi .ne v2 c3_i32_23
  let v51 : BitVec 32 := Scalar.extui v50
  let c0_i32_24 : BitVec 32 := 0#32
  let v52 : BitVec 1 := Scalar.cmpi .ne v51 c0_i32_24
  v52

def k0_off7 (d0 : Dev nD) : Fin 2 → Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off8 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_153 : BitVec 32 := 0#32
  let c0_i32_160 : BitVec 32 := 0#32
  let c0_i32_161 : BitVec 32 := 0#32
  ![v2.toNat, 0, 0, 0]
def k0_dev12 : Nat :=
  let c0_i32_159 : BitVec 32 := 0#32
  let c3_i32_157 : BitVec 32 := 3#32
  let c1_i32_158 : BitVec 32 := 1#32
  let v238 : BitVec 32 := Scalar.muli c3_i32_157 c1_i32_158
  let v239 : BitVec 32 := Scalar.addi c0_i32_159 v238
  v239.toNat
def k0_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_25 : BitVec 32 := 4#32
  let v53 : BitVec 1 := Scalar.cmpi .ne v2 c4_i32_25
  let v54 : BitVec 32 := Scalar.extui v53
  let c0_i32_26 : BitVec 32 := 0#32
  let v55 : BitVec 1 := Scalar.cmpi .ne v54 c0_i32_26
  v55

def k0_off9 (d0 : Dev nD) : Fin 2 → Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off10 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_153 : BitVec 32 := 0#32
  let c0_i32_160 : BitVec 32 := 0#32
  let c0_i32_161 : BitVec 32 := 0#32
  ![v2.toNat, 0, 0, 0]
def k0_dev13 : Nat :=
  let c0_i32_159 : BitVec 32 := 0#32
  let c4_i32_157 : BitVec 32 := 4#32
  let c1_i32_158 : BitVec 32 := 1#32
  let v238 : BitVec 32 := Scalar.muli c4_i32_157 c1_i32_158
  let v239 : BitVec 32 := Scalar.addi c0_i32_159 v238
  v239.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_27 : BitVec 32 := 5#32
  let v56 : BitVec 1 := Scalar.cmpi .ne v2 c5_i32_27
  let v57 : BitVec 32 := Scalar.extui v56
  let c0_i32_28 : BitVec 32 := 0#32
  let v58 : BitVec 1 := Scalar.cmpi .ne v57 c0_i32_28
  v58

def k0_off11 (d0 : Dev nD) : Fin 2 → Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off12 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_153 : BitVec 32 := 0#32
  let c0_i32_160 : BitVec 32 := 0#32
  let c0_i32_161 : BitVec 32 := 0#32
  ![v2.toNat, 0, 0, 0]
def k0_dev14 : Nat :=
  let c0_i32_159 : BitVec 32 := 0#32
  let c5_i32_157 : BitVec 32 := 5#32
  let c1_i32_158 : BitVec 32 := 1#32
  let v238 : BitVec 32 := Scalar.muli c5_i32_157 c1_i32_158
  let v239 : BitVec 32 := Scalar.addi c0_i32_159 v238
  v239.toNat
def k0_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_29 : BitVec 32 := 6#32
  let v59 : BitVec 1 := Scalar.cmpi .ne v2 c6_i32_29
  let v60 : BitVec 32 := Scalar.extui v59
  let c0_i32_30 : BitVec 32 := 0#32
  let v61 : BitVec 1 := Scalar.cmpi .ne v60 c0_i32_30
  v61

def k0_off13 (d0 : Dev nD) : Fin 2 → Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off14 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_153 : BitVec 32 := 0#32
  let c0_i32_160 : BitVec 32 := 0#32
  let c0_i32_161 : BitVec 32 := 0#32
  ![v2.toNat, 0, 0, 0]
def k0_dev15 : Nat :=
  let c0_i32_159 : BitVec 32 := 0#32
  let c6_i32_157 : BitVec 32 := 6#32
  let c1_i32_158 : BitVec 32 := 1#32
  let v238 : BitVec 32 := Scalar.muli c6_i32_157 c1_i32_158
  let v239 : BitVec 32 := Scalar.addi c0_i32_159 v238
  v239.toNat
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_31 : BitVec 32 := 7#32
  let v62 : BitVec 1 := Scalar.cmpi .ne v2 c7_i32_31
  let v63 : BitVec 32 := Scalar.extui v62
  let c0_i32_32 : BitVec 32 := 0#32
  let v64 : BitVec 1 := Scalar.cmpi .ne v63 c0_i32_32
  v64

def k0_off15 (d0 : Dev nD) : Fin 2 → Nat :=
  let c0_i32_154 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![0, v2.toNat]
def k0_off16 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_153 : BitVec 32 := 0#32
  let c0_i32_160 : BitVec 32 := 0#32
  let c0_i32_161 : BitVec 32 := 0#32
  ![v2.toNat, 0, 0, 0]
def k0_dev16 : Nat :=
  let c0_i32_159 : BitVec 32 := 0#32
  let c7_i32_157 : BitVec 32 := 7#32
  let c1_i32_158 : BitVec 32 := 1#32
  let v238 : BitVec 32 := Scalar.muli c7_i32_157 c1_i32_158
  let v239 : BitVec 32 := Scalar.addi c0_i32_159 v238
  v239.toNat
def k0_off17 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v67 : Index := Scalar.indexCast v2
  let c0_36 : Index := 0#32
  let c0_37 : Index := 0#32
  let c0_38 : Index := 0#32
  ![v67.toNat, 0, 0, 0]
def k0_cond17 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_46 : BitVec 32 := 0#32
  let v84 : BitVec 1 := Scalar.cmpi .ne v2 c0_i32_46
  let v85 : BitVec 32 := Scalar.extui v84
  let c0_i32_47 : BitVec 32 := 0#32
  let v86 : BitVec 1 := Scalar.cmpi .ne v85 c0_i32_47
  v86

def k0_off18 (d0 : Dev nD) : Fin 2 → Nat :=
  let c1_i32_154 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off19 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_153 : BitVec 32 := 1#32
  let c0_i32_160 : BitVec 32 := 0#32
  let c0_i32_161 : BitVec 32 := 0#32
  ![v2.toNat, 1, 0, 0]
def k0_dev17 : Nat :=
  let c0_i32_159 : BitVec 32 := 0#32
  let c0_i32_157 : BitVec 32 := 0#32
  let c1_i32_158 : BitVec 32 := 1#32
  let v238 : BitVec 32 := Scalar.muli c0_i32_157 c1_i32_158
  let v239 : BitVec 32 := Scalar.addi c0_i32_159 v238
  v239.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_48 : BitVec 32 := 1#32
  let v87 : BitVec 1 := Scalar.cmpi .ne v2 c1_i32_48
  let v88 : BitVec 32 := Scalar.extui v87
  let c0_i32_49 : BitVec 32 := 0#32
  let v89 : BitVec 1 := Scalar.cmpi .ne v88 c0_i32_49
  v89

def k0_off20 (d0 : Dev nD) : Fin 2 → Nat :=
  let c1_i32_154 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off21 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_153 : BitVec 32 := 1#32
  let c0_i32_160 : BitVec 32 := 0#32
  let c0_i32_161 : BitVec 32 := 0#32
  ![v2.toNat, 1, 0, 0]
def k0_dev18 : Nat :=
  let c0_i32_159 : BitVec 32 := 0#32
  let c1_i32_157 : BitVec 32 := 1#32
  let c1_i32_158 : BitVec 32 := 1#32
  let v238 : BitVec 32 := Scalar.muli c1_i32_157 c1_i32_158
  let v239 : BitVec 32 := Scalar.addi c0_i32_159 v238
  v239.toNat
def k0_cond19 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_50 : BitVec 32 := 2#32
  let v90 : BitVec 1 := Scalar.cmpi .ne v2 c2_i32_50
  let v91 : BitVec 32 := Scalar.extui v90
  let c0_i32_51 : BitVec 32 := 0#32
  let v92 : BitVec 1 := Scalar.cmpi .ne v91 c0_i32_51
  v92

def k0_off22 (d0 : Dev nD) : Fin 2 → Nat :=
  let c1_i32_154 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off23 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_153 : BitVec 32 := 1#32
  let c0_i32_160 : BitVec 32 := 0#32
  let c0_i32_161 : BitVec 32 := 0#32
  ![v2.toNat, 1, 0, 0]
def k0_dev19 : Nat :=
  let c0_i32_159 : BitVec 32 := 0#32
  let c2_i32_157 : BitVec 32 := 2#32
  let c1_i32_158 : BitVec 32 := 1#32
  let v238 : BitVec 32 := Scalar.muli c2_i32_157 c1_i32_158
  let v239 : BitVec 32 := Scalar.addi c0_i32_159 v238
  v239.toNat
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v93 : BitVec 1 := Scalar.cmpi .ne v2 c3_i32_52
  let v94 : BitVec 32 := Scalar.extui v93
  let c0_i32_53 : BitVec 32 := 0#32
  let v95 : BitVec 1 := Scalar.cmpi .ne v94 c0_i32_53
  v95

def k0_off24 (d0 : Dev nD) : Fin 2 → Nat :=
  let c1_i32_154 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off25 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_153 : BitVec 32 := 1#32
  let c0_i32_160 : BitVec 32 := 0#32
  let c0_i32_161 : BitVec 32 := 0#32
  ![v2.toNat, 1, 0, 0]
def k0_dev20 : Nat :=
  let c0_i32_159 : BitVec 32 := 0#32
  let c3_i32_157 : BitVec 32 := 3#32
  let c1_i32_158 : BitVec 32 := 1#32
  let v238 : BitVec 32 := Scalar.muli c3_i32_157 c1_i32_158
  let v239 : BitVec 32 := Scalar.addi c0_i32_159 v238
  v239.toNat
def k0_cond21 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_54 : BitVec 32 := 4#32
  let v96 : BitVec 1 := Scalar.cmpi .ne v2 c4_i32_54
  let v97 : BitVec 32 := Scalar.extui v96
  let c0_i32_55 : BitVec 32 := 0#32
  let v98 : BitVec 1 := Scalar.cmpi .ne v97 c0_i32_55
  v98

def k0_off26 (d0 : Dev nD) : Fin 2 → Nat :=
  let c1_i32_154 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off27 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_153 : BitVec 32 := 1#32
  let c0_i32_160 : BitVec 32 := 0#32
  let c0_i32_161 : BitVec 32 := 0#32
  ![v2.toNat, 1, 0, 0]
def k0_dev21 : Nat :=
  let c0_i32_159 : BitVec 32 := 0#32
  let c4_i32_157 : BitVec 32 := 4#32
  let c1_i32_158 : BitVec 32 := 1#32
  let v238 : BitVec 32 := Scalar.muli c4_i32_157 c1_i32_158
  let v239 : BitVec 32 := Scalar.addi c0_i32_159 v238
  v239.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_56 : BitVec 32 := 5#32
  let v99 : BitVec 1 := Scalar.cmpi .ne v2 c5_i32_56
  let v100 : BitVec 32 := Scalar.extui v99
  let c0_i32_57 : BitVec 32 := 0#32
  let v101 : BitVec 1 := Scalar.cmpi .ne v100 c0_i32_57
  v101

def k0_off28 (d0 : Dev nD) : Fin 2 → Nat :=
  let c1_i32_154 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off29 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_153 : BitVec 32 := 1#32
  let c0_i32_160 : BitVec 32 := 0#32
  let c0_i32_161 : BitVec 32 := 0#32
  ![v2.toNat, 1, 0, 0]
def k0_dev22 : Nat :=
  let c0_i32_159 : BitVec 32 := 0#32
  let c5_i32_157 : BitVec 32 := 5#32
  let c1_i32_158 : BitVec 32 := 1#32
  let v238 : BitVec 32 := Scalar.muli c5_i32_157 c1_i32_158
  let v239 : BitVec 32 := Scalar.addi c0_i32_159 v238
  v239.toNat
def k0_cond23 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_58 : BitVec 32 := 6#32
  let v102 : BitVec 1 := Scalar.cmpi .ne v2 c6_i32_58
  let v103 : BitVec 32 := Scalar.extui v102
  let c0_i32_59 : BitVec 32 := 0#32
  let v104 : BitVec 1 := Scalar.cmpi .ne v103 c0_i32_59
  v104

def k0_off30 (d0 : Dev nD) : Fin 2 → Nat :=
  let c1_i32_154 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off31 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_153 : BitVec 32 := 1#32
  let c0_i32_160 : BitVec 32 := 0#32
  let c0_i32_161 : BitVec 32 := 0#32
  ![v2.toNat, 1, 0, 0]
def k0_dev23 : Nat :=
  let c0_i32_159 : BitVec 32 := 0#32
  let c6_i32_157 : BitVec 32 := 6#32
  let c1_i32_158 : BitVec 32 := 1#32
  let v238 : BitVec 32 := Scalar.muli c6_i32_157 c1_i32_158
  let v239 : BitVec 32 := Scalar.addi c0_i32_159 v238
  v239.toNat
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_60 : BitVec 32 := 7#32
  let v105 : BitVec 1 := Scalar.cmpi .ne v2 c7_i32_60
  let v106 : BitVec 32 := Scalar.extui v105
  let c0_i32_61 : BitVec 32 := 0#32
  let v107 : BitVec 1 := Scalar.cmpi .ne v106 c0_i32_61
  v107

def k0_off32 (d0 : Dev nD) : Fin 2 → Nat :=
  let c1_i32_154 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![1, v2.toNat]
def k0_off33 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_153 : BitVec 32 := 1#32
  let c0_i32_160 : BitVec 32 := 0#32
  let c0_i32_161 : BitVec 32 := 0#32
  ![v2.toNat, 1, 0, 0]
def k0_dev24 : Nat :=
  let c0_i32_159 : BitVec 32 := 0#32
  let c7_i32_157 : BitVec 32 := 7#32
  let c1_i32_158 : BitVec 32 := 1#32
  let v238 : BitVec 32 := Scalar.muli c7_i32_157 c1_i32_158
  let v239 : BitVec 32 := Scalar.addi c0_i32_159 v238
  v239.toNat
def k0_off34 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v110 : Index := Scalar.indexCast v2
  let c1_65 : Index := 1#32
  let c0_66 : Index := 0#32
  let c0_67 : Index := 0#32
  ![v110.toNat, 1, 0, 0]
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_120 : BitVec 32 := 0#32
  let v190 : BitVec 1 := Scalar.cmpi .ne v2 c0_i32_120
  let v191 : BitVec 32 := Scalar.extui v190
  let c0_i32_121 : BitVec 32 := 0#32
  let v192 : BitVec 1 := Scalar.cmpi .ne v191 c0_i32_121
  v192

def k0_off35 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let c0_i32_161 : BitVec 32 := 0#32
  let c0_i32_162 : BitVec 32 := 0#32
  ![v2.toNat, 0, 0, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_122 : BitVec 32 := 1#32
  let v193 : BitVec 1 := Scalar.cmpi .ne v2 c1_i32_122
  let v194 : BitVec 32 := Scalar.extui v193
  let c0_i32_123 : BitVec 32 := 0#32
  let v195 : BitVec 1 := Scalar.cmpi .ne v194 c0_i32_123
  v195

def k0_off36 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let c0_i32_161 : BitVec 32 := 0#32
  let c0_i32_162 : BitVec 32 := 0#32
  ![v2.toNat, 0, 0, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_124 : BitVec 32 := 2#32
  let v196 : BitVec 1 := Scalar.cmpi .ne v2 c2_i32_124
  let v197 : BitVec 32 := Scalar.extui v196
  let c0_i32_125 : BitVec 32 := 0#32
  let v198 : BitVec 1 := Scalar.cmpi .ne v197 c0_i32_125
  v198

def k0_off37 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let c0_i32_161 : BitVec 32 := 0#32
  let c0_i32_162 : BitVec 32 := 0#32
  ![v2.toNat, 0, 0, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_126 : BitVec 32 := 3#32
  let v199 : BitVec 1 := Scalar.cmpi .ne v2 c3_i32_126
  let v200 : BitVec 32 := Scalar.extui v199
  let c0_i32_127 : BitVec 32 := 0#32
  let v201 : BitVec 1 := Scalar.cmpi .ne v200 c0_i32_127
  v201

def k0_off38 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let c0_i32_161 : BitVec 32 := 0#32
  let c0_i32_162 : BitVec 32 := 0#32
  ![v2.toNat, 0, 0, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_128 : BitVec 32 := 4#32
  let v202 : BitVec 1 := Scalar.cmpi .ne v2 c4_i32_128
  let v203 : BitVec 32 := Scalar.extui v202
  let c0_i32_129 : BitVec 32 := 0#32
  let v204 : BitVec 1 := Scalar.cmpi .ne v203 c0_i32_129
  v204

def k0_off39 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let c0_i32_161 : BitVec 32 := 0#32
  let c0_i32_162 : BitVec 32 := 0#32
  ![v2.toNat, 0, 0, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_130 : BitVec 32 := 5#32
  let v205 : BitVec 1 := Scalar.cmpi .ne v2 c5_i32_130
  let v206 : BitVec 32 := Scalar.extui v205
  let c0_i32_131 : BitVec 32 := 0#32
  let v207 : BitVec 1 := Scalar.cmpi .ne v206 c0_i32_131
  v207

def k0_off40 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let c0_i32_161 : BitVec 32 := 0#32
  let c0_i32_162 : BitVec 32 := 0#32
  ![v2.toNat, 0, 0, 0]
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_132 : BitVec 32 := 6#32
  let v208 : BitVec 1 := Scalar.cmpi .ne v2 c6_i32_132
  let v209 : BitVec 32 := Scalar.extui v208
  let c0_i32_133 : BitVec 32 := 0#32
  let v210 : BitVec 1 := Scalar.cmpi .ne v209 c0_i32_133
  v210

def k0_off41 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let c0_i32_161 : BitVec 32 := 0#32
  let c0_i32_162 : BitVec 32 := 0#32
  ![v2.toNat, 0, 0, 0]
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_134 : BitVec 32 := 7#32
  let v211 : BitVec 1 := Scalar.cmpi .ne v2 c7_i32_134
  let v212 : BitVec 32 := Scalar.extui v211
  let c0_i32_135 : BitVec 32 := 0#32
  let v213 : BitVec 1 := Scalar.cmpi .ne v212 c0_i32_135
  v213

def k0_off42 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_152 : BitVec 32 := 0#32
  let c0_i32_161 : BitVec 32 := 0#32
  let c0_i32_162 : BitVec 32 := 0#32
  ![v2.toNat, 0, 0, 0]
def k0_cond49 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_136 : BitVec 32 := 0#32
  let v214 : BitVec 1 := Scalar.cmpi .ne v2 c0_i32_136
  let v215 : BitVec 32 := Scalar.extui v214
  let c0_i32_137 : BitVec 32 := 0#32
  let v216 : BitVec 1 := Scalar.cmpi .ne v215 c0_i32_137
  v216

def k0_off43 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let c0_i32_161 : BitVec 32 := 0#32
  let c0_i32_162 : BitVec 32 := 0#32
  ![v2.toNat, 1, 0, 0]
def k0_cond50 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_138 : BitVec 32 := 1#32
  let v217 : BitVec 1 := Scalar.cmpi .ne v2 c1_i32_138
  let v218 : BitVec 32 := Scalar.extui v217
  let c0_i32_139 : BitVec 32 := 0#32
  let v219 : BitVec 1 := Scalar.cmpi .ne v218 c0_i32_139
  v219

def k0_off44 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let c0_i32_161 : BitVec 32 := 0#32
  let c0_i32_162 : BitVec 32 := 0#32
  ![v2.toNat, 1, 0, 0]
def k0_cond51 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_140 : BitVec 32 := 2#32
  let v220 : BitVec 1 := Scalar.cmpi .ne v2 c2_i32_140
  let v221 : BitVec 32 := Scalar.extui v220
  let c0_i32_141 : BitVec 32 := 0#32
  let v222 : BitVec 1 := Scalar.cmpi .ne v221 c0_i32_141
  v222

def k0_off45 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let c0_i32_161 : BitVec 32 := 0#32
  let c0_i32_162 : BitVec 32 := 0#32
  ![v2.toNat, 1, 0, 0]
def k0_cond52 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_142 : BitVec 32 := 3#32
  let v223 : BitVec 1 := Scalar.cmpi .ne v2 c3_i32_142
  let v224 : BitVec 32 := Scalar.extui v223
  let c0_i32_143 : BitVec 32 := 0#32
  let v225 : BitVec 1 := Scalar.cmpi .ne v224 c0_i32_143
  v225

def k0_off46 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let c0_i32_161 : BitVec 32 := 0#32
  let c0_i32_162 : BitVec 32 := 0#32
  ![v2.toNat, 1, 0, 0]
def k0_cond53 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_144 : BitVec 32 := 4#32
  let v226 : BitVec 1 := Scalar.cmpi .ne v2 c4_i32_144
  let v227 : BitVec 32 := Scalar.extui v226
  let c0_i32_145 : BitVec 32 := 0#32
  let v228 : BitVec 1 := Scalar.cmpi .ne v227 c0_i32_145
  v228

def k0_off47 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let c0_i32_161 : BitVec 32 := 0#32
  let c0_i32_162 : BitVec 32 := 0#32
  ![v2.toNat, 1, 0, 0]
def k0_cond54 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_146 : BitVec 32 := 5#32
  let v229 : BitVec 1 := Scalar.cmpi .ne v2 c5_i32_146
  let v230 : BitVec 32 := Scalar.extui v229
  let c0_i32_147 : BitVec 32 := 0#32
  let v231 : BitVec 1 := Scalar.cmpi .ne v230 c0_i32_147
  v231

def k0_off48 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let c0_i32_161 : BitVec 32 := 0#32
  let c0_i32_162 : BitVec 32 := 0#32
  ![v2.toNat, 1, 0, 0]
def k0_cond55 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_148 : BitVec 32 := 6#32
  let v232 : BitVec 1 := Scalar.cmpi .ne v2 c6_i32_148
  let v233 : BitVec 32 := Scalar.extui v232
  let c0_i32_149 : BitVec 32 := 0#32
  let v234 : BitVec 1 := Scalar.cmpi .ne v233 c0_i32_149
  v234

def k0_off49 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let c0_i32_161 : BitVec 32 := 0#32
  let c0_i32_162 : BitVec 32 := 0#32
  ![v2.toNat, 1, 0, 0]
def k0_cond56 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_150 : BitVec 32 := 7#32
  let v235 : BitVec 1 := Scalar.cmpi .ne v2 c7_i32_150
  let v236 : BitVec 32 := Scalar.extui v235
  let c0_i32_151 : BitVec 32 := 0#32
  let v237 : BitVec 1 := Scalar.cmpi .ne v236 c0_i32_151
  v237

def k0_off50 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_152 : BitVec 32 := 1#32
  let c0_i32_161 : BitVec 32 := 0#32
  let c0_i32_162 : BitVec 32 := 0#32
  ![v2.toNat, 1, 0, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x1024_S512x1024_0_0 : ∀ a, (![0, 0] : Fin 2 → Nat) a + S512x1024.size a ≤ S1024x1024.size a
  h_S512x1024 : 0 < S512x1024.numel
  shapeCasts_S512x1024_S512x1024 : S512x1024.ShapeCasts S512x1024
  bitsLt_bf16_f32 : FTy.bits .bf16 < FTy.bits .f32
  packedbf16_S1024x1024_S512x1024_0_0 : (Rect.unit (s := S1024x1024) ![0, 0] S512x1024.size inb_S1024x1024_S512x1024_0_0).PackedRows (EltTy.packing .bf16)
  reduces_S512x1024_S512 : S512x1024.Reduces [1] S512
  shapeCasts_S512_S512x1 : S512.ShapeCasts S512x1
  transposes_S512x1_p1_0_S1x512 : S512x1.Transposes [1, 0] S1x512
  inb_S2x1x512_S1x1x512_0_0_0 : ∀ a, (![0, 0, 0] : Fin 3 → Nat) a + S1x1x512.size a ≤ S2x1x512.size a
  h_S1x1x512 : 0 < S1x1x512.numel
  shapeCasts_S1x1x512_S1x512 : S1x1x512.ShapeCasts S1x512
  shapeCasts_S1x512_S1x1x512 : S1x512.ShapeCasts S1x1x512
  hamt_7 : (7#32 : BitVec 32).msb = false
  inb_S2x8_S1x1_0_0 : ∀ a, (![0, 0] : Fin 2 → Nat) a + S1x1.size a ≤ S2x8.size a
  squeezes_S1x1_S_ : S1x1.Squeezes S_
  squeezes_S1x1x1x512_S1x512 : S1x1x1x512.Squeezes S1x512
  squeezes_S1x1x512_S1x512 : S1x1x512.Squeezes S1x512
  inb_S2x8_S1x1_0_1 : ∀ a, (![0, 1] : Fin 2 → Nat) a + S1x1.size a ≤ S2x8.size a
  inb_S2x8_S1x1_0_2 : ∀ a, (![0, 2] : Fin 2 → Nat) a + S1x1.size a ≤ S2x8.size a
  inb_S2x8_S1x1_0_3 : ∀ a, (![0, 3] : Fin 2 → Nat) a + S1x1.size a ≤ S2x8.size a
  inb_S2x8_S1x1_0_4 : ∀ a, (![0, 4] : Fin 2 → Nat) a + S1x1.size a ≤ S2x8.size a
  inb_S2x8_S1x1_0_5 : ∀ a, (![0, 5] : Fin 2 → Nat) a + S1x1.size a ≤ S2x8.size a
  inb_S2x8_S1x1_0_6 : ∀ a, (![0, 6] : Fin 2 → Nat) a + S1x1.size a ≤ S2x8.size a
  inb_S2x8_S1x1_0_7 : ∀ a, (![0, 7] : Fin 2 → Nat) a + S1x1.size a ≤ S2x8.size a
  h_S1x1x1x512 : 0 < S1x1x1x512.numel
  shapeCasts_S1x1x1x512_S1x512 : S1x1x1x512.ShapeCasts S1x512
  shapeCasts_S1x512_S1x1x1x512 : S1x512.ShapeCasts S1x1x1x512
  inb_S1024x1024_S512x1024_512_0 : ∀ a, (![512, 0] : Fin 2 → Nat) a + S512x1024.size a ≤ S1024x1024.size a
  packedbf16_S1024x1024_S512x1024_512_0 : (Rect.unit (s := S1024x1024) ![512, 0] S512x1024.size inb_S1024x1024_S512x1024_512_0).PackedRows (EltTy.packing .bf16)
  inb_S2x1x512_S1x1x512_1_0_0 : ∀ a, (![1, 0, 0] : Fin 3 → Nat) a + S1x1x512.size a ≤ S2x1x512.size a
  inb_S2x8_S1x1_1_0 : ∀ a, (![1, 0] : Fin 2 → Nat) a + S1x1.size a ≤ S2x8.size a
  inb_S2x8_S1x1_1_1 : ∀ a, (![1, 1] : Fin 2 → Nat) a + S1x1.size a ≤ S2x8.size a
  inb_S2x8_S1x1_1_2 : ∀ a, (![1, 2] : Fin 2 → Nat) a + S1x1.size a ≤ S2x8.size a
  inb_S2x8_S1x1_1_3 : ∀ a, (![1, 3] : Fin 2 → Nat) a + S1x1.size a ≤ S2x8.size a
  inb_S2x8_S1x1_1_4 : ∀ a, (![1, 4] : Fin 2 → Nat) a + S1x1.size a ≤ S2x8.size a
  inb_S2x8_S1x1_1_5 : ∀ a, (![1, 5] : Fin 2 → Nat) a + S1x1.size a ≤ S2x8.size a
  inb_S2x8_S1x1_1_6 : ∀ a, (![1, 6] : Fin 2 → Nat) a + S1x1.size a ≤ S2x8.size a
  inb_S2x8_S1x1_1_7 : ∀ a, (![1, 7] : Fin 2 → Nat) a + S1x1.size a ≤ S2x8.size a
  inb_S8x2x1x512_S1x1x1x512_0_0_0_0 : ∀ a, (![0, 0, 0, 0] : Fin 4 → Nat) a + S1x1x1x512.size a ≤ S8x2x1x512.size a
  inb_S8x2x1x512_S1x1x1x512_1_0_0_0 : ∀ a, (![1, 0, 0, 0] : Fin 4 → Nat) a + S1x1x1x512.size a ≤ S8x2x1x512.size a
  inb_S8x2x1x512_S1x1x1x512_2_0_0_0 : ∀ a, (![2, 0, 0, 0] : Fin 4 → Nat) a + S1x1x1x512.size a ≤ S8x2x1x512.size a
  inb_S8x2x1x512_S1x1x1x512_3_0_0_0 : ∀ a, (![3, 0, 0, 0] : Fin 4 → Nat) a + S1x1x1x512.size a ≤ S8x2x1x512.size a
  inb_S8x2x1x512_S1x1x1x512_4_0_0_0 : ∀ a, (![4, 0, 0, 0] : Fin 4 → Nat) a + S1x1x1x512.size a ≤ S8x2x1x512.size a
  inb_S8x2x1x512_S1x1x1x512_5_0_0_0 : ∀ a, (![5, 0, 0, 0] : Fin 4 → Nat) a + S1x1x1x512.size a ≤ S8x2x1x512.size a
  inb_S8x2x1x512_S1x1x1x512_6_0_0_0 : ∀ a, (![6, 0, 0, 0] : Fin 4 → Nat) a + S1x1x1x512.size a ≤ S8x2x1x512.size a
  inb_S8x2x1x512_S1x1x1x512_7_0_0_0 : ∀ a, (![7, 0, 0, 0] : Fin 4 → Nat) a + S1x1x1x512.size a ≤ S8x2x1x512.size a
  inb_S8x2x1x512_S8x1x1x512_0_0_0_0 : ∀ a, (![0, 0, 0, 0] : Fin 4 → Nat) a + S8x1x1x512.size a ≤ S8x2x1x512.size a
  h_S8x1x1x512 : 0 < S8x1x1x512.numel
  shapeCasts_S8x1x1x512_S8x512 : S8x1x1x512.ShapeCasts S8x512
  reduces_S8x512_S512 : S8x512.Reduces [0] S512
  shapeCasts_S512_S1x512 : S512.ShapeCasts S1x512
  transposes_S1x512_p1_0_S512x1 : S1x512.Transposes [1, 0] S512x1
  broadcasts_S512x1_S512x1024 : S512x1.Broadcasts S512x1024
  inb_S8x2x1x512_S1x1x1x512_0_1_0_0 : ∀ a, (![0, 1, 0, 0] : Fin 4 → Nat) a + S1x1x1x512.size a ≤ S8x2x1x512.size a
  inb_S8x2x1x512_S1x1x1x512_1_1_0_0 : ∀ a, (![1, 1, 0, 0] : Fin 4 → Nat) a + S1x1x1x512.size a ≤ S8x2x1x512.size a
  inb_S8x2x1x512_S1x1x1x512_2_1_0_0 : ∀ a, (![2, 1, 0, 0] : Fin 4 → Nat) a + S1x1x1x512.size a ≤ S8x2x1x512.size a
  inb_S8x2x1x512_S1x1x1x512_3_1_0_0 : ∀ a, (![3, 1, 0, 0] : Fin 4 → Nat) a + S1x1x1x512.size a ≤ S8x2x1x512.size a
  inb_S8x2x1x512_S1x1x1x512_4_1_0_0 : ∀ a, (![4, 1, 0, 0] : Fin 4 → Nat) a + S1x1x1x512.size a ≤ S8x2x1x512.size a
  inb_S8x2x1x512_S1x1x1x512_5_1_0_0 : ∀ a, (![5, 1, 0, 0] : Fin 4 → Nat) a + S1x1x1x512.size a ≤ S8x2x1x512.size a
  inb_S8x2x1x512_S1x1x1x512_6_1_0_0 : ∀ a, (![6, 1, 0, 0] : Fin 4 → Nat) a + S1x1x1x512.size a ≤ S8x2x1x512.size a
  inb_S8x2x1x512_S1x1x1x512_7_1_0_0 : ∀ a, (![7, 1, 0, 0] : Fin 4 → Nat) a + S1x1x1x512.size a ≤ S8x2x1x512.size a
  inb_S8x2x1x512_S8x1x1x512_0_1_0_0 : ∀ a, (![0, 1, 0, 0] : Fin 4 → Nat) a + S8x1x1x512.size a ≤ S8x2x1x512.size a
  hcc0_scratch2 : 2 + S2x8.numel ≤ 34
  hcc0_scratch3 : 18 + S2x8.numel ≤ 34
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_off1_inb : ∀ d0 : Dev nD, ∀ (k0_h9 : k0_cond9 d0 = 1#1), ∀ a, (k0_off1 d0) a + S1x1.size a ≤ S2x8.size a
  k0_off2_inb : ∀ d0 : Dev nD, ∀ (k0_h9 : k0_cond9 d0 = 1#1), ∀ a, (k0_off2 d0) a + S1x1x1x512.size a ≤ S8x2x1x512.size a
  k0_dev9_lt : ∀ d0 : Dev nD, ∀ (k0_h9 : k0_cond9 d0 = 1#1), k0_dev9 < nD
  k0_off3_inb : ∀ d0 : Dev nD, ∀ (k0_h10 : k0_cond10 d0 = 1#1), ∀ a, (k0_off3 d0) a + S1x1.size a ≤ S2x8.size a
  k0_off4_inb : ∀ d0 : Dev nD, ∀ (k0_h10 : k0_cond10 d0 = 1#1), ∀ a, (k0_off4 d0) a + S1x1x1x512.size a ≤ S8x2x1x512.size a
  k0_dev10_lt : ∀ d0 : Dev nD, ∀ (k0_h10 : k0_cond10 d0 = 1#1), k0_dev10 < nD
  k0_off5_inb : ∀ d0 : Dev nD, ∀ (k0_h11 : k0_cond11 d0 = 1#1), ∀ a, (k0_off5 d0) a + S1x1.size a ≤ S2x8.size a
  k0_off6_inb : ∀ d0 : Dev nD, ∀ (k0_h11 : k0_cond11 d0 = 1#1), ∀ a, (k0_off6 d0) a + S1x1x1x512.size a ≤ S8x2x1x512.size a
  k0_dev11_lt : ∀ d0 : Dev nD, ∀ (k0_h11 : k0_cond11 d0 = 1#1), k0_dev11 < nD
  k0_off7_inb : ∀ d0 : Dev nD, ∀ (k0_h12 : k0_cond12 d0 = 1#1), ∀ a, (k0_off7 d0) a + S1x1.size a ≤ S2x8.size a
  k0_off8_inb : ∀ d0 : Dev nD, ∀ (k0_h12 : k0_cond12 d0 = 1#1), ∀ a, (k0_off8 d0) a + S1x1x1x512.size a ≤ S8x2x1x512.size a
  k0_dev12_lt : ∀ d0 : Dev nD, ∀ (k0_h12 : k0_cond12 d0 = 1#1), k0_dev12 < nD
  k0_off9_inb : ∀ d0 : Dev nD, ∀ (k0_h13 : k0_cond13 d0 = 1#1), ∀ a, (k0_off9 d0) a + S1x1.size a ≤ S2x8.size a
  k0_off10_inb : ∀ d0 : Dev nD, ∀ (k0_h13 : k0_cond13 d0 = 1#1), ∀ a, (k0_off10 d0) a + S1x1x1x512.size a ≤ S8x2x1x512.size a
  k0_dev13_lt : ∀ d0 : Dev nD, ∀ (k0_h13 : k0_cond13 d0 = 1#1), k0_dev13 < nD
  k0_off11_inb : ∀ d0 : Dev nD, ∀ (k0_h14 : k0_cond14 d0 = 1#1), ∀ a, (k0_off11 d0) a + S1x1.size a ≤ S2x8.size a
  k0_off12_inb : ∀ d0 : Dev nD, ∀ (k0_h14 : k0_cond14 d0 = 1#1), ∀ a, (k0_off12 d0) a + S1x1x1x512.size a ≤ S8x2x1x512.size a
  k0_dev14_lt : ∀ d0 : Dev nD, ∀ (k0_h14 : k0_cond14 d0 = 1#1), k0_dev14 < nD
  k0_off13_inb : ∀ d0 : Dev nD, ∀ (k0_h15 : k0_cond15 d0 = 1#1), ∀ a, (k0_off13 d0) a + S1x1.size a ≤ S2x8.size a
  k0_off14_inb : ∀ d0 : Dev nD, ∀ (k0_h15 : k0_cond15 d0 = 1#1), ∀ a, (k0_off14 d0) a + S1x1x1x512.size a ≤ S8x2x1x512.size a
  k0_dev15_lt : ∀ d0 : Dev nD, ∀ (k0_h15 : k0_cond15 d0 = 1#1), k0_dev15 < nD
  k0_off15_inb : ∀ d0 : Dev nD, ∀ (k0_h16 : k0_cond16 d0 = 1#1), ∀ a, (k0_off15 d0) a + S1x1.size a ≤ S2x8.size a
  k0_off16_inb : ∀ d0 : Dev nD, ∀ (k0_h16 : k0_cond16 d0 = 1#1), ∀ a, (k0_off16 d0) a + S1x1x1x512.size a ≤ S8x2x1x512.size a
  k0_dev16_lt : ∀ d0 : Dev nD, ∀ (k0_h16 : k0_cond16 d0 = 1#1), k0_dev16 < nD
  k0_off17_inb : ∀ d0 : Dev nD, ∀ a, (k0_off17 d0) a + S1x1x1x512.size a ≤ S8x2x1x512.size a
  k0_off18_inb : ∀ d0 : Dev nD, ∀ (k0_h17 : k0_cond17 d0 = 1#1), ∀ a, (k0_off18 d0) a + S1x1.size a ≤ S2x8.size a
  k0_off19_inb : ∀ d0 : Dev nD, ∀ (k0_h17 : k0_cond17 d0 = 1#1), ∀ a, (k0_off19 d0) a + S1x1x1x512.size a ≤ S8x2x1x512.size a
  k0_dev17_lt : ∀ d0 : Dev nD, ∀ (k0_h17 : k0_cond17 d0 = 1#1), k0_dev17 < nD
  k0_off20_inb : ∀ d0 : Dev nD, ∀ (k0_h18 : k0_cond18 d0 = 1#1), ∀ a, (k0_off20 d0) a + S1x1.size a ≤ S2x8.size a
  k0_off21_inb : ∀ d0 : Dev nD, ∀ (k0_h18 : k0_cond18 d0 = 1#1), ∀ a, (k0_off21 d0) a + S1x1x1x512.size a ≤ S8x2x1x512.size a
  k0_dev18_lt : ∀ d0 : Dev nD, ∀ (k0_h18 : k0_cond18 d0 = 1#1), k0_dev18 < nD
  k0_off22_inb : ∀ d0 : Dev nD, ∀ (k0_h19 : k0_cond19 d0 = 1#1), ∀ a, (k0_off22 d0) a + S1x1.size a ≤ S2x8.size a
  k0_off23_inb : ∀ d0 : Dev nD, ∀ (k0_h19 : k0_cond19 d0 = 1#1), ∀ a, (k0_off23 d0) a + S1x1x1x512.size a ≤ S8x2x1x512.size a
  k0_dev19_lt : ∀ d0 : Dev nD, ∀ (k0_h19 : k0_cond19 d0 = 1#1), k0_dev19 < nD
  k0_off24_inb : ∀ d0 : Dev nD, ∀ (k0_h20 : k0_cond20 d0 = 1#1), ∀ a, (k0_off24 d0) a + S1x1.size a ≤ S2x8.size a
  k0_off25_inb : ∀ d0 : Dev nD, ∀ (k0_h20 : k0_cond20 d0 = 1#1), ∀ a, (k0_off25 d0) a + S1x1x1x512.size a ≤ S8x2x1x512.size a
  k0_dev20_lt : ∀ d0 : Dev nD, ∀ (k0_h20 : k0_cond20 d0 = 1#1), k0_dev20 < nD
  k0_off26_inb : ∀ d0 : Dev nD, ∀ (k0_h21 : k0_cond21 d0 = 1#1), ∀ a, (k0_off26 d0) a + S1x1.size a ≤ S2x8.size a
  k0_off27_inb : ∀ d0 : Dev nD, ∀ (k0_h21 : k0_cond21 d0 = 1#1), ∀ a, (k0_off27 d0) a + S1x1x1x512.size a ≤ S8x2x1x512.size a
  k0_dev21_lt : ∀ d0 : Dev nD, ∀ (k0_h21 : k0_cond21 d0 = 1#1), k0_dev21 < nD
  k0_off28_inb : ∀ d0 : Dev nD, ∀ (k0_h22 : k0_cond22 d0 = 1#1), ∀ a, (k0_off28 d0) a + S1x1.size a ≤ S2x8.size a
  k0_off29_inb : ∀ d0 : Dev nD, ∀ (k0_h22 : k0_cond22 d0 = 1#1), ∀ a, (k0_off29 d0) a + S1x1x1x512.size a ≤ S8x2x1x512.size a
  k0_dev22_lt : ∀ d0 : Dev nD, ∀ (k0_h22 : k0_cond22 d0 = 1#1), k0_dev22 < nD
  k0_off30_inb : ∀ d0 : Dev nD, ∀ (k0_h23 : k0_cond23 d0 = 1#1), ∀ a, (k0_off30 d0) a + S1x1.size a ≤ S2x8.size a
  k0_off31_inb : ∀ d0 : Dev nD, ∀ (k0_h23 : k0_cond23 d0 = 1#1), ∀ a, (k0_off31 d0) a + S1x1x1x512.size a ≤ S8x2x1x512.size a
  k0_dev23_lt : ∀ d0 : Dev nD, ∀ (k0_h23 : k0_cond23 d0 = 1#1), k0_dev23 < nD
  k0_off32_inb : ∀ d0 : Dev nD, ∀ (k0_h24 : k0_cond24 d0 = 1#1), ∀ a, (k0_off32 d0) a + S1x1.size a ≤ S2x8.size a
  k0_off33_inb : ∀ d0 : Dev nD, ∀ (k0_h24 : k0_cond24 d0 = 1#1), ∀ a, (k0_off33 d0) a + S1x1x1x512.size a ≤ S8x2x1x512.size a
  k0_dev24_lt : ∀ d0 : Dev nD, ∀ (k0_h24 : k0_cond24 d0 = 1#1), k0_dev24 < nD
  k0_off34_inb : ∀ d0 : Dev nD, ∀ a, (k0_off34 d0) a + S1x1x1x512.size a ≤ S8x2x1x512.size a
  k0_off35_inb : ∀ d0 : Dev nD, ∀ (k0_h41 : k0_cond41 d0 = 1#1), ∀ a, (k0_off35 d0) a + S1x1x1x512.size a ≤ S8x2x1x512.size a
  k0_off36_inb : ∀ d0 : Dev nD, ∀ (k0_h42 : k0_cond42 d0 = 1#1), ∀ a, (k0_off36 d0) a + S1x1x1x512.size a ≤ S8x2x1x512.size a
  k0_off37_inb : ∀ d0 : Dev nD, ∀ (k0_h43 : k0_cond43 d0 = 1#1), ∀ a, (k0_off37 d0) a + S1x1x1x512.size a ≤ S8x2x1x512.size a
  k0_off38_inb : ∀ d0 : Dev nD, ∀ (k0_h44 : k0_cond44 d0 = 1#1), ∀ a, (k0_off38 d0) a + S1x1x1x512.size a ≤ S8x2x1x512.size a
  k0_off39_inb : ∀ d0 : Dev nD, ∀ (k0_h45 : k0_cond45 d0 = 1#1), ∀ a, (k0_off39 d0) a + S1x1x1x512.size a ≤ S8x2x1x512.size a
  k0_off40_inb : ∀ d0 : Dev nD, ∀ (k0_h46 : k0_cond46 d0 = 1#1), ∀ a, (k0_off40 d0) a + S1x1x1x512.size a ≤ S8x2x1x512.size a
  k0_off41_inb : ∀ d0 : Dev nD, ∀ (k0_h47 : k0_cond47 d0 = 1#1), ∀ a, (k0_off41 d0) a + S1x1x1x512.size a ≤ S8x2x1x512.size a
  k0_off42_inb : ∀ d0 : Dev nD, ∀ (k0_h48 : k0_cond48 d0 = 1#1), ∀ a, (k0_off42 d0) a + S1x1x1x512.size a ≤ S8x2x1x512.size a
  k0_off43_inb : ∀ d0 : Dev nD, ∀ (k0_h49 : k0_cond49 d0 = 1#1), ∀ a, (k0_off43 d0) a + S1x1x1x512.size a ≤ S8x2x1x512.size a
  k0_off44_inb : ∀ d0 : Dev nD, ∀ (k0_h50 : k0_cond50 d0 = 1#1), ∀ a, (k0_off44 d0) a + S1x1x1x512.size a ≤ S8x2x1x512.size a
  k0_off45_inb : ∀ d0 : Dev nD, ∀ (k0_h51 : k0_cond51 d0 = 1#1), ∀ a, (k0_off45 d0) a + S1x1x1x512.size a ≤ S8x2x1x512.size a
  k0_off46_inb : ∀ d0 : Dev nD, ∀ (k0_h52 : k0_cond52 d0 = 1#1), ∀ a, (k0_off46 d0) a + S1x1x1x512.size a ≤ S8x2x1x512.size a
  k0_off47_inb : ∀ d0 : Dev nD, ∀ (k0_h53 : k0_cond53 d0 = 1#1), ∀ a, (k0_off47 d0) a + S1x1x1x512.size a ≤ S8x2x1x512.size a
  k0_off48_inb : ∀ d0 : Dev nD, ∀ (k0_h54 : k0_cond54 d0 = 1#1), ∀ a, (k0_off48 d0) a + S1x1x1x512.size a ≤ S8x2x1x512.size a
  k0_off49_inb : ∀ d0 : Dev nD, ∀ (k0_h55 : k0_cond55 d0 = 1#1), ∀ a, (k0_off49 d0) a + S1x1x1x512.size a ≤ S8x2x1x512.size a
  k0_off50_inb : ∀ d0 : Dev nD, ∀ (k0_h56 : k0_cond56 d0 = 1#1), ∀ a, (k0_off50 d0) a + S1x1x1x512.size a ≤ S8x2x1x512.size a
  hstage0_0 : ∀ j, (stage0_0 j).IsWhole
  hstage0_1 : ∀ j, (stage0_1 j).IsWhole

variable [Facts₀]

abbrev cc0_scratch2 : DmaSems sig S2x8 := SemArray.consecutive 2 S2x8 hcc0_scratch2
abbrev cc0_scratch3 : DmaSems sig S2x8 := SemArray.consecutive 18 S2x8 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S1024x8192 : Shape := ⟨2, ![1024, 8192]⟩
abbrev S_ : Shape := ⟨0, ![]⟩
abbrev S1024 : Shape := ⟨1, ![1024]⟩
abbrev S1024x1 : Shape := ⟨2, ![1024, 1]⟩

abbrev nBuf : Space → Nat
  | .hbm => 13
  | .vmem => 0
  | .smem => 0
  | _ => 0

abbrev bufTy : (tb : Table) → Fin (tcTables nBuf tb) → BufTy
  | .hbm, ⟨0, _⟩ => ⟨S1024x8192, .f32⟩
  | .hbm, ⟨1, _⟩ => ⟨S_, .f32⟩
  | .hbm, ⟨2, _⟩ => ⟨S1024, .f32⟩
  | .hbm, ⟨3, _⟩ => ⟨S1024x1, .f32⟩
  | .hbm, ⟨4, _⟩ => ⟨S1024x8192, .f32⟩
  | .hbm, ⟨5, _⟩ => ⟨S1024x8192, .f32⟩
  | .hbm, ⟨6, _⟩ => ⟨S1024x8192, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x8192, .f32⟩
  | .hbm, ⟨11, _⟩ => ⟨S1024x8192, .f32⟩
  | .hbm, ⟨12, _⟩ => ⟨S1024x8192, .bf16⟩
  | _, _ => ⟨S1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]

class Facts₀ : Prop where
  reducesTo_S1024x8192_S1024_d1 : S1024x8192.ReducesTo [1] S1024
  h_S_ : 0 < S_.numel
  bcast_S1024_S1024x1_0 : S1024.BroadcastsInDim S1024x1 (![0] : Fin 1 → Fin S1024x1.rank)
  bcast_S1024x1_S1024x8192_0_1 : S1024x1.BroadcastsInDim S1024x8192 (![0, 1] : Fin 2 → Fin S1024x8192.rank)
  bitsLt_bf16_f32 : FTy.bits .bf16 < FTy.bits .f32

variable [Facts₀]

class Facts : Prop extends Facts₀ where

variable [Facts]
-- ==== Proof.Out.lean ====
/-
  What every device's buffers hold, as pure functions of the devices' input blocks, written through
  the kernel's own payload terms and generic in the float instance.

  A device's input block is a 1024 x 1024 array; the body treats it as two halves of 512 rows. Of each
  half it forms e = exp (x - 16) and the row sums s of e (a 1 x 1 x 512 vector). Every device ends with
  the row sums of ALL eight devices side by side (an 8 x 2 x 1 x 512 table), adds the eight rows of a
  half, and multiplies its own e by the reciprocal of that total.
-/
import proofs.«901053_g7700000000001054_dist_softmax_colshard_i_m1024_n1024_v7x_i8_bf16_1_alg».proof.Proof.Gen.KernelIdeal.Skeleton
import Idealize.ShloMosaic.Lib.ValueIdx

noncomputable section

namespace Cert.KernelIdeal.Sm

open Cert.KernelIdeal Cert.KernelIdeal.Gen
open Idealize.ShloMosaic Idealize.SL.Sem
open Idealize.ShloMosaic.ValueIdx (ix2 ix3)

variable {F : FTy → Type} [FloatOps F]

/-- A device's input block, and the tables of row sums. -/
abbrev XBlk (F : FTy → Type) : Type := (cc0_stg0_0 : Ref sig .tc).ty.Contents (Elt F)
abbrev OBlk (F : FTy → Type) : Type := (cc0_stg1_0 : Ref sig .tc).ty.Contents (Elt F)
abbrev MineBuf (F : FTy → Type) : Type := (cc0_scratch0 : Ref sig .tc).ty.Contents (Elt F)
abbrev CommBuf (F : FTy → Type) : Type := (cc0_scratch1 : Ref sig .tc).ty.Contents (Elt F)

/-- The two half rectangles of the 1024 x 1024 blocks. -/
abbrev rTop : Rect S1024x1024 := Rect.unit (s := S1024x1024) ![0, 0] S512x1024.size inb_S1024x1024_S512x1024_0_0
abbrev rBot : Rect S1024x1024 := Rect.unit (s := S1024x1024) ![512, 0] S512x1024.size inb_S1024x1024_S512x1024_512_0

/-- The rows 0..511 and 512..1023 of an input block, as the body loads them. -/
def xTop (X : XBlk F) : Vec F S512x1024 .f32 :=
  (Memref.whole cc0_stg0_0 : Memref sig .tc .vmem S1024x1024 .f32).view.readAt (Elt F) rTop.toLoadRect X
def xBot (X : XBlk F) : Vec F S512x1024 .f32 :=
  (Memref.whole cc0_stg0_0 : Memref sig .tc .vmem S1024x1024 .f32).view.readAt (Elt F) rBot.toLoadRect X

/-- The shift 16. -/
def c16 : F .f32 := Scalar.ofBits .f32 0x41800000#32

/-- exp (x - 16) of a half, narrowed as the body stores it. -/
def eTop (X : XBlk F) : FVec F S512x1024 .bf16 := k0_pay3 (k0_pay1 (xTop X)) c16
def eBot (X : XBlk F) : FVec F S512x1024 .bf16 := k0_pay7 (xBot X)

/-- The row sums of exp (x - 16) of a half, as a 1 x 1 x 512 vector. -/
def sTop (X : XBlk F) : FVec F S1x1x512 .f32 := k0_pay4 (k0_pay1 (xTop X)) c16
def sBot (X : XBlk F) : FVec F S1x1x512 .f32 := k0_pay8 (xBot X)

/-- A device's table of its own row sums: row 0 the top half's, row 1 the bottom half's. -/
def mineOf (X : XBlk F) : MineBuf F := fun i =>
  if (i 0).val = 0 then sTop X (ix3 (0 : Fin 1) (0 : Fin 1) (i 2)) else sBot X (ix3 (0 : Fin 1) (0 : Fin 1) (i 2))

/-- The table every device ends with: at [q, b, 0, j] device q's row sum j of half b. -/
def commOf (Xs : Dev nD → XBlk F) : CommBuf F := fun i => mineOf (Xs (i 0)) (ix3 (i 1) (0 : Fin 1) (i 3))

/-- The eight devices' row sums of a half, as the body loads them. -/
def commTop (Xs : Dev nD → XBlk F) : Vec F S8x1x1x512 .f32 :=
  (Memref.whole cc0_scratch1 : Memref sig .tc .vmem S8x2x1x512 .f32).view.readAt (Elt F)
    (Rect.unit (s := S8x2x1x512) ![0, 0, 0, 0] S8x1x1x512.size inb_S8x2x1x512_S8x1x1x512_0_0_0_0).toLoadRect (commOf Xs)
def commBot (Xs : Dev nD → XBlk F) : Vec F S8x1x1x512 .f32 :=
  (Memref.whole cc0_scratch1 : Memref sig .tc .vmem S8x2x1x512 .f32).view.readAt (Elt F)
    (Rect.unit (s := S8x2x1x512) ![0, 1, 0, 0] S8x1x1x512.size inb_S8x2x1x512_S8x1x1x512_0_1_0_0).toLoadRect (commOf Xs)

/-- The two halves of device c's result. -/
def oTop (Xs : Dev nD → XBlk F) (c : Dev nD) : FVec F S512x1024 .bf16 := k0_pay10 (commTop Xs) (eTop (Xs c))
def oBot (Xs : Dev nD → XBlk F) (c : Dev nD) : FVec F S512x1024 .bf16 :=
  k0_pay13 (k0_pay11 (commBot Xs)) (k0_pay12 (F := F)) (eBot (Xs c))

/-- Device c's result block: the top half over the bottom half. -/
def outOf (Xs : Dev nD → XBlk F) (c : Dev nD) : OBlk F := fun i =>
  if h : (i 0).val < 512 then oTop Xs c (ix2 (⟨(i 0).val, h⟩ : Fin 512) (i 1))
  else oBot Xs c (ix2 (⟨(i 0).val - 512, by have : (i 0).val < 1024 := (i 0).isLt; omega⟩ : Fin 512) (i 1))

end Cert.KernelIdeal.Sm

end
-- ==== Proof.Core.lean ====
/-
  The cross-device protocol of the column-sharded softmax, for the rounds discipline.

  Every device c owns 33 cells: its barrier cell (round 0: one unit from each other device), and for each
  half b and each other device p a send cell (its copy of its row sums of half b to p leaving) and a receive cell
  (p's row sums of half b landing). A device's unit on a peer's barrier cell hands that peer the two slots of the
  device's table that are reserved for the peer's row sums; a landing hands the owner the slot filled; a departure hands
  back the share of the source it read.
-/
import proofs.«901053_g7700000000001054_dist_softmax_colshard_i_m1024_n1024_v7x_i8_bf16_1_alg».proof.Proof.Out
import proofs.«901053_g7700000000001054_dist_softmax_colshard_i_m1024_n1024_v7x_i8_bf16_1_alg».proof.Proof.Gen.KernelIdeal.Launch
import proofs.«901053_g7700000000001054_dist_softmax_colshard_i_m1024_n1024_v7x_i8_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Memrefs, slots and cells -/

abbrev xM : Memref sig .tc .vmem S1024x1024 .f32 := Memref.whole cc0_stg0_0
abbrev oM : Memref sig .tc .vmem S1024x1024 .bf16 := Memref.whole cc0_stg1_0
abbrev mM : Memref sig .tc .vmem S2x1x512 .f32 := Memref.whole cc0_scratch0
abbrev cM : Memref sig .tc .vmem S8x2x1x512 .f32 := Memref.whole cc0_scratch1

theorem mine_inb (b : Fin 2) : ∀ a, (![b.val, 0, 0] : Fin 3 → Nat) a + S1x1x512.size a ≤ S2x1x512.size a := by
  revert b; decide
theorem comm_inb (q : Dev nD) (b : Fin 2) : ∀ a, (![q.val, b.val, 0, 0] : Fin 4 → Nat) a + S1x1x1x512.size a ≤ S8x2x1x512.size a := by
  revert q b; decide
theorem sem_inb (b : Fin 2) (p : Dev nD) : ∀ a, (![b.val, p.val] : Fin 2 → Nat) a + S1x1.size a ≤ S2x8.size a := by
  revert b p; decide

/-- Row b of a device's own table of row sums, and slot [q, b] of its table of everybody's, as 1 x 512 memrefs. -/
abbrev mineSl (b : Fin 2) : Memref sig .tc .vmem S1x512 .f32 :=
  ((mM.slice (Rect.unit (s := S2x1x512) ![b.val, 0, 0] S1x1x512.size (mine_inb b)) (fun _ => rfl)).squeeze S1x512 squeezes_S1x1x512_S1x512)
abbrev commSl (q : Dev nD) (b : Fin 2) : Memref sig .tc .vmem S1x512 .f32 :=
  ((cM.slice (Rect.unit (s := S8x2x1x512) ![q.val, b.val, 0, 0] S1x1x1x512.size (comm_inb q b)) (fun _ => rfl)).squeeze S1x512 squeezes_S1x1x1x512_S1x512)

abbrev barS : Sem sig := (SemArray.scalar (sig.barrier 0 rfl) : Sems sig S_).sem
abbrev sendS (b : Fin 2) (p : Dev nD) : DmaSem sig :=
  ((cc0_scratch2.slice (Rect.unit (s := S2x8) ![b.val, p.val] S1x1.size (sem_inb b p))).squeeze S_ squeezes_S1x1_S_).sem
abbrev recvS (b : Fin 2) (q : Dev nD) : DmaSem sig :=
  ((cc0_scratch3.slice (Rect.unit (s := S2x8) ![b.val, q.val] S1x1.size (sem_inb b q))).squeeze S_ squeezes_S1x1_S_).sem

theorem sendS_val (b : Fin 2) (p : Dev nD) : (sendS b p).val = 2 + 8 * b.val + p.val := by revert b p; decide
theorem recvS_val (b : Fin 2) (q : Dev nD) : (recvS b q).val = 18 + 8 * b.val + q.val := by revert b q; decide

abbrev barCell (c : Dev nD) : GSem nD τ sig := ((c : Thread nD τ), .reg barS)
abbrev sendCell (c : Dev nD) (b : Fin 2) (p : Dev nD) : GSem nD τ sig := ((c : Thread nD τ), .dma (sendS b p))
abbrev recvCell (c : Dev nD) (b : Fin 2) (q : Dev nD) : GSem nD τ sig := ((c : Thread nD τ), .dma (recvS b q))

/-- The credit of one 1 x 512 copy. -/
abbrev Ncr : ℕ := (commSl 0 0 : Memref sig .tc .vmem S1x512 .f32).view.dmaCredit
theorem Ncr_pos : 0 < Ncr := View.dmaCredit_pos _ (by decide)

/-! ## Contents -/

/-- Device c's input block as launched. -/
def xOf (c : Dev nD) : XBlk F := m ((c : Thread nD τ).loc main_arg0)
/-- All devices' input blocks. -/
abbrev Xs : Dev nD → XBlk F := fun q => xOf m q

/-- Slot [q, b] of device c's table, at contents f (a whole-table function, read on the slot only). -/
def slotPts (c q : Dev nD) (b : Fin 2) (f : CommBuf F) : sProp 𝕄 :=
  (commSl q b).view.loc (c : Thread nD τ) ↦[(commSl q b).view.set]{fullShare} f
/-- Row b of device c's own row sums, a share of it. -/
def minePts (c : Dev nD) (b : Fin 2) (q : PosShare TreeShare) (f : MineBuf F) : sProp 𝕄 :=
  (mineSl b).view.loc (c : Thread nD τ) ↦[(mineSl b).view.set]{q} f

/-- The eight shares a row of the own table is read under: seven copies in flight and the device's own load. -/
def shr (p : Dev nD) : PosShare TreeShare :=
  match p with
  | ⟨0, _⟩ => fullShare.left.left.left | ⟨1, _⟩ => fullShare.left.left.right
  | ⟨2, _⟩ => fullShare.left.right.left | ⟨3, _⟩ => fullShare.left.right.right
  | ⟨4, _⟩ => fullShare.right.left.left | ⟨5, _⟩ => fullShare.right.left.right
  | ⟨6, _⟩ => fullShare.right.right.left | ⟨_, _⟩ => fullShare.right.right.right

/-! ## The schedule -/

/-- Which peer a DMA semaphore of the two arrays is about, and which half. -/
def pOf (s : DmaSem sig) : Dev nD := ⟨(s.val + 6) % 8, Nat.mod_lt _ (by decide)⟩
def bOf (s : DmaSem sig) : Fin 2 := ⟨((s.val + 6) / 8 + 1) % 2, Nat.mod_lt _ (by decide)⟩

theorem pOf_send (b : Fin 2) (p : Dev nD) : pOf (sendS b p) = p := by revert b p; decide
theorem pOf_recv (b : Fin 2) (p : Dev nD) : pOf (recvS b p) = p := by revert b p; decide
theorem bOf_send (b : Fin 2) (p : Dev nD) : bOf (sendS b p) = b := by revert b p; decide
theorem bOf_recv (b : Fin 2) (p : Dev nD) : bOf (recvS b p) = b := by revert b p; decide

/-- What device d's unit on device c's barrier cell hands c: the two slots of d's table reserved for c's row sums. -/
def barPay (c d : Dev nD) : sProp 𝕄 :=
  iprop((∃ f, slotPts d c 0 f) ∗ (∃ f, slotPts d c 1 f))
/-- What q's copy landing hands c: slot [q, b] holding q's row sums of half b. -/
def recvPay (c : Dev nD) (b : Fin 2) (q : Dev nD) : sProp 𝕄 := slotPts c q b (commOf (Xs m))
/-- What the departure of c's copy to p hands c back: the share of row b it was read under. -/
def sendPay (c : Dev nD) (b : Fin 2) (p : Dev nD) : sProp 𝕄 := minePts c b (shr p) (mineOf (xOf m c))

def sched : Rounds.Schedule (GSem nD τ sig) (Dev nD) 𝕄 where
  duties g r :=
    if r = 0 ∧ g.1.2 = .tc then
      match g.2 with
      | .reg _ => Finset.univ.erase g.1.1
      | .dma s => if 2 ≤ s.val ∧ pOf s ≠ g.1.1 then {pOf s} else ∅
    else ∅
  unitless _ := False
  amount g _ _ := match g.2 with | .reg _ => 1 | .dma _ => Ncr
  payload g _ d :=
    match g.2 with
    | .reg _ => barPay g.1.1 d
    | .dma s => if s.val < 2 then iprop(emp) else if s.val < 18 then sendPay m g.1.1 (bOf s) (pOf s) else recvPay m g.1.1 (bOf s) (pOf s)
  amount_pos g _ _ _ := by
    cases g.2 with
    | reg _ => exact Nat.one_pos
    | dma _ => exact Ncr_pos

instance sched_payload_storable (g : GSem nD τ sig) (r : ℕ) (d : Dev nD) :
    BI.Storable (upEmb : UEmb _ 𝕄) ((sched (F := F) m).payload g r d) := by
  obtain ⟨t, sl⟩ := g
  cases sl with
  | reg s => show BI.Storable upEmb (barPay t.1 d); unfold barPay slotPts; infer_instance
  | dma s =>
    show BI.Storable upEmb (if s.val < 2 then iprop(emp) else if s.val < 18 then sendPay m t.1 (bOf s) (pOf s) else recvPay m t.1 (bOf s) (pOf s))
    unfold sendPay recvPay slotPts minePts
    (repeat' split) <;> infer_instance

section Sched
variable (c : Dev nD)

theorem duties_bar : (sched (F := F) m).duties (barCell c) 0 = Finset.univ.erase c := by
  dsimp only [sched]; exact if_pos ⟨rfl, rfl⟩
theorem duties_send (b : Fin 2) (p : Dev nD) (h : p ≠ c) : (sched (F := F) m).duties (sendCell c b p) 0 = {p} := by
  dsimp only [sched]; rw [if_pos ⟨rfl, rfl⟩]; show (if 2 ≤ (sendS b p).val ∧ pOf (sendS b p) ≠ c then {pOf (sendS b p)} else ∅) = _
  rw [pOf_send, if_pos ⟨by rw [sendS_val]; omega, h⟩]
theorem duties_recv (b : Fin 2) (q : Dev nD) (h : q ≠ c) : (sched (F := F) m).duties (recvCell c b q) 0 = {q} := by
  dsimp only [sched]; rw [if_pos ⟨rfl, rfl⟩]; show (if 2 ≤ (recvS b q).val ∧ pOf (recvS b q) ≠ c then {pOf (recvS b q)} else ∅) = _
  rw [pOf_recv, if_pos ⟨by rw [recvS_val]; omega, h⟩]
theorem duties_later (g : GSem nD τ sig) : ∀ r, 1 ≤ r → (sched (F := F) m).duties g r = ∅ :=
  fun r hr => by dsimp only [sched]; rw [if_neg fun h => by omega]

theorem amount_bar (d : Dev nD) : (sched (F := F) m).amount (barCell c) 0 d = 1 := rfl
theorem amount_send (b : Fin 2) (p d : Dev nD) : (sched (F := F) m).amount (sendCell c b p) 0 d = Ncr := rfl
theorem amount_recv (b : Fin 2) (q d : Dev nD) : (sched (F := F) m).amount (recvCell c b q) 0 d = Ncr := rfl

theorem expect_bar : (sched (F := F) m).expect (barCell c) 0 = 7 := by
  unfold Schedule.expect Schedule.amountOf
  rw [duties_bar, Finset.sum_congr rfl fun d _ => amount_bar m c d, Finset.sum_const, Finset.card_erase_of_mem (Finset.mem_univ _), Finset.card_univ]
  rfl
theorem expect_send (b : Fin 2) (p : Dev nD) (h : p ≠ c) : (sched (F := F) m).expect (sendCell c b p) 0 = Ncr := by
  unfold Schedule.expect Schedule.amountOf; rw [duties_send m c b p h, Finset.sum_singleton, amount_send]
theorem expect_recv (b : Fin 2) (q : Dev nD) (h : q ≠ c) : (sched (F := F) m).expect (recvCell c b q) 0 = Ncr := by
  unfold Schedule.expect Schedule.amountOf; rw [duties_recv m c b q h, Finset.sum_singleton, amount_recv]

theorem payload_bar (d : Dev nD) : (sched (F := F) m).payload (barCell c) 0 d = barPay c d := rfl
theorem payload_send (b : Fin 2) (p d : Dev nD) : (sched (F := F) m).payload (sendCell c b p) 0 d = sendPay m c b p := by
  dsimp only [sched]
  show (if (sendS b p).val < 2 then iprop(emp) else if (sendS b p).val < 18 then sendPay m c (bOf (sendS b p)) (pOf (sendS b p)) else recvPay m c (bOf (sendS b p)) (pOf (sendS b p))) = _
  rw [if_neg (by rw [sendS_val]; omega), if_pos (by rw [sendS_val]; have := b.isLt; have : p.val < 8 := p.isLt; omega), bOf_send, pOf_send]
theorem payload_recv (b : Fin 2) (q d : Dev nD) : (sched (F := F) m).payload (recvCell c b q) 0 d = recvPay m c b q := by
  dsimp only [sched]
  show (if (recvS b q).val < 2 then iprop(emp) else if (recvS b q).val < 18 then sendPay m c (bOf (recvS b q)) (pOf (recvS b q)) else recvPay m c (bOf (recvS b q)) (pOf (recvS b q))) = _
  rw [if_neg (by rw [recvS_val]; omega), if_neg (by rw [recvS_val]; omega), bOf_recv, pOf_recv]

/-- The payload tables with the points-to spelt out. -/
theorem payload_bar' (d : Dev nD) : (sched (F := F) m).payload (barCell c) 0 d
    = iprop((∃ f : CommBuf F, (commSl c 0).view.loc (d : Thread nD τ) ↦[(commSl c 0).view.set]{fullShare} f)
        ∗ (∃ f : CommBuf F, (commSl c 1).view.loc (d : Thread nD τ) ↦[(commSl c 1).view.set]{fullShare} f)) := rfl
theorem payload_send' (b : Fin 2) (p d : Dev nD) : (sched (F := F) m).payload (sendCell c b p) 0 d
    = ((mineSl b).view.loc (c : Thread nD τ) ↦[(mineSl b).view.set]{shr p} mineOf (xOf m c) : sProp 𝕄) := payload_send m c b p d
theorem payload_recv' (b : Fin 2) (q d : Dev nD) : (sched (F := F) m).payload (recvCell c b q) 0 d
    = ((commSl q b).view.loc (c : Thread nD τ) ↦[(commSl q b).view.set]{fullShare} commOf (Xs m) : sProp 𝕄) := payload_recv m c b q d

end Sched

end Cert.KernelIdeal.Sm

end
-- ==== Proof.Ghost.lean ====
/-
  What a device's kernel body starts from and ends with, and the pipeline's proof data: the interface between the
  body's proof and the launch.
-/
import proofs.«901053_g7700000000001054_dist_softmax_colshard_i_m1024_n1024_v7x_i8_bf16_1_alg».proof.Proof.Core

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The 33 cells of a device, numbered: 0 the barrier, 1 + 8 b + p the send cell (b, p), 17 + 8 b + q the receive cell (b, q) -/

def csem (k : Fin 33) : SemLoc sig := if k.val = 0 then .reg barS else .dma ⟨k.val + 1, by show k.val + 1 < 34; have := k.isLt; omega⟩
abbrev kcell (ck : Dev nD × Fin 33) : GSem nD τ sig := ((ck.1 : Thread nD τ), csem ck.2)
def kSend (b : Fin 2) (p : Dev nD) : Fin 33 := ⟨1 + 8 * b.val + p.val, by have := b.isLt; have : p.val < 8 := p.isLt; omega⟩
def kRecv (b : Fin 2) (q : Dev nD) : Fin 33 := ⟨17 + 8 * b.val + q.val, by have := b.isLt; have : q.val < 8 := q.isLt; omega⟩
theorem csem_zero : csem 0 = .reg barS := rfl
theorem csem_send (b : Fin 2) (p : Dev nD) : csem (kSend b p) = .dma (sendS b p) := by revert b p; decide
theorem csem_recv (b : Fin 2) (q : Dev nD) : csem (kRecv b q) = .dma (recvS b q) := by revert b q; decide
/-- The kernel's own (scoped) semaphores, as the launch indexes them: the 32 of the two arrays. -/
abbrev osem : Fin 32 → SemLoc sig := fun i => .dma ⟨i.val + 2, by show i.val + 2 < 34; have := i.isLt; omega⟩

/-! ## What each device owes at launch; the levels -/

/-- Device c owes every other device p one unit on p's barrier cell and one copy's credit on each of the two receive
    cells of p that c's copies land on. -/
def O₀ (c : Dev nD) : CellTallies nD τ sig Unit :=
  ∑ p ∈ Finset.univ.erase c, (tallyAt (barCell p) () 1 + tallyAt (recvCell p 0 c) () Ncr + tallyAt (recvCell p 1 c) () Ncr)

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma s => if 18 ≤ s.val then 2 else 0

/-! ## The ghost state a device's body starts from -/

/-- Every cell's invariant, under the names the launch allocated them at, and that every cell is at round 0. -/
def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

/-- The tokens of the duties device c pays, for another device p: its unit on p's barrier cell, its two landings on p's
    receive cells, and the two departures of its copies to p (its own send cells). -/
def payToks (c p : Dev nD) : sProp 𝕄 :=
  iprop(dutyTok ER (barCell p) 0 c ∗ dutyTok ER (recvCell p 0 c) 0 c ∗ dutyTok ER (recvCell p 1 c) 0 c
    ∗ dutyTok ER (sendCell c 0 p) 0 p ∗ dutyTok ER (sendCell c 1 p) 0 p)

/-- What stays with device c alone: its positions on its 33 cells, the tokens it pays with. -/
def linear (c : Dev nD) : sProp 𝕄 :=
  iprop((bigSep Finset.univ fun k : Fin 33 => atPos ER (kcell (c, k)) 0 ∅ 0) ∗ bigSep (Finset.univ.erase c) (payToks c))

def ghost (K : Dev nD × Fin 33 → ℕ) (c : Dev nD) : sProp 𝕄 := iprop(records m K ∗ linear c)

/-- The credit tokens device c's waits consume: seven units on its barrier cell, a copy's credit on each receive cell. -/
def creds (c : Dev nD) : sProp 𝕄 :=
  iprop(cred (tallyAt (barCell c) () 7)
    ∗ bigSep (Finset.univ.erase c) fun q => iprop(cred (tallyAt (recvCell c 0 q) () Ncr) ∗ cred (tallyAt (recvCell c 1 q) () Ncr)))

/-- What device c's body starts from, besides its windows and scratch: the ghost state at some names, the credit tokens, the
    level facts. -/
def start (c : Dev nD) : sProp 𝕄 := iprop((∃ K, ghost m K c) ∗ creds c ∗ levAts L lv)

/-- The two scratch tables, each whole at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratches c)
/-- After the body: the scratch tables whole again, the 32 own semaphores at zero, their cells closed. -/
def Φ₁ (c : Dev nD) : sProp 𝕄 := iprop(scratches c ∗ bigSep Finset.univ fun i : Fin 32 => semVal ((c : Thread nD τ), osem i) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Device c's input block as its window stages it. -/
def xstg (c : Dev nD) : XBlk F := (win0_0.blk (0 : Fin 1)).view.read (Elt F) ((s₀ m ρ).mem ((c : Thread nD τ).loc main_arg0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outOf (fun q => xstg m ρ q) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Sm

end
-- ==== Proof.LaunchCells.lean ====
/-
  The launch element of the protocol's copy of the algebra: the cells of every device and the duty tokens minted for
  them, and what funding it deals each device.
-/
import proofs.«901053_g7700000000001054_dist_softmax_colshard_i_m1024_n1024_v7x_i8_bf16_1_alg».proof.Proof.Ghost

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The cells, all devices' -/

theorem csem_injective : Function.Injective csem := by
  intro k k' h
  unfold csem at h
  split at h <;> split at h
  · exact Fin.ext (by omega)
  · cases h
  · cases h
  · have := congrArg (fun s : SemLoc sig => match s with | .reg _ => 0 | .dma s => s.val) h
    exact Fin.ext (by simp only at this; omega)

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

/-! ## The tokens minted: for a device c and another device p, the duty p of c's barrier cell and of its four cells about p -/

/-- Which of c's cells: the barrier, the two receive cells from p, the two send cells to p. -/
def kOf (j : Fin 5) (p : Dev nD) : Fin 33 := match j with
  | 0 => 0 | 1 => kRecv 0 p | 2 => kRecv 1 p | 3 => kSend 0 p | 4 => kSend 1 p

theorem kOf_inj (p : Dev nD) (j j' : Fin 5) : kOf j p = kOf j' p → j = j' := by revert p j j'; decide

abbrev tokOf (x : Dev nD × Dev nD × Fin 5) : GSem nD τ sig × ℕ × Dev nD := (kcell (x.1, kOf x.2.2 x.2.1), 0, x.2.1)

theorem tokOf_injective : Function.Injective tokOf := by
  rintro ⟨c, p, j⟩ ⟨c', p', j'⟩ h
  have hp : p = p' := congrArg (fun x : GSem nD τ sig × ℕ × Dev nD => x.2.2) h
  subst hp
  have hk := kcell_injective (congrArg (fun x : GSem nD τ sig × ℕ × Dev nD => x.1) h)
  have hc : c = c' := congrArg Prod.fst hk
  subst hc
  rw [kOf_inj p j j' (congrArg Prod.snd hk)]

def protoToks : Finset (GSem nD τ sig × ℕ × Dev nD) :=
  (Finset.univ.filter fun x : Dev nD × Dev nD × Fin 5 => x.2.1 ≠ x.1).map ⟨tokOf, tokOf_injective⟩

/-- The launch element: the pipeline's copy and the protocol's. -/
def u₀ : UU :=
  (initOf (Pipeline.cells cfgs cellOf_inj) (Pipeline.launchToks cfgs cellOf_inj), initOf protoCells protoToks)

/-! ## What funding deals each device -/

/-- The tokens of device c's own cells, by the device p that pays them. -/
def mintToks (c p : Dev nD) : sProp 𝕄 :=
  iprop(dutyTok ER (barCell c) 0 p ∗ dutyTok ER (recvCell c 0 p) 0 p ∗ dutyTok ER (recvCell c 1 p) 0 p
    ∗ dutyTok ER (sendCell c 0 p) 0 p ∗ dutyTok ER (sendCell c 1 p) 0 p)

def G (c : Dev nD) : sProp 𝕄 :=
  iprop((bigSep Finset.univ fun k : Fin 33 => roundState ER (sched m) (kcell (c, k)) 0)
    ∗ (bigSep Finset.univ fun k : Fin 33 => iprop(atPos ER (kcell (c, k)) 0 ∅ 0 ∗ reached ER (kcell (c, k)) 0))
    ∗ bigSep (Finset.univ.erase c) (mintToks c))

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem kcell_recv (c : Dev nD) (b : Fin 2) (q : Dev nD) : kcell (c, kRecv b q) = recvCell c b q := by
  show ((c : Thread nD τ), csem (kRecv b q)) = _; rw [csem_recv]
theorem kcell_send (c : Dev nD) (b : Fin 2) (p : Dev nD) : kcell (c, kSend b p) = sendCell c b p := by
  show ((c : Thread nD τ), csem (kSend b p)) = _; rw [csem_send]

theorem protoToks_eq : bigSep protoToks (fun x => (dutyTok ER x.1 x.2.1 x.2.2 : sProp 𝕄))
    = bigSep Finset.univ fun c : Dev nD => bigSep (Finset.univ.erase c) (mintToks c) := by
  unfold protoToks
  rw [bigSep_map, bigSep_filter, bigSep_univ_prod]
  refine bigSep_congr fun c _ => ?_
  rw [bigSep_univ_prod, ← Finset.filter_ne' Finset.univ c, bigSep_filter]
  refine bigSep_congr fun p _ => ?_
  show (bigSep Finset.univ fun j : Fin 5 => if p ≠ c then (dutyTok ER (kcell (c, kOf j p)) 0 p : sProp 𝕄) else iprop(emp))
    = if p ≠ c then mintToks c p else iprop(emp)
  by_cases hp : p ≠ c
  · simp only [if_pos hp]
    rw [bigSep_fin5]
    unfold mintToks
    rw [← kcell_recv, ← kcell_recv, ← kcell_send, ← kcell_send]
    rfl
  · simp only [if_neg hp]
    exact bigSep_emp_const _

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 33 => Φ (kcell (c, k)) := by
    unfold protoCells; rw [bigSep_map, bigSep_univ_prod]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq (protoToks_eq (F := F))) $$ Htok
  unfold G; simp only [bigSep_sep']
  isplitl [Hst']; · iexact Hst'
  isplitl [Hat' Hr']
  · isplitl [Hat'] <;> iassumption
  iexact Htok'

end Cert.KernelIdeal.Sm

end
-- ==== Proof.LaunchDeal.lean ====
/-
  The global step of the launch: every device's semaphores at zero and its share of the launch element become its
  cells' invariants; the tokens minted for a device's own cells are dealt to the devices that pay them.
-/
import proofs.«901053_g7700000000001054_dist_softmax_colshard_i_m1024_n1024_v7x_i8_bf16_1_alg».proof.Proof.LaunchCells

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The semaphores at zero -/

theorem ownSemFacts : Pipeline.OwnSemFacts cfg0.spec osem := by decide

theorem csem_succ (i : Fin 32) : csem i.succ = osem i := by revert i; decide

theorem bigSep_fin33 (Φ : Fin 33 → sProp 𝕄) : bigSep Finset.univ Φ = iprop(Φ 0 ∗ bigSep Finset.univ fun i : Fin 32 => Φ i.succ) := by
  rw [Fin.univ_succ, Finset.cons_eq_insert, BI.bigSep_insert (by simp), BI.bigSep_map]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [unscopedSems0_eq, bigSep_fin33]
  unfold Pipeline.ownSems0
  rw [bigSep_congr (s := Finset.univ) (Φ := fun i : Fin 32 => (semVal (kcell (c, i.succ)) 0 : sProp 𝕄))
    (Ψ := fun i : Fin 32 => semVal ((c : Thread nD τ), osem i) 0) fun i _ => by
      show semVal ((c : Thread nD τ), csem i.succ) 0 = _; rw [csem_succ]]
  iintro ⟨Hos, HB⟩
  isplitl [HB]; · iexact HB
  iexact Hos

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 33 => iprop(atPos ER (kcell (c, k)) 0 ∅ 0 ∗ reached ER (kcell (c, k)) 0))
          ∗ bigSep (Finset.univ.erase c) (mintToks c)) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- A barrier token and the two receive tokens of the pair (c, p) go from c, whose cells they are of, to p, who pays
    them; the two send tokens stay. -/
theorem toks_around : (bigSep Finset.univ fun c : Dev nD => bigSep (Finset.univ.erase c) (mintToks (F := F) c))
    = bigSep Finset.univ fun c : Dev nD => bigSep (Finset.univ.erase c) (payToks c) := by
  unfold mintToks payToks
  simp only [bigSep_sep']
  rw [bigSep_erase_comm (fun c p : Dev nD => (dutyTok ER (barCell c) 0 p : sProp 𝕄)),
    bigSep_erase_comm (fun c p : Dev nD => (dutyTok ER (recvCell c 0 p) 0 p : sProp 𝕄)),
    bigSep_erase_comm (fun c p : Dev nD => (dutyTok ER (recvCell c 1 p) 0 p : sProp 𝕄))]

/-! ## Regrouping -/

instance records_persistent (K : Dev nD × Fin 33 → ℕ) : BI.Persistent (records m K) := by unfold records; infer_instance

/-- What the global step makes of a device's share. -/
def G' (c : Dev nD) : sProp 𝕄 := iprop(∃ K, ghost m K c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 33 => iprop(atPos ER (kcell (c, k)) 0 ∅ 0 ∗ reached ER (kcell (c, k)) 0))
          ∗ bigSep (Finset.univ.erase c) (mintToks c)) : sProp 𝕄)
      ⊢ bigSep Finset.univ (G' m) := by
  rw [bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄)), toks_around]
  iintro ⟨HI, ⟨Hat, #HR⟩, Htok⟩
  ihave HK := (BI.bigSep_exists_pi Finset.univ (fun (ck : Dev nD × Fin 33) (κ : ℕ) => (cellInv ER (sched m) κ (kcell ck) : sProp 𝕄))) $$ HI
  icases HK with ⟨%K, #HI⟩
  iapply (bigSep_with_persistent (R := records m K) (Φ := linear) fun c _ => show iprop(records m K ∗ linear c) ⊢ G' m c from by
    unfold G' ghost; iintro H; iexists K; iexact H)
  isplitr
  · unfold records; isplitl; · iexact HI
    iexact HR
  · unfold linear
    iapply (Entails.of_eq (bigSep_sep' Finset.univ (fun c : Dev nD => bigSep Finset.univ fun k : Fin 33 => (atPos ER (kcell (c, k)) 0 ∅ 0 : sProp 𝕄))
      (fun c => bigSep (Finset.univ.erase c) (payToks c))).symm)
    isplitl [Hat]; · iexact Hat
    iexact Htok

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Sm

end
-- ==== Proof.LaunchCred.lean ====
/-
  The launch credit: what all devices together owe each of a device's cells at launch, and the credit tokens the
  launch deals the device for it.
-/
import proofs.«901053_g7700000000001054_dist_softmax_colshard_i_m1024_n1024_v7x_i8_bf16_1_alg».proof.Proof.Ghost

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Telling cells apart -/

theorem bar_eq_iff {a b : Dev nD} : Iff (barCell a = barCell b) (a = b) :=
  ⟨fun h => congrArg (fun g : GSem nD τ sig => g.1.1) h, fun h => h ▸ rfl⟩

theorem recv_ne_bar (c p : Dev nD) (b : Fin 2) (q : Dev nD) : recvCell c b q ≠ barCell p := fun h => by cases congrArg Prod.snd h

theorem recv_eq_iff {p c : Dev nD} {b' b : Fin 2} {d q : Dev nD} :
    Iff (recvCell c b q = recvCell p b' d) (c = p ∧ b = b' ∧ q = d) := by
  constructor
  · intro h
    have h1 : c = p := congrArg (fun g : GSem nD τ sig => g.1.1) h
    have h2 : (recvS b q).val = (recvS b' d).val := by
      have h3 : (SemLoc.dma (recvS b q) : SemLoc sig) = .dma (recvS b' d) := congrArg Prod.snd h
      injection h3 with h4; rw [h4]
    rw [recvS_val, recvS_val] at h2
    have := b.isLt; have := b'.isLt; have : q.val < 8 := q.isLt; have : d.val < 8 := d.isLt
    exact ⟨h1, Fin.ext (by omega), Fin.ext (by omega)⟩
  · rintro ⟨rfl, rfl, rfl⟩; rfl

/-! ## What a device owes a cell -/

/-- One summand of what device d owes, read at a barrier cell. -/
theorem term_bar (p d c : Dev nD) :
    (tallyAt (barCell p) () 1 + tallyAt (recvCell p 0 d) () Ncr + tallyAt (recvCell p 1 d) () Ncr : CellTallies nD τ sig Unit) (barCell c) ()
      = if c = p then 1 else 0 := by
  rw [Pi.add_apply, Finsupp.add_apply, Pi.add_apply, Finsupp.add_apply, tallyAt_apply,
    tallyAt_ne_cell (recv_ne_bar p c 0 d).symm, tallyAt_ne_cell (recv_ne_bar p c 1 d).symm, Finsupp.zero_apply, Nat.add_zero, Nat.add_zero]
  by_cases h : c = p
  · subst h; rw [if_pos ⟨rfl, rfl⟩, if_pos rfl]
  · rw [if_neg (fun h' => h (bar_eq_iff.mp h'.1)), if_neg h]

/-- The same summand read at a receive cell. -/
theorem term_recv (p d c : Dev nD) (b : Fin 2) (q : Dev nD) :
    (tallyAt (barCell p) () 1 + tallyAt (recvCell p 0 d) () Ncr + tallyAt (recvCell p 1 d) () Ncr : CellTallies nD τ sig Unit) (recvCell c b q) ()
      = if c = p then (if q = d then Ncr else 0) else 0 := by
  rw [Pi.add_apply, Finsupp.add_apply, Pi.add_apply, Finsupp.add_apply, tallyAt_ne_cell (recv_ne_bar c p b q), Finsupp.zero_apply, Nat.zero_add,
    tallyAt_apply, tallyAt_apply]
  simp only [recv_eq_iff, and_true]
  have hb : b = 0 ∨ b = 1 := by revert b; decide
  by_cases h1 : c = p <;> by_cases h2 : q = d <;> rcases hb with rfl | rfl <;> simp [h1, h2]

theorem owed_bar (d c : Dev nD) : O₀ d (barCell c) () = if c ≠ d then 1 else 0 := by
  unfold O₀
  rw [Finset.sum_apply, Finsupp.finsetSum_apply, Finset.sum_congr rfl fun p _ => term_bar p d c, Finset.sum_ite_eq (Finset.univ.erase d) c fun _ => 1]
  simp only [Finset.mem_erase, Finset.mem_univ, and_true]

theorem owed_recv (d c : Dev nD) (b : Fin 2) (q : Dev nD) : O₀ d (recvCell c b q) () = if q = d then (if c ≠ q then Ncr else 0) else 0 := by
  unfold O₀
  rw [Finset.sum_apply, Finsupp.finsetSum_apply, Finset.sum_congr rfl fun p _ => term_recv p d c b q,
    Finset.sum_ite_eq (Finset.univ.erase d) c fun _ => if q = d then Ncr else 0]
  simp only [Finset.mem_erase, Finset.mem_univ, and_true]
  by_cases h : q = d
  · subst h; simp only [if_true]
  · simp only [if_neg h, ite_self]

/-! ## The launch credit of a device's cells -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (b : Fin 2) (q : Dev nD) (hq : q ≠ c) :
    tallyOn (recvCell c b q) (launchCredit (Pipeline.owing O₀) 0 (recvCell c b q)) = (tallyAt (recvCell c b q) () Ncr : CellTallies nD τ sig Unit) := by
  unfold tallyAt; refine congrArg _ (Finsupp.ext fun u => ?_); cases u
  rw [Pipeline.launchCredit_owing, Finsupp.single_eq_same, Finset.sum_congr rfl fun d _ => owed_recv d c b q,
    Finset.sum_ite_eq Finset.univ q fun _ => if c ≠ q then Ncr else 0, if_pos (Finset.mem_univ _), if_pos hq.symm]

/-- The receive semaphores of one half, by the sending device. -/
def eRecv (b : Fin 2) : Dev nD ↪ SemLoc sig := ⟨fun q => .dma (recvS b q), fun q q' h => by
  have h2 : (recvS b q).val = (recvS b q').val := by
    have h3 : (SemLoc.dma (recvS b q) : SemLoc sig) = .dma (recvS b q') := h
    injection h3 with h4; rw [h4]
  rw [recvS_val, recvS_val] at h2; exact Fin.ext (by omega)⟩

theorem eRecv_disjoint (s t : Finset (Dev nD)) : Disjoint (s.map (eRecv 0)) (t.map (eRecv 1)) := by
  rw [Finset.disjoint_left]
  intro sm h0 h1
  obtain ⟨q, -, rfl⟩ := Finset.mem_map.mp h0
  obtain ⟨q', -, h⟩ := Finset.mem_map.mp h1
  have h2 : (recvS 1 q').val = (recvS 0 q).val := by
    have h3 : (SemLoc.dma (recvS 1 q') : SemLoc sig) = .dma (recvS 0 q) := h
    injection h3 with h4; rw [h4]
  rw [recvS_val, recvS_val] at h2
  have : q.val < 8 := q.isLt
  simp only [Fin.val_zero, Fin.val_one] at h2
  omega

/-- The credit tokens the launch deals device c are those its waits consume. -/
theorem launch_creds (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := (Finset.univ.erase c).map (eRecv 0) ∪ (Finset.univ.erase c).map (eRecv 1)) ?_).trans ?_
  · intro sm hsm
    rw [Finset.mem_erase]; refine ⟨?_, Finset.mem_univ _⟩
    rcases Finset.mem_union.mp hsm with h | h <;> obtain ⟨q, -, rfl⟩ := Finset.mem_map.mp h <;> exact fun h' => by cases h'
  · rw [bigSep_union (eRecv_disjoint _ _), bigSep_map, bigSep_map, ← bigSep_sep]
    refine bigSep_mono fun q hq => ?_
    have hq' : q ≠ c := (Finset.mem_erase.mp hq).1
    show iprop(cred (tallyOn (recvCell c 0 q) (launchCredit (Pipeline.owing O₀) 0 (recvCell c 0 q)))
      ∗ cred (tallyOn (recvCell c 1 q) (launchCredit (Pipeline.owing O₀) 0 (recvCell c 1 q)))) ⊢ _
    rw [launch_recv c 0 q hq', launch_recv c 1 q hq']

end Cert.KernelIdeal.Sm

end
-- ==== Proof.LaunchLev.lean ====
/-
  The levels of the cells and the evidence a wait presents: a device waits on a cell only while everything it still owes
  sits at cells of a higher level. Staging and send cells are at 0, barrier cells at 1, receive cells at 2.
-/
import proofs.«901053_g7700000000001054_dist_softmax_colshard_i_m1024_n1024_v7x_i8_bf16_1_alg».proof.Proof.Ghost

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (b : Fin 2) (q : Dev nD) : lv (recvCell c b q) () = 2 := by
  show (if 18 ≤ (recvS b q).val then 2 else 0) = 2; rw [recvS_val, if_pos (by omega)]
theorem lv_send (c : Dev nD) (b : Fin 2) (p : Dev nD) : lv (sendCell c b p) () = 0 := by
  show (if 18 ≤ (sendS b p).val then 2 else 0) = 0
  rw [sendS_val, if_neg (by have := b.isLt; have : p.val < 8 := p.isLt; omega)]
theorem lv_low (c : Dev nD) (s : DmaSem sig) (hs : s.val < 18) : lv ((c : Thread nD τ), .dma s) () = 0 := by
  show (if 18 ≤ s.val then 2 else 0) = 0; rw [if_neg (by omega)]

/-! ## Where a tally is positive -/

/-- Positive only at receive cells. -/
def RecvOnly (O : CellTallies nD τ sig Unit) : Prop := ∀ g u, 0 < O g u → ∃ p b q, g = recvCell p b q
/-- Positive only at barrier and receive cells. -/
def BarRecvOnly (O : CellTallies nD τ sig Unit) : Prop := ∀ g u, 0 < O g u → (∃ p, g = barCell p) ∨ ∃ p b q, g = recvCell p b q

theorem RecvOnly.barRecv {O : CellTallies nD τ sig Unit} (h : RecvOnly O) : BarRecvOnly O := fun g u hg => .inr (h g u hg)
theorem recvOnly_zero : RecvOnly (0 : CellTallies nD τ sig Unit) := fun g u h => absurd h (Nat.lt_irrefl 0)
theorem barRecvOnly_zero : BarRecvOnly (0 : CellTallies nD τ sig Unit) := recvOnly_zero.barRecv

theorem tallyAt_pos {g g' : GSem nD τ sig} {u u' : Unit} {k : ℕ} (h : 0 < tallyAt g u k g' u') : g' = g := by
  rw [tallyAt_apply] at h
  by_contra hn
  rw [if_neg (fun h' => hn h'.1)] at h
  exact Nat.lt_irrefl 0 h

theorem recvOnly_tallyAt (p : Dev nD) (b : Fin 2) (q : Dev nD) (k : ℕ) : RecvOnly (tallyAt (recvCell p b q) () k) :=
  fun g u h => ⟨p, b, q, tallyAt_pos h⟩
theorem barRecvOnly_tallyAt_bar (p : Dev nD) (k : ℕ) : BarRecvOnly (tallyAt (barCell p) () k) :=
  fun g u h => .inl ⟨p, tallyAt_pos h⟩
theorem RecvOnly.add {O O' : CellTallies nD τ sig Unit} (h : RecvOnly O) (h' : RecvOnly O') : RecvOnly (O + O') :=
  fun g u hg => (Pipeline.add_pos_cases hg).elim (h g u) (h' g u)
theorem BarRecvOnly.add {O O' : CellTallies nD τ sig Unit} (h : BarRecvOnly O) (h' : BarRecvOnly O') : BarRecvOnly (O + O') :=
  fun g u hg => (Pipeline.add_pos_cases hg).elim (h g u) (h' g u)
theorem RecvOnly.sum {α : Type} {s : Finset α} {D : α → CellTallies nD τ sig Unit} (h : ∀ x ∈ s, RecvOnly (D x)) : RecvOnly (∑ x ∈ s, D x) :=
  fun g u hg => by obtain ⟨x, hx, hg'⟩ := Pipeline.sum_pos_exists hg; exact h x hx g u hg'
theorem BarRecvOnly.sum {α : Type} {s : Finset α} {D : α → CellTallies nD τ sig Unit} (h : ∀ x ∈ s, BarRecvOnly (D x)) : BarRecvOnly (∑ x ∈ s, D x) :=
  fun g u hg => by obtain ⟨x, hx, hg'⟩ := Pipeline.sum_pos_exists hg; exact h x hx g u hg'

/-- What a device owes at launch sits at barrier and receive cells. -/
theorem O₀_barRecv (c : Dev nD) : BarRecvOnly (O₀ c) :=
  BarRecvOnly.sum fun p _ => ((barRecvOnly_tallyAt_bar p 1).add (recvOnly_tallyAt p 0 c Ncr).barRecv).add (recvOnly_tallyAt p 1 c Ncr).barRecv

/-! ## The evidence of the waits -/

omit [FloatOps F] in
/-- A wait on a staging or a send cell, while the device owes units of barrier and receive cells only. -/
theorem mayWait_low (c : Dev nD) (s : DmaSem sig) (hs : s.val < 18) (O : CellTallies nD τ sig Unit) (hO : BarRecvOnly O) :
    (levAts L lv : sProp 𝕄) ⊢ MayWait (c : Thread nD τ) (.dma s) () O :=
  Pipeline.mayWait_of_levAts (by rw [L_tc]; exact Finset.mem_singleton_self _) fun g u hg => by
    cases u
    rw [lv_low c s hs]
    rcases hO g () hg with ⟨p, rfl⟩ | ⟨p, b, q, rfl⟩
    · exact ⟨by rw [L_tc]; exact Finset.mem_singleton_self _, by rw [lv_bar]; decide⟩
    · exact ⟨by rw [L_tc]; exact Finset.mem_singleton_self _, by rw [lv_recv]; decide⟩

omit [FloatOps F] in
/-- The barrier wait, while the device owes receive credit only. -/
theorem mayWait_bar (c : Dev nD) (O : CellTallies nD τ sig Unit) (hO : RecvOnly O) :
    (levAts L lv : sProp 𝕄) ⊢ MayWait (c : Thread nD τ) (.reg barS) () O :=
  Pipeline.mayWait_of_levAts (by rw [L_tc]; exact Finset.mem_singleton_self _) fun g u hg => by
    cases u
    obtain ⟨p, b, q, rfl⟩ := hO g () hg
    exact ⟨by rw [L_tc]; exact Finset.mem_singleton_self _, by rw [lv_recv]; show (1 : ℕ) < 2; decide⟩

omit [FloatOps F] in
/-- A wait of a device that owes nothing. -/
theorem mayWait_none (c : Dev nD) (s : SemLoc sig) : (levAts L lv : sProp 𝕄) ⊢ MayWait (c : Thread nD τ) s () 0 := by
  rw [MayWait_zero]; iintro -; iempintro

/-- The pipeline's staging cells: at their waits the device owes what it owes at launch, or nothing. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) _ (O₀_barRecv c)
    · exact mayWait_none c _

end Cert.KernelIdeal.Sm

end
-- ==== Proof.Launch.lean ====
/-
  The launch: from a proof of one device's kernel body to the run of the whole program on the eight devices, and the final
  arrays read off it.
-/
import proofs.«901053_g7700000000001054_dist_softmax_colshard_i_m1024_n1024_v7x_i8_bf16_1_alg».proof.Proof.LaunchDeal
import proofs.«901053_g7700000000001054_dist_softmax_colshard_i_m1024_n1024_v7x_i8_bf16_1_alg».proof.Proof.LaunchCred
import proofs.«901053_g7700000000001054_dist_softmax_colshard_i_m1024_n1024_v7x_i8_bf16_1_alg».proof.Proof.LaunchLev

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The launch theorem's side conditions -/

theorem dats_share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratches Pipeline.ownSems0
  iintro ⟨Hr, Hz⟩
  isplitr; · iempintro
  isplitl [Hz]; · iexact Hz
  iexact Hr

/-! ## The run -/

set_option maxRecDepth 8000 in
/-- At the compiled mesh of eight devices, for any float values, from any memory with zero counters: given the body's proof on
    every device, every weakly fair execution of the program terminates, and in every final state each device's windowed
    arrays hold what the proof data say. -/
theorem run_main (hbody : ∀ c : Dev nD, BodyObligation (dats (F := F) m ρ 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := dats_share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Sm.run_main' depends on axioms: [propext, Classical.choice, Quot.sound] -/
#guard_msgs in #print axioms run_main

/-! ## The final arrays -/

/-- The one block of either window is the whole array: reading it reads the array. -/
theorem read_blk0 (X : XBlk F) : (win0_0.blk (0 : Fin 1)).view.read (Elt F) X = X := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) X
theorem read_blk1 (X : OBlk F) : ((cfg0.win (1 : Fin 2)).blk t₀).view.read (Elt F) X = X := by
  have hz : (fun a => (win0_1.index t₀) a * main_v1.ty.shape.size a) = fun _ => 0 := funext fun a => by fin_cases a <;> decide
  exact Memref.read_access_unit_zero (Elt F) main_v1 hz (fun a => by fin_cases a <;> decide) X

/-- A device's staged input block is its input array as launched. -/
theorem xstg_eq (q : Dev nD) : xstg m ρ q = xOf m q := by unfold xstg; exact read_blk0 _

/-- The input array is never written. -/
theorem final_x (c : Dev nD) : (dats m ρ 0 c).arrAt (0 : Fin 2) cfg0.N = m ((c : Thread nD τ).loc main_arg0) :=
  (dats (F := F) m ρ 0 c).arrAt_in (0 : Fin 2) rfl _

/-- The result array after its one write-back holds what the body left in the staging buffer. -/
theorem final_out (c : Dev nD) : (dats m ρ 0 c).arrAt (1 : Fin 2) cfg0.N = outOf (fun q => xOf m q) c := by
  have h1 : ((cfg0.win (1 : Fin 2)).blk t₀).view.read (Elt F) ((dats m ρ 0 c).arrAt (1 : Fin 2) cfg0.N) = outOf (fun q => xstg m ρ q) c := by
    rw [show cfg0.N = (t₀ : Fin cfg0.N).val + 1 from rfl, (dats m ρ 0 c).arrAt_succ (1 : Fin 2) t₀, if_pos (flush0_1 t₀)]
    exact View.read_write_univ _ _
  rw [read_blk1, funext (xstg_eq m ρ)] at h1
  exact h1

/-- The run with each device's result named: its result array ends as `outOf` of all devices' input arrays, its input
    array unchanged. -/
theorem run_claim (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outOf (fun q => xOf m q) c
        ∧ r.2.mem ((c.tc : Thread nD τ).loc main_arg0) = m ((c.tc : Thread nD τ).loc main_arg0)) :=
  (θ_run defs _ _).mono (fun _ h c => ⟨(h c (1 : Fin 2)).trans (final_out m ρ c), (h c (0 : Fin 2)).trans (final_x m ρ c)⟩)
    (run_main m ρ hbody)

/-- info: 'Cert.KernelIdeal.Sm.run_claim' depends on axioms: [propext, Classical.choice, Quot.sound] -/
#guard_msgs in #print axioms run_claim

end Cert.KernelIdeal.Sm

end
-- ==== Proof.W.Out.lean ====
/-
  What every device's buffers hold, as pure functions of the devices' input blocks, written through
  the kernel's own payload terms and generic in the float instance.

  A device's input block is a 1024 x 1024 array; the body treats it as two halves of 512 rows. Of each
  half it forms e = exp (x - 16) and the row sums s of e (a 1 x 1 x 512 vector). Every device ends with
  the row sums of ALL eight devices side by side (an 8 x 2 x 1 x 512 table), adds the eight rows of a
  half, and multiplies its own e by the reciprocal of that total.
-/
import proofs.«901053_g7700000000001054_dist_softmax_colshard_i_m1024_n1024_v7x_i8_bf16_1_alg».proof.Proof.Gen.Kernel.Skeleton
import Idealize.ShloMosaic.Lib.ValueIdx

noncomputable section

namespace Cert.Kernel.Sm

open Cert.Kernel Cert.Kernel.Gen
open Idealize.ShloMosaic Idealize.SL.Sem
open Idealize.ShloMosaic.ValueIdx (ix2 ix3)

variable {F : FTy → Type} [FloatOps F]

/-- A device's input block, and the tables of row sums. -/
abbrev XBlk (F : FTy → Type) : Type := (cc0_stg0_0 : Ref sig .tc).ty.Contents (Elt F)
abbrev OBlk (F : FTy → Type) : Type := (cc0_stg1_0 : Ref sig .tc).ty.Contents (Elt F)
abbrev MineBuf (F : FTy → Type) : Type := (cc0_scratch0 : Ref sig .tc).ty.Contents (Elt F)
abbrev CommBuf (F : FTy → Type) : Type := (cc0_scratch1 : Ref sig .tc).ty.Contents (Elt F)

/-- The two half rectangles of the 1024 x 1024 blocks. -/
abbrev rTop : Rect S1024x1024 := Rect.unit (s := S1024x1024) ![0, 0] S512x1024.size inb_S1024x1024_S512x1024_0_0
abbrev rBot : Rect S1024x1024 := Rect.unit (s := S1024x1024) ![512, 0] S512x1024.size inb_S1024x1024_S512x1024_512_0

/-- The rows 0..511 and 512..1023 of an input block, as the body loads them. -/
def xTop (X : XBlk F) : Vec F S512x1024 .f32 :=
  (Memref.whole cc0_stg0_0 : Memref sig .tc .vmem S1024x1024 .f32).view.readAt (Elt F) rTop.toLoadRect X
def xBot (X : XBlk F) : Vec F S512x1024 .f32 :=
  (Memref.whole cc0_stg0_0 : Memref sig .tc .vmem S1024x1024 .f32).view.readAt (Elt F) rBot.toLoadRect X

/-- The shift 16. -/
def c16 : F .f32 := Scalar.ofBits .f32 0x41800000#32

/-- exp (x - 16) of a half, narrowed as the body stores it. -/
def eTop (X : XBlk F) : FVec F S512x1024 .bf16 := k0_pay3 (k0_pay1 (xTop X)) c16
def eBot (X : XBlk F) : FVec F S512x1024 .bf16 := k0_pay7 (xBot X)

/-- The row sums of exp (x - 16) of a half, as a 1 x 1 x 512 vector. -/
def sTop (X : XBlk F) : FVec F S1x1x512 .f32 := k0_pay4 (k0_pay1 (xTop X)) c16
def sBot (X : XBlk F) : FVec F S1x1x512 .f32 := k0_pay8 (xBot X)

/-- A device's table of its own row sums: row 0 the top half's, row 1 the bottom half's. -/
def mineOf (X : XBlk F) : MineBuf F := fun i =>
  if (i 0).val = 0 then sTop X (ix3 (0 : Fin 1) (0 : Fin 1) (i 2)) else sBot X (ix3 (0 : Fin 1) (0 : Fin 1) (i 2))

/-- The table every device ends with: at [q, b, 0, j] device q's row sum j of half b. -/
def commOf (Xs : Dev nD → XBlk F) : CommBuf F := fun i => mineOf (Xs (i 0)) (ix3 (i 1) (0 : Fin 1) (i 3))

/-- The eight devices' row sums of a half, as the body loads them. -/
def commTop (Xs : Dev nD → XBlk F) : Vec F S8x1x1x512 .f32 :=
  (Memref.whole cc0_scratch1 : Memref sig .tc .vmem S8x2x1x512 .f32).view.readAt (Elt F)
    (Rect.unit (s := S8x2x1x512) ![0, 0, 0, 0] S8x1x1x512.size inb_S8x2x1x512_S8x1x1x512_0_0_0_0).toLoadRect (commOf Xs)
def commBot (Xs : Dev nD → XBlk F) : Vec F S8x1x1x512 .f32 :=
  (Memref.whole cc0_scratch1 : Memref sig .tc .vmem S8x2x1x512 .f32).view.readAt (Elt F)
    (Rect.unit (s := S8x2x1x512) ![0, 1, 0, 0] S8x1x1x512.size inb_S8x2x1x512_S8x1x1x512_0_1_0_0).toLoadRect (commOf Xs)

/-- The two halves of device c's result. -/
def oTop (Xs : Dev nD → XBlk F) (c : Dev nD) : FVec F S512x1024 .bf16 := k0_pay10 (commTop Xs) (eTop (Xs c))
def oBot (Xs : Dev nD → XBlk F) (c : Dev nD) : FVec F S512x1024 .bf16 :=
  k0_pay13 (k0_pay11 (commBot Xs)) (k0_pay12 (F := F)) (eBot (Xs c))

/-- Device c's result block: the top half over the bottom half. -/
def outOf (Xs : Dev nD → XBlk F) (c : Dev nD) : OBlk F := fun i =>
  if h : (i 0).val < 512 then oTop Xs c (ix2 (⟨(i 0).val, h⟩ : Fin 512) (i 1))
  else oBot Xs c (ix2 (⟨(i 0).val - 512, by have : (i 0).val < 1024 := (i 0).isLt; omega⟩ : Fin 512) (i 1))

end Cert.Kernel.Sm

end
-- ==== Proof.W.Core.lean ====
/-
  The cross-device protocol of the column-sharded softmax, for the rounds discipline.

  Every device c owns 33 cells: its barrier cell (round 0: one unit from each other device), and for each
  half b and each other device p a send cell (its copy of its row sums of half b to p leaving) and a receive cell
  (p's row sums of half b landing). A device's unit on a peer's barrier cell hands that peer the two slots of the
  device's table that are reserved for the peer's row sums; a landing hands the owner the slot filled; a departure hands
  back the share of the source it read.
-/
import proofs.«901053_g7700000000001054_dist_softmax_colshard_i_m1024_n1024_v7x_i8_bf16_1_alg».proof.Proof.W.Out
import proofs.«901053_g7700000000001054_dist_softmax_colshard_i_m1024_n1024_v7x_i8_bf16_1_alg».proof.Proof.Gen.Kernel.Launch
import proofs.«901053_g7700000000001054_dist_softmax_colshard_i_m1024_n1024_v7x_i8_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the protocol's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Memrefs, slots and cells -/

abbrev xM : Memref sig .tc .vmem S1024x1024 .f32 := Memref.whole cc0_stg0_0
abbrev oM : Memref sig .tc .vmem S1024x1024 .bf16 := Memref.whole cc0_stg1_0
abbrev mM : Memref sig .tc .vmem S2x1x512 .f32 := Memref.whole cc0_scratch0
abbrev cM : Memref sig .tc .vmem S8x2x1x512 .f32 := Memref.whole cc0_scratch1

theorem mine_inb (b : Fin 2) : ∀ a, (![b.val, 0, 0] : Fin 3 → Nat) a + S1x1x512.size a ≤ S2x1x512.size a := by
  revert b; decide
theorem comm_inb (q : Dev nD) (b : Fin 2) : ∀ a, (![q.val, b.val, 0, 0] : Fin 4 → Nat) a + S1x1x1x512.size a ≤ S8x2x1x512.size a := by
  revert q b; decide
theorem sem_inb (b : Fin 2) (p : Dev nD) : ∀ a, (![b.val, p.val] : Fin 2 → Nat) a + S1x1.size a ≤ S2x8.size a := by
  revert b p; decide

/-- Row b of a device's own table of row sums, and slot [q, b] of its table of everybody's, as 1 x 512 memrefs. -/
abbrev mineSl (b : Fin 2) : Memref sig .tc .vmem S1x512 .f32 :=
  ((mM.slice (Rect.unit (s := S2x1x512) ![b.val, 0, 0] S1x1x512.size (mine_inb b)) (fun _ => rfl)).squeeze S1x512 squeezes_S1x1x512_S1x512)
abbrev commSl (q : Dev nD) (b : Fin 2) : Memref sig .tc .vmem S1x512 .f32 :=
  ((cM.slice (Rect.unit (s := S8x2x1x512) ![q.val, b.val, 0, 0] S1x1x1x512.size (comm_inb q b)) (fun _ => rfl)).squeeze S1x512 squeezes_S1x1x1x512_S1x512)

abbrev barS : Sem sig := (SemArray.scalar (sig.barrier 0 rfl) : Sems sig S_).sem
abbrev sendS (b : Fin 2) (p : Dev nD) : DmaSem sig :=
  ((cc0_scratch2.slice (Rect.unit (s := S2x8) ![b.val, p.val] S1x1.size (sem_inb b p))).squeeze S_ squeezes_S1x1_S_).sem
abbrev recvS (b : Fin 2) (q : Dev nD) : DmaSem sig :=
  ((cc0_scratch3.slice (Rect.unit (s := S2x8) ![b.val, q.val] S1x1.size (sem_inb b q))).squeeze S_ squeezes_S1x1_S_).sem

theorem sendS_val (b : Fin 2) (p : Dev nD) : (sendS b p).val = 2 + 8 * b.val + p.val := by revert b p; decide
theorem recvS_val (b : Fin 2) (q : Dev nD) : (recvS b q).val = 18 + 8 * b.val + q.val := by revert b q; decide

abbrev barCell (c : Dev nD) : GSem nD τ sig := ((c : Thread nD τ), .reg barS)
abbrev sendCell (c : Dev nD) (b : Fin 2) (p : Dev nD) : GSem nD τ sig := ((c : Thread nD τ), .dma (sendS b p))
abbrev recvCell (c : Dev nD) (b : Fin 2) (q : Dev nD) : GSem nD τ sig := ((c : Thread nD τ), .dma (recvS b q))

/-- The credit of one 1 x 512 copy. -/
abbrev Ncr : ℕ := (commSl 0 0 : Memref sig .tc .vmem S1x512 .f32).view.dmaCredit
theorem Ncr_pos : 0 < Ncr := View.dmaCredit_pos _ (by decide)

/-! ## Contents -/

/-- Device c's input block as launched. -/
def xOf (c : Dev nD) : XBlk F := m ((c : Thread nD τ).loc main_arg0)
/-- All devices' input blocks. -/
abbrev Xs : Dev nD → XBlk F := fun q => xOf m q

/-- Slot [q, b] of device c's table, at contents f (a whole-table function, read on the slot only). -/
def slotPts (c q : Dev nD) (b : Fin 2) (f : CommBuf F) : sProp 𝕄 :=
  (commSl q b).view.loc (c : Thread nD τ) ↦[(commSl q b).view.set]{fullShare} f
/-- Row b of device c's own row sums, a share of it. -/
def minePts (c : Dev nD) (b : Fin 2) (q : PosShare TreeShare) (f : MineBuf F) : sProp 𝕄 :=
  (mineSl b).view.loc (c : Thread nD τ) ↦[(mineSl b).view.set]{q} f

/-- The eight shares a row of the own table is read under: seven copies in flight and the device's own load. -/
def shr (p : Dev nD) : PosShare TreeShare :=
  match p with
  | ⟨0, _⟩ => fullShare.left.left.left | ⟨1, _⟩ => fullShare.left.left.right
  | ⟨2, _⟩ => fullShare.left.right.left | ⟨3, _⟩ => fullShare.left.right.right
  | ⟨4, _⟩ => fullShare.right.left.left | ⟨5, _⟩ => fullShare.right.left.right
  | ⟨6, _⟩ => fullShare.right.right.left | ⟨_, _⟩ => fullShare.right.right.right

/-! ## The schedule -/

/-- Which peer a DMA semaphore of the two arrays is about, and which half. -/
def pOf (s : DmaSem sig) : Dev nD := ⟨(s.val + 6) % 8, Nat.mod_lt _ (by decide)⟩
def bOf (s : DmaSem sig) : Fin 2 := ⟨((s.val + 6) / 8 + 1) % 2, Nat.mod_lt _ (by decide)⟩

theorem pOf_send (b : Fin 2) (p : Dev nD) : pOf (sendS b p) = p := by revert b p; decide
theorem pOf_recv (b : Fin 2) (p : Dev nD) : pOf (recvS b p) = p := by revert b p; decide
theorem bOf_send (b : Fin 2) (p : Dev nD) : bOf (sendS b p) = b := by revert b p; decide
theorem bOf_recv (b : Fin 2) (p : Dev nD) : bOf (recvS b p) = b := by revert b p; decide

/-- What device d's unit on device c's barrier cell hands c: the two slots of d's table reserved for c's row sums. -/
def barPay (c d : Dev nD) : sProp 𝕄 :=
  iprop((∃ f, slotPts d c 0 f) ∗ (∃ f, slotPts d c 1 f))
/-- What q's copy landing hands c: slot [q, b] holding q's row sums of half b. -/
def recvPay (c : Dev nD) (b : Fin 2) (q : Dev nD) : sProp 𝕄 := slotPts c q b (commOf (Xs m))
/-- What the departure of c's copy to p hands c back: the share of row b it was read under. -/
def sendPay (c : Dev nD) (b : Fin 2) (p : Dev nD) : sProp 𝕄 := minePts c b (shr p) (mineOf (xOf m c))

def sched : Rounds.Schedule (GSem nD τ sig) (Dev nD) 𝕄 where
  duties g r :=
    if r = 0 ∧ g.1.2 = .tc then
      match g.2 with
      | .reg _ => Finset.univ.erase g.1.1
      | .dma s => if 2 ≤ s.val ∧ pOf s ≠ g.1.1 then {pOf s} else ∅
    else ∅
  unitless _ := False
  amount g _ _ := match g.2 with | .reg _ => 1 | .dma _ => Ncr
  payload g _ d :=
    match g.2 with
    | .reg _ => barPay g.1.1 d
    | .dma s => if s.val < 2 then iprop(emp) else if s.val < 18 then sendPay m g.1.1 (bOf s) (pOf s) else recvPay m g.1.1 (bOf s) (pOf s)
  amount_pos g _ _ _ := by
    cases g.2 with
    | reg _ => exact Nat.one_pos
    | dma _ => exact Ncr_pos

instance sched_payload_storable (g : GSem nD τ sig) (r : ℕ) (d : Dev nD) :
    BI.Storable (upEmb : UEmb _ 𝕄) ((sched (F := F) m).payload g r d) := by
  obtain ⟨t, sl⟩ := g
  cases sl with
  | reg s => show BI.Storable upEmb (barPay t.1 d); unfold barPay slotPts; infer_instance
  | dma s =>
    show BI.Storable upEmb (if s.val < 2 then iprop(emp) else if s.val < 18 then sendPay m t.1 (bOf s) (pOf s) else recvPay m t.1 (bOf s) (pOf s))
    unfold sendPay recvPay slotPts minePts
    (repeat' split) <;> infer_instance

section Sched
variable (c : Dev nD)

theorem duties_bar : (sched (F := F) m).duties (barCell c) 0 = Finset.univ.erase c := by
  dsimp only [sched]; exact if_pos ⟨rfl, rfl⟩
theorem duties_send (b : Fin 2) (p : Dev nD) (h : p ≠ c) : (sched (F := F) m).duties (sendCell c b p) 0 = {p} := by
  dsimp only [sched]; rw [if_pos ⟨rfl, rfl⟩]; show (if 2 ≤ (sendS b p).val ∧ pOf (sendS b p) ≠ c then {pOf (sendS b p)} else ∅) = _
  rw [pOf_send, if_pos ⟨by rw [sendS_val]; omega, h⟩]
theorem duties_recv (b : Fin 2) (q : Dev nD) (h : q ≠ c) : (sched (F := F) m).duties (recvCell c b q) 0 = {q} := by
  dsimp only [sched]; rw [if_pos ⟨rfl, rfl⟩]; show (if 2 ≤ (recvS b q).val ∧ pOf (recvS b q) ≠ c then {pOf (recvS b q)} else ∅) = _
  rw [pOf_recv, if_pos ⟨by rw [recvS_val]; omega, h⟩]
theorem duties_later (g : GSem nD τ sig) : ∀ r, 1 ≤ r → (sched (F := F) m).duties g r = ∅ :=
  fun r hr => by dsimp only [sched]; rw [if_neg fun h => by omega]

theorem amount_bar (d : Dev nD) : (sched (F := F) m).amount (barCell c) 0 d = 1 := rfl
theorem amount_send (b : Fin 2) (p d : Dev nD) : (sched (F := F) m).amount (sendCell c b p) 0 d = Ncr := rfl
theorem amount_recv (b : Fin 2) (q d : Dev nD) : (sched (F := F) m).amount (recvCell c b q) 0 d = Ncr := rfl

theorem expect_bar : (sched (F := F) m).expect (barCell c) 0 = 7 := by
  unfold Schedule.expect Schedule.amountOf
  rw [duties_bar, Finset.sum_congr rfl fun d _ => amount_bar m c d, Finset.sum_const, Finset.card_erase_of_mem (Finset.mem_univ _), Finset.card_univ]
  rfl
theorem expect_send (b : Fin 2) (p : Dev nD) (h : p ≠ c) : (sched (F := F) m).expect (sendCell c b p) 0 = Ncr := by
  unfold Schedule.expect Schedule.amountOf; rw [duties_send m c b p h, Finset.sum_singleton, amount_send]
theorem expect_recv (b : Fin 2) (q : Dev nD) (h : q ≠ c) : (sched (F := F) m).expect (recvCell c b q) 0 = Ncr := by
  unfold Schedule.expect Schedule.amountOf; rw [duties_recv m c b q h, Finset.sum_singleton, amount_recv]

theorem payload_bar (d : Dev nD) : (sched (F := F) m).payload (barCell c) 0 d = barPay c d := rfl
theorem payload_send (b : Fin 2) (p d : Dev nD) : (sched (F := F) m).payload (sendCell c b p) 0 d = sendPay m c b p := by
  dsimp only [sched]
  show (if (sendS b p).val < 2 then iprop(emp) else if (sendS b p).val < 18 then sendPay m c (bOf (sendS b p)) (pOf (sendS b p)) else recvPay m c (bOf (sendS b p)) (pOf (sendS b p))) = _
  rw [if_neg (by rw [sendS_val]; omega), if_pos (by rw [sendS_val]; have := b.isLt; have : p.val < 8 := p.isLt; omega), bOf_send, pOf_send]
theorem payload_recv (b : Fin 2) (q d : Dev nD) : (sched (F := F) m).payload (recvCell c b q) 0 d = recvPay m c b q := by
  dsimp only [sched]
  show (if (recvS b q).val < 2 then iprop(emp) else if (recvS b q).val < 18 then sendPay m c (bOf (recvS b q)) (pOf (recvS b q)) else recvPay m c (bOf (recvS b q)) (pOf (recvS b q))) = _
  rw [if_neg (by rw [recvS_val]; omega), if_neg (by rw [recvS_val]; omega), bOf_recv, pOf_recv]

/-- The payload tables with the points-to spelt out. -/
theorem payload_bar' (d : Dev nD) : (sched (F := F) m).payload (barCell c) 0 d
    = iprop((∃ f : CommBuf F, (commSl c 0).view.loc (d : Thread nD τ) ↦[(commSl c 0).view.set]{fullShare} f)
        ∗ (∃ f : CommBuf F, (commSl c 1).view.loc (d : Thread nD τ) ↦[(commSl c 1).view.set]{fullShare} f)) := rfl
theorem payload_send' (b : Fin 2) (p d : Dev nD) : (sched (F := F) m).payload (sendCell c b p) 0 d
    = ((mineSl b).view.loc (c : Thread nD τ) ↦[(mineSl b).view.set]{shr p} mineOf (xOf m c) : sProp 𝕄) := payload_send m c b p d
theorem payload_recv' (b : Fin 2) (q d : Dev nD) : (sched (F := F) m).payload (recvCell c b q) 0 d
    = ((commSl q b).view.loc (c : Thread nD τ) ↦[(commSl q b).view.set]{fullShare} commOf (Xs m) : sProp 𝕄) := payload_recv m c b q d

end Sched

end Cert.Kernel.Sm

end
-- ==== Proof.W.Ghost.lean ====
/-
  What a device's kernel body starts from and ends with, and the pipeline's proof data: the interface between the
  body's proof and the launch.
-/
import proofs.«901053_g7700000000001054_dist_softmax_colshard_i_m1024_n1024_v7x_i8_bf16_1_alg».proof.Proof.W.Core

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The 33 cells of a device, numbered: 0 the barrier, 1 + 8 b + p the send cell (b, p), 17 + 8 b + q the receive cell (b, q) -/

def csem (k : Fin 33) : SemLoc sig := if k.val = 0 then .reg barS else .dma ⟨k.val + 1, by show k.val + 1 < 34; have := k.isLt; omega⟩
abbrev kcell (ck : Dev nD × Fin 33) : GSem nD τ sig := ((ck.1 : Thread nD τ), csem ck.2)
def kSend (b : Fin 2) (p : Dev nD) : Fin 33 := ⟨1 + 8 * b.val + p.val, by have := b.isLt; have : p.val < 8 := p.isLt; omega⟩
def kRecv (b : Fin 2) (q : Dev nD) : Fin 33 := ⟨17 + 8 * b.val + q.val, by have := b.isLt; have : q.val < 8 := q.isLt; omega⟩
theorem csem_zero : csem 0 = .reg barS := rfl
theorem csem_send (b : Fin 2) (p : Dev nD) : csem (kSend b p) = .dma (sendS b p) := by revert b p; decide
theorem csem_recv (b : Fin 2) (q : Dev nD) : csem (kRecv b q) = .dma (recvS b q) := by revert b q; decide
/-- The kernel's own (scoped) semaphores, as the launch indexes them: the 32 of the two arrays. -/
abbrev osem : Fin 32 → SemLoc sig := fun i => .dma ⟨i.val + 2, by show i.val + 2 < 34; have := i.isLt; omega⟩

/-! ## What each device owes at launch; the levels -/

/-- Device c owes every other device p one unit on p's barrier cell and one copy's credit on each of the two receive
    cells of p that c's copies land on. -/
def O₀ (c : Dev nD) : CellTallies nD τ sig Unit :=
  ∑ p ∈ Finset.univ.erase c, (tallyAt (barCell p) () 1 + tallyAt (recvCell p 0 c) () Ncr + tallyAt (recvCell p 1 c) () Ncr)

def L (g : GSem nD τ sig) : Finset Unit := if g.1.2 = .tc then {()} else ∅
/-- Barrier cells at 1, receive cells at 2, everything else (staging, send) at 0. -/
def lv (g : GSem nD τ sig) (_ : Unit) : ℕ := match g.2 with | .reg _ => 1 | .dma s => if 18 ≤ s.val then 2 else 0

/-! ## The ghost state a device's body starts from -/

/-- Every cell's invariant, under the names the launch allocated them at, and that every cell is at round 0. -/
def records (K : Dev nD × Fin 33 → ℕ) : sProp 𝕄 :=
  iprop((bigSep Finset.univ fun ck : Dev nD × Fin 33 => cellInv ER (sched m) (K ck) (kcell ck))
    ∗ bigSep Finset.univ fun ck : Dev nD × Fin 33 => reached ER (kcell ck) 0)

/-- The tokens of the duties device c pays, for another device p: its unit on p's barrier cell, its two landings on p's
    receive cells, and the two departures of its copies to p (its own send cells). -/
def payToks (c p : Dev nD) : sProp 𝕄 :=
  iprop(dutyTok ER (barCell p) 0 c ∗ dutyTok ER (recvCell p 0 c) 0 c ∗ dutyTok ER (recvCell p 1 c) 0 c
    ∗ dutyTok ER (sendCell c 0 p) 0 p ∗ dutyTok ER (sendCell c 1 p) 0 p)

/-- What stays with device c alone: its positions on its 33 cells, the tokens it pays with. -/
def linear (c : Dev nD) : sProp 𝕄 :=
  iprop((bigSep Finset.univ fun k : Fin 33 => atPos ER (kcell (c, k)) 0 ∅ 0) ∗ bigSep (Finset.univ.erase c) (payToks c))

def ghost (K : Dev nD × Fin 33 → ℕ) (c : Dev nD) : sProp 𝕄 := iprop(records m K ∗ linear c)

/-- The credit tokens device c's waits consume: seven units on its barrier cell, a copy's credit on each receive cell. -/
def creds (c : Dev nD) : sProp 𝕄 :=
  iprop(cred (tallyAt (barCell c) () 7)
    ∗ bigSep (Finset.univ.erase c) fun q => iprop(cred (tallyAt (recvCell c 0 q) () Ncr) ∗ cred (tallyAt (recvCell c 1 q) () Ncr)))

/-- What device c's body starts from, besides its windows and scratch: the ghost state at some names, the credit tokens, the
    level facts. -/
def start (c : Dev nD) : sProp 𝕄 := iprop((∃ K, ghost m K c) ∗ creds c ∗ levAts L lv)

/-- The two scratch tables, each whole at some contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

def Φ₀ (c : Dev nD) : sProp 𝕄 := iprop(start m c ∗ scratches c)
/-- After the body: the scratch tables whole again, the 32 own semaphores at zero, their cells closed. -/
def Φ₁ (c : Dev nD) : sProp 𝕄 := iprop(scratches c ∗ bigSep Finset.univ fun i : Fin 32 => semVal ((c : Thread nD τ), osem i) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- Device c's input block as its window stages it. -/
def xstg (c : Dev nD) : XBlk F := (win0_0.blk (0 : Fin 1)).view.read (Elt F) ((s₀ m ρ).mem ((c : Thread nD τ).loc main_arg0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outOf (fun q => xstg m ρ q) c
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Sm

end
-- ==== Proof.W.LaunchCells.lean ====
/-
  The launch element of the protocol's copy of the algebra: the cells of every device and the duty tokens minted for
  them, and what funding it deals each device.
-/
import proofs.«901053_g7700000000001054_dist_softmax_colshard_i_m1024_n1024_v7x_i8_bf16_1_alg».proof.Proof.W.Ghost

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The cells, all devices' -/

theorem csem_injective : Function.Injective csem := by
  intro k k' h
  unfold csem at h
  split at h <;> split at h
  · exact Fin.ext (by omega)
  · cases h
  · cases h
  · have := congrArg (fun s : SemLoc sig => match s with | .reg _ => 0 | .dma s => s.val) h
    exact Fin.ext (by simp only at this; omega)

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

def protoCells : Finset (GSem nD τ sig) := Finset.univ.map ⟨kcell, kcell_injective⟩

/-! ## The tokens minted: for a device c and another device p, the duty p of c's barrier cell and of its four cells about p -/

/-- Which of c's cells: the barrier, the two receive cells from p, the two send cells to p. -/
def kOf (j : Fin 5) (p : Dev nD) : Fin 33 := match j with
  | 0 => 0 | 1 => kRecv 0 p | 2 => kRecv 1 p | 3 => kSend 0 p | 4 => kSend 1 p

theorem kOf_inj (p : Dev nD) (j j' : Fin 5) : kOf j p = kOf j' p → j = j' := by revert p j j'; decide

abbrev tokOf (x : Dev nD × Dev nD × Fin 5) : GSem nD τ sig × ℕ × Dev nD := (kcell (x.1, kOf x.2.2 x.2.1), 0, x.2.1)

theorem tokOf_injective : Function.Injective tokOf := by
  rintro ⟨c, p, j⟩ ⟨c', p', j'⟩ h
  have hp : p = p' := congrArg (fun x : GSem nD τ sig × ℕ × Dev nD => x.2.2) h
  subst hp
  have hk := kcell_injective (congrArg (fun x : GSem nD τ sig × ℕ × Dev nD => x.1) h)
  have hc : c = c' := congrArg Prod.fst hk
  subst hc
  rw [kOf_inj p j j' (congrArg Prod.snd hk)]

def protoToks : Finset (GSem nD τ sig × ℕ × Dev nD) :=
  (Finset.univ.filter fun x : Dev nD × Dev nD × Fin 5 => x.2.1 ≠ x.1).map ⟨tokOf, tokOf_injective⟩

/-- The launch element: the pipeline's copy and the protocol's. -/
def u₀ : UU :=
  (initOf (Pipeline.cells cfgs cellOf_inj) (Pipeline.launchToks cfgs cellOf_inj), initOf protoCells protoToks)

/-! ## What funding deals each device -/

/-- The tokens of device c's own cells, by the device p that pays them. -/
def mintToks (c p : Dev nD) : sProp 𝕄 :=
  iprop(dutyTok ER (barCell c) 0 p ∗ dutyTok ER (recvCell c 0 p) 0 p ∗ dutyTok ER (recvCell c 1 p) 0 p
    ∗ dutyTok ER (sendCell c 0 p) 0 p ∗ dutyTok ER (sendCell c 1 p) 0 p)

def G (c : Dev nD) : sProp 𝕄 :=
  iprop((bigSep Finset.univ fun k : Fin 33 => roundState ER (sched m) (kcell (c, k)) 0)
    ∗ (bigSep Finset.univ fun k : Fin 33 => iprop(atPos ER (kcell (c, k)) 0 ∅ 0 ∗ reached ER (kcell (c, k)) 0))
    ∗ bigSep (Finset.univ.erase c) (mintToks c))

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem kcell_recv (c : Dev nD) (b : Fin 2) (q : Dev nD) : kcell (c, kRecv b q) = recvCell c b q := by
  show ((c : Thread nD τ), csem (kRecv b q)) = _; rw [csem_recv]
theorem kcell_send (c : Dev nD) (b : Fin 2) (p : Dev nD) : kcell (c, kSend b p) = sendCell c b p := by
  show ((c : Thread nD τ), csem (kSend b p)) = _; rw [csem_send]

theorem protoToks_eq : bigSep protoToks (fun x => (dutyTok ER x.1 x.2.1 x.2.2 : sProp 𝕄))
    = bigSep Finset.univ fun c : Dev nD => bigSep (Finset.univ.erase c) (mintToks c) := by
  unfold protoToks
  rw [bigSep_map, bigSep_filter, bigSep_univ_prod]
  refine bigSep_congr fun c _ => ?_
  rw [bigSep_univ_prod, ← Finset.filter_ne' Finset.univ c, bigSep_filter]
  refine bigSep_congr fun p _ => ?_
  show (bigSep Finset.univ fun j : Fin 5 => if p ≠ c then (dutyTok ER (kcell (c, kOf j p)) 0 p : sProp 𝕄) else iprop(emp))
    = if p ≠ c then mintToks c p else iprop(emp)
  by_cases hp : p ≠ c
  · simp only [if_pos hp]
    rw [bigSep_fin5]
    unfold mintToks
    rw [← kcell_recv, ← kcell_recv, ← kcell_send, ← kcell_send]
    rfl
  · simp only [if_neg hp]
    exact bigSep_emp_const _

theorem fund_proto : BI.own (ER (initOf protoCells protoToks)) ⊢ (|==> bigSep Finset.univ (G m) : sProp 𝕄) := by
  have hX (Φ : GSem nD τ sig → sProp 𝕄) : bigSep protoCells Φ = bigSep Finset.univ fun c : Dev nD => bigSep Finset.univ fun k : Fin 33 => Φ (kcell (c, k)) := by
    unfold protoCells; rw [bigSep_map, bigSep_univ_prod]; rfl
  iintro HX
  imod (Rounds.fund ER (sched m) protoCells protoToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq (protoToks_eq (F := F))) $$ Htok
  unfold G; simp only [bigSep_sep']
  isplitl [Hst']; · iexact Hst'
  isplitl [Hat' Hr']
  · isplitl [Hat'] <;> iassumption
  iexact Htok'

end Cert.Kernel.Sm

end
-- ==== Proof.W.LaunchDeal.lean ====
/-
  The global step of the launch: every device's semaphores at zero and its share of the launch element become its
  cells' invariants; the tokens minted for a device's own cells are dealt to the devices that pay them.
-/
import proofs.«901053_g7700000000001054_dist_softmax_colshard_i_m1024_n1024_v7x_i8_bf16_1_alg».proof.Proof.W.LaunchCells

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The semaphores at zero -/

theorem ownSemFacts : Pipeline.OwnSemFacts cfg0.spec osem := by decide

theorem csem_succ (i : Fin 32) : csem i.succ = osem i := by revert i; decide

theorem bigSep_fin33 (Φ : Fin 33 → sProp 𝕄) : bigSep Finset.univ Φ = iprop(Φ 0 ∗ bigSep Finset.univ fun i : Fin 32 => Φ i.succ) := by
  rw [Fin.univ_succ, Finset.cons_eq_insert, BI.bigSep_insert (by simp), BI.bigSep_map]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  rw [unscopedSems0_eq, bigSep_fin33]
  unfold Pipeline.ownSems0
  rw [bigSep_congr (s := Finset.univ) (Φ := fun i : Fin 32 => (semVal (kcell (c, i.succ)) 0 : sProp 𝕄))
    (Ψ := fun i : Fin 32 => semVal ((c : Thread nD τ), osem i) 0) fun i _ => by
      show semVal ((c : Thread nD τ), csem i.succ) 0 = _; rw [csem_succ]]
  iintro ⟨Hos, HB⟩
  isplitl [HB]; · iexact HB
  iexact Hos

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Fin 33 => iprop(atPos ER (kcell (c, k)) 0 ∅ 0 ∗ reached ER (kcell (c, k)) 0))
          ∗ bigSep (Finset.univ.erase c) (mintToks c)) := by
  unfold G
  iintro ⟨Hos, Hus, Hst, Hat, Htok⟩
  ihave Hv := (sems0_eq (F := F) c) $$ [Hos Hus]
  · isplitl [Hos] <;> iassumption
  imod (show iprop((bigSep Finset.univ fun k : Fin 33 => semVal (kcell (c, k)) 0) ∗ bigSep Finset.univ fun k : Fin 33 => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens dealt -/

/-- A barrier token and the two receive tokens of the pair (c, p) go from c, whose cells they are of, to p, who pays
    them; the two send tokens stay. -/
theorem toks_around : (bigSep Finset.univ fun c : Dev nD => bigSep (Finset.univ.erase c) (mintToks (F := F) c))
    = bigSep Finset.univ fun c : Dev nD => bigSep (Finset.univ.erase c) (payToks c) := by
  unfold mintToks payToks
  simp only [bigSep_sep']
  rw [bigSep_erase_comm (fun c p : Dev nD => (dutyTok ER (barCell c) 0 p : sProp 𝕄)),
    bigSep_erase_comm (fun c p : Dev nD => (dutyTok ER (recvCell c 0 p) 0 p : sProp 𝕄)),
    bigSep_erase_comm (fun c p : Dev nD => (dutyTok ER (recvCell c 1 p) 0 p : sProp 𝕄))]

/-! ## Regrouping -/

instance records_persistent (K : Dev nD × Fin 33 → ℕ) : BI.Persistent (records m K) := by unfold records; infer_instance

/-- What the global step makes of a device's share. -/
def G' (c : Dev nD) : sProp 𝕄 := iprop(∃ K, ghost m K c)

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (sched m) κ (kcell (c, k))))
          ∗ (bigSep Finset.univ fun k : Fin 33 => iprop(atPos ER (kcell (c, k)) 0 ∅ 0 ∗ reached ER (kcell (c, k)) 0))
          ∗ bigSep (Finset.univ.erase c) (mintToks c)) : sProp 𝕄)
      ⊢ bigSep Finset.univ (G' m) := by
  rw [bigSep_sep', bigSep_sep', ← bigSep_univ_prod (fun ck : Dev nD × Fin 33 => iprop(∃ κ : ℕ, cellInv ER (sched m) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄)), toks_around]
  iintro ⟨HI, ⟨Hat, #HR⟩, Htok⟩
  ihave HK := (BI.bigSep_exists_pi Finset.univ (fun (ck : Dev nD × Fin 33) (κ : ℕ) => (cellInv ER (sched m) κ (kcell ck) : sProp 𝕄))) $$ HI
  icases HK with ⟨%K, #HI⟩
  iapply (bigSep_with_persistent (R := records m K) (Φ := linear) fun c _ => show iprop(records m K ∗ linear c) ⊢ G' m c from by
    unfold G' ghost; iintro H; iexists K; iexact H)
  isplitr
  · unfold records; isplitl; · iexact HI
    iexact HR
  · unfold linear
    iapply (Entails.of_eq (bigSep_sep' Finset.univ (fun c : Dev nD => bigSep Finset.univ fun k : Fin 33 => (atPos ER (kcell (c, k)) 0 ∅ 0 : sProp 𝕄))
      (fun c => bigSep (Finset.univ.erase c) (payToks c))).symm)
    isplitl [Hat]; · iexact Hat
    iexact Htok

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Sm

end
-- ==== Proof.W.LaunchCred.lean ====
/-
  The launch credit: what all devices together owe each of a device's cells at launch, and the credit tokens the
  launch deals the device for it.
-/
import proofs.«901053_g7700000000001054_dist_softmax_colshard_i_m1024_n1024_v7x_i8_bf16_1_alg».proof.Proof.W.Ghost

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Telling cells apart -/

theorem bar_eq_iff {a b : Dev nD} : Iff (barCell a = barCell b) (a = b) :=
  ⟨fun h => congrArg (fun g : GSem nD τ sig => g.1.1) h, fun h => h ▸ rfl⟩

theorem recv_ne_bar (c p : Dev nD) (b : Fin 2) (q : Dev nD) : recvCell c b q ≠ barCell p := fun h => by cases congrArg Prod.snd h

theorem recv_eq_iff {p c : Dev nD} {b' b : Fin 2} {d q : Dev nD} :
    Iff (recvCell c b q = recvCell p b' d) (c = p ∧ b = b' ∧ q = d) := by
  constructor
  · intro h
    have h1 : c = p := congrArg (fun g : GSem nD τ sig => g.1.1) h
    have h2 : (recvS b q).val = (recvS b' d).val := by
      have h3 : (SemLoc.dma (recvS b q) : SemLoc sig) = .dma (recvS b' d) := congrArg Prod.snd h
      injection h3 with h4; rw [h4]
    rw [recvS_val, recvS_val] at h2
    have := b.isLt; have := b'.isLt; have : q.val < 8 := q.isLt; have : d.val < 8 := d.isLt
    exact ⟨h1, Fin.ext (by omega), Fin.ext (by omega)⟩
  · rintro ⟨rfl, rfl, rfl⟩; rfl

/-! ## What a device owes a cell -/

/-- One summand of what device d owes, read at a barrier cell. -/
theorem term_bar (p d c : Dev nD) :
    (tallyAt (barCell p) () 1 + tallyAt (recvCell p 0 d) () Ncr + tallyAt (recvCell p 1 d) () Ncr : CellTallies nD τ sig Unit) (barCell c) ()
      = if c = p then 1 else 0 := by
  rw [Pi.add_apply, Finsupp.add_apply, Pi.add_apply, Finsupp.add_apply, tallyAt_apply,
    tallyAt_ne_cell (recv_ne_bar p c 0 d).symm, tallyAt_ne_cell (recv_ne_bar p c 1 d).symm, Finsupp.zero_apply, Nat.add_zero, Nat.add_zero]
  by_cases h : c = p
  · subst h; rw [if_pos ⟨rfl, rfl⟩, if_pos rfl]
  · rw [if_neg (fun h' => h (bar_eq_iff.mp h'.1)), if_neg h]

/-- The same summand read at a receive cell. -/
theorem term_recv (p d c : Dev nD) (b : Fin 2) (q : Dev nD) :
    (tallyAt (barCell p) () 1 + tallyAt (recvCell p 0 d) () Ncr + tallyAt (recvCell p 1 d) () Ncr : CellTallies nD τ sig Unit) (recvCell c b q) ()
      = if c = p then (if q = d then Ncr else 0) else 0 := by
  rw [Pi.add_apply, Finsupp.add_apply, Pi.add_apply, Finsupp.add_apply, tallyAt_ne_cell (recv_ne_bar c p b q), Finsupp.zero_apply, Nat.zero_add,
    tallyAt_apply, tallyAt_apply]
  simp only [recv_eq_iff, and_true]
  have hb : b = 0 ∨ b = 1 := by revert b; decide
  by_cases h1 : c = p <;> by_cases h2 : q = d <;> rcases hb with rfl | rfl <;> simp [h1, h2]

theorem owed_bar (d c : Dev nD) : O₀ d (barCell c) () = if c ≠ d then 1 else 0 := by
  unfold O₀
  rw [Finset.sum_apply, Finsupp.finsetSum_apply, Finset.sum_congr rfl fun p _ => term_bar p d c, Finset.sum_ite_eq (Finset.univ.erase d) c fun _ => 1]
  simp only [Finset.mem_erase, Finset.mem_univ, and_true]

theorem owed_recv (d c : Dev nD) (b : Fin 2) (q : Dev nD) : O₀ d (recvCell c b q) () = if q = d then (if c ≠ q then Ncr else 0) else 0 := by
  unfold O₀
  rw [Finset.sum_apply, Finsupp.finsetSum_apply, Finset.sum_congr rfl fun p _ => term_recv p d c b q,
    Finset.sum_ite_eq (Finset.univ.erase d) c fun _ => if q = d then Ncr else 0]
  simp only [Finset.mem_erase, Finset.mem_univ, and_true]
  by_cases h : q = d
  · subst h; simp only [if_true]
  · simp only [if_neg h, ite_self]

/-! ## The launch credit of a device's cells -/

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (b : Fin 2) (q : Dev nD) (hq : q ≠ c) :
    tallyOn (recvCell c b q) (launchCredit (Pipeline.owing O₀) 0 (recvCell c b q)) = (tallyAt (recvCell c b q) () Ncr : CellTallies nD τ sig Unit) := by
  unfold tallyAt; refine congrArg _ (Finsupp.ext fun u => ?_); cases u
  rw [Pipeline.launchCredit_owing, Finsupp.single_eq_same, Finset.sum_congr rfl fun d _ => owed_recv d c b q,
    Finset.sum_ite_eq Finset.univ q fun _ => if c ≠ q then Ncr else 0, if_pos (Finset.mem_univ _), if_pos hq.symm]

/-- The receive semaphores of one half, by the sending device. -/
def eRecv (b : Fin 2) : Dev nD ↪ SemLoc sig := ⟨fun q => .dma (recvS b q), fun q q' h => by
  have h2 : (recvS b q).val = (recvS b q').val := by
    have h3 : (SemLoc.dma (recvS b q) : SemLoc sig) = .dma (recvS b q') := h
    injection h3 with h4; rw [h4]
  rw [recvS_val, recvS_val] at h2; exact Fin.ext (by omega)⟩

theorem eRecv_disjoint (s t : Finset (Dev nD)) : Disjoint (s.map (eRecv 0)) (t.map (eRecv 1)) := by
  rw [Finset.disjoint_left]
  intro sm h0 h1
  obtain ⟨q, -, rfl⟩ := Finset.mem_map.mp h0
  obtain ⟨q', -, h⟩ := Finset.mem_map.mp h1
  have h2 : (recvS 1 q').val = (recvS 0 q).val := by
    have h3 : (SemLoc.dma (recvS 1 q') : SemLoc sig) = .dma (recvS 0 q) := h
    injection h3 with h4; rw [h4]
  rw [recvS_val, recvS_val] at h2
  have : q.val < 8 := q.isLt
  simp only [Fin.val_zero, Fin.val_one] at h2
  omega

/-- The credit tokens the launch deals device c are those its waits consume. -/
theorem launch_creds (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := (Finset.univ.erase c).map (eRecv 0) ∪ (Finset.univ.erase c).map (eRecv 1)) ?_).trans ?_
  · intro sm hsm
    rw [Finset.mem_erase]; refine ⟨?_, Finset.mem_univ _⟩
    rcases Finset.mem_union.mp hsm with h | h <;> obtain ⟨q, -, rfl⟩ := Finset.mem_map.mp h <;> exact fun h' => by cases h'
  · rw [bigSep_union (eRecv_disjoint _ _), bigSep_map, bigSep_map, ← bigSep_sep]
    refine bigSep_mono fun q hq => ?_
    have hq' : q ≠ c := (Finset.mem_erase.mp hq).1
    show iprop(cred (tallyOn (recvCell c 0 q) (launchCredit (Pipeline.owing O₀) 0 (recvCell c 0 q)))
      ∗ cred (tallyOn (recvCell c 1 q) (launchCredit (Pipeline.owing O₀) 0 (recvCell c 1 q)))) ⊢ _
    rw [launch_recv c 0 q hq', launch_recv c 1 q hq']

end Cert.Kernel.Sm

end
-- ==== Proof.W.LaunchLev.lean ====
/-
  The levels of the cells and the evidence a wait presents: a device waits on a cell only while everything it still owes
  sits at cells of a higher level. Staging and send cells are at 0, barrier cells at 1, receive cells at 2.
-/
import proofs.«901053_g7700000000001054_dist_softmax_colshard_i_m1024_n1024_v7x_i8_bf16_1_alg».proof.Proof.W.Ghost

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := rfl
theorem lv_recv (c : Dev nD) (b : Fin 2) (q : Dev nD) : lv (recvCell c b q) () = 2 := by
  show (if 18 ≤ (recvS b q).val then 2 else 0) = 2; rw [recvS_val, if_pos (by omega)]
theorem lv_send (c : Dev nD) (b : Fin 2) (p : Dev nD) : lv (sendCell c b p) () = 0 := by
  show (if 18 ≤ (sendS b p).val then 2 else 0) = 0
  rw [sendS_val, if_neg (by have := b.isLt; have : p.val < 8 := p.isLt; omega)]
theorem lv_low (c : Dev nD) (s : DmaSem sig) (hs : s.val < 18) : lv ((c : Thread nD τ), .dma s) () = 0 := by
  show (if 18 ≤ s.val then 2 else 0) = 0; rw [if_neg (by omega)]

/-! ## Where a tally is positive -/

/-- Positive only at receive cells. -/
def RecvOnly (O : CellTallies nD τ sig Unit) : Prop := ∀ g u, 0 < O g u → ∃ p b q, g = recvCell p b q
/-- Positive only at barrier and receive cells. -/
def BarRecvOnly (O : CellTallies nD τ sig Unit) : Prop := ∀ g u, 0 < O g u → (∃ p, g = barCell p) ∨ ∃ p b q, g = recvCell p b q

theorem RecvOnly.barRecv {O : CellTallies nD τ sig Unit} (h : RecvOnly O) : BarRecvOnly O := fun g u hg => .inr (h g u hg)
theorem recvOnly_zero : RecvOnly (0 : CellTallies nD τ sig Unit) := fun g u h => absurd h (Nat.lt_irrefl 0)
theorem barRecvOnly_zero : BarRecvOnly (0 : CellTallies nD τ sig Unit) := recvOnly_zero.barRecv

theorem tallyAt_pos {g g' : GSem nD τ sig} {u u' : Unit} {k : ℕ} (h : 0 < tallyAt g u k g' u') : g' = g := by
  rw [tallyAt_apply] at h
  by_contra hn
  rw [if_neg (fun h' => hn h'.1)] at h
  exact Nat.lt_irrefl 0 h

theorem recvOnly_tallyAt (p : Dev nD) (b : Fin 2) (q : Dev nD) (k : ℕ) : RecvOnly (tallyAt (recvCell p b q) () k) :=
  fun g u h => ⟨p, b, q, tallyAt_pos h⟩
theorem barRecvOnly_tallyAt_bar (p : Dev nD) (k : ℕ) : BarRecvOnly (tallyAt (barCell p) () k) :=
  fun g u h => .inl ⟨p, tallyAt_pos h⟩
theorem RecvOnly.add {O O' : CellTallies nD τ sig Unit} (h : RecvOnly O) (h' : RecvOnly O') : RecvOnly (O + O') :=
  fun g u hg => (Pipeline.add_pos_cases hg).elim (h g u) (h' g u)
theorem BarRecvOnly.add {O O' : CellTallies nD τ sig Unit} (h : BarRecvOnly O) (h' : BarRecvOnly O') : BarRecvOnly (O + O') :=
  fun g u hg => (Pipeline.add_pos_cases hg).elim (h g u) (h' g u)
theorem RecvOnly.sum {α : Type} {s : Finset α} {D : α → CellTallies nD τ sig Unit} (h : ∀ x ∈ s, RecvOnly (D x)) : RecvOnly (∑ x ∈ s, D x) :=
  fun g u hg => by obtain ⟨x, hx, hg'⟩ := Pipeline.sum_pos_exists hg; exact h x hx g u hg'
theorem BarRecvOnly.sum {α : Type} {s : Finset α} {D : α → CellTallies nD τ sig Unit} (h : ∀ x ∈ s, BarRecvOnly (D x)) : BarRecvOnly (∑ x ∈ s, D x) :=
  fun g u hg => by obtain ⟨x, hx, hg'⟩ := Pipeline.sum_pos_exists hg; exact h x hx g u hg'

/-- What a device owes at launch sits at barrier and receive cells. -/
theorem O₀_barRecv (c : Dev nD) : BarRecvOnly (O₀ c) :=
  BarRecvOnly.sum fun p _ => ((barRecvOnly_tallyAt_bar p 1).add (recvOnly_tallyAt p 0 c Ncr).barRecv).add (recvOnly_tallyAt p 1 c Ncr).barRecv

/-! ## The evidence of the waits -/

omit [FloatOps F] in
/-- A wait on a staging or a send cell, while the device owes units of barrier and receive cells only. -/
theorem mayWait_low (c : Dev nD) (s : DmaSem sig) (hs : s.val < 18) (O : CellTallies nD τ sig Unit) (hO : BarRecvOnly O) :
    (levAts L lv : sProp 𝕄) ⊢ MayWait (c : Thread nD τ) (.dma s) () O :=
  Pipeline.mayWait_of_levAts (by rw [L_tc]; exact Finset.mem_singleton_self _) fun g u hg => by
    cases u
    rw [lv_low c s hs]
    rcases hO g () hg with ⟨p, rfl⟩ | ⟨p, b, q, rfl⟩
    · exact ⟨by rw [L_tc]; exact Finset.mem_singleton_self _, by rw [lv_bar]; decide⟩
    · exact ⟨by rw [L_tc]; exact Finset.mem_singleton_self _, by rw [lv_recv]; decide⟩

omit [FloatOps F] in
/-- The barrier wait, while the device owes receive credit only. -/
theorem mayWait_bar (c : Dev nD) (O : CellTallies nD τ sig Unit) (hO : RecvOnly O) :
    (levAts L lv : sProp 𝕄) ⊢ MayWait (c : Thread nD τ) (.reg barS) () O :=
  Pipeline.mayWait_of_levAts (by rw [L_tc]; exact Finset.mem_singleton_self _) fun g u hg => by
    cases u
    obtain ⟨p, b, q, rfl⟩ := hO g () hg
    exact ⟨by rw [L_tc]; exact Finset.mem_singleton_self _, by rw [lv_recv]; show (1 : ℕ) < 2; decide⟩

omit [FloatOps F] in
/-- A wait of a device that owes nothing. -/
theorem mayWait_none (c : Dev nD) (s : SemLoc sig) : (levAts L lv : sProp 𝕄) ⊢ MayWait (c : Thread nD τ) s () 0 := by
  rw [MayWait_zero]; iintro -; iempintro

/-- The pipeline's staging cells: at their waits the device owes what it owes at launch, or nothing. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide) _ (O₀_barRecv c)
    · exact mayWait_none c _

end Cert.Kernel.Sm

end
-- ==== Proof.W.Launch.lean ====
/-
  The launch: from a proof of one device's kernel body to the run of the whole program on the eight devices, and the final
  arrays read off it.
-/
import proofs.«901053_g7700000000001054_dist_softmax_colshard_i_m1024_n1024_v7x_i8_bf16_1_alg».proof.Proof.W.LaunchDeal
import proofs.«901053_g7700000000001054_dist_softmax_colshard_i_m1024_n1024_v7x_i8_bf16_1_alg».proof.Proof.W.LaunchCred
import proofs.«901053_g7700000000001054_dist_softmax_colshard_i_m1024_n1024_v7x_i8_bf16_1_alg».proof.Proof.W.LaunchLev

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The launch theorem's side conditions -/

theorem dats_share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (launch_creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq]
  unfold Φ₁ scratches Pipeline.ownSems0
  iintro ⟨Hr, Hz⟩
  isplitr; · iempintro
  isplitl [Hz]; · iexact Hz
  iexact Hr

/-! ## The run -/

set_option maxRecDepth 8000 in
/-- At the compiled mesh of eight devices, for any float values, from any memory with zero counters: given the body's proof on
    every device, every weakly fair execution of the program terminates, and in every final state each device's windowed
    arrays hold what the proof data say. -/
theorem run_main (hbody : ∀ c : Dev nD, BodyObligation (dats (F := F) m ρ 0 c) (defs₀ (F := F)) 𝒱₀ () Set.univ) :
    θ_run defs (onTc (τ := τ) (main (F := F))) (s₀ m ρ)
      (fun r => ∀ c : Dev nD, ∀ w : Fin cfg0.W, r.2.mem ((cfg0.win w).arr.view.loc (c : Thread nD τ)) = (dats m ρ 0 c).arrAt w cfg0.N) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := dats_share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_proto m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Sm.run_main' depends on axioms: [propext, Classical.choice, Quot.sound] -/
#guard_msgs in #print axioms run_main

/-! ## The final arrays -/

/-- The one block of either window is the whole array: reading it reads the array. -/
theorem read_blk0 (X : XBlk F) : (win0_0.blk (0 : Fin 1)).view.read (Elt F) X = X := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) X
theorem read_blk1 (X : OBlk F) : ((cfg0.win (1 : Fin 2)).blk t₀).view.read (Elt F) X = X := by
  have hz : (fun a => (win0_1.index t₀) a * main_v1.ty.shape.size a) = fun _ => 0 := funext fun a => by fin_cases a <;> decide
  exact Memref.read_access_unit_zero (Elt F) main_v1 hz (fun a => by fin_cases a <;> decide) X

/-- A device's staged input block is its input array as launched. -/
theorem xstg_eq (q : Dev nD) : xstg m ρ q = xOf m q := by unfold xstg; exact read_blk0 _

/-- The input array is never written. -/
theorem final_x (c : Dev nD) : (dats m ρ 0 c).arrAt (0 : Fin 2) cfg0.N = m ((c : Thread nD τ).loc main_arg0) :=
  (dats (F := F) m ρ 0 c).arrAt_in (0 : Fin 2) rfl _

/-- The result array after its one write-back holds what the body left in the staging buffer. -/
theorem final_out (c : Dev nD) : (dats m ρ 0 c).arrAt (1 : Fin 2) cfg0.N = outOf (fun q => xOf m q) c := by
  have h1 : ((cfg0.win (1 : Fin 2)).blk t₀).view.read (Elt F) ((dats m ρ 0 c).arrAt (1 : Fin 2) cfg0.N) = outOf (fun q => xstg m ρ q) c := by
    rw [show cfg0.N = (t₀ : Fin cfg0.N).val + 1 from rfl, (dats m ρ 0 c).arrAt_succ (1 : Fin 2) t₀, if_pos (flush0_1 t₀)]
    exact View.read_write_univ _ _
  rw [read_blk1, funext (xstg_eq m ρ)] at h1
  exact h1

/-- The run with each device's result named: its result array ends as `outOf` of all devices' input arrays, its input
    array unchanged. -/
theorem run_claim (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outOf (fun q => xOf m q) c
        ∧ r.2.mem ((c.tc : Thread nD τ).loc main_arg0) = m ((c.tc : Thread nD τ).loc main_arg0)) :=
  (θ_run defs _ _).mono (fun _ h c => ⟨(h c (1 : Fin 2)).trans (final_out m ρ c), (h c (0 : Fin 2)).trans (final_x m ρ c)⟩)
    (run_main m ρ hbody)

/-- info: 'Cert.Kernel.Sm.run_claim' depends on axioms: [propext, Classical.choice, Quot.sound] -/
#guard_msgs in #print axioms run_claim

end Cert.Kernel.Sm

end
-- ==== Proof.KernelValue.lean ====
/-
  Device c's result block read at an index: exp (x - 16) of its own entry times the reciprocal of the eight devices'
  row sums of exp (x - 16), in terms of the devices' input blocks.
-/
import proofs.«901053_g7700000000001054_dist_softmax_colshard_i_m1024_n1024_v7x_i8_bf16_1_alg».proof.Proof.Out
import Idealize.ShloMosaic.Lib.ValueIdx
import Idealize.ShloMosaic.Lib.ValueLayout
import Idealize.ShloMosaic.Lib.Pipeline.Value
import Idealize.ShloMosaic.PureOps.Ideal.Laws

noncomputable section
namespace Cert.KernelIdeal.Sm
open Cert.KernelIdeal Cert.KernelIdeal.Gen
open Idealize.ShloMosaic Idealize.SL.Sem
open Idealize.ShloMosaic.ValueIdx

theorem xTop_apply (X : XBlk Ideal) (r : Fin 512) (k : Fin 1024) :
    xTop X (ix2 r k) = X (ix2 (⟨r.val, by omega⟩ : Fin 1024) k) := by
  unfold xTop
  rw [View.readAt_apply, View.read_apply]
  show X _ = X _
  refine congrArg X (funext fun a => Fin.ext ?_)
  match a with
  | ⟨0, _⟩ => first | rfl | (show 0 + 1 * r.val = r.val; omega) | (show 0 + r.val * 1 = r.val; omega)
  | ⟨1, _⟩ => first | rfl | (show 0 + 1 * k.val = k.val; omega) | (show 0 + k.val * 1 = k.val; omega)

theorem xBot_apply (X : XBlk Ideal) (r : Fin 512) (k : Fin 1024) :
    xBot X (ix2 r k) = X (ix2 (⟨512 + r.val, by omega⟩ : Fin 1024) k) := by
  unfold xBot
  rw [View.readAt_apply, View.read_apply]
  show X _ = X _
  refine congrArg X (funext fun a => Fin.ext ?_)
  match a with
  | ⟨0, _⟩ => first | rfl | (show 512 + 1 * r.val = 512 + r.val; omega) | (show 512 + r.val * 1 = 512 + r.val; omega)
  | ⟨1, _⟩ => first | rfl | (show 0 + 1 * k.val = k.val; omega) | (show 0 + k.val * 1 = k.val; omega)

theorem eTop_apply (X : XBlk Ideal) (i : S512x1024.Idx) : eTop X i = Ideal.exp (xTop X i - c16 (F := Ideal)) := by
  unfold eTop k0_pay3 k0_pay2 k0_pay1
  rw [shapeCast_self]
  rfl

theorem eBot_apply (X : XBlk Ideal) (i : S512x1024.Idx) : eBot X i = Ideal.exp (xBot X i - c16 (F := Ideal)) := by
  unfold eBot k0_pay7 k0_pay6
  rw [shapeCast_self]
  rfl

/-- A row sum of a 512 x 1024 vector. -/
theorem rowsum_apply (src : FVec Ideal S512x1024 .f32) (i : Fin 512) :
    multiReduction .add [1] S512 src 0x00000000#32 reduces_S512x1024_S512 (.inl rfl) rfl (ix1 i) = ∑ k : Fin 1024, src (ix2 i k) := by
  refine (Ideal.multiReduction_add_single src 0x00000000#32 reduces_S512x1024_S512 (.inl rfl) rfl (ix1 i)).trans ?_
  refine Finset.sum_congr rfl fun k _ => congrArg src (funext fun a => Fin.ext ?_)
  match a with
  | ⟨0, _⟩ => rfl
  | ⟨1, _⟩ => rfl

/-- The sum over the eight rows of an 8 x 512 vector. -/
theorem colsum_apply (src : FVec Ideal S8x512 .f32) (i : Fin 512) :
    multiReduction .add [0] S512 src 0x00000000#32 reduces_S8x512_S512 (.inl rfl) rfl (ix1 i) = ∑ q : Fin 8, src (ix2 q i) := by
  refine (Ideal.multiReduction_add_single src 0x00000000#32 reduces_S8x512_S512 (.inl rfl) rfl (ix1 i)).trans ?_
  refine Finset.sum_congr rfl fun k _ => congrArg src (funext fun a => Fin.ext ?_)
  match a with
  | ⟨0, _⟩ => rfl
  | ⟨1, _⟩ => rfl

/-- A vector [512] as a column [512, 1]. -/
theorem shapeCast_col_apply {α : Type} (x : S512.Idx → α) (i : Fin 512) (u : Fin 1) :
    shapeCast S512x1 x shapeCasts_S512_S512x1 (ix2 i u) = x (ix1 i) :=
  shapeCast_apply x shapeCasts_S512_S512x1 _ _ (by
    have hu : u.val = 0 := by omega
    rw [Shape.rowMajor_val_two, Shape.rowMajor_val_one]
    show i.val = i.val * 1 + u.val
    omega)

/-- [8, 1, 1, 512] as [8, 512]. -/
theorem shapeCast_8x512_apply {α : Type} (x : S8x1x1x512.Idx → α) (q : Fin 8) (i : Fin 512) :
    shapeCast S8x512 x shapeCasts_S8x1x1x512_S8x512 (ix2 q i) = x (ix4 q (0 : Fin 1) (0 : Fin 1) i) :=
  shapeCast_apply x shapeCasts_S8x1x1x512_S8x512 _ _ (by
    rw [Shape.rowMajor_val_four, Shape.rowMajor_val_two]
    show ((q.val * 1 + 0) * 1 + 0) * 512 + i.val = q.val * 512 + i.val
    omega)

/-- A column [512, 1] broadcast along the rows of [512, 1024]. -/
theorem broadcastTo_col_apply {α : Type} (x : S512x1.Idx → α) (r : Fin 512) (j : Fin 1024) :
    broadcastTo S512x1024 x broadcasts_S512x1_S512x1024 (ix2 r j) = x (ix2 r (0 : Fin 1)) := by
  refine broadcastTo_apply x broadcasts_S512x1_S512x1024 (ix2 r j) (ix2 r (0 : Fin 1)) fun ax => ?_
  match ax with
  | ⟨0, _⟩ => rfl
  | ⟨1, _⟩ => rfl

theorem pay1_eq (v : Vec Ideal S512x1024 .f32) : k0_pay1 v = v := by
  unfold k0_pay1; exact shapeCast_self _ _

theorem pay2_apply (v : FVec Ideal S512x1024 .f32) (c : Ideal .f32) (i : S512x1024.Idx) :
    k0_pay2 v c i = Ideal.exp (v i - c) := rfl

theorem pay6_apply (v : Vec Ideal S512x1024 .f32) (i : S512x1024.Idx) :
    k0_pay6 v i = Ideal.exp (v i - c16 (F := Ideal)) := by
  unfold k0_pay6; rw [shapeCast_self]; rfl

theorem sTop_apply (X : XBlk Ideal) (u v : Fin 1) (r : Fin 512) :
    sTop X (ix3 u v r) = ∑ k : Fin 1024, Ideal.exp (xTop X (ix2 r k) - c16 (F := Ideal)) := by
  unfold sTop k0_pay4
  refine (shapeCast_ab_1ab_apply _ shapeCasts_S1x512_S1x1x512 u v r).trans ?_
  refine (transpose_ix2_apply _ transposes_S512x1_p1_0_S1x512 v r).trans ?_
  refine (shapeCast_col_apply _ r v).trans ?_
  refine (rowsum_apply _ r).trans ?_
  refine Finset.sum_congr rfl fun k _ => ?_
  rw [pay2_apply, pay1_eq]

theorem sBot_apply (X : XBlk Ideal) (u v : Fin 1) (r : Fin 512) :
    sBot X (ix3 u v r) = ∑ k : Fin 1024, Ideal.exp (xBot X (ix2 r k) - c16 (F := Ideal)) := by
  unfold sBot k0_pay8
  refine (shapeCast_ab_1ab_apply _ shapeCasts_S1x512_S1x1x512 u v r).trans ?_
  refine (transpose_ix2_apply _ transposes_S512x1_p1_0_S1x512 v r).trans ?_
  refine (shapeCast_col_apply _ r v).trans ?_
  refine (rowsum_apply _ r).trans ?_
  exact Finset.sum_congr rfl fun k _ => pay6_apply _ _

theorem pay10_apply (v138 : Vec Ideal S8x1x1x512 .f32) (v145 : Vec Ideal S512x1024 .bf16) (r : Fin 512) (j : Fin 1024) :
    k0_pay10 v138 v145 (ix2 r j)
      = v145 (ix2 r j) * Ideal.div (Ideal.ofBits .f32 0x3F800000#32) (∑ q : Fin 8, v138 (ix4 q (0 : Fin 1) (0 : Fin 1) r)) := by
  unfold k0_pay10
  simp only [truncf_apply, mulf_apply, extf_apply, shapeCast_self]
  rw [broadcastTo_col_apply, transpose_ix2_apply, divf_apply, shapeCast_a_1a_apply, colsum_apply]
  simp only [shapeCast_8x512_apply]
  rfl

theorem pay13_apply (v176 : Vec Ideal S8x1x1x512 .f32) (v183 : Vec Ideal S512x1024 .bf16) (r : Fin 512) (j : Fin 1024) :
    k0_pay13 (k0_pay11 v176) (k0_pay12 (F := Ideal)) v183 (ix2 r j)
      = v183 (ix2 r j) * Ideal.div (Ideal.ofBits .f32 0x3F800000#32) (∑ q : Fin 8, v176 (ix4 q (0 : Fin 1) (0 : Fin 1) r)) := by
  unfold k0_pay13 k0_pay12 k0_pay11
  simp only [truncf_apply, mulf_apply, extf_apply, shapeCast_self]
  rw [broadcastTo_col_apply, transpose_ix2_apply, divf_apply, shapeCast_a_1a_apply, colsum_apply]
  simp only [shapeCast_8x512_apply]
  rfl

theorem commOf_apply (Xs : Dev nD → XBlk Ideal) (q : Fin 8) (b : Fin 2) (v : Fin 1) (r : Fin 512) :
    commOf Xs (ix4 q b v r) = mineOf (Xs q) (ix3 b (0 : Fin 1) r) := rfl

theorem mineOf_zero (X : XBlk Ideal) (v : Fin 1) (r : Fin 512) :
    mineOf X (ix3 (0 : Fin 2) v r) = sTop X (ix3 (0 : Fin 1) (0 : Fin 1) r) := by
  unfold mineOf; exact if_pos rfl

theorem mineOf_one (X : XBlk Ideal) (v : Fin 1) (r : Fin 512) :
    mineOf X (ix3 (1 : Fin 2) v r) = sBot X (ix3 (0 : Fin 1) (0 : Fin 1) r) := by
  unfold mineOf; exact if_neg (show ¬ ((1 : Fin 2).val = 0) by decide)

theorem commTop_apply (Xs : Dev nD → XBlk Ideal) (q : Fin 8) (u v : Fin 1) (r : Fin 512) :
    commTop Xs (ix4 q u v r) = sTop (Xs q) (ix3 (0 : Fin 1) (0 : Fin 1) r) := by
  have hu : u.val = 0 := by omega
  have hv : v.val = 0 := by omega
  rw [← mineOf_zero (Xs q) (0 : Fin 1) r, ← commOf_apply Xs q (0 : Fin 2) (0 : Fin 1) r]
  unfold commTop
  rw [View.readAt_apply, View.read_apply]
  show commOf Xs _ = commOf Xs _
  refine congrArg (commOf Xs) (funext fun a => Fin.ext ?_)
  match a with
  | ⟨0, _⟩ => first | rfl | (show 0 + 1 * q.val = q.val; omega)
  | ⟨1, _⟩ => first | (show 0 + 1 * u.val = 0; omega)
  | ⟨2, _⟩ => first | (show 0 + 1 * v.val = 0; omega)
  | ⟨3, _⟩ => first | rfl | (show 0 + 1 * r.val = r.val; omega)

theorem commBot_apply (Xs : Dev nD → XBlk Ideal) (q : Fin 8) (u v : Fin 1) (r : Fin 512) :
    commBot Xs (ix4 q u v r) = sBot (Xs q) (ix3 (0 : Fin 1) (0 : Fin 1) r) := by
  have hu : u.val = 0 := by omega
  have hv : v.val = 0 := by omega
  rw [← mineOf_one (Xs q) (0 : Fin 1) r, ← commOf_apply Xs q (1 : Fin 2) (0 : Fin 1) r]
  unfold commBot
  rw [View.readAt_apply, View.read_apply]
  show commOf Xs _ = commOf Xs _
  refine congrArg (commOf Xs) (funext fun a => Fin.ext ?_)
  match a with
  | ⟨0, _⟩ => first | rfl | (show 0 + 1 * q.val = q.val; omega)
  | ⟨1, _⟩ => first | (show 1 + 1 * u.val = 1; omega)
  | ⟨2, _⟩ => first | (show 0 + 1 * v.val = 0; omega)
  | ⟨3, _⟩ => first | rfl | (show 0 + 1 * r.val = r.val; omega)

/-- The top half of device c's result at (r, j). -/
theorem oTop_apply (Xs : Dev nD → XBlk Ideal) (c : Dev nD) (r : Fin 512) (j : Fin 1024) :
    oTop Xs c (ix2 r j)
      = Ideal.exp (xTop (Xs c) (ix2 r j) - c16 (F := Ideal))
        * Ideal.div (Ideal.ofBits .f32 0x3F800000#32)
            (∑ q : Fin 8, ∑ k : Fin 1024, Ideal.exp (xTop (Xs q) (ix2 r k) - c16 (F := Ideal))) := by
  unfold oTop
  rw [pay10_apply, eTop_apply]
  simp only [commTop_apply, sTop_apply]

/-- The bottom half of device c's result at (r, j). -/
theorem oBot_apply (Xs : Dev nD → XBlk Ideal) (c : Dev nD) (r : Fin 512) (j : Fin 1024) :
    oBot Xs c (ix2 r j)
      = Ideal.exp (xBot (Xs c) (ix2 r j) - c16 (F := Ideal))
        * Ideal.div (Ideal.ofBits .f32 0x3F800000#32)
            (∑ q : Fin 8, ∑ k : Fin 1024, Ideal.exp (xBot (Xs q) (ix2 r k) - c16 (F := Ideal))) := by
  unfold oBot
  rw [pay13_apply, eBot_apply]
  simp only [commBot_apply, sBot_apply]

/-- An input block's entry at (r, k), as an extended real. -/
abbrev xAt (X : XBlk Ideal) (r : Fin 1024) (k : Fin 1024) : EReal := X (ix2 r k)

/-- Device c's result block at (r, j), for both halves. -/
theorem outOf_apply (Xs : Dev nD → XBlk Ideal) (c : Dev nD) (r : Fin 1024) (j : Fin 1024) :
    outOf Xs c (ix2 r j)
      = Ideal.exp (xAt (Xs c) r j - c16 (F := Ideal))
        * Ideal.div (Ideal.ofBits .f32 0x3F800000#32)
            (∑ q : Fin 8, ∑ k : Fin 1024, Ideal.exp (xAt (Xs q) r k - c16 (F := Ideal))) := by
  unfold outOf
  by_cases h : r.val < 512
  · refine (dif_pos (show (ix2 r j 0).val < 512 from h)).trans ?_
    show oTop Xs c (ix2 (⟨r.val, h⟩ : Fin 512) j) = _
    rw [oTop_apply]
    simp only [xTop_apply]
  · refine (dif_neg (show ¬ (ix2 r j 0).val < 512 from h)).trans ?_
    have hr : r.val - 512 < 512 := by have := r.isLt; omega
    show oBot Xs c (ix2 (⟨r.val - 512, hr⟩ : Fin 512) j) = _
    rw [oBot_apply]
    simp only [xBot_apply]
    have e : (⟨512 + (r.val - 512), by omega⟩ : Fin 1024) = r := Fin.ext (by show 512 + (r.val - 512) = r.val; omega)
    simp only [e]

end Cert.KernelIdeal.Sm
end
-- ==== Proof.RefRun.lean ====
/-
  The reference's run: its result as one pure term of its argument array, and the run stated with that term.
-/
import proofs.«901053_g7700000000001054_dist_softmax_colshard_i_m1024_n1024_v7x_i8_bf16_1_alg».proof.Proof.Gen.ReferenceIdeal.Run
import proofs.«901053_g7700000000001054_dist_softmax_colshard_i_m1024_n1024_v7x_i8_bf16_1_alg».proof.Proof.Gen.ReferenceIdeal.Read

noncomputable section

namespace Cert.KernelIdeal.Sm

open Idealize.ShloMosaic Idealize.SL.Sem

/-- The reference's result array as a function of its argument array: exp (x - rowmax) over the row sum of that. -/
def refOut (X : (⟨Cert.ReferenceIdeal.S1024x8192, .f32⟩ : BufTy).Contents (Elt Ideal)) :
    (⟨Cert.ReferenceIdeal.S1024x8192, .bf16⟩ : BufTy).Contents (Elt Ideal) :=
  Cert.ReferenceIdeal.Read.val_main_v9 (F := Ideal) X

/-- Every weakly fair execution of the reference terminates with its result at refOut of its argument, the argument unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      (fun r =>
        r.2.mem (((0 : Dev Cert.ReferenceIdeal.nD).tc : Thread Cert.ReferenceIdeal.nD Cert.ReferenceIdeal.τ).loc Cert.ReferenceIdeal.main_v9)
            = refOut (m' (((0 : Dev Cert.ReferenceIdeal.nD).tc : Thread Cert.ReferenceIdeal.nD Cert.ReferenceIdeal.τ).loc Cert.ReferenceIdeal.main_arg0))
        ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v9_eq _), (h 0).2⟩)
    (Cert.ReferenceIdeal.Value.run (F := Ideal) m' g')

end Cert.KernelIdeal.Sm

end
-- ==== Proof.SmLaw.lean ====
/-
  The law between the two arrangements of one row's softmax, on the extended reals with every entry a real:
  exp (a - s) times the reciprocal of the eight devices' sums of exp (x - s) is exp (a - M) over the sum of exp (x - M),
  for any real shifts s and M. Also: the 8192 columns as 8 blocks of 1024, and the maximum of reals is a real.
-/
import Idealize.ShloMosaic.PureOps.Ideal
import Idealize.ShloMosaic.PureOps.Ideal.Laws
import Mathlib.Logic.Equiv.Fin.Basic
import Mathlib.Data.Finset.Fold
import Mathlib.Data.EReal.Basic

noncomputable section

namespace Cert.KernelIdeal.Sm.Law

open Idealize.ShloMosaic
open scoped BigOperators

/-- An extended real that is a real. -/
def IsReal (x : EReal) : Prop := ∃ r : ℝ, x = (r : EReal)

theorem isReal_of_ne {x : EReal} (h1 : x ≠ ⊤) (h2 : x ≠ ⊥) : IsReal x :=
  ⟨x.toReal, (EReal.coe_toReal h1 h2).symm⟩

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Column k of block q of the 8 blocks of 1024 columns. -/
def col (q : Fin 8) (k : Fin 1024) : Fin 8192 := ⟨q.val * 1024 + k.val, by have := q.isLt; have := k.isLt; omega⟩

theorem col_val (q : Fin 8) (k : Fin 1024) : (col q k).val = q.val * 1024 + k.val := rfl

/-- A sum over the 8192 columns is the sum over the 8 blocks of the sums over a block's 1024 columns. -/
theorem sum_cols {M : Type} [AddCommMonoid M] (f : Fin 8192 → M) :
    ∑ K : Fin 8192, f K = ∑ q : Fin 8, ∑ k : Fin 1024, f (col q k) := by
  rw [← Equiv.sum_comp ((finProdFinEquiv (m := 8) (n := 1024)).trans (finCongr (show 8 * 1024 = 8192 by norm_num))) f,
    Fintype.sum_prod_type]
  refine Finset.sum_congr rfl fun q _ => Finset.sum_congr rfl fun k _ => congrArg f (Fin.ext ?_)
  show k.val + 1024 * q.val = q.val * 1024 + k.val
  omega

/-- The law over the reals. -/
theorem law_real {ι : Type} [Fintype ι] [Nonempty ι] (y : ι → ℝ) (a s M : ℝ) :
    Real.exp (a - s) * (1 / ∑ K, Real.exp (y K - s)) = Real.exp (a - M) * (1 / ∑ K, Real.exp (y K - M)) := by
  have hT : 0 < ∑ K, Real.exp (y K) := Finset.sum_pos (fun K _ => Real.exp_pos _) Finset.univ_nonempty
  have hs := Real.exp_pos s
  have hM := Real.exp_pos M
  simp only [Real.exp_sub, ← Finset.sum_div]
  field_simp

/-- The law on the extended reals: every entry, and both shifts, reals. -/
theorem law (x : Fin 8192 → EReal) (hx : ∀ K, IsReal (x K)) (s M : EReal) (hs : IsReal s) (hM : IsReal M)
    (one zero : EReal) (h1 : one = 1) (h0 : zero = 0) (J : Fin 8192) :
    Ideal.exp (x J - s) * Ideal.div one (∑ q : Fin 8, ∑ k : Fin 1024, Ideal.exp (x (col q k) - s))
      = Ideal.div (Ideal.exp (x J - M)) (zero + ∑ K : Fin 8192, Ideal.exp (x K - M)) := by
  subst h1 h0
  choose y hy using hx
  obtain ⟨s', rfl⟩ := hs
  obtain ⟨M', rfl⟩ := hM
  rw [← sum_cols (fun K => Ideal.exp (x K - (s' : EReal)))]
  have p1 : (0 : ℝ) < ∑ K, Real.exp (y K - s') := Finset.sum_pos (fun K _ => Real.exp_pos _) Finset.univ_nonempty
  have p2 : (0 : ℝ) < ∑ K, Real.exp (y K - M') := Finset.sum_pos (fun K _ => Real.exp_pos _) Finset.univ_nonempty
  simp only [hy, ← EReal.coe_sub, Ideal.exp_coe, ← coe_sum]
  rw [zero_add, Ideal.div_coe (ne_of_gt p1), Ideal.div_coe (ne_of_gt p2), one_mul, ← EReal.coe_mul, ← EReal.coe_mul,
    law_real y (y J) s' M']

/-- The maximum of finitely many reals, at least one, from the bottom element, is a real. -/
theorem isReal_fold_max {ι : Type} (t : Finset ι) (ht : t.Nonempty) (f : ι → EReal) (hf : ∀ i ∈ t, IsReal (f i)) :
    IsReal (t.fold max ⊥ f) := by
  refine isReal_of_ne (ne_of_lt ?_) (ne_of_gt ?_)
  · rw [Finset.fold_max_lt]
    exact ⟨bot_lt_top, fun i hi => by obtain ⟨r, hr⟩ := hf i hi; rw [hr]; exact EReal.coe_lt_top r⟩
  · rw [Finset.lt_fold_max]
    obtain ⟨i, hi⟩ := ht
    exact Or.inr ⟨i, hi, by obtain ⟨r, hr⟩ := hf i hi; rw [hr]; exact EReal.bot_lt_coe r⟩

end Cert.KernelIdeal.Sm.Law

end
-- ==== Proof.RefValue.lean ====
/-
  The reference's result read at an index: exp (x - rowmax) over the row sum of exp (x - rowmax); and, with every
  entry of the argument a real, the row maximum is a real.
-/
import proofs.«901053_g7700000000001054_dist_softmax_colshard_i_m1024_n1024_v7x_i8_bf16_1_alg».proof.Proof.RefRun
import proofs.«901053_g7700000000001054_dist_softmax_colshard_i_m1024_n1024_v7x_i8_bf16_1_alg».proof.Proof.SmLaw
import Idealize.ShloMosaic.Lib.ValueIdx
import Idealize.ShloMosaic.PureOps.Reduce

noncomputable section
namespace Cert.KernelIdeal.Sm
open Idealize.ShloMosaic Idealize.SL.Sem
open Idealize.ShloMosaic.ValueIdx
open Cert.ReferenceIdeal (S1024x8192 S1024 S1024x1 S_)
open Cert.ReferenceIdeal.Read

/-- The whole argument array's entry at (R, K), as an extended real. -/
abbrev wAt (X : (⟨S1024x8192, .f32⟩ : BufTy).Contents (Elt Ideal)) (R : Fin 1024) (K : Fin 8192) : EReal := X (ix2 R K)

/-- The reference's row maximum. -/
def rowMax (X : (⟨S1024x8192, .f32⟩ : BufTy).Contents (Elt Ideal)) (R : Fin 1024) : EReal :=
  val_main_v0 (F := Ideal) X (ix1 R)

theorem refOut_apply (X : (⟨S1024x8192, .f32⟩ : BufTy).Contents (Elt Ideal)) (R : Fin 1024) (J : Fin 8192) :
    refOut X (ix2 R J)
      = Ideal.div (Ideal.exp (wAt X R J - rowMax X R))
          (Ideal.ofBits .f32 0x00000000#32 + ∑ K : Fin 8192, Ideal.exp (wAt X R K - rowMax X R)) := by
  have e1 : ∀ K : Fin 8192, idx_main_v1 (idx_main_v2 (ix2 R K)) = ix1 R := fun K =>
    funext fun a => Fin.ext (by match a with | ⟨0, _⟩ => rfl)
  have e5 : ∀ K : Fin 8192, idx_main_v5 (idx_main_v6 (idx_main_v7 (ix2 R J))) K = ix2 R K := fun K =>
    funext fun a => Fin.ext (by match a with | ⟨0, _⟩ => rfl | ⟨1, _⟩ => rfl)
  unfold refOut rowMax
  rw [val_main_v9_apply, val_main_v8_apply, val_main_v7_apply, val_main_v6_apply, val_main_v5_apply]
  simp only [val_main_v4_apply, val_main_v3_apply, val_main_v2_apply, val_main_v1_apply, e1, e5, val_main_cst_0_apply]
  rfl

/-- With every entry a real, the row maximum is a real. -/
theorem rowMax_isReal (X : (⟨S1024x8192, .f32⟩ : BufTy).Contents (Elt Ideal)) (hX : ∀ i, Law.IsReal (X i)) (R : Fin 1024) :
    Law.IsReal (rowMax X R) := by
  unfold rowMax val_main_v0
  have e := Host.reduce_eq_fold_single (FloatOps.maximumf (F := Ideal) (φ := .f32)) X (val_main_cst (F := Ideal))
    Cert.ReferenceIdeal.Gen.reducesTo_S1024x8192_S1024_d1 (by decide) Cert.ReferenceIdeal.Gen.h_S_ (ix1 R)
  refine (congrArg Law.IsReal e).mpr ?_
  have hb : val_main_cst (F := Ideal) (Shape.Idx.first Cert.ReferenceIdeal.Gen.h_S_) = (⊥ : EReal) := by
    rw [val_main_cst_apply]
    show Ideal.ofBits .f32 0xFF800000#32 = ⊥
    simp [Ideal.ofBits, Ideal.ieee]
  rw [hb]
  exact Law.isReal_fold_max Finset.univ ⟨⟨0, by decide⟩, Finset.mem_univ _⟩ _ (fun k _ => hX _)

end Cert.KernelIdeal.Sm
end
-- ==== Proof.Finite.lean ====
/-
  The precondition read back: every entry of a device's input block is a real (its absolute value is below +inf).
-/
import proofs.«901053_g7700000000001054_dist_softmax_colshard_i_m1024_n1024_v7x_i8_bf16_1_alg».proof.Pre_finite_inputs_Kernel
import proofs.«901053_g7700000000001054_dist_softmax_colshard_i_m1024_n1024_v7x_i8_bf16_1_alg».proof.Proof.Gen.Pre_finite_inputs_Kernel
import proofs.«901053_g7700000000001054_dist_softmax_colshard_i_m1024_n1024_v7x_i8_bf16_1_alg».proof.Proof.SmLaw
import Idealize.ShloMosaic.Lib.ReduceAll
import Idealize.ShloMosaic.Lib.ValueIdx

noncomputable section
namespace Cert.KernelIdeal.Sm
open Idealize.ShloMosaic
open Idealize.ShloMosaic.ValueIdx

/-- Under the precondition every entry of a device's input block is a real. -/
theorem isReal_of_pre (X : FVec Ideal Cert.Pre_finite_inputs_Kernel.S1024x1024 .f32)
    (h : Cert.Pre_finite_inputs_Kernel.fn (F := Ideal) X = fun _ => 1#1) (i : Cert.Pre_finite_inputs_Kernel.S1024x1024.Idx) :
    Law.IsReal (X i) := by
  have h0 := congrFun h ValueIdx.ix0
  dsimp only [Cert.Pre_finite_inputs_Kernel.fn] at h0
  haveI : Subsingleton Cert.Pre_finite_inputs_Kernel.S_.Idx := ⟨fun a b => funext fun d => d.elim0⟩
  have hi := Host.reduce_andi_all _ _ _ _ _ h0 i
  have hi' : Ideal.cmp .olt (max (X i) (-(X i))) (Ideal.ofBits .f32 0x7F800000#32) = 1#1 := hi
  have htop : Ideal.ofBits .f32 0x7F800000#32 = (⊤ : EReal) := by simp [Ideal.ofBits, Ideal.ieee]
  rw [htop] at hi'
  have hlt : max (X i) (-(X i)) < ⊤ := by
    by_contra hn
    simp [Ideal.cmp, hn] at hi'
  obtain ⟨h1, h2⟩ := max_lt_iff.mp hlt
  refine Law.isReal_of_ne (ne_of_lt h1) ?_
  intro hb
  rw [hb] at h2
  simp at h2

end Cert.KernelIdeal.Sm
end
-- ==== Proof.Bridge.lean ====
/-
  The bridge: under the precondition, with each device's input block its part of the whole argument array, device c's
  result block is block c of the reference's result. Per entry this is the softmax law at one row: the kernel's
  exp (x - 16) times the reciprocal of the eight devices' row sums against the reference's exp (x - rowmax) over the row sum.
-/
import proofs.«901053_g7700000000001054_dist_softmax_colshard_i_m1024_n1024_v7x_i8_bf16_1_alg».proof.Proof.KernelValue
import proofs.«901053_g7700000000001054_dist_softmax_colshard_i_m1024_n1024_v7x_i8_bf16_1_alg».proof.Proof.RefValue
import proofs.«901053_g7700000000001054_dist_softmax_colshard_i_m1024_n1024_v7x_i8_bf16_1_alg».proof.Proof.Finite
import proofs.«901053_g7700000000001054_dist_softmax_colshard_i_m1024_n1024_v7x_i8_bf16_1_alg».proof.Proof.SmLaw
import Idealize.ShloMosaic.Lib.Layout

noncomputable section
namespace Cert.KernelIdeal.Sm
open Cert.KernelIdeal Cert.KernelIdeal.Gen
open Idealize.ShloMosaic Idealize.SL.Sem
open Idealize.ShloMosaic.ValueIdx

theorem ofBits_one : Ideal.ofBits .f32 0x3F800000#32 = 1 := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

theorem c16_isReal : Law.IsReal (c16 (F := Ideal)) := ⟨16, ofBits_sixteen⟩

/-- Where entry (r, k) of block q lies in the whole array: row r, column k of the q-th 1024 columns. -/
theorem tiles_idx (h : Layout.Tiles ⟨2, ![1024, 1024]⟩ ⟨2, ![1024, 8192]⟩ 1 8) (q : Fin 8) (r k : Fin 1024) :
    h.idx q (ix2 r k) = ix2 r (Law.col q k) :=
  funext fun a => Fin.ext (by
    match a with
    | ⟨0, _⟩ => rfl
    | ⟨1, _⟩ => rfl)

theorem out_block
    (X : Buf (Elt Ideal) (((0 : Dev Cert.ReferenceIdeal.nD).tc : Thread Cert.ReferenceIdeal.nD Cert.ReferenceIdeal.τ).loc Cert.ReferenceIdeal.main_arg0))
    (Xs : Dev Cert.KernelIdeal.nD → XBlk Ideal)
    (hblk : ∀ c, Xs c = Layout.block ⟨2, ![1024, 1024]⟩ ⟨2, ![1024, 8192]⟩ 1 8 c X)
    (hfin : ∀ c, Cert.Pre_finite_inputs_Kernel.fn (F := Ideal) (Xs c) = fun _ => 1#1)
    (c : Dev Cert.KernelIdeal.nD) :
    outOf (F := Ideal) Xs c = Layout.block ⟨2, ![1024, 1024]⟩ ⟨2, ![1024, 8192]⟩ 1 8 c (refOut X) := by
  have hx : ∀ (q : Fin 8) (r k : Fin 1024), xAt (Xs q) r k = wAt X r (Law.col q k) := fun q r k => by
    show Xs q (ix2 r k) = X (ix2 r (Law.col q k))
    rw [hblk q, Layout.block_apply, tiles_idx]
  have hreal : ∀ (R : Fin 1024) (K : Fin 8192), Law.IsReal (wAt X R K) := fun R K => by
    have hK : K = Law.col ⟨K.val / 1024, by have := K.isLt; omega⟩ ⟨K.val % 1024, Nat.mod_lt _ (by norm_num)⟩ :=
      Fin.ext (by show K.val = K.val / 1024 * 1024 + K.val % 1024; omega)
    rw [hK, ← hx]
    exact isReal_of_pre (Xs _) (hfin _) _
  have hX : ∀ i, Law.IsReal (X i) := fun i => by
    rw [eq_ix2 i]; exact hreal (i 0) (i 1)
  funext i
  obtain ⟨r, j, rfl⟩ : ∃ (r : Fin 1024) (j : Fin 1024), i = ix2 r j := ⟨i 0, i 1, eq_ix2 i⟩
  rw [outOf_apply, Layout.block_apply, tiles_idx, refOut_apply]
  simp only [hx]
  exact Law.law (fun K => wAt X r K) (hreal r) (c16 (F := Ideal)) (rowMax X r) c16_isReal (rowMax_isReal X hX r) _ _
    ofBits_one Ideal.ofBits_zero_f32 (Law.col c j)

end Cert.KernelIdeal.Sm
end
-- ==== Proof.RefFrame.lean ====
/-
  The reference's frame: it runs to the end, faults nowhere and leaves its argument unchanged — its run with the result dropped.
-/
import proofs.«901053_g7700000000001054_dist_softmax_colshard_i_m1024_n1024_v7x_i8_bf16_1_alg».proof.Defs
import proofs.«901053_g7700000000001054_dist_softmax_colshard_i_m1024_n1024_v7x_i8_bf16_1_alg».proof.Proof.Gen.ReferenceIdeal.Run
import proofs.«901053_g7700000000001054_dist_softmax_colshard_i_m1024_n1024_v7x_i8_bf16_1_alg».proof.Proof.Gen.Pre_finite_inputs_ReferenceIdeal

noncomputable section

namespace Cert.KernelIdeal.Sm

open Idealize.ShloMosaic Idealize.SL.Sem

theorem frame_reference :
    Cert.frame_ReferenceIdeal (hReferenceIdeal := Cert.ReferenceIdeal.Gen.facts)
      (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

end Cert.KernelIdeal.Sm

end
-- ==== Proof.Assemble.lean ====
/-
  The claim from the two bodies. Given the kernel body's proof on every device, for the idealized kernel at the ideal
  instance and for the kernel as printed at the word level, each program's run ends with every device's result block
  named and its input block unchanged. The two kernel frames are those runs with the result dropped; the reference's
  frame is its own run with the result dropped; nothing was rewritten by the ideal pass; and at the ideal instance each
  device's result block is its block of the reference's result, by the softmax law row by row.
-/
import proofs.«901053_g7700000000001054_dist_softmax_colshard_i_m1024_n1024_v7x_i8_bf16_1_alg».proof.Defs
import proofs.«901053_g7700000000001054_dist_softmax_colshard_i_m1024_n1024_v7x_i8_bf16_1_alg».proof.Proof.Launch
import proofs.«901053_g7700000000001054_dist_softmax_colshard_i_m1024_n1024_v7x_i8_bf16_1_alg».proof.Proof.W.Launch
import proofs.«901053_g7700000000001054_dist_softmax_colshard_i_m1024_n1024_v7x_i8_bf16_1_alg».proof.Proof.Bridge
import proofs.«901053_g7700000000001054_dist_softmax_colshard_i_m1024_n1024_v7x_i8_bf16_1_alg».proof.Proof.RefRun
import proofs.«901053_g7700000000001054_dist_softmax_colshard_i_m1024_n1024_v7x_i8_bf16_1_alg».proof.Proof.RefFrame

noncomputable section

namespace Cert.Proof

open Idealize.ShloMosaic Idealize.SL.Sem

theorem claim_of
    (hbodyI : ∀ (m : (ℓ : Loc Cert.KernelIdeal.nD Cert.KernelIdeal.τ Cert.KernelIdeal.sig) → Buf (Elt Ideal) ℓ)
        (ρ : Dev Cert.KernelIdeal.nD → PrngReg) (c : Dev Cert.KernelIdeal.nD),
        Pipeline.BodyObligation (Cert.KernelIdeal.Sm.dats (F := Ideal) m ρ 0 c) (Cert.KernelIdeal.defs₀ (F := Ideal))
          Cert.KernelIdeal.Sm.𝒱₀ () Set.univ)
    (hbodyW : ∀ (m : (ℓ : Loc Cert.Kernel.nD Cert.Kernel.τ Cert.Kernel.sig) → Buf (Elt Bits) ℓ)
        (ρ : Dev Cert.Kernel.nD → PrngReg) (c : Dev Cert.Kernel.nD),
        Pipeline.BodyObligation (Cert.Kernel.Sm.dats (F := Bits) m ρ 0 c) (Cert.Kernel.defs₀ (F := Bits))
          Cert.Kernel.Sm.𝒱₀ () Set.univ) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    fun m g _ => (θ_run (Cert.Kernel.defs (F := Bits)) _ _).mono (fun _ h c => (h c).2)
      (Cert.Kernel.Sm.run_claim (F := Bits) m g (hbodyW m g)),
    fun m g _ => (θ_run (Cert.KernelIdeal.defs (F := Ideal)) _ _).mono (fun _ h c => (h c).2)
      (Cert.KernelIdeal.Sm.run_claim (F := Ideal) m g (hbodyI m g)),
    Cert.KernelIdeal.Sm.frame_reference,
    trivial,
    fun m g m' g' hpre hagree =>
      ⟨Cert.KernelIdeal.Sm.refOut (m' (((0 : Dev Cert.ReferenceIdeal.nD).tc : Thread Cert.ReferenceIdeal.nD Cert.ReferenceIdeal.τ).loc Cert.ReferenceIdeal.main_arg0)),
        (θ_run (Cert.KernelIdeal.defs (F := Ideal)) _ _).mono
          (fun _ h c => ⟨(h c).1.trans (Cert.KernelIdeal.Sm.out_block _ (fun q => Cert.KernelIdeal.Sm.xOf m q) hagree hpre c), (h c).2⟩)
          (Cert.KernelIdeal.Sm.run_claim (F := Ideal) m g (hbodyI m g)),
        Cert.KernelIdeal.Sm.ref_run m' g'⟩⟩

end Cert.Proof

end
-- ==== Proof.BodyWrap.lean ====
/-
  Between the library's body obligation and a device's body theorem: the obligation's precondition regrouped into the
  hypotheses the body is run from, and its postcondition made from what the body ends with.
-/
import proofs.«901053_g7700000000001054_dist_softmax_colshard_i_m1024_n1024_v7x_i8_bf16_1_alg».proof.Proof.Launch

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The body's ends -/

/-- What device c's body is run from: its ghost state at the names K, its credit tokens, the level facts, its two scratch
    tables, what it owes, its input block staged, its result's staging buffer at some contents. -/
def bodyPreE (K : Dev nD × Fin 33 → ℕ) (c : Dev nD) (W : Waits sig Unit) : sProp 𝕄 :=
  iprop(ghost m K c ∗ creds c ∗ levAts L lv ∗ scratches c ∗ owes (c : Thread nD τ) (O₀ c) W
    ∗ ((xM : Memref sig .tc .vmem S1024x1024 .f32).view.loc (c : Thread nD τ) ↦[(xM : Memref sig .tc .vmem S1024x1024 .f32).view.set]{fullShare} xOf m c)
    ∗ (∃ g : OBlk F, (oM : Memref sig .tc .vmem S1024x1024 .bf16).view.loc (c : Thread nD τ) ↦[(oM : Memref sig .tc .vmem S1024x1024 .bf16).view.set]{fullShare} g))

/-- What it ends with: the scratch tables and its 32 semaphores at zero, nothing owed, the input block as staged, the result
    block computed. -/
def bodyPostE (c : Dev nD) : sProp 𝕄 :=
  iprop(Φ₁ c ∗ (∃ W', owes (c : Thread nD τ) 0 W')
    ∗ ((xM : Memref sig .tc .vmem S1024x1024 .f32).view.loc (c : Thread nD τ) ↦[(xM : Memref sig .tc .vmem S1024x1024 .f32).view.set]{fullShare} xOf m c)
    ∗ ((oM : Memref sig .tc .vmem S1024x1024 .bf16).view.loc (c : Thread nD τ) ↦[(oM : Memref sig .tc .vmem S1024x1024 .bf16).view.set]{fullShare} outOf (fun q => xOf m q) c))

/-! ## The obligation's own ends -/

/-- A whole staging buffer at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
theorem xPts_eq (c : Dev nD) (f : XBlk F) :
    ((xM : Memref sig .tc .vmem S1024x1024 .f32).view.loc (c : Thread nD τ) ↦[(xM : Memref sig .tc .vmem S1024x1024 .f32).view.set]{fullShare} f : sProp 𝕄)
      = (((c : Thread nD τ).loc cc0_stg0_0) ↦{fullShare} f : sProp 𝕄) := by
  show ((View.whole cc0_stg0_0).loc (c : Thread nD τ) ↦[(View.whole cc0_stg0_0).set]{fullShare} f : sProp 𝕄) = _
  rw [View.set_whole]
omit [FloatOps F] in
theorem oPts_eq (c : Dev nD) (f : OBlk F) :
    ((oM : Memref sig .tc .vmem S1024x1024 .bf16).view.loc (c : Thread nD τ) ↦[(oM : Memref sig .tc .vmem S1024x1024 .bf16).view.set]{fullShare} f : sProp 𝕄)
      = (((c : Thread nD τ).loc cc0_stg1_0) ↦{fullShare} f : sProp 𝕄) := by
  show ((View.whole cc0_stg1_0).loc (c : Thread nD τ) ↦[(View.whole cc0_stg1_0).set]{fullShare} f : sProp 𝕄) = _
  rw [View.set_whole]

set_option maxRecDepth 4000 in
def wrapPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
def wrapPost (c : Dev nD) : sProp 𝕄 :=
  iprop(Φ₁ c ∗ (dats m ρ 0 c).owesAt () t₀.succ ∗ stg c cc0_stg0_0 (xstg m ρ c) ∗ stg c cc0_stg1_0 (outOf (fun q => xstg m ρ q) c))

set_option maxRecDepth 4000 in
/-- The library's body obligation on device c, from the body run between `bodyPreE` and `bodyPostE`. -/
theorem body_obligation_of (c : Dev nD)
    (h : ∀ (K : Dev nD × Fin 33 → ℕ) (W : Waits sig Unit) (Kt : PUnit → sProp 𝕄),
      iprop(bodyPreE m K c W ∗ (bodyPostE m c -∗ Kt ⟨⟩))
        ⊢ wp frame (wpE (defs₀ (F := F)) 𝒱₀ (c : Thread nD τ) none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) Kt) :
    BodyObligation (dats (F := F) m ρ 0 c) (defs₀ (F := F)) 𝒱₀ () Set.univ := fun t => by
  rw [fin_N t]
  rw [bigSep_W0, bigSep_W0]
  simp only [owns_whole_eq]
  show wrapPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => wrapPost m ρ c)
  unfold wrapPre Φ₀ start Dat.owesAt Pipeline.owesWithin
  iintro ⟨⟨⟨⟨%K, Hg⟩, Hcr, Hlev⟩, Hscr⟩, ⟨%W, %hW, HO⟩, ⟨%d0, %g0, %hg0, Hx⟩, ⟨%d1, %g1, %hg1, Hout⟩⟩
  have hx : g0 = xOf m c := by rw [hg0]; unfold Dat.before; rw [if_pos (fetch0_0 t₀)]; exact xstg_eq m ρ c
  subst hx
  rw [show (dats m ρ 0 c).owed t₀.castSucc = O₀ c from rfl]
  iapply (h K W fun _ => wrapPost m ρ c)
  isplitr []
  · unfold bodyPreE
    isplitl [Hg]; · iexact Hg
    isplitl [Hcr]; · iexact Hcr
    isplitl [Hlev]; · iexact Hlev
    isplitl [Hscr]; · iexact Hscr
    isplitl [HO]; · iexact HO
    isplitl [Hx]; · rw [xPts_eq]; iexact Hx
    iexists g1; rw [oPts_eq]; iexact Hout
  · unfold bodyPostE wrapPost Dat.owesAt Pipeline.owesWithin
    rw [show (dats m ρ 0 c).owed t₀.succ = 0 from rfl, xPts_eq, oPts_eq]
    iintro ⟨HΦ, ⟨%W', HO⟩, Hx, Hout⟩
    isplitl [HΦ]; · iexact HΦ
    isplitl [HO]
    · iexists W'; isplitr; · ipureintro; exact fun _ _ => Or.inl trivial
      iexact HO
    isplitl [Hx]
    · iexists _; isplitr; · (ipureintro; exact (xstg_eq m ρ c).symm)
      iexact Hx
    iexists _; isplitr; · (ipureintro; rw [funext (xstg_eq m ρ)])
    iexact Hout

end Cert.KernelIdeal.Sm

end
-- ==== Proof.BodyPieces.lean ====
/-
  The ghost state of a device taken apart: each cell's invariant and reached mark out of the records, and the families over
  the other seven devices, over a device's 33 cells and over its 32 own semaphores as explicit chains.
-/
import proofs.«901053_g7700000000001054_dist_softmax_colshard_i_m1024_n1024_v7x_i8_bf16_1_alg».proof.Proof.LaunchDeal

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Out of the records -/

omit [FloatOps F] in
theorem kcell_bar (c : Dev nD) : kcell (c, 0) = barCell c := rfl

theorem inv_of_all (K : Dev nD × Fin 33 → ℕ) (ck : Dev nD × Fin 33) :
    (bigSep Finset.univ fun ck : Dev nD × Fin 33 => (cellInv ER (sched m) (K ck) (kcell ck) : sProp 𝕄)) ⊢ cellInv ER (sched m) (K ck) (kcell ck) :=
  bigSep_elim (Finset.mem_univ ck)
omit [FloatOps F] in
theorem reached_of_all (ck : Dev nD × Fin 33) :
    (bigSep Finset.univ fun ck : Dev nD × Fin 33 => (reached ER (kcell ck) 0 : sProp 𝕄)) ⊢ reached ER (kcell ck) 0 :=
  bigSep_elim (Finset.mem_univ ck)

theorem inv_at (K : Dev nD × Fin 33 → ℕ) (ck : Dev nD × Fin 33) : records m K ⊢ cellInv ER (sched m) (K ck) (kcell ck) := by
  unfold records; iintro ⟨HI, -⟩; iapply (inv_of_all m K ck); iexact HI
theorem reached_at (K : Dev nD × Fin 33 → ℕ) (ck : Dev nD × Fin 33) : records m K ⊢ reached ER (kcell ck) 0 := by
  unfold records; iintro ⟨-, HR⟩; iapply (reached_of_all (F := F) ck); iexact HR

theorem inv_bar (K : Dev nD × Fin 33 → ℕ) (p : Dev nD) : records m K ⊢ cellInv ER (sched m) (K (p, 0)) (barCell p) := inv_at m K (p, 0)
theorem inv_send (K : Dev nD × Fin 33 → ℕ) (p : Dev nD) (b : Fin 2) (q : Dev nD) :
    records m K ⊢ cellInv ER (sched m) (K (p, kSend b q)) (sendCell p b q) := by
  have h := inv_at m K (p, kSend b q); rw [kcell_send] at h; exact h
theorem inv_recv (K : Dev nD × Fin 33 → ℕ) (p : Dev nD) (b : Fin 2) (q : Dev nD) :
    records m K ⊢ cellInv ER (sched m) (K (p, kRecv b q)) (recvCell p b q) := by
  have h := inv_at m K (p, kRecv b q); rw [kcell_recv] at h; exact h

theorem reached_bar (K : Dev nD × Fin 33 → ℕ) (p : Dev nD) : records m K ⊢ reached ER (barCell p) 0 := reached_at m K (p, 0)
theorem reached_send (K : Dev nD × Fin 33 → ℕ) (p : Dev nD) (b : Fin 2) (q : Dev nD) : records m K ⊢ reached ER (sendCell p b q) 0 := by
  have h := reached_at m K (p, kSend b q); rw [kcell_send] at h; exact h
theorem reached_recv (K : Dev nD × Fin 33 → ℕ) (p : Dev nD) (b : Fin 2) (q : Dev nD) : records m K ⊢ reached ER (recvCell p b q) 0 := by
  have h := reached_at m K (p, kRecv b q); rw [kcell_recv] at h; exact h

/-! ## A family over the seven other devices, for each device -/

section
omit [FloatOps F]
theorem erase_chain_0 (Φ : Dev nD → sProp 𝕄) : bigSep (Finset.univ.erase (0 : Dev nD)) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
theorem erase_chain_1 (Φ : Dev nD → sProp 𝕄) : bigSep (Finset.univ.erase (1 : Dev nD)) Φ = iprop(Φ 0 ∗ Φ 2 ∗ Φ 3 ∗ Φ 4 ∗ Φ 5 ∗ Φ 6 ∗ Φ 7) :=
  bigSep_eq_bigSepL_of_eq [0, 2, 3, 4, 5, 6, 7] (by decide) (by decide) Φ
theorem erase_chain_2 (Φ : Dev nD → sProp 𝕄) : bigSep (Finset.univ.erase (2 : Dev nD)) Φ = iprop(Φ 0 ∗ Φ 1 ∗ Φ 3 ∗ Φ 4 ∗ Φ 5 ∗ Φ 6 ∗ Φ 7) :=
  bigSep_eq_bigSepL_of_eq [0, 1, 3, 4, 5, 6, 7] (by decide) (by decide) Φ
theorem erase_chain_3 (Φ : Dev nD → sProp 𝕄) : bigSep (Finset.univ.erase (3 : Dev nD)) Φ = iprop(Φ 0 ∗ Φ 1 ∗ Φ 2 ∗ Φ 4 ∗ Φ 5 ∗ Φ 6 ∗ Φ 7) :=
  bigSep_eq_bigSepL_of_eq [0, 1, 2, 4, 5, 6, 7] (by decide) (by decide) Φ
theorem erase_chain_4 (Φ : Dev nD → sProp 𝕄) : bigSep (Finset.univ.erase (4 : Dev nD)) Φ = iprop(Φ 0 ∗ Φ 1 ∗ Φ 2 ∗ Φ 3 ∗ Φ 5 ∗ Φ 6 ∗ Φ 7) :=
  bigSep_eq_bigSepL_of_eq [0, 1, 2, 3, 5, 6, 7] (by decide) (by decide) Φ
theorem erase_chain_5 (Φ : Dev nD → sProp 𝕄) : bigSep (Finset.univ.erase (5 : Dev nD)) Φ = iprop(Φ 0 ∗ Φ 1 ∗ Φ 2 ∗ Φ 3 ∗ Φ 4 ∗ Φ 6 ∗ Φ 7) :=
  bigSep_eq_bigSepL_of_eq [0, 1, 2, 3, 4, 6, 7] (by decide) (by decide) Φ
theorem erase_chain_6 (Φ : Dev nD → sProp 𝕄) : bigSep (Finset.univ.erase (6 : Dev nD)) Φ = iprop(Φ 0 ∗ Φ 1 ∗ Φ 2 ∗ Φ 3 ∗ Φ 4 ∗ Φ 5 ∗ Φ 7) :=
  bigSep_eq_bigSepL_of_eq [0, 1, 2, 3, 4, 5, 7] (by decide) (by decide) Φ
theorem erase_chain_7 (Φ : Dev nD → sProp 𝕄) : bigSep (Finset.univ.erase (7 : Dev nD)) Φ = iprop(Φ 0 ∗ Φ 1 ∗ Φ 2 ∗ Φ 3 ∗ Φ 4 ∗ Φ 5 ∗ Φ 6) :=
  bigSep_eq_bigSepL_of_eq [0, 1, 2, 3, 4, 5, 6] (by decide) (by decide) Φ
end

/-! ## A family over a device's 33 cells: the barrier cell, the 16 send cells, the 16 receive cells -/

omit [FloatOps F] in
theorem fin33_chain (Ψ : Fin 33 → sProp 𝕄) : bigSep Finset.univ Ψ
    = iprop(Ψ 0 ∗ Ψ (kSend 0 0) ∗ Ψ (kSend 0 1) ∗ Ψ (kSend 0 2) ∗ Ψ (kSend 0 3) ∗ Ψ (kSend 0 4) ∗ Ψ (kSend 0 5) ∗ Ψ (kSend 0 6) ∗ Ψ (kSend 0 7)
      ∗ Ψ (kSend 1 0) ∗ Ψ (kSend 1 1) ∗ Ψ (kSend 1 2) ∗ Ψ (kSend 1 3) ∗ Ψ (kSend 1 4) ∗ Ψ (kSend 1 5) ∗ Ψ (kSend 1 6) ∗ Ψ (kSend 1 7)
      ∗ Ψ (kRecv 0 0) ∗ Ψ (kRecv 0 1) ∗ Ψ (kRecv 0 2) ∗ Ψ (kRecv 0 3) ∗ Ψ (kRecv 0 4) ∗ Ψ (kRecv 0 5) ∗ Ψ (kRecv 0 6) ∗ Ψ (kRecv 0 7)
      ∗ Ψ (kRecv 1 0) ∗ Ψ (kRecv 1 1) ∗ Ψ (kRecv 1 2) ∗ Ψ (kRecv 1 3) ∗ Ψ (kRecv 1 4) ∗ Ψ (kRecv 1 5) ∗ Ψ (kRecv 1 6) ∗ Ψ (kRecv 1 7)) :=
  bigSep_univ_eq_bigSepL [0, kSend 0 0, kSend 0 1, kSend 0 2, kSend 0 3, kSend 0 4, kSend 0 5, kSend 0 6, kSend 0 7, kSend 1 0, kSend 1 1, kSend 1 2, kSend 1 3,
    kSend 1 4, kSend 1 5, kSend 1 6, kSend 1 7, kRecv 0 0, kRecv 0 1, kRecv 0 2, kRecv 0 3, kRecv 0 4, kRecv 0 5, kRecv 0 6, kRecv 0 7,
    kRecv 1 0, kRecv 1 1, kRecv 1 2, kRecv 1 3, kRecv 1 4, kRecv 1 5, kRecv 1 6, kRecv 1 7]
    (by decide) (by decide) Ψ

omit [FloatOps F] in
theorem cells_chain (c : Dev nD) (Φ : GSem nD τ sig → sProp 𝕄) : (bigSep Finset.univ fun k : Fin 33 => Φ (kcell (c, k)))
    = iprop(Φ (barCell c) ∗ Φ (sendCell c 0 0) ∗ Φ (sendCell c 0 1) ∗ Φ (sendCell c 0 2) ∗ Φ (sendCell c 0 3) ∗ Φ (sendCell c 0 4)
      ∗ Φ (sendCell c 0 5) ∗ Φ (sendCell c 0 6) ∗ Φ (sendCell c 0 7) ∗ Φ (sendCell c 1 0) ∗ Φ (sendCell c 1 1) ∗ Φ (sendCell c 1 2)
      ∗ Φ (sendCell c 1 3) ∗ Φ (sendCell c 1 4) ∗ Φ (sendCell c 1 5) ∗ Φ (sendCell c 1 6) ∗ Φ (sendCell c 1 7) ∗ Φ (recvCell c 0 0)
      ∗ Φ (recvCell c 0 1) ∗ Φ (recvCell c 0 2) ∗ Φ (recvCell c 0 3) ∗ Φ (recvCell c 0 4) ∗ Φ (recvCell c 0 5) ∗ Φ (recvCell c 0 6)
      ∗ Φ (recvCell c 0 7) ∗ Φ (recvCell c 1 0) ∗ Φ (recvCell c 1 1) ∗ Φ (recvCell c 1 2) ∗ Φ (recvCell c 1 3) ∗ Φ (recvCell c 1 4)
      ∗ Φ (recvCell c 1 5) ∗ Φ (recvCell c 1 6) ∗ Φ (recvCell c 1 7)) := by
  rw [fin33_chain]
  simp only [kcell_send, kcell_recv, kcell_bar]

/-! ## A family over a device's 32 own semaphores: the 16 send cells, the 16 receive cells -/

def oSend (b : Fin 2) (p : Dev nD) : Fin 32 := ⟨8 * b.val + p.val, by have := b.isLt; have : p.val < 8 := p.isLt; omega⟩
def oRecv (b : Fin 2) (q : Dev nD) : Fin 32 := ⟨16 + 8 * b.val + q.val, by have := b.isLt; have : q.val < 8 := q.isLt; omega⟩
theorem osem_send (b : Fin 2) (p : Dev nD) : osem (oSend b p) = .dma (sendS b p) := by revert b p; decide
theorem osem_recv (b : Fin 2) (q : Dev nD) : osem (oRecv b q) = .dma (recvS b q) := by revert b q; decide

omit [FloatOps F] in
theorem fin32_chain (Ψ : Fin 32 → sProp 𝕄) : bigSep Finset.univ Ψ
    = iprop(Ψ (oSend 0 0) ∗ Ψ (oSend 0 1) ∗ Ψ (oSend 0 2) ∗ Ψ (oSend 0 3) ∗ Ψ (oSend 0 4) ∗ Ψ (oSend 0 5) ∗ Ψ (oSend 0 6) ∗ Ψ (oSend 0 7)
      ∗ Ψ (oSend 1 0) ∗ Ψ (oSend 1 1) ∗ Ψ (oSend 1 2) ∗ Ψ (oSend 1 3) ∗ Ψ (oSend 1 4) ∗ Ψ (oSend 1 5) ∗ Ψ (oSend 1 6) ∗ Ψ (oSend 1 7)
      ∗ Ψ (oRecv 0 0) ∗ Ψ (oRecv 0 1) ∗ Ψ (oRecv 0 2) ∗ Ψ (oRecv 0 3) ∗ Ψ (oRecv 0 4) ∗ Ψ (oRecv 0 5) ∗ Ψ (oRecv 0 6) ∗ Ψ (oRecv 0 7)
      ∗ Ψ (oRecv 1 0) ∗ Ψ (oRecv 1 1) ∗ Ψ (oRecv 1 2) ∗ Ψ (oRecv 1 3) ∗ Ψ (oRecv 1 4) ∗ Ψ (oRecv 1 5) ∗ Ψ (oRecv 1 6) ∗ Ψ (oRecv 1 7)) :=
  bigSep_univ_eq_bigSepL [oSend 0 0, oSend 0 1, oSend 0 2, oSend 0 3, oSend 0 4, oSend 0 5, oSend 0 6, oSend 0 7, oSend 1 0, oSend 1 1, oSend 1 2, oSend 1 3,
    oSend 1 4, oSend 1 5, oSend 1 6, oSend 1 7, oRecv 0 0, oRecv 0 1, oRecv 0 2, oRecv 0 3, oRecv 0 4, oRecv 0 5, oRecv 0 6, oRecv 0 7,
    oRecv 1 0, oRecv 1 1, oRecv 1 2, oRecv 1 3, oRecv 1 4, oRecv 1 5, oRecv 1 6, oRecv 1 7]
    (by decide) (by decide) Ψ

omit [FloatOps F] in
theorem own_chain (c : Dev nD) (Φ : GSem nD τ sig → sProp 𝕄) : (bigSep Finset.univ fun i : Fin 32 => Φ ((c : Thread nD τ), osem i))
    = iprop(Φ (sendCell c 0 0) ∗ Φ (sendCell c 0 1) ∗ Φ (sendCell c 0 2) ∗ Φ (sendCell c 0 3) ∗ Φ (sendCell c 0 4) ∗ Φ (sendCell c 0 5)
      ∗ Φ (sendCell c 0 6) ∗ Φ (sendCell c 0 7) ∗ Φ (sendCell c 1 0) ∗ Φ (sendCell c 1 1) ∗ Φ (sendCell c 1 2) ∗ Φ (sendCell c 1 3)
      ∗ Φ (sendCell c 1 4) ∗ Φ (sendCell c 1 5) ∗ Φ (sendCell c 1 6) ∗ Φ (sendCell c 1 7) ∗ Φ (recvCell c 0 0) ∗ Φ (recvCell c 0 1)
      ∗ Φ (recvCell c 0 2) ∗ Φ (recvCell c 0 3) ∗ Φ (recvCell c 0 4) ∗ Φ (recvCell c 0 5) ∗ Φ (recvCell c 0 6) ∗ Φ (recvCell c 0 7)
      ∗ Φ (recvCell c 1 0) ∗ Φ (recvCell c 1 1) ∗ Φ (recvCell c 1 2) ∗ Φ (recvCell c 1 3) ∗ Φ (recvCell c 1 4) ∗ Φ (recvCell c 1 5)
      ∗ Φ (recvCell c 1 6) ∗ Φ (recvCell c 1 7)) := by
  rw [fin32_chain]
  simp only [osem_send, osem_recv]

/-! ## The two families the body meets: a device's positions at launch, its own semaphores at zero at the end -/

omit [FloatOps F] in
theorem pos_chain (c : Dev nD) : (bigSep Finset.univ fun k : Fin 33 => (atPos ER (kcell (c, k)) 0 ∅ 0 : sProp 𝕄))
    = iprop(atPos ER (barCell c) 0 ∅ 0 ∗ atPos ER (sendCell c 0 0) 0 ∅ 0 ∗ atPos ER (sendCell c 0 1) 0 ∅ 0 ∗ atPos ER (sendCell c 0 2) 0 ∅ 0
      ∗ atPos ER (sendCell c 0 3) 0 ∅ 0 ∗ atPos ER (sendCell c 0 4) 0 ∅ 0 ∗ atPos ER (sendCell c 0 5) 0 ∅ 0 ∗ atPos ER (sendCell c 0 6) 0 ∅ 0
      ∗ atPos ER (sendCell c 0 7) 0 ∅ 0 ∗ atPos ER (sendCell c 1 0) 0 ∅ 0 ∗ atPos ER (sendCell c 1 1) 0 ∅ 0 ∗ atPos ER (sendCell c 1 2) 0 ∅ 0
      ∗ atPos ER (sendCell c 1 3) 0 ∅ 0 ∗ atPos ER (sendCell c 1 4) 0 ∅ 0 ∗ atPos ER (sendCell c 1 5) 0 ∅ 0 ∗ atPos ER (sendCell c 1 6) 0 ∅ 0
      ∗ atPos ER (sendCell c 1 7) 0 ∅ 0 ∗ atPos ER (recvCell c 0 0) 0 ∅ 0 ∗ atPos ER (recvCell c 0 1) 0 ∅ 0 ∗ atPos ER (recvCell c 0 2) 0 ∅ 0
      ∗ atPos ER (recvCell c 0 3) 0 ∅ 0 ∗ atPos ER (recvCell c 0 4) 0 ∅ 0 ∗ atPos ER (recvCell c 0 5) 0 ∅ 0 ∗ atPos ER (recvCell c 0 6) 0 ∅ 0
      ∗ atPos ER (recvCell c 0 7) 0 ∅ 0 ∗ atPos ER (recvCell c 1 0) 0 ∅ 0 ∗ atPos ER (recvCell c 1 1) 0 ∅ 0 ∗ atPos ER (recvCell c 1 2) 0 ∅ 0
      ∗ atPos ER (recvCell c 1 3) 0 ∅ 0 ∗ atPos ER (recvCell c 1 4) 0 ∅ 0 ∗ atPos ER (recvCell c 1 5) 0 ∅ 0 ∗ atPos ER (recvCell c 1 6) 0 ∅ 0
      ∗ atPos ER (recvCell c 1 7) 0 ∅ 0) :=
  cells_chain c fun g => atPos ER g 0 ∅ 0

omit [FloatOps F] in
theorem sems_chain (c : Dev nD) : (bigSep Finset.univ fun i : Fin 32 => (semVal ((c : Thread nD τ), osem i) 0 : sProp 𝕄))
    = iprop(semVal (sendCell c 0 0) 0 ∗ semVal (sendCell c 0 1) 0 ∗ semVal (sendCell c 0 2) 0 ∗ semVal (sendCell c 0 3) 0
      ∗ semVal (sendCell c 0 4) 0 ∗ semVal (sendCell c 0 5) 0 ∗ semVal (sendCell c 0 6) 0 ∗ semVal (sendCell c 0 7) 0
      ∗ semVal (sendCell c 1 0) 0 ∗ semVal (sendCell c 1 1) 0 ∗ semVal (sendCell c 1 2) 0 ∗ semVal (sendCell c 1 3) 0
      ∗ semVal (sendCell c 1 4) 0 ∗ semVal (sendCell c 1 5) 0 ∗ semVal (sendCell c 1 6) 0 ∗ semVal (sendCell c 1 7) 0
      ∗ semVal (recvCell c 0 0) 0 ∗ semVal (recvCell c 0 1) 0 ∗ semVal (recvCell c 0 2) 0 ∗ semVal (recvCell c 0 3) 0
      ∗ semVal (recvCell c 0 4) 0 ∗ semVal (recvCell c 0 5) 0 ∗ semVal (recvCell c 0 6) 0 ∗ semVal (recvCell c 0 7) 0
      ∗ semVal (recvCell c 1 0) 0 ∗ semVal (recvCell c 1 1) 0 ∗ semVal (recvCell c 1 2) 0 ∗ semVal (recvCell c 1 3) 0
      ∗ semVal (recvCell c 1 4) 0 ∗ semVal (recvCell c 1 5) 0 ∗ semVal (recvCell c 1 6) 0 ∗ semVal (recvCell c 1 7) 0) :=
  own_chain c fun g => semVal g 0

end Cert.KernelIdeal.Sm

end
-- ==== Proof.Glue.lean ====
/-
  The pieces and the wholes of a device's two scratch tables: the table of everybody's row sums is its sixteen slots,
  a half of it is its eight slots, the table of own row sums is its two rows, and a row held in full is the row held
  under its eight shares.
-/
import proofs.«901053_g7700000000001054_dist_softmax_colshard_i_m1024_n1024_v7x_i8_bf16_1_alg».proof.Proof.Core
import Idealize.ShloMosaic.Lib.Ring

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The table of everybody's row sums, slot by slot -/

/-- The elements of slot [q, b]: the unit-stride rectangle at [q, b, 0, 0] of sizes 1 x 1 x 1 x 512. -/
theorem commSl_set (q : Dev nD) (b : Fin 2) :
    (commSl q b).view.set = (Rect.unit (s := S8x2x1x512) ![q.val, b.val, 0, 0] S1x1x1x512.size (comm_inb q b)).set :=
  (View.set_reshape ..).trans (View.set_slice_whole ..)

/-- An element is in slot [q, b] exactly when its first two coordinates are q and b. -/
theorem mem_commSl (q : Dev nD) (b : Fin 2) (i : S8x2x1x512.Idx) :
    i ∈ (commSl q b).view.set ↔ (i 0).val = q.val ∧ (i 1).val = b.val := by
  rw [commSl_set, Rect.mem_set_unit]
  constructor
  · intro h
    have h0 : q.val ≤ (i 0).val ∧ (i 0).val < q.val + 1 := h 0
    have h1 : b.val ≤ (i 1).val ∧ (i 1).val < b.val + 1 := h 1
    omega
  · rintro ⟨h0, h1⟩ a
    have h2 : (i 2).val < 1 := (i 2).isLt
    have h3 : (i 3).val < 512 := (i 3).isLt
    match a with
    | ⟨0, _⟩ => show q.val ≤ (i 0).val ∧ (i 0).val < q.val + 1; omega
    | ⟨1, _⟩ => show b.val ≤ (i 1).val ∧ (i 1).val < b.val + 1; omega
    | ⟨2, _⟩ => show 0 ≤ (i 2).val ∧ (i 2).val < 0 + 1; omega
    | ⟨3, _⟩ => show 0 ≤ (i 3).val ∧ (i 3).val < 0 + 512; omega

theorem commSl_disjoint (q q' : Dev nD) (b b' : Fin 2) (h : (q, b) ≠ (q', b')) :
    Disjoint (commSl q b).view.set (commSl q' b').view.set := by
  rw [Finset.disjoint_left]
  intro i hi hi'
  rw [mem_commSl] at hi hi'
  exact h (Prod.ext (Fin.ext (show q.val = q'.val by omega)) (Fin.ext (show b.val = b'.val by omega)))

theorem commSl_cover : ((Finset.univ : Finset (Dev nD × Fin 2)).biUnion fun t => (commSl t.1 t.2).view.set)
    = (Finset.univ : Finset S8x2x1x512.Idx) := by
  ext i
  simp only [Finset.mem_univ, Finset.mem_biUnion, true_and, iff_true]
  exact ⟨(⟨(i 0).val, (i 0).isLt⟩, ⟨(i 1).val, (i 1).isLt⟩), (mem_commSl _ _ i).mpr ⟨rfl, rfl⟩⟩

/-- The iterated separating conjunction over the eight devices, in order. -/
theorem bigSep_dev {M : Type} [URA M] (Φ : Dev nD → sProp M) :
    bigSep Finset.univ Φ = iprop(Φ 0 ∗ Φ 1 ∗ Φ 2 ∗ Φ 3 ∗ Φ 4 ∗ Φ 5 ∗ Φ 6 ∗ Φ 7) := by
  rw [show (Finset.univ : Finset (Dev nD)) = {0, 1, 2, 3, 4, 5, 6, 7} by decide]
  rw [bigSep_insert (by decide), bigSep_insert (by decide), bigSep_insert (by decide), bigSep_insert (by decide),
    bigSep_insert (by decide), bigSep_insert (by decide), bigSep_insert (by decide), bigSep_singleton]
  rfl

theorem sep_assoc_eq {M : Type} [URA M] (P Q R : sProp M) : BI.sep (BI.sep P Q) R = BI.sep P (BI.sep Q R) :=
  Std.Associative.assoc (op := (BI.sep : sProp M → _ → _)) P Q R

/-- Eight pairs, flattened. -/
theorem pairs_flat {M : Type} [URA M] (a0 b0 a1 b1 a2 b2 a3 b3 a4 b4 a5 b5 a6 b6 a7 b7 : sProp M) :
    BI.sep (BI.sep a0 b0) (BI.sep (BI.sep a1 b1) (BI.sep (BI.sep a2 b2) (BI.sep (BI.sep a3 b3) (BI.sep (BI.sep a4 b4)
      (BI.sep (BI.sep a5 b5) (BI.sep (BI.sep a6 b6) (BI.sep a7 b7)))))))
    = BI.sep a0 (BI.sep b0 (BI.sep a1 (BI.sep b1 (BI.sep a2 (BI.sep b2 (BI.sep a3 (BI.sep b3 (BI.sep a4 (BI.sep b4
      (BI.sep a5 (BI.sep b5 (BI.sep a6 (BI.sep b6 (BI.sep a7 b7)))))))))))))) := by
  simp only [sep_assoc_eq]

/-- The iterated separating conjunction over the sixteen slots, device-major. -/
theorem bigSep_slots {M : Type} [URA M] (Φ : Dev nD × Fin 2 → sProp M) :
    bigSep Finset.univ Φ
      = iprop(Φ (0, 0) ∗ Φ (0, 1) ∗ Φ (1, 0) ∗ Φ (1, 1) ∗ Φ (2, 0) ∗ Φ (2, 1) ∗ Φ (3, 0) ∗ Φ (3, 1) ∗ Φ (4, 0) ∗ Φ (4, 1) ∗ Φ (5, 0) ∗ Φ (5, 1) ∗ Φ (6, 0) ∗ Φ (6, 1) ∗ Φ (7, 0) ∗ Φ (7, 1)) := by
  rw [bigSep_univ_prod, bigSep_dev]
  simp only [bigSep_fin_two]
  exact pairs_flat ..

/-- The whole table is its sixteen slots. -/
theorem comm_eq (c : Dev nD) (f : CommBuf F) :
    ((c : Thread nD τ).loc cc0_scratch1 ↦{fullShare} f : sProp 𝕄)
      = iprop(((commSl 0 0).view.loc (c : Thread nD τ) ↦[(commSl 0 0).view.set]{fullShare} f)
        ∗ ((commSl 0 1).view.loc (c : Thread nD τ) ↦[(commSl 0 1).view.set]{fullShare} f)
        ∗ ((commSl 1 0).view.loc (c : Thread nD τ) ↦[(commSl 1 0).view.set]{fullShare} f)
        ∗ ((commSl 1 1).view.loc (c : Thread nD τ) ↦[(commSl 1 1).view.set]{fullShare} f)
        ∗ ((commSl 2 0).view.loc (c : Thread nD τ) ↦[(commSl 2 0).view.set]{fullShare} f)
        ∗ ((commSl 2 1).view.loc (c : Thread nD τ) ↦[(commSl 2 1).view.set]{fullShare} f)
        ∗ ((commSl 3 0).view.loc (c : Thread nD τ) ↦[(commSl 3 0).view.set]{fullShare} f)
        ∗ ((commSl 3 1).view.loc (c : Thread nD τ) ↦[(commSl 3 1).view.set]{fullShare} f)
        ∗ ((commSl 4 0).view.loc (c : Thread nD τ) ↦[(commSl 4 0).view.set]{fullShare} f)
        ∗ ((commSl 4 1).view.loc (c : Thread nD τ) ↦[(commSl 4 1).view.set]{fullShare} f)
        ∗ ((commSl 5 0).view.loc (c : Thread nD τ) ↦[(commSl 5 0).view.set]{fullShare} f)
        ∗ ((commSl 5 1).view.loc (c : Thread nD τ) ↦[(commSl 5 1).view.set]{fullShare} f)
        ∗ ((commSl 6 0).view.loc (c : Thread nD τ) ↦[(commSl 6 0).view.set]{fullShare} f)
        ∗ ((commSl 6 1).view.loc (c : Thread nD τ) ↦[(commSl 6 1).view.set]{fullShare} f)
        ∗ ((commSl 7 0).view.loc (c : Thread nD τ) ↦[(commSl 7 0).view.set]{fullShare} f)
        ∗ ((commSl 7 1).view.loc (c : Thread nD τ) ↦[(commSl 7 1).view.set]{fullShare} f)) :=
  (Ring.pointsTo_blocks (ℓ := (c : Thread nD τ).loc cc0_scratch1) (fun t : Dev nD × Fin 2 => (commSl t.1 t.2).view.set)
      (fun t t' hne => commSl_disjoint t.1 t'.1 t.2 t'.2 hne) commSl_cover f).trans (bigSep_slots _)

theorem comm_split (c : Dev nD) (f : CommBuf F) :
    ((c : Thread nD τ).loc cc0_scratch1 ↦{fullShare} f : sProp 𝕄)
      ⊢ iprop(((commSl 0 0).view.loc (c : Thread nD τ) ↦[(commSl 0 0).view.set]{fullShare} f)
        ∗ ((commSl 0 1).view.loc (c : Thread nD τ) ↦[(commSl 0 1).view.set]{fullShare} f)
        ∗ ((commSl 1 0).view.loc (c : Thread nD τ) ↦[(commSl 1 0).view.set]{fullShare} f)
        ∗ ((commSl 1 1).view.loc (c : Thread nD τ) ↦[(commSl 1 1).view.set]{fullShare} f)
        ∗ ((commSl 2 0).view.loc (c : Thread nD τ) ↦[(commSl 2 0).view.set]{fullShare} f)
        ∗ ((commSl 2 1).view.loc (c : Thread nD τ) ↦[(commSl 2 1).view.set]{fullShare} f)
        ∗ ((commSl 3 0).view.loc (c : Thread nD τ) ↦[(commSl 3 0).view.set]{fullShare} f)
        ∗ ((commSl 3 1).view.loc (c : Thread nD τ) ↦[(commSl 3 1).view.set]{fullShare} f)
        ∗ ((commSl 4 0).view.loc (c : Thread nD τ) ↦[(commSl 4 0).view.set]{fullShare} f)
        ∗ ((commSl 4 1).view.loc (c : Thread nD τ) ↦[(commSl 4 1).view.set]{fullShare} f)
        ∗ ((commSl 5 0).view.loc (c : Thread nD τ) ↦[(commSl 5 0).view.set]{fullShare} f)
        ∗ ((commSl 5 1).view.loc (c : Thread nD τ) ↦[(commSl 5 1).view.set]{fullShare} f)
        ∗ ((commSl 6 0).view.loc (c : Thread nD τ) ↦[(commSl 6 0).view.set]{fullShare} f)
        ∗ ((commSl 6 1).view.loc (c : Thread nD τ) ↦[(commSl 6 1).view.set]{fullShare} f)
        ∗ ((commSl 7 0).view.loc (c : Thread nD τ) ↦[(commSl 7 0).view.set]{fullShare} f)
        ∗ ((commSl 7 1).view.loc (c : Thread nD τ) ↦[(commSl 7 1).view.set]{fullShare} f)) :=
  Entails.of_eq (comm_eq c f)

theorem comm_join (c : Dev nD) (f : CommBuf F) :
    iprop(((commSl 0 0).view.loc (c : Thread nD τ) ↦[(commSl 0 0).view.set]{fullShare} f)
        ∗ ((commSl 0 1).view.loc (c : Thread nD τ) ↦[(commSl 0 1).view.set]{fullShare} f)
        ∗ ((commSl 1 0).view.loc (c : Thread nD τ) ↦[(commSl 1 0).view.set]{fullShare} f)
        ∗ ((commSl 1 1).view.loc (c : Thread nD τ) ↦[(commSl 1 1).view.set]{fullShare} f)
        ∗ ((commSl 2 0).view.loc (c : Thread nD τ) ↦[(commSl 2 0).view.set]{fullShare} f)
        ∗ ((commSl 2 1).view.loc (c : Thread nD τ) ↦[(commSl 2 1).view.set]{fullShare} f)
        ∗ ((commSl 3 0).view.loc (c : Thread nD τ) ↦[(commSl 3 0).view.set]{fullShare} f)
        ∗ ((commSl 3 1).view.loc (c : Thread nD τ) ↦[(commSl 3 1).view.set]{fullShare} f)
        ∗ ((commSl 4 0).view.loc (c : Thread nD τ) ↦[(commSl 4 0).view.set]{fullShare} f)
        ∗ ((commSl 4 1).view.loc (c : Thread nD τ) ↦[(commSl 4 1).view.set]{fullShare} f)
        ∗ ((commSl 5 0).view.loc (c : Thread nD τ) ↦[(commSl 5 0).view.set]{fullShare} f)
        ∗ ((commSl 5 1).view.loc (c : Thread nD τ) ↦[(commSl 5 1).view.set]{fullShare} f)
        ∗ ((commSl 6 0).view.loc (c : Thread nD τ) ↦[(commSl 6 0).view.set]{fullShare} f)
        ∗ ((commSl 6 1).view.loc (c : Thread nD τ) ↦[(commSl 6 1).view.set]{fullShare} f)
        ∗ ((commSl 7 0).view.loc (c : Thread nD τ) ↦[(commSl 7 0).view.set]{fullShare} f)
        ∗ ((commSl 7 1).view.loc (c : Thread nD τ) ↦[(commSl 7 1).view.set]{fullShare} f))
      ⊢ ((c : Thread nD τ).loc cc0_scratch1 ↦{fullShare} f : sProp 𝕄) :=
  Entails.of_eq (comm_eq c f).symm

/-- Sixteen slots, each at contents of its own, are the whole table at some contents. -/
theorem comm_join_ex (c : Dev nD) :
    iprop((∃ f : CommBuf F, (commSl 0 0).view.loc (c : Thread nD τ) ↦[(commSl 0 0).view.set]{fullShare} f)
        ∗ (∃ f : CommBuf F, (commSl 0 1).view.loc (c : Thread nD τ) ↦[(commSl 0 1).view.set]{fullShare} f)
        ∗ (∃ f : CommBuf F, (commSl 1 0).view.loc (c : Thread nD τ) ↦[(commSl 1 0).view.set]{fullShare} f)
        ∗ (∃ f : CommBuf F, (commSl 1 1).view.loc (c : Thread nD τ) ↦[(commSl 1 1).view.set]{fullShare} f)
        ∗ (∃ f : CommBuf F, (commSl 2 0).view.loc (c : Thread nD τ) ↦[(commSl 2 0).view.set]{fullShare} f)
        ∗ (∃ f : CommBuf F, (commSl 2 1).view.loc (c : Thread nD τ) ↦[(commSl 2 1).view.set]{fullShare} f)
        ∗ (∃ f : CommBuf F, (commSl 3 0).view.loc (c : Thread nD τ) ↦[(commSl 3 0).view.set]{fullShare} f)
        ∗ (∃ f : CommBuf F, (commSl 3 1).view.loc (c : Thread nD τ) ↦[(commSl 3 1).view.set]{fullShare} f)
        ∗ (∃ f : CommBuf F, (commSl 4 0).view.loc (c : Thread nD τ) ↦[(commSl 4 0).view.set]{fullShare} f)
        ∗ (∃ f : CommBuf F, (commSl 4 1).view.loc (c : Thread nD τ) ↦[(commSl 4 1).view.set]{fullShare} f)
        ∗ (∃ f : CommBuf F, (commSl 5 0).view.loc (c : Thread nD τ) ↦[(commSl 5 0).view.set]{fullShare} f)
        ∗ (∃ f : CommBuf F, (commSl 5 1).view.loc (c : Thread nD τ) ↦[(commSl 5 1).view.set]{fullShare} f)
        ∗ (∃ f : CommBuf F, (commSl 6 0).view.loc (c : Thread nD τ) ↦[(commSl 6 0).view.set]{fullShare} f)
        ∗ (∃ f : CommBuf F, (commSl 6 1).view.loc (c : Thread nD τ) ↦[(commSl 6 1).view.set]{fullShare} f)
        ∗ (∃ f : CommBuf F, (commSl 7 0).view.loc (c : Thread nD τ) ↦[(commSl 7 0).view.set]{fullShare} f)
        ∗ (∃ f : CommBuf F, (commSl 7 1).view.loc (c : Thread nD τ) ↦[(commSl 7 1).view.set]{fullShare} f))
      ⊢ (iprop(∃ f : CommBuf F, (c : Thread nD τ).loc cc0_scratch1 ↦{fullShare} f) : sProp 𝕄) :=
  (Entails.of_eq (bigSep_slots (fun t : Dev nD × Fin 2 =>
      (iprop(∃ f : CommBuf F, (c : Thread nD τ).loc cc0_scratch1 ↦[(commSl t.1 t.2).view.set]{fullShare} f) : sProp 𝕄))).symm).trans
    (Ring.pointsTo_blocks_join_exists (ℓ := (c : Thread nD τ).loc cc0_scratch1) (fun t : Dev nD × Fin 2 => (commSl t.1 t.2).view.set)
      (fun t t' hne => commSl_disjoint t.1 t'.1 t.2 t'.2 hne) commSl_cover (fun _ => (Scalar.ofBits .f32 0x00000000#32 : F .f32)))

/-! ## A half of the table: the eight devices' row sums of one half of the rows -/

theorem half_inb (b : Fin 2) : ∀ a, (![0, b.val, 0, 0] : Fin 4 → Nat) a + S8x1x1x512.size a ≤ S8x2x1x512.size a := by
  revert b; decide

/-- The eight devices' row sums of half b, as an 8 x 1 x 1 x 512 memref. -/
abbrev halfM (b : Fin 2) : Memref sig .tc .vmem S8x1x1x512 .f32 :=
  cM.slice (Rect.unit (s := S8x2x1x512) ![0, b.val, 0, 0] S8x1x1x512.size (half_inb b)) (fun _ => rfl)

theorem halfM_set (b : Fin 2) :
    (halfM b).view.set = (Rect.unit (s := S8x2x1x512) ![0, b.val, 0, 0] S8x1x1x512.size (half_inb b)).set :=
  View.set_slice_whole ..

/-- An element is in half b exactly when its second coordinate is b. -/
theorem mem_halfM (b : Fin 2) (i : S8x2x1x512.Idx) : i ∈ (halfM b).view.set ↔ (i 1).val = b.val := by
  rw [halfM_set, Rect.mem_set_unit]
  constructor
  · intro h
    have h1 : b.val ≤ (i 1).val ∧ (i 1).val < b.val + 1 := h 1
    omega
  · intro h1 a
    have h0 : (i 0).val < 8 := (i 0).isLt
    have h2 : (i 2).val < 1 := (i 2).isLt
    have h3 : (i 3).val < 512 := (i 3).isLt
    match a with
    | ⟨0, _⟩ => show 0 ≤ (i 0).val ∧ (i 0).val < 0 + 8; omega
    | ⟨1, _⟩ => show b.val ≤ (i 1).val ∧ (i 1).val < b.val + 1; omega
    | ⟨2, _⟩ => show 0 ≤ (i 2).val ∧ (i 2).val < 0 + 1; omega
    | ⟨3, _⟩ => show 0 ≤ (i 3).val ∧ (i 3).val < 0 + 512; omega

theorem half_cover (b : Fin 2) :
    ((Finset.univ : Finset (Dev nD)).biUnion fun q => (commSl q b).view.set) = (halfM b).view.set := by
  ext i
  rw [Finset.mem_biUnion, mem_halfM]
  constructor
  · rintro ⟨q, -, hq⟩; exact ((mem_commSl q b i).mp hq).2
  · intro h; exact ⟨⟨(i 0).val, (i 0).isLt⟩, Finset.mem_univ _, (mem_commSl _ b i).mpr ⟨rfl, h⟩⟩

/-- A half of the table is its eight slots. -/
theorem half_eq (c : Dev nD) (b : Fin 2) (f : CommBuf F) :
    ((halfM b).view.loc (c : Thread nD τ) ↦[(halfM b).view.set]{fullShare} f : sProp 𝕄)
      = iprop(((commSl 0 b).view.loc (c : Thread nD τ) ↦[(commSl 0 b).view.set]{fullShare} f)
        ∗ ((commSl 1 b).view.loc (c : Thread nD τ) ↦[(commSl 1 b).view.set]{fullShare} f)
        ∗ ((commSl 2 b).view.loc (c : Thread nD τ) ↦[(commSl 2 b).view.set]{fullShare} f)
        ∗ ((commSl 3 b).view.loc (c : Thread nD τ) ↦[(commSl 3 b).view.set]{fullShare} f)
        ∗ ((commSl 4 b).view.loc (c : Thread nD τ) ↦[(commSl 4 b).view.set]{fullShare} f)
        ∗ ((commSl 5 b).view.loc (c : Thread nD τ) ↦[(commSl 5 b).view.set]{fullShare} f)
        ∗ ((commSl 6 b).view.loc (c : Thread nD τ) ↦[(commSl 6 b).view.set]{fullShare} f)
        ∗ ((commSl 7 b).view.loc (c : Thread nD τ) ↦[(commSl 7 b).view.set]{fullShare} f)) :=
  (congrArg (fun S => ((c : Thread nD τ).loc cc0_scratch1 ↦[S]{fullShare} f : sProp 𝕄)) (half_cover b).symm).trans
    ((pointsTo_biUnion (ℓ := (c : Thread nD τ).loc cc0_scratch1) (Finset.univ : Finset (Dev nD)) (fun q => (commSl q b).view.set)
      (fun q _ q' _ hne => commSl_disjoint q q' b b (fun h => hne (congrArg Prod.fst h)))).trans (bigSep_dev _))

theorem half_split (c : Dev nD) (b : Fin 2) (f : CommBuf F) :
    ((halfM b).view.loc (c : Thread nD τ) ↦[(halfM b).view.set]{fullShare} f : sProp 𝕄)
      ⊢ iprop(((commSl 0 b).view.loc (c : Thread nD τ) ↦[(commSl 0 b).view.set]{fullShare} f)
        ∗ ((commSl 1 b).view.loc (c : Thread nD τ) ↦[(commSl 1 b).view.set]{fullShare} f)
        ∗ ((commSl 2 b).view.loc (c : Thread nD τ) ↦[(commSl 2 b).view.set]{fullShare} f)
        ∗ ((commSl 3 b).view.loc (c : Thread nD τ) ↦[(commSl 3 b).view.set]{fullShare} f)
        ∗ ((commSl 4 b).view.loc (c : Thread nD τ) ↦[(commSl 4 b).view.set]{fullShare} f)
        ∗ ((commSl 5 b).view.loc (c : Thread nD τ) ↦[(commSl 5 b).view.set]{fullShare} f)
        ∗ ((commSl 6 b).view.loc (c : Thread nD τ) ↦[(commSl 6 b).view.set]{fullShare} f)
        ∗ ((commSl 7 b).view.loc (c : Thread nD τ) ↦[(commSl 7 b).view.set]{fullShare} f)) :=
  Entails.of_eq (half_eq c b f)

theorem half_join (c : Dev nD) (b : Fin 2) (f : CommBuf F) :
    iprop(((commSl 0 b).view.loc (c : Thread nD τ) ↦[(commSl 0 b).view.set]{fullShare} f)
        ∗ ((commSl 1 b).view.loc (c : Thread nD τ) ↦[(commSl 1 b).view.set]{fullShare} f)
        ∗ ((commSl 2 b).view.loc (c : Thread nD τ) ↦[(commSl 2 b).view.set]{fullShare} f)
        ∗ ((commSl 3 b).view.loc (c : Thread nD τ) ↦[(commSl 3 b).view.set]{fullShare} f)
        ∗ ((commSl 4 b).view.loc (c : Thread nD τ) ↦[(commSl 4 b).view.set]{fullShare} f)
        ∗ ((commSl 5 b).view.loc (c : Thread nD τ) ↦[(commSl 5 b).view.set]{fullShare} f)
        ∗ ((commSl 6 b).view.loc (c : Thread nD τ) ↦[(commSl 6 b).view.set]{fullShare} f)
        ∗ ((commSl 7 b).view.loc (c : Thread nD τ) ↦[(commSl 7 b).view.set]{fullShare} f))
      ⊢ ((halfM b).view.loc (c : Thread nD τ) ↦[(halfM b).view.set]{fullShare} f : sProp 𝕄) :=
  Entails.of_eq (half_eq c b f).symm

/-! ## The table of own row sums: its two rows, and a row under its eight shares -/

theorem mineSl_set (b : Fin 2) :
    (mineSl b).view.set = (Rect.unit (s := S2x1x512) ![b.val, 0, 0] S1x1x512.size (mine_inb b)).set :=
  (View.set_reshape ..).trans (View.set_slice_whole ..)

/-- An element is in row b exactly when its first coordinate is b. -/
theorem mem_mineSl (b : Fin 2) (i : S2x1x512.Idx) : i ∈ (mineSl b).view.set ↔ (i 0).val = b.val := by
  rw [mineSl_set, Rect.mem_set_unit]
  constructor
  · intro h
    have h0 : b.val ≤ (i 0).val ∧ (i 0).val < b.val + 1 := h 0
    omega
  · intro h0 a
    have h1 : (i 1).val < 1 := (i 1).isLt
    have h2 : (i 2).val < 512 := (i 2).isLt
    match a with
    | ⟨0, _⟩ => show b.val ≤ (i 0).val ∧ (i 0).val < b.val + 1; omega
    | ⟨1, _⟩ => show 0 ≤ (i 1).val ∧ (i 1).val < 0 + 1; omega
    | ⟨2, _⟩ => show 0 ≤ (i 2).val ∧ (i 2).val < 0 + 512; omega

theorem mineSl_disjoint (b b' : Fin 2) (h : b ≠ b') : Disjoint (mineSl b).view.set (mineSl b').view.set := by
  rw [Finset.disjoint_left]
  intro i hi hi'
  rw [mem_mineSl] at hi hi'
  exact h (Fin.ext (show b.val = b'.val by omega))

theorem mineSl_cover : ((Finset.univ : Finset (Fin 2)).biUnion fun b => (mineSl b).view.set)
    = (Finset.univ : Finset S2x1x512.Idx) := by
  ext i
  simp only [Finset.mem_univ, Finset.mem_biUnion, true_and, iff_true]
  exact ⟨⟨(i 0).val, (i 0).isLt⟩, (mem_mineSl _ i).mpr rfl⟩

/-- The table of own row sums is its two rows. -/
theorem mine_eq (c : Dev nD) (f : MineBuf F) :
    ((c : Thread nD τ).loc cc0_scratch0 ↦{fullShare} f : sProp 𝕄)
      = iprop(((mineSl 0).view.loc (c : Thread nD τ) ↦[(mineSl 0).view.set]{fullShare} f)
        ∗ ((mineSl 1).view.loc (c : Thread nD τ) ↦[(mineSl 1).view.set]{fullShare} f)) :=
  (Ring.pointsTo_blocks (ℓ := (c : Thread nD τ).loc cc0_scratch0) (fun b : Fin 2 => (mineSl b).view.set)
      mineSl_disjoint mineSl_cover f).trans (bigSep_fin_two _)

theorem mine_split (c : Dev nD) (f : MineBuf F) :
    ((c : Thread nD τ).loc cc0_scratch0 ↦{fullShare} f : sProp 𝕄)
      ⊢ iprop(((mineSl 0).view.loc (c : Thread nD τ) ↦[(mineSl 0).view.set]{fullShare} f)
        ∗ ((mineSl 1).view.loc (c : Thread nD τ) ↦[(mineSl 1).view.set]{fullShare} f)) :=
  Entails.of_eq (mine_eq c f)

theorem mine_join (c : Dev nD) (f : MineBuf F) :
    iprop(((mineSl 0).view.loc (c : Thread nD τ) ↦[(mineSl 0).view.set]{fullShare} f)
        ∗ ((mineSl 1).view.loc (c : Thread nD τ) ↦[(mineSl 1).view.set]{fullShare} f))
      ⊢ ((c : Thread nD τ).loc cc0_scratch0 ↦{fullShare} f : sProp 𝕄) :=
  Entails.of_eq (mine_eq c f).symm

/-- Two rows, each at contents of its own, are the whole table at some contents. -/
theorem mine_join_ex (c : Dev nD) :
    iprop((∃ f : MineBuf F, (mineSl 0).view.loc (c : Thread nD τ) ↦[(mineSl 0).view.set]{fullShare} f)
        ∗ (∃ f : MineBuf F, (mineSl 1).view.loc (c : Thread nD τ) ↦[(mineSl 1).view.set]{fullShare} f))
      ⊢ (iprop(∃ f : MineBuf F, (c : Thread nD τ).loc cc0_scratch0 ↦{fullShare} f) : sProp 𝕄) :=
  (Entails.of_eq (bigSep_fin_two (fun b : Fin 2 =>
      (iprop(∃ f : MineBuf F, (c : Thread nD τ).loc cc0_scratch0 ↦[(mineSl b).view.set]{fullShare} f) : sProp 𝕄))).symm).trans
    (Ring.pointsTo_blocks_join_exists (ℓ := (c : Thread nD τ).loc cc0_scratch0) (fun b : Fin 2 => (mineSl b).view.set)
      mineSl_disjoint mineSl_cover (fun _ => (Scalar.ofBits .f32 0x00000000#32 : F .f32)))

/-- A points-to under a share is the points-to under its two halves. -/
theorem share_eq {ℓ : Loc nD τ sig} {I : Finset (Idx ℓ)} {f : Buf (Elt F) ℓ} (q : PosShare TreeShare) :
    (ℓ ↦[I]{q} f : sProp 𝕄) = BI.sep (ℓ ↦[I]{q.left} f) (ℓ ↦[I]{q.right} f) :=
  have hu := pointsTo_share (nD := nD) (τ := τ) (sig := sig) (Ix := Unit) (Val := Elt F) (Name := ℕ) (U := UU) (Lvl := ℕ)
    (ℓ := ℓ) (I := I) (f := f) (PosShare.mem_left_op_right q)
  BI.equiv_iff.mp ⟨hu.1, hu.2⟩

/-- A points-to under a share is the points-to under its eight eighths. -/
theorem shares8 {ℓ : Loc nD τ sig} {I : Finset (Idx ℓ)} {f : Buf (Elt F) ℓ} (q : PosShare TreeShare) :
    (ℓ ↦[I]{q} f : sProp 𝕄)
      = BI.sep (ℓ ↦[I]{q.left.left.left} f) (BI.sep (ℓ ↦[I]{q.left.left.right} f)
        (BI.sep (ℓ ↦[I]{q.left.right.left} f) (BI.sep (ℓ ↦[I]{q.left.right.right} f)
        (BI.sep (ℓ ↦[I]{q.right.left.left} f) (BI.sep (ℓ ↦[I]{q.right.left.right} f)
        (BI.sep (ℓ ↦[I]{q.right.right.left} f) (ℓ ↦[I]{q.right.right.right} f))))))) := by
  rw [share_eq q, share_eq q.left, share_eq q.right, share_eq q.left.left, share_eq q.left.right, share_eq q.right.left,
    share_eq q.right.right]
  simp only [sep_assoc_eq]

/-- A row held in full is the row held under its eight shares. -/
theorem row_shares_eq (c : Dev nD) (b : Fin 2) (f : MineBuf F) :
    minePts c b fullShare f
      = iprop(minePts c b (shr 0) f ∗ minePts c b (shr 1) f ∗ minePts c b (shr 2) f ∗ minePts c b (shr 3) f ∗ minePts c b (shr 4) f ∗ minePts c b (shr 5) f ∗ minePts c b (shr 6) f ∗ minePts c b (shr 7) f) :=
  shares8 fullShare

theorem row_shares_split (c : Dev nD) (b : Fin 2) (f : MineBuf F) :
    minePts c b fullShare f
      ⊢ iprop(minePts c b (shr 0) f ∗ minePts c b (shr 1) f ∗ minePts c b (shr 2) f ∗ minePts c b (shr 3) f ∗ minePts c b (shr 4) f ∗ minePts c b (shr 5) f ∗ minePts c b (shr 6) f ∗ minePts c b (shr 7) f) :=
  Entails.of_eq (row_shares_eq c b f)

theorem row_shares_join (c : Dev nD) (b : Fin 2) (f : MineBuf F) :
    iprop(minePts c b (shr 0) f ∗ minePts c b (shr 1) f ∗ minePts c b (shr 2) f ∗ minePts c b (shr 3) f ∗ minePts c b (shr 4) f ∗ minePts c b (shr 5) f ∗ minePts c b (shr 6) f ∗ minePts c b (shr 7) f)
      ⊢ minePts c b fullShare f :=
  Entails.of_eq (row_shares_eq c b f).symm

end Cert.KernelIdeal.Sm
end
-- ==== Proof.OpenKit.lean ====
/-
  For the opening of a device's body: what it owes at launch as the receive credit, one summand, and the seven barrier units;
  the table of everybody's row sums as its sixteen slots, each at some contents.
-/
import proofs.«901053_g7700000000001054_dist_softmax_colshard_i_m1024_n1024_v7x_i8_bf16_1_alg».proof.Proof.LaunchLev
import proofs.«901053_g7700000000001054_dist_softmax_colshard_i_m1024_n1024_v7x_i8_bf16_1_alg».proof.Proof.Glue

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## What a device owes at launch, regrouped -/

/-- The receive credit device c owes: its two copies to each other device. -/
def recvOwed (c : Dev nD) : CellTallies nD τ sig Unit :=
  ∑ p ∈ Finset.univ.erase c, (tallyAt (recvCell p 0 c) () Ncr + tallyAt (recvCell p 1 c) () Ncr)

theorem O₀_split (c : Dev nD) : O₀ c = recvOwed c + ∑ p ∈ Finset.univ.erase c, tallyAt (barCell p) () 1 := by
  unfold O₀ recvOwed
  rw [← Finset.sum_add_distrib]
  exact Finset.sum_congr rfl fun p _ => by rw [add_assoc, add_comm]

theorem recvOnly_recvOwed (c : Dev nD) : RecvOnly (recvOwed c) :=
  RecvOnly.sum fun p _ => (recvOnly_tallyAt p 0 c Ncr).add (recvOnly_tallyAt p 1 c Ncr)

omit [FloatOps F] in
/-- The barrier wait of a device that owes its receive credit only. -/
theorem mayWait_recvOwed (c : Dev nD) : (levAts L lv : sProp 𝕄) ⊢ MayWait (c : Thread nD τ) (.reg barS) () (recvOwed c) :=
  mayWait_bar c _ (recvOnly_recvOwed c)

/-! ## The same for each device, as explicit sums -/

theorem O₀_chain_0 : O₀ (0 : Dev nD) = recvOwed 0 + tallyAt (barCell 1) () 1 + tallyAt (barCell 2) () 1 + tallyAt (barCell 3) () 1 + tallyAt (barCell 4) () 1 + tallyAt (barCell 5) () 1 + tallyAt (barCell 6) () 1 + tallyAt (barCell 7) () 1 := by
  rw [O₀_split, show Finset.univ.erase (0 : Dev nD) = {1, 2, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_0 : recvOwed (0 : Dev nD)
    = tallyAt (recvCell 1 0 0) () Ncr + tallyAt (recvCell 1 1 0) () Ncr + tallyAt (recvCell 2 0 0) () Ncr + tallyAt (recvCell 2 1 0) () Ncr
      + tallyAt (recvCell 3 0 0) () Ncr + tallyAt (recvCell 3 1 0) () Ncr + tallyAt (recvCell 4 0 0) () Ncr + tallyAt (recvCell 4 1 0) () Ncr
      + tallyAt (recvCell 5 0 0) () Ncr + tallyAt (recvCell 5 1 0) () Ncr + tallyAt (recvCell 6 0 0) () Ncr + tallyAt (recvCell 6 1 0) () Ncr
      + tallyAt (recvCell 7 0 0) () Ncr + tallyAt (recvCell 7 1 0) () Ncr := by
  unfold recvOwed
  rw [show Finset.univ.erase (0 : Dev nD) = {1, 2, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_1 : O₀ (1 : Dev nD) = recvOwed 1 + tallyAt (barCell 0) () 1 + tallyAt (barCell 2) () 1 + tallyAt (barCell 3) () 1 + tallyAt (barCell 4) () 1 + tallyAt (barCell 5) () 1 + tallyAt (barCell 6) () 1 + tallyAt (barCell 7) () 1 := by
  rw [O₀_split, show Finset.univ.erase (1 : Dev nD) = {0, 2, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_1 : recvOwed (1 : Dev nD)
    = tallyAt (recvCell 0 0 1) () Ncr + tallyAt (recvCell 0 1 1) () Ncr + tallyAt (recvCell 2 0 1) () Ncr + tallyAt (recvCell 2 1 1) () Ncr
      + tallyAt (recvCell 3 0 1) () Ncr + tallyAt (recvCell 3 1 1) () Ncr + tallyAt (recvCell 4 0 1) () Ncr + tallyAt (recvCell 4 1 1) () Ncr
      + tallyAt (recvCell 5 0 1) () Ncr + tallyAt (recvCell 5 1 1) () Ncr + tallyAt (recvCell 6 0 1) () Ncr + tallyAt (recvCell 6 1 1) () Ncr
      + tallyAt (recvCell 7 0 1) () Ncr + tallyAt (recvCell 7 1 1) () Ncr := by
  unfold recvOwed
  rw [show Finset.univ.erase (1 : Dev nD) = {0, 2, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_2 : O₀ (2 : Dev nD) = recvOwed 2 + tallyAt (barCell 0) () 1 + tallyAt (barCell 1) () 1 + tallyAt (barCell 3) () 1 + tallyAt (barCell 4) () 1 + tallyAt (barCell 5) () 1 + tallyAt (barCell 6) () 1 + tallyAt (barCell 7) () 1 := by
  rw [O₀_split, show Finset.univ.erase (2 : Dev nD) = {0, 1, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_2 : recvOwed (2 : Dev nD)
    = tallyAt (recvCell 0 0 2) () Ncr + tallyAt (recvCell 0 1 2) () Ncr + tallyAt (recvCell 1 0 2) () Ncr + tallyAt (recvCell 1 1 2) () Ncr
      + tallyAt (recvCell 3 0 2) () Ncr + tallyAt (recvCell 3 1 2) () Ncr + tallyAt (recvCell 4 0 2) () Ncr + tallyAt (recvCell 4 1 2) () Ncr
      + tallyAt (recvCell 5 0 2) () Ncr + tallyAt (recvCell 5 1 2) () Ncr + tallyAt (recvCell 6 0 2) () Ncr + tallyAt (recvCell 6 1 2) () Ncr
      + tallyAt (recvCell 7 0 2) () Ncr + tallyAt (recvCell 7 1 2) () Ncr := by
  unfold recvOwed
  rw [show Finset.univ.erase (2 : Dev nD) = {0, 1, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_3 : O₀ (3 : Dev nD) = recvOwed 3 + tallyAt (barCell 0) () 1 + tallyAt (barCell 1) () 1 + tallyAt (barCell 2) () 1 + tallyAt (barCell 4) () 1 + tallyAt (barCell 5) () 1 + tallyAt (barCell 6) () 1 + tallyAt (barCell 7) () 1 := by
  rw [O₀_split, show Finset.univ.erase (3 : Dev nD) = {0, 1, 2, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_3 : recvOwed (3 : Dev nD)
    = tallyAt (recvCell 0 0 3) () Ncr + tallyAt (recvCell 0 1 3) () Ncr + tallyAt (recvCell 1 0 3) () Ncr + tallyAt (recvCell 1 1 3) () Ncr
      + tallyAt (recvCell 2 0 3) () Ncr + tallyAt (recvCell 2 1 3) () Ncr + tallyAt (recvCell 4 0 3) () Ncr + tallyAt (recvCell 4 1 3) () Ncr
      + tallyAt (recvCell 5 0 3) () Ncr + tallyAt (recvCell 5 1 3) () Ncr + tallyAt (recvCell 6 0 3) () Ncr + tallyAt (recvCell 6 1 3) () Ncr
      + tallyAt (recvCell 7 0 3) () Ncr + tallyAt (recvCell 7 1 3) () Ncr := by
  unfold recvOwed
  rw [show Finset.univ.erase (3 : Dev nD) = {0, 1, 2, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_4 : O₀ (4 : Dev nD) = recvOwed 4 + tallyAt (barCell 0) () 1 + tallyAt (barCell 1) () 1 + tallyAt (barCell 2) () 1 + tallyAt (barCell 3) () 1 + tallyAt (barCell 5) () 1 + tallyAt (barCell 6) () 1 + tallyAt (barCell 7) () 1 := by
  rw [O₀_split, show Finset.univ.erase (4 : Dev nD) = {0, 1, 2, 3, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_4 : recvOwed (4 : Dev nD)
    = tallyAt (recvCell 0 0 4) () Ncr + tallyAt (recvCell 0 1 4) () Ncr + tallyAt (recvCell 1 0 4) () Ncr + tallyAt (recvCell 1 1 4) () Ncr
      + tallyAt (recvCell 2 0 4) () Ncr + tallyAt (recvCell 2 1 4) () Ncr + tallyAt (recvCell 3 0 4) () Ncr + tallyAt (recvCell 3 1 4) () Ncr
      + tallyAt (recvCell 5 0 4) () Ncr + tallyAt (recvCell 5 1 4) () Ncr + tallyAt (recvCell 6 0 4) () Ncr + tallyAt (recvCell 6 1 4) () Ncr
      + tallyAt (recvCell 7 0 4) () Ncr + tallyAt (recvCell 7 1 4) () Ncr := by
  unfold recvOwed
  rw [show Finset.univ.erase (4 : Dev nD) = {0, 1, 2, 3, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_5 : O₀ (5 : Dev nD) = recvOwed 5 + tallyAt (barCell 0) () 1 + tallyAt (barCell 1) () 1 + tallyAt (barCell 2) () 1 + tallyAt (barCell 3) () 1 + tallyAt (barCell 4) () 1 + tallyAt (barCell 6) () 1 + tallyAt (barCell 7) () 1 := by
  rw [O₀_split, show Finset.univ.erase (5 : Dev nD) = {0, 1, 2, 3, 4, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_5 : recvOwed (5 : Dev nD)
    = tallyAt (recvCell 0 0 5) () Ncr + tallyAt (recvCell 0 1 5) () Ncr + tallyAt (recvCell 1 0 5) () Ncr + tallyAt (recvCell 1 1 5) () Ncr
      + tallyAt (recvCell 2 0 5) () Ncr + tallyAt (recvCell 2 1 5) () Ncr + tallyAt (recvCell 3 0 5) () Ncr + tallyAt (recvCell 3 1 5) () Ncr
      + tallyAt (recvCell 4 0 5) () Ncr + tallyAt (recvCell 4 1 5) () Ncr + tallyAt (recvCell 6 0 5) () Ncr + tallyAt (recvCell 6 1 5) () Ncr
      + tallyAt (recvCell 7 0 5) () Ncr + tallyAt (recvCell 7 1 5) () Ncr := by
  unfold recvOwed
  rw [show Finset.univ.erase (5 : Dev nD) = {0, 1, 2, 3, 4, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_6 : O₀ (6 : Dev nD) = recvOwed 6 + tallyAt (barCell 0) () 1 + tallyAt (barCell 1) () 1 + tallyAt (barCell 2) () 1 + tallyAt (barCell 3) () 1 + tallyAt (barCell 4) () 1 + tallyAt (barCell 5) () 1 + tallyAt (barCell 7) () 1 := by
  rw [O₀_split, show Finset.univ.erase (6 : Dev nD) = {0, 1, 2, 3, 4, 5, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_6 : recvOwed (6 : Dev nD)
    = tallyAt (recvCell 0 0 6) () Ncr + tallyAt (recvCell 0 1 6) () Ncr + tallyAt (recvCell 1 0 6) () Ncr + tallyAt (recvCell 1 1 6) () Ncr
      + tallyAt (recvCell 2 0 6) () Ncr + tallyAt (recvCell 2 1 6) () Ncr + tallyAt (recvCell 3 0 6) () Ncr + tallyAt (recvCell 3 1 6) () Ncr
      + tallyAt (recvCell 4 0 6) () Ncr + tallyAt (recvCell 4 1 6) () Ncr + tallyAt (recvCell 5 0 6) () Ncr + tallyAt (recvCell 5 1 6) () Ncr
      + tallyAt (recvCell 7 0 6) () Ncr + tallyAt (recvCell 7 1 6) () Ncr := by
  unfold recvOwed
  rw [show Finset.univ.erase (6 : Dev nD) = {0, 1, 2, 3, 4, 5, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_7 : O₀ (7 : Dev nD) = recvOwed 7 + tallyAt (barCell 0) () 1 + tallyAt (barCell 1) () 1 + tallyAt (barCell 2) () 1 + tallyAt (barCell 3) () 1 + tallyAt (barCell 4) () 1 + tallyAt (barCell 5) () 1 + tallyAt (barCell 6) () 1 := by
  rw [O₀_split, show Finset.univ.erase (7 : Dev nD) = {0, 1, 2, 3, 4, 5, 6} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_7 : recvOwed (7 : Dev nD)
    = tallyAt (recvCell 0 0 7) () Ncr + tallyAt (recvCell 0 1 7) () Ncr + tallyAt (recvCell 1 0 7) () Ncr + tallyAt (recvCell 1 1 7) () Ncr
      + tallyAt (recvCell 2 0 7) () Ncr + tallyAt (recvCell 2 1 7) () Ncr + tallyAt (recvCell 3 0 7) () Ncr + tallyAt (recvCell 3 1 7) () Ncr
      + tallyAt (recvCell 4 0 7) () Ncr + tallyAt (recvCell 4 1 7) () Ncr + tallyAt (recvCell 5 0 7) () Ncr + tallyAt (recvCell 5 1 7) () Ncr
      + tallyAt (recvCell 6 0 7) () Ncr + tallyAt (recvCell 6 1 7) () Ncr := by
  unfold recvOwed
  rw [show Finset.univ.erase (7 : Dev nD) = {0, 1, 2, 3, 4, 5, 6} from by decide,
    Finset.sum_insert (by decide), Finset.sum_insert (by decide), Finset.sum_insert (by decide), Finset.sum_insert (by decide), Finset.sum_insert (by decide), Finset.sum_insert (by decide), Finset.sum_singleton]
  simp only [add_assoc]

/-! ## The receive credit in the order the body pays it, last payment first -/

theorem recvOwed_pay_0 : recvOwed (0 : Dev nD)
    = tallyAt (recvCell 7 1 0) () Ncr + tallyAt (recvCell 6 1 0) () Ncr + tallyAt (recvCell 5 1 0) () Ncr + tallyAt (recvCell 4 1 0) () Ncr
      + tallyAt (recvCell 3 1 0) () Ncr + tallyAt (recvCell 2 1 0) () Ncr + tallyAt (recvCell 1 1 0) () Ncr + tallyAt (recvCell 7 0 0) () Ncr
      + tallyAt (recvCell 6 0 0) () Ncr + tallyAt (recvCell 5 0 0) () Ncr + tallyAt (recvCell 4 0 0) () Ncr + tallyAt (recvCell 3 0 0) () Ncr
      + tallyAt (recvCell 2 0 0) () Ncr + tallyAt (recvCell 1 0 0) () Ncr := by
  unfold recvOwed
  rw [Finset.sum_add_distrib, add_comm, show Finset.univ.erase (0 : Dev nD) = {7, 6, 5, 4, 3, 2, 1} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_0 (W : Waits sig Unit) : (owes ((0 : Dev nD) : Thread nD τ) (recvOwed 0) W : sProp 𝕄)
    ⊢ owes ((0 : Dev nD) : Thread nD τ) (tallyAt (recvCell 7 1 0) () Ncr + tallyAt (recvCell 6 1 0) () Ncr + tallyAt (recvCell 5 1 0) () Ncr + tallyAt (recvCell 4 1 0) () Ncr + tallyAt (recvCell 3 1 0) () Ncr + tallyAt (recvCell 2 1 0) () Ncr + tallyAt (recvCell 1 1 0) () Ncr + tallyAt (recvCell 7 0 0) () Ncr + tallyAt (recvCell 6 0 0) () Ncr + tallyAt (recvCell 5 0 0) () Ncr + tallyAt (recvCell 4 0 0) () Ncr + tallyAt (recvCell 3 0 0) () Ncr + tallyAt (recvCell 2 0 0) () Ncr + tallyAt (recvCell 1 0 0) () Ncr) W :=
  Entails.of_eq (congrArg (fun O => (owes ((0 : Dev nD) : Thread nD τ) O W : sProp 𝕄)) recvOwed_pay_0)
theorem recvOwed_pay_1 : recvOwed (1 : Dev nD)
    = tallyAt (recvCell 7 1 1) () Ncr + tallyAt (recvCell 6 1 1) () Ncr + tallyAt (recvCell 5 1 1) () Ncr + tallyAt (recvCell 4 1 1) () Ncr
      + tallyAt (recvCell 3 1 1) () Ncr + tallyAt (recvCell 2 1 1) () Ncr + tallyAt (recvCell 0 1 1) () Ncr + tallyAt (recvCell 7 0 1) () Ncr
      + tallyAt (recvCell 6 0 1) () Ncr + tallyAt (recvCell 5 0 1) () Ncr + tallyAt (recvCell 4 0 1) () Ncr + tallyAt (recvCell 3 0 1) () Ncr
      + tallyAt (recvCell 2 0 1) () Ncr + tallyAt (recvCell 0 0 1) () Ncr := by
  unfold recvOwed
  rw [Finset.sum_add_distrib, add_comm, show Finset.univ.erase (1 : Dev nD) = {7, 6, 5, 4, 3, 2, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_1 (W : Waits sig Unit) : (owes ((1 : Dev nD) : Thread nD τ) (recvOwed 1) W : sProp 𝕄)
    ⊢ owes ((1 : Dev nD) : Thread nD τ) (tallyAt (recvCell 7 1 1) () Ncr + tallyAt (recvCell 6 1 1) () Ncr + tallyAt (recvCell 5 1 1) () Ncr + tallyAt (recvCell 4 1 1) () Ncr + tallyAt (recvCell 3 1 1) () Ncr + tallyAt (recvCell 2 1 1) () Ncr + tallyAt (recvCell 0 1 1) () Ncr + tallyAt (recvCell 7 0 1) () Ncr + tallyAt (recvCell 6 0 1) () Ncr + tallyAt (recvCell 5 0 1) () Ncr + tallyAt (recvCell 4 0 1) () Ncr + tallyAt (recvCell 3 0 1) () Ncr + tallyAt (recvCell 2 0 1) () Ncr + tallyAt (recvCell 0 0 1) () Ncr) W :=
  Entails.of_eq (congrArg (fun O => (owes ((1 : Dev nD) : Thread nD τ) O W : sProp 𝕄)) recvOwed_pay_1)
theorem recvOwed_pay_2 : recvOwed (2 : Dev nD)
    = tallyAt (recvCell 7 1 2) () Ncr + tallyAt (recvCell 6 1 2) () Ncr + tallyAt (recvCell 5 1 2) () Ncr + tallyAt (recvCell 4 1 2) () Ncr
      + tallyAt (recvCell 3 1 2) () Ncr + tallyAt (recvCell 1 1 2) () Ncr + tallyAt (recvCell 0 1 2) () Ncr + tallyAt (recvCell 7 0 2) () Ncr
      + tallyAt (recvCell 6 0 2) () Ncr + tallyAt (recvCell 5 0 2) () Ncr + tallyAt (recvCell 4 0 2) () Ncr + tallyAt (recvCell 3 0 2) () Ncr
      + tallyAt (recvCell 1 0 2) () Ncr + tallyAt (recvCell 0 0 2) () Ncr := by
  unfold recvOwed
  rw [Finset.sum_add_distrib, add_comm, show Finset.univ.erase (2 : Dev nD) = {7, 6, 5, 4, 3, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_2 (W : Waits sig Unit) : (owes ((2 : Dev nD) : Thread nD τ) (recvOwed 2) W : sProp 𝕄)
    ⊢ owes ((2 : Dev nD) : Thread nD τ) (tallyAt (recvCell 7 1 2) () Ncr + tallyAt (recvCell 6 1 2) () Ncr + tallyAt (recvCell 5 1 2) () Ncr + tallyAt (recvCell 4 1 2) () Ncr + tallyAt (recvCell 3 1 2) () Ncr + tallyAt (recvCell 1 1 2) () Ncr + tallyAt (recvCell 0 1 2) () Ncr + tallyAt (recvCell 7 0 2) () Ncr + tallyAt (recvCell 6 0 2) () Ncr + tallyAt (recvCell 5 0 2) () Ncr + tallyAt (recvCell 4 0 2) () Ncr + tallyAt (recvCell 3 0 2) () Ncr + tallyAt (recvCell 1 0 2) () Ncr + tallyAt (recvCell 0 0 2) () Ncr) W :=
  Entails.of_eq (congrArg (fun O => (owes ((2 : Dev nD) : Thread nD τ) O W : sProp 𝕄)) recvOwed_pay_2)
theorem recvOwed_pay_3 : recvOwed (3 : Dev nD)
    = tallyAt (recvCell 7 1 3) () Ncr + tallyAt (recvCell 6 1 3) () Ncr + tallyAt (recvCell 5 1 3) () Ncr + tallyAt (recvCell 4 1 3) () Ncr
      + tallyAt (recvCell 2 1 3) () Ncr + tallyAt (recvCell 1 1 3) () Ncr + tallyAt (recvCell 0 1 3) () Ncr + tallyAt (recvCell 7 0 3) () Ncr
      + tallyAt (recvCell 6 0 3) () Ncr + tallyAt (recvCell 5 0 3) () Ncr + tallyAt (recvCell 4 0 3) () Ncr + tallyAt (recvCell 2 0 3) () Ncr
      + tallyAt (recvCell 1 0 3) () Ncr + tallyAt (recvCell 0 0 3) () Ncr := by
  unfold recvOwed
  rw [Finset.sum_add_distrib, add_comm, show Finset.univ.erase (3 : Dev nD) = {7, 6, 5, 4, 2, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_3 (W : Waits sig Unit) : (owes ((3 : Dev nD) : Thread nD τ) (recvOwed 3) W : sProp 𝕄)
    ⊢ owes ((3 : Dev nD) : Thread nD τ) (tallyAt (recvCell 7 1 3) () Ncr + tallyAt (recvCell 6 1 3) () Ncr + tallyAt (recvCell 5 1 3) () Ncr + tallyAt (recvCell 4 1 3) () Ncr + tallyAt (recvCell 2 1 3) () Ncr + tallyAt (recvCell 1 1 3) () Ncr + tallyAt (recvCell 0 1 3) () Ncr + tallyAt (recvCell 7 0 3) () Ncr + tallyAt (recvCell 6 0 3) () Ncr + tallyAt (recvCell 5 0 3) () Ncr + tallyAt (recvCell 4 0 3) () Ncr + tallyAt (recvCell 2 0 3) () Ncr + tallyAt (recvCell 1 0 3) () Ncr + tallyAt (recvCell 0 0 3) () Ncr) W :=
  Entails.of_eq (congrArg (fun O => (owes ((3 : Dev nD) : Thread nD τ) O W : sProp 𝕄)) recvOwed_pay_3)
theorem recvOwed_pay_4 : recvOwed (4 : Dev nD)
    = tallyAt (recvCell 7 1 4) () Ncr + tallyAt (recvCell 6 1 4) () Ncr + tallyAt (recvCell 5 1 4) () Ncr + tallyAt (recvCell 3 1 4) () Ncr
      + tallyAt (recvCell 2 1 4) () Ncr + tallyAt (recvCell 1 1 4) () Ncr + tallyAt (recvCell 0 1 4) () Ncr + tallyAt (recvCell 7 0 4) () Ncr
      + tallyAt (recvCell 6 0 4) () Ncr + tallyAt (recvCell 5 0 4) () Ncr + tallyAt (recvCell 3 0 4) () Ncr + tallyAt (recvCell 2 0 4) () Ncr
      + tallyAt (recvCell 1 0 4) () Ncr + tallyAt (recvCell 0 0 4) () Ncr := by
  unfold recvOwed
  rw [Finset.sum_add_distrib, add_comm, show Finset.univ.erase (4 : Dev nD) = {7, 6, 5, 3, 2, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_4 (W : Waits sig Unit) : (owes ((4 : Dev nD) : Thread nD τ) (recvOwed 4) W : sProp 𝕄)
    ⊢ owes ((4 : Dev nD) : Thread nD τ) (tallyAt (recvCell 7 1 4) () Ncr + tallyAt (recvCell 6 1 4) () Ncr + tallyAt (recvCell 5 1 4) () Ncr + tallyAt (recvCell 3 1 4) () Ncr + tallyAt (recvCell 2 1 4) () Ncr + tallyAt (recvCell 1 1 4) () Ncr + tallyAt (recvCell 0 1 4) () Ncr + tallyAt (recvCell 7 0 4) () Ncr + tallyAt (recvCell 6 0 4) () Ncr + tallyAt (recvCell 5 0 4) () Ncr + tallyAt (recvCell 3 0 4) () Ncr + tallyAt (recvCell 2 0 4) () Ncr + tallyAt (recvCell 1 0 4) () Ncr + tallyAt (recvCell 0 0 4) () Ncr) W :=
  Entails.of_eq (congrArg (fun O => (owes ((4 : Dev nD) : Thread nD τ) O W : sProp 𝕄)) recvOwed_pay_4)
theorem recvOwed_pay_5 : recvOwed (5 : Dev nD)
    = tallyAt (recvCell 7 1 5) () Ncr + tallyAt (recvCell 6 1 5) () Ncr + tallyAt (recvCell 4 1 5) () Ncr + tallyAt (recvCell 3 1 5) () Ncr
      + tallyAt (recvCell 2 1 5) () Ncr + tallyAt (recvCell 1 1 5) () Ncr + tallyAt (recvCell 0 1 5) () Ncr + tallyAt (recvCell 7 0 5) () Ncr
      + tallyAt (recvCell 6 0 5) () Ncr + tallyAt (recvCell 4 0 5) () Ncr + tallyAt (recvCell 3 0 5) () Ncr + tallyAt (recvCell 2 0 5) () Ncr
      + tallyAt (recvCell 1 0 5) () Ncr + tallyAt (recvCell 0 0 5) () Ncr := by
  unfold recvOwed
  rw [Finset.sum_add_distrib, add_comm, show Finset.univ.erase (5 : Dev nD) = {7, 6, 4, 3, 2, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_5 (W : Waits sig Unit) : (owes ((5 : Dev nD) : Thread nD τ) (recvOwed 5) W : sProp 𝕄)
    ⊢ owes ((5 : Dev nD) : Thread nD τ) (tallyAt (recvCell 7 1 5) () Ncr + tallyAt (recvCell 6 1 5) () Ncr + tallyAt (recvCell 4 1 5) () Ncr + tallyAt (recvCell 3 1 5) () Ncr + tallyAt (recvCell 2 1 5) () Ncr + tallyAt (recvCell 1 1 5) () Ncr + tallyAt (recvCell 0 1 5) () Ncr + tallyAt (recvCell 7 0 5) () Ncr + tallyAt (recvCell 6 0 5) () Ncr + tallyAt (recvCell 4 0 5) () Ncr + tallyAt (recvCell 3 0 5) () Ncr + tallyAt (recvCell 2 0 5) () Ncr + tallyAt (recvCell 1 0 5) () Ncr + tallyAt (recvCell 0 0 5) () Ncr) W :=
  Entails.of_eq (congrArg (fun O => (owes ((5 : Dev nD) : Thread nD τ) O W : sProp 𝕄)) recvOwed_pay_5)
theorem recvOwed_pay_6 : recvOwed (6 : Dev nD)
    = tallyAt (recvCell 7 1 6) () Ncr + tallyAt (recvCell 5 1 6) () Ncr + tallyAt (recvCell 4 1 6) () Ncr + tallyAt (recvCell 3 1 6) () Ncr
      + tallyAt (recvCell 2 1 6) () Ncr + tallyAt (recvCell 1 1 6) () Ncr + tallyAt (recvCell 0 1 6) () Ncr + tallyAt (recvCell 7 0 6) () Ncr
      + tallyAt (recvCell 5 0 6) () Ncr + tallyAt (recvCell 4 0 6) () Ncr + tallyAt (recvCell 3 0 6) () Ncr + tallyAt (recvCell 2 0 6) () Ncr
      + tallyAt (recvCell 1 0 6) () Ncr + tallyAt (recvCell 0 0 6) () Ncr := by
  unfold recvOwed
  rw [Finset.sum_add_distrib, add_comm, show Finset.univ.erase (6 : Dev nD) = {7, 5, 4, 3, 2, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_6 (W : Waits sig Unit) : (owes ((6 : Dev nD) : Thread nD τ) (recvOwed 6) W : sProp 𝕄)
    ⊢ owes ((6 : Dev nD) : Thread nD τ) (tallyAt (recvCell 7 1 6) () Ncr + tallyAt (recvCell 5 1 6) () Ncr + tallyAt (recvCell 4 1 6) () Ncr + tallyAt (recvCell 3 1 6) () Ncr + tallyAt (recvCell 2 1 6) () Ncr + tallyAt (recvCell 1 1 6) () Ncr + tallyAt (recvCell 0 1 6) () Ncr + tallyAt (recvCell 7 0 6) () Ncr + tallyAt (recvCell 5 0 6) () Ncr + tallyAt (recvCell 4 0 6) () Ncr + tallyAt (recvCell 3 0 6) () Ncr + tallyAt (recvCell 2 0 6) () Ncr + tallyAt (recvCell 1 0 6) () Ncr + tallyAt (recvCell 0 0 6) () Ncr) W :=
  Entails.of_eq (congrArg (fun O => (owes ((6 : Dev nD) : Thread nD τ) O W : sProp 𝕄)) recvOwed_pay_6)
theorem recvOwed_pay_7 : recvOwed (7 : Dev nD)
    = tallyAt (recvCell 6 1 7) () Ncr + tallyAt (recvCell 5 1 7) () Ncr + tallyAt (recvCell 4 1 7) () Ncr + tallyAt (recvCell 3 1 7) () Ncr
      + tallyAt (recvCell 2 1 7) () Ncr + tallyAt (recvCell 1 1 7) () Ncr + tallyAt (recvCell 0 1 7) () Ncr + tallyAt (recvCell 6 0 7) () Ncr
      + tallyAt (recvCell 5 0 7) () Ncr + tallyAt (recvCell 4 0 7) () Ncr + tallyAt (recvCell 3 0 7) () Ncr + tallyAt (recvCell 2 0 7) () Ncr
      + tallyAt (recvCell 1 0 7) () Ncr + tallyAt (recvCell 0 0 7) () Ncr := by
  unfold recvOwed
  rw [Finset.sum_add_distrib, add_comm, show Finset.univ.erase (7 : Dev nD) = {6, 5, 4, 3, 2, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_7 (W : Waits sig Unit) : (owes ((7 : Dev nD) : Thread nD τ) (recvOwed 7) W : sProp 𝕄)
    ⊢ owes ((7 : Dev nD) : Thread nD τ) (tallyAt (recvCell 6 1 7) () Ncr + tallyAt (recvCell 5 1 7) () Ncr + tallyAt (recvCell 4 1 7) () Ncr + tallyAt (recvCell 3 1 7) () Ncr + tallyAt (recvCell 2 1 7) () Ncr + tallyAt (recvCell 1 1 7) () Ncr + tallyAt (recvCell 0 1 7) () Ncr + tallyAt (recvCell 6 0 7) () Ncr + tallyAt (recvCell 5 0 7) () Ncr + tallyAt (recvCell 4 0 7) () Ncr + tallyAt (recvCell 3 0 7) () Ncr + tallyAt (recvCell 2 0 7) () Ncr + tallyAt (recvCell 1 0 7) () Ncr + tallyAt (recvCell 0 0 7) () Ncr) W :=
  Entails.of_eq (congrArg (fun O => (owes ((7 : Dev nD) : Thread nD τ) O W : sProp 𝕄)) recvOwed_pay_7)

/-! ## The table of everybody's row sums at some contents, slot by slot -/

theorem comm_split_ex (c : Dev nD) :
    (iprop(∃ f : CommBuf F, (c : Thread nD τ).loc cc0_scratch1 ↦{fullShare} f) : sProp 𝕄)
      ⊢ iprop((∃ f : CommBuf F, (commSl 0 0).view.loc (c : Thread nD τ) ↦[(commSl 0 0).view.set]{fullShare} f)
        ∗ (∃ f : CommBuf F, (commSl 0 1).view.loc (c : Thread nD τ) ↦[(commSl 0 1).view.set]{fullShare} f)
        ∗ (∃ f : CommBuf F, (commSl 1 0).view.loc (c : Thread nD τ) ↦[(commSl 1 0).view.set]{fullShare} f)
        ∗ (∃ f : CommBuf F, (commSl 1 1).view.loc (c : Thread nD τ) ↦[(commSl 1 1).view.set]{fullShare} f)
        ∗ (∃ f : CommBuf F, (commSl 2 0).view.loc (c : Thread nD τ) ↦[(commSl 2 0).view.set]{fullShare} f)
        ∗ (∃ f : CommBuf F, (commSl 2 1).view.loc (c : Thread nD τ) ↦[(commSl 2 1).view.set]{fullShare} f)
        ∗ (∃ f : CommBuf F, (commSl 3 0).view.loc (c : Thread nD τ) ↦[(commSl 3 0).view.set]{fullShare} f)
        ∗ (∃ f : CommBuf F, (commSl 3 1).view.loc (c : Thread nD τ) ↦[(commSl 3 1).view.set]{fullShare} f)
        ∗ (∃ f : CommBuf F, (commSl 4 0).view.loc (c : Thread nD τ) ↦[(commSl 4 0).view.set]{fullShare} f)
        ∗ (∃ f : CommBuf F, (commSl 4 1).view.loc (c : Thread nD τ) ↦[(commSl 4 1).view.set]{fullShare} f)
        ∗ (∃ f : CommBuf F, (commSl 5 0).view.loc (c : Thread nD τ) ↦[(commSl 5 0).view.set]{fullShare} f)
        ∗ (∃ f : CommBuf F, (commSl 5 1).view.loc (c : Thread nD τ) ↦[(commSl 5 1).view.set]{fullShare} f)
        ∗ (∃ f : CommBuf F, (commSl 6 0).view.loc (c : Thread nD τ) ↦[(commSl 6 0).view.set]{fullShare} f)
        ∗ (∃ f : CommBuf F, (commSl 6 1).view.loc (c : Thread nD τ) ↦[(commSl 6 1).view.set]{fullShare} f)
        ∗ (∃ f : CommBuf F, (commSl 7 0).view.loc (c : Thread nD τ) ↦[(commSl 7 0).view.set]{fullShare} f)
        ∗ (∃ f : CommBuf F, (commSl 7 1).view.loc (c : Thread nD τ) ↦[(commSl 7 1).view.set]{fullShare} f)) := by
  iintro ⟨%f, H⟩
  ihave H' := (comm_split c f) $$ H
  icases H' with ⟨H00, H01, H10, H11, H20, H21, H30, H31, H40, H41, H50, H51, H60, H61, H70, H71⟩
  isplitl [H00]; · iexists f; iexact H00
  isplitl [H01]; · iexists f; iexact H01
  isplitl [H10]; · iexists f; iexact H10
  isplitl [H11]; · iexists f; iexact H11
  isplitl [H20]; · iexists f; iexact H20
  isplitl [H21]; · iexists f; iexact H21
  isplitl [H30]; · iexists f; iexact H30
  isplitl [H31]; · iexists f; iexact H31
  isplitl [H40]; · iexists f; iexact H40
  isplitl [H41]; · iexists f; iexact H41
  isplitl [H50]; · iexists f; iexact H50
  isplitl [H51]; · iexists f; iexact H51
  isplitl [H60]; · iexists f; iexact H60
  isplitl [H61]; · iexists f; iexact H61
  isplitl [H70]; · iexists f; iexact H70
  iexists f; iexact H71

end Cert.KernelIdeal.Sm

end
-- ==== Proof.Canon.lean ====
/-
  The printed memrefs, semaphores and device ids of the body, renamed to the slots, cells and devices of the protocol:
  every offset chain of the body is the device's own coordinate beside literals, every addressed device a literal.
-/
import proofs.«901053_g7700000000001054_dist_softmax_colshard_i_m1024_n1024_v7x_i8_bf16_1_alg».proof.Proof.Core

noncomputable section

namespace Cert.KernelIdeal.Sm

open Cert.KernelIdeal Cert.KernelIdeal.Gen
open Idealize.ShloMosaic Idealize.SL.Sem

theorem mem2_c (d : Dev nD) (h) (hs) :
    ((Memref.whole cc0_scratch1 : Memref sig .tc .vmem S8x2x1x512 .f32).slice (Rect.unit (s := S8x2x1x512) (k0_off2 d) S1x1x1x512.size h) hs).squeeze S1x512 squeezes_S1x1x1x512_S1x512 = commSl d 0 :=
  congrArg (fun M => Memref.squeeze M S1x512 squeezes_S1x1x1x512_S1x512) (Memref.slice_unit_congr _ (k0_off2_eq d) _ _ _ _)
theorem mem4_c (d : Dev nD) (h) (hs) :
    ((Memref.whole cc0_scratch1 : Memref sig .tc .vmem S8x2x1x512 .f32).slice (Rect.unit (s := S8x2x1x512) (k0_off4 d) S1x1x1x512.size h) hs).squeeze S1x512 squeezes_S1x1x1x512_S1x512 = commSl d 0 :=
  congrArg (fun M => Memref.squeeze M S1x512 squeezes_S1x1x1x512_S1x512) (Memref.slice_unit_congr _ (k0_off4_eq d) _ _ _ _)
theorem mem6_c (d : Dev nD) (h) (hs) :
    ((Memref.whole cc0_scratch1 : Memref sig .tc .vmem S8x2x1x512 .f32).slice (Rect.unit (s := S8x2x1x512) (k0_off6 d) S1x1x1x512.size h) hs).squeeze S1x512 squeezes_S1x1x1x512_S1x512 = commSl d 0 :=
  congrArg (fun M => Memref.squeeze M S1x512 squeezes_S1x1x1x512_S1x512) (Memref.slice_unit_congr _ (k0_off6_eq d) _ _ _ _)
theorem mem8_c (d : Dev nD) (h) (hs) :
    ((Memref.whole cc0_scratch1 : Memref sig .tc .vmem S8x2x1x512 .f32).slice (Rect.unit (s := S8x2x1x512) (k0_off8 d) S1x1x1x512.size h) hs).squeeze S1x512 squeezes_S1x1x1x512_S1x512 = commSl d 0 :=
  congrArg (fun M => Memref.squeeze M S1x512 squeezes_S1x1x1x512_S1x512) (Memref.slice_unit_congr _ (k0_off8_eq d) _ _ _ _)
theorem mem10_c (d : Dev nD) (h) (hs) :
    ((Memref.whole cc0_scratch1 : Memref sig .tc .vmem S8x2x1x512 .f32).slice (Rect.unit (s := S8x2x1x512) (k0_off10 d) S1x1x1x512.size h) hs).squeeze S1x512 squeezes_S1x1x1x512_S1x512 = commSl d 0 :=
  congrArg (fun M => Memref.squeeze M S1x512 squeezes_S1x1x1x512_S1x512) (Memref.slice_unit_congr _ (k0_off10_eq d) _ _ _ _)
theorem mem12_c (d : Dev nD) (h) (hs) :
    ((Memref.whole cc0_scratch1 : Memref sig .tc .vmem S8x2x1x512 .f32).slice (Rect.unit (s := S8x2x1x512) (k0_off12 d) S1x1x1x512.size h) hs).squeeze S1x512 squeezes_S1x1x1x512_S1x512 = commSl d 0 :=
  congrArg (fun M => Memref.squeeze M S1x512 squeezes_S1x1x1x512_S1x512) (Memref.slice_unit_congr _ (k0_off12_eq d) _ _ _ _)
theorem mem14_c (d : Dev nD) (h) (hs) :
    ((Memref.whole cc0_scratch1 : Memref sig .tc .vmem S8x2x1x512 .f32).slice (Rect.unit (s := S8x2x1x512) (k0_off14 d) S1x1x1x512.size h) hs).squeeze S1x512 squeezes_S1x1x1x512_S1x512 = commSl d 0 :=
  congrArg (fun M => Memref.squeeze M S1x512 squeezes_S1x1x1x512_S1x512) (Memref.slice_unit_congr _ (k0_off14_eq d) _ _ _ _)
theorem mem16_c (d : Dev nD) (h) (hs) :
    ((Memref.whole cc0_scratch1 : Memref sig .tc .vmem S8x2x1x512 .f32).slice (Rect.unit (s := S8x2x1x512) (k0_off16 d) S1x1x1x512.size h) hs).squeeze S1x512 squeezes_S1x1x1x512_S1x512 = commSl d 0 :=
  congrArg (fun M => Memref.squeeze M S1x512 squeezes_S1x1x1x512_S1x512) (Memref.slice_unit_congr _ (k0_off16_eq d) _ _ _ _)
theorem mem19_c (d : Dev nD) (h) (hs) :
    ((Memref.whole cc0_scratch1 : Memref sig .tc .vmem S8x2x1x512 .f32).slice (Rect.unit (s := S8x2x1x512) (k0_off19 d) S1x1x1x512.size h) hs).squeeze S1x512 squeezes_S1x1x1x512_S1x512 = commSl d 1 :=
  congrArg (fun M => Memref.squeeze M S1x512 squeezes_S1x1x1x512_S1x512) (Memref.slice_unit_congr _ (k0_off19_eq d) _ _ _ _)
theorem mem21_c (d : Dev nD) (h) (hs) :
    ((Memref.whole cc0_scratch1 : Memref sig .tc .vmem S8x2x1x512 .f32).slice (Rect.unit (s := S8x2x1x512) (k0_off21 d) S1x1x1x512.size h) hs).squeeze S1x512 squeezes_S1x1x1x512_S1x512 = commSl d 1 :=
  congrArg (fun M => Memref.squeeze M S1x512 squeezes_S1x1x1x512_S1x512) (Memref.slice_unit_congr _ (k0_off21_eq d) _ _ _ _)
theorem mem23_c (d : Dev nD) (h) (hs) :
    ((Memref.whole cc0_scratch1 : Memref sig .tc .vmem S8x2x1x512 .f32).slice (Rect.unit (s := S8x2x1x512) (k0_off23 d) S1x1x1x512.size h) hs).squeeze S1x512 squeezes_S1x1x1x512_S1x512 = commSl d 1 :=
  congrArg (fun M => Memref.squeeze M S1x512 squeezes_S1x1x1x512_S1x512) (Memref.slice_unit_congr _ (k0_off23_eq d) _ _ _ _)
theorem mem25_c (d : Dev nD) (h) (hs) :
    ((Memref.whole cc0_scratch1 : Memref sig .tc .vmem S8x2x1x512 .f32).slice (Rect.unit (s := S8x2x1x512) (k0_off25 d) S1x1x1x512.size h) hs).squeeze S1x512 squeezes_S1x1x1x512_S1x512 = commSl d 1 :=
  congrArg (fun M => Memref.squeeze M S1x512 squeezes_S1x1x1x512_S1x512) (Memref.slice_unit_congr _ (k0_off25_eq d) _ _ _ _)
theorem mem27_c (d : Dev nD) (h) (hs) :
    ((Memref.whole cc0_scratch1 : Memref sig .tc .vmem S8x2x1x512 .f32).slice (Rect.unit (s := S8x2x1x512) (k0_off27 d) S1x1x1x512.size h) hs).squeeze S1x512 squeezes_S1x1x1x512_S1x512 = commSl d 1 :=
  congrArg (fun M => Memref.squeeze M S1x512 squeezes_S1x1x1x512_S1x512) (Memref.slice_unit_congr _ (k0_off27_eq d) _ _ _ _)
theorem mem29_c (d : Dev nD) (h) (hs) :
    ((Memref.whole cc0_scratch1 : Memref sig .tc .vmem S8x2x1x512 .f32).slice (Rect.unit (s := S8x2x1x512) (k0_off29 d) S1x1x1x512.size h) hs).squeeze S1x512 squeezes_S1x1x1x512_S1x512 = commSl d 1 :=
  congrArg (fun M => Memref.squeeze M S1x512 squeezes_S1x1x1x512_S1x512) (Memref.slice_unit_congr _ (k0_off29_eq d) _ _ _ _)
theorem mem31_c (d : Dev nD) (h) (hs) :
    ((Memref.whole cc0_scratch1 : Memref sig .tc .vmem S8x2x1x512 .f32).slice (Rect.unit (s := S8x2x1x512) (k0_off31 d) S1x1x1x512.size h) hs).squeeze S1x512 squeezes_S1x1x1x512_S1x512 = commSl d 1 :=
  congrArg (fun M => Memref.squeeze M S1x512 squeezes_S1x1x1x512_S1x512) (Memref.slice_unit_congr _ (k0_off31_eq d) _ _ _ _)
theorem mem33_c (d : Dev nD) (h) (hs) :
    ((Memref.whole cc0_scratch1 : Memref sig .tc .vmem S8x2x1x512 .f32).slice (Rect.unit (s := S8x2x1x512) (k0_off33 d) S1x1x1x512.size h) hs).squeeze S1x512 squeezes_S1x1x1x512_S1x512 = commSl d 1 :=
  congrArg (fun M => Memref.squeeze M S1x512 squeezes_S1x1x1x512_S1x512) (Memref.slice_unit_congr _ (k0_off33_eq d) _ _ _ _)
theorem mem35_c (d : Dev nD) (h) (hs) :
    ((Memref.whole cc0_scratch1 : Memref sig .tc .vmem S8x2x1x512 .f32).slice (Rect.unit (s := S8x2x1x512) (k0_off35 d) S1x1x1x512.size h) hs).squeeze S1x512 squeezes_S1x1x1x512_S1x512 = commSl d 0 :=
  congrArg (fun M => Memref.squeeze M S1x512 squeezes_S1x1x1x512_S1x512) (Memref.slice_unit_congr _ (k0_off35_eq d) _ _ _ _)
theorem mem36_c (d : Dev nD) (h) (hs) :
    ((Memref.whole cc0_scratch1 : Memref sig .tc .vmem S8x2x1x512 .f32).slice (Rect.unit (s := S8x2x1x512) (k0_off36 d) S1x1x1x512.size h) hs).squeeze S1x512 squeezes_S1x1x1x512_S1x512 = commSl d 0 :=
  congrArg (fun M => Memref.squeeze M S1x512 squeezes_S1x1x1x512_S1x512) (Memref.slice_unit_congr _ (k0_off36_eq d) _ _ _ _)
theorem mem37_c (d : Dev nD) (h) (hs) :
    ((Memref.whole cc0_scratch1 : Memref sig .tc .vmem S8x2x1x512 .f32).slice (Rect.unit (s := S8x2x1x512) (k0_off37 d) S1x1x1x512.size h) hs).squeeze S1x512 squeezes_S1x1x1x512_S1x512 = commSl d 0 :=
  congrArg (fun M => Memref.squeeze M S1x512 squeezes_S1x1x1x512_S1x512) (Memref.slice_unit_congr _ (k0_off37_eq d) _ _ _ _)
theorem mem38_c (d : Dev nD) (h) (hs) :
    ((Memref.whole cc0_scratch1 : Memref sig .tc .vmem S8x2x1x512 .f32).slice (Rect.unit (s := S8x2x1x512) (k0_off38 d) S1x1x1x512.size h) hs).squeeze S1x512 squeezes_S1x1x1x512_S1x512 = commSl d 0 :=
  congrArg (fun M => Memref.squeeze M S1x512 squeezes_S1x1x1x512_S1x512) (Memref.slice_unit_congr _ (k0_off38_eq d) _ _ _ _)
theorem mem39_c (d : Dev nD) (h) (hs) :
    ((Memref.whole cc0_scratch1 : Memref sig .tc .vmem S8x2x1x512 .f32).slice (Rect.unit (s := S8x2x1x512) (k0_off39 d) S1x1x1x512.size h) hs).squeeze S1x512 squeezes_S1x1x1x512_S1x512 = commSl d 0 :=
  congrArg (fun M => Memref.squeeze M S1x512 squeezes_S1x1x1x512_S1x512) (Memref.slice_unit_congr _ (k0_off39_eq d) _ _ _ _)
theorem mem40_c (d : Dev nD) (h) (hs) :
    ((Memref.whole cc0_scratch1 : Memref sig .tc .vmem S8x2x1x512 .f32).slice (Rect.unit (s := S8x2x1x512) (k0_off40 d) S1x1x1x512.size h) hs).squeeze S1x512 squeezes_S1x1x1x512_S1x512 = commSl d 0 :=
  congrArg (fun M => Memref.squeeze M S1x512 squeezes_S1x1x1x512_S1x512) (Memref.slice_unit_congr _ (k0_off40_eq d) _ _ _ _)
theorem mem41_c (d : Dev nD) (h) (hs) :
    ((Memref.whole cc0_scratch1 : Memref sig .tc .vmem S8x2x1x512 .f32).slice (Rect.unit (s := S8x2x1x512) (k0_off41 d) S1x1x1x512.size h) hs).squeeze S1x512 squeezes_S1x1x1x512_S1x512 = commSl d 0 :=
  congrArg (fun M => Memref.squeeze M S1x512 squeezes_S1x1x1x512_S1x512) (Memref.slice_unit_congr _ (k0_off41_eq d) _ _ _ _)
theorem mem42_c (d : Dev nD) (h) (hs) :
    ((Memref.whole cc0_scratch1 : Memref sig .tc .vmem S8x2x1x512 .f32).slice (Rect.unit (s := S8x2x1x512) (k0_off42 d) S1x1x1x512.size h) hs).squeeze S1x512 squeezes_S1x1x1x512_S1x512 = commSl d 0 :=
  congrArg (fun M => Memref.squeeze M S1x512 squeezes_S1x1x1x512_S1x512) (Memref.slice_unit_congr _ (k0_off42_eq d) _ _ _ _)
theorem mem43_c (d : Dev nD) (h) (hs) :
    ((Memref.whole cc0_scratch1 : Memref sig .tc .vmem S8x2x1x512 .f32).slice (Rect.unit (s := S8x2x1x512) (k0_off43 d) S1x1x1x512.size h) hs).squeeze S1x512 squeezes_S1x1x1x512_S1x512 = commSl d 1 :=
  congrArg (fun M => Memref.squeeze M S1x512 squeezes_S1x1x1x512_S1x512) (Memref.slice_unit_congr _ (k0_off43_eq d) _ _ _ _)
theorem mem44_c (d : Dev nD) (h) (hs) :
    ((Memref.whole cc0_scratch1 : Memref sig .tc .vmem S8x2x1x512 .f32).slice (Rect.unit (s := S8x2x1x512) (k0_off44 d) S1x1x1x512.size h) hs).squeeze S1x512 squeezes_S1x1x1x512_S1x512 = commSl d 1 :=
  congrArg (fun M => Memref.squeeze M S1x512 squeezes_S1x1x1x512_S1x512) (Memref.slice_unit_congr _ (k0_off44_eq d) _ _ _ _)
theorem mem45_c (d : Dev nD) (h) (hs) :
    ((Memref.whole cc0_scratch1 : Memref sig .tc .vmem S8x2x1x512 .f32).slice (Rect.unit (s := S8x2x1x512) (k0_off45 d) S1x1x1x512.size h) hs).squeeze S1x512 squeezes_S1x1x1x512_S1x512 = commSl d 1 :=
  congrArg (fun M => Memref.squeeze M S1x512 squeezes_S1x1x1x512_S1x512) (Memref.slice_unit_congr _ (k0_off45_eq d) _ _ _ _)
theorem mem46_c (d : Dev nD) (h) (hs) :
    ((Memref.whole cc0_scratch1 : Memref sig .tc .vmem S8x2x1x512 .f32).slice (Rect.unit (s := S8x2x1x512) (k0_off46 d) S1x1x1x512.size h) hs).squeeze S1x512 squeezes_S1x1x1x512_S1x512 = commSl d 1 :=
  congrArg (fun M => Memref.squeeze M S1x512 squeezes_S1x1x1x512_S1x512) (Memref.slice_unit_congr _ (k0_off46_eq d) _ _ _ _)
theorem mem47_c (d : Dev nD) (h) (hs) :
    ((Memref.whole cc0_scratch1 : Memref sig .tc .vmem S8x2x1x512 .f32).slice (Rect.unit (s := S8x2x1x512) (k0_off47 d) S1x1x1x512.size h) hs).squeeze S1x512 squeezes_S1x1x1x512_S1x512 = commSl d 1 :=
  congrArg (fun M => Memref.squeeze M S1x512 squeezes_S1x1x1x512_S1x512) (Memref.slice_unit_congr _ (k0_off47_eq d) _ _ _ _)
theorem mem48_c (d : Dev nD) (h) (hs) :
    ((Memref.whole cc0_scratch1 : Memref sig .tc .vmem S8x2x1x512 .f32).slice (Rect.unit (s := S8x2x1x512) (k0_off48 d) S1x1x1x512.size h) hs).squeeze S1x512 squeezes_S1x1x1x512_S1x512 = commSl d 1 :=
  congrArg (fun M => Memref.squeeze M S1x512 squeezes_S1x1x1x512_S1x512) (Memref.slice_unit_congr _ (k0_off48_eq d) _ _ _ _)
theorem mem49_c (d : Dev nD) (h) (hs) :
    ((Memref.whole cc0_scratch1 : Memref sig .tc .vmem S8x2x1x512 .f32).slice (Rect.unit (s := S8x2x1x512) (k0_off49 d) S1x1x1x512.size h) hs).squeeze S1x512 squeezes_S1x1x1x512_S1x512 = commSl d 1 :=
  congrArg (fun M => Memref.squeeze M S1x512 squeezes_S1x1x1x512_S1x512) (Memref.slice_unit_congr _ (k0_off49_eq d) _ _ _ _)
theorem mem50_c (d : Dev nD) (h) (hs) :
    ((Memref.whole cc0_scratch1 : Memref sig .tc .vmem S8x2x1x512 .f32).slice (Rect.unit (s := S8x2x1x512) (k0_off50 d) S1x1x1x512.size h) hs).squeeze S1x512 squeezes_S1x1x1x512_S1x512 = commSl d 1 :=
  congrArg (fun M => Memref.squeeze M S1x512 squeezes_S1x1x1x512_S1x512) (Memref.slice_unit_congr _ (k0_off50_eq d) _ _ _ _)
theorem mem17_c (d : Dev nD) (h) (hs) :
    ((Memref.whole cc0_scratch1 : Memref sig .tc .vmem S8x2x1x512 .f32).slice (Rect.unit (s := S8x2x1x512) (k0_off17 d) S1x1x1x512.size h) hs).squeeze S1x512 squeezes_S1x1x1x512_S1x512 = commSl d 0 :=
  congrArg (fun M => Memref.squeeze M S1x512 squeezes_S1x1x1x512_S1x512) (Memref.slice_unit_congr _ (k0_off17_eq d) _ _ _ _)
theorem mem34_c (d : Dev nD) (h) (hs) :
    ((Memref.whole cc0_scratch1 : Memref sig .tc .vmem S8x2x1x512 .f32).slice (Rect.unit (s := S8x2x1x512) (k0_off34 d) S1x1x1x512.size h) hs).squeeze S1x512 squeezes_S1x1x1x512_S1x512 = commSl d 1 :=
  congrArg (fun M => Memref.squeeze M S1x512 squeezes_S1x1x1x512_S1x512) (Memref.slice_unit_congr _ (k0_off34_eq d) _ _ _ _)
theorem sem1_c (d : Dev nD) (h) :
    ((SemArray.slice cc0_scratch3 (Rect.unit (s := S2x8) (k0_off1 d) S1x1.size h)).squeeze S_ squeezes_S1x1_S_).sem = recvS 0 d :=
  congrArg (fun A => (SemArray.squeeze A S_ squeezes_S1x1_S_).sem) (SemArray.slice_unit_congr _ (k0_off1_eq d) _ _)
theorem sem3_c (d : Dev nD) (h) :
    ((SemArray.slice cc0_scratch3 (Rect.unit (s := S2x8) (k0_off3 d) S1x1.size h)).squeeze S_ squeezes_S1x1_S_).sem = recvS 0 d :=
  congrArg (fun A => (SemArray.squeeze A S_ squeezes_S1x1_S_).sem) (SemArray.slice_unit_congr _ (k0_off3_eq d) _ _)
theorem sem5_c (d : Dev nD) (h) :
    ((SemArray.slice cc0_scratch3 (Rect.unit (s := S2x8) (k0_off5 d) S1x1.size h)).squeeze S_ squeezes_S1x1_S_).sem = recvS 0 d :=
  congrArg (fun A => (SemArray.squeeze A S_ squeezes_S1x1_S_).sem) (SemArray.slice_unit_congr _ (k0_off5_eq d) _ _)
theorem sem7_c (d : Dev nD) (h) :
    ((SemArray.slice cc0_scratch3 (Rect.unit (s := S2x8) (k0_off7 d) S1x1.size h)).squeeze S_ squeezes_S1x1_S_).sem = recvS 0 d :=
  congrArg (fun A => (SemArray.squeeze A S_ squeezes_S1x1_S_).sem) (SemArray.slice_unit_congr _ (k0_off7_eq d) _ _)
theorem sem9_c (d : Dev nD) (h) :
    ((SemArray.slice cc0_scratch3 (Rect.unit (s := S2x8) (k0_off9 d) S1x1.size h)).squeeze S_ squeezes_S1x1_S_).sem = recvS 0 d :=
  congrArg (fun A => (SemArray.squeeze A S_ squeezes_S1x1_S_).sem) (SemArray.slice_unit_congr _ (k0_off9_eq d) _ _)
theorem sem11_c (d : Dev nD) (h) :
    ((SemArray.slice cc0_scratch3 (Rect.unit (s := S2x8) (k0_off11 d) S1x1.size h)).squeeze S_ squeezes_S1x1_S_).sem = recvS 0 d :=
  congrArg (fun A => (SemArray.squeeze A S_ squeezes_S1x1_S_).sem) (SemArray.slice_unit_congr _ (k0_off11_eq d) _ _)
theorem sem13_c (d : Dev nD) (h) :
    ((SemArray.slice cc0_scratch3 (Rect.unit (s := S2x8) (k0_off13 d) S1x1.size h)).squeeze S_ squeezes_S1x1_S_).sem = recvS 0 d :=
  congrArg (fun A => (SemArray.squeeze A S_ squeezes_S1x1_S_).sem) (SemArray.slice_unit_congr _ (k0_off13_eq d) _ _)
theorem sem15_c (d : Dev nD) (h) :
    ((SemArray.slice cc0_scratch3 (Rect.unit (s := S2x8) (k0_off15 d) S1x1.size h)).squeeze S_ squeezes_S1x1_S_).sem = recvS 0 d :=
  congrArg (fun A => (SemArray.squeeze A S_ squeezes_S1x1_S_).sem) (SemArray.slice_unit_congr _ (k0_off15_eq d) _ _)
theorem sem18_c (d : Dev nD) (h) :
    ((SemArray.slice cc0_scratch3 (Rect.unit (s := S2x8) (k0_off18 d) S1x1.size h)).squeeze S_ squeezes_S1x1_S_).sem = recvS 1 d :=
  congrArg (fun A => (SemArray.squeeze A S_ squeezes_S1x1_S_).sem) (SemArray.slice_unit_congr _ (k0_off18_eq d) _ _)
theorem sem20_c (d : Dev nD) (h) :
    ((SemArray.slice cc0_scratch3 (Rect.unit (s := S2x8) (k0_off20 d) S1x1.size h)).squeeze S_ squeezes_S1x1_S_).sem = recvS 1 d :=
  congrArg (fun A => (SemArray.squeeze A S_ squeezes_S1x1_S_).sem) (SemArray.slice_unit_congr _ (k0_off20_eq d) _ _)
theorem sem22_c (d : Dev nD) (h) :
    ((SemArray.slice cc0_scratch3 (Rect.unit (s := S2x8) (k0_off22 d) S1x1.size h)).squeeze S_ squeezes_S1x1_S_).sem = recvS 1 d :=
  congrArg (fun A => (SemArray.squeeze A S_ squeezes_S1x1_S_).sem) (SemArray.slice_unit_congr _ (k0_off22_eq d) _ _)
theorem sem24_c (d : Dev nD) (h) :
    ((SemArray.slice cc0_scratch3 (Rect.unit (s := S2x8) (k0_off24 d) S1x1.size h)).squeeze S_ squeezes_S1x1_S_).sem = recvS 1 d :=
  congrArg (fun A => (SemArray.squeeze A S_ squeezes_S1x1_S_).sem) (SemArray.slice_unit_congr _ (k0_off24_eq d) _ _)
theorem sem26_c (d : Dev nD) (h) :
    ((SemArray.slice cc0_scratch3 (Rect.unit (s := S2x8) (k0_off26 d) S1x1.size h)).squeeze S_ squeezes_S1x1_S_).sem = recvS 1 d :=
  congrArg (fun A => (SemArray.squeeze A S_ squeezes_S1x1_S_).sem) (SemArray.slice_unit_congr _ (k0_off26_eq d) _ _)
theorem sem28_c (d : Dev nD) (h) :
    ((SemArray.slice cc0_scratch3 (Rect.unit (s := S2x8) (k0_off28 d) S1x1.size h)).squeeze S_ squeezes_S1x1_S_).sem = recvS 1 d :=
  congrArg (fun A => (SemArray.squeeze A S_ squeezes_S1x1_S_).sem) (SemArray.slice_unit_congr _ (k0_off28_eq d) _ _)
theorem sem30_c (d : Dev nD) (h) :
    ((SemArray.slice cc0_scratch3 (Rect.unit (s := S2x8) (k0_off30 d) S1x1.size h)).squeeze S_ squeezes_S1x1_S_).sem = recvS 1 d :=
  congrArg (fun A => (SemArray.squeeze A S_ squeezes_S1x1_S_).sem) (SemArray.slice_unit_congr _ (k0_off30_eq d) _ _)
theorem sem32_c (d : Dev nD) (h) :
    ((SemArray.slice cc0_scratch3 (Rect.unit (s := S2x8) (k0_off32 d) S1x1.size h)).squeeze S_ squeezes_S1x1_S_).sem = recvS 1 d :=
  congrArg (fun A => (SemArray.squeeze A S_ squeezes_S1x1_S_).sem) (SemArray.slice_unit_congr _ (k0_off32_eq d) _ _)
theorem dev1_c (h : k0_dev1 < nD) : (⟨k0_dev1, h⟩ : Dev nD) = 0 := Fin.ext k0_dev1_eq
theorem dev2_c (h : k0_dev2 < nD) : (⟨k0_dev2, h⟩ : Dev nD) = 1 := Fin.ext k0_dev2_eq
theorem dev3_c (h : k0_dev3 < nD) : (⟨k0_dev3, h⟩ : Dev nD) = 2 := Fin.ext k0_dev3_eq
theorem dev4_c (h : k0_dev4 < nD) : (⟨k0_dev4, h⟩ : Dev nD) = 3 := Fin.ext k0_dev4_eq
theorem dev5_c (h : k0_dev5 < nD) : (⟨k0_dev5, h⟩ : Dev nD) = 4 := Fin.ext k0_dev5_eq
theorem dev6_c (h : k0_dev6 < nD) : (⟨k0_dev6, h⟩ : Dev nD) = 5 := Fin.ext k0_dev6_eq
theorem dev7_c (h : k0_dev7 < nD) : (⟨k0_dev7, h⟩ : Dev nD) = 6 := Fin.ext k0_dev7_eq
theorem dev8_c (h : k0_dev8 < nD) : (⟨k0_dev8, h⟩ : Dev nD) = 7 := Fin.ext k0_dev8_eq
theorem dev9_c (h : k0_dev9 < nD) : (⟨k0_dev9, h⟩ : Dev nD) = 0 := Fin.ext k0_dev9_eq
theorem dev10_c (h : k0_dev10 < nD) : (⟨k0_dev10, h⟩ : Dev nD) = 1 := Fin.ext k0_dev10_eq
theorem dev11_c (h : k0_dev11 < nD) : (⟨k0_dev11, h⟩ : Dev nD) = 2 := Fin.ext k0_dev11_eq
theorem dev12_c (h : k0_dev12 < nD) : (⟨k0_dev12, h⟩ : Dev nD) = 3 := Fin.ext k0_dev12_eq
theorem dev13_c (h : k0_dev13 < nD) : (⟨k0_dev13, h⟩ : Dev nD) = 4 := Fin.ext k0_dev13_eq
theorem dev14_c (h : k0_dev14 < nD) : (⟨k0_dev14, h⟩ : Dev nD) = 5 := Fin.ext k0_dev14_eq
theorem dev15_c (h : k0_dev15 < nD) : (⟨k0_dev15, h⟩ : Dev nD) = 6 := Fin.ext k0_dev15_eq
theorem dev16_c (h : k0_dev16 < nD) : (⟨k0_dev16, h⟩ : Dev nD) = 7 := Fin.ext k0_dev16_eq
theorem dev17_c (h : k0_dev17 < nD) : (⟨k0_dev17, h⟩ : Dev nD) = 0 := Fin.ext k0_dev17_eq
theorem dev18_c (h : k0_dev18 < nD) : (⟨k0_dev18, h⟩ : Dev nD) = 1 := Fin.ext k0_dev18_eq
theorem dev19_c (h : k0_dev19 < nD) : (⟨k0_dev19, h⟩ : Dev nD) = 2 := Fin.ext k0_dev19_eq
theorem dev20_c (h : k0_dev20 < nD) : (⟨k0_dev20, h⟩ : Dev nD) = 3 := Fin.ext k0_dev20_eq
theorem dev21_c (h : k0_dev21 < nD) : (⟨k0_dev21, h⟩ : Dev nD) = 4 := Fin.ext k0_dev21_eq
theorem dev22_c (h : k0_dev22 < nD) : (⟨k0_dev22, h⟩ : Dev nD) = 5 := Fin.ext k0_dev22_eq
theorem dev23_c (h : k0_dev23 < nD) : (⟨k0_dev23, h⟩ : Dev nD) = 6 := Fin.ext k0_dev23_eq
theorem dev24_c (h : k0_dev24 < nD) : (⟨k0_dev24, h⟩ : Dev nD) = 7 := Fin.ext k0_dev24_eq

end Cert.KernelIdeal.Sm

end
-- ==== Proof.Glue2.lean ====
/-
  More of the pieces and the wholes: a slot at contents that agree on it, where a slot's and a row's entries lie in their
  tables, the slot a copy of a row has landed in, the own rows after their stores, a row restated under its eight shares,
  and the two halves of the table of everybody's row sums joined.
-/
import proofs.«901053_g7700000000001054_dist_softmax_colshard_i_m1024_n1024_v7x_i8_bf16_1_alg».proof.Proof.Glue
import Idealize.ShloMosaic.Lib.Ring

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## A slot at contents that agree on the slot; the slot a copy of a row has landed in -/

/-- Contents that agree on a slot give the same slot. -/
theorem slot_congr (d : Dev nD) (q : Dev nD) (b : Fin 2) (f g : CommBuf F)
    (h : ∀ i ∈ (commSl q b).view.set, f i = g i) :
    ((commSl q b).view.loc (d : Thread nD τ) ↦[(commSl q b).view.set]{fullShare} f : sProp 𝕄)
      = ((commSl q b).view.loc (d : Thread nD τ) ↦[(commSl q b).view.set]{fullShare} g) :=
  pointsTo_congr h

/-- Where entry x of slot [q, b] lies in the table: at [q, b, 0, x]. -/
theorem commSl_emb (q : Dev nD) (b : Fin 2) (x : S1x512.Idx) :
    (commSl q b).view.emb x
      = ValueIdx.ix4 (q : Fin 8) b (0 : Fin 1) (⟨(x 1).val, (x 1).isLt⟩ : Fin 512) := by
  have hy : Shape.reshapeEquiv squeezes_S1x1x1x512_S1x512.numel_eq x
      = (ValueIdx.ix4 (0 : Fin 1) (0 : Fin 1) (0 : Fin 1) (⟨(x 1).val, (x 1).isLt⟩ : Fin 512) : S1x1x1x512.Idx) :=
    Shape.reshapeEquiv_eq_of_rowMajor _ (by
      rw [Shape.rowMajor_val_four, Shape.rowMajor_val_two]
      have h0 : (x 0).val < 1 := (x 0).isLt
      show ((0 * 1 + 0) * 1 + 0) * 512 + (x 1).val = (x 0).val * 512 + (x 1).val
      omega)
  have e : (commSl q b).view.emb x
      = (Rect.unit (s := S8x2x1x512) ![q.val, b.val, 0, 0] S1x1x1x512.size (comm_inb q b)).emb
          (Shape.reshapeEquiv squeezes_S1x1x1x512_S1x512.numel_eq x) := rfl
  rw [e, hy]
  funext a
  refine Fin.ext ?_
  match a with
  | ⟨0, _⟩ => show q.val + 1 * 0 = q.val; omega
  | ⟨1, _⟩ => show b.val + 1 * 0 = b.val; omega
  | ⟨2, _⟩ => show 0 + 1 * 0 = 0; omega
  | ⟨3, _⟩ => show 0 + 1 * (x 1).val = (x 1).val; omega

/-- Where entry x of row b lies in the table of own row sums: at [b, 0, x]. -/
theorem mineSl_emb (b : Fin 2) (x : S1x512.Idx) :
    (mineSl b).view.emb x = ValueIdx.ix3 b (0 : Fin 1) (⟨(x 1).val, (x 1).isLt⟩ : Fin 512) := by
  have hy : Shape.reshapeEquiv squeezes_S1x1x512_S1x512.numel_eq x
      = (ValueIdx.ix3 (0 : Fin 1) (0 : Fin 1) (⟨(x 1).val, (x 1).isLt⟩ : Fin 512) : S1x1x512.Idx) :=
    Shape.reshapeEquiv_eq_of_rowMajor _ (by
      rw [Shape.rowMajor_val_three, Shape.rowMajor_val_two]
      have h0 : (x 0).val < 1 := (x 0).isLt
      show (0 * 1 + 0) * 512 + (x 1).val = (x 0).val * 512 + (x 1).val
      omega)
  have e : (mineSl b).view.emb x
      = (Rect.unit (s := S2x1x512) ![b.val, 0, 0] S1x1x512.size (mine_inb b)).emb
          (Shape.reshapeEquiv squeezes_S1x1x512_S1x512.numel_eq x) := rfl
  rw [e, hy]
  funext a
  refine Fin.ext ?_
  match a with
  | ⟨0, _⟩ => show b.val + 1 * 0 = b.val; omega
  | ⟨1, _⟩ => show 0 + 1 * 0 = 0; omega
  | ⟨2, _⟩ => show 0 + 1 * (x 1).val = (x 1).val; omega

/-- Row b of device q's own row sums, written into slot [q, b] of a table, is what the table of everybody's row sums
    holds on that slot. -/
theorem landed_agree (Ys : Dev nD → XBlk F) (q : Dev nD) (b : Fin 2) (X : XBlk F) (hX : Ys q = X) (fd : CommBuf F) :
    ∀ i ∈ (commSl q b).view.set,
      (commSl q b).view.write (Elt F) fd ((mineSl b).view.read (Elt F) (mineOf X)) Finset.univ i = commOf Ys i := by
  intro i hi
  obtain ⟨x, -, rfl⟩ := Finset.mem_map.mp hi
  rw [View.write_emb_of_mem _ _ (Finset.mem_univ x), View.read_apply, mineSl_emb, commSl_emb, ← hX]
  rfl

/-- So the slot a copy of device q's row b has landed in is the slot at the table of everybody's row sums. -/
theorem landed (d : Dev nD) (Ys : Dev nD → XBlk F) (q : Dev nD) (b : Fin 2) (fd : CommBuf F) :
    ((commSl q b).view.loc (d : Thread nD τ) ↦[(commSl q b).view.set]{fullShare}
        (commSl q b).view.write (Elt F) fd ((mineSl b).view.read (Elt F) (mineOf (Ys q))) Finset.univ : sProp 𝕄)
      ⊢ ((commSl q b).view.loc (d : Thread nD τ) ↦[(commSl q b).view.set]{fullShare} commOf Ys) :=
  Entails.of_eq (slot_congr d q b _ _ (landed_agree Ys q b (Ys q) rfl fd))

/-! ## The own rows after their stores; a row restated under its shares; a landing; the two halves -/

theorem mineOf_row0 (X : XBlk F) (v : Fin 1) (r : Fin 512) :
    mineOf X (ValueIdx.ix3 (0 : Fin 2) v r) = sTop X (ValueIdx.ix3 (0 : Fin 1) (0 : Fin 1) r) := by
  unfold mineOf; exact if_pos rfl

theorem mineOf_row1 (X : XBlk F) (v : Fin 1) (r : Fin 512) :
    mineOf X (ValueIdx.ix3 (1 : Fin 2) v r) = sBot X (ValueIdx.ix3 (0 : Fin 1) (0 : Fin 1) r) := by
  unfold mineOf; exact if_neg (show ¬ ((1 : Fin 2).val = 0) by decide)

/-- Row b of the own table after the store of that half's row sums holds what the table of own row sums holds there. -/
theorem row0_agree (X : XBlk F) (f0 : MineBuf F) : ∀ i ∈ (mineSl 0).view.set,
    View.write (Elt F) ((Memref.whole cc0_scratch0 : Memref sig .tc .vmem S2x1x512 .f32).access
        (Rect.unit (s := S2x1x512) ![0, 0, 0] S1x1x512.size inb_S2x1x512_S1x1x512_0_0_0)) f0 (sTop X) Finset.univ i
      = mineOf X i := by
  intro i hi
  have h2 : ((Memref.whole cc0_scratch0 : Memref sig .tc .vmem S2x1x512 .f32).access
      (Rect.unit (s := S2x1x512) ![0, 0, 0] S1x1x512.size inb_S2x1x512_S1x1x512_0_0_0)).set = (mineSl 0).view.set :=
    (View.set_slice_whole ..).trans (mineSl_set 0).symm
  rw [← h2] at hi
  obtain ⟨y, -, rfl⟩ := Finset.mem_map.mp hi
  have h0 : (y 0).val < 1 := (y 0).isLt
  have h1 : (y 1).val < 1 := (y 1).isLt
  have hemb : ((Memref.whole cc0_scratch0 : Memref sig .tc .vmem S2x1x512 .f32).access
      (Rect.unit (s := S2x1x512) ![0, 0, 0] S1x1x512.size inb_S2x1x512_S1x1x512_0_0_0)).emb y
        = ValueIdx.ix3 (0 : Fin 2) (0 : Fin 1) (⟨(y 2).val, (y 2).isLt⟩ : Fin 512) :=
    funext fun a => Fin.ext (by
      match a with
      | ⟨0, _⟩ => show 0 + 1 * (y 0).val = 0; omega
      | ⟨1, _⟩ => show 0 + 1 * (y 1).val = 0; omega
      | ⟨2, _⟩ => show 0 + 1 * (y 2).val = (y 2).val; omega)
  rw [View.write_emb_of_mem _ _ (Finset.mem_univ y), hemb, mineOf_row0]
  show sTop X y = sTop X _
  refine congrArg (sTop X) (funext fun a => Fin.ext ?_)
  match a with
  | ⟨0, _⟩ => show (y 0).val = 0; omega
  | ⟨1, _⟩ => show (y 1).val = 0; omega
  | ⟨2, _⟩ => rfl

theorem row1_agree (X : XBlk F) (f0 : MineBuf F) : ∀ i ∈ (mineSl 1).view.set,
    View.write (Elt F) ((Memref.whole cc0_scratch0 : Memref sig .tc .vmem S2x1x512 .f32).access
        (Rect.unit (s := S2x1x512) ![1, 0, 0] S1x1x512.size inb_S2x1x512_S1x1x512_1_0_0)) f0 (sBot X) Finset.univ i
      = mineOf X i := by
  intro i hi
  have h2 : ((Memref.whole cc0_scratch0 : Memref sig .tc .vmem S2x1x512 .f32).access
      (Rect.unit (s := S2x1x512) ![1, 0, 0] S1x1x512.size inb_S2x1x512_S1x1x512_1_0_0)).set = (mineSl 1).view.set :=
    (View.set_slice_whole ..).trans (mineSl_set 1).symm
  rw [← h2] at hi
  obtain ⟨y, -, rfl⟩ := Finset.mem_map.mp hi
  have h0 : (y 0).val < 1 := (y 0).isLt
  have h1 : (y 1).val < 1 := (y 1).isLt
  have hemb : ((Memref.whole cc0_scratch0 : Memref sig .tc .vmem S2x1x512 .f32).access
      (Rect.unit (s := S2x1x512) ![1, 0, 0] S1x1x512.size inb_S2x1x512_S1x1x512_1_0_0)).emb y
        = ValueIdx.ix3 (1 : Fin 2) (0 : Fin 1) (⟨(y 2).val, (y 2).isLt⟩ : Fin 512) :=
    funext fun a => Fin.ext (by
      match a with
      | ⟨0, _⟩ => show 1 + 1 * (y 0).val = 1; omega
      | ⟨1, _⟩ => show 0 + 1 * (y 1).val = 0; omega
      | ⟨2, _⟩ => show 0 + 1 * (y 2).val = (y 2).val; omega)
  rw [View.write_emb_of_mem _ _ (Finset.mem_univ y), hemb, mineOf_row1]
  show sBot X y = sBot X _
  refine congrArg (sBot X) (funext fun a => Fin.ext ?_)
  match a with
  | ⟨0, _⟩ => show (y 0).val = 0; omega
  | ⟨1, _⟩ => show (y 1).val = 0; omega
  | ⟨2, _⟩ => rfl

/-- A row held in full at contents that agree with the own row sums on it, restated under its eight shares. -/
theorem row_restate (c : Dev nD) (b : Fin 2) (X : XBlk F) (g : MineBuf F) (hg : ∀ i ∈ (mineSl b).view.set, g i = mineOf X i) :
    ((mineSl b).view.loc (c : Thread nD τ) ↦[(mineSl b).view.set]{fullShare} g : sProp 𝕄)
      ⊢ iprop(((mineSl b).view.loc (c : Thread nD τ) ↦[(mineSl b).view.set]{shr 0} mineOf X)
        ∗ ((mineSl b).view.loc (c : Thread nD τ) ↦[(mineSl b).view.set]{shr 1} mineOf X)
        ∗ ((mineSl b).view.loc (c : Thread nD τ) ↦[(mineSl b).view.set]{shr 2} mineOf X)
        ∗ ((mineSl b).view.loc (c : Thread nD τ) ↦[(mineSl b).view.set]{shr 3} mineOf X)
        ∗ ((mineSl b).view.loc (c : Thread nD τ) ↦[(mineSl b).view.set]{shr 4} mineOf X)
        ∗ ((mineSl b).view.loc (c : Thread nD τ) ↦[(mineSl b).view.set]{shr 5} mineOf X)
        ∗ ((mineSl b).view.loc (c : Thread nD τ) ↦[(mineSl b).view.set]{shr 6} mineOf X)
        ∗ ((mineSl b).view.loc (c : Thread nD τ) ↦[(mineSl b).view.set]{shr 7} mineOf X)) :=
  Entails.of_eq ((pointsTo_congr hg).trans (shares8 fullShare))

theorem row_rejoin (c : Dev nD) (b : Fin 2) (X : XBlk F) :
    iprop(((mineSl b).view.loc (c : Thread nD τ) ↦[(mineSl b).view.set]{shr 0} mineOf X)
        ∗ ((mineSl b).view.loc (c : Thread nD τ) ↦[(mineSl b).view.set]{shr 1} mineOf X)
        ∗ ((mineSl b).view.loc (c : Thread nD τ) ↦[(mineSl b).view.set]{shr 2} mineOf X)
        ∗ ((mineSl b).view.loc (c : Thread nD τ) ↦[(mineSl b).view.set]{shr 3} mineOf X)
        ∗ ((mineSl b).view.loc (c : Thread nD τ) ↦[(mineSl b).view.set]{shr 4} mineOf X)
        ∗ ((mineSl b).view.loc (c : Thread nD τ) ↦[(mineSl b).view.set]{shr 5} mineOf X)
        ∗ ((mineSl b).view.loc (c : Thread nD τ) ↦[(mineSl b).view.set]{shr 6} mineOf X)
        ∗ ((mineSl b).view.loc (c : Thread nD τ) ↦[(mineSl b).view.set]{shr 7} mineOf X))
      ⊢ ((mineSl b).view.loc (c : Thread nD τ) ↦[(mineSl b).view.set]{fullShare} mineOf X : sProp 𝕄) :=
  Entails.of_eq (shares8 fullShare).symm

/-- The slot a copy of device c's row b has landed in, on device p, is what that landing owes p. -/
theorem landing (c p : Dev nD) (b : Fin 2) (fd : CommBuf F) :
    ((commSl c b).view.loc (p : Thread nD τ) ↦[(commSl c b).view.set]{fullShare}
        ((commSl c b).view.write (Elt F) fd ((mineSl b).view.read (Elt F) (mineOf (xOf m c))) Finset.univ) : sProp 𝕄)
      ⊢ (sched m).payload (recvCell p b c) 0 c :=
  (landed p (Xs m) c b fd).trans (Entails.of_eq (payload_recv' m p b c c).symm)

theorem halfM_disjoint : Disjoint (halfM 0).view.set (halfM 1).view.set := by
  rw [Finset.disjoint_left]
  intro i h0 h1
  rw [mem_halfM] at h0 h1
  have e0 : ((0 : Fin 2).val) = 0 := rfl
  have e1 : ((1 : Fin 2).val) = 1 := rfl
  omega

theorem halfM_union : (halfM 0).view.set ∪ (halfM 1).view.set = (Finset.univ : Finset S8x2x1x512.Idx) := by
  ext i
  rw [Finset.mem_union, mem_halfM, mem_halfM]
  have e0 : ((0 : Fin 2).val) = 0 := rfl
  have e1 : ((1 : Fin 2).val) = 1 := rfl
  have h : (i 1).val < 2 := (i 1).isLt
  simp only [Finset.mem_univ, iff_true]
  omega

/-- The two halves, each at contents of its own, are the whole table at some contents. -/
theorem halves_join (c : Dev nD) (f g : CommBuf F) :
    iprop(((halfM 0).view.loc (c : Thread nD τ) ↦[(halfM 0).view.set]{fullShare} f)
        ∗ ((halfM 1).view.loc (c : Thread nD τ) ↦[(halfM 1).view.set]{fullShare} g))
      ⊢ (iprop(∃ h : CommBuf F, (c : Thread nD τ).loc cc0_scratch1 ↦{fullShare} h) : sProp 𝕄) := by
  refine (pointsTo_join (ℓ := (c : Thread nD τ).loc cc0_scratch1) halfM_disjoint).trans ?_
  rw [halfM_union]
  iintro H
  iexists _
  iexact H

/-- The terms a run of the body leaves for the two stores are the row sums by definition. -/
example (X : XBlk F) :
    k0_pay4 (k0_pay1 (View.readAt (Elt F) (xM : Memref sig .tc .vmem S1024x1024 .f32).view rTop.toLoadRect X)) (FloatOps.ofBits .f32 1098907648#32)
      = sTop X := rfl
example (X : XBlk F) :
    k0_pay8 (View.readAt (Elt F) (xM : Memref sig .tc .vmem S1024x1024 .f32).view rBot.toLoadRect X) = sBot X := rfl

end Cert.KernelIdeal.Sm
end
-- ==== Proof.SendRule.lean ====
/-
  One copy of a row of the own row sums into a peer's slot, as a rule of the protocol: the departure's share of
  the source row comes back with the departure, the slot filled goes to the peer with the landing.
-/
import proofs.«901053_g7700000000001054_dist_softmax_colshard_i_m1024_n1024_v7x_i8_bf16_1_alg».proof.Proof.Ghost
import proofs.«901053_g7700000000001054_dist_softmax_colshard_i_m1024_n1024_v7x_i8_bf16_1_alg».proof.Proof.Glue2

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

set_option maxHeartbeats 4000000 in
/-- Device c's copy of row b of its row sums into slot [c, b] of device p (addressed as n, n = p): it pays the one duty
    of its own send cell (c, b, p) and the one duty of p's receive cell (p, b, c). -/
theorem wp_send_slot (κ₁ κ₂ : ℕ) (c p n : Dev nD) (b : Fin 2) (hn : n = p) (hpc : p ≠ c)
    {hsc : (commSl c b : Memref sig (Dev.tc n : Thread nD τ).2.kind .vmem S1x512 .f32).view.ref.isScScratch = false}
    {hsrc : (mineSl b : Memref sig .tc .vmem S1x512 .f32).view.WordExact} {hdst : (commSl c b : Memref sig .tc .vmem S1x512 .f32).view.WordExact}
    {hsem : DmaTarget.Typed .vmem (.dma (recvS b c)) (.remote (Dev.tc n : Thread nD τ) (commSl c b : Memref sig .tc .vmem S1x512 .f32) (.dma (sendS b p)) hsc)}
    {α : Type} {Q : α → sProp 𝕄} {k : PUnit → Prog (TpuEff nD τ sig (Elt F) Λ₀ .tc) α}
    (fd : CommBuf F) (O : CellTallies nD τ sig Unit) (W : Waits sig Unit) :
    iprop(cellInv ER (sched m) κ₁ (sendCell c b p) ∗ cellInv ER (sched m) κ₂ (recvCell p b c)
        ∗ ((mineSl b).view.loc (c : Thread nD τ) ↦[(mineSl b).view.set]{shr p} mineOf (xOf m c))
        ∗ ((commSl c b).view.loc (p : Thread nD τ) ↦[(commSl c b).view.set]{fullShare} fd)
        ∗ owes (c : Thread nD τ) (O + tallyAt (recvCell p b c) () Ncr) W
        ∗ dutyTok ER (sendCell c b p) 0 p ∗ reached ER (sendCell c b p) 0
        ∗ dutyTok ER (recvCell p b c) 0 c ∗ reached ER (recvCell p b c) 0)
      ⊢ iprop(((cred (tallyAt (sendCell c b p) () Ncr) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mineSl b) (.remote (Dev.tc n : Thread nD τ) (commSl c b) (.dma (sendS b p)) hsc) (.dma (recvS b c)) hsrc hdst hsem) k) Q) := by
  subst hn
  exact Rounds.wp_send_pointsTo 𝒱₀ ER (sched m) (c : Thread nD τ) none (κ₁ := κ₁) (κ₂ := κ₂)
    (c' := (Dev.tc n : Thread nD τ)) (src := mineSl b) (dst := commSl c b) (hsc := hsc) (sS := .dma (sendS b n)) (sem := .dma (recvS b c))
    (hsrc := hsrc) (hdst := hdst) (hsem := hsem) (k := k) (q := shr n) (fs := mineOf (xOf m c))
    (r₁ := 0) (r₂ := 0) (d₁ := n) (d₂ := c) (fd := fd)
    (by rw [duties_send m c b n hpc]; exact Finset.mem_singleton_self _)
    (by rw [duties_recv m n b c (Ne.symm hpc)]; exact Finset.mem_singleton_self _)
    () () Ncr rfl (amount_send m c b n n) (amount_recv m n b c c) O rfl (W := W)
    (by rw [payload_send'])
    (landing m c n b fd)

/-- Row 0 of the own table after its store, restated at the row sums and cut into the eight shares. -/
theorem row0_shares (c : Dev nD) (X : XBlk F) (f0 : MineBuf F) :
    ((mineSl 0).view.loc (c : Thread nD τ) ↦[(mineSl 0).view.set]{fullShare}
        (View.write (Elt F) ((Memref.whole cc0_scratch0 : Memref sig .tc .vmem S2x1x512 .f32).access (Rect.unit (s := S2x1x512) ![0, 0, 0] S1x1x512.size inb_S2x1x512_S1x1x512_0_0_0)) f0 (sTop X) Finset.univ) : sProp 𝕄)
      ⊢ iprop(((mineSl 0).view.loc (c : Thread nD τ) ↦[(mineSl 0).view.set]{shr 0} mineOf X) ∗ ((mineSl 0).view.loc (c : Thread nD τ) ↦[(mineSl 0).view.set]{shr 1} mineOf X) ∗ ((mineSl 0).view.loc (c : Thread nD τ) ↦[(mineSl 0).view.set]{shr 2} mineOf X) ∗ ((mineSl 0).view.loc (c : Thread nD τ) ↦[(mineSl 0).view.set]{shr 3} mineOf X) ∗ ((mineSl 0).view.loc (c : Thread nD τ) ↦[(mineSl 0).view.set]{shr 4} mineOf X) ∗ ((mineSl 0).view.loc (c : Thread nD τ) ↦[(mineSl 0).view.set]{shr 5} mineOf X) ∗ ((mineSl 0).view.loc (c : Thread nD τ) ↦[(mineSl 0).view.set]{shr 6} mineOf X) ∗ ((mineSl 0).view.loc (c : Thread nD τ) ↦[(mineSl 0).view.set]{shr 7} mineOf X)) :=
  row_restate c 0 X _ (row0_agree X f0)
/-- Row 1 of the own table after its store, restated at the row sums and cut into the eight shares. -/
theorem row1_shares (c : Dev nD) (X : XBlk F) (f0 : MineBuf F) :
    ((mineSl 1).view.loc (c : Thread nD τ) ↦[(mineSl 1).view.set]{fullShare}
        (View.write (Elt F) ((Memref.whole cc0_scratch0 : Memref sig .tc .vmem S2x1x512 .f32).access (Rect.unit (s := S2x1x512) ![1, 0, 0] S1x1x512.size inb_S2x1x512_S1x1x512_1_0_0)) f0 (sBot X) Finset.univ) : sProp 𝕄)
      ⊢ iprop(((mineSl 1).view.loc (c : Thread nD τ) ↦[(mineSl 1).view.set]{shr 0} mineOf X) ∗ ((mineSl 1).view.loc (c : Thread nD τ) ↦[(mineSl 1).view.set]{shr 1} mineOf X) ∗ ((mineSl 1).view.loc (c : Thread nD τ) ↦[(mineSl 1).view.set]{shr 2} mineOf X) ∗ ((mineSl 1).view.loc (c : Thread nD τ) ↦[(mineSl 1).view.set]{shr 3} mineOf X) ∗ ((mineSl 1).view.loc (c : Thread nD τ) ↦[(mineSl 1).view.set]{shr 4} mineOf X) ∗ ((mineSl 1).view.loc (c : Thread nD τ) ↦[(mineSl 1).view.set]{shr 5} mineOf X) ∗ ((mineSl 1).view.loc (c : Thread nD τ) ↦[(mineSl 1).view.set]{shr 6} mineOf X) ∗ ((mineSl 1).view.loc (c : Thread nD τ) ↦[(mineSl 1).view.set]{shr 7} mineOf X)) :=
  row_restate c 1 X _ (row1_agree X f0)

/-- What a device owes, with a zero put in front (so that a last remaining tally is still a sum's last summand). -/
theorem owes_zero_add (c : Dev nD) (O : CellTallies nD τ sig Unit) (W : Waits sig Unit) :
    (owes (c : Thread nD τ) O W : sProp 𝕄) ⊢ owes (c : Thread nD τ) (0 + O) W := Entails.of_eq (by rw [zero_add])

end Cert.KernelIdeal.Sm

end
-- ==== Proof.BodyEnd.lean ====
/-
  The end of a device's body: a send or receive cell whose one round is consumed, or that never had a duty, is closed, and
  its semaphore at zero is the device's again.
-/
import proofs.«901053_g7700000000001054_dist_softmax_colshard_i_m1024_n1024_v7x_i8_bf16_1_alg».proof.Proof.Ghost

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The diagonal cells, a device's copy to itself or from itself, have no duty at round 0. -/
theorem duties_send_self (c : Dev nD) (b : Fin 2) : (sched (F := F) m).duties (sendCell c b c) 0 = ∅ := by
  dsimp only [sched]; rw [if_pos ⟨rfl, rfl⟩]
  show (if 2 ≤ (sendS b c).val ∧ pOf (sendS b c) ≠ c then {pOf (sendS b c)} else ∅) = _
  rw [pOf_send, if_neg (fun h => h.2 rfl)]
theorem duties_recv_self (c : Dev nD) (b : Fin 2) : (sched (F := F) m).duties (recvCell c b c) 0 = ∅ := by
  dsimp only [sched]; rw [if_pos ⟨rfl, rfl⟩]
  show (if 2 ≤ (recvS b c).val ∧ pOf (recvS b c) ≠ c then {pOf (recvS b c)} else ∅) = _
  rw [pOf_recv, if_neg (fun h => h.2 rfl)]

/-- From round R on a send cell has no duty: any cell from round 1, a diagonal one from round 0. -/
theorem no_duty_send (c : Dev nD) (b : Fin 2) (p : Dev nD) (R : ℕ) (hR : p = c ∨ 1 ≤ R) :
    ∀ r, R ≤ r → (sched (F := F) m).duties (sendCell c b p) r = ∅ := fun r hr => by
  rcases Nat.eq_zero_or_pos r with h0 | h1
  · subst h0
    rcases hR with rfl | h
    · exact duties_send_self m p b
    · omega
  · exact duties_later m _ r h1
theorem no_duty_recv (c : Dev nD) (b : Fin 2) (q : Dev nD) (R : ℕ) (hR : q = c ∨ 1 ≤ R) :
    ∀ r, R ≤ r → (sched (F := F) m).duties (recvCell c b q) r = ∅ := fun r hr => by
  rcases Nat.eq_zero_or_pos r with h0 | h1
  · subst h0
    rcases hR with rfl | h
    · exact duties_recv_self m q b
    · omega
  · exact duties_later m _ r h1

/-- Closing a send cell at a position with nothing taken: its counter at zero comes back. -/
theorem close_send (κ : ℕ) (c : Dev nD) (b : Fin 2) (p : Dev nD) (R : ℕ) (hR : p = c ∨ 1 ≤ R) :
    iprop(cellInv ER (sched m) κ (sendCell c b p) ∗ atPos ER (sendCell c b p) R ∅ 0) ⊢ iprop(|={Set.univ}=> semVal (sendCell c b p) 0) :=
  Rounds.cell_close ER (sched m) (Set.mem_univ κ) (fun h => h) (R := R) (no_duty_send m c b p R hR)

/-- Closing a receive cell. -/
theorem close_recv (κ : ℕ) (c : Dev nD) (b : Fin 2) (q : Dev nD) (R : ℕ) (hR : q = c ∨ 1 ≤ R) :
    iprop(cellInv ER (sched m) κ (recvCell c b q) ∗ atPos ER (recvCell c b q) R ∅ 0) ⊢ iprop(|={Set.univ}=> semVal (recvCell c b q) 0) :=
  Rounds.cell_close ER (sched m) (Set.mem_univ κ) (fun h => h) (R := R) (no_duty_recv m c b q R hR)

end Cert.KernelIdeal.Sm

end
-- ==== Proof.Glue3.lean ====
/-
  The device's own slot of the table of everybody's row sums after its local store of a row of its own table, and the
  elements a load of a half of that table reads.
-/
import proofs.«901053_g7700000000001054_dist_softmax_colshard_i_m1024_n1024_v7x_i8_bf16_1_alg».proof.Proof.Glue2
import Idealize.ShloMosaic.Lib.Pipeline.Value
import Idealize.ShloMosaic.Lib.Ring

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The own slot after the local store; the half of the table a load reads -/

/-- A 1 x 1 x 512 vector as 1 x 512 and then as 1 x 1 x 1 x 512 reads the same entries. -/
theorem pay5_apply (v : Vec F S1x1x512 .f32) (r : Fin 512) :
    k0_pay5 v (ValueIdx.ix4 (0 : Fin 1) (0 : Fin 1) (0 : Fin 1) r) = v (ValueIdx.ix3 (0 : Fin 1) (0 : Fin 1) r) := by
  unfold k0_pay5
  refine (shapeCast_apply _ shapeCasts_S1x512_S1x1x1x512 _ (ValueIdx.ix2 (0 : Fin 1) r) (by
    rw [Shape.rowMajor_val_four, Shape.rowMajor_val_two]
    show 0 * 512 + r.val = ((0 * 1 + 0) * 1 + 0) * 512 + r.val
    omega)).trans ?_
  exact shapeCast_apply _ shapeCasts_S1x1x512_S1x512 _ (ValueIdx.ix3 (0 : Fin 1) (0 : Fin 1) r) (by
    rw [Shape.rowMajor_val_three, Shape.rowMajor_val_two]
    show (0 * 1 + 0) * 512 + r.val = 0 * 512 + r.val
    omega)

theorem pay9_apply (v : Vec F S1x1x512 .f32) (r : Fin 512) :
    k0_pay9 v (ValueIdx.ix4 (0 : Fin 1) (0 : Fin 1) (0 : Fin 1) r) = v (ValueIdx.ix3 (0 : Fin 1) (0 : Fin 1) r) := by
  unfold k0_pay9
  refine (shapeCast_apply _ shapeCasts_S1x512_S1x1x1x512 _ (ValueIdx.ix2 (0 : Fin 1) r) (by
    rw [Shape.rowMajor_val_four, Shape.rowMajor_val_two]
    show 0 * 512 + r.val = ((0 * 1 + 0) * 1 + 0) * 512 + r.val
    omega)).trans ?_
  exact shapeCast_apply _ shapeCasts_S1x1x512_S1x512 _ (ValueIdx.ix3 (0 : Fin 1) (0 : Fin 1) r) (by
    rw [Shape.rowMajor_val_three, Shape.rowMajor_val_two]
    show (0 * 1 + 0) * 512 + r.val = 0 * 512 + r.val
    omega)

/-- A load of row 0 of the own table reads its entries. -/
theorem row0_read (g : MineBuf F) (r : Fin 512) :
    View.readAt (Elt F) (Memref.whole cc0_scratch0 : Memref sig .tc .vmem S2x1x512 .f32).view
        (Rect.unit (s := S2x1x512) ![0, 0, 0] S1x1x512.size inb_S2x1x512_S1x1x512_0_0_0).toLoadRect g
        (ValueIdx.ix3 (0 : Fin 1) (0 : Fin 1) r)
      = g (ValueIdx.ix3 (0 : Fin 2) (0 : Fin 1) r) := by
  rw [View.readAt_apply, View.read_apply]
  show g _ = g _
  refine congrArg g (funext fun a => Fin.ext ?_)
  match a with
  | ⟨0, _⟩ => show 0 + 1 * 0 = 0; omega
  | ⟨1, _⟩ => show 0 + 1 * 0 = 0; omega
  | ⟨2, _⟩ => show 0 + 1 * r.val = r.val; omega

theorem row1_read (g : MineBuf F) (r : Fin 512) :
    View.readAt (Elt F) (Memref.whole cc0_scratch0 : Memref sig .tc .vmem S2x1x512 .f32).view
        (Rect.unit (s := S2x1x512) ![1, 0, 0] S1x1x512.size inb_S2x1x512_S1x1x512_1_0_0).toLoadRect g
        (ValueIdx.ix3 (0 : Fin 1) (0 : Fin 1) r)
      = g (ValueIdx.ix3 (1 : Fin 2) (0 : Fin 1) r) := by
  rw [View.readAt_apply, View.read_apply]
  show g _ = g _
  refine congrArg g (funext fun a => Fin.ext ?_)
  match a with
  | ⟨0, _⟩ => show 1 + 1 * 0 = 1; omega
  | ⟨1, _⟩ => show 0 + 1 * 0 = 0; omega
  | ⟨2, _⟩ => show 0 + 1 * r.val = r.val; omega

/-- A 1 x 1 x 1 x 512 vector that reads row b of device c's own row sums, stored at [c, b, 0, 0], leaves on slot [c, b]
    what the table of everybody's row sums holds there. -/
theorem own_slot_agree (c : Dev nD) (b : Fin 2) (off : Fin 4 → Nat) (ho : off = ![c.val, b.val, 0, 0])
    (h : ∀ a, off a + S1x1x1x512.size a ≤ S8x2x1x512.size a) (fc : CommBuf F) (w : S1x1x1x512.Idx → F .f32) (X : XBlk F)
    (hw : ∀ r : Fin 512, w (ValueIdx.ix4 (0 : Fin 1) (0 : Fin 1) (0 : Fin 1) r) = mineOf X (ValueIdx.ix3 b (0 : Fin 1) r))
    (Ys : Dev nD → XBlk F) (hY : Ys c = X) :
    ∀ i ∈ (commSl c b).view.set,
      View.write (Elt F) ((Memref.whole cc0_scratch1 : Memref sig .tc .vmem S8x2x1x512 .f32).access
        (Rect.unit (s := S8x2x1x512) off S1x1x1x512.size h)) fc w Finset.univ i = commOf Ys i := by
  subst ho
  intro i hi
  have h2 : ((Memref.whole cc0_scratch1 : Memref sig .tc .vmem S8x2x1x512 .f32).access
      (Rect.unit (s := S8x2x1x512) ![c.val, b.val, 0, 0] S1x1x1x512.size h)).set = (commSl c b).view.set :=
    (View.set_slice_whole ..).trans (commSl_set c b).symm
  rw [← h2] at hi
  obtain ⟨y, -, rfl⟩ := Finset.mem_map.mp hi
  have h0 : (y 0).val < 1 := (y 0).isLt
  have h1 : (y 1).val < 1 := (y 1).isLt
  have h2' : (y 2).val < 1 := (y 2).isLt
  have hemb : ((Memref.whole cc0_scratch1 : Memref sig .tc .vmem S8x2x1x512 .f32).access
      (Rect.unit (s := S8x2x1x512) ![c.val, b.val, 0, 0] S1x1x1x512.size h)).emb y
        = ValueIdx.ix4 (c : Fin 8) b (0 : Fin 1) (⟨(y 3).val, (y 3).isLt⟩ : Fin 512) :=
    funext fun a => Fin.ext (by
      match a with
      | ⟨0, _⟩ => show c.val + 1 * (y 0).val = c.val; omega
      | ⟨1, _⟩ => show b.val + 1 * (y 1).val = b.val; omega
      | ⟨2, _⟩ => show 0 + 1 * (y 2).val = 0; omega
      | ⟨3, _⟩ => show 0 + 1 * (y 3).val = (y 3).val; omega)
  have hy : y = ValueIdx.ix4 (0 : Fin 1) (0 : Fin 1) (0 : Fin 1) (⟨(y 3).val, (y 3).isLt⟩ : Fin 512) :=
    funext fun a => Fin.ext (by
      match a with
      | ⟨0, _⟩ => show (y 0).val = 0; omega
      | ⟨1, _⟩ => show (y 1).val = 0; omega
      | ⟨2, _⟩ => show (y 2).val = 0; omega
      | ⟨3, _⟩ => rfl)
  rw [View.write_emb_of_mem _ _ (Finset.mem_univ y), hemb]
  show w y = mineOf (Ys c) (ValueIdx.ix3 b (0 : Fin 1) (⟨(y 3).val, (y 3).isLt⟩ : Fin 512))
  rw [hY]
  exact (congrArg w hy).trans (hw _)

/-- The device's own slot of half 0 after its local store holds its own row sums of that half. -/
theorem own_slot0 (c : Dev nD) (fc : CommBuf F) (h : ∀ a, (k0_off17 c) a + S1x1x1x512.size a ≤ S8x2x1x512.size a) :
    (((commSl c 0).view.loc (c : Thread nD τ) ↦[(commSl c 0).view.set]{fullShare}
        (View.write (Elt F) ((Memref.whole cc0_scratch1 : Memref sig .tc .vmem S8x2x1x512 .f32).access
            (Rect.unit (s := S8x2x1x512) (k0_off17 c) S1x1x1x512.size h)) fc
          (k0_pay5 (View.readAt (Elt F) (Memref.whole cc0_scratch0 : Memref sig .tc .vmem S2x1x512 .f32).view
            (Rect.unit (s := S2x1x512) ![0, 0, 0] S1x1x512.size inb_S2x1x512_S1x1x512_0_0_0).toLoadRect (mineOf (xOf m c)))) Finset.univ)) : sProp 𝕄)
      ⊢ ((commSl c 0).view.loc (c : Thread nD τ) ↦[(commSl c 0).view.set]{fullShare} commOf (Xs m)) :=
  Entails.of_eq (slot_congr c c 0 _ _ (own_slot_agree c 0 (k0_off17 c) (k0_off17_eq c) h fc _ (xOf m c)
    (fun r => (pay5_apply _ r).trans (row0_read _ r)) (Xs m) rfl))

/-- The device's own slot of half 1 after its local store holds its own row sums of that half. -/
theorem own_slot1 (c : Dev nD) (fc : CommBuf F) (h : ∀ a, (k0_off34 c) a + S1x1x1x512.size a ≤ S8x2x1x512.size a) :
    (((commSl c 1).view.loc (c : Thread nD τ) ↦[(commSl c 1).view.set]{fullShare}
        (View.write (Elt F) ((Memref.whole cc0_scratch1 : Memref sig .tc .vmem S8x2x1x512 .f32).access
            (Rect.unit (s := S8x2x1x512) (k0_off34 c) S1x1x1x512.size h)) fc
          (k0_pay9 (View.readAt (Elt F) (Memref.whole cc0_scratch0 : Memref sig .tc .vmem S2x1x512 .f32).view
            (Rect.unit (s := S2x1x512) ![1, 0, 0] S1x1x512.size inb_S2x1x512_S1x1x512_1_0_0).toLoadRect (mineOf (xOf m c)))) Finset.univ)) : sProp 𝕄)
      ⊢ ((commSl c 1).view.loc (c : Thread nD τ) ↦[(commSl c 1).view.set]{fullShare} commOf (Xs m)) :=
  Entails.of_eq (slot_congr c c 1 _ _ (own_slot_agree c 1 (k0_off34 c) (k0_off34_eq c) h fc _ (xOf m c)
    (fun r => (pay9_apply _ r).trans (row1_read _ r)) (Xs m) rfl))

/-- The elements a load of half b of the table reads are elements of that half. -/
theorem half_access_sub0 :
    ((Memref.whole cc0_scratch1 : Memref sig .tc .vmem S8x2x1x512 .f32).access
      (Rect.unit (s := S8x2x1x512) ![0, 0, 0, 0] S8x1x1x512.size inb_S8x2x1x512_S8x1x1x512_0_0_0_0)).set ⊆ (halfM 0).view.set :=
  Finset.Subset.refl _

theorem half_access_sub1 :
    ((Memref.whole cc0_scratch1 : Memref sig .tc .vmem S8x2x1x512 .f32).access
      (Rect.unit (s := S8x2x1x512) ![0, 1, 0, 0] S8x1x1x512.size inb_S8x2x1x512_S8x1x1x512_0_1_0_0)).set ⊆ (halfM 1).view.set :=
  Finset.Subset.refl _

theorem half_setOn_sub0 :
    (Memref.whole cc0_scratch1 : Memref sig .tc .vmem S8x2x1x512 .f32).view.setOn
      (Rect.unit (s := S8x2x1x512) ![0, 0, 0, 0] S8x1x1x512.size inb_S8x2x1x512_S8x1x1x512_0_0_0_0).set ⊆ (halfM 0).view.set := by
  rw [halfM_set]
  show Finset.map (Function.Embedding.refl _) _ ⊆ _
  rw [Finset.map_refl]
  exact Finset.Subset.refl _

theorem half_setOn_sub1 :
    (Memref.whole cc0_scratch1 : Memref sig .tc .vmem S8x2x1x512 .f32).view.setOn
      (Rect.unit (s := S8x2x1x512) ![0, 1, 0, 0] S8x1x1x512.size inb_S8x2x1x512_S8x1x1x512_0_1_0_0).set ⊆ (halfM 1).view.set := by
  rw [halfM_set]
  show Finset.map (Function.Embedding.refl _) _ ⊆ _
  rw [Finset.map_refl]
  exact Finset.Subset.refl _

end Cert.KernelIdeal.Sm
end
-- ==== Proof.OutFinal.lean ====
/-
  The result block after the body's four stores: an entry reads the last store of its half, so the block holds the
  scaled halves, which is the device's result; and what a load of a half reads between the stores.
-/
import proofs.«901053_g7700000000001054_dist_softmax_colshard_i_m1024_n1024_v7x_i8_bf16_1_alg».proof.Proof.Glue3
import Idealize.ShloMosaic.Lib.WritesUnit
import Idealize.ShloMosaic.Lib.Pipeline.FrameBody
import Idealize.ShloMosaic.Lib.Ring

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The result block after the body's four stores -/

/-- After four stores of half blocks — bottom, top, bottom, top, the last store first in the list — an entry reads the
    last store of its half. -/
theorem read_four (v : View sig .tc .vmem S1024x1024 .bf16) (g0 : v.ty.Contents (Elt F))
    (wB wT wB' wT' : FVec F S512x1024 .bf16) (i : S1024x1024.Idx) :
    v.read (Elt F) (v.writes (Elt F) g0 [⟨rBot, wB⟩, ⟨rTop, wT⟩, ⟨rBot, wB'⟩, ⟨rTop, wT'⟩]) i
      = if h : (i 0).val < 512 then wT (ValueIdx.ix2 (⟨(i 0).val, h⟩ : Fin 512) (i 1))
        else wB (ValueIdx.ix2 (⟨(i 0).val - 512, by have : (i 0).val < 1024 := (i 0).isLt; omega⟩ : Fin 512) (i 1)) := by
  have hi0 : (i 0).val < 1024 := (i 0).isLt
  by_cases h : (i 0).val < 512
  · rw [dif_pos h]
    refine (View.read_writes_cons_rows_of_not_mem (o := 512) (W := 512) v g0 inb_S1024x1024_S512x1024_512_0 wB
      [⟨rTop, wT⟩, ⟨rBot, wB'⟩, ⟨rTop, wT'⟩] i rfl rfl (Or.inl h)).trans ?_
    exact View.read_writes_cons_rows_of_mem (o := 0) v g0 inb_S1024x1024_S512x1024_0_0 wT [⟨rBot, wB'⟩, ⟨rTop, wT'⟩] i
      (ValueIdx.ix2 (⟨(i 0).val, h⟩ : Fin 512) (i 1)) rfl (by show (i 0).val = 0 + (i 0).val; omega) rfl
  · rw [dif_neg h]
    exact View.read_writes_cons_rows_of_mem (o := 512) v g0 inb_S1024x1024_S512x1024_512_0 wB
      [⟨rTop, wT⟩, ⟨rBot, wB'⟩, ⟨rTop, wT'⟩] i
      (ValueIdx.ix2 (⟨(i 0).val - 512, by omega⟩ : Fin 512) (i 1)) rfl (by show (i 0).val = 512 + ((i 0).val - 512); omega) rfl

/-- After the four stores into the result block — the two halves of exp (x - 16), then the two halves scaled — the
    block holds the later two, whatever the earlier two and the prior contents were. -/
theorem out_agree (g0 : OBlk F) (wB wT wB' wT' : FVec F S512x1024 .bf16) (Ys : Dev nD → XBlk F) (c : Dev nD)
    (hB : wB = oBot Ys c) (hT : wT = oTop Ys c) :
    ∀ i ∈ (oM : Memref sig .tc .vmem S1024x1024 .bf16).view.set,
      (oM : Memref sig .tc .vmem S1024x1024 .bf16).view.writes (Elt F) g0
          [⟨rBot, wB⟩, ⟨rTop, wT⟩, ⟨rBot, wB'⟩, ⟨rTop, wT'⟩] i
        = outOf Ys c i := by
  intro i _
  subst hB hT
  refine (congrFun (View.read_whole (Val := Elt F) cc0_stg1_0 _) i).symm.trans ?_
  exact read_four (View.whole cc0_stg1_0) g0 _ _ wB' wT' i

/-- So the result block held after the four stores is held at the result. -/
theorem out_settle (c : Dev nD) (g0 : OBlk F) (wB wT wB' wT' : FVec F S512x1024 .bf16)
    (hB : wB = oBot (fun q => xOf m q) c) (hT : wT = oTop (fun q => xOf m q) c) :
    ((oM : Memref sig .tc .vmem S1024x1024 .bf16).view.loc (c : Thread nD τ) ↦[(oM : Memref sig .tc .vmem S1024x1024 .bf16).view.set]{fullShare}
        (oM : Memref sig .tc .vmem S1024x1024 .bf16).view.writes (Elt F) g0
          [⟨rBot, wB⟩, ⟨rTop, wT⟩, ⟨rBot, wB'⟩, ⟨rTop, wT'⟩] : sProp 𝕄)
      ⊢ ((oM : Memref sig .tc .vmem S1024x1024 .bf16).view.loc (c : Thread nD τ) ↦[(oM : Memref sig .tc .vmem S1024x1024 .bf16).view.set]{fullShare}
          outOf (fun q => xOf m q) c) :=
  Entails.of_eq (pointsTo_congr (out_agree g0 wB wT wB' wT' (fun q => xOf m q) c hB hT))

/-! ## Covered loads of the halves of the result block -/

theorem rBot_rTop_disjoint : Disjoint (rBot : Rect S1024x1024).set (rTop : Rect S1024x1024).toLoadRect.set :=
  Rect.unit_disjoint (0 : Fin 2) (Or.inr (by decide))

theorem rTop_rBot_disjoint : Disjoint (rTop : Rect S1024x1024).set (rBot : Rect S1024x1024).toLoadRect.set :=
  Rect.unit_disjoint (0 : Fin 2) (Or.inl (by decide))

/-- A load of the top half after a store of the top half and then one of the bottom half reads the top half's store. -/
theorem readCov_top [∀ e, Nonempty (Elt F e)] (v : View sig .tc .vmem S1024x1024 .bf16) (wB wT : FVec F S512x1024 .bf16) :
    View.readCov (Val := Elt F) v [⟨rBot, wB⟩, ⟨rTop, wT⟩] (rTop : Rect S1024x1024).toLoadRect = wT :=
  (View.readCov_cons_of_disjoint (Val := Elt F) v ⟨rBot, wB⟩ [⟨rTop, wT⟩] (rTop : Rect S1024x1024).toLoadRect rBot_rTop_disjoint).trans
    (View.readCov_cons_toLoadRect (Val := Elt F) v rTop wT [])

/-- A load of the bottom half after stores of the top, the bottom and the top half again reads the bottom half's store. -/
theorem readCov_bot [∀ e, Nonempty (Elt F e)] (v : View sig .tc .vmem S1024x1024 .bf16) (wT2 wB wT : FVec F S512x1024 .bf16) :
    View.readCov (Val := Elt F) v [⟨rTop, wT2⟩, ⟨rBot, wB⟩, ⟨rTop, wT⟩] (rBot : Rect S1024x1024).toLoadRect = wB :=
  (View.readCov_cons_of_disjoint (Val := Elt F) v ⟨rTop, wT2⟩ [⟨rBot, wB⟩, ⟨rTop, wT⟩] (rBot : Rect S1024x1024).toLoadRect rTop_rBot_disjoint).trans
    (View.readCov_cons_toLoadRect (Val := Elt F) v rBot wB [⟨rTop, wT⟩])

end Cert.KernelIdeal.Sm
end
-- ==== Proof.Body0.lean ====
/-
  The kernel body on device 0, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.BodyWrap
import proofs.«901053_g7700000000001054_dist_softmax_colshard_i_m1024_n1024_v7x_i8_bf16_1_alg».proof.Proof.BodyPieces
import proofs.«901053_g7700000000001054_dist_softmax_colshard_i_m1024_n1024_v7x_i8_bf16_1_alg».proof.Proof.OpenKit
import proofs.«901053_g7700000000001054_dist_softmax_colshard_i_m1024_n1024_v7x_i8_bf16_1_alg».proof.Proof.Canon
import proofs.«901053_g7700000000001054_dist_softmax_colshard_i_m1024_n1024_v7x_i8_bf16_1_alg».proof.Proof.SendRule
import proofs.«901053_g7700000000001054_dist_softmax_colshard_i_m1024_n1024_v7x_i8_bf16_1_alg».proof.Proof.BodyEnd
import proofs.«901053_g7700000000001054_dist_softmax_colshard_i_m1024_n1024_v7x_i8_bf16_1_alg».proof.Proof.Glue3
import proofs.«901053_g7700000000001054_dist_softmax_colshard_i_m1024_n1024_v7x_i8_bf16_1_alg».proof.Proof.OutFinal

noncomputable section

namespace Cert.KernelIdeal.Sm

set_option maxRecDepth 8000

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_0 (K : Dev nD × Fin 33 → ℕ) (W : Waits sig Unit) (Kt : PUnit → sProp 𝕄) :
    iprop(bodyPreE m K 0 W ∗ (bodyPostE m 0 -∗ Kt ⟨⟩))
      ⊢ wp frame (wpE (defs₀ (F := F)) 𝒱₀ ((0 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((0 : Dev nD) : Thread nD τ) (.reg barS) () (recvOwed 0) := mayWait_recvOwed 0
  -- the precondition taken apart
  unfold bodyPreE ghost linear creds scratches
  rw [erase_chain_0, erase_chain_0, pos_chain, O₀_chain_0]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb1, Htr10, Htr11, Hts01, Hts11⟩, ⟨Htb2, Htr20, Htr21, Hts02, Hts12⟩, ⟨Htb3, Htr30, Htr31, Hts03, Hts13⟩, ⟨Htb4, Htr40, Htr41, Hts04, Hts14⟩, ⟨Htb5, Htr50, Htr51, Hts05, Hts15⟩, ⟨Htb6, Htr60, Htr61, Hts06, Hts16⟩, ⟨Htb7, Htr70, Htr71, Hts07, Hts17⟩⟩⟩,
    ⟨Hcb, ⟨Hcv01, Hcv11⟩, ⟨Hcv02, Hcv12⟩, ⟨Hcv03, Hcv13⟩, ⟨Hcv04, Hcv14⟩, ⟨Hcv05, Hcv15⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 0 f0) $$ Hm
  icases Hm' with ⟨Hm0, Hm1⟩
  ihave Hc' := (comm_split_ex (F := F) 0) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr10 := (inv_recv m K 1 0 0) $$ HR
  ihave #HIr11 := (inv_recv m K 1 1 0) $$ HR
  ihave #HIr20 := (inv_recv m K 2 0 0) $$ HR
  ihave #HIr21 := (inv_recv m K 2 1 0) $$ HR
  ihave #HIr30 := (inv_recv m K 3 0 0) $$ HR
  ihave #HIr31 := (inv_recv m K 3 1 0) $$ HR
  ihave #HIr40 := (inv_recv m K 4 0 0) $$ HR
  ihave #HIr41 := (inv_recv m K 4 1 0) $$ HR
  ihave #HIr50 := (inv_recv m K 5 0 0) $$ HR
  ihave #HIr51 := (inv_recv m K 5 1 0) $$ HR
  ihave #HIr60 := (inv_recv m K 6 0 0) $$ HR
  ihave #HIr61 := (inv_recv m K 6 1 0) $$ HR
  ihave #HIr70 := (inv_recv m K 7 0 0) $$ HR
  ihave #HIr71 := (inv_recv m K 7 1 0) $$ HR
  ihave #HIs01 := (inv_send m K 0 0 1) $$ HR
  ihave #HIs02 := (inv_send m K 0 0 2) $$ HR
  ihave #HIs03 := (inv_send m K 0 0 3) $$ HR
  ihave #HIs04 := (inv_send m K 0 0 4) $$ HR
  ihave #HIs05 := (inv_send m K 0 0 5) $$ HR
  ihave #HIs06 := (inv_send m K 0 0 6) $$ HR
  ihave #HIs07 := (inv_send m K 0 0 7) $$ HR
  ihave #HIs11 := (inv_send m K 0 1 1) $$ HR
  ihave #HIs12 := (inv_send m K 0 1 2) $$ HR
  ihave #HIs13 := (inv_send m K 0 1 3) $$ HR
  ihave #HIs14 := (inv_send m K 0 1 4) $$ HR
  ihave #HIs15 := (inv_send m K 0 1 5) $$ HR
  ihave #HIs16 := (inv_send m K 0 1 6) $$ HR
  ihave #HIs17 := (inv_send m K 0 1 7) $$ HR
  ihave #HIv01 := (inv_recv m K 0 0 1) $$ HR
  ihave #HIv02 := (inv_recv m K 0 0 2) $$ HR
  ihave #HIv03 := (inv_recv m K 0 0 3) $$ HR
  ihave #HIv04 := (inv_recv m K 0 0 4) $$ HR
  ihave #HIv05 := (inv_recv m K 0 0 5) $$ HR
  ihave #HIv06 := (inv_recv m K 0 0 6) $$ HR
  ihave #HIv07 := (inv_recv m K 0 0 7) $$ HR
  ihave #HIv11 := (inv_recv m K 0 1 1) $$ HR
  ihave #HIv12 := (inv_recv m K 0 1 2) $$ HR
  ihave #HIv13 := (inv_recv m K 0 1 3) $$ HR
  ihave #HIv14 := (inv_recv m K 0 1 4) $$ HR
  ihave #HIv15 := (inv_recv m K 0 1 5) $$ HR
  ihave #HIv16 := (inv_recv m K 0 1 6) $$ HR
  ihave #HIv17 := (inv_recv m K 0 1 7) $$ HR
  ihave #Hrb1 := (reached_bar m K 1) $$ HR
  ihave #Hrb2 := (reached_bar m K 2) $$ HR
  ihave #Hrb3 := (reached_bar m K 3) $$ HR
  ihave #Hrb4 := (reached_bar m K 4) $$ HR
  ihave #Hrb5 := (reached_bar m K 5) $$ HR
  ihave #Hrb6 := (reached_bar m K 6) $$ HR
  ihave #Hrb7 := (reached_bar m K 7) $$ HR
  ihave #Hrr10 := (reached_recv m K 1 0 0) $$ HR
  ihave #Hrr11 := (reached_recv m K 1 1 0) $$ HR
  ihave #Hrr20 := (reached_recv m K 2 0 0) $$ HR
  ihave #Hrr21 := (reached_recv m K 2 1 0) $$ HR
  ihave #Hrr30 := (reached_recv m K 3 0 0) $$ HR
  ihave #Hrr31 := (reached_recv m K 3 1 0) $$ HR
  ihave #Hrr40 := (reached_recv m K 4 0 0) $$ HR
  ihave #Hrr41 := (reached_recv m K 4 1 0) $$ HR
  ihave #Hrr50 := (reached_recv m K 5 0 0) $$ HR
  ihave #Hrr51 := (reached_recv m K 5 1 0) $$ HR
  ihave #Hrr60 := (reached_recv m K 6 0 0) $$ HR
  ihave #Hrr61 := (reached_recv m K 6 1 0) $$ HR
  ihave #Hrr70 := (reached_recv m K 7 0 0) $$ HR
  ihave #Hrr71 := (reached_recv m K 7 1 0) $$ HR
  ihave #Hrs01 := (reached_send m K 0 0 1) $$ HR
  ihave #Hrs02 := (reached_send m K 0 0 2) $$ HR
  ihave #Hrs03 := (reached_send m K 0 0 3) $$ HR
  ihave #Hrs04 := (reached_send m K 0 0 4) $$ HR
  ihave #Hrs05 := (reached_send m K 0 0 5) $$ HR
  ihave #Hrs06 := (reached_send m K 0 0 6) $$ HR
  ihave #Hrs07 := (reached_send m K 0 0 7) $$ HR
  ihave #Hrs11 := (reached_send m K 0 1 1) $$ HR
  ihave #Hrs12 := (reached_send m K 0 1 2) $$ HR
  ihave #Hrs13 := (reached_send m K 0 1 3) $$ HR
  ihave #Hrs14 := (reached_send m K 0 1 4) $$ HR
  ihave #Hrs15 := (reached_send m K 0 1 5) $$ HR
  ihave #Hrs16 := (reached_send m K 0 1 6) $$ HR
  ihave #Hrs17 := (reached_send m K 0 1 7) $$ HR
  -- the diagonal cells' invariants (never used by a copy; closed at the end)
  ihave #HIs00 := (inv_send m K 0 0 0) $$ HR
  ihave #HIs10 := (inv_send m K 0 1 0) $$ HR
  ihave #HIv00 := (inv_recv m K 0 0 0) $$ HR
  ihave #HIv10 := (inv_recv m K 0 1 0) $$ HR
  iclear HR
  rw [cc0_body_eq_skeleton]; unfold cc0_body_skel
  -- the device's own two slots of its table, at their contents
  icases Hc00 with ⟨%fc0, Hc00⟩
  icases Hc01 with ⟨%fc1, Hc01⟩
  -- the seven barrier units, the first half's exponentials and row sums, the barrier wait
  sl_exec_parts
  -- what the barrier brought: the peers' slots for this device; what is still owed, in paying order; the first row in shares
  ihave HO := (owes_pay_0 (F := F) _) $$ HO
  ihave Hp := (Entails.of_eq (erase_chain_0 _)) $$ Hab_pay1
  icases Hp with ⟨⟨⟨%fd10, Hd10⟩, ⟨%fd11, Hd11⟩⟩, ⟨⟨%fd20, Hd20⟩, ⟨%fd21, Hd21⟩⟩, ⟨⟨%fd30, Hd30⟩, ⟨%fd31, Hd31⟩⟩, ⟨⟨%fd40, Hd40⟩, ⟨%fd41, Hd41⟩⟩, ⟨⟨%fd50, Hd50⟩, ⟨%fd51, Hd51⟩⟩, ⟨⟨%fd60, Hd60⟩, ⟨%fd61, Hd61⟩⟩, ⟨⟨%fd70, Hd70⟩, ⟨%fd71, Hd71⟩⟩⟩
  ihave Hm0s : iprop(((mineSl 0).view.loc ((0 : Dev nD) : Thread nD τ) ↦[(mineSl 0).view.set]{shr 0} mineOf (xOf m 0)) ∗ ((mineSl 0).view.loc ((0 : Dev nD) : Thread nD τ) ↦[(mineSl 0).view.set]{shr 1} mineOf (xOf m 0)) ∗ ((mineSl 0).view.loc ((0 : Dev nD) : Thread nD τ) ↦[(mineSl 0).view.set]{shr 2} mineOf (xOf m 0)) ∗ ((mineSl 0).view.loc ((0 : Dev nD) : Thread nD τ) ↦[(mineSl 0).view.set]{shr 3} mineOf (xOf m 0)) ∗ ((mineSl 0).view.loc ((0 : Dev nD) : Thread nD τ) ↦[(mineSl 0).view.set]{shr 4} mineOf (xOf m 0)) ∗ ((mineSl 0).view.loc ((0 : Dev nD) : Thread nD τ) ↦[(mineSl 0).view.set]{shr 5} mineOf (xOf m 0)) ∗ ((mineSl 0).view.loc ((0 : Dev nD) : Thread nD τ) ↦[(mineSl 0).view.set]{shr 6} mineOf (xOf m 0)) ∗ ((mineSl 0).view.loc ((0 : Dev nD) : Thread nD τ) ↦[(mineSl 0).view.set]{shr 7} mineOf (xOf m 0))) $$ [Hm0]
  · iapply (row0_shares (F := F) (0 : Dev nD) (xOf m 0) f0); iexact Hm0
  icases Hm0s with ⟨Hm0_0, Hm0_1, Hm0_2, Hm0_3, Hm0_4, Hm0_5, Hm0_6, Hm0_7⟩
  -- the seven copies of the first row
  iapply (wp_send_slot m _ _ 0 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 0 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 0 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 0 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 0 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 0 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 0 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((0 : Dev nD) : Thread nD τ) ↦[(mineSl 1).view.set]{shr 0} mineOf (xOf m 0)) ∗ ((mineSl 1).view.loc ((0 : Dev nD) : Thread nD τ) ↦[(mineSl 1).view.set]{shr 1} mineOf (xOf m 0)) ∗ ((mineSl 1).view.loc ((0 : Dev nD) : Thread nD τ) ↦[(mineSl 1).view.set]{shr 2} mineOf (xOf m 0)) ∗ ((mineSl 1).view.loc ((0 : Dev nD) : Thread nD τ) ↦[(mineSl 1).view.set]{shr 3} mineOf (xOf m 0)) ∗ ((mineSl 1).view.loc ((0 : Dev nD) : Thread nD τ) ↦[(mineSl 1).view.set]{shr 4} mineOf (xOf m 0)) ∗ ((mineSl 1).view.loc ((0 : Dev nD) : Thread nD τ) ↦[(mineSl 1).view.set]{shr 5} mineOf (xOf m 0)) ∗ ((mineSl 1).view.loc ((0 : Dev nD) : Thread nD τ) ↦[(mineSl 1).view.set]{shr 6} mineOf (xOf m 0)) ∗ ((mineSl 1).view.loc ((0 : Dev nD) : Thread nD τ) ↦[(mineSl 1).view.set]{shr 7} mineOf (xOf m 0))) $$ [Hm1]
  · iapply (row1_shares (F := F) (0 : Dev nD) (xOf m 0) f0); iexact Hm1
  icases Hm1s with ⟨Hm1_0, Hm1_1, Hm1_2, Hm1_3, Hm1_4, Hm1_5, Hm1_6, Hm1_7⟩
  iapply (wp_send_slot m _ _ 0 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 0 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 0 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 0 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 0 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  iapply (wp_send_slot m _ _ 0 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (0 : Dev nD) _ _) $$ HO
  iapply (wp_send_slot m _ _ 0 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 0 0).view.loc ((0 : Dev nD) : Thread nD τ) ↦[(commSl 0 0).view.set]{fullShare} commOf (Xs m)) $$ [Hc00]
  · iapply (own_slot0 (F := F) m (0 : Dev nD) fc0 _); iexact Hc00
  ihave Hh0 : ((halfM 0).view.loc ((0 : Dev nD) : Thread nD τ) ↦[(halfM 0).view.set]{fullShare} commOf (Xs m)) $$ [Hown0 Hav01_pay1 Hav02_pay1 Hav03_pay1 Hav04_pay1 Hav05_pay1 Hav06_pay1 Hav07_pay1]
  · iapply (half_join (F := F) (0 : Dev nD) 0 (commOf (Xs m)))
    isplitl [Hown0]; · iexact Hown0
    isplitl [Hav01_pay1]; · iexact Hav01_pay1
    isplitl [Hav02_pay1]; · iexact Hav02_pay1
    isplitl [Hav03_pay1]; · iexact Hav03_pay1
    isplitl [Hav04_pay1]; · iexact Hav04_pay1
    isplitl [Hav05_pay1]; · iexact Hav05_pay1
    isplitl [Hav06_pay1]; · iexact Hav06_pay1
    iexact Hav07_pay1
  have hsub0a := half_access_sub0
  have hsub0b := half_setOn_sub0
  sl_exec_parts
  -- the second half likewise; then the departures' waits
  ihave Hown1 : ((commSl 0 1).view.loc ((0 : Dev nD) : Thread nD τ) ↦[(commSl 0 1).view.set]{fullShare} commOf (Xs m)) $$ [Hc01]
  · iapply (own_slot1 (F := F) m (0 : Dev nD) fc1 _); iexact Hc01
  ihave Hh1 : ((halfM 1).view.loc ((0 : Dev nD) : Thread nD τ) ↦[(halfM 1).view.set]{fullShare} commOf (Xs m)) $$ [Hown1 Hav11_pay1 Hav12_pay1 Hav13_pay1 Hav14_pay1 Hav15_pay1 Hav16_pay1 Hav17_pay1]
  · iapply (half_join (F := F) (0 : Dev nD) 1 (commOf (Xs m)))
    isplitl [Hown1]; · iexact Hown1
    isplitl [Hav11_pay1]; · iexact Hav11_pay1
    isplitl [Hav12_pay1]; · iexact Hav12_pay1
    isplitl [Hav13_pay1]; · iexact Hav13_pay1
    isplitl [Hav14_pay1]; · iexact Hav14_pay1
    isplitl [Hav15_pay1]; · iexact Hav15_pay1
    isplitl [Hav16_pay1]; · iexact Hav16_pay1
    iexact Hav17_pay1
  have hsub1a := half_access_sub1
  have hsub1b := half_setOn_sub1
  sl_exec_parts
  -- the cells closed
  imod (close_send m _ 0 0 0 0 (.inl rfl)) $$ [Has00] with Hzs00
  · isplitr; · iexact HIs00
    iexact Has00
  imod (close_send m _ 0 0 1 1 (.inr le_rfl)) $$ [Has01] with Hzs01
  · isplitr; · iexact HIs01
    iexact Has01
  imod (close_send m _ 0 0 2 1 (.inr le_rfl)) $$ [Has02] with Hzs02
  · isplitr; · iexact HIs02
    iexact Has02
  imod (close_send m _ 0 0 3 1 (.inr le_rfl)) $$ [Has03] with Hzs03
  · isplitr; · iexact HIs03
    iexact Has03
  imod (close_send m _ 0 0 4 1 (.inr le_rfl)) $$ [Has04] with Hzs04
  · isplitr; · iexact HIs04
    iexact Has04
  imod (close_send m _ 0 0 5 1 (.inr le_rfl)) $$ [Has05] with Hzs05
  · isplitr; · iexact HIs05
    iexact Has05
  imod (close_send m _ 0 0 6 1 (.inr le_rfl)) $$ [Has06] with Hzs06
  · isplitr; · iexact HIs06
    iexact Has06
  imod (close_send m _ 0 0 7 1 (.inr le_rfl)) $$ [Has07] with Hzs07
  · isplitr; · iexact HIs07
    iexact Has07
  imod (close_send m _ 0 1 0 0 (.inl rfl)) $$ [Has10] with Hzs10
  · isplitr; · iexact HIs10
    iexact Has10
  imod (close_send m _ 0 1 1 1 (.inr le_rfl)) $$ [Has11] with Hzs11
  · isplitr; · iexact HIs11
    iexact Has11
  imod (close_send m _ 0 1 2 1 (.inr le_rfl)) $$ [Has12] with Hzs12
  · isplitr; · iexact HIs12
    iexact Has12
  imod (close_send m _ 0 1 3 1 (.inr le_rfl)) $$ [Has13] with Hzs13
  · isplitr; · iexact HIs13
    iexact Has13
  imod (close_send m _ 0 1 4 1 (.inr le_rfl)) $$ [Has14] with Hzs14
  · isplitr; · iexact HIs14
    iexact Has14
  imod (close_send m _ 0 1 5 1 (.inr le_rfl)) $$ [Has15] with Hzs15
  · isplitr; · iexact HIs15
    iexact Has15
  imod (close_send m _ 0 1 6 1 (.inr le_rfl)) $$ [Has16] with Hzs16
  · isplitr; · iexact HIs16
    iexact Has16
  imod (close_send m _ 0 1 7 1 (.inr le_rfl)) $$ [Has17] with Hzs17
  · isplitr; · iexact HIs17
    iexact Has17
  imod (close_recv m _ 0 0 0 0 (.inl rfl)) $$ [Hav00] with Hzv00
  · isplitr; · iexact HIv00
    iexact Hav00
  imod (close_recv m _ 0 0 1 1 (.inr le_rfl)) $$ [Hav01] with Hzv01
  · isplitr; · iexact HIv01
    iexact Hav01
  imod (close_recv m _ 0 0 2 1 (.inr le_rfl)) $$ [Hav02] with Hzv02
  · isplitr; · iexact HIv02
    iexact Hav02
  imod (close_recv m _ 0 0 3 1 (.inr le_rfl)) $$ [Hav03] with Hzv03
  · isplitr; · iexact HIv03
    iexact Hav03
  imod (close_recv m _ 0 0 4 1 (.inr le_rfl)) $$ [Hav04] with Hzv04
  · isplitr; · iexact HIv04
    iexact Hav04
  imod (close_recv m _ 0 0 5 1 (.inr le_rfl)) $$ [Hav05] with Hzv05
  · isplitr; · iexact HIv05
    iexact Hav05
  imod (close_recv m _ 0 0 6 1 (.inr le_rfl)) $$ [Hav06] with Hzv06
  · isplitr; · iexact HIv06
    iexact Hav06
  imod (close_recv m _ 0 0 7 1 (.inr le_rfl)) $$ [Hav07] with Hzv07
  · isplitr; · iexact HIv07
    iexact Hav07
  imod (close_recv m _ 0 1 0 0 (.inl rfl)) $$ [Hav10] with Hzv10
  · isplitr; · iexact HIv10
    iexact Hav10
  imod (close_recv m _ 0 1 1 1 (.inr le_rfl)) $$ [Hav11] with Hzv11
  · isplitr; · iexact HIv11
    iexact Hav11
  imod (close_recv m _ 0 1 2 1 (.inr le_rfl)) $$ [Hav12] with Hzv12
  · isplitr; · iexact HIv12
    iexact Hav12
  imod (close_recv m _ 0 1 3 1 (.inr le_rfl)) $$ [Hav13] with Hzv13
  · isplitr; · iexact HIv13
    iexact Hav13
  imod (close_recv m _ 0 1 4 1 (.inr le_rfl)) $$ [Hav14] with Hzv14
  · isplitr; · iexact HIv14
    iexact Hav14
  imod (close_recv m _ 0 1 5 1 (.inr le_rfl)) $$ [Hav15] with Hzv15
  · isplitr; · iexact HIv15
    iexact Hav15
  imod (close_recv m _ 0 1 6 1 (.inr le_rfl)) $$ [Hav16] with Hzv16
  · isplitr; · iexact HIv16
    iexact Hav16
  imod (close_recv m _ 0 1 7 1 (.inr le_rfl)) $$ [Hav17] with Hzv17
  · isplitr; · iexact HIv17
    iexact Hav17
  -- the two tables whole again
  ihave Hrow0 : ((mineSl 0).view.loc ((0 : Dev nD) : Thread nD τ) ↦[(mineSl 0).view.set]{fullShare} mineOf (xOf m 0)) $$ [Hm0_0 Has01_pay1 Has02_pay1 Has03_pay1 Has04_pay1 Has05_pay1 Has06_pay1 Has07_pay1]
  · iapply (row_rejoin (F := F) (0 : Dev nD) 0 (xOf m 0))
    isplitl [Hm0_0]; · iexact Hm0_0
    isplitl [Has01_pay1]; · iexact Has01_pay1
    isplitl [Has02_pay1]; · iexact Has02_pay1
    isplitl [Has03_pay1]; · iexact Has03_pay1
    isplitl [Has04_pay1]; · iexact Has04_pay1
    isplitl [Has05_pay1]; · iexact Has05_pay1
    isplitl [Has06_pay1]; · iexact Has06_pay1
    iexact Has07_pay1
  ihave Hrow1 : ((mineSl 1).view.loc ((0 : Dev nD) : Thread nD τ) ↦[(mineSl 1).view.set]{fullShare} mineOf (xOf m 0)) $$ [Hm1_0 Has11_pay1 Has12_pay1 Has13_pay1 Has14_pay1 Has15_pay1 Has16_pay1 Has17_pay1]
  · iapply (row_rejoin (F := F) (0 : Dev nD) 1 (xOf m 0))
    isplitl [Hm1_0]; · iexact Hm1_0
    isplitl [Has11_pay1]; · iexact Has11_pay1
    isplitl [Has12_pay1]; · iexact Has12_pay1
    isplitl [Has13_pay1]; · iexact Has13_pay1
    isplitl [Has14_pay1]; · iexact Has14_pay1
    isplitl [Has15_pay1]; · iexact Has15_pay1
    isplitl [Has16_pay1]; · iexact Has16_pay1
    iexact Has17_pay1
  ihave Hmine := (mine_join (F := F) (0 : Dev nD) (mineOf (xOf m 0))) $$ [Hrow0 Hrow1]
  · isplitl [Hrow0]; · iexact Hrow0
    iexact Hrow1
  ihave Hcomm := (halves_join (F := F) (0 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((0 : Dev nD) : Thread nD τ) ↦[(oM : Memref sig .tc .vmem S1024x1024 .bf16).view.set]{fullShare} outOf (fun q => xOf m q) 0) $$ [Ho]
  · have hT : body_0.sl.r_2 m = oTop (fun q => xOf m q) (0 : Dev nD) := by
      sl_unfold_run_names
      exact congrArg₂ k0_pay10 rfl (readCov_top _ _ _)
    have hB : k0_pay13 (body_0.sl.r_3 m) k0_pay12 (body_0.sl.v183 m) = oBot (fun q => xOf m q) (0 : Dev nD) := by
      sl_unfold_run_names
      exact congrArg₂ (fun a b => k0_pay13 (k0_pay11 a) k0_pay12 b) rfl (readCov_bot _ _ _ _)
    iapply (out_settle (F := F) m (0 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.KernelIdeal.Sm

end
-- ==== Proof.Body1.lean ====
/-
  The kernel body on device 1, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.BodyWrap
import proofs.«901053_g7700000000001054_dist_softmax_colshard_i_m1024_n1024_v7x_i8_bf16_1_alg».proof.Proof.BodyPieces
import proofs.«901053_g7700000000001054_dist_softmax_colshard_i_m1024_n1024_v7x_i8_bf16_1_alg».proof.Proof.OpenKit
import proofs.«901053_g7700000000001054_dist_softmax_colshard_i_m1024_n1024_v7x_i8_bf16_1_alg».proof.Proof.Canon
import proofs.«901053_g7700000000001054_dist_softmax_colshard_i_m1024_n1024_v7x_i8_bf16_1_alg».proof.Proof.SendRule
import proofs.«901053_g7700000000001054_dist_softmax_colshard_i_m1024_n1024_v7x_i8_bf16_1_alg».proof.Proof.BodyEnd
import proofs.«901053_g7700000000001054_dist_softmax_colshard_i_m1024_n1024_v7x_i8_bf16_1_alg».proof.Proof.Glue3
import proofs.«901053_g7700000000001054_dist_softmax_colshard_i_m1024_n1024_v7x_i8_bf16_1_alg».proof.Proof.OutFinal

noncomputable section

namespace Cert.KernelIdeal.Sm

set_option maxRecDepth 8000

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_1 (K : Dev nD × Fin 33 → ℕ) (W : Waits sig Unit) (Kt : PUnit → sProp 𝕄) :
    iprop(bodyPreE m K 1 W ∗ (bodyPostE m 1 -∗ Kt ⟨⟩))
      ⊢ wp frame (wpE (defs₀ (F := F)) 𝒱₀ ((1 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((1 : Dev nD) : Thread nD τ) (.reg barS) () (recvOwed 1) := mayWait_recvOwed 1
  -- the precondition taken apart
  unfold bodyPreE ghost linear creds scratches
  rw [erase_chain_1, erase_chain_1, pos_chain, O₀_chain_1]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb2, Htr20, Htr21, Hts02, Hts12⟩, ⟨Htb3, Htr30, Htr31, Hts03, Hts13⟩, ⟨Htb4, Htr40, Htr41, Hts04, Hts14⟩, ⟨Htb5, Htr50, Htr51, Hts05, Hts15⟩, ⟨Htb6, Htr60, Htr61, Hts06, Hts16⟩, ⟨Htb7, Htr70, Htr71, Hts07, Hts17⟩⟩⟩,
    ⟨Hcb, ⟨Hcv00, Hcv10⟩, ⟨Hcv02, Hcv12⟩, ⟨Hcv03, Hcv13⟩, ⟨Hcv04, Hcv14⟩, ⟨Hcv05, Hcv15⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 1 f0) $$ Hm
  icases Hm' with ⟨Hm0, Hm1⟩
  ihave Hc' := (comm_split_ex (F := F) 1) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 1) $$ HR
  ihave #HIr01 := (inv_recv m K 0 1 1) $$ HR
  ihave #HIr20 := (inv_recv m K 2 0 1) $$ HR
  ihave #HIr21 := (inv_recv m K 2 1 1) $$ HR
  ihave #HIr30 := (inv_recv m K 3 0 1) $$ HR
  ihave #HIr31 := (inv_recv m K 3 1 1) $$ HR
  ihave #HIr40 := (inv_recv m K 4 0 1) $$ HR
  ihave #HIr41 := (inv_recv m K 4 1 1) $$ HR
  ihave #HIr50 := (inv_recv m K 5 0 1) $$ HR
  ihave #HIr51 := (inv_recv m K 5 1 1) $$ HR
  ihave #HIr60 := (inv_recv m K 6 0 1) $$ HR
  ihave #HIr61 := (inv_recv m K 6 1 1) $$ HR
  ihave #HIr70 := (inv_recv m K 7 0 1) $$ HR
  ihave #HIr71 := (inv_recv m K 7 1 1) $$ HR
  ihave #HIs00 := (inv_send m K 1 0 0) $$ HR
  ihave #HIs02 := (inv_send m K 1 0 2) $$ HR
  ihave #HIs03 := (inv_send m K 1 0 3) $$ HR
  ihave #HIs04 := (inv_send m K 1 0 4) $$ HR
  ihave #HIs05 := (inv_send m K 1 0 5) $$ HR
  ihave #HIs06 := (inv_send m K 1 0 6) $$ HR
  ihave #HIs07 := (inv_send m K 1 0 7) $$ HR
  ihave #HIs10 := (inv_send m K 1 1 0) $$ HR
  ihave #HIs12 := (inv_send m K 1 1 2) $$ HR
  ihave #HIs13 := (inv_send m K 1 1 3) $$ HR
  ihave #HIs14 := (inv_send m K 1 1 4) $$ HR
  ihave #HIs15 := (inv_send m K 1 1 5) $$ HR
  ihave #HIs16 := (inv_send m K 1 1 6) $$ HR
  ihave #HIs17 := (inv_send m K 1 1 7) $$ HR
  ihave #HIv00 := (inv_recv m K 1 0 0) $$ HR
  ihave #HIv02 := (inv_recv m K 1 0 2) $$ HR
  ihave #HIv03 := (inv_recv m K 1 0 3) $$ HR
  ihave #HIv04 := (inv_recv m K 1 0 4) $$ HR
  ihave #HIv05 := (inv_recv m K 1 0 5) $$ HR
  ihave #HIv06 := (inv_recv m K 1 0 6) $$ HR
  ihave #HIv07 := (inv_recv m K 1 0 7) $$ HR
  ihave #HIv10 := (inv_recv m K 1 1 0) $$ HR
  ihave #HIv12 := (inv_recv m K 1 1 2) $$ HR
  ihave #HIv13 := (inv_recv m K 1 1 3) $$ HR
  ihave #HIv14 := (inv_recv m K 1 1 4) $$ HR
  ihave #HIv15 := (inv_recv m K 1 1 5) $$ HR
  ihave #HIv16 := (inv_recv m K 1 1 6) $$ HR
  ihave #HIv17 := (inv_recv m K 1 1 7) $$ HR
  ihave #Hrb0 := (reached_bar m K 0) $$ HR
  ihave #Hrb2 := (reached_bar m K 2) $$ HR
  ihave #Hrb3 := (reached_bar m K 3) $$ HR
  ihave #Hrb4 := (reached_bar m K 4) $$ HR
  ihave #Hrb5 := (reached_bar m K 5) $$ HR
  ihave #Hrb6 := (reached_bar m K 6) $$ HR
  ihave #Hrb7 := (reached_bar m K 7) $$ HR
  ihave #Hrr00 := (reached_recv m K 0 0 1) $$ HR
  ihave #Hrr01 := (reached_recv m K 0 1 1) $$ HR
  ihave #Hrr20 := (reached_recv m K 2 0 1) $$ HR
  ihave #Hrr21 := (reached_recv m K 2 1 1) $$ HR
  ihave #Hrr30 := (reached_recv m K 3 0 1) $$ HR
  ihave #Hrr31 := (reached_recv m K 3 1 1) $$ HR
  ihave #Hrr40 := (reached_recv m K 4 0 1) $$ HR
  ihave #Hrr41 := (reached_recv m K 4 1 1) $$ HR
  ihave #Hrr50 := (reached_recv m K 5 0 1) $$ HR
  ihave #Hrr51 := (reached_recv m K 5 1 1) $$ HR
  ihave #Hrr60 := (reached_recv m K 6 0 1) $$ HR
  ihave #Hrr61 := (reached_recv m K 6 1 1) $$ HR
  ihave #Hrr70 := (reached_recv m K 7 0 1) $$ HR
  ihave #Hrr71 := (reached_recv m K 7 1 1) $$ HR
  ihave #Hrs00 := (reached_send m K 1 0 0) $$ HR
  ihave #Hrs02 := (reached_send m K 1 0 2) $$ HR
  ihave #Hrs03 := (reached_send m K 1 0 3) $$ HR
  ihave #Hrs04 := (reached_send m K 1 0 4) $$ HR
  ihave #Hrs05 := (reached_send m K 1 0 5) $$ HR
  ihave #Hrs06 := (reached_send m K 1 0 6) $$ HR
  ihave #Hrs07 := (reached_send m K 1 0 7) $$ HR
  ihave #Hrs10 := (reached_send m K 1 1 0) $$ HR
  ihave #Hrs12 := (reached_send m K 1 1 2) $$ HR
  ihave #Hrs13 := (reached_send m K 1 1 3) $$ HR
  ihave #Hrs14 := (reached_send m K 1 1 4) $$ HR
  ihave #Hrs15 := (reached_send m K 1 1 5) $$ HR
  ihave #Hrs16 := (reached_send m K 1 1 6) $$ HR
  ihave #Hrs17 := (reached_send m K 1 1 7) $$ HR
  -- the diagonal cells' invariants (never used by a copy; closed at the end)
  ihave #HIs01 := (inv_send m K 1 0 1) $$ HR
  ihave #HIs11 := (inv_send m K 1 1 1) $$ HR
  ihave #HIv01 := (inv_recv m K 1 0 1) $$ HR
  ihave #HIv11 := (inv_recv m K 1 1 1) $$ HR
  iclear HR
  rw [cc0_body_eq_skeleton]; unfold cc0_body_skel
  -- the device's own two slots of its table, at their contents
  icases Hc10 with ⟨%fc0, Hc10⟩
  icases Hc11 with ⟨%fc1, Hc11⟩
  -- the seven barrier units, the first half's exponentials and row sums, the barrier wait
  sl_exec_parts
  -- what the barrier brought: the peers' slots for this device; what is still owed, in paying order; the first row in shares
  ihave HO := (owes_pay_1 (F := F) _) $$ HO
  ihave Hp := (Entails.of_eq (erase_chain_1 _)) $$ Hab_pay1
  icases Hp with ⟨⟨⟨%fd00, Hd00⟩, ⟨%fd01, Hd01⟩⟩, ⟨⟨%fd20, Hd20⟩, ⟨%fd21, Hd21⟩⟩, ⟨⟨%fd30, Hd30⟩, ⟨%fd31, Hd31⟩⟩, ⟨⟨%fd40, Hd40⟩, ⟨%fd41, Hd41⟩⟩, ⟨⟨%fd50, Hd50⟩, ⟨%fd51, Hd51⟩⟩, ⟨⟨%fd60, Hd60⟩, ⟨%fd61, Hd61⟩⟩, ⟨⟨%fd70, Hd70⟩, ⟨%fd71, Hd71⟩⟩⟩
  ihave Hm0s : iprop(((mineSl 0).view.loc ((1 : Dev nD) : Thread nD τ) ↦[(mineSl 0).view.set]{shr 0} mineOf (xOf m 1)) ∗ ((mineSl 0).view.loc ((1 : Dev nD) : Thread nD τ) ↦[(mineSl 0).view.set]{shr 1} mineOf (xOf m 1)) ∗ ((mineSl 0).view.loc ((1 : Dev nD) : Thread nD τ) ↦[(mineSl 0).view.set]{shr 2} mineOf (xOf m 1)) ∗ ((mineSl 0).view.loc ((1 : Dev nD) : Thread nD τ) ↦[(mineSl 0).view.set]{shr 3} mineOf (xOf m 1)) ∗ ((mineSl 0).view.loc ((1 : Dev nD) : Thread nD τ) ↦[(mineSl 0).view.set]{shr 4} mineOf (xOf m 1)) ∗ ((mineSl 0).view.loc ((1 : Dev nD) : Thread nD τ) ↦[(mineSl 0).view.set]{shr 5} mineOf (xOf m 1)) ∗ ((mineSl 0).view.loc ((1 : Dev nD) : Thread nD τ) ↦[(mineSl 0).view.set]{shr 6} mineOf (xOf m 1)) ∗ ((mineSl 0).view.loc ((1 : Dev nD) : Thread nD τ) ↦[(mineSl 0).view.set]{shr 7} mineOf (xOf m 1))) $$ [Hm0]
  · iapply (row0_shares (F := F) (1 : Dev nD) (xOf m 1) f0); iexact Hm0
  icases Hm0s with ⟨Hm0_0, Hm0_1, Hm0_2, Hm0_3, Hm0_4, Hm0_5, Hm0_6, Hm0_7⟩
  -- the seven copies of the first row
  iapply (wp_send_slot m _ _ 1 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 1 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 1 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 1 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 1 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 1 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 1 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((1 : Dev nD) : Thread nD τ) ↦[(mineSl 1).view.set]{shr 0} mineOf (xOf m 1)) ∗ ((mineSl 1).view.loc ((1 : Dev nD) : Thread nD τ) ↦[(mineSl 1).view.set]{shr 1} mineOf (xOf m 1)) ∗ ((mineSl 1).view.loc ((1 : Dev nD) : Thread nD τ) ↦[(mineSl 1).view.set]{shr 2} mineOf (xOf m 1)) ∗ ((mineSl 1).view.loc ((1 : Dev nD) : Thread nD τ) ↦[(mineSl 1).view.set]{shr 3} mineOf (xOf m 1)) ∗ ((mineSl 1).view.loc ((1 : Dev nD) : Thread nD τ) ↦[(mineSl 1).view.set]{shr 4} mineOf (xOf m 1)) ∗ ((mineSl 1).view.loc ((1 : Dev nD) : Thread nD τ) ↦[(mineSl 1).view.set]{shr 5} mineOf (xOf m 1)) ∗ ((mineSl 1).view.loc ((1 : Dev nD) : Thread nD τ) ↦[(mineSl 1).view.set]{shr 6} mineOf (xOf m 1)) ∗ ((mineSl 1).view.loc ((1 : Dev nD) : Thread nD τ) ↦[(mineSl 1).view.set]{shr 7} mineOf (xOf m 1))) $$ [Hm1]
  · iapply (row1_shares (F := F) (1 : Dev nD) (xOf m 1) f0); iexact Hm1
  icases Hm1s with ⟨Hm1_0, Hm1_1, Hm1_2, Hm1_3, Hm1_4, Hm1_5, Hm1_6, Hm1_7⟩
  iapply (wp_send_slot m _ _ 1 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 1 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 1 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 1 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 1 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  iapply (wp_send_slot m _ _ 1 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (1 : Dev nD) _ _) $$ HO
  iapply (wp_send_slot m _ _ 1 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 1 0).view.loc ((1 : Dev nD) : Thread nD τ) ↦[(commSl 1 0).view.set]{fullShare} commOf (Xs m)) $$ [Hc10]
  · iapply (own_slot0 (F := F) m (1 : Dev nD) fc0 _); iexact Hc10
  ihave Hh0 : ((halfM 0).view.loc ((1 : Dev nD) : Thread nD τ) ↦[(halfM 0).view.set]{fullShare} commOf (Xs m)) $$ [Hav00_pay1 Hown0 Hav02_pay1 Hav03_pay1 Hav04_pay1 Hav05_pay1 Hav06_pay1 Hav07_pay1]
  · iapply (half_join (F := F) (1 : Dev nD) 0 (commOf (Xs m)))
    isplitl [Hav00_pay1]; · iexact Hav00_pay1
    isplitl [Hown0]; · iexact Hown0
    isplitl [Hav02_pay1]; · iexact Hav02_pay1
    isplitl [Hav03_pay1]; · iexact Hav03_pay1
    isplitl [Hav04_pay1]; · iexact Hav04_pay1
    isplitl [Hav05_pay1]; · iexact Hav05_pay1
    isplitl [Hav06_pay1]; · iexact Hav06_pay1
    iexact Hav07_pay1
  have hsub0a := half_access_sub0
  have hsub0b := half_setOn_sub0
  sl_exec_parts
  -- the second half likewise; then the departures' waits
  ihave Hown1 : ((commSl 1 1).view.loc ((1 : Dev nD) : Thread nD τ) ↦[(commSl 1 1).view.set]{fullShare} commOf (Xs m)) $$ [Hc11]
  · iapply (own_slot1 (F := F) m (1 : Dev nD) fc1 _); iexact Hc11
  ihave Hh1 : ((halfM 1).view.loc ((1 : Dev nD) : Thread nD τ) ↦[(halfM 1).view.set]{fullShare} commOf (Xs m)) $$ [Hav10_pay1 Hown1 Hav12_pay1 Hav13_pay1 Hav14_pay1 Hav15_pay1 Hav16_pay1 Hav17_pay1]
  · iapply (half_join (F := F) (1 : Dev nD) 1 (commOf (Xs m)))
    isplitl [Hav10_pay1]; · iexact Hav10_pay1
    isplitl [Hown1]; · iexact Hown1
    isplitl [Hav12_pay1]; · iexact Hav12_pay1
    isplitl [Hav13_pay1]; · iexact Hav13_pay1
    isplitl [Hav14_pay1]; · iexact Hav14_pay1
    isplitl [Hav15_pay1]; · iexact Hav15_pay1
    isplitl [Hav16_pay1]; · iexact Hav16_pay1
    iexact Hav17_pay1
  have hsub1a := half_access_sub1
  have hsub1b := half_setOn_sub1
  sl_exec_parts
  -- the cells closed
  imod (close_send m _ 1 0 0 1 (.inr le_rfl)) $$ [Has00] with Hzs00
  · isplitr; · iexact HIs00
    iexact Has00
  imod (close_send m _ 1 0 1 0 (.inl rfl)) $$ [Has01] with Hzs01
  · isplitr; · iexact HIs01
    iexact Has01
  imod (close_send m _ 1 0 2 1 (.inr le_rfl)) $$ [Has02] with Hzs02
  · isplitr; · iexact HIs02
    iexact Has02
  imod (close_send m _ 1 0 3 1 (.inr le_rfl)) $$ [Has03] with Hzs03
  · isplitr; · iexact HIs03
    iexact Has03
  imod (close_send m _ 1 0 4 1 (.inr le_rfl)) $$ [Has04] with Hzs04
  · isplitr; · iexact HIs04
    iexact Has04
  imod (close_send m _ 1 0 5 1 (.inr le_rfl)) $$ [Has05] with Hzs05
  · isplitr; · iexact HIs05
    iexact Has05
  imod (close_send m _ 1 0 6 1 (.inr le_rfl)) $$ [Has06] with Hzs06
  · isplitr; · iexact HIs06
    iexact Has06
  imod (close_send m _ 1 0 7 1 (.inr le_rfl)) $$ [Has07] with Hzs07
  · isplitr; · iexact HIs07
    iexact Has07
  imod (close_send m _ 1 1 0 1 (.inr le_rfl)) $$ [Has10] with Hzs10
  · isplitr; · iexact HIs10
    iexact Has10
  imod (close_send m _ 1 1 1 0 (.inl rfl)) $$ [Has11] with Hzs11
  · isplitr; · iexact HIs11
    iexact Has11
  imod (close_send m _ 1 1 2 1 (.inr le_rfl)) $$ [Has12] with Hzs12
  · isplitr; · iexact HIs12
    iexact Has12
  imod (close_send m _ 1 1 3 1 (.inr le_rfl)) $$ [Has13] with Hzs13
  · isplitr; · iexact HIs13
    iexact Has13
  imod (close_send m _ 1 1 4 1 (.inr le_rfl)) $$ [Has14] with Hzs14
  · isplitr; · iexact HIs14
    iexact Has14
  imod (close_send m _ 1 1 5 1 (.inr le_rfl)) $$ [Has15] with Hzs15
  · isplitr; · iexact HIs15
    iexact Has15
  imod (close_send m _ 1 1 6 1 (.inr le_rfl)) $$ [Has16] with Hzs16
  · isplitr; · iexact HIs16
    iexact Has16
  imod (close_send m _ 1 1 7 1 (.inr le_rfl)) $$ [Has17] with Hzs17
  · isplitr; · iexact HIs17
    iexact Has17
  imod (close_recv m _ 1 0 0 1 (.inr le_rfl)) $$ [Hav00] with Hzv00
  · isplitr; · iexact HIv00
    iexact Hav00
  imod (close_recv m _ 1 0 1 0 (.inl rfl)) $$ [Hav01] with Hzv01
  · isplitr; · iexact HIv01
    iexact Hav01
  imod (close_recv m _ 1 0 2 1 (.inr le_rfl)) $$ [Hav02] with Hzv02
  · isplitr; · iexact HIv02
    iexact Hav02
  imod (close_recv m _ 1 0 3 1 (.inr le_rfl)) $$ [Hav03] with Hzv03
  · isplitr; · iexact HIv03
    iexact Hav03
  imod (close_recv m _ 1 0 4 1 (.inr le_rfl)) $$ [Hav04] with Hzv04
  · isplitr; · iexact HIv04
    iexact Hav04
  imod (close_recv m _ 1 0 5 1 (.inr le_rfl)) $$ [Hav05] with Hzv05
  · isplitr; · iexact HIv05
    iexact Hav05
  imod (close_recv m _ 1 0 6 1 (.inr le_rfl)) $$ [Hav06] with Hzv06
  · isplitr; · iexact HIv06
    iexact Hav06
  imod (close_recv m _ 1 0 7 1 (.inr le_rfl)) $$ [Hav07] with Hzv07
  · isplitr; · iexact HIv07
    iexact Hav07
  imod (close_recv m _ 1 1 0 1 (.inr le_rfl)) $$ [Hav10] with Hzv10
  · isplitr; · iexact HIv10
    iexact Hav10
  imod (close_recv m _ 1 1 1 0 (.inl rfl)) $$ [Hav11] with Hzv11
  · isplitr; · iexact HIv11
    iexact Hav11
  imod (close_recv m _ 1 1 2 1 (.inr le_rfl)) $$ [Hav12] with Hzv12
  · isplitr; · iexact HIv12
    iexact Hav12
  imod (close_recv m _ 1 1 3 1 (.inr le_rfl)) $$ [Hav13] with Hzv13
  · isplitr; · iexact HIv13
    iexact Hav13
  imod (close_recv m _ 1 1 4 1 (.inr le_rfl)) $$ [Hav14] with Hzv14
  · isplitr; · iexact HIv14
    iexact Hav14
  imod (close_recv m _ 1 1 5 1 (.inr le_rfl)) $$ [Hav15] with Hzv15
  · isplitr; · iexact HIv15
    iexact Hav15
  imod (close_recv m _ 1 1 6 1 (.inr le_rfl)) $$ [Hav16] with Hzv16
  · isplitr; · iexact HIv16
    iexact Hav16
  imod (close_recv m _ 1 1 7 1 (.inr le_rfl)) $$ [Hav17] with Hzv17
  · isplitr; · iexact HIv17
    iexact Hav17
  -- the two tables whole again
  ihave Hrow0 : ((mineSl 0).view.loc ((1 : Dev nD) : Thread nD τ) ↦[(mineSl 0).view.set]{fullShare} mineOf (xOf m 1)) $$ [Has00_pay1 Hm0_1 Has02_pay1 Has03_pay1 Has04_pay1 Has05_pay1 Has06_pay1 Has07_pay1]
  · iapply (row_rejoin (F := F) (1 : Dev nD) 0 (xOf m 1))
    isplitl [Has00_pay1]; · iexact Has00_pay1
    isplitl [Hm0_1]; · iexact Hm0_1
    isplitl [Has02_pay1]; · iexact Has02_pay1
    isplitl [Has03_pay1]; · iexact Has03_pay1
    isplitl [Has04_pay1]; · iexact Has04_pay1
    isplitl [Has05_pay1]; · iexact Has05_pay1
    isplitl [Has06_pay1]; · iexact Has06_pay1
    iexact Has07_pay1
  ihave Hrow1 : ((mineSl 1).view.loc ((1 : Dev nD) : Thread nD τ) ↦[(mineSl 1).view.set]{fullShare} mineOf (xOf m 1)) $$ [Has10_pay1 Hm1_1 Has12_pay1 Has13_pay1 Has14_pay1 Has15_pay1 Has16_pay1 Has17_pay1]
  · iapply (row_rejoin (F := F) (1 : Dev nD) 1 (xOf m 1))
    isplitl [Has10_pay1]; · iexact Has10_pay1
    isplitl [Hm1_1]; · iexact Hm1_1
    isplitl [Has12_pay1]; · iexact Has12_pay1
    isplitl [Has13_pay1]; · iexact Has13_pay1
    isplitl [Has14_pay1]; · iexact Has14_pay1
    isplitl [Has15_pay1]; · iexact Has15_pay1
    isplitl [Has16_pay1]; · iexact Has16_pay1
    iexact Has17_pay1
  ihave Hmine := (mine_join (F := F) (1 : Dev nD) (mineOf (xOf m 1))) $$ [Hrow0 Hrow1]
  · isplitl [Hrow0]; · iexact Hrow0
    iexact Hrow1
  ihave Hcomm := (halves_join (F := F) (1 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((1 : Dev nD) : Thread nD τ) ↦[(oM : Memref sig .tc .vmem S1024x1024 .bf16).view.set]{fullShare} outOf (fun q => xOf m q) 1) $$ [Ho]
  · have hT : body_1.sl.r_2 m = oTop (fun q => xOf m q) (1 : Dev nD) := by
      sl_unfold_run_names
      exact congrArg₂ k0_pay10 rfl (readCov_top _ _ _)
    have hB : k0_pay13 (body_1.sl.r_3 m) k0_pay12 (body_1.sl.v183 m) = oBot (fun q => xOf m q) (1 : Dev nD) := by
      sl_unfold_run_names
      exact congrArg₂ (fun a b => k0_pay13 (k0_pay11 a) k0_pay12 b) rfl (readCov_bot _ _ _ _)
    iapply (out_settle (F := F) m (1 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.KernelIdeal.Sm

end
-- ==== Proof.Body2.lean ====
/-
  The kernel body on device 2, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.BodyWrap
import proofs.«901053_g7700000000001054_dist_softmax_colshard_i_m1024_n1024_v7x_i8_bf16_1_alg».proof.Proof.BodyPieces
import proofs.«901053_g7700000000001054_dist_softmax_colshard_i_m1024_n1024_v7x_i8_bf16_1_alg».proof.Proof.OpenKit
import proofs.«901053_g7700000000001054_dist_softmax_colshard_i_m1024_n1024_v7x_i8_bf16_1_alg».proof.Proof.Canon
import proofs.«901053_g7700000000001054_dist_softmax_colshard_i_m1024_n1024_v7x_i8_bf16_1_alg».proof.Proof.SendRule
import proofs.«901053_g7700000000001054_dist_softmax_colshard_i_m1024_n1024_v7x_i8_bf16_1_alg».proof.Proof.BodyEnd
import proofs.«901053_g7700000000001054_dist_softmax_colshard_i_m1024_n1024_v7x_i8_bf16_1_alg».proof.Proof.Glue3
import proofs.«901053_g7700000000001054_dist_softmax_colshard_i_m1024_n1024_v7x_i8_bf16_1_alg».proof.Proof.OutFinal

noncomputable section

namespace Cert.KernelIdeal.Sm

set_option maxRecDepth 8000

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_2 (K : Dev nD × Fin 33 → ℕ) (W : Waits sig Unit) (Kt : PUnit → sProp 𝕄) :
    iprop(bodyPreE m K 2 W ∗ (bodyPostE m 2 -∗ Kt ⟨⟩))
      ⊢ wp frame (wpE (defs₀ (F := F)) 𝒱₀ ((2 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((2 : Dev nD) : Thread nD τ) (.reg barS) () (recvOwed 2) := mayWait_recvOwed 2
  -- the precondition taken apart
  unfold bodyPreE ghost linear creds scratches
  rw [erase_chain_2, erase_chain_2, pos_chain, O₀_chain_2]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb3, Htr30, Htr31, Hts03, Hts13⟩, ⟨Htb4, Htr40, Htr41, Hts04, Hts14⟩, ⟨Htb5, Htr50, Htr51, Hts05, Hts15⟩, ⟨Htb6, Htr60, Htr61, Hts06, Hts16⟩, ⟨Htb7, Htr70, Htr71, Hts07, Hts17⟩⟩⟩,
    ⟨Hcb, ⟨Hcv00, Hcv10⟩, ⟨Hcv01, Hcv11⟩, ⟨Hcv03, Hcv13⟩, ⟨Hcv04, Hcv14⟩, ⟨Hcv05, Hcv15⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 2 f0) $$ Hm
  icases Hm' with ⟨Hm0, Hm1⟩
  ihave Hc' := (comm_split_ex (F := F) 2) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 2) $$ HR
  ihave #HIr01 := (inv_recv m K 0 1 2) $$ HR
  ihave #HIr10 := (inv_recv m K 1 0 2) $$ HR
  ihave #HIr11 := (inv_recv m K 1 1 2) $$ HR
  ihave #HIr30 := (inv_recv m K 3 0 2) $$ HR
  ihave #HIr31 := (inv_recv m K 3 1 2) $$ HR
  ihave #HIr40 := (inv_recv m K 4 0 2) $$ HR
  ihave #HIr41 := (inv_recv m K 4 1 2) $$ HR
  ihave #HIr50 := (inv_recv m K 5 0 2) $$ HR
  ihave #HIr51 := (inv_recv m K 5 1 2) $$ HR
  ihave #HIr60 := (inv_recv m K 6 0 2) $$ HR
  ihave #HIr61 := (inv_recv m K 6 1 2) $$ HR
  ihave #HIr70 := (inv_recv m K 7 0 2) $$ HR
  ihave #HIr71 := (inv_recv m K 7 1 2) $$ HR
  ihave #HIs00 := (inv_send m K 2 0 0) $$ HR
  ihave #HIs01 := (inv_send m K 2 0 1) $$ HR
  ihave #HIs03 := (inv_send m K 2 0 3) $$ HR
  ihave #HIs04 := (inv_send m K 2 0 4) $$ HR
  ihave #HIs05 := (inv_send m K 2 0 5) $$ HR
  ihave #HIs06 := (inv_send m K 2 0 6) $$ HR
  ihave #HIs07 := (inv_send m K 2 0 7) $$ HR
  ihave #HIs10 := (inv_send m K 2 1 0) $$ HR
  ihave #HIs11 := (inv_send m K 2 1 1) $$ HR
  ihave #HIs13 := (inv_send m K 2 1 3) $$ HR
  ihave #HIs14 := (inv_send m K 2 1 4) $$ HR
  ihave #HIs15 := (inv_send m K 2 1 5) $$ HR
  ihave #HIs16 := (inv_send m K 2 1 6) $$ HR
  ihave #HIs17 := (inv_send m K 2 1 7) $$ HR
  ihave #HIv00 := (inv_recv m K 2 0 0) $$ HR
  ihave #HIv01 := (inv_recv m K 2 0 1) $$ HR
  ihave #HIv03 := (inv_recv m K 2 0 3) $$ HR
  ihave #HIv04 := (inv_recv m K 2 0 4) $$ HR
  ihave #HIv05 := (inv_recv m K 2 0 5) $$ HR
  ihave #HIv06 := (inv_recv m K 2 0 6) $$ HR
  ihave #HIv07 := (inv_recv m K 2 0 7) $$ HR
  ihave #HIv10 := (inv_recv m K 2 1 0) $$ HR
  ihave #HIv11 := (inv_recv m K 2 1 1) $$ HR
  ihave #HIv13 := (inv_recv m K 2 1 3) $$ HR
  ihave #HIv14 := (inv_recv m K 2 1 4) $$ HR
  ihave #HIv15 := (inv_recv m K 2 1 5) $$ HR
  ihave #HIv16 := (inv_recv m K 2 1 6) $$ HR
  ihave #HIv17 := (inv_recv m K 2 1 7) $$ HR
  ihave #Hrb0 := (reached_bar m K 0) $$ HR
  ihave #Hrb1 := (reached_bar m K 1) $$ HR
  ihave #Hrb3 := (reached_bar m K 3) $$ HR
  ihave #Hrb4 := (reached_bar m K 4) $$ HR
  ihave #Hrb5 := (reached_bar m K 5) $$ HR
  ihave #Hrb6 := (reached_bar m K 6) $$ HR
  ihave #Hrb7 := (reached_bar m K 7) $$ HR
  ihave #Hrr00 := (reached_recv m K 0 0 2) $$ HR
  ihave #Hrr01 := (reached_recv m K 0 1 2) $$ HR
  ihave #Hrr10 := (reached_recv m K 1 0 2) $$ HR
  ihave #Hrr11 := (reached_recv m K 1 1 2) $$ HR
  ihave #Hrr30 := (reached_recv m K 3 0 2) $$ HR
  ihave #Hrr31 := (reached_recv m K 3 1 2) $$ HR
  ihave #Hrr40 := (reached_recv m K 4 0 2) $$ HR
  ihave #Hrr41 := (reached_recv m K 4 1 2) $$ HR
  ihave #Hrr50 := (reached_recv m K 5 0 2) $$ HR
  ihave #Hrr51 := (reached_recv m K 5 1 2) $$ HR
  ihave #Hrr60 := (reached_recv m K 6 0 2) $$ HR
  ihave #Hrr61 := (reached_recv m K 6 1 2) $$ HR
  ihave #Hrr70 := (reached_recv m K 7 0 2) $$ HR
  ihave #Hrr71 := (reached_recv m K 7 1 2) $$ HR
  ihave #Hrs00 := (reached_send m K 2 0 0) $$ HR
  ihave #Hrs01 := (reached_send m K 2 0 1) $$ HR
  ihave #Hrs03 := (reached_send m K 2 0 3) $$ HR
  ihave #Hrs04 := (reached_send m K 2 0 4) $$ HR
  ihave #Hrs05 := (reached_send m K 2 0 5) $$ HR
  ihave #Hrs06 := (reached_send m K 2 0 6) $$ HR
  ihave #Hrs07 := (reached_send m K 2 0 7) $$ HR
  ihave #Hrs10 := (reached_send m K 2 1 0) $$ HR
  ihave #Hrs11 := (reached_send m K 2 1 1) $$ HR
  ihave #Hrs13 := (reached_send m K 2 1 3) $$ HR
  ihave #Hrs14 := (reached_send m K 2 1 4) $$ HR
  ihave #Hrs15 := (reached_send m K 2 1 5) $$ HR
  ihave #Hrs16 := (reached_send m K 2 1 6) $$ HR
  ihave #Hrs17 := (reached_send m K 2 1 7) $$ HR
  -- the diagonal cells' invariants (never used by a copy; closed at the end)
  ihave #HIs02 := (inv_send m K 2 0 2) $$ HR
  ihave #HIs12 := (inv_send m K 2 1 2) $$ HR
  ihave #HIv02 := (inv_recv m K 2 0 2) $$ HR
  ihave #HIv12 := (inv_recv m K 2 1 2) $$ HR
  iclear HR
  rw [cc0_body_eq_skeleton]; unfold cc0_body_skel
  -- the device's own two slots of its table, at their contents
  icases Hc20 with ⟨%fc0, Hc20⟩
  icases Hc21 with ⟨%fc1, Hc21⟩
  -- the seven barrier units, the first half's exponentials and row sums, the barrier wait
  sl_exec_parts
  -- what the barrier brought: the peers' slots for this device; what is still owed, in paying order; the first row in shares
  ihave HO := (owes_pay_2 (F := F) _) $$ HO
  ihave Hp := (Entails.of_eq (erase_chain_2 _)) $$ Hab_pay1
  icases Hp with ⟨⟨⟨%fd00, Hd00⟩, ⟨%fd01, Hd01⟩⟩, ⟨⟨%fd10, Hd10⟩, ⟨%fd11, Hd11⟩⟩, ⟨⟨%fd30, Hd30⟩, ⟨%fd31, Hd31⟩⟩, ⟨⟨%fd40, Hd40⟩, ⟨%fd41, Hd41⟩⟩, ⟨⟨%fd50, Hd50⟩, ⟨%fd51, Hd51⟩⟩, ⟨⟨%fd60, Hd60⟩, ⟨%fd61, Hd61⟩⟩, ⟨⟨%fd70, Hd70⟩, ⟨%fd71, Hd71⟩⟩⟩
  ihave Hm0s : iprop(((mineSl 0).view.loc ((2 : Dev nD) : Thread nD τ) ↦[(mineSl 0).view.set]{shr 0} mineOf (xOf m 2)) ∗ ((mineSl 0).view.loc ((2 : Dev nD) : Thread nD τ) ↦[(mineSl 0).view.set]{shr 1} mineOf (xOf m 2)) ∗ ((mineSl 0).view.loc ((2 : Dev nD) : Thread nD τ) ↦[(mineSl 0).view.set]{shr 2} mineOf (xOf m 2)) ∗ ((mineSl 0).view.loc ((2 : Dev nD) : Thread nD τ) ↦[(mineSl 0).view.set]{shr 3} mineOf (xOf m 2)) ∗ ((mineSl 0).view.loc ((2 : Dev nD) : Thread nD τ) ↦[(mineSl 0).view.set]{shr 4} mineOf (xOf m 2)) ∗ ((mineSl 0).view.loc ((2 : Dev nD) : Thread nD τ) ↦[(mineSl 0).view.set]{shr 5} mineOf (xOf m 2)) ∗ ((mineSl 0).view.loc ((2 : Dev nD) : Thread nD τ) ↦[(mineSl 0).view.set]{shr 6} mineOf (xOf m 2)) ∗ ((mineSl 0).view.loc ((2 : Dev nD) : Thread nD τ) ↦[(mineSl 0).view.set]{shr 7} mineOf (xOf m 2))) $$ [Hm0]
  · iapply (row0_shares (F := F) (2 : Dev nD) (xOf m 2) f0); iexact Hm0
  icases Hm0s with ⟨Hm0_0, Hm0_1, Hm0_2, Hm0_3, Hm0_4, Hm0_5, Hm0_6, Hm0_7⟩
  -- the seven copies of the first row
  iapply (wp_send_slot m _ _ 2 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 2 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 2 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 2 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 2 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 2 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 2 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((2 : Dev nD) : Thread nD τ) ↦[(mineSl 1).view.set]{shr 0} mineOf (xOf m 2)) ∗ ((mineSl 1).view.loc ((2 : Dev nD) : Thread nD τ) ↦[(mineSl 1).view.set]{shr 1} mineOf (xOf m 2)) ∗ ((mineSl 1).view.loc ((2 : Dev nD) : Thread nD τ) ↦[(mineSl 1).view.set]{shr 2} mineOf (xOf m 2)) ∗ ((mineSl 1).view.loc ((2 : Dev nD) : Thread nD τ) ↦[(mineSl 1).view.set]{shr 3} mineOf (xOf m 2)) ∗ ((mineSl 1).view.loc ((2 : Dev nD) : Thread nD τ) ↦[(mineSl 1).view.set]{shr 4} mineOf (xOf m 2)) ∗ ((mineSl 1).view.loc ((2 : Dev nD) : Thread nD τ) ↦[(mineSl 1).view.set]{shr 5} mineOf (xOf m 2)) ∗ ((mineSl 1).view.loc ((2 : Dev nD) : Thread nD τ) ↦[(mineSl 1).view.set]{shr 6} mineOf (xOf m 2)) ∗ ((mineSl 1).view.loc ((2 : Dev nD) : Thread nD τ) ↦[(mineSl 1).view.set]{shr 7} mineOf (xOf m 2))) $$ [Hm1]
  · iapply (row1_shares (F := F) (2 : Dev nD) (xOf m 2) f0); iexact Hm1
  icases Hm1s with ⟨Hm1_0, Hm1_1, Hm1_2, Hm1_3, Hm1_4, Hm1_5, Hm1_6, Hm1_7⟩
  iapply (wp_send_slot m _ _ 2 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 2 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 2 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 2 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 2 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  iapply (wp_send_slot m _ _ 2 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (2 : Dev nD) _ _) $$ HO
  iapply (wp_send_slot m _ _ 2 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 2 0).view.loc ((2 : Dev nD) : Thread nD τ) ↦[(commSl 2 0).view.set]{fullShare} commOf (Xs m)) $$ [Hc20]
  · iapply (own_slot0 (F := F) m (2 : Dev nD) fc0 _); iexact Hc20
  ihave Hh0 : ((halfM 0).view.loc ((2 : Dev nD) : Thread nD τ) ↦[(halfM 0).view.set]{fullShare} commOf (Xs m)) $$ [Hav00_pay1 Hav01_pay1 Hown0 Hav03_pay1 Hav04_pay1 Hav05_pay1 Hav06_pay1 Hav07_pay1]
  · iapply (half_join (F := F) (2 : Dev nD) 0 (commOf (Xs m)))
    isplitl [Hav00_pay1]; · iexact Hav00_pay1
    isplitl [Hav01_pay1]; · iexact Hav01_pay1
    isplitl [Hown0]; · iexact Hown0
    isplitl [Hav03_pay1]; · iexact Hav03_pay1
    isplitl [Hav04_pay1]; · iexact Hav04_pay1
    isplitl [Hav05_pay1]; · iexact Hav05_pay1
    isplitl [Hav06_pay1]; · iexact Hav06_pay1
    iexact Hav07_pay1
  have hsub0a := half_access_sub0
  have hsub0b := half_setOn_sub0
  sl_exec_parts
  -- the second half likewise; then the departures' waits
  ihave Hown1 : ((commSl 2 1).view.loc ((2 : Dev nD) : Thread nD τ) ↦[(commSl 2 1).view.set]{fullShare} commOf (Xs m)) $$ [Hc21]
  · iapply (own_slot1 (F := F) m (2 : Dev nD) fc1 _); iexact Hc21
  ihave Hh1 : ((halfM 1).view.loc ((2 : Dev nD) : Thread nD τ) ↦[(halfM 1).view.set]{fullShare} commOf (Xs m)) $$ [Hav10_pay1 Hav11_pay1 Hown1 Hav13_pay1 Hav14_pay1 Hav15_pay1 Hav16_pay1 Hav17_pay1]
  · iapply (half_join (F := F) (2 : Dev nD) 1 (commOf (Xs m)))
    isplitl [Hav10_pay1]; · iexact Hav10_pay1
    isplitl [Hav11_pay1]; · iexact Hav11_pay1
    isplitl [Hown1]; · iexact Hown1
    isplitl [Hav13_pay1]; · iexact Hav13_pay1
    isplitl [Hav14_pay1]; · iexact Hav14_pay1
    isplitl [Hav15_pay1]; · iexact Hav15_pay1
    isplitl [Hav16_pay1]; · iexact Hav16_pay1
    iexact Hav17_pay1
  have hsub1a := half_access_sub1
  have hsub1b := half_setOn_sub1
  sl_exec_parts
  -- the cells closed
  imod (close_send m _ 2 0 0 1 (.inr le_rfl)) $$ [Has00] with Hzs00
  · isplitr; · iexact HIs00
    iexact Has00
  imod (close_send m _ 2 0 1 1 (.inr le_rfl)) $$ [Has01] with Hzs01
  · isplitr; · iexact HIs01
    iexact Has01
  imod (close_send m _ 2 0 2 0 (.inl rfl)) $$ [Has02] with Hzs02
  · isplitr; · iexact HIs02
    iexact Has02
  imod (close_send m _ 2 0 3 1 (.inr le_rfl)) $$ [Has03] with Hzs03
  · isplitr; · iexact HIs03
    iexact Has03
  imod (close_send m _ 2 0 4 1 (.inr le_rfl)) $$ [Has04] with Hzs04
  · isplitr; · iexact HIs04
    iexact Has04
  imod (close_send m _ 2 0 5 1 (.inr le_rfl)) $$ [Has05] with Hzs05
  · isplitr; · iexact HIs05
    iexact Has05
  imod (close_send m _ 2 0 6 1 (.inr le_rfl)) $$ [Has06] with Hzs06
  · isplitr; · iexact HIs06
    iexact Has06
  imod (close_send m _ 2 0 7 1 (.inr le_rfl)) $$ [Has07] with Hzs07
  · isplitr; · iexact HIs07
    iexact Has07
  imod (close_send m _ 2 1 0 1 (.inr le_rfl)) $$ [Has10] with Hzs10
  · isplitr; · iexact HIs10
    iexact Has10
  imod (close_send m _ 2 1 1 1 (.inr le_rfl)) $$ [Has11] with Hzs11
  · isplitr; · iexact HIs11
    iexact Has11
  imod (close_send m _ 2 1 2 0 (.inl rfl)) $$ [Has12] with Hzs12
  · isplitr; · iexact HIs12
    iexact Has12
  imod (close_send m _ 2 1 3 1 (.inr le_rfl)) $$ [Has13] with Hzs13
  · isplitr; · iexact HIs13
    iexact Has13
  imod (close_send m _ 2 1 4 1 (.inr le_rfl)) $$ [Has14] with Hzs14
  · isplitr; · iexact HIs14
    iexact Has14
  imod (close_send m _ 2 1 5 1 (.inr le_rfl)) $$ [Has15] with Hzs15
  · isplitr; · iexact HIs15
    iexact Has15
  imod (close_send m _ 2 1 6 1 (.inr le_rfl)) $$ [Has16] with Hzs16
  · isplitr; · iexact HIs16
    iexact Has16
  imod (close_send m _ 2 1 7 1 (.inr le_rfl)) $$ [Has17] with Hzs17
  · isplitr; · iexact HIs17
    iexact Has17
  imod (close_recv m _ 2 0 0 1 (.inr le_rfl)) $$ [Hav00] with Hzv00
  · isplitr; · iexact HIv00
    iexact Hav00
  imod (close_recv m _ 2 0 1 1 (.inr le_rfl)) $$ [Hav01] with Hzv01
  · isplitr; · iexact HIv01
    iexact Hav01
  imod (close_recv m _ 2 0 2 0 (.inl rfl)) $$ [Hav02] with Hzv02
  · isplitr; · iexact HIv02
    iexact Hav02
  imod (close_recv m _ 2 0 3 1 (.inr le_rfl)) $$ [Hav03] with Hzv03
  · isplitr; · iexact HIv03
    iexact Hav03
  imod (close_recv m _ 2 0 4 1 (.inr le_rfl)) $$ [Hav04] with Hzv04
  · isplitr; · iexact HIv04
    iexact Hav04
  imod (close_recv m _ 2 0 5 1 (.inr le_rfl)) $$ [Hav05] with Hzv05
  · isplitr; · iexact HIv05
    iexact Hav05
  imod (close_recv m _ 2 0 6 1 (.inr le_rfl)) $$ [Hav06] with Hzv06
  · isplitr; · iexact HIv06
    iexact Hav06
  imod (close_recv m _ 2 0 7 1 (.inr le_rfl)) $$ [Hav07] with Hzv07
  · isplitr; · iexact HIv07
    iexact Hav07
  imod (close_recv m _ 2 1 0 1 (.inr le_rfl)) $$ [Hav10] with Hzv10
  · isplitr; · iexact HIv10
    iexact Hav10
  imod (close_recv m _ 2 1 1 1 (.inr le_rfl)) $$ [Hav11] with Hzv11
  · isplitr; · iexact HIv11
    iexact Hav11
  imod (close_recv m _ 2 1 2 0 (.inl rfl)) $$ [Hav12] with Hzv12
  · isplitr; · iexact HIv12
    iexact Hav12
  imod (close_recv m _ 2 1 3 1 (.inr le_rfl)) $$ [Hav13] with Hzv13
  · isplitr; · iexact HIv13
    iexact Hav13
  imod (close_recv m _ 2 1 4 1 (.inr le_rfl)) $$ [Hav14] with Hzv14
  · isplitr; · iexact HIv14
    iexact Hav14
  imod (close_recv m _ 2 1 5 1 (.inr le_rfl)) $$ [Hav15] with Hzv15
  · isplitr; · iexact HIv15
    iexact Hav15
  imod (close_recv m _ 2 1 6 1 (.inr le_rfl)) $$ [Hav16] with Hzv16
  · isplitr; · iexact HIv16
    iexact Hav16
  imod (close_recv m _ 2 1 7 1 (.inr le_rfl)) $$ [Hav17] with Hzv17
  · isplitr; · iexact HIv17
    iexact Hav17
  -- the two tables whole again
  ihave Hrow0 : ((mineSl 0).view.loc ((2 : Dev nD) : Thread nD τ) ↦[(mineSl 0).view.set]{fullShare} mineOf (xOf m 2)) $$ [Has00_pay1 Has01_pay1 Hm0_2 Has03_pay1 Has04_pay1 Has05_pay1 Has06_pay1 Has07_pay1]
  · iapply (row_rejoin (F := F) (2 : Dev nD) 0 (xOf m 2))
    isplitl [Has00_pay1]; · iexact Has00_pay1
    isplitl [Has01_pay1]; · iexact Has01_pay1
    isplitl [Hm0_2]; · iexact Hm0_2
    isplitl [Has03_pay1]; · iexact Has03_pay1
    isplitl [Has04_pay1]; · iexact Has04_pay1
    isplitl [Has05_pay1]; · iexact Has05_pay1
    isplitl [Has06_pay1]; · iexact Has06_pay1
    iexact Has07_pay1
  ihave Hrow1 : ((mineSl 1).view.loc ((2 : Dev nD) : Thread nD τ) ↦[(mineSl 1).view.set]{fullShare} mineOf (xOf m 2)) $$ [Has10_pay1 Has11_pay1 Hm1_2 Has13_pay1 Has14_pay1 Has15_pay1 Has16_pay1 Has17_pay1]
  · iapply (row_rejoin (F := F) (2 : Dev nD) 1 (xOf m 2))
    isplitl [Has10_pay1]; · iexact Has10_pay1
    isplitl [Has11_pay1]; · iexact Has11_pay1
    isplitl [Hm1_2]; · iexact Hm1_2
    isplitl [Has13_pay1]; · iexact Has13_pay1
    isplitl [Has14_pay1]; · iexact Has14_pay1
    isplitl [Has15_pay1]; · iexact Has15_pay1
    isplitl [Has16_pay1]; · iexact Has16_pay1
    iexact Has17_pay1
  ihave Hmine := (mine_join (F := F) (2 : Dev nD) (mineOf (xOf m 2))) $$ [Hrow0 Hrow1]
  · isplitl [Hrow0]; · iexact Hrow0
    iexact Hrow1
  ihave Hcomm := (halves_join (F := F) (2 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((2 : Dev nD) : Thread nD τ) ↦[(oM : Memref sig .tc .vmem S1024x1024 .bf16).view.set]{fullShare} outOf (fun q => xOf m q) 2) $$ [Ho]
  · have hT : body_2.sl.r_2 m = oTop (fun q => xOf m q) (2 : Dev nD) := by
      sl_unfold_run_names
      exact congrArg₂ k0_pay10 rfl (readCov_top _ _ _)
    have hB : k0_pay13 (body_2.sl.r_3 m) k0_pay12 (body_2.sl.v183 m) = oBot (fun q => xOf m q) (2 : Dev nD) := by
      sl_unfold_run_names
      exact congrArg₂ (fun a b => k0_pay13 (k0_pay11 a) k0_pay12 b) rfl (readCov_bot _ _ _ _)
    iapply (out_settle (F := F) m (2 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.KernelIdeal.Sm

end
-- ==== Proof.Body3.lean ====
/-
  The kernel body on device 3, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.BodyWrap
import proofs.«901053_g7700000000001054_dist_softmax_colshard_i_m1024_n1024_v7x_i8_bf16_1_alg».proof.Proof.BodyPieces
import proofs.«901053_g7700000000001054_dist_softmax_colshard_i_m1024_n1024_v7x_i8_bf16_1_alg».proof.Proof.OpenKit
import proofs.«901053_g7700000000001054_dist_softmax_colshard_i_m1024_n1024_v7x_i8_bf16_1_alg».proof.Proof.Canon
import proofs.«901053_g7700000000001054_dist_softmax_colshard_i_m1024_n1024_v7x_i8_bf16_1_alg».proof.Proof.SendRule
import proofs.«901053_g7700000000001054_dist_softmax_colshard_i_m1024_n1024_v7x_i8_bf16_1_alg».proof.Proof.BodyEnd
import proofs.«901053_g7700000000001054_dist_softmax_colshard_i_m1024_n1024_v7x_i8_bf16_1_alg».proof.Proof.Glue3
import proofs.«901053_g7700000000001054_dist_softmax_colshard_i_m1024_n1024_v7x_i8_bf16_1_alg».proof.Proof.OutFinal

noncomputable section

namespace Cert.KernelIdeal.Sm

set_option maxRecDepth 8000

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_3 (K : Dev nD × Fin 33 → ℕ) (W : Waits sig Unit) (Kt : PUnit → sProp 𝕄) :
    iprop(bodyPreE m K 3 W ∗ (bodyPostE m 3 -∗ Kt ⟨⟩))
      ⊢ wp frame (wpE (defs₀ (F := F)) 𝒱₀ ((3 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((3 : Dev nD) : Thread nD τ) (.reg barS) () (recvOwed 3) := mayWait_recvOwed 3
  -- the precondition taken apart
  unfold bodyPreE ghost linear creds scratches
  rw [erase_chain_3, erase_chain_3, pos_chain, O₀_chain_3]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb2, Htr20, Htr21, Hts02, Hts12⟩, ⟨Htb4, Htr40, Htr41, Hts04, Hts14⟩, ⟨Htb5, Htr50, Htr51, Hts05, Hts15⟩, ⟨Htb6, Htr60, Htr61, Hts06, Hts16⟩, ⟨Htb7, Htr70, Htr71, Hts07, Hts17⟩⟩⟩,
    ⟨Hcb, ⟨Hcv00, Hcv10⟩, ⟨Hcv01, Hcv11⟩, ⟨Hcv02, Hcv12⟩, ⟨Hcv04, Hcv14⟩, ⟨Hcv05, Hcv15⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 3 f0) $$ Hm
  icases Hm' with ⟨Hm0, Hm1⟩
  ihave Hc' := (comm_split_ex (F := F) 3) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 3) $$ HR
  ihave #HIr01 := (inv_recv m K 0 1 3) $$ HR
  ihave #HIr10 := (inv_recv m K 1 0 3) $$ HR
  ihave #HIr11 := (inv_recv m K 1 1 3) $$ HR
  ihave #HIr20 := (inv_recv m K 2 0 3) $$ HR
  ihave #HIr21 := (inv_recv m K 2 1 3) $$ HR
  ihave #HIr40 := (inv_recv m K 4 0 3) $$ HR
  ihave #HIr41 := (inv_recv m K 4 1 3) $$ HR
  ihave #HIr50 := (inv_recv m K 5 0 3) $$ HR
  ihave #HIr51 := (inv_recv m K 5 1 3) $$ HR
  ihave #HIr60 := (inv_recv m K 6 0 3) $$ HR
  ihave #HIr61 := (inv_recv m K 6 1 3) $$ HR
  ihave #HIr70 := (inv_recv m K 7 0 3) $$ HR
  ihave #HIr71 := (inv_recv m K 7 1 3) $$ HR
  ihave #HIs00 := (inv_send m K 3 0 0) $$ HR
  ihave #HIs01 := (inv_send m K 3 0 1) $$ HR
  ihave #HIs02 := (inv_send m K 3 0 2) $$ HR
  ihave #HIs04 := (inv_send m K 3 0 4) $$ HR
  ihave #HIs05 := (inv_send m K 3 0 5) $$ HR
  ihave #HIs06 := (inv_send m K 3 0 6) $$ HR
  ihave #HIs07 := (inv_send m K 3 0 7) $$ HR
  ihave #HIs10 := (inv_send m K 3 1 0) $$ HR
  ihave #HIs11 := (inv_send m K 3 1 1) $$ HR
  ihave #HIs12 := (inv_send m K 3 1 2) $$ HR
  ihave #HIs14 := (inv_send m K 3 1 4) $$ HR
  ihave #HIs15 := (inv_send m K 3 1 5) $$ HR
  ihave #HIs16 := (inv_send m K 3 1 6) $$ HR
  ihave #HIs17 := (inv_send m K 3 1 7) $$ HR
  ihave #HIv00 := (inv_recv m K 3 0 0) $$ HR
  ihave #HIv01 := (inv_recv m K 3 0 1) $$ HR
  ihave #HIv02 := (inv_recv m K 3 0 2) $$ HR
  ihave #HIv04 := (inv_recv m K 3 0 4) $$ HR
  ihave #HIv05 := (inv_recv m K 3 0 5) $$ HR
  ihave #HIv06 := (inv_recv m K 3 0 6) $$ HR
  ihave #HIv07 := (inv_recv m K 3 0 7) $$ HR
  ihave #HIv10 := (inv_recv m K 3 1 0) $$ HR
  ihave #HIv11 := (inv_recv m K 3 1 1) $$ HR
  ihave #HIv12 := (inv_recv m K 3 1 2) $$ HR
  ihave #HIv14 := (inv_recv m K 3 1 4) $$ HR
  ihave #HIv15 := (inv_recv m K 3 1 5) $$ HR
  ihave #HIv16 := (inv_recv m K 3 1 6) $$ HR
  ihave #HIv17 := (inv_recv m K 3 1 7) $$ HR
  ihave #Hrb0 := (reached_bar m K 0) $$ HR
  ihave #Hrb1 := (reached_bar m K 1) $$ HR
  ihave #Hrb2 := (reached_bar m K 2) $$ HR
  ihave #Hrb4 := (reached_bar m K 4) $$ HR
  ihave #Hrb5 := (reached_bar m K 5) $$ HR
  ihave #Hrb6 := (reached_bar m K 6) $$ HR
  ihave #Hrb7 := (reached_bar m K 7) $$ HR
  ihave #Hrr00 := (reached_recv m K 0 0 3) $$ HR
  ihave #Hrr01 := (reached_recv m K 0 1 3) $$ HR
  ihave #Hrr10 := (reached_recv m K 1 0 3) $$ HR
  ihave #Hrr11 := (reached_recv m K 1 1 3) $$ HR
  ihave #Hrr20 := (reached_recv m K 2 0 3) $$ HR
  ihave #Hrr21 := (reached_recv m K 2 1 3) $$ HR
  ihave #Hrr40 := (reached_recv m K 4 0 3) $$ HR
  ihave #Hrr41 := (reached_recv m K 4 1 3) $$ HR
  ihave #Hrr50 := (reached_recv m K 5 0 3) $$ HR
  ihave #Hrr51 := (reached_recv m K 5 1 3) $$ HR
  ihave #Hrr60 := (reached_recv m K 6 0 3) $$ HR
  ihave #Hrr61 := (reached_recv m K 6 1 3) $$ HR
  ihave #Hrr70 := (reached_recv m K 7 0 3) $$ HR
  ihave #Hrr71 := (reached_recv m K 7 1 3) $$ HR
  ihave #Hrs00 := (reached_send m K 3 0 0) $$ HR
  ihave #Hrs01 := (reached_send m K 3 0 1) $$ HR
  ihave #Hrs02 := (reached_send m K 3 0 2) $$ HR
  ihave #Hrs04 := (reached_send m K 3 0 4) $$ HR
  ihave #Hrs05 := (reached_send m K 3 0 5) $$ HR
  ihave #Hrs06 := (reached_send m K 3 0 6) $$ HR
  ihave #Hrs07 := (reached_send m K 3 0 7) $$ HR
  ihave #Hrs10 := (reached_send m K 3 1 0) $$ HR
  ihave #Hrs11 := (reached_send m K 3 1 1) $$ HR
  ihave #Hrs12 := (reached_send m K 3 1 2) $$ HR
  ihave #Hrs14 := (reached_send m K 3 1 4) $$ HR
  ihave #Hrs15 := (reached_send m K 3 1 5) $$ HR
  ihave #Hrs16 := (reached_send m K 3 1 6) $$ HR
  ihave #Hrs17 := (reached_send m K 3 1 7) $$ HR
  -- the diagonal cells' invariants (never used by a copy; closed at the end)
  ihave #HIs03 := (inv_send m K 3 0 3) $$ HR
  ihave #HIs13 := (inv_send m K 3 1 3) $$ HR
  ihave #HIv03 := (inv_recv m K 3 0 3) $$ HR
  ihave #HIv13 := (inv_recv m K 3 1 3) $$ HR
  iclear HR
  rw [cc0_body_eq_skeleton]; unfold cc0_body_skel
  -- the device's own two slots of its table, at their contents
  icases Hc30 with ⟨%fc0, Hc30⟩
  icases Hc31 with ⟨%fc1, Hc31⟩
  -- the seven barrier units, the first half's exponentials and row sums, the barrier wait
  sl_exec_parts
  -- what the barrier brought: the peers' slots for this device; what is still owed, in paying order; the first row in shares
  ihave HO := (owes_pay_3 (F := F) _) $$ HO
  ihave Hp := (Entails.of_eq (erase_chain_3 _)) $$ Hab_pay1
  icases Hp with ⟨⟨⟨%fd00, Hd00⟩, ⟨%fd01, Hd01⟩⟩, ⟨⟨%fd10, Hd10⟩, ⟨%fd11, Hd11⟩⟩, ⟨⟨%fd20, Hd20⟩, ⟨%fd21, Hd21⟩⟩, ⟨⟨%fd40, Hd40⟩, ⟨%fd41, Hd41⟩⟩, ⟨⟨%fd50, Hd50⟩, ⟨%fd51, Hd51⟩⟩, ⟨⟨%fd60, Hd60⟩, ⟨%fd61, Hd61⟩⟩, ⟨⟨%fd70, Hd70⟩, ⟨%fd71, Hd71⟩⟩⟩
  ihave Hm0s : iprop(((mineSl 0).view.loc ((3 : Dev nD) : Thread nD τ) ↦[(mineSl 0).view.set]{shr 0} mineOf (xOf m 3)) ∗ ((mineSl 0).view.loc ((3 : Dev nD) : Thread nD τ) ↦[(mineSl 0).view.set]{shr 1} mineOf (xOf m 3)) ∗ ((mineSl 0).view.loc ((3 : Dev nD) : Thread nD τ) ↦[(mineSl 0).view.set]{shr 2} mineOf (xOf m 3)) ∗ ((mineSl 0).view.loc ((3 : Dev nD) : Thread nD τ) ↦[(mineSl 0).view.set]{shr 3} mineOf (xOf m 3)) ∗ ((mineSl 0).view.loc ((3 : Dev nD) : Thread nD τ) ↦[(mineSl 0).view.set]{shr 4} mineOf (xOf m 3)) ∗ ((mineSl 0).view.loc ((3 : Dev nD) : Thread nD τ) ↦[(mineSl 0).view.set]{shr 5} mineOf (xOf m 3)) ∗ ((mineSl 0).view.loc ((3 : Dev nD) : Thread nD τ) ↦[(mineSl 0).view.set]{shr 6} mineOf (xOf m 3)) ∗ ((mineSl 0).view.loc ((3 : Dev nD) : Thread nD τ) ↦[(mineSl 0).view.set]{shr 7} mineOf (xOf m 3))) $$ [Hm0]
  · iapply (row0_shares (F := F) (3 : Dev nD) (xOf m 3) f0); iexact Hm0
  icases Hm0s with ⟨Hm0_0, Hm0_1, Hm0_2, Hm0_3, Hm0_4, Hm0_5, Hm0_6, Hm0_7⟩
  -- the seven copies of the first row
  iapply (wp_send_slot m _ _ 3 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 3 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 3 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 3 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 3 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 3 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 3 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((3 : Dev nD) : Thread nD τ) ↦[(mineSl 1).view.set]{shr 0} mineOf (xOf m 3)) ∗ ((mineSl 1).view.loc ((3 : Dev nD) : Thread nD τ) ↦[(mineSl 1).view.set]{shr 1} mineOf (xOf m 3)) ∗ ((mineSl 1).view.loc ((3 : Dev nD) : Thread nD τ) ↦[(mineSl 1).view.set]{shr 2} mineOf (xOf m 3)) ∗ ((mineSl 1).view.loc ((3 : Dev nD) : Thread nD τ) ↦[(mineSl 1).view.set]{shr 3} mineOf (xOf m 3)) ∗ ((mineSl 1).view.loc ((3 : Dev nD) : Thread nD τ) ↦[(mineSl 1).view.set]{shr 4} mineOf (xOf m 3)) ∗ ((mineSl 1).view.loc ((3 : Dev nD) : Thread nD τ) ↦[(mineSl 1).view.set]{shr 5} mineOf (xOf m 3)) ∗ ((mineSl 1).view.loc ((3 : Dev nD) : Thread nD τ) ↦[(mineSl 1).view.set]{shr 6} mineOf (xOf m 3)) ∗ ((mineSl 1).view.loc ((3 : Dev nD) : Thread nD τ) ↦[(mineSl 1).view.set]{shr 7} mineOf (xOf m 3))) $$ [Hm1]
  · iapply (row1_shares (F := F) (3 : Dev nD) (xOf m 3) f0); iexact Hm1
  icases Hm1s with ⟨Hm1_0, Hm1_1, Hm1_2, Hm1_3, Hm1_4, Hm1_5, Hm1_6, Hm1_7⟩
  iapply (wp_send_slot m _ _ 3 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 3 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 3 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 3 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 3 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  iapply (wp_send_slot m _ _ 3 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (3 : Dev nD) _ _) $$ HO
  iapply (wp_send_slot m _ _ 3 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 3 0).view.loc ((3 : Dev nD) : Thread nD τ) ↦[(commSl 3 0).view.set]{fullShare} commOf (Xs m)) $$ [Hc30]
  · iapply (own_slot0 (F := F) m (3 : Dev nD) fc0 _); iexact Hc30
  ihave Hh0 : ((halfM 0).view.loc ((3 : Dev nD) : Thread nD τ) ↦[(halfM 0).view.set]{fullShare} commOf (Xs m)) $$ [Hav00_pay1 Hav01_pay1 Hav02_pay1 Hown0 Hav04_pay1 Hav05_pay1 Hav06_pay1 Hav07_pay1]
  · iapply (half_join (F := F) (3 : Dev nD) 0 (commOf (Xs m)))
    isplitl [Hav00_pay1]; · iexact Hav00_pay1
    isplitl [Hav01_pay1]; · iexact Hav01_pay1
    isplitl [Hav02_pay1]; · iexact Hav02_pay1
    isplitl [Hown0]; · iexact Hown0
    isplitl [Hav04_pay1]; · iexact Hav04_pay1
    isplitl [Hav05_pay1]; · iexact Hav05_pay1
    isplitl [Hav06_pay1]; · iexact Hav06_pay1
    iexact Hav07_pay1
  have hsub0a := half_access_sub0
  have hsub0b := half_setOn_sub0
  sl_exec_parts
  -- the second half likewise; then the departures' waits
  ihave Hown1 : ((commSl 3 1).view.loc ((3 : Dev nD) : Thread nD τ) ↦[(commSl 3 1).view.set]{fullShare} commOf (Xs m)) $$ [Hc31]
  · iapply (own_slot1 (F := F) m (3 : Dev nD) fc1 _); iexact Hc31
  ihave Hh1 : ((halfM 1).view.loc ((3 : Dev nD) : Thread nD τ) ↦[(halfM 1).view.set]{fullShare} commOf (Xs m)) $$ [Hav10_pay1 Hav11_pay1 Hav12_pay1 Hown1 Hav14_pay1 Hav15_pay1 Hav16_pay1 Hav17_pay1]
  · iapply (half_join (F := F) (3 : Dev nD) 1 (commOf (Xs m)))
    isplitl [Hav10_pay1]; · iexact Hav10_pay1
    isplitl [Hav11_pay1]; · iexact Hav11_pay1
    isplitl [Hav12_pay1]; · iexact Hav12_pay1
    isplitl [Hown1]; · iexact Hown1
    isplitl [Hav14_pay1]; · iexact Hav14_pay1
    isplitl [Hav15_pay1]; · iexact Hav15_pay1
    isplitl [Hav16_pay1]; · iexact Hav16_pay1
    iexact Hav17_pay1
  have hsub1a := half_access_sub1
  have hsub1b := half_setOn_sub1
  sl_exec_parts
  -- the cells closed
  imod (close_send m _ 3 0 0 1 (.inr le_rfl)) $$ [Has00] with Hzs00
  · isplitr; · iexact HIs00
    iexact Has00
  imod (close_send m _ 3 0 1 1 (.inr le_rfl)) $$ [Has01] with Hzs01
  · isplitr; · iexact HIs01
    iexact Has01
  imod (close_send m _ 3 0 2 1 (.inr le_rfl)) $$ [Has02] with Hzs02
  · isplitr; · iexact HIs02
    iexact Has02
  imod (close_send m _ 3 0 3 0 (.inl rfl)) $$ [Has03] with Hzs03
  · isplitr; · iexact HIs03
    iexact Has03
  imod (close_send m _ 3 0 4 1 (.inr le_rfl)) $$ [Has04] with Hzs04
  · isplitr; · iexact HIs04
    iexact Has04
  imod (close_send m _ 3 0 5 1 (.inr le_rfl)) $$ [Has05] with Hzs05
  · isplitr; · iexact HIs05
    iexact Has05
  imod (close_send m _ 3 0 6 1 (.inr le_rfl)) $$ [Has06] with Hzs06
  · isplitr; · iexact HIs06
    iexact Has06
  imod (close_send m _ 3 0 7 1 (.inr le_rfl)) $$ [Has07] with Hzs07
  · isplitr; · iexact HIs07
    iexact Has07
  imod (close_send m _ 3 1 0 1 (.inr le_rfl)) $$ [Has10] with Hzs10
  · isplitr; · iexact HIs10
    iexact Has10
  imod (close_send m _ 3 1 1 1 (.inr le_rfl)) $$ [Has11] with Hzs11
  · isplitr; · iexact HIs11
    iexact Has11
  imod (close_send m _ 3 1 2 1 (.inr le_rfl)) $$ [Has12] with Hzs12
  · isplitr; · iexact HIs12
    iexact Has12
  imod (close_send m _ 3 1 3 0 (.inl rfl)) $$ [Has13] with Hzs13
  · isplitr; · iexact HIs13
    iexact Has13
  imod (close_send m _ 3 1 4 1 (.inr le_rfl)) $$ [Has14] with Hzs14
  · isplitr; · iexact HIs14
    iexact Has14
  imod (close_send m _ 3 1 5 1 (.inr le_rfl)) $$ [Has15] with Hzs15
  · isplitr; · iexact HIs15
    iexact Has15
  imod (close_send m _ 3 1 6 1 (.inr le_rfl)) $$ [Has16] with Hzs16
  · isplitr; · iexact HIs16
    iexact Has16
  imod (close_send m _ 3 1 7 1 (.inr le_rfl)) $$ [Has17] with Hzs17
  · isplitr; · iexact HIs17
    iexact Has17
  imod (close_recv m _ 3 0 0 1 (.inr le_rfl)) $$ [Hav00] with Hzv00
  · isplitr; · iexact HIv00
    iexact Hav00
  imod (close_recv m _ 3 0 1 1 (.inr le_rfl)) $$ [Hav01] with Hzv01
  · isplitr; · iexact HIv01
    iexact Hav01
  imod (close_recv m _ 3 0 2 1 (.inr le_rfl)) $$ [Hav02] with Hzv02
  · isplitr; · iexact HIv02
    iexact Hav02
  imod (close_recv m _ 3 0 3 0 (.inl rfl)) $$ [Hav03] with Hzv03
  · isplitr; · iexact HIv03
    iexact Hav03
  imod (close_recv m _ 3 0 4 1 (.inr le_rfl)) $$ [Hav04] with Hzv04
  · isplitr; · iexact HIv04
    iexact Hav04
  imod (close_recv m _ 3 0 5 1 (.inr le_rfl)) $$ [Hav05] with Hzv05
  · isplitr; · iexact HIv05
    iexact Hav05
  imod (close_recv m _ 3 0 6 1 (.inr le_rfl)) $$ [Hav06] with Hzv06
  · isplitr; · iexact HIv06
    iexact Hav06
  imod (close_recv m _ 3 0 7 1 (.inr le_rfl)) $$ [Hav07] with Hzv07
  · isplitr; · iexact HIv07
    iexact Hav07
  imod (close_recv m _ 3 1 0 1 (.inr le_rfl)) $$ [Hav10] with Hzv10
  · isplitr; · iexact HIv10
    iexact Hav10
  imod (close_recv m _ 3 1 1 1 (.inr le_rfl)) $$ [Hav11] with Hzv11
  · isplitr; · iexact HIv11
    iexact Hav11
  imod (close_recv m _ 3 1 2 1 (.inr le_rfl)) $$ [Hav12] with Hzv12
  · isplitr; · iexact HIv12
    iexact Hav12
  imod (close_recv m _ 3 1 3 0 (.inl rfl)) $$ [Hav13] with Hzv13
  · isplitr; · iexact HIv13
    iexact Hav13
  imod (close_recv m _ 3 1 4 1 (.inr le_rfl)) $$ [Hav14] with Hzv14
  · isplitr; · iexact HIv14
    iexact Hav14
  imod (close_recv m _ 3 1 5 1 (.inr le_rfl)) $$ [Hav15] with Hzv15
  · isplitr; · iexact HIv15
    iexact Hav15
  imod (close_recv m _ 3 1 6 1 (.inr le_rfl)) $$ [Hav16] with Hzv16
  · isplitr; · iexact HIv16
    iexact Hav16
  imod (close_recv m _ 3 1 7 1 (.inr le_rfl)) $$ [Hav17] with Hzv17
  · isplitr; · iexact HIv17
    iexact Hav17
  -- the two tables whole again
  ihave Hrow0 : ((mineSl 0).view.loc ((3 : Dev nD) : Thread nD τ) ↦[(mineSl 0).view.set]{fullShare} mineOf (xOf m 3)) $$ [Has00_pay1 Has01_pay1 Has02_pay1 Hm0_3 Has04_pay1 Has05_pay1 Has06_pay1 Has07_pay1]
  · iapply (row_rejoin (F := F) (3 : Dev nD) 0 (xOf m 3))
    isplitl [Has00_pay1]; · iexact Has00_pay1
    isplitl [Has01_pay1]; · iexact Has01_pay1
    isplitl [Has02_pay1]; · iexact Has02_pay1
    isplitl [Hm0_3]; · iexact Hm0_3
    isplitl [Has04_pay1]; · iexact Has04_pay1
    isplitl [Has05_pay1]; · iexact Has05_pay1
    isplitl [Has06_pay1]; · iexact Has06_pay1
    iexact Has07_pay1
  ihave Hrow1 : ((mineSl 1).view.loc ((3 : Dev nD) : Thread nD τ) ↦[(mineSl 1).view.set]{fullShare} mineOf (xOf m 3)) $$ [Has10_pay1 Has11_pay1 Has12_pay1 Hm1_3 Has14_pay1 Has15_pay1 Has16_pay1 Has17_pay1]
  · iapply (row_rejoin (F := F) (3 : Dev nD) 1 (xOf m 3))
    isplitl [Has10_pay1]; · iexact Has10_pay1
    isplitl [Has11_pay1]; · iexact Has11_pay1
    isplitl [Has12_pay1]; · iexact Has12_pay1
    isplitl [Hm1_3]; · iexact Hm1_3
    isplitl [Has14_pay1]; · iexact Has14_pay1
    isplitl [Has15_pay1]; · iexact Has15_pay1
    isplitl [Has16_pay1]; · iexact Has16_pay1
    iexact Has17_pay1
  ihave Hmine := (mine_join (F := F) (3 : Dev nD) (mineOf (xOf m 3))) $$ [Hrow0 Hrow1]
  · isplitl [Hrow0]; · iexact Hrow0
    iexact Hrow1
  ihave Hcomm := (halves_join (F := F) (3 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((3 : Dev nD) : Thread nD τ) ↦[(oM : Memref sig .tc .vmem S1024x1024 .bf16).view.set]{fullShare} outOf (fun q => xOf m q) 3) $$ [Ho]
  · have hT : body_3.sl.r_2 m = oTop (fun q => xOf m q) (3 : Dev nD) := by
      sl_unfold_run_names
      exact congrArg₂ k0_pay10 rfl (readCov_top _ _ _)
    have hB : k0_pay13 (body_3.sl.r_3 m) k0_pay12 (body_3.sl.v183 m) = oBot (fun q => xOf m q) (3 : Dev nD) := by
      sl_unfold_run_names
      exact congrArg₂ (fun a b => k0_pay13 (k0_pay11 a) k0_pay12 b) rfl (readCov_bot _ _ _ _)
    iapply (out_settle (F := F) m (3 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.KernelIdeal.Sm

end
-- ==== Proof.Body4.lean ====
/-
  The kernel body on device 4, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.BodyWrap
import proofs.«901053_g7700000000001054_dist_softmax_colshard_i_m1024_n1024_v7x_i8_bf16_1_alg».proof.Proof.BodyPieces
import proofs.«901053_g7700000000001054_dist_softmax_colshard_i_m1024_n1024_v7x_i8_bf16_1_alg».proof.Proof.OpenKit
import proofs.«901053_g7700000000001054_dist_softmax_colshard_i_m1024_n1024_v7x_i8_bf16_1_alg».proof.Proof.Canon
import proofs.«901053_g7700000000001054_dist_softmax_colshard_i_m1024_n1024_v7x_i8_bf16_1_alg».proof.Proof.SendRule
import proofs.«901053_g7700000000001054_dist_softmax_colshard_i_m1024_n1024_v7x_i8_bf16_1_alg».proof.Proof.BodyEnd
import proofs.«901053_g7700000000001054_dist_softmax_colshard_i_m1024_n1024_v7x_i8_bf16_1_alg».proof.Proof.Glue3
import proofs.«901053_g7700000000001054_dist_softmax_colshard_i_m1024_n1024_v7x_i8_bf16_1_alg».proof.Proof.OutFinal

noncomputable section

namespace Cert.KernelIdeal.Sm

set_option maxRecDepth 8000

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_4 (K : Dev nD × Fin 33 → ℕ) (W : Waits sig Unit) (Kt : PUnit → sProp 𝕄) :
    iprop(bodyPreE m K 4 W ∗ (bodyPostE m 4 -∗ Kt ⟨⟩))
      ⊢ wp frame (wpE (defs₀ (F := F)) 𝒱₀ ((4 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((4 : Dev nD) : Thread nD τ) (.reg barS) () (recvOwed 4) := mayWait_recvOwed 4
  -- the precondition taken apart
  unfold bodyPreE ghost linear creds scratches
  rw [erase_chain_4, erase_chain_4, pos_chain, O₀_chain_4]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb2, Htr20, Htr21, Hts02, Hts12⟩, ⟨Htb3, Htr30, Htr31, Hts03, Hts13⟩, ⟨Htb5, Htr50, Htr51, Hts05, Hts15⟩, ⟨Htb6, Htr60, Htr61, Hts06, Hts16⟩, ⟨Htb7, Htr70, Htr71, Hts07, Hts17⟩⟩⟩,
    ⟨Hcb, ⟨Hcv00, Hcv10⟩, ⟨Hcv01, Hcv11⟩, ⟨Hcv02, Hcv12⟩, ⟨Hcv03, Hcv13⟩, ⟨Hcv05, Hcv15⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 4 f0) $$ Hm
  icases Hm' with ⟨Hm0, Hm1⟩
  ihave Hc' := (comm_split_ex (F := F) 4) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 4) $$ HR
  ihave #HIr01 := (inv_recv m K 0 1 4) $$ HR
  ihave #HIr10 := (inv_recv m K 1 0 4) $$ HR
  ihave #HIr11 := (inv_recv m K 1 1 4) $$ HR
  ihave #HIr20 := (inv_recv m K 2 0 4) $$ HR
  ihave #HIr21 := (inv_recv m K 2 1 4) $$ HR
  ihave #HIr30 := (inv_recv m K 3 0 4) $$ HR
  ihave #HIr31 := (inv_recv m K 3 1 4) $$ HR
  ihave #HIr50 := (inv_recv m K 5 0 4) $$ HR
  ihave #HIr51 := (inv_recv m K 5 1 4) $$ HR
  ihave #HIr60 := (inv_recv m K 6 0 4) $$ HR
  ihave #HIr61 := (inv_recv m K 6 1 4) $$ HR
  ihave #HIr70 := (inv_recv m K 7 0 4) $$ HR
  ihave #HIr71 := (inv_recv m K 7 1 4) $$ HR
  ihave #HIs00 := (inv_send m K 4 0 0) $$ HR
  ihave #HIs01 := (inv_send m K 4 0 1) $$ HR
  ihave #HIs02 := (inv_send m K 4 0 2) $$ HR
  ihave #HIs03 := (inv_send m K 4 0 3) $$ HR
  ihave #HIs05 := (inv_send m K 4 0 5) $$ HR
  ihave #HIs06 := (inv_send m K 4 0 6) $$ HR
  ihave #HIs07 := (inv_send m K 4 0 7) $$ HR
  ihave #HIs10 := (inv_send m K 4 1 0) $$ HR
  ihave #HIs11 := (inv_send m K 4 1 1) $$ HR
  ihave #HIs12 := (inv_send m K 4 1 2) $$ HR
  ihave #HIs13 := (inv_send m K 4 1 3) $$ HR
  ihave #HIs15 := (inv_send m K 4 1 5) $$ HR
  ihave #HIs16 := (inv_send m K 4 1 6) $$ HR
  ihave #HIs17 := (inv_send m K 4 1 7) $$ HR
  ihave #HIv00 := (inv_recv m K 4 0 0) $$ HR
  ihave #HIv01 := (inv_recv m K 4 0 1) $$ HR
  ihave #HIv02 := (inv_recv m K 4 0 2) $$ HR
  ihave #HIv03 := (inv_recv m K 4 0 3) $$ HR
  ihave #HIv05 := (inv_recv m K 4 0 5) $$ HR
  ihave #HIv06 := (inv_recv m K 4 0 6) $$ HR
  ihave #HIv07 := (inv_recv m K 4 0 7) $$ HR
  ihave #HIv10 := (inv_recv m K 4 1 0) $$ HR
  ihave #HIv11 := (inv_recv m K 4 1 1) $$ HR
  ihave #HIv12 := (inv_recv m K 4 1 2) $$ HR
  ihave #HIv13 := (inv_recv m K 4 1 3) $$ HR
  ihave #HIv15 := (inv_recv m K 4 1 5) $$ HR
  ihave #HIv16 := (inv_recv m K 4 1 6) $$ HR
  ihave #HIv17 := (inv_recv m K 4 1 7) $$ HR
  ihave #Hrb0 := (reached_bar m K 0) $$ HR
  ihave #Hrb1 := (reached_bar m K 1) $$ HR
  ihave #Hrb2 := (reached_bar m K 2) $$ HR
  ihave #Hrb3 := (reached_bar m K 3) $$ HR
  ihave #Hrb5 := (reached_bar m K 5) $$ HR
  ihave #Hrb6 := (reached_bar m K 6) $$ HR
  ihave #Hrb7 := (reached_bar m K 7) $$ HR
  ihave #Hrr00 := (reached_recv m K 0 0 4) $$ HR
  ihave #Hrr01 := (reached_recv m K 0 1 4) $$ HR
  ihave #Hrr10 := (reached_recv m K 1 0 4) $$ HR
  ihave #Hrr11 := (reached_recv m K 1 1 4) $$ HR
  ihave #Hrr20 := (reached_recv m K 2 0 4) $$ HR
  ihave #Hrr21 := (reached_recv m K 2 1 4) $$ HR
  ihave #Hrr30 := (reached_recv m K 3 0 4) $$ HR
  ihave #Hrr31 := (reached_recv m K 3 1 4) $$ HR
  ihave #Hrr50 := (reached_recv m K 5 0 4) $$ HR
  ihave #Hrr51 := (reached_recv m K 5 1 4) $$ HR
  ihave #Hrr60 := (reached_recv m K 6 0 4) $$ HR
  ihave #Hrr61 := (reached_recv m K 6 1 4) $$ HR
  ihave #Hrr70 := (reached_recv m K 7 0 4) $$ HR
  ihave #Hrr71 := (reached_recv m K 7 1 4) $$ HR
  ihave #Hrs00 := (reached_send m K 4 0 0) $$ HR
  ihave #Hrs01 := (reached_send m K 4 0 1) $$ HR
  ihave #Hrs02 := (reached_send m K 4 0 2) $$ HR
  ihave #Hrs03 := (reached_send m K 4 0 3) $$ HR
  ihave #Hrs05 := (reached_send m K 4 0 5) $$ HR
  ihave #Hrs06 := (reached_send m K 4 0 6) $$ HR
  ihave #Hrs07 := (reached_send m K 4 0 7) $$ HR
  ihave #Hrs10 := (reached_send m K 4 1 0) $$ HR
  ihave #Hrs11 := (reached_send m K 4 1 1) $$ HR
  ihave #Hrs12 := (reached_send m K 4 1 2) $$ HR
  ihave #Hrs13 := (reached_send m K 4 1 3) $$ HR
  ihave #Hrs15 := (reached_send m K 4 1 5) $$ HR
  ihave #Hrs16 := (reached_send m K 4 1 6) $$ HR
  ihave #Hrs17 := (reached_send m K 4 1 7) $$ HR
  -- the diagonal cells' invariants (never used by a copy; closed at the end)
  ihave #HIs04 := (inv_send m K 4 0 4) $$ HR
  ihave #HIs14 := (inv_send m K 4 1 4) $$ HR
  ihave #HIv04 := (inv_recv m K 4 0 4) $$ HR
  ihave #HIv14 := (inv_recv m K 4 1 4) $$ HR
  iclear HR
  rw [cc0_body_eq_skeleton]; unfold cc0_body_skel
  -- the device's own two slots of its table, at their contents
  icases Hc40 with ⟨%fc0, Hc40⟩
  icases Hc41 with ⟨%fc1, Hc41⟩
  -- the seven barrier units, the first half's exponentials and row sums, the barrier wait
  sl_exec_parts
  -- what the barrier brought: the peers' slots for this device; what is still owed, in paying order; the first row in shares
  ihave HO := (owes_pay_4 (F := F) _) $$ HO
  ihave Hp := (Entails.of_eq (erase_chain_4 _)) $$ Hab_pay1
  icases Hp with ⟨⟨⟨%fd00, Hd00⟩, ⟨%fd01, Hd01⟩⟩, ⟨⟨%fd10, Hd10⟩, ⟨%fd11, Hd11⟩⟩, ⟨⟨%fd20, Hd20⟩, ⟨%fd21, Hd21⟩⟩, ⟨⟨%fd30, Hd30⟩, ⟨%fd31, Hd31⟩⟩, ⟨⟨%fd50, Hd50⟩, ⟨%fd51, Hd51⟩⟩, ⟨⟨%fd60, Hd60⟩, ⟨%fd61, Hd61⟩⟩, ⟨⟨%fd70, Hd70⟩, ⟨%fd71, Hd71⟩⟩⟩
  ihave Hm0s : iprop(((mineSl 0).view.loc ((4 : Dev nD) : Thread nD τ) ↦[(mineSl 0).view.set]{shr 0} mineOf (xOf m 4)) ∗ ((mineSl 0).view.loc ((4 : Dev nD) : Thread nD τ) ↦[(mineSl 0).view.set]{shr 1} mineOf (xOf m 4)) ∗ ((mineSl 0).view.loc ((4 : Dev nD) : Thread nD τ) ↦[(mineSl 0).view.set]{shr 2} mineOf (xOf m 4)) ∗ ((mineSl 0).view.loc ((4 : Dev nD) : Thread nD τ) ↦[(mineSl 0).view.set]{shr 3} mineOf (xOf m 4)) ∗ ((mineSl 0).view.loc ((4 : Dev nD) : Thread nD τ) ↦[(mineSl 0).view.set]{shr 4} mineOf (xOf m 4)) ∗ ((mineSl 0).view.loc ((4 : Dev nD) : Thread nD τ) ↦[(mineSl 0).view.set]{shr 5} mineOf (xOf m 4)) ∗ ((mineSl 0).view.loc ((4 : Dev nD) : Thread nD τ) ↦[(mineSl 0).view.set]{shr 6} mineOf (xOf m 4)) ∗ ((mineSl 0).view.loc ((4 : Dev nD) : Thread nD τ) ↦[(mineSl 0).view.set]{shr 7} mineOf (xOf m 4))) $$ [Hm0]
  · iapply (row0_shares (F := F) (4 : Dev nD) (xOf m 4) f0); iexact Hm0
  icases Hm0s with ⟨Hm0_0, Hm0_1, Hm0_2, Hm0_3, Hm0_4, Hm0_5, Hm0_6, Hm0_7⟩
  -- the seven copies of the first row
  iapply (wp_send_slot m _ _ 4 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 4 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 4 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 4 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 4 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 4 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 4 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((4 : Dev nD) : Thread nD τ) ↦[(mineSl 1).view.set]{shr 0} mineOf (xOf m 4)) ∗ ((mineSl 1).view.loc ((4 : Dev nD) : Thread nD τ) ↦[(mineSl 1).view.set]{shr 1} mineOf (xOf m 4)) ∗ ((mineSl 1).view.loc ((4 : Dev nD) : Thread nD τ) ↦[(mineSl 1).view.set]{shr 2} mineOf (xOf m 4)) ∗ ((mineSl 1).view.loc ((4 : Dev nD) : Thread nD τ) ↦[(mineSl 1).view.set]{shr 3} mineOf (xOf m 4)) ∗ ((mineSl 1).view.loc ((4 : Dev nD) : Thread nD τ) ↦[(mineSl 1).view.set]{shr 4} mineOf (xOf m 4)) ∗ ((mineSl 1).view.loc ((4 : Dev nD) : Thread nD τ) ↦[(mineSl 1).view.set]{shr 5} mineOf (xOf m 4)) ∗ ((mineSl 1).view.loc ((4 : Dev nD) : Thread nD τ) ↦[(mineSl 1).view.set]{shr 6} mineOf (xOf m 4)) ∗ ((mineSl 1).view.loc ((4 : Dev nD) : Thread nD τ) ↦[(mineSl 1).view.set]{shr 7} mineOf (xOf m 4))) $$ [Hm1]
  · iapply (row1_shares (F := F) (4 : Dev nD) (xOf m 4) f0); iexact Hm1
  icases Hm1s with ⟨Hm1_0, Hm1_1, Hm1_2, Hm1_3, Hm1_4, Hm1_5, Hm1_6, Hm1_7⟩
  iapply (wp_send_slot m _ _ 4 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 4 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 4 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 4 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 4 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  iapply (wp_send_slot m _ _ 4 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (4 : Dev nD) _ _) $$ HO
  iapply (wp_send_slot m _ _ 4 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 4 0).view.loc ((4 : Dev nD) : Thread nD τ) ↦[(commSl 4 0).view.set]{fullShare} commOf (Xs m)) $$ [Hc40]
  · iapply (own_slot0 (F := F) m (4 : Dev nD) fc0 _); iexact Hc40
  ihave Hh0 : ((halfM 0).view.loc ((4 : Dev nD) : Thread nD τ) ↦[(halfM 0).view.set]{fullShare} commOf (Xs m)) $$ [Hav00_pay1 Hav01_pay1 Hav02_pay1 Hav03_pay1 Hown0 Hav05_pay1 Hav06_pay1 Hav07_pay1]
  · iapply (half_join (F := F) (4 : Dev nD) 0 (commOf (Xs m)))
    isplitl [Hav00_pay1]; · iexact Hav00_pay1
    isplitl [Hav01_pay1]; · iexact Hav01_pay1
    isplitl [Hav02_pay1]; · iexact Hav02_pay1
    isplitl [Hav03_pay1]; · iexact Hav03_pay1
    isplitl [Hown0]; · iexact Hown0
    isplitl [Hav05_pay1]; · iexact Hav05_pay1
    isplitl [Hav06_pay1]; · iexact Hav06_pay1
    iexact Hav07_pay1
  have hsub0a := half_access_sub0
  have hsub0b := half_setOn_sub0
  sl_exec_parts
  -- the second half likewise; then the departures' waits
  ihave Hown1 : ((commSl 4 1).view.loc ((4 : Dev nD) : Thread nD τ) ↦[(commSl 4 1).view.set]{fullShare} commOf (Xs m)) $$ [Hc41]
  · iapply (own_slot1 (F := F) m (4 : Dev nD) fc1 _); iexact Hc41
  ihave Hh1 : ((halfM 1).view.loc ((4 : Dev nD) : Thread nD τ) ↦[(halfM 1).view.set]{fullShare} commOf (Xs m)) $$ [Hav10_pay1 Hav11_pay1 Hav12_pay1 Hav13_pay1 Hown1 Hav15_pay1 Hav16_pay1 Hav17_pay1]
  · iapply (half_join (F := F) (4 : Dev nD) 1 (commOf (Xs m)))
    isplitl [Hav10_pay1]; · iexact Hav10_pay1
    isplitl [Hav11_pay1]; · iexact Hav11_pay1
    isplitl [Hav12_pay1]; · iexact Hav12_pay1
    isplitl [Hav13_pay1]; · iexact Hav13_pay1
    isplitl [Hown1]; · iexact Hown1
    isplitl [Hav15_pay1]; · iexact Hav15_pay1
    isplitl [Hav16_pay1]; · iexact Hav16_pay1
    iexact Hav17_pay1
  have hsub1a := half_access_sub1
  have hsub1b := half_setOn_sub1
  sl_exec_parts
  -- the cells closed
  imod (close_send m _ 4 0 0 1 (.inr le_rfl)) $$ [Has00] with Hzs00
  · isplitr; · iexact HIs00
    iexact Has00
  imod (close_send m _ 4 0 1 1 (.inr le_rfl)) $$ [Has01] with Hzs01
  · isplitr; · iexact HIs01
    iexact Has01
  imod (close_send m _ 4 0 2 1 (.inr le_rfl)) $$ [Has02] with Hzs02
  · isplitr; · iexact HIs02
    iexact Has02
  imod (close_send m _ 4 0 3 1 (.inr le_rfl)) $$ [Has03] with Hzs03
  · isplitr; · iexact HIs03
    iexact Has03
  imod (close_send m _ 4 0 4 0 (.inl rfl)) $$ [Has04] with Hzs04
  · isplitr; · iexact HIs04
    iexact Has04
  imod (close_send m _ 4 0 5 1 (.inr le_rfl)) $$ [Has05] with Hzs05
  · isplitr; · iexact HIs05
    iexact Has05
  imod (close_send m _ 4 0 6 1 (.inr le_rfl)) $$ [Has06] with Hzs06
  · isplitr; · iexact HIs06
    iexact Has06
  imod (close_send m _ 4 0 7 1 (.inr le_rfl)) $$ [Has07] with Hzs07
  · isplitr; · iexact HIs07
    iexact Has07
  imod (close_send m _ 4 1 0 1 (.inr le_rfl)) $$ [Has10] with Hzs10
  · isplitr; · iexact HIs10
    iexact Has10
  imod (close_send m _ 4 1 1 1 (.inr le_rfl)) $$ [Has11] with Hzs11
  · isplitr; · iexact HIs11
    iexact Has11
  imod (close_send m _ 4 1 2 1 (.inr le_rfl)) $$ [Has12] with Hzs12
  · isplitr; · iexact HIs12
    iexact Has12
  imod (close_send m _ 4 1 3 1 (.inr le_rfl)) $$ [Has13] with Hzs13
  · isplitr; · iexact HIs13
    iexact Has13
  imod (close_send m _ 4 1 4 0 (.inl rfl)) $$ [Has14] with Hzs14
  · isplitr; · iexact HIs14
    iexact Has14
  imod (close_send m _ 4 1 5 1 (.inr le_rfl)) $$ [Has15] with Hzs15
  · isplitr; · iexact HIs15
    iexact Has15
  imod (close_send m _ 4 1 6 1 (.inr le_rfl)) $$ [Has16] with Hzs16
  · isplitr; · iexact HIs16
    iexact Has16
  imod (close_send m _ 4 1 7 1 (.inr le_rfl)) $$ [Has17] with Hzs17
  · isplitr; · iexact HIs17
    iexact Has17
  imod (close_recv m _ 4 0 0 1 (.inr le_rfl)) $$ [Hav00] with Hzv00
  · isplitr; · iexact HIv00
    iexact Hav00
  imod (close_recv m _ 4 0 1 1 (.inr le_rfl)) $$ [Hav01] with Hzv01
  · isplitr; · iexact HIv01
    iexact Hav01
  imod (close_recv m _ 4 0 2 1 (.inr le_rfl)) $$ [Hav02] with Hzv02
  · isplitr; · iexact HIv02
    iexact Hav02
  imod (close_recv m _ 4 0 3 1 (.inr le_rfl)) $$ [Hav03] with Hzv03
  · isplitr; · iexact HIv03
    iexact Hav03
  imod (close_recv m _ 4 0 4 0 (.inl rfl)) $$ [Hav04] with Hzv04
  · isplitr; · iexact HIv04
    iexact Hav04
  imod (close_recv m _ 4 0 5 1 (.inr le_rfl)) $$ [Hav05] with Hzv05
  · isplitr; · iexact HIv05
    iexact Hav05
  imod (close_recv m _ 4 0 6 1 (.inr le_rfl)) $$ [Hav06] with Hzv06
  · isplitr; · iexact HIv06
    iexact Hav06
  imod (close_recv m _ 4 0 7 1 (.inr le_rfl)) $$ [Hav07] with Hzv07
  · isplitr; · iexact HIv07
    iexact Hav07
  imod (close_recv m _ 4 1 0 1 (.inr le_rfl)) $$ [Hav10] with Hzv10
  · isplitr; · iexact HIv10
    iexact Hav10
  imod (close_recv m _ 4 1 1 1 (.inr le_rfl)) $$ [Hav11] with Hzv11
  · isplitr; · iexact HIv11
    iexact Hav11
  imod (close_recv m _ 4 1 2 1 (.inr le_rfl)) $$ [Hav12] with Hzv12
  · isplitr; · iexact HIv12
    iexact Hav12
  imod (close_recv m _ 4 1 3 1 (.inr le_rfl)) $$ [Hav13] with Hzv13
  · isplitr; · iexact HIv13
    iexact Hav13
  imod (close_recv m _ 4 1 4 0 (.inl rfl)) $$ [Hav14] with Hzv14
  · isplitr; · iexact HIv14
    iexact Hav14
  imod (close_recv m _ 4 1 5 1 (.inr le_rfl)) $$ [Hav15] with Hzv15
  · isplitr; · iexact HIv15
    iexact Hav15
  imod (close_recv m _ 4 1 6 1 (.inr le_rfl)) $$ [Hav16] with Hzv16
  · isplitr; · iexact HIv16
    iexact Hav16
  imod (close_recv m _ 4 1 7 1 (.inr le_rfl)) $$ [Hav17] with Hzv17
  · isplitr; · iexact HIv17
    iexact Hav17
  -- the two tables whole again
  ihave Hrow0 : ((mineSl 0).view.loc ((4 : Dev nD) : Thread nD τ) ↦[(mineSl 0).view.set]{fullShare} mineOf (xOf m 4)) $$ [Has00_pay1 Has01_pay1 Has02_pay1 Has03_pay1 Hm0_4 Has05_pay1 Has06_pay1 Has07_pay1]
  · iapply (row_rejoin (F := F) (4 : Dev nD) 0 (xOf m 4))
    isplitl [Has00_pay1]; · iexact Has00_pay1
    isplitl [Has01_pay1]; · iexact Has01_pay1
    isplitl [Has02_pay1]; · iexact Has02_pay1
    isplitl [Has03_pay1]; · iexact Has03_pay1
    isplitl [Hm0_4]; · iexact Hm0_4
    isplitl [Has05_pay1]; · iexact Has05_pay1
    isplitl [Has06_pay1]; · iexact Has06_pay1
    iexact Has07_pay1
  ihave Hrow1 : ((mineSl 1).view.loc ((4 : Dev nD) : Thread nD τ) ↦[(mineSl 1).view.set]{fullShare} mineOf (xOf m 4)) $$ [Has10_pay1 Has11_pay1 Has12_pay1 Has13_pay1 Hm1_4 Has15_pay1 Has16_pay1 Has17_pay1]
  · iapply (row_rejoin (F := F) (4 : Dev nD) 1 (xOf m 4))
    isplitl [Has10_pay1]; · iexact Has10_pay1
    isplitl [Has11_pay1]; · iexact Has11_pay1
    isplitl [Has12_pay1]; · iexact Has12_pay1
    isplitl [Has13_pay1]; · iexact Has13_pay1
    isplitl [Hm1_4]; · iexact Hm1_4
    isplitl [Has15_pay1]; · iexact Has15_pay1
    isplitl [Has16_pay1]; · iexact Has16_pay1
    iexact Has17_pay1
  ihave Hmine := (mine_join (F := F) (4 : Dev nD) (mineOf (xOf m 4))) $$ [Hrow0 Hrow1]
  · isplitl [Hrow0]; · iexact Hrow0
    iexact Hrow1
  ihave Hcomm := (halves_join (F := F) (4 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((4 : Dev nD) : Thread nD τ) ↦[(oM : Memref sig .tc .vmem S1024x1024 .bf16).view.set]{fullShare} outOf (fun q => xOf m q) 4) $$ [Ho]
  · have hT : body_4.sl.r_2 m = oTop (fun q => xOf m q) (4 : Dev nD) := by
      sl_unfold_run_names
      exact congrArg₂ k0_pay10 rfl (readCov_top _ _ _)
    have hB : k0_pay13 (body_4.sl.r_3 m) k0_pay12 (body_4.sl.v183 m) = oBot (fun q => xOf m q) (4 : Dev nD) := by
      sl_unfold_run_names
      exact congrArg₂ (fun a b => k0_pay13 (k0_pay11 a) k0_pay12 b) rfl (readCov_bot _ _ _ _)
    iapply (out_settle (F := F) m (4 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.KernelIdeal.Sm

end
-- ==== Proof.Body5.lean ====
/-
  The kernel body on device 5, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.BodyWrap
import proofs.«901053_g7700000000001054_dist_softmax_colshard_i_m1024_n1024_v7x_i8_bf16_1_alg».proof.Proof.BodyPieces
import proofs.«901053_g7700000000001054_dist_softmax_colshard_i_m1024_n1024_v7x_i8_bf16_1_alg».proof.Proof.OpenKit
import proofs.«901053_g7700000000001054_dist_softmax_colshard_i_m1024_n1024_v7x_i8_bf16_1_alg».proof.Proof.Canon
import proofs.«901053_g7700000000001054_dist_softmax_colshard_i_m1024_n1024_v7x_i8_bf16_1_alg».proof.Proof.SendRule
import proofs.«901053_g7700000000001054_dist_softmax_colshard_i_m1024_n1024_v7x_i8_bf16_1_alg».proof.Proof.BodyEnd
import proofs.«901053_g7700000000001054_dist_softmax_colshard_i_m1024_n1024_v7x_i8_bf16_1_alg».proof.Proof.Glue3
import proofs.«901053_g7700000000001054_dist_softmax_colshard_i_m1024_n1024_v7x_i8_bf16_1_alg».proof.Proof.OutFinal

noncomputable section

namespace Cert.KernelIdeal.Sm

set_option maxRecDepth 8000

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_5 (K : Dev nD × Fin 33 → ℕ) (W : Waits sig Unit) (Kt : PUnit → sProp 𝕄) :
    iprop(bodyPreE m K 5 W ∗ (bodyPostE m 5 -∗ Kt ⟨⟩))
      ⊢ wp frame (wpE (defs₀ (F := F)) 𝒱₀ ((5 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((5 : Dev nD) : Thread nD τ) (.reg barS) () (recvOwed 5) := mayWait_recvOwed 5
  -- the precondition taken apart
  unfold bodyPreE ghost linear creds scratches
  rw [erase_chain_5, erase_chain_5, pos_chain, O₀_chain_5]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb2, Htr20, Htr21, Hts02, Hts12⟩, ⟨Htb3, Htr30, Htr31, Hts03, Hts13⟩, ⟨Htb4, Htr40, Htr41, Hts04, Hts14⟩, ⟨Htb6, Htr60, Htr61, Hts06, Hts16⟩, ⟨Htb7, Htr70, Htr71, Hts07, Hts17⟩⟩⟩,
    ⟨Hcb, ⟨Hcv00, Hcv10⟩, ⟨Hcv01, Hcv11⟩, ⟨Hcv02, Hcv12⟩, ⟨Hcv03, Hcv13⟩, ⟨Hcv04, Hcv14⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 5 f0) $$ Hm
  icases Hm' with ⟨Hm0, Hm1⟩
  ihave Hc' := (comm_split_ex (F := F) 5) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 5) $$ HR
  ihave #HIr01 := (inv_recv m K 0 1 5) $$ HR
  ihave #HIr10 := (inv_recv m K 1 0 5) $$ HR
  ihave #HIr11 := (inv_recv m K 1 1 5) $$ HR
  ihave #HIr20 := (inv_recv m K 2 0 5) $$ HR
  ihave #HIr21 := (inv_recv m K 2 1 5) $$ HR
  ihave #HIr30 := (inv_recv m K 3 0 5) $$ HR
  ihave #HIr31 := (inv_recv m K 3 1 5) $$ HR
  ihave #HIr40 := (inv_recv m K 4 0 5) $$ HR
  ihave #HIr41 := (inv_recv m K 4 1 5) $$ HR
  ihave #HIr60 := (inv_recv m K 6 0 5) $$ HR
  ihave #HIr61 := (inv_recv m K 6 1 5) $$ HR
  ihave #HIr70 := (inv_recv m K 7 0 5) $$ HR
  ihave #HIr71 := (inv_recv m K 7 1 5) $$ HR
  ihave #HIs00 := (inv_send m K 5 0 0) $$ HR
  ihave #HIs01 := (inv_send m K 5 0 1) $$ HR
  ihave #HIs02 := (inv_send m K 5 0 2) $$ HR
  ihave #HIs03 := (inv_send m K 5 0 3) $$ HR
  ihave #HIs04 := (inv_send m K 5 0 4) $$ HR
  ihave #HIs06 := (inv_send m K 5 0 6) $$ HR
  ihave #HIs07 := (inv_send m K 5 0 7) $$ HR
  ihave #HIs10 := (inv_send m K 5 1 0) $$ HR
  ihave #HIs11 := (inv_send m K 5 1 1) $$ HR
  ihave #HIs12 := (inv_send m K 5 1 2) $$ HR
  ihave #HIs13 := (inv_send m K 5 1 3) $$ HR
  ihave #HIs14 := (inv_send m K 5 1 4) $$ HR
  ihave #HIs16 := (inv_send m K 5 1 6) $$ HR
  ihave #HIs17 := (inv_send m K 5 1 7) $$ HR
  ihave #HIv00 := (inv_recv m K 5 0 0) $$ HR
  ihave #HIv01 := (inv_recv m K 5 0 1) $$ HR
  ihave #HIv02 := (inv_recv m K 5 0 2) $$ HR
  ihave #HIv03 := (inv_recv m K 5 0 3) $$ HR
  ihave #HIv04 := (inv_recv m K 5 0 4) $$ HR
  ihave #HIv06 := (inv_recv m K 5 0 6) $$ HR
  ihave #HIv07 := (inv_recv m K 5 0 7) $$ HR
  ihave #HIv10 := (inv_recv m K 5 1 0) $$ HR
  ihave #HIv11 := (inv_recv m K 5 1 1) $$ HR
  ihave #HIv12 := (inv_recv m K 5 1 2) $$ HR
  ihave #HIv13 := (inv_recv m K 5 1 3) $$ HR
  ihave #HIv14 := (inv_recv m K 5 1 4) $$ HR
  ihave #HIv16 := (inv_recv m K 5 1 6) $$ HR
  ihave #HIv17 := (inv_recv m K 5 1 7) $$ HR
  ihave #Hrb0 := (reached_bar m K 0) $$ HR
  ihave #Hrb1 := (reached_bar m K 1) $$ HR
  ihave #Hrb2 := (reached_bar m K 2) $$ HR
  ihave #Hrb3 := (reached_bar m K 3) $$ HR
  ihave #Hrb4 := (reached_bar m K 4) $$ HR
  ihave #Hrb6 := (reached_bar m K 6) $$ HR
  ihave #Hrb7 := (reached_bar m K 7) $$ HR
  ihave #Hrr00 := (reached_recv m K 0 0 5) $$ HR
  ihave #Hrr01 := (reached_recv m K 0 1 5) $$ HR
  ihave #Hrr10 := (reached_recv m K 1 0 5) $$ HR
  ihave #Hrr11 := (reached_recv m K 1 1 5) $$ HR
  ihave #Hrr20 := (reached_recv m K 2 0 5) $$ HR
  ihave #Hrr21 := (reached_recv m K 2 1 5) $$ HR
  ihave #Hrr30 := (reached_recv m K 3 0 5) $$ HR
  ihave #Hrr31 := (reached_recv m K 3 1 5) $$ HR
  ihave #Hrr40 := (reached_recv m K 4 0 5) $$ HR
  ihave #Hrr41 := (reached_recv m K 4 1 5) $$ HR
  ihave #Hrr60 := (reached_recv m K 6 0 5) $$ HR
  ihave #Hrr61 := (reached_recv m K 6 1 5) $$ HR
  ihave #Hrr70 := (reached_recv m K 7 0 5) $$ HR
  ihave #Hrr71 := (reached_recv m K 7 1 5) $$ HR
  ihave #Hrs00 := (reached_send m K 5 0 0) $$ HR
  ihave #Hrs01 := (reached_send m K 5 0 1) $$ HR
  ihave #Hrs02 := (reached_send m K 5 0 2) $$ HR
  ihave #Hrs03 := (reached_send m K 5 0 3) $$ HR
  ihave #Hrs04 := (reached_send m K 5 0 4) $$ HR
  ihave #Hrs06 := (reached_send m K 5 0 6) $$ HR
  ihave #Hrs07 := (reached_send m K 5 0 7) $$ HR
  ihave #Hrs10 := (reached_send m K 5 1 0) $$ HR
  ihave #Hrs11 := (reached_send m K 5 1 1) $$ HR
  ihave #Hrs12 := (reached_send m K 5 1 2) $$ HR
  ihave #Hrs13 := (reached_send m K 5 1 3) $$ HR
  ihave #Hrs14 := (reached_send m K 5 1 4) $$ HR
  ihave #Hrs16 := (reached_send m K 5 1 6) $$ HR
  ihave #Hrs17 := (reached_send m K 5 1 7) $$ HR
  -- the diagonal cells' invariants (never used by a copy; closed at the end)
  ihave #HIs05 := (inv_send m K 5 0 5) $$ HR
  ihave #HIs15 := (inv_send m K 5 1 5) $$ HR
  ihave #HIv05 := (inv_recv m K 5 0 5) $$ HR
  ihave #HIv15 := (inv_recv m K 5 1 5) $$ HR
  iclear HR
  rw [cc0_body_eq_skeleton]; unfold cc0_body_skel
  -- the device's own two slots of its table, at their contents
  icases Hc50 with ⟨%fc0, Hc50⟩
  icases Hc51 with ⟨%fc1, Hc51⟩
  -- the seven barrier units, the first half's exponentials and row sums, the barrier wait
  sl_exec_parts
  -- what the barrier brought: the peers' slots for this device; what is still owed, in paying order; the first row in shares
  ihave HO := (owes_pay_5 (F := F) _) $$ HO
  ihave Hp := (Entails.of_eq (erase_chain_5 _)) $$ Hab_pay1
  icases Hp with ⟨⟨⟨%fd00, Hd00⟩, ⟨%fd01, Hd01⟩⟩, ⟨⟨%fd10, Hd10⟩, ⟨%fd11, Hd11⟩⟩, ⟨⟨%fd20, Hd20⟩, ⟨%fd21, Hd21⟩⟩, ⟨⟨%fd30, Hd30⟩, ⟨%fd31, Hd31⟩⟩, ⟨⟨%fd40, Hd40⟩, ⟨%fd41, Hd41⟩⟩, ⟨⟨%fd60, Hd60⟩, ⟨%fd61, Hd61⟩⟩, ⟨⟨%fd70, Hd70⟩, ⟨%fd71, Hd71⟩⟩⟩
  ihave Hm0s : iprop(((mineSl 0).view.loc ((5 : Dev nD) : Thread nD τ) ↦[(mineSl 0).view.set]{shr 0} mineOf (xOf m 5)) ∗ ((mineSl 0).view.loc ((5 : Dev nD) : Thread nD τ) ↦[(mineSl 0).view.set]{shr 1} mineOf (xOf m 5)) ∗ ((mineSl 0).view.loc ((5 : Dev nD) : Thread nD τ) ↦[(mineSl 0).view.set]{shr 2} mineOf (xOf m 5)) ∗ ((mineSl 0).view.loc ((5 : Dev nD) : Thread nD τ) ↦[(mineSl 0).view.set]{shr 3} mineOf (xOf m 5)) ∗ ((mineSl 0).view.loc ((5 : Dev nD) : Thread nD τ) ↦[(mineSl 0).view.set]{shr 4} mineOf (xOf m 5)) ∗ ((mineSl 0).view.loc ((5 : Dev nD) : Thread nD τ) ↦[(mineSl 0).view.set]{shr 5} mineOf (xOf m 5)) ∗ ((mineSl 0).view.loc ((5 : Dev nD) : Thread nD τ) ↦[(mineSl 0).view.set]{shr 6} mineOf (xOf m 5)) ∗ ((mineSl 0).view.loc ((5 : Dev nD) : Thread nD τ) ↦[(mineSl 0).view.set]{shr 7} mineOf (xOf m 5))) $$ [Hm0]
  · iapply (row0_shares (F := F) (5 : Dev nD) (xOf m 5) f0); iexact Hm0
  icases Hm0s with ⟨Hm0_0, Hm0_1, Hm0_2, Hm0_3, Hm0_4, Hm0_5, Hm0_6, Hm0_7⟩
  -- the seven copies of the first row
  iapply (wp_send_slot m _ _ 5 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 5 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 5 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 5 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 5 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 5 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 5 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((5 : Dev nD) : Thread nD τ) ↦[(mineSl 1).view.set]{shr 0} mineOf (xOf m 5)) ∗ ((mineSl 1).view.loc ((5 : Dev nD) : Thread nD τ) ↦[(mineSl 1).view.set]{shr 1} mineOf (xOf m 5)) ∗ ((mineSl 1).view.loc ((5 : Dev nD) : Thread nD τ) ↦[(mineSl 1).view.set]{shr 2} mineOf (xOf m 5)) ∗ ((mineSl 1).view.loc ((5 : Dev nD) : Thread nD τ) ↦[(mineSl 1).view.set]{shr 3} mineOf (xOf m 5)) ∗ ((mineSl 1).view.loc ((5 : Dev nD) : Thread nD τ) ↦[(mineSl 1).view.set]{shr 4} mineOf (xOf m 5)) ∗ ((mineSl 1).view.loc ((5 : Dev nD) : Thread nD τ) ↦[(mineSl 1).view.set]{shr 5} mineOf (xOf m 5)) ∗ ((mineSl 1).view.loc ((5 : Dev nD) : Thread nD τ) ↦[(mineSl 1).view.set]{shr 6} mineOf (xOf m 5)) ∗ ((mineSl 1).view.loc ((5 : Dev nD) : Thread nD τ) ↦[(mineSl 1).view.set]{shr 7} mineOf (xOf m 5))) $$ [Hm1]
  · iapply (row1_shares (F := F) (5 : Dev nD) (xOf m 5) f0); iexact Hm1
  icases Hm1s with ⟨Hm1_0, Hm1_1, Hm1_2, Hm1_3, Hm1_4, Hm1_5, Hm1_6, Hm1_7⟩
  iapply (wp_send_slot m _ _ 5 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 5 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 5 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 5 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 5 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 5 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (5 : Dev nD) _ _) $$ HO
  iapply (wp_send_slot m _ _ 5 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 5 0).view.loc ((5 : Dev nD) : Thread nD τ) ↦[(commSl 5 0).view.set]{fullShare} commOf (Xs m)) $$ [Hc50]
  · iapply (own_slot0 (F := F) m (5 : Dev nD) fc0 _); iexact Hc50
  ihave Hh0 : ((halfM 0).view.loc ((5 : Dev nD) : Thread nD τ) ↦[(halfM 0).view.set]{fullShare} commOf (Xs m)) $$ [Hav00_pay1 Hav01_pay1 Hav02_pay1 Hav03_pay1 Hav04_pay1 Hown0 Hav06_pay1 Hav07_pay1]
  · iapply (half_join (F := F) (5 : Dev nD) 0 (commOf (Xs m)))
    isplitl [Hav00_pay1]; · iexact Hav00_pay1
    isplitl [Hav01_pay1]; · iexact Hav01_pay1
    isplitl [Hav02_pay1]; · iexact Hav02_pay1
    isplitl [Hav03_pay1]; · iexact Hav03_pay1
    isplitl [Hav04_pay1]; · iexact Hav04_pay1
    isplitl [Hown0]; · iexact Hown0
    isplitl [Hav06_pay1]; · iexact Hav06_pay1
    iexact Hav07_pay1
  have hsub0a := half_access_sub0
  have hsub0b := half_setOn_sub0
  sl_exec_parts
  -- the second half likewise; then the departures' waits
  ihave Hown1 : ((commSl 5 1).view.loc ((5 : Dev nD) : Thread nD τ) ↦[(commSl 5 1).view.set]{fullShare} commOf (Xs m)) $$ [Hc51]
  · iapply (own_slot1 (F := F) m (5 : Dev nD) fc1 _); iexact Hc51
  ihave Hh1 : ((halfM 1).view.loc ((5 : Dev nD) : Thread nD τ) ↦[(halfM 1).view.set]{fullShare} commOf (Xs m)) $$ [Hav10_pay1 Hav11_pay1 Hav12_pay1 Hav13_pay1 Hav14_pay1 Hown1 Hav16_pay1 Hav17_pay1]
  · iapply (half_join (F := F) (5 : Dev nD) 1 (commOf (Xs m)))
    isplitl [Hav10_pay1]; · iexact Hav10_pay1
    isplitl [Hav11_pay1]; · iexact Hav11_pay1
    isplitl [Hav12_pay1]; · iexact Hav12_pay1
    isplitl [Hav13_pay1]; · iexact Hav13_pay1
    isplitl [Hav14_pay1]; · iexact Hav14_pay1
    isplitl [Hown1]; · iexact Hown1
    isplitl [Hav16_pay1]; · iexact Hav16_pay1
    iexact Hav17_pay1
  have hsub1a := half_access_sub1
  have hsub1b := half_setOn_sub1
  sl_exec_parts
  -- the cells closed
  imod (close_send m _ 5 0 0 1 (.inr le_rfl)) $$ [Has00] with Hzs00
  · isplitr; · iexact HIs00
    iexact Has00
  imod (close_send m _ 5 0 1 1 (.inr le_rfl)) $$ [Has01] with Hzs01
  · isplitr; · iexact HIs01
    iexact Has01
  imod (close_send m _ 5 0 2 1 (.inr le_rfl)) $$ [Has02] with Hzs02
  · isplitr; · iexact HIs02
    iexact Has02
  imod (close_send m _ 5 0 3 1 (.inr le_rfl)) $$ [Has03] with Hzs03
  · isplitr; · iexact HIs03
    iexact Has03
  imod (close_send m _ 5 0 4 1 (.inr le_rfl)) $$ [Has04] with Hzs04
  · isplitr; · iexact HIs04
    iexact Has04
  imod (close_send m _ 5 0 5 0 (.inl rfl)) $$ [Has05] with Hzs05
  · isplitr; · iexact HIs05
    iexact Has05
  imod (close_send m _ 5 0 6 1 (.inr le_rfl)) $$ [Has06] with Hzs06
  · isplitr; · iexact HIs06
    iexact Has06
  imod (close_send m _ 5 0 7 1 (.inr le_rfl)) $$ [Has07] with Hzs07
  · isplitr; · iexact HIs07
    iexact Has07
  imod (close_send m _ 5 1 0 1 (.inr le_rfl)) $$ [Has10] with Hzs10
  · isplitr; · iexact HIs10
    iexact Has10
  imod (close_send m _ 5 1 1 1 (.inr le_rfl)) $$ [Has11] with Hzs11
  · isplitr; · iexact HIs11
    iexact Has11
  imod (close_send m _ 5 1 2 1 (.inr le_rfl)) $$ [Has12] with Hzs12
  · isplitr; · iexact HIs12
    iexact Has12
  imod (close_send m _ 5 1 3 1 (.inr le_rfl)) $$ [Has13] with Hzs13
  · isplitr; · iexact HIs13
    iexact Has13
  imod (close_send m _ 5 1 4 1 (.inr le_rfl)) $$ [Has14] with Hzs14
  · isplitr; · iexact HIs14
    iexact Has14
  imod (close_send m _ 5 1 5 0 (.inl rfl)) $$ [Has15] with Hzs15
  · isplitr; · iexact HIs15
    iexact Has15
  imod (close_send m _ 5 1 6 1 (.inr le_rfl)) $$ [Has16] with Hzs16
  · isplitr; · iexact HIs16
    iexact Has16
  imod (close_send m _ 5 1 7 1 (.inr le_rfl)) $$ [Has17] with Hzs17
  · isplitr; · iexact HIs17
    iexact Has17
  imod (close_recv m _ 5 0 0 1 (.inr le_rfl)) $$ [Hav00] with Hzv00
  · isplitr; · iexact HIv00
    iexact Hav00
  imod (close_recv m _ 5 0 1 1 (.inr le_rfl)) $$ [Hav01] with Hzv01
  · isplitr; · iexact HIv01
    iexact Hav01
  imod (close_recv m _ 5 0 2 1 (.inr le_rfl)) $$ [Hav02] with Hzv02
  · isplitr; · iexact HIv02
    iexact Hav02
  imod (close_recv m _ 5 0 3 1 (.inr le_rfl)) $$ [Hav03] with Hzv03
  · isplitr; · iexact HIv03
    iexact Hav03
  imod (close_recv m _ 5 0 4 1 (.inr le_rfl)) $$ [Hav04] with Hzv04
  · isplitr; · iexact HIv04
    iexact Hav04
  imod (close_recv m _ 5 0 5 0 (.inl rfl)) $$ [Hav05] with Hzv05
  · isplitr; · iexact HIv05
    iexact Hav05
  imod (close_recv m _ 5 0 6 1 (.inr le_rfl)) $$ [Hav06] with Hzv06
  · isplitr; · iexact HIv06
    iexact Hav06
  imod (close_recv m _ 5 0 7 1 (.inr le_rfl)) $$ [Hav07] with Hzv07
  · isplitr; · iexact HIv07
    iexact Hav07
  imod (close_recv m _ 5 1 0 1 (.inr le_rfl)) $$ [Hav10] with Hzv10
  · isplitr; · iexact HIv10
    iexact Hav10
  imod (close_recv m _ 5 1 1 1 (.inr le_rfl)) $$ [Hav11] with Hzv11
  · isplitr; · iexact HIv11
    iexact Hav11
  imod (close_recv m _ 5 1 2 1 (.inr le_rfl)) $$ [Hav12] with Hzv12
  · isplitr; · iexact HIv12
    iexact Hav12
  imod (close_recv m _ 5 1 3 1 (.inr le_rfl)) $$ [Hav13] with Hzv13
  · isplitr; · iexact HIv13
    iexact Hav13
  imod (close_recv m _ 5 1 4 1 (.inr le_rfl)) $$ [Hav14] with Hzv14
  · isplitr; · iexact HIv14
    iexact Hav14
  imod (close_recv m _ 5 1 5 0 (.inl rfl)) $$ [Hav15] with Hzv15
  · isplitr; · iexact HIv15
    iexact Hav15
  imod (close_recv m _ 5 1 6 1 (.inr le_rfl)) $$ [Hav16] with Hzv16
  · isplitr; · iexact HIv16
    iexact Hav16
  imod (close_recv m _ 5 1 7 1 (.inr le_rfl)) $$ [Hav17] with Hzv17
  · isplitr; · iexact HIv17
    iexact Hav17
  -- the two tables whole again
  ihave Hrow0 : ((mineSl 0).view.loc ((5 : Dev nD) : Thread nD τ) ↦[(mineSl 0).view.set]{fullShare} mineOf (xOf m 5)) $$ [Has00_pay1 Has01_pay1 Has02_pay1 Has03_pay1 Has04_pay1 Hm0_5 Has06_pay1 Has07_pay1]
  · iapply (row_rejoin (F := F) (5 : Dev nD) 0 (xOf m 5))
    isplitl [Has00_pay1]; · iexact Has00_pay1
    isplitl [Has01_pay1]; · iexact Has01_pay1
    isplitl [Has02_pay1]; · iexact Has02_pay1
    isplitl [Has03_pay1]; · iexact Has03_pay1
    isplitl [Has04_pay1]; · iexact Has04_pay1
    isplitl [Hm0_5]; · iexact Hm0_5
    isplitl [Has06_pay1]; · iexact Has06_pay1
    iexact Has07_pay1
  ihave Hrow1 : ((mineSl 1).view.loc ((5 : Dev nD) : Thread nD τ) ↦[(mineSl 1).view.set]{fullShare} mineOf (xOf m 5)) $$ [Has10_pay1 Has11_pay1 Has12_pay1 Has13_pay1 Has14_pay1 Hm1_5 Has16_pay1 Has17_pay1]
  · iapply (row_rejoin (F := F) (5 : Dev nD) 1 (xOf m 5))
    isplitl [Has10_pay1]; · iexact Has10_pay1
    isplitl [Has11_pay1]; · iexact Has11_pay1
    isplitl [Has12_pay1]; · iexact Has12_pay1
    isplitl [Has13_pay1]; · iexact Has13_pay1
    isplitl [Has14_pay1]; · iexact Has14_pay1
    isplitl [Hm1_5]; · iexact Hm1_5
    isplitl [Has16_pay1]; · iexact Has16_pay1
    iexact Has17_pay1
  ihave Hmine := (mine_join (F := F) (5 : Dev nD) (mineOf (xOf m 5))) $$ [Hrow0 Hrow1]
  · isplitl [Hrow0]; · iexact Hrow0
    iexact Hrow1
  ihave Hcomm := (halves_join (F := F) (5 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((5 : Dev nD) : Thread nD τ) ↦[(oM : Memref sig .tc .vmem S1024x1024 .bf16).view.set]{fullShare} outOf (fun q => xOf m q) 5) $$ [Ho]
  · have hT : body_5.sl.r_2 m = oTop (fun q => xOf m q) (5 : Dev nD) := by
      sl_unfold_run_names
      exact congrArg₂ k0_pay10 rfl (readCov_top _ _ _)
    have hB : k0_pay13 (body_5.sl.r_3 m) k0_pay12 (body_5.sl.v183 m) = oBot (fun q => xOf m q) (5 : Dev nD) := by
      sl_unfold_run_names
      exact congrArg₂ (fun a b => k0_pay13 (k0_pay11 a) k0_pay12 b) rfl (readCov_bot _ _ _ _)
    iapply (out_settle (F := F) m (5 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.KernelIdeal.Sm

end
-- ==== Proof.Body6.lean ====
/-
  The kernel body on device 6, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.BodyWrap
import proofs.«901053_g7700000000001054_dist_softmax_colshard_i_m1024_n1024_v7x_i8_bf16_1_alg».proof.Proof.BodyPieces
import proofs.«901053_g7700000000001054_dist_softmax_colshard_i_m1024_n1024_v7x_i8_bf16_1_alg».proof.Proof.OpenKit
import proofs.«901053_g7700000000001054_dist_softmax_colshard_i_m1024_n1024_v7x_i8_bf16_1_alg».proof.Proof.Canon
import proofs.«901053_g7700000000001054_dist_softmax_colshard_i_m1024_n1024_v7x_i8_bf16_1_alg».proof.Proof.SendRule
import proofs.«901053_g7700000000001054_dist_softmax_colshard_i_m1024_n1024_v7x_i8_bf16_1_alg».proof.Proof.BodyEnd
import proofs.«901053_g7700000000001054_dist_softmax_colshard_i_m1024_n1024_v7x_i8_bf16_1_alg».proof.Proof.Glue3
import proofs.«901053_g7700000000001054_dist_softmax_colshard_i_m1024_n1024_v7x_i8_bf16_1_alg».proof.Proof.OutFinal

noncomputable section

namespace Cert.KernelIdeal.Sm

set_option maxRecDepth 8000

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_6 (K : Dev nD × Fin 33 → ℕ) (W : Waits sig Unit) (Kt : PUnit → sProp 𝕄) :
    iprop(bodyPreE m K 6 W ∗ (bodyPostE m 6 -∗ Kt ⟨⟩))
      ⊢ wp frame (wpE (defs₀ (F := F)) 𝒱₀ ((6 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((6 : Dev nD) : Thread nD τ) (.reg barS) () (recvOwed 6) := mayWait_recvOwed 6
  -- the precondition taken apart
  unfold bodyPreE ghost linear creds scratches
  rw [erase_chain_6, erase_chain_6, pos_chain, O₀_chain_6]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb2, Htr20, Htr21, Hts02, Hts12⟩, ⟨Htb3, Htr30, Htr31, Hts03, Hts13⟩, ⟨Htb4, Htr40, Htr41, Hts04, Hts14⟩, ⟨Htb5, Htr50, Htr51, Hts05, Hts15⟩, ⟨Htb7, Htr70, Htr71, Hts07, Hts17⟩⟩⟩,
    ⟨Hcb, ⟨Hcv00, Hcv10⟩, ⟨Hcv01, Hcv11⟩, ⟨Hcv02, Hcv12⟩, ⟨Hcv03, Hcv13⟩, ⟨Hcv04, Hcv14⟩, ⟨Hcv05, Hcv15⟩, ⟨Hcv07, Hcv17⟩⟩, #Hlev, ⟨⟨%f0, Hm⟩, Hc⟩, HO, Hx, ⟨%g0, Ho⟩⟩, Hk⟩
  -- the two scratch tables by rows and by slots
  ihave Hm' := (mine_split 6 f0) $$ Hm
  icases Hm' with ⟨Hm0, Hm1⟩
  ihave Hc' := (comm_split_ex (F := F) 6) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 6) $$ HR
  ihave #HIr01 := (inv_recv m K 0 1 6) $$ HR
  ihave #HIr10 := (inv_recv m K 1 0 6) $$ HR
  ihave #HIr11 := (inv_recv m K 1 1 6) $$ HR
  ihave #HIr20 := (inv_recv m K 2 0 6) $$ HR
  ihave #HIr21 := (inv_recv m K 2 1 6) $$ HR
  ihave #HIr30 := (inv_recv m K 3 0 6) $$ HR
  ihave #HIr31 := (inv_recv m K 3 1 6) $$ HR
  ihave #HIr40 := (inv_recv m K 4 0 6) $$ HR
  ihave #HIr41 := (inv_recv m K 4 1 6) $$ HR
  ihave #HIr50 := (inv_recv m K 5 0 6) $$ HR
  ihave #HIr51 := (inv_recv m K 5 1 6) $$ HR
  ihave #HIr70 := (inv_recv m K 7 0 6) $$ HR
  ihave #HIr71 := (inv_recv m K 7 1 6) $$ HR
  ihave #HIs00 := (inv_send m K 6 0 0) $$ HR
  ihave #HIs01 := (inv_send m K 6 0 1) $$ HR
  ihave #HIs02 := (inv_send m K 6 0 2) $$ HR
  ihave #HIs03 := (inv_send m K 6 0 3) $$ HR
  ihave #HIs04 := (inv_send m K 6 0 4) $$ HR
  ihave #HIs05 := (inv_send m K 6 0 5) $$ HR
  ihave #HIs07 := (inv_send m K 6 0 7) $$ HR
  ihave #HIs10 := (inv_send m K 6 1 0) $$ HR
  ihave #HIs11 := (inv_send m K 6 1 1) $$ HR
  ihave #HIs12 := (inv_send m K 6 1 2) $$ HR
  ihave #HIs13 := (inv_send m K 6 1 3) $$ HR
  ihave #HIs14 := (inv_send m K 6 1 4) $$ HR
  ihave #HIs15 := (inv_send m K 6 1 5) $$ HR
  ihave #HIs17 := (inv_send m K 6 1 7) $$ HR
  ihave #HIv00 := (inv_recv m K 6 0 0) $$ HR
  ihave #HIv01 := (inv_recv m K 6 0 1) $$ HR
  ihave #HIv02 := (inv_recv m K 6 0 2) $$ HR
  ihave #HIv03 := (inv_recv m K 6 0 3) $$ HR
  ihave #HIv04 := (inv_recv m K 6 0 4) $$ HR
  ihave #HIv05 := (inv_recv m K 6 0 5) $$ HR
  ihave #HIv07 := (inv_recv m K 6 0 7) $$ HR
  ihave #HIv10 := (inv_recv m K 6 1 0) $$ HR
  ihave #HIv11 := (inv_recv m K 6 1 1) $$ HR
  ihave #HIv12 := (inv_recv m K 6 1 2) $$ HR
  ihave #HIv13 := (inv_recv m K 6 1 3) $$ HR
  ihave #HIv14 := (inv_recv m K 6 1 4) $$ HR
  ihave #HIv15 := (inv_recv m K 6 1 5) $$ HR
  ihave #HIv17 := (inv_recv m K 6 1 7) $$ HR
  ihave #Hrb0 := (reached_bar m K 0) $$ HR
  ihave #Hrb1 := (reached_bar m K 1) $$ HR
  ihave #Hrb2 := (reached_bar m K 2) $$ HR
  ihave #Hrb3 := (reached_bar m K 3) $$ HR
  ihave #Hrb4 := (reached_bar m K 4) $$ HR
  ihave #Hrb5 := (reached_bar m K 5) $$ HR
  ihave #Hrb7 := (reached_bar m K 7) $$ HR
  ihave #Hrr00 := (reached_recv m K 0 0 6) $$ HR
  ihave #Hrr01 := (reached_recv m K 0 1 6) $$ HR
  ihave #Hrr10 := (reached_recv m K 1 0 6) $$ HR
  ihave #Hrr11 := (reached_recv m K 1 1 6) $$ HR
  ihave #Hrr20 := (reached_recv m K 2 0 6) $$ HR
  ihave #Hrr21 := (reached_recv m K 2 1 6) $$ HR
  ihave #Hrr30 := (reached_recv m K 3 0 6) $$ HR
  ihave #Hrr31 := (reached_recv m K 3 1 6) $$ HR
  ihave #Hrr40 := (reached_recv m K 4 0 6) $$ HR
  ihave #Hrr41 := (reached_recv m K 4 1 6) $$ HR
  ihave #Hrr50 := (reached_recv m K 5 0 6) $$ HR
  ihave #Hrr51 := (reached_recv m K 5 1 6) $$ HR
  ihave #Hrr70 := (reached_recv m K 7 0 6) $$ HR
  ihave #Hrr71 := (reached_recv m K 7 1 6) $$ HR
  ihave #Hrs00 := (reached_send m K 6 0 0) $$ HR
  ihave #Hrs01 := (reached_send m K 6 0 1) $$ HR
  ihave #Hrs02 := (reached_send m K 6 0 2) $$ HR
  ihave #Hrs03 := (reached_send m K 6 0 3) $$ HR
  ihave #Hrs04 := (reached_send m K 6 0 4) $$ HR
  ihave #Hrs05 := (reached_send m K 6 0 5) $$ HR
  ihave #Hrs07 := (reached_send m K 6 0 7) $$ HR
  ihave #Hrs10 := (reached_send m K 6 1 0) $$ HR
  ihave #Hrs11 := (reached_send m K 6 1 1) $$ HR
  ihave #Hrs12 := (reached_send m K 6 1 2) $$ HR
  ihave #Hrs13 := (reached_send m K 6 1 3) $$ HR
  ihave #Hrs14 := (reached_send m K 6 1 4) $$ HR
  ihave #Hrs15 := (reached_send m K 6 1 5) $$ HR
  ihave #Hrs17 := (reached_send m K 6 1 7) $$ HR
  -- the diagonal cells' invariants (never used by a copy; closed at the end)
  ihave #HIs06 := (inv_send m K 6 0 6) $$ HR
  ihave #HIs16 := (inv_send m K 6 1 6) $$ HR
  ihave #HIv06 := (inv_recv m K 6 0 6) $$ HR
  ihave #HIv16 := (inv_recv m K 6 1 6) $$ HR
  iclear HR
  rw [cc0_body_eq_skeleton]; unfold cc0_body_skel
  -- the device's own two slots of its table, at their contents
  icases Hc60 with ⟨%fc0, Hc60⟩
  icases Hc61 with ⟨%fc1, Hc61⟩
  -- the seven barrier units, the first half's exponentials and row sums, the barrier wait
  sl_exec_parts
  -- what the barrier brought: the peers' slots for this device; what is still owed, in paying order; the first row in shares
  ihave HO := (owes_pay_6 (F := F) _) $$ HO
  ihave Hp := (Entails.of_eq (erase_chain_6 _)) $$ Hab_pay1
  icases Hp with ⟨⟨⟨%fd00, Hd00⟩, ⟨%fd01, Hd01⟩⟩, ⟨⟨%fd10, Hd10⟩, ⟨%fd11, Hd11⟩⟩, ⟨⟨%fd20, Hd20⟩, ⟨%fd21, Hd21⟩⟩, ⟨⟨%fd30, Hd30⟩, ⟨%fd31, Hd31⟩⟩, ⟨⟨%fd40, Hd40⟩, ⟨%fd41, Hd41⟩⟩, ⟨⟨%fd50, Hd50⟩, ⟨%fd51, Hd51⟩⟩, ⟨⟨%fd70, Hd70⟩, ⟨%fd71, Hd71⟩⟩⟩
  ihave Hm0s : iprop(((mineSl 0).view.loc ((6 : Dev nD) : Thread nD τ) ↦[(mineSl 0).view.set]{shr 0} mineOf (xOf m 6)) ∗ ((mineSl 0).view.loc ((6 : Dev nD) : Thread nD τ) ↦[(mineSl 0).view.set]{shr 1} mineOf (xOf m 6)) ∗ ((mineSl 0).view.loc ((6 : Dev nD) : Thread nD τ) ↦[(mineSl 0).view.set]{shr 2} mineOf (xOf m 6)) ∗ ((mineSl 0).view.loc ((6 : Dev nD) : Thread nD τ) ↦[(mineSl 0).view.set]{shr 3} mineOf (xOf m 6)) ∗ ((mineSl 0).view.loc ((6 : Dev nD) : Thread nD τ) ↦[(mineSl 0).view.set]{shr 4} mineOf (xOf m 6)) ∗ ((mineSl 0).view.loc ((6 : Dev nD) : Thread nD τ) ↦[(mineSl 0).view.set]{shr 5} mineOf (xOf m 6)) ∗ ((mineSl 0).view.loc ((6 : Dev nD) : Thread nD τ) ↦[(mineSl 0).view.set]{shr 6} mineOf (xOf m 6)) ∗ ((mineSl 0).view.loc ((6 : Dev nD) : Thread nD τ) ↦[(mineSl 0).view.set]{shr 7} mineOf (xOf m 6))) $$ [Hm0]
  · iapply (row0_shares (F := F) (6 : Dev nD) (xOf m 6) f0); iexact Hm0
  icases Hm0s with ⟨Hm0_0, Hm0_1, Hm0_2, Hm0_3, Hm0_4, Hm0_5, Hm0_6, Hm0_7⟩
  -- the seven copies of the first row
  iapply (wp_send_slot m _ _ 6 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 6 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 6 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 6 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 6 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 6 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 6 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((6 : Dev nD) : Thread nD τ) ↦[(mineSl 1).view.set]{shr 0} mineOf (xOf m 6)) ∗ ((mineSl 1).view.loc ((6 : Dev nD) : Thread nD τ) ↦[(mineSl 1).view.set]{shr 1} mineOf (xOf m 6)) ∗ ((mineSl 1).view.loc ((6 : Dev nD) : Thread nD τ) ↦[(mineSl 1).view.set]{shr 2} mineOf (xOf m 6)) ∗ ((mineSl 1).view.loc ((6 : Dev nD) : Thread nD τ) ↦[(mineSl 1).view.set]{shr 3} mineOf (xOf m 6)) ∗ ((mineSl 1).view.loc ((6 : Dev nD) : Thread nD τ) ↦[(mineSl 1).view.set]{shr 4} mineOf (xOf m 6)) ∗ ((mineSl 1).view.loc ((6 : Dev nD) : Thread nD τ) ↦[(mineSl 1).view.set]{shr 5} mineOf (xOf m 6)) ∗ ((mineSl 1).view.loc ((6 : Dev nD) : Thread nD τ) ↦[(mineSl 1).view.set]{shr 6} mineOf (xOf m 6)) ∗ ((mineSl 1).view.loc ((6 : Dev nD) : Thread nD τ) ↦[(mineSl 1).view.set]{shr 7} mineOf (xOf m 6))) $$ [Hm1]
  · iapply (row1_shares (F := F) (6 : Dev nD) (xOf m 6) f0); iexact Hm1
  icases Hm1s with ⟨Hm1_0, Hm1_1, Hm1_2, Hm1_3, Hm1_4, Hm1_5, Hm1_6, Hm1_7⟩
  iapply (wp_send_slot m _ _ 6 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 6 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 6 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 6 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 6 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 6 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  ihave HO := (owes_zero_add (F := F) (6 : Dev nD) _ _) $$ HO
  iapply (wp_send_slot m _ _ 6 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 6 0).view.loc ((6 : Dev nD) : Thread nD τ) ↦[(commSl 6 0).view.set]{fullShare} commOf (Xs m)) $$ [Hc60]
  · iapply (own_slot0 (F := F) m (6 : Dev nD) fc0 _); iexact Hc60
  ihave Hh0 : ((halfM 0).view.loc ((6 : Dev nD) : Thread nD τ) ↦[(halfM 0).view.set]{fullShare} commOf (Xs m)) $$ [Hav00_pay1 Hav01_pay1 Hav02_pay1 Hav03_pay1 Hav04_pay1 Hav05_pay1 Hown0 Hav07_pay1]
  · iapply (half_join (F := F) (6 : Dev nD) 0 (commOf (Xs m)))
    isplitl [Hav00_pay1]; · iexact Hav00_pay1
    isplitl [Hav01_pay1]; · iexact Hav01_pay1
    isplitl [Hav02_pay1]; · iexact Hav02_pay1
    isplitl [Hav03_pay1]; · iexact Hav03_pay1
    isplitl [Hav04_pay1]; · iexact Hav04_pay1
    isplitl [Hav05_pay1]; · iexact Hav05_pay1
    isplitl [Hown0]; · iexact Hown0
    iexact Hav07_pay1
  have hsub0a := half_access_sub0
  have hsub0b := half_setOn_sub0
  sl_exec_parts
  -- the second half likewise; then the departures' waits
  ihave Hown1 : ((commSl 6 1).view.loc ((6 : Dev nD) : Thread nD τ) ↦[(commSl 6 1).view.set]{fullShare} commOf (Xs m)) $$ [Hc61]
  · iapply (own_slot1 (F := F) m (6 : Dev nD) fc1 _); iexact Hc61
  ihave Hh1 : ((halfM 1).view.loc ((6 : Dev nD) : Thread nD τ) ↦[(halfM 1).view.set]{fullShare} commOf (Xs m)) $$ [Hav10_pay1 Hav11_pay1 Hav12_pay1 Hav13_pay1 Hav14_pay1 Hav15_pay1 Hown1 Hav17_pay1]
  · iapply (half_join (F := F) (6 : Dev nD) 1 (commOf (Xs m)))
    isplitl [Hav10_pay1]; · iexact Hav10_pay1
    isplitl [Hav11_pay1]; · iexact Hav11_pay1
    isplitl [Hav12_pay1]; · iexact Hav12_pay1
    isplitl [Hav13_pay1]; · iexact Hav13_pay1
    isplitl [Hav14_pay1]; · iexact Hav14_pay1
    isplitl [Hav15_pay1]; · iexact Hav15_pay1
    isplitl [Hown1]; · iexact Hown1
    iexact Hav17_pay1
  have hsub1a := half_access_sub1
  have hsub1b := half_setOn_sub1
  sl_exec_parts
  -- the cells closed
  imod (close_send m _ 6 0 0 1 (.inr le_rfl)) $$ [Has00] with Hzs00
  · isplitr; · iexact HIs00
    iexact Has00
  imod (close_send m _ 6 0 1 1 (.inr le_rfl)) $$ [Has01] with Hzs01
  · isplitr; · iexact HIs01
    iexact Has01
  imod (close_send m _ 6 0 2 1 (.inr le_rfl)) $$ [Has02] with Hzs02
  · isplitr; · iexact HIs02
    iexact Has02
  imod (close_send m _ 6 0 3 1 (.inr le_rfl)) $$ [Has03] with Hzs03
  · isplitr; · iexact HIs03
    iexact Has03
  imod (close_send m _ 6 0 4 1 (.inr le_rfl)) $$ [Has04] with Hzs04
  · isplitr; · iexact HIs04
    iexact Has04
  imod (close_send m _ 6 0 5 1 (.inr le_rfl)) $$ [Has05] with Hzs05
  · isplitr; · iexact HIs05
    iexact Has05
  imod (close_send m _ 6 0 6 0 (.inl rfl)) $$ [Has06] with Hzs06
  · isplitr; · iexact HIs06
    iexact Has06
  imod (close_send m _ 6 0 7 1 (.inr le_rfl)) $$ [Has07] with Hzs07
  · isplitr; · iexact HIs07
    iexact Has07
  imod (close_send m _ 6 1 0 1 (.inr le_rfl)) $$ [Has10] with Hzs10
  · isplitr; · iexact HIs10
    iexact Has10
  imod (close_send m _ 6 1 1 1 (.inr le_rfl)) $$ [Has11] with Hzs11
  · isplitr; · iexact HIs11
    iexact Has11
  imod (close_send m _ 6 1 2 1 (.inr le_rfl)) $$ [Has12] with Hzs12
  · isplitr; · iexact HIs12
    iexact Has12
  imod (close_send m _ 6 1 3 1 (.inr le_rfl)) $$ [Has13] with Hzs13
  · isplitr; · iexact HIs13
    iexact Has13
  imod (close_send m _ 6 1 4 1 (.inr le_rfl)) $$ [Has14] with Hzs14
  · isplitr; · iexact HIs14
    iexact Has14
  imod (close_send m _ 6 1 5 1 (.inr le_rfl)) $$ [Has15] with Hzs15
  · isplitr; · iexact HIs15
    iexact Has15
  imod (close_send m _ 6 1 6 0 (.inl rfl)) $$ [Has16] with Hzs16
  · isplitr; · iexact HIs16
    iexact Has16
  imod (close_send m _ 6 1 7 1 (.inr le_rfl)) $$ [Has17] with Hzs17
  · isplitr; · iexact HIs17
    iexact Has17
  imod (close_recv m _ 6 0 0 1 (.inr le_rfl)) $$ [Hav00] with Hzv00
  · isplitr; · iexact HIv00
    iexact Hav00
  imod (close_recv m _ 6 0 1 1 (.inr le_rfl)) $$ [Hav01] with Hzv01
  · isplitr; · iexact HIv01
    iexact Hav01
  imod (close_recv m _ 6 0 2 1 (.inr le_rfl)) $$ [Hav02] with Hzv02
  · isplitr; · iexact HIv02
    iexact Hav02
  imod (close_recv m _ 6 0 3 1 (.inr le_rfl)) $$ [Hav03] with Hzv03
  · isplitr; · iexact HIv03
    iexact Hav03
  imod (close_recv m _ 6 0 4 1 (.inr le_rfl)) $$ [Hav04] with Hzv04
  · isplitr; · iexact HIv04
    iexact Hav04
  imod (close_recv m _ 6 0 5 1 (.inr le_rfl)) $$ [Hav05] with Hzv05
  · isplitr; · iexact HIv05
    iexact Hav05
  imod (close_recv m _ 6 0 6 0 (.inl rfl)) $$ [Hav06] with Hzv06
  · isplitr; · iexact HIv06
    iexact Hav06
  imod (close_recv m _ 6 0 7 1 (.inr le_rfl)) $$ [Hav07] with Hzv07
  · isplitr; · iexact HIv07
    iexact Hav07
  imod (close_recv m _ 6 1 0 1 (.inr le_rfl)) $$ [Hav10] with Hzv10
  · isplitr; · iexact HIv10
    iexact Hav10
  imod (close_recv m _ 6 1 1 1 (.inr le_rfl)) $$ [Hav11] with Hzv11
  · isplitr; · iexact HIv11
    iexact Hav11
  imod (close_recv m _ 6 1 2 1 (.inr le_rfl)) $$ [Hav12] with Hzv12
  · isplitr; · iexact HIv12
    iexact Hav12
  imod (close_recv m _ 6 1 3 1 (.inr le_rfl)) $$ [Hav13] with Hzv13
  · isplitr; · iexact HIv13
    iexact Hav13
  imod (close_recv m _ 6 1 4 1 (.inr le_rfl)) $$ [Hav14] with Hzv14
  · isplitr; · iexact HIv14
    iexact Hav14
  imod (close_recv m _ 6 1 5 1 (.inr le_rfl)) $$ [Hav15] with Hzv15
  · isplitr; · iexact HIv15
    iexact Hav15
  imod (close_recv m _ 6 1 6 0 (.inl rfl)) $$ [Hav16] with Hzv16
  · isplitr; · iexact HIv16
    iexact Hav16
  imod (close_recv m _ 6 1 7 1 (.inr le_rfl)) $$ [Hav17] with Hzv17
  · isplitr; · iexact HIv17
    iexact Hav17
  -- the two tables whole again
  ihave Hrow0 : ((mineSl 0).view.loc ((6 : Dev nD) : Thread nD τ) ↦[(mineSl 0).view.set]{fullShare} mineOf (xOf m 6)) $$ [Has00_pay1 Has01_pay1 Has02_pay1 Has03_pay1 Has04_pay1 Has05_pay1 Hm0_6 Has07_pay1]
  · iapply (row_rejoin (F := F) (6 : Dev nD) 0 (xOf m 6))
    isplitl [Has00_pay1]; · iexact Has00_pay1
    isplitl [Has01_pay1]; · iexact Has01_pay1
    isplitl [Has02_pay1]; · iexact Has02_pay1
    isplitl [Has03_pay1]; · iexact Has03_pay1
    isplitl [Has04_pay1]; · iexact Has04_pay1
    isplitl [Has05_pay1]; · iexact Has05_pay1
    isplitl [Hm0_6]; · iexact Hm0_6
    iexact Has07_pay1
  ihave Hrow1 : ((mineSl 1).view.loc ((6 : Dev nD) : Thread nD τ) ↦[(mineSl 1).view.set]{fullShare} mineOf (xOf m 6)) $$ [Has10_pay1 Has11_pay1 Has12_pay1 Has13_pay1 Has14_pay1 Has15_pay1 Hm1_6 Has17_pay1]
  · iapply (row_rejoin (F := F) (6 : Dev nD) 1 (xOf m 6))
    isplitl [Has10_pay1]; · iexact Has10_pay1
    isplitl [Has11_pay1]; · iexact Has11_pay1
    isplitl [Has12_pay1]; · iexact Has12_pay1
    isplitl [Has13_pay1]; · iexact Has13_pay1
    isplitl [Has14_pay1]; · iexact Has14_pay1
    isplitl [Has15_pay1]; · iexact Has15_pay1
    isplitl [Hm1_6]; · iexact Hm1_6
    iexact Has17_pay1
  ihave Hmine := (mine_join (F := F) (6 : Dev nD) (mineOf (xOf m 6))) $$ [Hrow0 Hrow1]
  · isplitl [Hrow0]; · iexact Hrow0
    iexact Hrow1
  ihave Hcomm := (halves_join (F := F) (6 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((6 : Dev nD) : Thread nD τ) ↦[(oM : Memref sig .tc .vmem S1024x1024 .bf16).view.set]{fullShare} outOf (fun q => xOf m q) 6) $$ [Ho]
  · have hT : body_6.sl.r_2 m = oTop (fun q => xOf m q) (6 : Dev nD) := by
      sl_unfold_run_names
      exact congrArg₂ k0_pay10 rfl (readCov_top _ _ _)
    have hB : k0_pay13 (body_6.sl.r_3 m) k0_pay12 (body_6.sl.v183 m) = oBot (fun q => xOf m q) (6 : Dev nD) := by
      sl_unfold_run_names
      exact congrArg₂ (fun a b => k0_pay13 (k0_pay11 a) k0_pay12 b) rfl (readCov_bot _ _ _ _)
    iapply (out_settle (F := F) m (6 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.KernelIdeal.Sm

end
-- ==== Proof.Body7.lean ====
/-
  The kernel body on device 7, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.BodyWrap
import proofs.«901053_g7700000000001054_dist_softmax_colshard_i_m1024_n1024_v7x_i8_bf16_1_alg».proof.Proof.BodyPieces
import proofs.«901053_g7700000000001054_dist_softmax_colshard_i_m1024_n1024_v7x_i8_bf16_1_alg».proof.Proof.OpenKit
import proofs.«901053_g7700000000001054_dist_softmax_colshard_i_m1024_n1024_v7x_i8_bf16_1_alg».proof.Proof.Canon
import proofs.«901053_g7700000000001054_dist_softmax_colshard_i_m1024_n1024_v7x_i8_bf16_1_alg».proof.Proof.SendRule
import proofs.«901053_g7700000000001054_dist_softmax_colshard_i_m1024_n1024_v7x_i8_bf16_1_alg».proof.Proof.BodyEnd
import proofs.«901053_g7700000000001054_dist_softmax_colshard_i_m1024_n1024_v7x_i8_bf16_1_alg».proof.Proof.Glue3
import proofs.«901053_g7700000000001054_dist_softmax_colshard_i_m1024_n1024_v7x_i8_bf16_1_alg».proof.Proof.OutFinal

noncomputable section

namespace Cert.KernelIdeal.Sm

set_option maxRecDepth 8000

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_7 (K : Dev nD × Fin 33 → ℕ) (W : Waits sig Unit) (Kt : PUnit → sProp 𝕄) :
    iprop(bodyPreE m K 7 W ∗ (bodyPostE m 7 -∗ Kt ⟨⟩))
      ⊢ wp frame (wpE (defs₀ (F := F)) 𝒱₀ ((7 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((7 : Dev nD) : Thread nD τ) (.reg barS) () (recvOwed 7) := mayWait_recvOwed 7
  -- the precondition taken apart
  unfold bodyPreE ghost linear creds scratches
  rw [erase_chain_7, erase_chain_7, pos_chain, O₀_chain_7]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb2, Htr20, Htr21, Hts02, Hts12⟩, ⟨Htb3, Htr30, Htr31, Hts03, Hts13⟩, ⟨Htb4, Htr40, Htr41, Hts04, Hts14⟩, ⟨Htb5, Htr50, Htr51, Hts05, Hts15⟩, ⟨Htb6, Htr60, Htr61, Hts06, Hts16⟩⟩⟩,
    ⟨Hcb, ⟨Hcv00, Hcv10⟩, ⟨Hcv01, Hcv11⟩, ⟨Hcv02, Hcv12⟩, ⟨Hcv03, Hcv13⟩, ⟨Hcv04, Hcv14⟩, ⟨Hcv05, Hcv15⟩, ⟨Hcv06, Hcv16⟩⟩, #Hlev, ⟨⟨%f0, Hm⟩, Hc⟩, HO, Hx, ⟨%g0, Ho⟩⟩, Hk⟩
  -- the two scratch tables by rows and by slots
  ihave Hm' := (mine_split 7 f0) $$ Hm
  icases Hm' with ⟨Hm0, Hm1⟩
  ihave Hc' := (comm_split_ex (F := F) 7) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 7) $$ HR
  ihave #HIr01 := (inv_recv m K 0 1 7) $$ HR
  ihave #HIr10 := (inv_recv m K 1 0 7) $$ HR
  ihave #HIr11 := (inv_recv m K 1 1 7) $$ HR
  ihave #HIr20 := (inv_recv m K 2 0 7) $$ HR
  ihave #HIr21 := (inv_recv m K 2 1 7) $$ HR
  ihave #HIr30 := (inv_recv m K 3 0 7) $$ HR
  ihave #HIr31 := (inv_recv m K 3 1 7) $$ HR
  ihave #HIr40 := (inv_recv m K 4 0 7) $$ HR
  ihave #HIr41 := (inv_recv m K 4 1 7) $$ HR
  ihave #HIr50 := (inv_recv m K 5 0 7) $$ HR
  ihave #HIr51 := (inv_recv m K 5 1 7) $$ HR
  ihave #HIr60 := (inv_recv m K 6 0 7) $$ HR
  ihave #HIr61 := (inv_recv m K 6 1 7) $$ HR
  ihave #HIs00 := (inv_send m K 7 0 0) $$ HR
  ihave #HIs01 := (inv_send m K 7 0 1) $$ HR
  ihave #HIs02 := (inv_send m K 7 0 2) $$ HR
  ihave #HIs03 := (inv_send m K 7 0 3) $$ HR
  ihave #HIs04 := (inv_send m K 7 0 4) $$ HR
  ihave #HIs05 := (inv_send m K 7 0 5) $$ HR
  ihave #HIs06 := (inv_send m K 7 0 6) $$ HR
  ihave #HIs10 := (inv_send m K 7 1 0) $$ HR
  ihave #HIs11 := (inv_send m K 7 1 1) $$ HR
  ihave #HIs12 := (inv_send m K 7 1 2) $$ HR
  ihave #HIs13 := (inv_send m K 7 1 3) $$ HR
  ihave #HIs14 := (inv_send m K 7 1 4) $$ HR
  ihave #HIs15 := (inv_send m K 7 1 5) $$ HR
  ihave #HIs16 := (inv_send m K 7 1 6) $$ HR
  ihave #HIv00 := (inv_recv m K 7 0 0) $$ HR
  ihave #HIv01 := (inv_recv m K 7 0 1) $$ HR
  ihave #HIv02 := (inv_recv m K 7 0 2) $$ HR
  ihave #HIv03 := (inv_recv m K 7 0 3) $$ HR
  ihave #HIv04 := (inv_recv m K 7 0 4) $$ HR
  ihave #HIv05 := (inv_recv m K 7 0 5) $$ HR
  ihave #HIv06 := (inv_recv m K 7 0 6) $$ HR
  ihave #HIv10 := (inv_recv m K 7 1 0) $$ HR
  ihave #HIv11 := (inv_recv m K 7 1 1) $$ HR
  ihave #HIv12 := (inv_recv m K 7 1 2) $$ HR
  ihave #HIv13 := (inv_recv m K 7 1 3) $$ HR
  ihave #HIv14 := (inv_recv m K 7 1 4) $$ HR
  ihave #HIv15 := (inv_recv m K 7 1 5) $$ HR
  ihave #HIv16 := (inv_recv m K 7 1 6) $$ HR
  ihave #Hrb0 := (reached_bar m K 0) $$ HR
  ihave #Hrb1 := (reached_bar m K 1) $$ HR
  ihave #Hrb2 := (reached_bar m K 2) $$ HR
  ihave #Hrb3 := (reached_bar m K 3) $$ HR
  ihave #Hrb4 := (reached_bar m K 4) $$ HR
  ihave #Hrb5 := (reached_bar m K 5) $$ HR
  ihave #Hrb6 := (reached_bar m K 6) $$ HR
  ihave #Hrr00 := (reached_recv m K 0 0 7) $$ HR
  ihave #Hrr01 := (reached_recv m K 0 1 7) $$ HR
  ihave #Hrr10 := (reached_recv m K 1 0 7) $$ HR
  ihave #Hrr11 := (reached_recv m K 1 1 7) $$ HR
  ihave #Hrr20 := (reached_recv m K 2 0 7) $$ HR
  ihave #Hrr21 := (reached_recv m K 2 1 7) $$ HR
  ihave #Hrr30 := (reached_recv m K 3 0 7) $$ HR
  ihave #Hrr31 := (reached_recv m K 3 1 7) $$ HR
  ihave #Hrr40 := (reached_recv m K 4 0 7) $$ HR
  ihave #Hrr41 := (reached_recv m K 4 1 7) $$ HR
  ihave #Hrr50 := (reached_recv m K 5 0 7) $$ HR
  ihave #Hrr51 := (reached_recv m K 5 1 7) $$ HR
  ihave #Hrr60 := (reached_recv m K 6 0 7) $$ HR
  ihave #Hrr61 := (reached_recv m K 6 1 7) $$ HR
  ihave #Hrs00 := (reached_send m K 7 0 0) $$ HR
  ihave #Hrs01 := (reached_send m K 7 0 1) $$ HR
  ihave #Hrs02 := (reached_send m K 7 0 2) $$ HR
  ihave #Hrs03 := (reached_send m K 7 0 3) $$ HR
  ihave #Hrs04 := (reached_send m K 7 0 4) $$ HR
  ihave #Hrs05 := (reached_send m K 7 0 5) $$ HR
  ihave #Hrs06 := (reached_send m K 7 0 6) $$ HR
  ihave #Hrs10 := (reached_send m K 7 1 0) $$ HR
  ihave #Hrs11 := (reached_send m K 7 1 1) $$ HR
  ihave #Hrs12 := (reached_send m K 7 1 2) $$ HR
  ihave #Hrs13 := (reached_send m K 7 1 3) $$ HR
  ihave #Hrs14 := (reached_send m K 7 1 4) $$ HR
  ihave #Hrs15 := (reached_send m K 7 1 5) $$ HR
  ihave #Hrs16 := (reached_send m K 7 1 6) $$ HR
  -- the diagonal cells' invariants (never used by a copy; closed at the end)
  ihave #HIs07 := (inv_send m K 7 0 7) $$ HR
  ihave #HIs17 := (inv_send m K 7 1 7) $$ HR
  ihave #HIv07 := (inv_recv m K 7 0 7) $$ HR
  ihave #HIv17 := (inv_recv m K 7 1 7) $$ HR
  iclear HR
  rw [cc0_body_eq_skeleton]; unfold cc0_body_skel
  -- the device's own two slots of its table, at their contents
  icases Hc70 with ⟨%fc0, Hc70⟩
  icases Hc71 with ⟨%fc1, Hc71⟩
  -- the seven barrier units, the first half's exponentials and row sums, the barrier wait
  sl_exec_parts
  -- what the barrier brought: the peers' slots for this device; what is still owed, in paying order; the first row in shares
  ihave HO := (owes_pay_7 (F := F) _) $$ HO
  ihave Hp := (Entails.of_eq (erase_chain_7 _)) $$ Hab_pay1
  icases Hp with ⟨⟨⟨%fd00, Hd00⟩, ⟨%fd01, Hd01⟩⟩, ⟨⟨%fd10, Hd10⟩, ⟨%fd11, Hd11⟩⟩, ⟨⟨%fd20, Hd20⟩, ⟨%fd21, Hd21⟩⟩, ⟨⟨%fd30, Hd30⟩, ⟨%fd31, Hd31⟩⟩, ⟨⟨%fd40, Hd40⟩, ⟨%fd41, Hd41⟩⟩, ⟨⟨%fd50, Hd50⟩, ⟨%fd51, Hd51⟩⟩, ⟨⟨%fd60, Hd60⟩, ⟨%fd61, Hd61⟩⟩⟩
  ihave Hm0s : iprop(((mineSl 0).view.loc ((7 : Dev nD) : Thread nD τ) ↦[(mineSl 0).view.set]{shr 0} mineOf (xOf m 7)) ∗ ((mineSl 0).view.loc ((7 : Dev nD) : Thread nD τ) ↦[(mineSl 0).view.set]{shr 1} mineOf (xOf m 7)) ∗ ((mineSl 0).view.loc ((7 : Dev nD) : Thread nD τ) ↦[(mineSl 0).view.set]{shr 2} mineOf (xOf m 7)) ∗ ((mineSl 0).view.loc ((7 : Dev nD) : Thread nD τ) ↦[(mineSl 0).view.set]{shr 3} mineOf (xOf m 7)) ∗ ((mineSl 0).view.loc ((7 : Dev nD) : Thread nD τ) ↦[(mineSl 0).view.set]{shr 4} mineOf (xOf m 7)) ∗ ((mineSl 0).view.loc ((7 : Dev nD) : Thread nD τ) ↦[(mineSl 0).view.set]{shr 5} mineOf (xOf m 7)) ∗ ((mineSl 0).view.loc ((7 : Dev nD) : Thread nD τ) ↦[(mineSl 0).view.set]{shr 6} mineOf (xOf m 7)) ∗ ((mineSl 0).view.loc ((7 : Dev nD) : Thread nD τ) ↦[(mineSl 0).view.set]{shr 7} mineOf (xOf m 7))) $$ [Hm0]
  · iapply (row0_shares (F := F) (7 : Dev nD) (xOf m 7) f0); iexact Hm0
  icases Hm0s with ⟨Hm0_0, Hm0_1, Hm0_2, Hm0_3, Hm0_4, Hm0_5, Hm0_6, Hm0_7⟩
  -- the seven copies of the first row
  iapply (wp_send_slot m _ _ 7 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 7 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 7 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 7 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 7 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 7 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 7 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  -- the second row in shares, its seven copies
  ihave Hm1s : iprop(((mineSl 1).view.loc ((7 : Dev nD) : Thread nD τ) ↦[(mineSl 1).view.set]{shr 0} mineOf (xOf m 7)) ∗ ((mineSl 1).view.loc ((7 : Dev nD) : Thread nD τ) ↦[(mineSl 1).view.set]{shr 1} mineOf (xOf m 7)) ∗ ((mineSl 1).view.loc ((7 : Dev nD) : Thread nD τ) ↦[(mineSl 1).view.set]{shr 2} mineOf (xOf m 7)) ∗ ((mineSl 1).view.loc ((7 : Dev nD) : Thread nD τ) ↦[(mineSl 1).view.set]{shr 3} mineOf (xOf m 7)) ∗ ((mineSl 1).view.loc ((7 : Dev nD) : Thread nD τ) ↦[(mineSl 1).view.set]{shr 4} mineOf (xOf m 7)) ∗ ((mineSl 1).view.loc ((7 : Dev nD) : Thread nD τ) ↦[(mineSl 1).view.set]{shr 5} mineOf (xOf m 7)) ∗ ((mineSl 1).view.loc ((7 : Dev nD) : Thread nD τ) ↦[(mineSl 1).view.set]{shr 6} mineOf (xOf m 7)) ∗ ((mineSl 1).view.loc ((7 : Dev nD) : Thread nD τ) ↦[(mineSl 1).view.set]{shr 7} mineOf (xOf m 7))) $$ [Hm1]
  · iapply (row1_shares (F := F) (7 : Dev nD) (xOf m 7) f0); iexact Hm1
  icases Hm1s with ⟨Hm1_0, Hm1_1, Hm1_2, Hm1_3, Hm1_4, Hm1_5, Hm1_6, Hm1_7⟩
  iapply (wp_send_slot m _ _ 7 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 7 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 7 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 7 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 7 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 7 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  ihave HO := (owes_zero_add (F := F) (7 : Dev nD) _ _) $$ HO
  iapply (wp_send_slot m _ _ 7 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  -- the first half of the table whole: the seven landings and the own slot; its sum, the first half of the result
  ihave Hown0 : ((commSl 7 0).view.loc ((7 : Dev nD) : Thread nD τ) ↦[(commSl 7 0).view.set]{fullShare} commOf (Xs m)) $$ [Hc70]
  · iapply (own_slot0 (F := F) m (7 : Dev nD) fc0 _); iexact Hc70
  ihave Hh0 : ((halfM 0).view.loc ((7 : Dev nD) : Thread nD τ) ↦[(halfM 0).view.set]{fullShare} commOf (Xs m)) $$ [Hav00_pay1 Hav01_pay1 Hav02_pay1 Hav03_pay1 Hav04_pay1 Hav05_pay1 Hav06_pay1 Hown0]
  · iapply (half_join (F := F) (7 : Dev nD) 0 (commOf (Xs m)))
    isplitl [Hav00_pay1]; · iexact Hav00_pay1
    isplitl [Hav01_pay1]; · iexact Hav01_pay1
    isplitl [Hav02_pay1]; · iexact Hav02_pay1
    isplitl [Hav03_pay1]; · iexact Hav03_pay1
    isplitl [Hav04_pay1]; · iexact Hav04_pay1
    isplitl [Hav05_pay1]; · iexact Hav05_pay1
    isplitl [Hav06_pay1]; · iexact Hav06_pay1
    iexact Hown0
  have hsub0a := half_access_sub0
  have hsub0b := half_setOn_sub0
  sl_exec_parts
  -- the second half likewise; then the departures' waits
  ihave Hown1 : ((commSl 7 1).view.loc ((7 : Dev nD) : Thread nD τ) ↦[(commSl 7 1).view.set]{fullShare} commOf (Xs m)) $$ [Hc71]
  · iapply (own_slot1 (F := F) m (7 : Dev nD) fc1 _); iexact Hc71
  ihave Hh1 : ((halfM 1).view.loc ((7 : Dev nD) : Thread nD τ) ↦[(halfM 1).view.set]{fullShare} commOf (Xs m)) $$ [Hav10_pay1 Hav11_pay1 Hav12_pay1 Hav13_pay1 Hav14_pay1 Hav15_pay1 Hav16_pay1 Hown1]
  · iapply (half_join (F := F) (7 : Dev nD) 1 (commOf (Xs m)))
    isplitl [Hav10_pay1]; · iexact Hav10_pay1
    isplitl [Hav11_pay1]; · iexact Hav11_pay1
    isplitl [Hav12_pay1]; · iexact Hav12_pay1
    isplitl [Hav13_pay1]; · iexact Hav13_pay1
    isplitl [Hav14_pay1]; · iexact Hav14_pay1
    isplitl [Hav15_pay1]; · iexact Hav15_pay1
    isplitl [Hav16_pay1]; · iexact Hav16_pay1
    iexact Hown1
  have hsub1a := half_access_sub1
  have hsub1b := half_setOn_sub1
  sl_exec_parts
  -- the cells closed
  imod (close_send m _ 7 0 0 1 (.inr le_rfl)) $$ [Has00] with Hzs00
  · isplitr; · iexact HIs00
    iexact Has00
  imod (close_send m _ 7 0 1 1 (.inr le_rfl)) $$ [Has01] with Hzs01
  · isplitr; · iexact HIs01
    iexact Has01
  imod (close_send m _ 7 0 2 1 (.inr le_rfl)) $$ [Has02] with Hzs02
  · isplitr; · iexact HIs02
    iexact Has02
  imod (close_send m _ 7 0 3 1 (.inr le_rfl)) $$ [Has03] with Hzs03
  · isplitr; · iexact HIs03
    iexact Has03
  imod (close_send m _ 7 0 4 1 (.inr le_rfl)) $$ [Has04] with Hzs04
  · isplitr; · iexact HIs04
    iexact Has04
  imod (close_send m _ 7 0 5 1 (.inr le_rfl)) $$ [Has05] with Hzs05
  · isplitr; · iexact HIs05
    iexact Has05
  imod (close_send m _ 7 0 6 1 (.inr le_rfl)) $$ [Has06] with Hzs06
  · isplitr; · iexact HIs06
    iexact Has06
  imod (close_send m _ 7 0 7 0 (.inl rfl)) $$ [Has07] with Hzs07
  · isplitr; · iexact HIs07
    iexact Has07
  imod (close_send m _ 7 1 0 1 (.inr le_rfl)) $$ [Has10] with Hzs10
  · isplitr; · iexact HIs10
    iexact Has10
  imod (close_send m _ 7 1 1 1 (.inr le_rfl)) $$ [Has11] with Hzs11
  · isplitr; · iexact HIs11
    iexact Has11
  imod (close_send m _ 7 1 2 1 (.inr le_rfl)) $$ [Has12] with Hzs12
  · isplitr; · iexact HIs12
    iexact Has12
  imod (close_send m _ 7 1 3 1 (.inr le_rfl)) $$ [Has13] with Hzs13
  · isplitr; · iexact HIs13
    iexact Has13
  imod (close_send m _ 7 1 4 1 (.inr le_rfl)) $$ [Has14] with Hzs14
  · isplitr; · iexact HIs14
    iexact Has14
  imod (close_send m _ 7 1 5 1 (.inr le_rfl)) $$ [Has15] with Hzs15
  · isplitr; · iexact HIs15
    iexact Has15
  imod (close_send m _ 7 1 6 1 (.inr le_rfl)) $$ [Has16] with Hzs16
  · isplitr; · iexact HIs16
    iexact Has16
  imod (close_send m _ 7 1 7 0 (.inl rfl)) $$ [Has17] with Hzs17
  · isplitr; · iexact HIs17
    iexact Has17
  imod (close_recv m _ 7 0 0 1 (.inr le_rfl)) $$ [Hav00] with Hzv00
  · isplitr; · iexact HIv00
    iexact Hav00
  imod (close_recv m _ 7 0 1 1 (.inr le_rfl)) $$ [Hav01] with Hzv01
  · isplitr; · iexact HIv01
    iexact Hav01
  imod (close_recv m _ 7 0 2 1 (.inr le_rfl)) $$ [Hav02] with Hzv02
  · isplitr; · iexact HIv02
    iexact Hav02
  imod (close_recv m _ 7 0 3 1 (.inr le_rfl)) $$ [Hav03] with Hzv03
  · isplitr; · iexact HIv03
    iexact Hav03
  imod (close_recv m _ 7 0 4 1 (.inr le_rfl)) $$ [Hav04] with Hzv04
  · isplitr; · iexact HIv04
    iexact Hav04
  imod (close_recv m _ 7 0 5 1 (.inr le_rfl)) $$ [Hav05] with Hzv05
  · isplitr; · iexact HIv05
    iexact Hav05
  imod (close_recv m _ 7 0 6 1 (.inr le_rfl)) $$ [Hav06] with Hzv06
  · isplitr; · iexact HIv06
    iexact Hav06
  imod (close_recv m _ 7 0 7 0 (.inl rfl)) $$ [Hav07] with Hzv07
  · isplitr; · iexact HIv07
    iexact Hav07
  imod (close_recv m _ 7 1 0 1 (.inr le_rfl)) $$ [Hav10] with Hzv10
  · isplitr; · iexact HIv10
    iexact Hav10
  imod (close_recv m _ 7 1 1 1 (.inr le_rfl)) $$ [Hav11] with Hzv11
  · isplitr; · iexact HIv11
    iexact Hav11
  imod (close_recv m _ 7 1 2 1 (.inr le_rfl)) $$ [Hav12] with Hzv12
  · isplitr; · iexact HIv12
    iexact Hav12
  imod (close_recv m _ 7 1 3 1 (.inr le_rfl)) $$ [Hav13] with Hzv13
  · isplitr; · iexact HIv13
    iexact Hav13
  imod (close_recv m _ 7 1 4 1 (.inr le_rfl)) $$ [Hav14] with Hzv14
  · isplitr; · iexact HIv14
    iexact Hav14
  imod (close_recv m _ 7 1 5 1 (.inr le_rfl)) $$ [Hav15] with Hzv15
  · isplitr; · iexact HIv15
    iexact Hav15
  imod (close_recv m _ 7 1 6 1 (.inr le_rfl)) $$ [Hav16] with Hzv16
  · isplitr; · iexact HIv16
    iexact Hav16
  imod (close_recv m _ 7 1 7 0 (.inl rfl)) $$ [Hav17] with Hzv17
  · isplitr; · iexact HIv17
    iexact Hav17
  -- the two tables whole again
  ihave Hrow0 : ((mineSl 0).view.loc ((7 : Dev nD) : Thread nD τ) ↦[(mineSl 0).view.set]{fullShare} mineOf (xOf m 7)) $$ [Has00_pay1 Has01_pay1 Has02_pay1 Has03_pay1 Has04_pay1 Has05_pay1 Has06_pay1 Hm0_7]
  · iapply (row_rejoin (F := F) (7 : Dev nD) 0 (xOf m 7))
    isplitl [Has00_pay1]; · iexact Has00_pay1
    isplitl [Has01_pay1]; · iexact Has01_pay1
    isplitl [Has02_pay1]; · iexact Has02_pay1
    isplitl [Has03_pay1]; · iexact Has03_pay1
    isplitl [Has04_pay1]; · iexact Has04_pay1
    isplitl [Has05_pay1]; · iexact Has05_pay1
    isplitl [Has06_pay1]; · iexact Has06_pay1
    iexact Hm0_7
  ihave Hrow1 : ((mineSl 1).view.loc ((7 : Dev nD) : Thread nD τ) ↦[(mineSl 1).view.set]{fullShare} mineOf (xOf m 7)) $$ [Has10_pay1 Has11_pay1 Has12_pay1 Has13_pay1 Has14_pay1 Has15_pay1 Has16_pay1 Hm1_7]
  · iapply (row_rejoin (F := F) (7 : Dev nD) 1 (xOf m 7))
    isplitl [Has10_pay1]; · iexact Has10_pay1
    isplitl [Has11_pay1]; · iexact Has11_pay1
    isplitl [Has12_pay1]; · iexact Has12_pay1
    isplitl [Has13_pay1]; · iexact Has13_pay1
    isplitl [Has14_pay1]; · iexact Has14_pay1
    isplitl [Has15_pay1]; · iexact Has15_pay1
    isplitl [Has16_pay1]; · iexact Has16_pay1
    iexact Hm1_7
  ihave Hmine := (mine_join (F := F) (7 : Dev nD) (mineOf (xOf m 7))) $$ [Hrow0 Hrow1]
  · isplitl [Hrow0]; · iexact Hrow0
    iexact Hrow1
  ihave Hcomm := (halves_join (F := F) (7 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((7 : Dev nD) : Thread nD τ) ↦[(oM : Memref sig .tc .vmem S1024x1024 .bf16).view.set]{fullShare} outOf (fun q => xOf m q) 7) $$ [Ho]
  · have hT : body_7.sl.r_2 m = oTop (fun q => xOf m q) (7 : Dev nD) := by
      sl_unfold_run_names
      exact congrArg₂ k0_pay10 rfl (readCov_top _ _ _)
    have hB : k0_pay13 (body_7.sl.r_3 m) k0_pay12 (body_7.sl.v183 m) = oBot (fun q => xOf m q) (7 : Dev nD) := by
      sl_unfold_run_names
      exact congrArg₂ (fun a b => k0_pay13 (k0_pay11 a) k0_pay12 b) rfl (readCov_bot _ _ _ _)
    iapply (out_settle (F := F) m (7 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.KernelIdeal.Sm

end
-- ==== Proof.BodyAll.lean ====
/-
  The kernel body's proof on every device, from its proof on each of the eight.
-/
import proofs.«901053_g7700000000001054_dist_softmax_colshard_i_m1024_n1024_v7x_i8_bf16_1_alg».proof.Proof.BodyWrap
import proofs.«901053_g7700000000001054_dist_softmax_colshard_i_m1024_n1024_v7x_i8_bf16_1_alg».proof.Proof.Body0
import proofs.«901053_g7700000000001054_dist_softmax_colshard_i_m1024_n1024_v7x_i8_bf16_1_alg».proof.Proof.Body1
import proofs.«901053_g7700000000001054_dist_softmax_colshard_i_m1024_n1024_v7x_i8_bf16_1_alg».proof.Proof.Body2
import proofs.«901053_g7700000000001054_dist_softmax_colshard_i_m1024_n1024_v7x_i8_bf16_1_alg».proof.Proof.Body3
import proofs.«901053_g7700000000001054_dist_softmax_colshard_i_m1024_n1024_v7x_i8_bf16_1_alg».proof.Proof.Body4
import proofs.«901053_g7700000000001054_dist_softmax_colshard_i_m1024_n1024_v7x_i8_bf16_1_alg».proof.Proof.Body5
import proofs.«901053_g7700000000001054_dist_softmax_colshard_i_m1024_n1024_v7x_i8_bf16_1_alg».proof.Proof.Body6
import proofs.«901053_g7700000000001054_dist_softmax_colshard_i_m1024_n1024_v7x_i8_bf16_1_alg».proof.Proof.Body7

noncomputable section

namespace Cert.KernelIdeal.Sm

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The kernel body's obligation on every device: the eight devices one by one. -/
theorem body_all (c : Dev nD) : BodyObligation (dats (F := F) m ρ 0 c) (defs₀ (F := F)) 𝒱₀ () Set.univ := by
  have h8 : ∀ c : Dev nD, c = 0 ∨ c = 1 ∨ c = 2 ∨ c = 3 ∨ c = 4 ∨ c = 5 ∨ c = 6 ∨ c = 7 := by decide
  rcases h8 c with rfl | rfl | rfl | rfl | rfl | rfl | rfl | rfl
  · exact body_obligation_of m ρ 0 (body_0 m)
  · exact body_obligation_of m ρ 1 (body_1 m)
  · exact body_obligation_of m ρ 2 (body_2 m)
  · exact body_obligation_of m ρ 3 (body_3 m)
  · exact body_obligation_of m ρ 4 (body_4 m)
  · exact body_obligation_of m ρ 5 (body_5 m)
  · exact body_obligation_of m ρ 6 (body_6 m)
  · exact body_obligation_of m ρ 7 (body_7 m)

end Cert.KernelIdeal.Sm

end
-- ==== Proof.W.BodyWrap.lean ====
/-
  Between the library's body obligation and a device's body theorem: the obligation's precondition regrouped into the
  hypotheses the body is run from, and its postcondition made from what the body ends with.
-/
import proofs.«901053_g7700000000001054_dist_softmax_colshard_i_m1024_n1024_v7x_i8_bf16_1_alg».proof.Proof.W.Launch

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The body's ends -/

/-- What device c's body is run from: its ghost state at the names K, its credit tokens, the level facts, its two scratch
    tables, what it owes, its input block staged, its result's staging buffer at some contents. -/
def bodyPreE (K : Dev nD × Fin 33 → ℕ) (c : Dev nD) (W : Waits sig Unit) : sProp 𝕄 :=
  iprop(ghost m K c ∗ creds c ∗ levAts L lv ∗ scratches c ∗ owes (c : Thread nD τ) (O₀ c) W
    ∗ ((xM : Memref sig .tc .vmem S1024x1024 .f32).view.loc (c : Thread nD τ) ↦[(xM : Memref sig .tc .vmem S1024x1024 .f32).view.set]{fullShare} xOf m c)
    ∗ (∃ g : OBlk F, (oM : Memref sig .tc .vmem S1024x1024 .bf16).view.loc (c : Thread nD τ) ↦[(oM : Memref sig .tc .vmem S1024x1024 .bf16).view.set]{fullShare} g))

/-- What it ends with: the scratch tables and its 32 semaphores at zero, nothing owed, the input block as staged, the result
    block computed. -/
def bodyPostE (c : Dev nD) : sProp 𝕄 :=
  iprop(Φ₁ c ∗ (∃ W', owes (c : Thread nD τ) 0 W')
    ∗ ((xM : Memref sig .tc .vmem S1024x1024 .f32).view.loc (c : Thread nD τ) ↦[(xM : Memref sig .tc .vmem S1024x1024 .f32).view.set]{fullShare} xOf m c)
    ∗ ((oM : Memref sig .tc .vmem S1024x1024 .bf16).view.loc (c : Thread nD τ) ↦[(oM : Memref sig .tc .vmem S1024x1024 .bf16).view.set]{fullShare} outOf (fun q => xOf m q) c))

/-! ## The obligation's own ends -/

/-- A whole staging buffer at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

omit [FloatOps F] in
theorem xPts_eq (c : Dev nD) (f : XBlk F) :
    ((xM : Memref sig .tc .vmem S1024x1024 .f32).view.loc (c : Thread nD τ) ↦[(xM : Memref sig .tc .vmem S1024x1024 .f32).view.set]{fullShare} f : sProp 𝕄)
      = (((c : Thread nD τ).loc cc0_stg0_0) ↦{fullShare} f : sProp 𝕄) := by
  show ((View.whole cc0_stg0_0).loc (c : Thread nD τ) ↦[(View.whole cc0_stg0_0).set]{fullShare} f : sProp 𝕄) = _
  rw [View.set_whole]
omit [FloatOps F] in
theorem oPts_eq (c : Dev nD) (f : OBlk F) :
    ((oM : Memref sig .tc .vmem S1024x1024 .bf16).view.loc (c : Thread nD τ) ↦[(oM : Memref sig .tc .vmem S1024x1024 .bf16).view.set]{fullShare} f : sProp 𝕄)
      = (((c : Thread nD τ).loc cc0_stg1_0) ↦{fullShare} f : sProp 𝕄) := by
  show ((View.whole cc0_stg1_0).loc (c : Thread nD τ) ↦[(View.whole cc0_stg1_0).set]{fullShare} f : sProp 𝕄) = _
  rw [View.set_whole]

set_option maxRecDepth 4000 in
def wrapPre (c : Dev nD) : sProp 𝕄 :=
  iprop(Φ₀ m c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
def wrapPost (c : Dev nD) : sProp 𝕄 :=
  iprop(Φ₁ c ∗ (dats m ρ 0 c).owesAt () t₀.succ ∗ stg c cc0_stg0_0 (xstg m ρ c) ∗ stg c cc0_stg1_0 (outOf (fun q => xstg m ρ q) c))

set_option maxRecDepth 4000 in
/-- The library's body obligation on device c, from the body run between `bodyPreE` and `bodyPostE`. -/
theorem body_obligation_of (c : Dev nD)
    (h : ∀ (K : Dev nD × Fin 33 → ℕ) (W : Waits sig Unit) (Kt : PUnit → sProp 𝕄),
      iprop(bodyPreE m K c W ∗ (bodyPostE m c -∗ Kt ⟨⟩))
        ⊢ wp frame (wpE (defs₀ (F := F)) 𝒱₀ (c : Thread nD τ) none) Set.univ
            (cc0_body (Memref.whole cc0_stg0_0) (Memref.isWhole_whole _) (Memref.whole cc0_stg1_0) (Memref.isWhole_whole _)
              (Memref.whole cc0_scratch0) (Memref.isWhole_whole _) (Memref.whole cc0_scratch1) (Memref.isWhole_whole _) cc0_scratch2 cc0_scratch3) Kt) :
    BodyObligation (dats (F := F) m ρ 0 c) (defs₀ (F := F)) 𝒱₀ () Set.univ := fun t => by
  rw [fin_N t]
  rw [bigSep_W0, bigSep_W0]
  simp only [owns_whole_eq]
  show wrapPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => wrapPost m ρ c)
  unfold wrapPre Φ₀ start Dat.owesAt Pipeline.owesWithin
  iintro ⟨⟨⟨⟨%K, Hg⟩, Hcr, Hlev⟩, Hscr⟩, ⟨%W, %hW, HO⟩, ⟨%d0, %g0, %hg0, Hx⟩, ⟨%d1, %g1, %hg1, Hout⟩⟩
  have hx : g0 = xOf m c := by rw [hg0]; unfold Dat.before; rw [if_pos (fetch0_0 t₀)]; exact xstg_eq m ρ c
  subst hx
  rw [show (dats m ρ 0 c).owed t₀.castSucc = O₀ c from rfl]
  iapply (h K W fun _ => wrapPost m ρ c)
  isplitr []
  · unfold bodyPreE
    isplitl [Hg]; · iexact Hg
    isplitl [Hcr]; · iexact Hcr
    isplitl [Hlev]; · iexact Hlev
    isplitl [Hscr]; · iexact Hscr
    isplitl [HO]; · iexact HO
    isplitl [Hx]; · rw [xPts_eq]; iexact Hx
    iexists g1; rw [oPts_eq]; iexact Hout
  · unfold bodyPostE wrapPost Dat.owesAt Pipeline.owesWithin
    rw [show (dats m ρ 0 c).owed t₀.succ = 0 from rfl, xPts_eq, oPts_eq]
    iintro ⟨HΦ, ⟨%W', HO⟩, Hx, Hout⟩
    isplitl [HΦ]; · iexact HΦ
    isplitl [HO]
    · iexists W'; isplitr; · ipureintro; exact fun _ _ => Or.inl trivial
      iexact HO
    isplitl [Hx]
    · iexists _; isplitr; · (ipureintro; exact (xstg_eq m ρ c).symm)
      iexact Hx
    iexists _; isplitr; · (ipureintro; rw [funext (xstg_eq m ρ)])
    iexact Hout

end Cert.Kernel.Sm

end
-- ==== Proof.W.BodyPieces.lean ====
/-
  The ghost state of a device taken apart: each cell's invariant and reached mark out of the records, and the families over
  the other seven devices, over a device's 33 cells and over its 32 own semaphores as explicit chains.
-/
import proofs.«901053_g7700000000001054_dist_softmax_colshard_i_m1024_n1024_v7x_i8_bf16_1_alg».proof.Proof.W.LaunchDeal

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Out of the records -/

omit [FloatOps F] in
theorem kcell_bar (c : Dev nD) : kcell (c, 0) = barCell c := rfl

theorem inv_of_all (K : Dev nD × Fin 33 → ℕ) (ck : Dev nD × Fin 33) :
    (bigSep Finset.univ fun ck : Dev nD × Fin 33 => (cellInv ER (sched m) (K ck) (kcell ck) : sProp 𝕄)) ⊢ cellInv ER (sched m) (K ck) (kcell ck) :=
  bigSep_elim (Finset.mem_univ ck)
omit [FloatOps F] in
theorem reached_of_all (ck : Dev nD × Fin 33) :
    (bigSep Finset.univ fun ck : Dev nD × Fin 33 => (reached ER (kcell ck) 0 : sProp 𝕄)) ⊢ reached ER (kcell ck) 0 :=
  bigSep_elim (Finset.mem_univ ck)

theorem inv_at (K : Dev nD × Fin 33 → ℕ) (ck : Dev nD × Fin 33) : records m K ⊢ cellInv ER (sched m) (K ck) (kcell ck) := by
  unfold records; iintro ⟨HI, -⟩; iapply (inv_of_all m K ck); iexact HI
theorem reached_at (K : Dev nD × Fin 33 → ℕ) (ck : Dev nD × Fin 33) : records m K ⊢ reached ER (kcell ck) 0 := by
  unfold records; iintro ⟨-, HR⟩; iapply (reached_of_all (F := F) ck); iexact HR

theorem inv_bar (K : Dev nD × Fin 33 → ℕ) (p : Dev nD) : records m K ⊢ cellInv ER (sched m) (K (p, 0)) (barCell p) := inv_at m K (p, 0)
theorem inv_send (K : Dev nD × Fin 33 → ℕ) (p : Dev nD) (b : Fin 2) (q : Dev nD) :
    records m K ⊢ cellInv ER (sched m) (K (p, kSend b q)) (sendCell p b q) := by
  have h := inv_at m K (p, kSend b q); rw [kcell_send] at h; exact h
theorem inv_recv (K : Dev nD × Fin 33 → ℕ) (p : Dev nD) (b : Fin 2) (q : Dev nD) :
    records m K ⊢ cellInv ER (sched m) (K (p, kRecv b q)) (recvCell p b q) := by
  have h := inv_at m K (p, kRecv b q); rw [kcell_recv] at h; exact h

theorem reached_bar (K : Dev nD × Fin 33 → ℕ) (p : Dev nD) : records m K ⊢ reached ER (barCell p) 0 := reached_at m K (p, 0)
theorem reached_send (K : Dev nD × Fin 33 → ℕ) (p : Dev nD) (b : Fin 2) (q : Dev nD) : records m K ⊢ reached ER (sendCell p b q) 0 := by
  have h := reached_at m K (p, kSend b q); rw [kcell_send] at h; exact h
theorem reached_recv (K : Dev nD × Fin 33 → ℕ) (p : Dev nD) (b : Fin 2) (q : Dev nD) : records m K ⊢ reached ER (recvCell p b q) 0 := by
  have h := reached_at m K (p, kRecv b q); rw [kcell_recv] at h; exact h

/-! ## A family over the seven other devices, for each device -/

section
omit [FloatOps F]
theorem erase_chain_0 (Φ : Dev nD → sProp 𝕄) : bigSep (Finset.univ.erase (0 : Dev nD)) Φ = iprop(Φ 1 ∗ Φ 2 ∗ Φ 3 ∗ Φ 4 ∗ Φ 5 ∗ Φ 6 ∗ Φ 7) :=
  bigSep_eq_bigSepL_of_eq [1, 2, 3, 4, 5, 6, 7] (by decide) (by decide) Φ
theorem erase_chain_1 (Φ : Dev nD → sProp 𝕄) : bigSep (Finset.univ.erase (1 : Dev nD)) Φ = iprop(Φ 0 ∗ Φ 2 ∗ Φ 3 ∗ Φ 4 ∗ Φ 5 ∗ Φ 6 ∗ Φ 7) :=
  bigSep_eq_bigSepL_of_eq [0, 2, 3, 4, 5, 6, 7] (by decide) (by decide) Φ
theorem erase_chain_2 (Φ : Dev nD → sProp 𝕄) : bigSep (Finset.univ.erase (2 : Dev nD)) Φ = iprop(Φ 0 ∗ Φ 1 ∗ Φ 3 ∗ Φ 4 ∗ Φ 5 ∗ Φ 6 ∗ Φ 7) :=
  bigSep_eq_bigSepL_of_eq [0, 1, 3, 4, 5, 6, 7] (by decide) (by decide) Φ
theorem erase_chain_3 (Φ : Dev nD → sProp 𝕄) : bigSep (Finset.univ.erase (3 : Dev nD)) Φ = iprop(Φ 0 ∗ Φ 1 ∗ Φ 2 ∗ Φ 4 ∗ Φ 5 ∗ Φ 6 ∗ Φ 7) :=
  bigSep_eq_bigSepL_of_eq [0, 1, 2, 4, 5, 6, 7] (by decide) (by decide) Φ
theorem erase_chain_4 (Φ : Dev nD → sProp 𝕄) : bigSep (Finset.univ.erase (4 : Dev nD)) Φ = iprop(Φ 0 ∗ Φ 1 ∗ Φ 2 ∗ Φ 3 ∗ Φ 5 ∗ Φ 6 ∗ Φ 7) :=
  bigSep_eq_bigSepL_of_eq [0, 1, 2, 3, 5, 6, 7] (by decide) (by decide) Φ
theorem erase_chain_5 (Φ : Dev nD → sProp 𝕄) : bigSep (Finset.univ.erase (5 : Dev nD)) Φ = iprop(Φ 0 ∗ Φ 1 ∗ Φ 2 ∗ Φ 3 ∗ Φ 4 ∗ Φ 6 ∗ Φ 7) :=
  bigSep_eq_bigSepL_of_eq [0, 1, 2, 3, 4, 6, 7] (by decide) (by decide) Φ
theorem erase_chain_6 (Φ : Dev nD → sProp 𝕄) : bigSep (Finset.univ.erase (6 : Dev nD)) Φ = iprop(Φ 0 ∗ Φ 1 ∗ Φ 2 ∗ Φ 3 ∗ Φ 4 ∗ Φ 5 ∗ Φ 7) :=
  bigSep_eq_bigSepL_of_eq [0, 1, 2, 3, 4, 5, 7] (by decide) (by decide) Φ
theorem erase_chain_7 (Φ : Dev nD → sProp 𝕄) : bigSep (Finset.univ.erase (7 : Dev nD)) Φ = iprop(Φ 0 ∗ Φ 1 ∗ Φ 2 ∗ Φ 3 ∗ Φ 4 ∗ Φ 5 ∗ Φ 6) :=
  bigSep_eq_bigSepL_of_eq [0, 1, 2, 3, 4, 5, 6] (by decide) (by decide) Φ
end

/-! ## A family over a device's 33 cells: the barrier cell, the 16 send cells, the 16 receive cells -/

omit [FloatOps F] in
theorem fin33_chain (Ψ : Fin 33 → sProp 𝕄) : bigSep Finset.univ Ψ
    = iprop(Ψ 0 ∗ Ψ (kSend 0 0) ∗ Ψ (kSend 0 1) ∗ Ψ (kSend 0 2) ∗ Ψ (kSend 0 3) ∗ Ψ (kSend 0 4) ∗ Ψ (kSend 0 5) ∗ Ψ (kSend 0 6) ∗ Ψ (kSend 0 7)
      ∗ Ψ (kSend 1 0) ∗ Ψ (kSend 1 1) ∗ Ψ (kSend 1 2) ∗ Ψ (kSend 1 3) ∗ Ψ (kSend 1 4) ∗ Ψ (kSend 1 5) ∗ Ψ (kSend 1 6) ∗ Ψ (kSend 1 7)
      ∗ Ψ (kRecv 0 0) ∗ Ψ (kRecv 0 1) ∗ Ψ (kRecv 0 2) ∗ Ψ (kRecv 0 3) ∗ Ψ (kRecv 0 4) ∗ Ψ (kRecv 0 5) ∗ Ψ (kRecv 0 6) ∗ Ψ (kRecv 0 7)
      ∗ Ψ (kRecv 1 0) ∗ Ψ (kRecv 1 1) ∗ Ψ (kRecv 1 2) ∗ Ψ (kRecv 1 3) ∗ Ψ (kRecv 1 4) ∗ Ψ (kRecv 1 5) ∗ Ψ (kRecv 1 6) ∗ Ψ (kRecv 1 7)) :=
  bigSep_univ_eq_bigSepL [0, kSend 0 0, kSend 0 1, kSend 0 2, kSend 0 3, kSend 0 4, kSend 0 5, kSend 0 6, kSend 0 7, kSend 1 0, kSend 1 1, kSend 1 2, kSend 1 3,
    kSend 1 4, kSend 1 5, kSend 1 6, kSend 1 7, kRecv 0 0, kRecv 0 1, kRecv 0 2, kRecv 0 3, kRecv 0 4, kRecv 0 5, kRecv 0 6, kRecv 0 7,
    kRecv 1 0, kRecv 1 1, kRecv 1 2, kRecv 1 3, kRecv 1 4, kRecv 1 5, kRecv 1 6, kRecv 1 7]
    (by decide) (by decide) Ψ

omit [FloatOps F] in
theorem cells_chain (c : Dev nD) (Φ : GSem nD τ sig → sProp 𝕄) : (bigSep Finset.univ fun k : Fin 33 => Φ (kcell (c, k)))
    = iprop(Φ (barCell c) ∗ Φ (sendCell c 0 0) ∗ Φ (sendCell c 0 1) ∗ Φ (sendCell c 0 2) ∗ Φ (sendCell c 0 3) ∗ Φ (sendCell c 0 4)
      ∗ Φ (sendCell c 0 5) ∗ Φ (sendCell c 0 6) ∗ Φ (sendCell c 0 7) ∗ Φ (sendCell c 1 0) ∗ Φ (sendCell c 1 1) ∗ Φ (sendCell c 1 2)
      ∗ Φ (sendCell c 1 3) ∗ Φ (sendCell c 1 4) ∗ Φ (sendCell c 1 5) ∗ Φ (sendCell c 1 6) ∗ Φ (sendCell c 1 7) ∗ Φ (recvCell c 0 0)
      ∗ Φ (recvCell c 0 1) ∗ Φ (recvCell c 0 2) ∗ Φ (recvCell c 0 3) ∗ Φ (recvCell c 0 4) ∗ Φ (recvCell c 0 5) ∗ Φ (recvCell c 0 6)
      ∗ Φ (recvCell c 0 7) ∗ Φ (recvCell c 1 0) ∗ Φ (recvCell c 1 1) ∗ Φ (recvCell c 1 2) ∗ Φ (recvCell c 1 3) ∗ Φ (recvCell c 1 4)
      ∗ Φ (recvCell c 1 5) ∗ Φ (recvCell c 1 6) ∗ Φ (recvCell c 1 7)) := by
  rw [fin33_chain]
  simp only [kcell_send, kcell_recv, kcell_bar]

/-! ## A family over a device's 32 own semaphores: the 16 send cells, the 16 receive cells -/

def oSend (b : Fin 2) (p : Dev nD) : Fin 32 := ⟨8 * b.val + p.val, by have := b.isLt; have : p.val < 8 := p.isLt; omega⟩
def oRecv (b : Fin 2) (q : Dev nD) : Fin 32 := ⟨16 + 8 * b.val + q.val, by have := b.isLt; have : q.val < 8 := q.isLt; omega⟩
theorem osem_send (b : Fin 2) (p : Dev nD) : osem (oSend b p) = .dma (sendS b p) := by revert b p; decide
theorem osem_recv (b : Fin 2) (q : Dev nD) : osem (oRecv b q) = .dma (recvS b q) := by revert b q; decide

omit [FloatOps F] in
theorem fin32_chain (Ψ : Fin 32 → sProp 𝕄) : bigSep Finset.univ Ψ
    = iprop(Ψ (oSend 0 0) ∗ Ψ (oSend 0 1) ∗ Ψ (oSend 0 2) ∗ Ψ (oSend 0 3) ∗ Ψ (oSend 0 4) ∗ Ψ (oSend 0 5) ∗ Ψ (oSend 0 6) ∗ Ψ (oSend 0 7)
      ∗ Ψ (oSend 1 0) ∗ Ψ (oSend 1 1) ∗ Ψ (oSend 1 2) ∗ Ψ (oSend 1 3) ∗ Ψ (oSend 1 4) ∗ Ψ (oSend 1 5) ∗ Ψ (oSend 1 6) ∗ Ψ (oSend 1 7)
      ∗ Ψ (oRecv 0 0) ∗ Ψ (oRecv 0 1) ∗ Ψ (oRecv 0 2) ∗ Ψ (oRecv 0 3) ∗ Ψ (oRecv 0 4) ∗ Ψ (oRecv 0 5) ∗ Ψ (oRecv 0 6) ∗ Ψ (oRecv 0 7)
      ∗ Ψ (oRecv 1 0) ∗ Ψ (oRecv 1 1) ∗ Ψ (oRecv 1 2) ∗ Ψ (oRecv 1 3) ∗ Ψ (oRecv 1 4) ∗ Ψ (oRecv 1 5) ∗ Ψ (oRecv 1 6) ∗ Ψ (oRecv 1 7)) :=
  bigSep_univ_eq_bigSepL [oSend 0 0, oSend 0 1, oSend 0 2, oSend 0 3, oSend 0 4, oSend 0 5, oSend 0 6, oSend 0 7, oSend 1 0, oSend 1 1, oSend 1 2, oSend 1 3,
    oSend 1 4, oSend 1 5, oSend 1 6, oSend 1 7, oRecv 0 0, oRecv 0 1, oRecv 0 2, oRecv 0 3, oRecv 0 4, oRecv 0 5, oRecv 0 6, oRecv 0 7,
    oRecv 1 0, oRecv 1 1, oRecv 1 2, oRecv 1 3, oRecv 1 4, oRecv 1 5, oRecv 1 6, oRecv 1 7]
    (by decide) (by decide) Ψ

omit [FloatOps F] in
theorem own_chain (c : Dev nD) (Φ : GSem nD τ sig → sProp 𝕄) : (bigSep Finset.univ fun i : Fin 32 => Φ ((c : Thread nD τ), osem i))
    = iprop(Φ (sendCell c 0 0) ∗ Φ (sendCell c 0 1) ∗ Φ (sendCell c 0 2) ∗ Φ (sendCell c 0 3) ∗ Φ (sendCell c 0 4) ∗ Φ (sendCell c 0 5)
      ∗ Φ (sendCell c 0 6) ∗ Φ (sendCell c 0 7) ∗ Φ (sendCell c 1 0) ∗ Φ (sendCell c 1 1) ∗ Φ (sendCell c 1 2) ∗ Φ (sendCell c 1 3)
      ∗ Φ (sendCell c 1 4) ∗ Φ (sendCell c 1 5) ∗ Φ (sendCell c 1 6) ∗ Φ (sendCell c 1 7) ∗ Φ (recvCell c 0 0) ∗ Φ (recvCell c 0 1)
      ∗ Φ (recvCell c 0 2) ∗ Φ (recvCell c 0 3) ∗ Φ (recvCell c 0 4) ∗ Φ (recvCell c 0 5) ∗ Φ (recvCell c 0 6) ∗ Φ (recvCell c 0 7)
      ∗ Φ (recvCell c 1 0) ∗ Φ (recvCell c 1 1) ∗ Φ (recvCell c 1 2) ∗ Φ (recvCell c 1 3) ∗ Φ (recvCell c 1 4) ∗ Φ (recvCell c 1 5)
      ∗ Φ (recvCell c 1 6) ∗ Φ (recvCell c 1 7)) := by
  rw [fin32_chain]
  simp only [osem_send, osem_recv]

/-! ## The two families the body meets: a device's positions at launch, its own semaphores at zero at the end -/

omit [FloatOps F] in
theorem pos_chain (c : Dev nD) : (bigSep Finset.univ fun k : Fin 33 => (atPos ER (kcell (c, k)) 0 ∅ 0 : sProp 𝕄))
    = iprop(atPos ER (barCell c) 0 ∅ 0 ∗ atPos ER (sendCell c 0 0) 0 ∅ 0 ∗ atPos ER (sendCell c 0 1) 0 ∅ 0 ∗ atPos ER (sendCell c 0 2) 0 ∅ 0
      ∗ atPos ER (sendCell c 0 3) 0 ∅ 0 ∗ atPos ER (sendCell c 0 4) 0 ∅ 0 ∗ atPos ER (sendCell c 0 5) 0 ∅ 0 ∗ atPos ER (sendCell c 0 6) 0 ∅ 0
      ∗ atPos ER (sendCell c 0 7) 0 ∅ 0 ∗ atPos ER (sendCell c 1 0) 0 ∅ 0 ∗ atPos ER (sendCell c 1 1) 0 ∅ 0 ∗ atPos ER (sendCell c 1 2) 0 ∅ 0
      ∗ atPos ER (sendCell c 1 3) 0 ∅ 0 ∗ atPos ER (sendCell c 1 4) 0 ∅ 0 ∗ atPos ER (sendCell c 1 5) 0 ∅ 0 ∗ atPos ER (sendCell c 1 6) 0 ∅ 0
      ∗ atPos ER (sendCell c 1 7) 0 ∅ 0 ∗ atPos ER (recvCell c 0 0) 0 ∅ 0 ∗ atPos ER (recvCell c 0 1) 0 ∅ 0 ∗ atPos ER (recvCell c 0 2) 0 ∅ 0
      ∗ atPos ER (recvCell c 0 3) 0 ∅ 0 ∗ atPos ER (recvCell c 0 4) 0 ∅ 0 ∗ atPos ER (recvCell c 0 5) 0 ∅ 0 ∗ atPos ER (recvCell c 0 6) 0 ∅ 0
      ∗ atPos ER (recvCell c 0 7) 0 ∅ 0 ∗ atPos ER (recvCell c 1 0) 0 ∅ 0 ∗ atPos ER (recvCell c 1 1) 0 ∅ 0 ∗ atPos ER (recvCell c 1 2) 0 ∅ 0
      ∗ atPos ER (recvCell c 1 3) 0 ∅ 0 ∗ atPos ER (recvCell c 1 4) 0 ∅ 0 ∗ atPos ER (recvCell c 1 5) 0 ∅ 0 ∗ atPos ER (recvCell c 1 6) 0 ∅ 0
      ∗ atPos ER (recvCell c 1 7) 0 ∅ 0) :=
  cells_chain c fun g => atPos ER g 0 ∅ 0

omit [FloatOps F] in
theorem sems_chain (c : Dev nD) : (bigSep Finset.univ fun i : Fin 32 => (semVal ((c : Thread nD τ), osem i) 0 : sProp 𝕄))
    = iprop(semVal (sendCell c 0 0) 0 ∗ semVal (sendCell c 0 1) 0 ∗ semVal (sendCell c 0 2) 0 ∗ semVal (sendCell c 0 3) 0
      ∗ semVal (sendCell c 0 4) 0 ∗ semVal (sendCell c 0 5) 0 ∗ semVal (sendCell c 0 6) 0 ∗ semVal (sendCell c 0 7) 0
      ∗ semVal (sendCell c 1 0) 0 ∗ semVal (sendCell c 1 1) 0 ∗ semVal (sendCell c 1 2) 0 ∗ semVal (sendCell c 1 3) 0
      ∗ semVal (sendCell c 1 4) 0 ∗ semVal (sendCell c 1 5) 0 ∗ semVal (sendCell c 1 6) 0 ∗ semVal (sendCell c 1 7) 0
      ∗ semVal (recvCell c 0 0) 0 ∗ semVal (recvCell c 0 1) 0 ∗ semVal (recvCell c 0 2) 0 ∗ semVal (recvCell c 0 3) 0
      ∗ semVal (recvCell c 0 4) 0 ∗ semVal (recvCell c 0 5) 0 ∗ semVal (recvCell c 0 6) 0 ∗ semVal (recvCell c 0 7) 0
      ∗ semVal (recvCell c 1 0) 0 ∗ semVal (recvCell c 1 1) 0 ∗ semVal (recvCell c 1 2) 0 ∗ semVal (recvCell c 1 3) 0
      ∗ semVal (recvCell c 1 4) 0 ∗ semVal (recvCell c 1 5) 0 ∗ semVal (recvCell c 1 6) 0 ∗ semVal (recvCell c 1 7) 0) :=
  own_chain c fun g => semVal g 0

end Cert.Kernel.Sm

end
-- ==== Proof.W.Glue.lean ====
/-
  The pieces and the wholes of a device's two scratch tables: the table of everybody's row sums is its sixteen slots,
  a half of it is its eight slots, the table of own row sums is its two rows, and a row held in full is the row held
  under its eight shares.
-/
import proofs.«901053_g7700000000001054_dist_softmax_colshard_i_m1024_n1024_v7x_i8_bf16_1_alg».proof.Proof.W.Core
import Idealize.ShloMosaic.Lib.Ring

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

/-! ## The table of everybody's row sums, slot by slot -/

/-- The elements of slot [q, b]: the unit-stride rectangle at [q, b, 0, 0] of sizes 1 x 1 x 1 x 512. -/
theorem commSl_set (q : Dev nD) (b : Fin 2) :
    (commSl q b).view.set = (Rect.unit (s := S8x2x1x512) ![q.val, b.val, 0, 0] S1x1x1x512.size (comm_inb q b)).set :=
  (View.set_reshape ..).trans (View.set_slice_whole ..)

/-- An element is in slot [q, b] exactly when its first two coordinates are q and b. -/
theorem mem_commSl (q : Dev nD) (b : Fin 2) (i : S8x2x1x512.Idx) :
    i ∈ (commSl q b).view.set ↔ (i 0).val = q.val ∧ (i 1).val = b.val := by
  rw [commSl_set, Rect.mem_set_unit]
  constructor
  · intro h
    have h0 : q.val ≤ (i 0).val ∧ (i 0).val < q.val + 1 := h 0
    have h1 : b.val ≤ (i 1).val ∧ (i 1).val < b.val + 1 := h 1
    omega
  · rintro ⟨h0, h1⟩ a
    have h2 : (i 2).val < 1 := (i 2).isLt
    have h3 : (i 3).val < 512 := (i 3).isLt
    match a with
    | ⟨0, _⟩ => show q.val ≤ (i 0).val ∧ (i 0).val < q.val + 1; omega
    | ⟨1, _⟩ => show b.val ≤ (i 1).val ∧ (i 1).val < b.val + 1; omega
    | ⟨2, _⟩ => show 0 ≤ (i 2).val ∧ (i 2).val < 0 + 1; omega
    | ⟨3, _⟩ => show 0 ≤ (i 3).val ∧ (i 3).val < 0 + 512; omega

theorem commSl_disjoint (q q' : Dev nD) (b b' : Fin 2) (h : (q, b) ≠ (q', b')) :
    Disjoint (commSl q b).view.set (commSl q' b').view.set := by
  rw [Finset.disjoint_left]
  intro i hi hi'
  rw [mem_commSl] at hi hi'
  exact h (Prod.ext (Fin.ext (show q.val = q'.val by omega)) (Fin.ext (show b.val = b'.val by omega)))

theorem commSl_cover : ((Finset.univ : Finset (Dev nD × Fin 2)).biUnion fun t => (commSl t.1 t.2).view.set)
    = (Finset.univ : Finset S8x2x1x512.Idx) := by
  ext i
  simp only [Finset.mem_univ, Finset.mem_biUnion, true_and, iff_true]
  exact ⟨(⟨(i 0).val, (i 0).isLt⟩, ⟨(i 1).val, (i 1).isLt⟩), (mem_commSl _ _ i).mpr ⟨rfl, rfl⟩⟩

/-- The iterated separating conjunction over the eight devices, in order. -/
theorem bigSep_dev {M : Type} [URA M] (Φ : Dev nD → sProp M) :
    bigSep Finset.univ Φ = iprop(Φ 0 ∗ Φ 1 ∗ Φ 2 ∗ Φ 3 ∗ Φ 4 ∗ Φ 5 ∗ Φ 6 ∗ Φ 7) := by
  rw [show (Finset.univ : Finset (Dev nD)) = {0, 1, 2, 3, 4, 5, 6, 7} by decide]
  rw [bigSep_insert (by decide), bigSep_insert (by decide), bigSep_insert (by decide), bigSep_insert (by decide),
    bigSep_insert (by decide), bigSep_insert (by decide), bigSep_insert (by decide), bigSep_singleton]
  rfl

theorem sep_assoc_eq {M : Type} [URA M] (P Q R : sProp M) : BI.sep (BI.sep P Q) R = BI.sep P (BI.sep Q R) :=
  Std.Associative.assoc (op := (BI.sep : sProp M → _ → _)) P Q R

/-- Eight pairs, flattened. -/
theorem pairs_flat {M : Type} [URA M] (a0 b0 a1 b1 a2 b2 a3 b3 a4 b4 a5 b5 a6 b6 a7 b7 : sProp M) :
    BI.sep (BI.sep a0 b0) (BI.sep (BI.sep a1 b1) (BI.sep (BI.sep a2 b2) (BI.sep (BI.sep a3 b3) (BI.sep (BI.sep a4 b4)
      (BI.sep (BI.sep a5 b5) (BI.sep (BI.sep a6 b6) (BI.sep a7 b7)))))))
    = BI.sep a0 (BI.sep b0 (BI.sep a1 (BI.sep b1 (BI.sep a2 (BI.sep b2 (BI.sep a3 (BI.sep b3 (BI.sep a4 (BI.sep b4
      (BI.sep a5 (BI.sep b5 (BI.sep a6 (BI.sep b6 (BI.sep a7 b7)))))))))))))) := by
  simp only [sep_assoc_eq]

/-- The iterated separating conjunction over the sixteen slots, device-major. -/
theorem bigSep_slots {M : Type} [URA M] (Φ : Dev nD × Fin 2 → sProp M) :
    bigSep Finset.univ Φ
      = iprop(Φ (0, 0) ∗ Φ (0, 1) ∗ Φ (1, 0) ∗ Φ (1, 1) ∗ Φ (2, 0) ∗ Φ (2, 1) ∗ Φ (3, 0) ∗ Φ (3, 1) ∗ Φ (4, 0) ∗ Φ (4, 1) ∗ Φ (5, 0) ∗ Φ (5, 1) ∗ Φ (6, 0) ∗ Φ (6, 1) ∗ Φ (7, 0) ∗ Φ (7, 1)) := by
  rw [bigSep_univ_prod, bigSep_dev]
  simp only [bigSep_fin_two]
  exact pairs_flat ..

/-- The whole table is its sixteen slots. -/
theorem comm_eq (c : Dev nD) (f : CommBuf F) :
    ((c : Thread nD τ).loc cc0_scratch1 ↦{fullShare} f : sProp 𝕄)
      = iprop(((commSl 0 0).view.loc (c : Thread nD τ) ↦[(commSl 0 0).view.set]{fullShare} f)
        ∗ ((commSl 0 1).view.loc (c : Thread nD τ) ↦[(commSl 0 1).view.set]{fullShare} f)
        ∗ ((commSl 1 0).view.loc (c : Thread nD τ) ↦[(commSl 1 0).view.set]{fullShare} f)
        ∗ ((commSl 1 1).view.loc (c : Thread nD τ) ↦[(commSl 1 1).view.set]{fullShare} f)
        ∗ ((commSl 2 0).view.loc (c : Thread nD τ) ↦[(commSl 2 0).view.set]{fullShare} f)
        ∗ ((commSl 2 1).view.loc (c : Thread nD τ) ↦[(commSl 2 1).view.set]{fullShare} f)
        ∗ ((commSl 3 0).view.loc (c : Thread nD τ) ↦[(commSl 3 0).view.set]{fullShare} f)
        ∗ ((commSl 3 1).view.loc (c : Thread nD τ) ↦[(commSl 3 1).view.set]{fullShare} f)
        ∗ ((commSl 4 0).view.loc (c : Thread nD τ) ↦[(commSl 4 0).view.set]{fullShare} f)
        ∗ ((commSl 4 1).view.loc (c : Thread nD τ) ↦[(commSl 4 1).view.set]{fullShare} f)
        ∗ ((commSl 5 0).view.loc (c : Thread nD τ) ↦[(commSl 5 0).view.set]{fullShare} f)
        ∗ ((commSl 5 1).view.loc (c : Thread nD τ) ↦[(commSl 5 1).view.set]{fullShare} f)
        ∗ ((commSl 6 0).view.loc (c : Thread nD τ) ↦[(commSl 6 0).view.set]{fullShare} f)
        ∗ ((commSl 6 1).view.loc (c : Thread nD τ) ↦[(commSl 6 1).view.set]{fullShare} f)
        ∗ ((commSl 7 0).view.loc (c : Thread nD τ) ↦[(commSl 7 0).view.set]{fullShare} f)
        ∗ ((commSl 7 1).view.loc (c : Thread nD τ) ↦[(commSl 7 1).view.set]{fullShare} f)) :=
  (Ring.pointsTo_blocks (ℓ := (c : Thread nD τ).loc cc0_scratch1) (fun t : Dev nD × Fin 2 => (commSl t.1 t.2).view.set)
      (fun t t' hne => commSl_disjoint t.1 t'.1 t.2 t'.2 hne) commSl_cover f).trans (bigSep_slots _)

theorem comm_split (c : Dev nD) (f : CommBuf F) :
    ((c : Thread nD τ).loc cc0_scratch1 ↦{fullShare} f : sProp 𝕄)
      ⊢ iprop(((commSl 0 0).view.loc (c : Thread nD τ) ↦[(commSl 0 0).view.set]{fullShare} f)
        ∗ ((commSl 0 1).view.loc (c : Thread nD τ) ↦[(commSl 0 1).view.set]{fullShare} f)
        ∗ ((commSl 1 0).view.loc (c : Thread nD τ) ↦[(commSl 1 0).view.set]{fullShare} f)
        ∗ ((commSl 1 1).view.loc (c : Thread nD τ) ↦[(commSl 1 1).view.set]{fullShare} f)
        ∗ ((commSl 2 0).view.loc (c : Thread nD τ) ↦[(commSl 2 0).view.set]{fullShare} f)
        ∗ ((commSl 2 1).view.loc (c : Thread nD τ) ↦[(commSl 2 1).view.set]{fullShare} f)
        ∗ ((commSl 3 0).view.loc (c : Thread nD τ) ↦[(commSl 3 0).view.set]{fullShare} f)
        ∗ ((commSl 3 1).view.loc (c : Thread nD τ) ↦[(commSl 3 1).view.set]{fullShare} f)
        ∗ ((commSl 4 0).view.loc (c : Thread nD τ) ↦[(commSl 4 0).view.set]{fullShare} f)
        ∗ ((commSl 4 1).view.loc (c : Thread nD τ) ↦[(commSl 4 1).view.set]{fullShare} f)
        ∗ ((commSl 5 0).view.loc (c : Thread nD τ) ↦[(commSl 5 0).view.set]{fullShare} f)
        ∗ ((commSl 5 1).view.loc (c : Thread nD τ) ↦[(commSl 5 1).view.set]{fullShare} f)
        ∗ ((commSl 6 0).view.loc (c : Thread nD τ) ↦[(commSl 6 0).view.set]{fullShare} f)
        ∗ ((commSl 6 1).view.loc (c : Thread nD τ) ↦[(commSl 6 1).view.set]{fullShare} f)
        ∗ ((commSl 7 0).view.loc (c : Thread nD τ) ↦[(commSl 7 0).view.set]{fullShare} f)
        ∗ ((commSl 7 1).view.loc (c : Thread nD τ) ↦[(commSl 7 1).view.set]{fullShare} f)) :=
  Entails.of_eq (comm_eq c f)

theorem comm_join (c : Dev nD) (f : CommBuf F) :
    iprop(((commSl 0 0).view.loc (c : Thread nD τ) ↦[(commSl 0 0).view.set]{fullShare} f)
        ∗ ((commSl 0 1).view.loc (c : Thread nD τ) ↦[(commSl 0 1).view.set]{fullShare} f)
        ∗ ((commSl 1 0).view.loc (c : Thread nD τ) ↦[(commSl 1 0).view.set]{fullShare} f)
        ∗ ((commSl 1 1).view.loc (c : Thread nD τ) ↦[(commSl 1 1).view.set]{fullShare} f)
        ∗ ((commSl 2 0).view.loc (c : Thread nD τ) ↦[(commSl 2 0).view.set]{fullShare} f)
        ∗ ((commSl 2 1).view.loc (c : Thread nD τ) ↦[(commSl 2 1).view.set]{fullShare} f)
        ∗ ((commSl 3 0).view.loc (c : Thread nD τ) ↦[(commSl 3 0).view.set]{fullShare} f)
        ∗ ((commSl 3 1).view.loc (c : Thread nD τ) ↦[(commSl 3 1).view.set]{fullShare} f)
        ∗ ((commSl 4 0).view.loc (c : Thread nD τ) ↦[(commSl 4 0).view.set]{fullShare} f)
        ∗ ((commSl 4 1).view.loc (c : Thread nD τ) ↦[(commSl 4 1).view.set]{fullShare} f)
        ∗ ((commSl 5 0).view.loc (c : Thread nD τ) ↦[(commSl 5 0).view.set]{fullShare} f)
        ∗ ((commSl 5 1).view.loc (c : Thread nD τ) ↦[(commSl 5 1).view.set]{fullShare} f)
        ∗ ((commSl 6 0).view.loc (c : Thread nD τ) ↦[(commSl 6 0).view.set]{fullShare} f)
        ∗ ((commSl 6 1).view.loc (c : Thread nD τ) ↦[(commSl 6 1).view.set]{fullShare} f)
        ∗ ((commSl 7 0).view.loc (c : Thread nD τ) ↦[(commSl 7 0).view.set]{fullShare} f)
        ∗ ((commSl 7 1).view.loc (c : Thread nD τ) ↦[(commSl 7 1).view.set]{fullShare} f))
      ⊢ ((c : Thread nD τ).loc cc0_scratch1 ↦{fullShare} f : sProp 𝕄) :=
  Entails.of_eq (comm_eq c f).symm

/-- Sixteen slots, each at contents of its own, are the whole table at some contents. -/
theorem comm_join_ex (c : Dev nD) :
    iprop((∃ f : CommBuf F, (commSl 0 0).view.loc (c : Thread nD τ) ↦[(commSl 0 0).view.set]{fullShare} f)
        ∗ (∃ f : CommBuf F, (commSl 0 1).view.loc (c : Thread nD τ) ↦[(commSl 0 1).view.set]{fullShare} f)
        ∗ (∃ f : CommBuf F, (commSl 1 0).view.loc (c : Thread nD τ) ↦[(commSl 1 0).view.set]{fullShare} f)
        ∗ (∃ f : CommBuf F, (commSl 1 1).view.loc (c : Thread nD τ) ↦[(commSl 1 1).view.set]{fullShare} f)
        ∗ (∃ f : CommBuf F, (commSl 2 0).view.loc (c : Thread nD τ) ↦[(commSl 2 0).view.set]{fullShare} f)
        ∗ (∃ f : CommBuf F, (commSl 2 1).view.loc (c : Thread nD τ) ↦[(commSl 2 1).view.set]{fullShare} f)
        ∗ (∃ f : CommBuf F, (commSl 3 0).view.loc (c : Thread nD τ) ↦[(commSl 3 0).view.set]{fullShare} f)
        ∗ (∃ f : CommBuf F, (commSl 3 1).view.loc (c : Thread nD τ) ↦[(commSl 3 1).view.set]{fullShare} f)
        ∗ (∃ f : CommBuf F, (commSl 4 0).view.loc (c : Thread nD τ) ↦[(commSl 4 0).view.set]{fullShare} f)
        ∗ (∃ f : CommBuf F, (commSl 4 1).view.loc (c : Thread nD τ) ↦[(commSl 4 1).view.set]{fullShare} f)
        ∗ (∃ f : CommBuf F, (commSl 5 0).view.loc (c : Thread nD τ) ↦[(commSl 5 0).view.set]{fullShare} f)
        ∗ (∃ f : CommBuf F, (commSl 5 1).view.loc (c : Thread nD τ) ↦[(commSl 5 1).view.set]{fullShare} f)
        ∗ (∃ f : CommBuf F, (commSl 6 0).view.loc (c : Thread nD τ) ↦[(commSl 6 0).view.set]{fullShare} f)
        ∗ (∃ f : CommBuf F, (commSl 6 1).view.loc (c : Thread nD τ) ↦[(commSl 6 1).view.set]{fullShare} f)
        ∗ (∃ f : CommBuf F, (commSl 7 0).view.loc (c : Thread nD τ) ↦[(commSl 7 0).view.set]{fullShare} f)
        ∗ (∃ f : CommBuf F, (commSl 7 1).view.loc (c : Thread nD τ) ↦[(commSl 7 1).view.set]{fullShare} f))
      ⊢ (iprop(∃ f : CommBuf F, (c : Thread nD τ).loc cc0_scratch1 ↦{fullShare} f) : sProp 𝕄) :=
  (Entails.of_eq (bigSep_slots (fun t : Dev nD × Fin 2 =>
      (iprop(∃ f : CommBuf F, (c : Thread nD τ).loc cc0_scratch1 ↦[(commSl t.1 t.2).view.set]{fullShare} f) : sProp 𝕄))).symm).trans
    (Ring.pointsTo_blocks_join_exists (ℓ := (c : Thread nD τ).loc cc0_scratch1) (fun t : Dev nD × Fin 2 => (commSl t.1 t.2).view.set)
      (fun t t' hne => commSl_disjoint t.1 t'.1 t.2 t'.2 hne) commSl_cover (fun _ => (Scalar.ofBits .f32 0x00000000#32 : F .f32)))

/-! ## A half of the table: the eight devices' row sums of one half of the rows -/

theorem half_inb (b : Fin 2) : ∀ a, (![0, b.val, 0, 0] : Fin 4 → Nat) a + S8x1x1x512.size a ≤ S8x2x1x512.size a := by
  revert b; decide

/-- The eight devices' row sums of half b, as an 8 x 1 x 1 x 512 memref. -/
abbrev halfM (b : Fin 2) : Memref sig .tc .vmem S8x1x1x512 .f32 :=
  cM.slice (Rect.unit (s := S8x2x1x512) ![0, b.val, 0, 0] S8x1x1x512.size (half_inb b)) (fun _ => rfl)

theorem halfM_set (b : Fin 2) :
    (halfM b).view.set = (Rect.unit (s := S8x2x1x512) ![0, b.val, 0, 0] S8x1x1x512.size (half_inb b)).set :=
  View.set_slice_whole ..

/-- An element is in half b exactly when its second coordinate is b. -/
theorem mem_halfM (b : Fin 2) (i : S8x2x1x512.Idx) : i ∈ (halfM b).view.set ↔ (i 1).val = b.val := by
  rw [halfM_set, Rect.mem_set_unit]
  constructor
  · intro h
    have h1 : b.val ≤ (i 1).val ∧ (i 1).val < b.val + 1 := h 1
    omega
  · intro h1 a
    have h0 : (i 0).val < 8 := (i 0).isLt
    have h2 : (i 2).val < 1 := (i 2).isLt
    have h3 : (i 3).val < 512 := (i 3).isLt
    match a with
    | ⟨0, _⟩ => show 0 ≤ (i 0).val ∧ (i 0).val < 0 + 8; omega
    | ⟨1, _⟩ => show b.val ≤ (i 1).val ∧ (i 1).val < b.val + 1; omega
    | ⟨2, _⟩ => show 0 ≤ (i 2).val ∧ (i 2).val < 0 + 1; omega
    | ⟨3, _⟩ => show 0 ≤ (i 3).val ∧ (i 3).val < 0 + 512; omega

theorem half_cover (b : Fin 2) :
    ((Finset.univ : Finset (Dev nD)).biUnion fun q => (commSl q b).view.set) = (halfM b).view.set := by
  ext i
  rw [Finset.mem_biUnion, mem_halfM]
  constructor
  · rintro ⟨q, -, hq⟩; exact ((mem_commSl q b i).mp hq).2
  · intro h; exact ⟨⟨(i 0).val, (i 0).isLt⟩, Finset.mem_univ _, (mem_commSl _ b i).mpr ⟨rfl, h⟩⟩

/-- A half of the table is its eight slots. -/
theorem half_eq (c : Dev nD) (b : Fin 2) (f : CommBuf F) :
    ((halfM b).view.loc (c : Thread nD τ) ↦[(halfM b).view.set]{fullShare} f : sProp 𝕄)
      = iprop(((commSl 0 b).view.loc (c : Thread nD τ) ↦[(commSl 0 b).view.set]{fullShare} f)
        ∗ ((commSl 1 b).view.loc (c : Thread nD τ) ↦[(commSl 1 b).view.set]{fullShare} f)
        ∗ ((commSl 2 b).view.loc (c : Thread nD τ) ↦[(commSl 2 b).view.set]{fullShare} f)
        ∗ ((commSl 3 b).view.loc (c : Thread nD τ) ↦[(commSl 3 b).view.set]{fullShare} f)
        ∗ ((commSl 4 b).view.loc (c : Thread nD τ) ↦[(commSl 4 b).view.set]{fullShare} f)
        ∗ ((commSl 5 b).view.loc (c : Thread nD τ) ↦[(commSl 5 b).view.set]{fullShare} f)
        ∗ ((commSl 6 b).view.loc (c : Thread nD τ) ↦[(commSl 6 b).view.set]{fullShare} f)
        ∗ ((commSl 7 b).view.loc (c : Thread nD τ) ↦[(commSl 7 b).view.set]{fullShare} f)) :=
  (congrArg (fun S => ((c : Thread nD τ).loc cc0_scratch1 ↦[S]{fullShare} f : sProp 𝕄)) (half_cover b).symm).trans
    ((pointsTo_biUnion (ℓ := (c : Thread nD τ).loc cc0_scratch1) (Finset.univ : Finset (Dev nD)) (fun q => (commSl q b).view.set)
      (fun q _ q' _ hne => commSl_disjoint q q' b b (fun h => hne (congrArg Prod.fst h)))).trans (bigSep_dev _))

theorem half_split (c : Dev nD) (b : Fin 2) (f : CommBuf F) :
    ((halfM b).view.loc (c : Thread nD τ) ↦[(halfM b).view.set]{fullShare} f : sProp 𝕄)
      ⊢ iprop(((commSl 0 b).view.loc (c : Thread nD τ) ↦[(commSl 0 b).view.set]{fullShare} f)
        ∗ ((commSl 1 b).view.loc (c : Thread nD τ) ↦[(commSl 1 b).view.set]{fullShare} f)
        ∗ ((commSl 2 b).view.loc (c : Thread nD τ) ↦[(commSl 2 b).view.set]{fullShare} f)
        ∗ ((commSl 3 b).view.loc (c : Thread nD τ) ↦[(commSl 3 b).view.set]{fullShare} f)
        ∗ ((commSl 4 b).view.loc (c : Thread nD τ) ↦[(commSl 4 b).view.set]{fullShare} f)
        ∗ ((commSl 5 b).view.loc (c : Thread nD τ) ↦[(commSl 5 b).view.set]{fullShare} f)
        ∗ ((commSl 6 b).view.loc (c : Thread nD τ) ↦[(commSl 6 b).view.set]{fullShare} f)
        ∗ ((commSl 7 b).view.loc (c : Thread nD τ) ↦[(commSl 7 b).view.set]{fullShare} f)) :=
  Entails.of_eq (half_eq c b f)

theorem half_join (c : Dev nD) (b : Fin 2) (f : CommBuf F) :
    iprop(((commSl 0 b).view.loc (c : Thread nD τ) ↦[(commSl 0 b).view.set]{fullShare} f)
        ∗ ((commSl 1 b).view.loc (c : Thread nD τ) ↦[(commSl 1 b).view.set]{fullShare} f)
        ∗ ((commSl 2 b).view.loc (c : Thread nD τ) ↦[(commSl 2 b).view.set]{fullShare} f)
        ∗ ((commSl 3 b).view.loc (c : Thread nD τ) ↦[(commSl 3 b).view.set]{fullShare} f)
        ∗ ((commSl 4 b).view.loc (c : Thread nD τ) ↦[(commSl 4 b).view.set]{fullShare} f)
        ∗ ((commSl 5 b).view.loc (c : Thread nD τ) ↦[(commSl 5 b).view.set]{fullShare} f)
        ∗ ((commSl 6 b).view.loc (c : Thread nD τ) ↦[(commSl 6 b).view.set]{fullShare} f)
        ∗ ((commSl 7 b).view.loc (c : Thread nD τ) ↦[(commSl 7 b).view.set]{fullShare} f))
      ⊢ ((halfM b).view.loc (c : Thread nD τ) ↦[(halfM b).view.set]{fullShare} f : sProp 𝕄) :=
  Entails.of_eq (half_eq c b f).symm

/-! ## The table of own row sums: its two rows, and a row under its eight shares -/

theorem mineSl_set (b : Fin 2) :
    (mineSl b).view.set = (Rect.unit (s := S2x1x512) ![b.val, 0, 0] S1x1x512.size (mine_inb b)).set :=
  (View.set_reshape ..).trans (View.set_slice_whole ..)

/-- An element is in row b exactly when its first coordinate is b. -/
theorem mem_mineSl (b : Fin 2) (i : S2x1x512.Idx) : i ∈ (mineSl b).view.set ↔ (i 0).val = b.val := by
  rw [mineSl_set, Rect.mem_set_unit]
  constructor
  · intro h
    have h0 : b.val ≤ (i 0).val ∧ (i 0).val < b.val + 1 := h 0
    omega
  · intro h0 a
    have h1 : (i 1).val < 1 := (i 1).isLt
    have h2 : (i 2).val < 512 := (i 2).isLt
    match a with
    | ⟨0, _⟩ => show b.val ≤ (i 0).val ∧ (i 0).val < b.val + 1; omega
    | ⟨1, _⟩ => show 0 ≤ (i 1).val ∧ (i 1).val < 0 + 1; omega
    | ⟨2, _⟩ => show 0 ≤ (i 2).val ∧ (i 2).val < 0 + 512; omega

theorem mineSl_disjoint (b b' : Fin 2) (h : b ≠ b') : Disjoint (mineSl b).view.set (mineSl b').view.set := by
  rw [Finset.disjoint_left]
  intro i hi hi'
  rw [mem_mineSl] at hi hi'
  exact h (Fin.ext (show b.val = b'.val by omega))

theorem mineSl_cover : ((Finset.univ : Finset (Fin 2)).biUnion fun b => (mineSl b).view.set)
    = (Finset.univ : Finset S2x1x512.Idx) := by
  ext i
  simp only [Finset.mem_univ, Finset.mem_biUnion, true_and, iff_true]
  exact ⟨⟨(i 0).val, (i 0).isLt⟩, (mem_mineSl _ i).mpr rfl⟩

/-- The table of own row sums is its two rows. -/
theorem mine_eq (c : Dev nD) (f : MineBuf F) :
    ((c : Thread nD τ).loc cc0_scratch0 ↦{fullShare} f : sProp 𝕄)
      = iprop(((mineSl 0).view.loc (c : Thread nD τ) ↦[(mineSl 0).view.set]{fullShare} f)
        ∗ ((mineSl 1).view.loc (c : Thread nD τ) ↦[(mineSl 1).view.set]{fullShare} f)) :=
  (Ring.pointsTo_blocks (ℓ := (c : Thread nD τ).loc cc0_scratch0) (fun b : Fin 2 => (mineSl b).view.set)
      mineSl_disjoint mineSl_cover f).trans (bigSep_fin_two _)

theorem mine_split (c : Dev nD) (f : MineBuf F) :
    ((c : Thread nD τ).loc cc0_scratch0 ↦{fullShare} f : sProp 𝕄)
      ⊢ iprop(((mineSl 0).view.loc (c : Thread nD τ) ↦[(mineSl 0).view.set]{fullShare} f)
        ∗ ((mineSl 1).view.loc (c : Thread nD τ) ↦[(mineSl 1).view.set]{fullShare} f)) :=
  Entails.of_eq (mine_eq c f)

theorem mine_join (c : Dev nD) (f : MineBuf F) :
    iprop(((mineSl 0).view.loc (c : Thread nD τ) ↦[(mineSl 0).view.set]{fullShare} f)
        ∗ ((mineSl 1).view.loc (c : Thread nD τ) ↦[(mineSl 1).view.set]{fullShare} f))
      ⊢ ((c : Thread nD τ).loc cc0_scratch0 ↦{fullShare} f : sProp 𝕄) :=
  Entails.of_eq (mine_eq c f).symm

/-- Two rows, each at contents of its own, are the whole table at some contents. -/
theorem mine_join_ex (c : Dev nD) :
    iprop((∃ f : MineBuf F, (mineSl 0).view.loc (c : Thread nD τ) ↦[(mineSl 0).view.set]{fullShare} f)
        ∗ (∃ f : MineBuf F, (mineSl 1).view.loc (c : Thread nD τ) ↦[(mineSl 1).view.set]{fullShare} f))
      ⊢ (iprop(∃ f : MineBuf F, (c : Thread nD τ).loc cc0_scratch0 ↦{fullShare} f) : sProp 𝕄) :=
  (Entails.of_eq (bigSep_fin_two (fun b : Fin 2 =>
      (iprop(∃ f : MineBuf F, (c : Thread nD τ).loc cc0_scratch0 ↦[(mineSl b).view.set]{fullShare} f) : sProp 𝕄))).symm).trans
    (Ring.pointsTo_blocks_join_exists (ℓ := (c : Thread nD τ).loc cc0_scratch0) (fun b : Fin 2 => (mineSl b).view.set)
      mineSl_disjoint mineSl_cover (fun _ => (Scalar.ofBits .f32 0x00000000#32 : F .f32)))

/-- A points-to under a share is the points-to under its two halves. -/
theorem share_eq {ℓ : Loc nD τ sig} {I : Finset (Idx ℓ)} {f : Buf (Elt F) ℓ} (q : PosShare TreeShare) :
    (ℓ ↦[I]{q} f : sProp 𝕄) = BI.sep (ℓ ↦[I]{q.left} f) (ℓ ↦[I]{q.right} f) :=
  have hu := pointsTo_share (nD := nD) (τ := τ) (sig := sig) (Ix := Unit) (Val := Elt F) (Name := ℕ) (U := UU) (Lvl := ℕ)
    (ℓ := ℓ) (I := I) (f := f) (PosShare.mem_left_op_right q)
  BI.equiv_iff.mp ⟨hu.1, hu.2⟩

/-- A points-to under a share is the points-to under its eight eighths. -/
theorem shares8 {ℓ : Loc nD τ sig} {I : Finset (Idx ℓ)} {f : Buf (Elt F) ℓ} (q : PosShare TreeShare) :
    (ℓ ↦[I]{q} f : sProp 𝕄)
      = BI.sep (ℓ ↦[I]{q.left.left.left} f) (BI.sep (ℓ ↦[I]{q.left.left.right} f)
        (BI.sep (ℓ ↦[I]{q.left.right.left} f) (BI.sep (ℓ ↦[I]{q.left.right.right} f)
        (BI.sep (ℓ ↦[I]{q.right.left.left} f) (BI.sep (ℓ ↦[I]{q.right.left.right} f)
        (BI.sep (ℓ ↦[I]{q.right.right.left} f) (ℓ ↦[I]{q.right.right.right} f))))))) := by
  rw [share_eq q, share_eq q.left, share_eq q.right, share_eq q.left.left, share_eq q.left.right, share_eq q.right.left,
    share_eq q.right.right]
  simp only [sep_assoc_eq]

/-- A row held in full is the row held under its eight shares. -/
theorem row_shares_eq (c : Dev nD) (b : Fin 2) (f : MineBuf F) :
    minePts c b fullShare f
      = iprop(minePts c b (shr 0) f ∗ minePts c b (shr 1) f ∗ minePts c b (shr 2) f ∗ minePts c b (shr 3) f ∗ minePts c b (shr 4) f ∗ minePts c b (shr 5) f ∗ minePts c b (shr 6) f ∗ minePts c b (shr 7) f) :=
  shares8 fullShare

theorem row_shares_split (c : Dev nD) (b : Fin 2) (f : MineBuf F) :
    minePts c b fullShare f
      ⊢ iprop(minePts c b (shr 0) f ∗ minePts c b (shr 1) f ∗ minePts c b (shr 2) f ∗ minePts c b (shr 3) f ∗ minePts c b (shr 4) f ∗ minePts c b (shr 5) f ∗ minePts c b (shr 6) f ∗ minePts c b (shr 7) f) :=
  Entails.of_eq (row_shares_eq c b f)

theorem row_shares_join (c : Dev nD) (b : Fin 2) (f : MineBuf F) :
    iprop(minePts c b (shr 0) f ∗ minePts c b (shr 1) f ∗ minePts c b (shr 2) f ∗ minePts c b (shr 3) f ∗ minePts c b (shr 4) f ∗ minePts c b (shr 5) f ∗ minePts c b (shr 6) f ∗ minePts c b (shr 7) f)
      ⊢ minePts c b fullShare f :=
  Entails.of_eq (row_shares_eq c b f).symm

end Cert.Kernel.Sm
end
-- ==== Proof.W.OpenKit.lean ====
/-
  For the opening of a device's body: what it owes at launch as the receive credit, one summand, and the seven barrier units;
  the table of everybody's row sums as its sixteen slots, each at some contents.
-/
import proofs.«901053_g7700000000001054_dist_softmax_colshard_i_m1024_n1024_v7x_i8_bf16_1_alg».proof.Proof.W.LaunchLev
import proofs.«901053_g7700000000001054_dist_softmax_colshard_i_m1024_n1024_v7x_i8_bf16_1_alg».proof.Proof.W.Glue

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## What a device owes at launch, regrouped -/

/-- The receive credit device c owes: its two copies to each other device. -/
def recvOwed (c : Dev nD) : CellTallies nD τ sig Unit :=
  ∑ p ∈ Finset.univ.erase c, (tallyAt (recvCell p 0 c) () Ncr + tallyAt (recvCell p 1 c) () Ncr)

theorem O₀_split (c : Dev nD) : O₀ c = recvOwed c + ∑ p ∈ Finset.univ.erase c, tallyAt (barCell p) () 1 := by
  unfold O₀ recvOwed
  rw [← Finset.sum_add_distrib]
  exact Finset.sum_congr rfl fun p _ => by rw [add_assoc, add_comm]

theorem recvOnly_recvOwed (c : Dev nD) : RecvOnly (recvOwed c) :=
  RecvOnly.sum fun p _ => (recvOnly_tallyAt p 0 c Ncr).add (recvOnly_tallyAt p 1 c Ncr)

omit [FloatOps F] in
/-- The barrier wait of a device that owes its receive credit only. -/
theorem mayWait_recvOwed (c : Dev nD) : (levAts L lv : sProp 𝕄) ⊢ MayWait (c : Thread nD τ) (.reg barS) () (recvOwed c) :=
  mayWait_bar c _ (recvOnly_recvOwed c)

/-! ## The same for each device, as explicit sums -/

theorem O₀_chain_0 : O₀ (0 : Dev nD) = recvOwed 0 + tallyAt (barCell 1) () 1 + tallyAt (barCell 2) () 1 + tallyAt (barCell 3) () 1 + tallyAt (barCell 4) () 1 + tallyAt (barCell 5) () 1 + tallyAt (barCell 6) () 1 + tallyAt (barCell 7) () 1 := by
  rw [O₀_split, show Finset.univ.erase (0 : Dev nD) = {1, 2, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_0 : recvOwed (0 : Dev nD)
    = tallyAt (recvCell 1 0 0) () Ncr + tallyAt (recvCell 1 1 0) () Ncr + tallyAt (recvCell 2 0 0) () Ncr + tallyAt (recvCell 2 1 0) () Ncr
      + tallyAt (recvCell 3 0 0) () Ncr + tallyAt (recvCell 3 1 0) () Ncr + tallyAt (recvCell 4 0 0) () Ncr + tallyAt (recvCell 4 1 0) () Ncr
      + tallyAt (recvCell 5 0 0) () Ncr + tallyAt (recvCell 5 1 0) () Ncr + tallyAt (recvCell 6 0 0) () Ncr + tallyAt (recvCell 6 1 0) () Ncr
      + tallyAt (recvCell 7 0 0) () Ncr + tallyAt (recvCell 7 1 0) () Ncr := by
  unfold recvOwed
  rw [show Finset.univ.erase (0 : Dev nD) = {1, 2, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_1 : O₀ (1 : Dev nD) = recvOwed 1 + tallyAt (barCell 0) () 1 + tallyAt (barCell 2) () 1 + tallyAt (barCell 3) () 1 + tallyAt (barCell 4) () 1 + tallyAt (barCell 5) () 1 + tallyAt (barCell 6) () 1 + tallyAt (barCell 7) () 1 := by
  rw [O₀_split, show Finset.univ.erase (1 : Dev nD) = {0, 2, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_1 : recvOwed (1 : Dev nD)
    = tallyAt (recvCell 0 0 1) () Ncr + tallyAt (recvCell 0 1 1) () Ncr + tallyAt (recvCell 2 0 1) () Ncr + tallyAt (recvCell 2 1 1) () Ncr
      + tallyAt (recvCell 3 0 1) () Ncr + tallyAt (recvCell 3 1 1) () Ncr + tallyAt (recvCell 4 0 1) () Ncr + tallyAt (recvCell 4 1 1) () Ncr
      + tallyAt (recvCell 5 0 1) () Ncr + tallyAt (recvCell 5 1 1) () Ncr + tallyAt (recvCell 6 0 1) () Ncr + tallyAt (recvCell 6 1 1) () Ncr
      + tallyAt (recvCell 7 0 1) () Ncr + tallyAt (recvCell 7 1 1) () Ncr := by
  unfold recvOwed
  rw [show Finset.univ.erase (1 : Dev nD) = {0, 2, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_2 : O₀ (2 : Dev nD) = recvOwed 2 + tallyAt (barCell 0) () 1 + tallyAt (barCell 1) () 1 + tallyAt (barCell 3) () 1 + tallyAt (barCell 4) () 1 + tallyAt (barCell 5) () 1 + tallyAt (barCell 6) () 1 + tallyAt (barCell 7) () 1 := by
  rw [O₀_split, show Finset.univ.erase (2 : Dev nD) = {0, 1, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_2 : recvOwed (2 : Dev nD)
    = tallyAt (recvCell 0 0 2) () Ncr + tallyAt (recvCell 0 1 2) () Ncr + tallyAt (recvCell 1 0 2) () Ncr + tallyAt (recvCell 1 1 2) () Ncr
      + tallyAt (recvCell 3 0 2) () Ncr + tallyAt (recvCell 3 1 2) () Ncr + tallyAt (recvCell 4 0 2) () Ncr + tallyAt (recvCell 4 1 2) () Ncr
      + tallyAt (recvCell 5 0 2) () Ncr + tallyAt (recvCell 5 1 2) () Ncr + tallyAt (recvCell 6 0 2) () Ncr + tallyAt (recvCell 6 1 2) () Ncr
      + tallyAt (recvCell 7 0 2) () Ncr + tallyAt (recvCell 7 1 2) () Ncr := by
  unfold recvOwed
  rw [show Finset.univ.erase (2 : Dev nD) = {0, 1, 3, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_3 : O₀ (3 : Dev nD) = recvOwed 3 + tallyAt (barCell 0) () 1 + tallyAt (barCell 1) () 1 + tallyAt (barCell 2) () 1 + tallyAt (barCell 4) () 1 + tallyAt (barCell 5) () 1 + tallyAt (barCell 6) () 1 + tallyAt (barCell 7) () 1 := by
  rw [O₀_split, show Finset.univ.erase (3 : Dev nD) = {0, 1, 2, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_3 : recvOwed (3 : Dev nD)
    = tallyAt (recvCell 0 0 3) () Ncr + tallyAt (recvCell 0 1 3) () Ncr + tallyAt (recvCell 1 0 3) () Ncr + tallyAt (recvCell 1 1 3) () Ncr
      + tallyAt (recvCell 2 0 3) () Ncr + tallyAt (recvCell 2 1 3) () Ncr + tallyAt (recvCell 4 0 3) () Ncr + tallyAt (recvCell 4 1 3) () Ncr
      + tallyAt (recvCell 5 0 3) () Ncr + tallyAt (recvCell 5 1 3) () Ncr + tallyAt (recvCell 6 0 3) () Ncr + tallyAt (recvCell 6 1 3) () Ncr
      + tallyAt (recvCell 7 0 3) () Ncr + tallyAt (recvCell 7 1 3) () Ncr := by
  unfold recvOwed
  rw [show Finset.univ.erase (3 : Dev nD) = {0, 1, 2, 4, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_4 : O₀ (4 : Dev nD) = recvOwed 4 + tallyAt (barCell 0) () 1 + tallyAt (barCell 1) () 1 + tallyAt (barCell 2) () 1 + tallyAt (barCell 3) () 1 + tallyAt (barCell 5) () 1 + tallyAt (barCell 6) () 1 + tallyAt (barCell 7) () 1 := by
  rw [O₀_split, show Finset.univ.erase (4 : Dev nD) = {0, 1, 2, 3, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_4 : recvOwed (4 : Dev nD)
    = tallyAt (recvCell 0 0 4) () Ncr + tallyAt (recvCell 0 1 4) () Ncr + tallyAt (recvCell 1 0 4) () Ncr + tallyAt (recvCell 1 1 4) () Ncr
      + tallyAt (recvCell 2 0 4) () Ncr + tallyAt (recvCell 2 1 4) () Ncr + tallyAt (recvCell 3 0 4) () Ncr + tallyAt (recvCell 3 1 4) () Ncr
      + tallyAt (recvCell 5 0 4) () Ncr + tallyAt (recvCell 5 1 4) () Ncr + tallyAt (recvCell 6 0 4) () Ncr + tallyAt (recvCell 6 1 4) () Ncr
      + tallyAt (recvCell 7 0 4) () Ncr + tallyAt (recvCell 7 1 4) () Ncr := by
  unfold recvOwed
  rw [show Finset.univ.erase (4 : Dev nD) = {0, 1, 2, 3, 5, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_5 : O₀ (5 : Dev nD) = recvOwed 5 + tallyAt (barCell 0) () 1 + tallyAt (barCell 1) () 1 + tallyAt (barCell 2) () 1 + tallyAt (barCell 3) () 1 + tallyAt (barCell 4) () 1 + tallyAt (barCell 6) () 1 + tallyAt (barCell 7) () 1 := by
  rw [O₀_split, show Finset.univ.erase (5 : Dev nD) = {0, 1, 2, 3, 4, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_5 : recvOwed (5 : Dev nD)
    = tallyAt (recvCell 0 0 5) () Ncr + tallyAt (recvCell 0 1 5) () Ncr + tallyAt (recvCell 1 0 5) () Ncr + tallyAt (recvCell 1 1 5) () Ncr
      + tallyAt (recvCell 2 0 5) () Ncr + tallyAt (recvCell 2 1 5) () Ncr + tallyAt (recvCell 3 0 5) () Ncr + tallyAt (recvCell 3 1 5) () Ncr
      + tallyAt (recvCell 4 0 5) () Ncr + tallyAt (recvCell 4 1 5) () Ncr + tallyAt (recvCell 6 0 5) () Ncr + tallyAt (recvCell 6 1 5) () Ncr
      + tallyAt (recvCell 7 0 5) () Ncr + tallyAt (recvCell 7 1 5) () Ncr := by
  unfold recvOwed
  rw [show Finset.univ.erase (5 : Dev nD) = {0, 1, 2, 3, 4, 6, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_6 : O₀ (6 : Dev nD) = recvOwed 6 + tallyAt (barCell 0) () 1 + tallyAt (barCell 1) () 1 + tallyAt (barCell 2) () 1 + tallyAt (barCell 3) () 1 + tallyAt (barCell 4) () 1 + tallyAt (barCell 5) () 1 + tallyAt (barCell 7) () 1 := by
  rw [O₀_split, show Finset.univ.erase (6 : Dev nD) = {0, 1, 2, 3, 4, 5, 7} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_6 : recvOwed (6 : Dev nD)
    = tallyAt (recvCell 0 0 6) () Ncr + tallyAt (recvCell 0 1 6) () Ncr + tallyAt (recvCell 1 0 6) () Ncr + tallyAt (recvCell 1 1 6) () Ncr
      + tallyAt (recvCell 2 0 6) () Ncr + tallyAt (recvCell 2 1 6) () Ncr + tallyAt (recvCell 3 0 6) () Ncr + tallyAt (recvCell 3 1 6) () Ncr
      + tallyAt (recvCell 4 0 6) () Ncr + tallyAt (recvCell 4 1 6) () Ncr + tallyAt (recvCell 5 0 6) () Ncr + tallyAt (recvCell 5 1 6) () Ncr
      + tallyAt (recvCell 7 0 6) () Ncr + tallyAt (recvCell 7 1 6) () Ncr := by
  unfold recvOwed
  rw [show Finset.univ.erase (6 : Dev nD) = {0, 1, 2, 3, 4, 5, 7} from by decide,
    Finset.sum_insert (by decide), Finset.sum_insert (by decide), Finset.sum_insert (by decide), Finset.sum_insert (by decide), Finset.sum_insert (by decide), Finset.sum_insert (by decide), Finset.sum_singleton]
  simp only [add_assoc]
theorem O₀_chain_7 : O₀ (7 : Dev nD) = recvOwed 7 + tallyAt (barCell 0) () 1 + tallyAt (barCell 1) () 1 + tallyAt (barCell 2) () 1 + tallyAt (barCell 3) () 1 + tallyAt (barCell 4) () 1 + tallyAt (barCell 5) () 1 + tallyAt (barCell 6) () 1 := by
  rw [O₀_split, show Finset.univ.erase (7 : Dev nD) = {0, 1, 2, 3, 4, 5, 6} from by decide,
    Finset.sum_insert (by decide), Finset.sum_insert (by decide), Finset.sum_insert (by decide), Finset.sum_insert (by decide), Finset.sum_insert (by decide), Finset.sum_insert (by decide), Finset.sum_singleton]
  simp only [add_assoc]
theorem recvOwed_chain_7 : recvOwed (7 : Dev nD)
    = tallyAt (recvCell 0 0 7) () Ncr + tallyAt (recvCell 0 1 7) () Ncr + tallyAt (recvCell 1 0 7) () Ncr + tallyAt (recvCell 1 1 7) () Ncr
      + tallyAt (recvCell 2 0 7) () Ncr + tallyAt (recvCell 2 1 7) () Ncr + tallyAt (recvCell 3 0 7) () Ncr + tallyAt (recvCell 3 1 7) () Ncr
      + tallyAt (recvCell 4 0 7) () Ncr + tallyAt (recvCell 4 1 7) () Ncr + tallyAt (recvCell 5 0 7) () Ncr + tallyAt (recvCell 5 1 7) () Ncr
      + tallyAt (recvCell 6 0 7) () Ncr + tallyAt (recvCell 6 1 7) () Ncr := by
  unfold recvOwed
  rw [show Finset.univ.erase (7 : Dev nD) = {0, 1, 2, 3, 4, 5, 6} from by decide,
    Finset.sum_insert (by decide), Finset.sum_insert (by decide), Finset.sum_insert (by decide), Finset.sum_insert (by decide), Finset.sum_insert (by decide), Finset.sum_insert (by decide), Finset.sum_singleton]
  simp only [add_assoc]

/-! ## The receive credit in the order the body pays it, last payment first -/

theorem recvOwed_pay_0 : recvOwed (0 : Dev nD)
    = tallyAt (recvCell 7 1 0) () Ncr + tallyAt (recvCell 6 1 0) () Ncr + tallyAt (recvCell 5 1 0) () Ncr + tallyAt (recvCell 4 1 0) () Ncr
      + tallyAt (recvCell 3 1 0) () Ncr + tallyAt (recvCell 2 1 0) () Ncr + tallyAt (recvCell 1 1 0) () Ncr + tallyAt (recvCell 7 0 0) () Ncr
      + tallyAt (recvCell 6 0 0) () Ncr + tallyAt (recvCell 5 0 0) () Ncr + tallyAt (recvCell 4 0 0) () Ncr + tallyAt (recvCell 3 0 0) () Ncr
      + tallyAt (recvCell 2 0 0) () Ncr + tallyAt (recvCell 1 0 0) () Ncr := by
  unfold recvOwed
  rw [Finset.sum_add_distrib, add_comm, show Finset.univ.erase (0 : Dev nD) = {7, 6, 5, 4, 3, 2, 1} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_0 (W : Waits sig Unit) : (owes ((0 : Dev nD) : Thread nD τ) (recvOwed 0) W : sProp 𝕄)
    ⊢ owes ((0 : Dev nD) : Thread nD τ) (tallyAt (recvCell 7 1 0) () Ncr + tallyAt (recvCell 6 1 0) () Ncr + tallyAt (recvCell 5 1 0) () Ncr + tallyAt (recvCell 4 1 0) () Ncr + tallyAt (recvCell 3 1 0) () Ncr + tallyAt (recvCell 2 1 0) () Ncr + tallyAt (recvCell 1 1 0) () Ncr + tallyAt (recvCell 7 0 0) () Ncr + tallyAt (recvCell 6 0 0) () Ncr + tallyAt (recvCell 5 0 0) () Ncr + tallyAt (recvCell 4 0 0) () Ncr + tallyAt (recvCell 3 0 0) () Ncr + tallyAt (recvCell 2 0 0) () Ncr + tallyAt (recvCell 1 0 0) () Ncr) W :=
  Entails.of_eq (congrArg (fun O => (owes ((0 : Dev nD) : Thread nD τ) O W : sProp 𝕄)) recvOwed_pay_0)
theorem recvOwed_pay_1 : recvOwed (1 : Dev nD)
    = tallyAt (recvCell 7 1 1) () Ncr + tallyAt (recvCell 6 1 1) () Ncr + tallyAt (recvCell 5 1 1) () Ncr + tallyAt (recvCell 4 1 1) () Ncr
      + tallyAt (recvCell 3 1 1) () Ncr + tallyAt (recvCell 2 1 1) () Ncr + tallyAt (recvCell 0 1 1) () Ncr + tallyAt (recvCell 7 0 1) () Ncr
      + tallyAt (recvCell 6 0 1) () Ncr + tallyAt (recvCell 5 0 1) () Ncr + tallyAt (recvCell 4 0 1) () Ncr + tallyAt (recvCell 3 0 1) () Ncr
      + tallyAt (recvCell 2 0 1) () Ncr + tallyAt (recvCell 0 0 1) () Ncr := by
  unfold recvOwed
  rw [Finset.sum_add_distrib, add_comm, show Finset.univ.erase (1 : Dev nD) = {7, 6, 5, 4, 3, 2, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_1 (W : Waits sig Unit) : (owes ((1 : Dev nD) : Thread nD τ) (recvOwed 1) W : sProp 𝕄)
    ⊢ owes ((1 : Dev nD) : Thread nD τ) (tallyAt (recvCell 7 1 1) () Ncr + tallyAt (recvCell 6 1 1) () Ncr + tallyAt (recvCell 5 1 1) () Ncr + tallyAt (recvCell 4 1 1) () Ncr + tallyAt (recvCell 3 1 1) () Ncr + tallyAt (recvCell 2 1 1) () Ncr + tallyAt (recvCell 0 1 1) () Ncr + tallyAt (recvCell 7 0 1) () Ncr + tallyAt (recvCell 6 0 1) () Ncr + tallyAt (recvCell 5 0 1) () Ncr + tallyAt (recvCell 4 0 1) () Ncr + tallyAt (recvCell 3 0 1) () Ncr + tallyAt (recvCell 2 0 1) () Ncr + tallyAt (recvCell 0 0 1) () Ncr) W :=
  Entails.of_eq (congrArg (fun O => (owes ((1 : Dev nD) : Thread nD τ) O W : sProp 𝕄)) recvOwed_pay_1)
theorem recvOwed_pay_2 : recvOwed (2 : Dev nD)
    = tallyAt (recvCell 7 1 2) () Ncr + tallyAt (recvCell 6 1 2) () Ncr + tallyAt (recvCell 5 1 2) () Ncr + tallyAt (recvCell 4 1 2) () Ncr
      + tallyAt (recvCell 3 1 2) () Ncr + tallyAt (recvCell 1 1 2) () Ncr + tallyAt (recvCell 0 1 2) () Ncr + tallyAt (recvCell 7 0 2) () Ncr
      + tallyAt (recvCell 6 0 2) () Ncr + tallyAt (recvCell 5 0 2) () Ncr + tallyAt (recvCell 4 0 2) () Ncr + tallyAt (recvCell 3 0 2) () Ncr
      + tallyAt (recvCell 1 0 2) () Ncr + tallyAt (recvCell 0 0 2) () Ncr := by
  unfold recvOwed
  rw [Finset.sum_add_distrib, add_comm, show Finset.univ.erase (2 : Dev nD) = {7, 6, 5, 4, 3, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_2 (W : Waits sig Unit) : (owes ((2 : Dev nD) : Thread nD τ) (recvOwed 2) W : sProp 𝕄)
    ⊢ owes ((2 : Dev nD) : Thread nD τ) (tallyAt (recvCell 7 1 2) () Ncr + tallyAt (recvCell 6 1 2) () Ncr + tallyAt (recvCell 5 1 2) () Ncr + tallyAt (recvCell 4 1 2) () Ncr + tallyAt (recvCell 3 1 2) () Ncr + tallyAt (recvCell 1 1 2) () Ncr + tallyAt (recvCell 0 1 2) () Ncr + tallyAt (recvCell 7 0 2) () Ncr + tallyAt (recvCell 6 0 2) () Ncr + tallyAt (recvCell 5 0 2) () Ncr + tallyAt (recvCell 4 0 2) () Ncr + tallyAt (recvCell 3 0 2) () Ncr + tallyAt (recvCell 1 0 2) () Ncr + tallyAt (recvCell 0 0 2) () Ncr) W :=
  Entails.of_eq (congrArg (fun O => (owes ((2 : Dev nD) : Thread nD τ) O W : sProp 𝕄)) recvOwed_pay_2)
theorem recvOwed_pay_3 : recvOwed (3 : Dev nD)
    = tallyAt (recvCell 7 1 3) () Ncr + tallyAt (recvCell 6 1 3) () Ncr + tallyAt (recvCell 5 1 3) () Ncr + tallyAt (recvCell 4 1 3) () Ncr
      + tallyAt (recvCell 2 1 3) () Ncr + tallyAt (recvCell 1 1 3) () Ncr + tallyAt (recvCell 0 1 3) () Ncr + tallyAt (recvCell 7 0 3) () Ncr
      + tallyAt (recvCell 6 0 3) () Ncr + tallyAt (recvCell 5 0 3) () Ncr + tallyAt (recvCell 4 0 3) () Ncr + tallyAt (recvCell 2 0 3) () Ncr
      + tallyAt (recvCell 1 0 3) () Ncr + tallyAt (recvCell 0 0 3) () Ncr := by
  unfold recvOwed
  rw [Finset.sum_add_distrib, add_comm, show Finset.univ.erase (3 : Dev nD) = {7, 6, 5, 4, 2, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_3 (W : Waits sig Unit) : (owes ((3 : Dev nD) : Thread nD τ) (recvOwed 3) W : sProp 𝕄)
    ⊢ owes ((3 : Dev nD) : Thread nD τ) (tallyAt (recvCell 7 1 3) () Ncr + tallyAt (recvCell 6 1 3) () Ncr + tallyAt (recvCell 5 1 3) () Ncr + tallyAt (recvCell 4 1 3) () Ncr + tallyAt (recvCell 2 1 3) () Ncr + tallyAt (recvCell 1 1 3) () Ncr + tallyAt (recvCell 0 1 3) () Ncr + tallyAt (recvCell 7 0 3) () Ncr + tallyAt (recvCell 6 0 3) () Ncr + tallyAt (recvCell 5 0 3) () Ncr + tallyAt (recvCell 4 0 3) () Ncr + tallyAt (recvCell 2 0 3) () Ncr + tallyAt (recvCell 1 0 3) () Ncr + tallyAt (recvCell 0 0 3) () Ncr) W :=
  Entails.of_eq (congrArg (fun O => (owes ((3 : Dev nD) : Thread nD τ) O W : sProp 𝕄)) recvOwed_pay_3)
theorem recvOwed_pay_4 : recvOwed (4 : Dev nD)
    = tallyAt (recvCell 7 1 4) () Ncr + tallyAt (recvCell 6 1 4) () Ncr + tallyAt (recvCell 5 1 4) () Ncr + tallyAt (recvCell 3 1 4) () Ncr
      + tallyAt (recvCell 2 1 4) () Ncr + tallyAt (recvCell 1 1 4) () Ncr + tallyAt (recvCell 0 1 4) () Ncr + tallyAt (recvCell 7 0 4) () Ncr
      + tallyAt (recvCell 6 0 4) () Ncr + tallyAt (recvCell 5 0 4) () Ncr + tallyAt (recvCell 3 0 4) () Ncr + tallyAt (recvCell 2 0 4) () Ncr
      + tallyAt (recvCell 1 0 4) () Ncr + tallyAt (recvCell 0 0 4) () Ncr := by
  unfold recvOwed
  rw [Finset.sum_add_distrib, add_comm, show Finset.univ.erase (4 : Dev nD) = {7, 6, 5, 3, 2, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_4 (W : Waits sig Unit) : (owes ((4 : Dev nD) : Thread nD τ) (recvOwed 4) W : sProp 𝕄)
    ⊢ owes ((4 : Dev nD) : Thread nD τ) (tallyAt (recvCell 7 1 4) () Ncr + tallyAt (recvCell 6 1 4) () Ncr + tallyAt (recvCell 5 1 4) () Ncr + tallyAt (recvCell 3 1 4) () Ncr + tallyAt (recvCell 2 1 4) () Ncr + tallyAt (recvCell 1 1 4) () Ncr + tallyAt (recvCell 0 1 4) () Ncr + tallyAt (recvCell 7 0 4) () Ncr + tallyAt (recvCell 6 0 4) () Ncr + tallyAt (recvCell 5 0 4) () Ncr + tallyAt (recvCell 3 0 4) () Ncr + tallyAt (recvCell 2 0 4) () Ncr + tallyAt (recvCell 1 0 4) () Ncr + tallyAt (recvCell 0 0 4) () Ncr) W :=
  Entails.of_eq (congrArg (fun O => (owes ((4 : Dev nD) : Thread nD τ) O W : sProp 𝕄)) recvOwed_pay_4)
theorem recvOwed_pay_5 : recvOwed (5 : Dev nD)
    = tallyAt (recvCell 7 1 5) () Ncr + tallyAt (recvCell 6 1 5) () Ncr + tallyAt (recvCell 4 1 5) () Ncr + tallyAt (recvCell 3 1 5) () Ncr
      + tallyAt (recvCell 2 1 5) () Ncr + tallyAt (recvCell 1 1 5) () Ncr + tallyAt (recvCell 0 1 5) () Ncr + tallyAt (recvCell 7 0 5) () Ncr
      + tallyAt (recvCell 6 0 5) () Ncr + tallyAt (recvCell 4 0 5) () Ncr + tallyAt (recvCell 3 0 5) () Ncr + tallyAt (recvCell 2 0 5) () Ncr
      + tallyAt (recvCell 1 0 5) () Ncr + tallyAt (recvCell 0 0 5) () Ncr := by
  unfold recvOwed
  rw [Finset.sum_add_distrib, add_comm, show Finset.univ.erase (5 : Dev nD) = {7, 6, 4, 3, 2, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_5 (W : Waits sig Unit) : (owes ((5 : Dev nD) : Thread nD τ) (recvOwed 5) W : sProp 𝕄)
    ⊢ owes ((5 : Dev nD) : Thread nD τ) (tallyAt (recvCell 7 1 5) () Ncr + tallyAt (recvCell 6 1 5) () Ncr + tallyAt (recvCell 4 1 5) () Ncr + tallyAt (recvCell 3 1 5) () Ncr + tallyAt (recvCell 2 1 5) () Ncr + tallyAt (recvCell 1 1 5) () Ncr + tallyAt (recvCell 0 1 5) () Ncr + tallyAt (recvCell 7 0 5) () Ncr + tallyAt (recvCell 6 0 5) () Ncr + tallyAt (recvCell 4 0 5) () Ncr + tallyAt (recvCell 3 0 5) () Ncr + tallyAt (recvCell 2 0 5) () Ncr + tallyAt (recvCell 1 0 5) () Ncr + tallyAt (recvCell 0 0 5) () Ncr) W :=
  Entails.of_eq (congrArg (fun O => (owes ((5 : Dev nD) : Thread nD τ) O W : sProp 𝕄)) recvOwed_pay_5)
theorem recvOwed_pay_6 : recvOwed (6 : Dev nD)
    = tallyAt (recvCell 7 1 6) () Ncr + tallyAt (recvCell 5 1 6) () Ncr + tallyAt (recvCell 4 1 6) () Ncr + tallyAt (recvCell 3 1 6) () Ncr
      + tallyAt (recvCell 2 1 6) () Ncr + tallyAt (recvCell 1 1 6) () Ncr + tallyAt (recvCell 0 1 6) () Ncr + tallyAt (recvCell 7 0 6) () Ncr
      + tallyAt (recvCell 5 0 6) () Ncr + tallyAt (recvCell 4 0 6) () Ncr + tallyAt (recvCell 3 0 6) () Ncr + tallyAt (recvCell 2 0 6) () Ncr
      + tallyAt (recvCell 1 0 6) () Ncr + tallyAt (recvCell 0 0 6) () Ncr := by
  unfold recvOwed
  rw [Finset.sum_add_distrib, add_comm, show Finset.univ.erase (6 : Dev nD) = {7, 5, 4, 3, 2, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_6 (W : Waits sig Unit) : (owes ((6 : Dev nD) : Thread nD τ) (recvOwed 6) W : sProp 𝕄)
    ⊢ owes ((6 : Dev nD) : Thread nD τ) (tallyAt (recvCell 7 1 6) () Ncr + tallyAt (recvCell 5 1 6) () Ncr + tallyAt (recvCell 4 1 6) () Ncr + tallyAt (recvCell 3 1 6) () Ncr + tallyAt (recvCell 2 1 6) () Ncr + tallyAt (recvCell 1 1 6) () Ncr + tallyAt (recvCell 0 1 6) () Ncr + tallyAt (recvCell 7 0 6) () Ncr + tallyAt (recvCell 5 0 6) () Ncr + tallyAt (recvCell 4 0 6) () Ncr + tallyAt (recvCell 3 0 6) () Ncr + tallyAt (recvCell 2 0 6) () Ncr + tallyAt (recvCell 1 0 6) () Ncr + tallyAt (recvCell 0 0 6) () Ncr) W :=
  Entails.of_eq (congrArg (fun O => (owes ((6 : Dev nD) : Thread nD τ) O W : sProp 𝕄)) recvOwed_pay_6)
theorem recvOwed_pay_7 : recvOwed (7 : Dev nD)
    = tallyAt (recvCell 6 1 7) () Ncr + tallyAt (recvCell 5 1 7) () Ncr + tallyAt (recvCell 4 1 7) () Ncr + tallyAt (recvCell 3 1 7) () Ncr
      + tallyAt (recvCell 2 1 7) () Ncr + tallyAt (recvCell 1 1 7) () Ncr + tallyAt (recvCell 0 1 7) () Ncr + tallyAt (recvCell 6 0 7) () Ncr
      + tallyAt (recvCell 5 0 7) () Ncr + tallyAt (recvCell 4 0 7) () Ncr + tallyAt (recvCell 3 0 7) () Ncr + tallyAt (recvCell 2 0 7) () Ncr
      + tallyAt (recvCell 1 0 7) () Ncr + tallyAt (recvCell 0 0 7) () Ncr := by
  unfold recvOwed
  rw [Finset.sum_add_distrib, add_comm, show Finset.univ.erase (7 : Dev nD) = {6, 5, 4, 3, 2, 1, 0} from by decide,
    Finset.sum_insert (by decide), Finset.sum_insert (by decide), Finset.sum_insert (by decide), Finset.sum_insert (by decide), Finset.sum_insert (by decide), Finset.sum_insert (by decide), Finset.sum_singleton,
    Finset.sum_insert (by decide), Finset.sum_insert (by decide), Finset.sum_insert (by decide), Finset.sum_insert (by decide), Finset.sum_insert (by decide), Finset.sum_insert (by decide), Finset.sum_singleton]
  simp only [add_assoc]
omit [FloatOps F] in
theorem owes_pay_7 (W : Waits sig Unit) : (owes ((7 : Dev nD) : Thread nD τ) (recvOwed 7) W : sProp 𝕄)
    ⊢ owes ((7 : Dev nD) : Thread nD τ) (tallyAt (recvCell 6 1 7) () Ncr + tallyAt (recvCell 5 1 7) () Ncr + tallyAt (recvCell 4 1 7) () Ncr + tallyAt (recvCell 3 1 7) () Ncr + tallyAt (recvCell 2 1 7) () Ncr + tallyAt (recvCell 1 1 7) () Ncr + tallyAt (recvCell 0 1 7) () Ncr + tallyAt (recvCell 6 0 7) () Ncr + tallyAt (recvCell 5 0 7) () Ncr + tallyAt (recvCell 4 0 7) () Ncr + tallyAt (recvCell 3 0 7) () Ncr + tallyAt (recvCell 2 0 7) () Ncr + tallyAt (recvCell 1 0 7) () Ncr + tallyAt (recvCell 0 0 7) () Ncr) W :=
  Entails.of_eq (congrArg (fun O => (owes ((7 : Dev nD) : Thread nD τ) O W : sProp 𝕄)) recvOwed_pay_7)

/-! ## The table of everybody's row sums at some contents, slot by slot -/

theorem comm_split_ex (c : Dev nD) :
    (iprop(∃ f : CommBuf F, (c : Thread nD τ).loc cc0_scratch1 ↦{fullShare} f) : sProp 𝕄)
      ⊢ iprop((∃ f : CommBuf F, (commSl 0 0).view.loc (c : Thread nD τ) ↦[(commSl 0 0).view.set]{fullShare} f)
        ∗ (∃ f : CommBuf F, (commSl 0 1).view.loc (c : Thread nD τ) ↦[(commSl 0 1).view.set]{fullShare} f)
        ∗ (∃ f : CommBuf F, (commSl 1 0).view.loc (c : Thread nD τ) ↦[(commSl 1 0).view.set]{fullShare} f)
        ∗ (∃ f : CommBuf F, (commSl 1 1).view.loc (c : Thread nD τ) ↦[(commSl 1 1).view.set]{fullShare} f)
        ∗ (∃ f : CommBuf F, (commSl 2 0).view.loc (c : Thread nD τ) ↦[(commSl 2 0).view.set]{fullShare} f)
        ∗ (∃ f : CommBuf F, (commSl 2 1).view.loc (c : Thread nD τ) ↦[(commSl 2 1).view.set]{fullShare} f)
        ∗ (∃ f : CommBuf F, (commSl 3 0).view.loc (c : Thread nD τ) ↦[(commSl 3 0).view.set]{fullShare} f)
        ∗ (∃ f : CommBuf F, (commSl 3 1).view.loc (c : Thread nD τ) ↦[(commSl 3 1).view.set]{fullShare} f)
        ∗ (∃ f : CommBuf F, (commSl 4 0).view.loc (c : Thread nD τ) ↦[(commSl 4 0).view.set]{fullShare} f)
        ∗ (∃ f : CommBuf F, (commSl 4 1).view.loc (c : Thread nD τ) ↦[(commSl 4 1).view.set]{fullShare} f)
        ∗ (∃ f : CommBuf F, (commSl 5 0).view.loc (c : Thread nD τ) ↦[(commSl 5 0).view.set]{fullShare} f)
        ∗ (∃ f : CommBuf F, (commSl 5 1).view.loc (c : Thread nD τ) ↦[(commSl 5 1).view.set]{fullShare} f)
        ∗ (∃ f : CommBuf F, (commSl 6 0).view.loc (c : Thread nD τ) ↦[(commSl 6 0).view.set]{fullShare} f)
        ∗ (∃ f : CommBuf F, (commSl 6 1).view.loc (c : Thread nD τ) ↦[(commSl 6 1).view.set]{fullShare} f)
        ∗ (∃ f : CommBuf F, (commSl 7 0).view.loc (c : Thread nD τ) ↦[(commSl 7 0).view.set]{fullShare} f)
        ∗ (∃ f : CommBuf F, (commSl 7 1).view.loc (c : Thread nD τ) ↦[(commSl 7 1).view.set]{fullShare} f)) := by
  iintro ⟨%f, H⟩
  ihave H' := (comm_split c f) $$ H
  icases H' with ⟨H00, H01, H10, H11, H20, H21, H30, H31, H40, H41, H50, H51, H60, H61, H70, H71⟩
  isplitl [H00]; · iexists f; iexact H00
  isplitl [H01]; · iexists f; iexact H01
  isplitl [H10]; · iexists f; iexact H10
  isplitl [H11]; · iexists f; iexact H11
  isplitl [H20]; · iexists f; iexact H20
  isplitl [H21]; · iexists f; iexact H21
  isplitl [H30]; · iexists f; iexact H30
  isplitl [H31]; · iexists f; iexact H31
  isplitl [H40]; · iexists f; iexact H40
  isplitl [H41]; · iexists f; iexact H41
  isplitl [H50]; · iexists f; iexact H50
  isplitl [H51]; · iexists f; iexact H51
  isplitl [H60]; · iexists f; iexact H60
  isplitl [H61]; · iexists f; iexact H61
  isplitl [H70]; · iexists f; iexact H70
  iexists f; iexact H71

end Cert.Kernel.Sm

end
-- ==== Proof.W.Canon.lean ====
/-
  The printed memrefs, semaphores and device ids of the body, renamed to the slots, cells and devices of the protocol:
  every offset chain of the body is the device's own coordinate beside literals, every addressed device a literal.
-/
import proofs.«901053_g7700000000001054_dist_softmax_colshard_i_m1024_n1024_v7x_i8_bf16_1_alg».proof.Proof.W.Core

noncomputable section

namespace Cert.Kernel.Sm

open Cert.Kernel Cert.Kernel.Gen
open Idealize.ShloMosaic Idealize.SL.Sem

theorem mem2_c (d : Dev nD) (h) (hs) :
    ((Memref.whole cc0_scratch1 : Memref sig .tc .vmem S8x2x1x512 .f32).slice (Rect.unit (s := S8x2x1x512) (k0_off2 d) S1x1x1x512.size h) hs).squeeze S1x512 squeezes_S1x1x1x512_S1x512 = commSl d 0 :=
  congrArg (fun M => Memref.squeeze M S1x512 squeezes_S1x1x1x512_S1x512) (Memref.slice_unit_congr _ (k0_off2_eq d) _ _ _ _)
theorem mem4_c (d : Dev nD) (h) (hs) :
    ((Memref.whole cc0_scratch1 : Memref sig .tc .vmem S8x2x1x512 .f32).slice (Rect.unit (s := S8x2x1x512) (k0_off4 d) S1x1x1x512.size h) hs).squeeze S1x512 squeezes_S1x1x1x512_S1x512 = commSl d 0 :=
  congrArg (fun M => Memref.squeeze M S1x512 squeezes_S1x1x1x512_S1x512) (Memref.slice_unit_congr _ (k0_off4_eq d) _ _ _ _)
theorem mem6_c (d : Dev nD) (h) (hs) :
    ((Memref.whole cc0_scratch1 : Memref sig .tc .vmem S8x2x1x512 .f32).slice (Rect.unit (s := S8x2x1x512) (k0_off6 d) S1x1x1x512.size h) hs).squeeze S1x512 squeezes_S1x1x1x512_S1x512 = commSl d 0 :=
  congrArg (fun M => Memref.squeeze M S1x512 squeezes_S1x1x1x512_S1x512) (Memref.slice_unit_congr _ (k0_off6_eq d) _ _ _ _)
theorem mem8_c (d : Dev nD) (h) (hs) :
    ((Memref.whole cc0_scratch1 : Memref sig .tc .vmem S8x2x1x512 .f32).slice (Rect.unit (s := S8x2x1x512) (k0_off8 d) S1x1x1x512.size h) hs).squeeze S1x512 squeezes_S1x1x1x512_S1x512 = commSl d 0 :=
  congrArg (fun M => Memref.squeeze M S1x512 squeezes_S1x1x1x512_S1x512) (Memref.slice_unit_congr _ (k0_off8_eq d) _ _ _ _)
theorem mem10_c (d : Dev nD) (h) (hs) :
    ((Memref.whole cc0_scratch1 : Memref sig .tc .vmem S8x2x1x512 .f32).slice (Rect.unit (s := S8x2x1x512) (k0_off10 d) S1x1x1x512.size h) hs).squeeze S1x512 squeezes_S1x1x1x512_S1x512 = commSl d 0 :=
  congrArg (fun M => Memref.squeeze M S1x512 squeezes_S1x1x1x512_S1x512) (Memref.slice_unit_congr _ (k0_off10_eq d) _ _ _ _)
theorem mem12_c (d : Dev nD) (h) (hs) :
    ((Memref.whole cc0_scratch1 : Memref sig .tc .vmem S8x2x1x512 .f32).slice (Rect.unit (s := S8x2x1x512) (k0_off12 d) S1x1x1x512.size h) hs).squeeze S1x512 squeezes_S1x1x1x512_S1x512 = commSl d 0 :=
  congrArg (fun M => Memref.squeeze M S1x512 squeezes_S1x1x1x512_S1x512) (Memref.slice_unit_congr _ (k0_off12_eq d) _ _ _ _)
theorem mem14_c (d : Dev nD) (h) (hs) :
    ((Memref.whole cc0_scratch1 : Memref sig .tc .vmem S8x2x1x512 .f32).slice (Rect.unit (s := S8x2x1x512) (k0_off14 d) S1x1x1x512.size h) hs).squeeze S1x512 squeezes_S1x1x1x512_S1x512 = commSl d 0 :=
  congrArg (fun M => Memref.squeeze M S1x512 squeezes_S1x1x1x512_S1x512) (Memref.slice_unit_congr _ (k0_off14_eq d) _ _ _ _)
theorem mem16_c (d : Dev nD) (h) (hs) :
    ((Memref.whole cc0_scratch1 : Memref sig .tc .vmem S8x2x1x512 .f32).slice (Rect.unit (s := S8x2x1x512) (k0_off16 d) S1x1x1x512.size h) hs).squeeze S1x512 squeezes_S1x1x1x512_S1x512 = commSl d 0 :=
  congrArg (fun M => Memref.squeeze M S1x512 squeezes_S1x1x1x512_S1x512) (Memref.slice_unit_congr _ (k0_off16_eq d) _ _ _ _)
theorem mem19_c (d : Dev nD) (h) (hs) :
    ((Memref.whole cc0_scratch1 : Memref sig .tc .vmem S8x2x1x512 .f32).slice (Rect.unit (s := S8x2x1x512) (k0_off19 d) S1x1x1x512.size h) hs).squeeze S1x512 squeezes_S1x1x1x512_S1x512 = commSl d 1 :=
  congrArg (fun M => Memref.squeeze M S1x512 squeezes_S1x1x1x512_S1x512) (Memref.slice_unit_congr _ (k0_off19_eq d) _ _ _ _)
theorem mem21_c (d : Dev nD) (h) (hs) :
    ((Memref.whole cc0_scratch1 : Memref sig .tc .vmem S8x2x1x512 .f32).slice (Rect.unit (s := S8x2x1x512) (k0_off21 d) S1x1x1x512.size h) hs).squeeze S1x512 squeezes_S1x1x1x512_S1x512 = commSl d 1 :=
  congrArg (fun M => Memref.squeeze M S1x512 squeezes_S1x1x1x512_S1x512) (Memref.slice_unit_congr _ (k0_off21_eq d) _ _ _ _)
theorem mem23_c (d : Dev nD) (h) (hs) :
    ((Memref.whole cc0_scratch1 : Memref sig .tc .vmem S8x2x1x512 .f32).slice (Rect.unit (s := S8x2x1x512) (k0_off23 d) S1x1x1x512.size h) hs).squeeze S1x512 squeezes_S1x1x1x512_S1x512 = commSl d 1 :=
  congrArg (fun M => Memref.squeeze M S1x512 squeezes_S1x1x1x512_S1x512) (Memref.slice_unit_congr _ (k0_off23_eq d) _ _ _ _)
theorem mem25_c (d : Dev nD) (h) (hs) :
    ((Memref.whole cc0_scratch1 : Memref sig .tc .vmem S8x2x1x512 .f32).slice (Rect.unit (s := S8x2x1x512) (k0_off25 d) S1x1x1x512.size h) hs).squeeze S1x512 squeezes_S1x1x1x512_S1x512 = commSl d 1 :=
  congrArg (fun M => Memref.squeeze M S1x512 squeezes_S1x1x1x512_S1x512) (Memref.slice_unit_congr _ (k0_off25_eq d) _ _ _ _)
theorem mem27_c (d : Dev nD) (h) (hs) :
    ((Memref.whole cc0_scratch1 : Memref sig .tc .vmem S8x2x1x512 .f32).slice (Rect.unit (s := S8x2x1x512) (k0_off27 d) S1x1x1x512.size h) hs).squeeze S1x512 squeezes_S1x1x1x512_S1x512 = commSl d 1 :=
  congrArg (fun M => Memref.squeeze M S1x512 squeezes_S1x1x1x512_S1x512) (Memref.slice_unit_congr _ (k0_off27_eq d) _ _ _ _)
theorem mem29_c (d : Dev nD) (h) (hs) :
    ((Memref.whole cc0_scratch1 : Memref sig .tc .vmem S8x2x1x512 .f32).slice (Rect.unit (s := S8x2x1x512) (k0_off29 d) S1x1x1x512.size h) hs).squeeze S1x512 squeezes_S1x1x1x512_S1x512 = commSl d 1 :=
  congrArg (fun M => Memref.squeeze M S1x512 squeezes_S1x1x1x512_S1x512) (Memref.slice_unit_congr _ (k0_off29_eq d) _ _ _ _)
theorem mem31_c (d : Dev nD) (h) (hs) :
    ((Memref.whole cc0_scratch1 : Memref sig .tc .vmem S8x2x1x512 .f32).slice (Rect.unit (s := S8x2x1x512) (k0_off31 d) S1x1x1x512.size h) hs).squeeze S1x512 squeezes_S1x1x1x512_S1x512 = commSl d 1 :=
  congrArg (fun M => Memref.squeeze M S1x512 squeezes_S1x1x1x512_S1x512) (Memref.slice_unit_congr _ (k0_off31_eq d) _ _ _ _)
theorem mem33_c (d : Dev nD) (h) (hs) :
    ((Memref.whole cc0_scratch1 : Memref sig .tc .vmem S8x2x1x512 .f32).slice (Rect.unit (s := S8x2x1x512) (k0_off33 d) S1x1x1x512.size h) hs).squeeze S1x512 squeezes_S1x1x1x512_S1x512 = commSl d 1 :=
  congrArg (fun M => Memref.squeeze M S1x512 squeezes_S1x1x1x512_S1x512) (Memref.slice_unit_congr _ (k0_off33_eq d) _ _ _ _)
theorem mem35_c (d : Dev nD) (h) (hs) :
    ((Memref.whole cc0_scratch1 : Memref sig .tc .vmem S8x2x1x512 .f32).slice (Rect.unit (s := S8x2x1x512) (k0_off35 d) S1x1x1x512.size h) hs).squeeze S1x512 squeezes_S1x1x1x512_S1x512 = commSl d 0 :=
  congrArg (fun M => Memref.squeeze M S1x512 squeezes_S1x1x1x512_S1x512) (Memref.slice_unit_congr _ (k0_off35_eq d) _ _ _ _)
theorem mem36_c (d : Dev nD) (h) (hs) :
    ((Memref.whole cc0_scratch1 : Memref sig .tc .vmem S8x2x1x512 .f32).slice (Rect.unit (s := S8x2x1x512) (k0_off36 d) S1x1x1x512.size h) hs).squeeze S1x512 squeezes_S1x1x1x512_S1x512 = commSl d 0 :=
  congrArg (fun M => Memref.squeeze M S1x512 squeezes_S1x1x1x512_S1x512) (Memref.slice_unit_congr _ (k0_off36_eq d) _ _ _ _)
theorem mem37_c (d : Dev nD) (h) (hs) :
    ((Memref.whole cc0_scratch1 : Memref sig .tc .vmem S8x2x1x512 .f32).slice (Rect.unit (s := S8x2x1x512) (k0_off37 d) S1x1x1x512.size h) hs).squeeze S1x512 squeezes_S1x1x1x512_S1x512 = commSl d 0 :=
  congrArg (fun M => Memref.squeeze M S1x512 squeezes_S1x1x1x512_S1x512) (Memref.slice_unit_congr _ (k0_off37_eq d) _ _ _ _)
theorem mem38_c (d : Dev nD) (h) (hs) :
    ((Memref.whole cc0_scratch1 : Memref sig .tc .vmem S8x2x1x512 .f32).slice (Rect.unit (s := S8x2x1x512) (k0_off38 d) S1x1x1x512.size h) hs).squeeze S1x512 squeezes_S1x1x1x512_S1x512 = commSl d 0 :=
  congrArg (fun M => Memref.squeeze M S1x512 squeezes_S1x1x1x512_S1x512) (Memref.slice_unit_congr _ (k0_off38_eq d) _ _ _ _)
theorem mem39_c (d : Dev nD) (h) (hs) :
    ((Memref.whole cc0_scratch1 : Memref sig .tc .vmem S8x2x1x512 .f32).slice (Rect.unit (s := S8x2x1x512) (k0_off39 d) S1x1x1x512.size h) hs).squeeze S1x512 squeezes_S1x1x1x512_S1x512 = commSl d 0 :=
  congrArg (fun M => Memref.squeeze M S1x512 squeezes_S1x1x1x512_S1x512) (Memref.slice_unit_congr _ (k0_off39_eq d) _ _ _ _)
theorem mem40_c (d : Dev nD) (h) (hs) :
    ((Memref.whole cc0_scratch1 : Memref sig .tc .vmem S8x2x1x512 .f32).slice (Rect.unit (s := S8x2x1x512) (k0_off40 d) S1x1x1x512.size h) hs).squeeze S1x512 squeezes_S1x1x1x512_S1x512 = commSl d 0 :=
  congrArg (fun M => Memref.squeeze M S1x512 squeezes_S1x1x1x512_S1x512) (Memref.slice_unit_congr _ (k0_off40_eq d) _ _ _ _)
theorem mem41_c (d : Dev nD) (h) (hs) :
    ((Memref.whole cc0_scratch1 : Memref sig .tc .vmem S8x2x1x512 .f32).slice (Rect.unit (s := S8x2x1x512) (k0_off41 d) S1x1x1x512.size h) hs).squeeze S1x512 squeezes_S1x1x1x512_S1x512 = commSl d 0 :=
  congrArg (fun M => Memref.squeeze M S1x512 squeezes_S1x1x1x512_S1x512) (Memref.slice_unit_congr _ (k0_off41_eq d) _ _ _ _)
theorem mem42_c (d : Dev nD) (h) (hs) :
    ((Memref.whole cc0_scratch1 : Memref sig .tc .vmem S8x2x1x512 .f32).slice (Rect.unit (s := S8x2x1x512) (k0_off42 d) S1x1x1x512.size h) hs).squeeze S1x512 squeezes_S1x1x1x512_S1x512 = commSl d 0 :=
  congrArg (fun M => Memref.squeeze M S1x512 squeezes_S1x1x1x512_S1x512) (Memref.slice_unit_congr _ (k0_off42_eq d) _ _ _ _)
theorem mem43_c (d : Dev nD) (h) (hs) :
    ((Memref.whole cc0_scratch1 : Memref sig .tc .vmem S8x2x1x512 .f32).slice (Rect.unit (s := S8x2x1x512) (k0_off43 d) S1x1x1x512.size h) hs).squeeze S1x512 squeezes_S1x1x1x512_S1x512 = commSl d 1 :=
  congrArg (fun M => Memref.squeeze M S1x512 squeezes_S1x1x1x512_S1x512) (Memref.slice_unit_congr _ (k0_off43_eq d) _ _ _ _)
theorem mem44_c (d : Dev nD) (h) (hs) :
    ((Memref.whole cc0_scratch1 : Memref sig .tc .vmem S8x2x1x512 .f32).slice (Rect.unit (s := S8x2x1x512) (k0_off44 d) S1x1x1x512.size h) hs).squeeze S1x512 squeezes_S1x1x1x512_S1x512 = commSl d 1 :=
  congrArg (fun M => Memref.squeeze M S1x512 squeezes_S1x1x1x512_S1x512) (Memref.slice_unit_congr _ (k0_off44_eq d) _ _ _ _)
theorem mem45_c (d : Dev nD) (h) (hs) :
    ((Memref.whole cc0_scratch1 : Memref sig .tc .vmem S8x2x1x512 .f32).slice (Rect.unit (s := S8x2x1x512) (k0_off45 d) S1x1x1x512.size h) hs).squeeze S1x512 squeezes_S1x1x1x512_S1x512 = commSl d 1 :=
  congrArg (fun M => Memref.squeeze M S1x512 squeezes_S1x1x1x512_S1x512) (Memref.slice_unit_congr _ (k0_off45_eq d) _ _ _ _)
theorem mem46_c (d : Dev nD) (h) (hs) :
    ((Memref.whole cc0_scratch1 : Memref sig .tc .vmem S8x2x1x512 .f32).slice (Rect.unit (s := S8x2x1x512) (k0_off46 d) S1x1x1x512.size h) hs).squeeze S1x512 squeezes_S1x1x1x512_S1x512 = commSl d 1 :=
  congrArg (fun M => Memref.squeeze M S1x512 squeezes_S1x1x1x512_S1x512) (Memref.slice_unit_congr _ (k0_off46_eq d) _ _ _ _)
theorem mem47_c (d : Dev nD) (h) (hs) :
    ((Memref.whole cc0_scratch1 : Memref sig .tc .vmem S8x2x1x512 .f32).slice (Rect.unit (s := S8x2x1x512) (k0_off47 d) S1x1x1x512.size h) hs).squeeze S1x512 squeezes_S1x1x1x512_S1x512 = commSl d 1 :=
  congrArg (fun M => Memref.squeeze M S1x512 squeezes_S1x1x1x512_S1x512) (Memref.slice_unit_congr _ (k0_off47_eq d) _ _ _ _)
theorem mem48_c (d : Dev nD) (h) (hs) :
    ((Memref.whole cc0_scratch1 : Memref sig .tc .vmem S8x2x1x512 .f32).slice (Rect.unit (s := S8x2x1x512) (k0_off48 d) S1x1x1x512.size h) hs).squeeze S1x512 squeezes_S1x1x1x512_S1x512 = commSl d 1 :=
  congrArg (fun M => Memref.squeeze M S1x512 squeezes_S1x1x1x512_S1x512) (Memref.slice_unit_congr _ (k0_off48_eq d) _ _ _ _)
theorem mem49_c (d : Dev nD) (h) (hs) :
    ((Memref.whole cc0_scratch1 : Memref sig .tc .vmem S8x2x1x512 .f32).slice (Rect.unit (s := S8x2x1x512) (k0_off49 d) S1x1x1x512.size h) hs).squeeze S1x512 squeezes_S1x1x1x512_S1x512 = commSl d 1 :=
  congrArg (fun M => Memref.squeeze M S1x512 squeezes_S1x1x1x512_S1x512) (Memref.slice_unit_congr _ (k0_off49_eq d) _ _ _ _)
theorem mem50_c (d : Dev nD) (h) (hs) :
    ((Memref.whole cc0_scratch1 : Memref sig .tc .vmem S8x2x1x512 .f32).slice (Rect.unit (s := S8x2x1x512) (k0_off50 d) S1x1x1x512.size h) hs).squeeze S1x512 squeezes_S1x1x1x512_S1x512 = commSl d 1 :=
  congrArg (fun M => Memref.squeeze M S1x512 squeezes_S1x1x1x512_S1x512) (Memref.slice_unit_congr _ (k0_off50_eq d) _ _ _ _)
theorem mem17_c (d : Dev nD) (h) (hs) :
    ((Memref.whole cc0_scratch1 : Memref sig .tc .vmem S8x2x1x512 .f32).slice (Rect.unit (s := S8x2x1x512) (k0_off17 d) S1x1x1x512.size h) hs).squeeze S1x512 squeezes_S1x1x1x512_S1x512 = commSl d 0 :=
  congrArg (fun M => Memref.squeeze M S1x512 squeezes_S1x1x1x512_S1x512) (Memref.slice_unit_congr _ (k0_off17_eq d) _ _ _ _)
theorem mem34_c (d : Dev nD) (h) (hs) :
    ((Memref.whole cc0_scratch1 : Memref sig .tc .vmem S8x2x1x512 .f32).slice (Rect.unit (s := S8x2x1x512) (k0_off34 d) S1x1x1x512.size h) hs).squeeze S1x512 squeezes_S1x1x1x512_S1x512 = commSl d 1 :=
  congrArg (fun M => Memref.squeeze M S1x512 squeezes_S1x1x1x512_S1x512) (Memref.slice_unit_congr _ (k0_off34_eq d) _ _ _ _)
theorem sem1_c (d : Dev nD) (h) :
    ((SemArray.slice cc0_scratch3 (Rect.unit (s := S2x8) (k0_off1 d) S1x1.size h)).squeeze S_ squeezes_S1x1_S_).sem = recvS 0 d :=
  congrArg (fun A => (SemArray.squeeze A S_ squeezes_S1x1_S_).sem) (SemArray.slice_unit_congr _ (k0_off1_eq d) _ _)
theorem sem3_c (d : Dev nD) (h) :
    ((SemArray.slice cc0_scratch3 (Rect.unit (s := S2x8) (k0_off3 d) S1x1.size h)).squeeze S_ squeezes_S1x1_S_).sem = recvS 0 d :=
  congrArg (fun A => (SemArray.squeeze A S_ squeezes_S1x1_S_).sem) (SemArray.slice_unit_congr _ (k0_off3_eq d) _ _)
theorem sem5_c (d : Dev nD) (h) :
    ((SemArray.slice cc0_scratch3 (Rect.unit (s := S2x8) (k0_off5 d) S1x1.size h)).squeeze S_ squeezes_S1x1_S_).sem = recvS 0 d :=
  congrArg (fun A => (SemArray.squeeze A S_ squeezes_S1x1_S_).sem) (SemArray.slice_unit_congr _ (k0_off5_eq d) _ _)
theorem sem7_c (d : Dev nD) (h) :
    ((SemArray.slice cc0_scratch3 (Rect.unit (s := S2x8) (k0_off7 d) S1x1.size h)).squeeze S_ squeezes_S1x1_S_).sem = recvS 0 d :=
  congrArg (fun A => (SemArray.squeeze A S_ squeezes_S1x1_S_).sem) (SemArray.slice_unit_congr _ (k0_off7_eq d) _ _)
theorem sem9_c (d : Dev nD) (h) :
    ((SemArray.slice cc0_scratch3 (Rect.unit (s := S2x8) (k0_off9 d) S1x1.size h)).squeeze S_ squeezes_S1x1_S_).sem = recvS 0 d :=
  congrArg (fun A => (SemArray.squeeze A S_ squeezes_S1x1_S_).sem) (SemArray.slice_unit_congr _ (k0_off9_eq d) _ _)
theorem sem11_c (d : Dev nD) (h) :
    ((SemArray.slice cc0_scratch3 (Rect.unit (s := S2x8) (k0_off11 d) S1x1.size h)).squeeze S_ squeezes_S1x1_S_).sem = recvS 0 d :=
  congrArg (fun A => (SemArray.squeeze A S_ squeezes_S1x1_S_).sem) (SemArray.slice_unit_congr _ (k0_off11_eq d) _ _)
theorem sem13_c (d : Dev nD) (h) :
    ((SemArray.slice cc0_scratch3 (Rect.unit (s := S2x8) (k0_off13 d) S1x1.size h)).squeeze S_ squeezes_S1x1_S_).sem = recvS 0 d :=
  congrArg (fun A => (SemArray.squeeze A S_ squeezes_S1x1_S_).sem) (SemArray.slice_unit_congr _ (k0_off13_eq d) _ _)
theorem sem15_c (d : Dev nD) (h) :
    ((SemArray.slice cc0_scratch3 (Rect.unit (s := S2x8) (k0_off15 d) S1x1.size h)).squeeze S_ squeezes_S1x1_S_).sem = recvS 0 d :=
  congrArg (fun A => (SemArray.squeeze A S_ squeezes_S1x1_S_).sem) (SemArray.slice_unit_congr _ (k0_off15_eq d) _ _)
theorem sem18_c (d : Dev nD) (h) :
    ((SemArray.slice cc0_scratch3 (Rect.unit (s := S2x8) (k0_off18 d) S1x1.size h)).squeeze S_ squeezes_S1x1_S_).sem = recvS 1 d :=
  congrArg (fun A => (SemArray.squeeze A S_ squeezes_S1x1_S_).sem) (SemArray.slice_unit_congr _ (k0_off18_eq d) _ _)
theorem sem20_c (d : Dev nD) (h) :
    ((SemArray.slice cc0_scratch3 (Rect.unit (s := S2x8) (k0_off20 d) S1x1.size h)).squeeze S_ squeezes_S1x1_S_).sem = recvS 1 d :=
  congrArg (fun A => (SemArray.squeeze A S_ squeezes_S1x1_S_).sem) (SemArray.slice_unit_congr _ (k0_off20_eq d) _ _)
theorem sem22_c (d : Dev nD) (h) :
    ((SemArray.slice cc0_scratch3 (Rect.unit (s := S2x8) (k0_off22 d) S1x1.size h)).squeeze S_ squeezes_S1x1_S_).sem = recvS 1 d :=
  congrArg (fun A => (SemArray.squeeze A S_ squeezes_S1x1_S_).sem) (SemArray.slice_unit_congr _ (k0_off22_eq d) _ _)
theorem sem24_c (d : Dev nD) (h) :
    ((SemArray.slice cc0_scratch3 (Rect.unit (s := S2x8) (k0_off24 d) S1x1.size h)).squeeze S_ squeezes_S1x1_S_).sem = recvS 1 d :=
  congrArg (fun A => (SemArray.squeeze A S_ squeezes_S1x1_S_).sem) (SemArray.slice_unit_congr _ (k0_off24_eq d) _ _)
theorem sem26_c (d : Dev nD) (h) :
    ((SemArray.slice cc0_scratch3 (Rect.unit (s := S2x8) (k0_off26 d) S1x1.size h)).squeeze S_ squeezes_S1x1_S_).sem = recvS 1 d :=
  congrArg (fun A => (SemArray.squeeze A S_ squeezes_S1x1_S_).sem) (SemArray.slice_unit_congr _ (k0_off26_eq d) _ _)
theorem sem28_c (d : Dev nD) (h) :
    ((SemArray.slice cc0_scratch3 (Rect.unit (s := S2x8) (k0_off28 d) S1x1.size h)).squeeze S_ squeezes_S1x1_S_).sem = recvS 1 d :=
  congrArg (fun A => (SemArray.squeeze A S_ squeezes_S1x1_S_).sem) (SemArray.slice_unit_congr _ (k0_off28_eq d) _ _)
theorem sem30_c (d : Dev nD) (h) :
    ((SemArray.slice cc0_scratch3 (Rect.unit (s := S2x8) (k0_off30 d) S1x1.size h)).squeeze S_ squeezes_S1x1_S_).sem = recvS 1 d :=
  congrArg (fun A => (SemArray.squeeze A S_ squeezes_S1x1_S_).sem) (SemArray.slice_unit_congr _ (k0_off30_eq d) _ _)
theorem sem32_c (d : Dev nD) (h) :
    ((SemArray.slice cc0_scratch3 (Rect.unit (s := S2x8) (k0_off32 d) S1x1.size h)).squeeze S_ squeezes_S1x1_S_).sem = recvS 1 d :=
  congrArg (fun A => (SemArray.squeeze A S_ squeezes_S1x1_S_).sem) (SemArray.slice_unit_congr _ (k0_off32_eq d) _ _)
theorem dev1_c (h : k0_dev1 < nD) : (⟨k0_dev1, h⟩ : Dev nD) = 0 := Fin.ext k0_dev1_eq
theorem dev2_c (h : k0_dev2 < nD) : (⟨k0_dev2, h⟩ : Dev nD) = 1 := Fin.ext k0_dev2_eq
theorem dev3_c (h : k0_dev3 < nD) : (⟨k0_dev3, h⟩ : Dev nD) = 2 := Fin.ext k0_dev3_eq
theorem dev4_c (h : k0_dev4 < nD) : (⟨k0_dev4, h⟩ : Dev nD) = 3 := Fin.ext k0_dev4_eq
theorem dev5_c (h : k0_dev5 < nD) : (⟨k0_dev5, h⟩ : Dev nD) = 4 := Fin.ext k0_dev5_eq
theorem dev6_c (h : k0_dev6 < nD) : (⟨k0_dev6, h⟩ : Dev nD) = 5 := Fin.ext k0_dev6_eq
theorem dev7_c (h : k0_dev7 < nD) : (⟨k0_dev7, h⟩ : Dev nD) = 6 := Fin.ext k0_dev7_eq
theorem dev8_c (h : k0_dev8 < nD) : (⟨k0_dev8, h⟩ : Dev nD) = 7 := Fin.ext k0_dev8_eq
theorem dev9_c (h : k0_dev9 < nD) : (⟨k0_dev9, h⟩ : Dev nD) = 0 := Fin.ext k0_dev9_eq
theorem dev10_c (h : k0_dev10 < nD) : (⟨k0_dev10, h⟩ : Dev nD) = 1 := Fin.ext k0_dev10_eq
theorem dev11_c (h : k0_dev11 < nD) : (⟨k0_dev11, h⟩ : Dev nD) = 2 := Fin.ext k0_dev11_eq
theorem dev12_c (h : k0_dev12 < nD) : (⟨k0_dev12, h⟩ : Dev nD) = 3 := Fin.ext k0_dev12_eq
theorem dev13_c (h : k0_dev13 < nD) : (⟨k0_dev13, h⟩ : Dev nD) = 4 := Fin.ext k0_dev13_eq
theorem dev14_c (h : k0_dev14 < nD) : (⟨k0_dev14, h⟩ : Dev nD) = 5 := Fin.ext k0_dev14_eq
theorem dev15_c (h : k0_dev15 < nD) : (⟨k0_dev15, h⟩ : Dev nD) = 6 := Fin.ext k0_dev15_eq
theorem dev16_c (h : k0_dev16 < nD) : (⟨k0_dev16, h⟩ : Dev nD) = 7 := Fin.ext k0_dev16_eq
theorem dev17_c (h : k0_dev17 < nD) : (⟨k0_dev17, h⟩ : Dev nD) = 0 := Fin.ext k0_dev17_eq
theorem dev18_c (h : k0_dev18 < nD) : (⟨k0_dev18, h⟩ : Dev nD) = 1 := Fin.ext k0_dev18_eq
theorem dev19_c (h : k0_dev19 < nD) : (⟨k0_dev19, h⟩ : Dev nD) = 2 := Fin.ext k0_dev19_eq
theorem dev20_c (h : k0_dev20 < nD) : (⟨k0_dev20, h⟩ : Dev nD) = 3 := Fin.ext k0_dev20_eq
theorem dev21_c (h : k0_dev21 < nD) : (⟨k0_dev21, h⟩ : Dev nD) = 4 := Fin.ext k0_dev21_eq
theorem dev22_c (h : k0_dev22 < nD) : (⟨k0_dev22, h⟩ : Dev nD) = 5 := Fin.ext k0_dev22_eq
theorem dev23_c (h : k0_dev23 < nD) : (⟨k0_dev23, h⟩ : Dev nD) = 6 := Fin.ext k0_dev23_eq
theorem dev24_c (h : k0_dev24 < nD) : (⟨k0_dev24, h⟩ : Dev nD) = 7 := Fin.ext k0_dev24_eq

end Cert.Kernel.Sm

end
-- ==== Proof.W.Glue2.lean ====
/-
  More of the pieces and the wholes: a slot at contents that agree on it, where a slot's and a row's entries lie in their
  tables, the slot a copy of a row has landed in, the own rows after their stores, a row restated under its eight shares,
  and the two halves of the table of everybody's row sums joined.
-/
import proofs.«901053_g7700000000001054_dist_softmax_colshard_i_m1024_n1024_v7x_i8_bf16_1_alg».proof.Proof.W.Glue
import Idealize.ShloMosaic.Lib.Ring

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## A slot at contents that agree on the slot; the slot a copy of a row has landed in -/

/-- Contents that agree on a slot give the same slot. -/
theorem slot_congr (d : Dev nD) (q : Dev nD) (b : Fin 2) (f g : CommBuf F)
    (h : ∀ i ∈ (commSl q b).view.set, f i = g i) :
    ((commSl q b).view.loc (d : Thread nD τ) ↦[(commSl q b).view.set]{fullShare} f : sProp 𝕄)
      = ((commSl q b).view.loc (d : Thread nD τ) ↦[(commSl q b).view.set]{fullShare} g) :=
  pointsTo_congr h

/-- Where entry x of slot [q, b] lies in the table: at [q, b, 0, x]. -/
theorem commSl_emb (q : Dev nD) (b : Fin 2) (x : S1x512.Idx) :
    (commSl q b).view.emb x
      = ValueIdx.ix4 (q : Fin 8) b (0 : Fin 1) (⟨(x 1).val, (x 1).isLt⟩ : Fin 512) := by
  have hy : Shape.reshapeEquiv squeezes_S1x1x1x512_S1x512.numel_eq x
      = (ValueIdx.ix4 (0 : Fin 1) (0 : Fin 1) (0 : Fin 1) (⟨(x 1).val, (x 1).isLt⟩ : Fin 512) : S1x1x1x512.Idx) :=
    Shape.reshapeEquiv_eq_of_rowMajor _ (by
      rw [Shape.rowMajor_val_four, Shape.rowMajor_val_two]
      have h0 : (x 0).val < 1 := (x 0).isLt
      show ((0 * 1 + 0) * 1 + 0) * 512 + (x 1).val = (x 0).val * 512 + (x 1).val
      omega)
  have e : (commSl q b).view.emb x
      = (Rect.unit (s := S8x2x1x512) ![q.val, b.val, 0, 0] S1x1x1x512.size (comm_inb q b)).emb
          (Shape.reshapeEquiv squeezes_S1x1x1x512_S1x512.numel_eq x) := rfl
  rw [e, hy]
  funext a
  refine Fin.ext ?_
  match a with
  | ⟨0, _⟩ => show q.val + 1 * 0 = q.val; omega
  | ⟨1, _⟩ => show b.val + 1 * 0 = b.val; omega
  | ⟨2, _⟩ => show 0 + 1 * 0 = 0; omega
  | ⟨3, _⟩ => show 0 + 1 * (x 1).val = (x 1).val; omega

/-- Where entry x of row b lies in the table of own row sums: at [b, 0, x]. -/
theorem mineSl_emb (b : Fin 2) (x : S1x512.Idx) :
    (mineSl b).view.emb x = ValueIdx.ix3 b (0 : Fin 1) (⟨(x 1).val, (x 1).isLt⟩ : Fin 512) := by
  have hy : Shape.reshapeEquiv squeezes_S1x1x512_S1x512.numel_eq x
      = (ValueIdx.ix3 (0 : Fin 1) (0 : Fin 1) (⟨(x 1).val, (x 1).isLt⟩ : Fin 512) : S1x1x512.Idx) :=
    Shape.reshapeEquiv_eq_of_rowMajor _ (by
      rw [Shape.rowMajor_val_three, Shape.rowMajor_val_two]
      have h0 : (x 0).val < 1 := (x 0).isLt
      show (0 * 1 + 0) * 512 + (x 1).val = (x 0).val * 512 + (x 1).val
      omega)
  have e : (mineSl b).view.emb x
      = (Rect.unit (s := S2x1x512) ![b.val, 0, 0] S1x1x512.size (mine_inb b)).emb
          (Shape.reshapeEquiv squeezes_S1x1x512_S1x512.numel_eq x) := rfl
  rw [e, hy]
  funext a
  refine Fin.ext ?_
  match a with
  | ⟨0, _⟩ => show b.val + 1 * 0 = b.val; omega
  | ⟨1, _⟩ => show 0 + 1 * 0 = 0; omega
  | ⟨2, _⟩ => show 0 + 1 * (x 1).val = (x 1).val; omega

/-- Row b of device q's own row sums, written into slot [q, b] of a table, is what the table of everybody's row sums
    holds on that slot. -/
theorem landed_agree (Ys : Dev nD → XBlk F) (q : Dev nD) (b : Fin 2) (X : XBlk F) (hX : Ys q = X) (fd : CommBuf F) :
    ∀ i ∈ (commSl q b).view.set,
      (commSl q b).view.write (Elt F) fd ((mineSl b).view.read (Elt F) (mineOf X)) Finset.univ i = commOf Ys i := by
  intro i hi
  obtain ⟨x, -, rfl⟩ := Finset.mem_map.mp hi
  rw [View.write_emb_of_mem _ _ (Finset.mem_univ x), View.read_apply, mineSl_emb, commSl_emb, ← hX]
  rfl

/-- So the slot a copy of device q's row b has landed in is the slot at the table of everybody's row sums. -/
theorem landed (d : Dev nD) (Ys : Dev nD → XBlk F) (q : Dev nD) (b : Fin 2) (fd : CommBuf F) :
    ((commSl q b).view.loc (d : Thread nD τ) ↦[(commSl q b).view.set]{fullShare}
        (commSl q b).view.write (Elt F) fd ((mineSl b).view.read (Elt F) (mineOf (Ys q))) Finset.univ : sProp 𝕄)
      ⊢ ((commSl q b).view.loc (d : Thread nD τ) ↦[(commSl q b).view.set]{fullShare} commOf Ys) :=
  Entails.of_eq (slot_congr d q b _ _ (landed_agree Ys q b (Ys q) rfl fd))

/-! ## The own rows after their stores; a row restated under its shares; a landing; the two halves -/

theorem mineOf_row0 (X : XBlk F) (v : Fin 1) (r : Fin 512) :
    mineOf X (ValueIdx.ix3 (0 : Fin 2) v r) = sTop X (ValueIdx.ix3 (0 : Fin 1) (0 : Fin 1) r) := by
  unfold mineOf; exact if_pos rfl

theorem mineOf_row1 (X : XBlk F) (v : Fin 1) (r : Fin 512) :
    mineOf X (ValueIdx.ix3 (1 : Fin 2) v r) = sBot X (ValueIdx.ix3 (0 : Fin 1) (0 : Fin 1) r) := by
  unfold mineOf; exact if_neg (show ¬ ((1 : Fin 2).val = 0) by decide)

/-- Row b of the own table after the store of that half's row sums holds what the table of own row sums holds there. -/
theorem row0_agree (X : XBlk F) (f0 : MineBuf F) : ∀ i ∈ (mineSl 0).view.set,
    View.write (Elt F) ((Memref.whole cc0_scratch0 : Memref sig .tc .vmem S2x1x512 .f32).access
        (Rect.unit (s := S2x1x512) ![0, 0, 0] S1x1x512.size inb_S2x1x512_S1x1x512_0_0_0)) f0 (sTop X) Finset.univ i
      = mineOf X i := by
  intro i hi
  have h2 : ((Memref.whole cc0_scratch0 : Memref sig .tc .vmem S2x1x512 .f32).access
      (Rect.unit (s := S2x1x512) ![0, 0, 0] S1x1x512.size inb_S2x1x512_S1x1x512_0_0_0)).set = (mineSl 0).view.set :=
    (View.set_slice_whole ..).trans (mineSl_set 0).symm
  rw [← h2] at hi
  obtain ⟨y, -, rfl⟩ := Finset.mem_map.mp hi
  have h0 : (y 0).val < 1 := (y 0).isLt
  have h1 : (y 1).val < 1 := (y 1).isLt
  have hemb : ((Memref.whole cc0_scratch0 : Memref sig .tc .vmem S2x1x512 .f32).access
      (Rect.unit (s := S2x1x512) ![0, 0, 0] S1x1x512.size inb_S2x1x512_S1x1x512_0_0_0)).emb y
        = ValueIdx.ix3 (0 : Fin 2) (0 : Fin 1) (⟨(y 2).val, (y 2).isLt⟩ : Fin 512) :=
    funext fun a => Fin.ext (by
      match a with
      | ⟨0, _⟩ => show 0 + 1 * (y 0).val = 0; omega
      | ⟨1, _⟩ => show 0 + 1 * (y 1).val = 0; omega
      | ⟨2, _⟩ => show 0 + 1 * (y 2).val = (y 2).val; omega)
  rw [View.write_emb_of_mem _ _ (Finset.mem_univ y), hemb, mineOf_row0]
  show sTop X y = sTop X _
  refine congrArg (sTop X) (funext fun a => Fin.ext ?_)
  match a with
  | ⟨0, _⟩ => show (y 0).val = 0; omega
  | ⟨1, _⟩ => show (y 1).val = 0; omega
  | ⟨2, _⟩ => rfl

theorem row1_agree (X : XBlk F) (f0 : MineBuf F) : ∀ i ∈ (mineSl 1).view.set,
    View.write (Elt F) ((Memref.whole cc0_scratch0 : Memref sig .tc .vmem S2x1x512 .f32).access
        (Rect.unit (s := S2x1x512) ![1, 0, 0] S1x1x512.size inb_S2x1x512_S1x1x512_1_0_0)) f0 (sBot X) Finset.univ i
      = mineOf X i := by
  intro i hi
  have h2 : ((Memref.whole cc0_scratch0 : Memref sig .tc .vmem S2x1x512 .f32).access
      (Rect.unit (s := S2x1x512) ![1, 0, 0] S1x1x512.size inb_S2x1x512_S1x1x512_1_0_0)).set = (mineSl 1).view.set :=
    (View.set_slice_whole ..).trans (mineSl_set 1).symm
  rw [← h2] at hi
  obtain ⟨y, -, rfl⟩ := Finset.mem_map.mp hi
  have h0 : (y 0).val < 1 := (y 0).isLt
  have h1 : (y 1).val < 1 := (y 1).isLt
  have hemb : ((Memref.whole cc0_scratch0 : Memref sig .tc .vmem S2x1x512 .f32).access
      (Rect.unit (s := S2x1x512) ![1, 0, 0] S1x1x512.size inb_S2x1x512_S1x1x512_1_0_0)).emb y
        = ValueIdx.ix3 (1 : Fin 2) (0 : Fin 1) (⟨(y 2).val, (y 2).isLt⟩ : Fin 512) :=
    funext fun a => Fin.ext (by
      match a with
      | ⟨0, _⟩ => show 1 + 1 * (y 0).val = 1; omega
      | ⟨1, _⟩ => show 0 + 1 * (y 1).val = 0; omega
      | ⟨2, _⟩ => show 0 + 1 * (y 2).val = (y 2).val; omega)
  rw [View.write_emb_of_mem _ _ (Finset.mem_univ y), hemb, mineOf_row1]
  show sBot X y = sBot X _
  refine congrArg (sBot X) (funext fun a => Fin.ext ?_)
  match a with
  | ⟨0, _⟩ => show (y 0).val = 0; omega
  | ⟨1, _⟩ => show (y 1).val = 0; omega
  | ⟨2, _⟩ => rfl

/-- A row held in full at contents that agree with the own row sums on it, restated under its eight shares. -/
theorem row_restate (c : Dev nD) (b : Fin 2) (X : XBlk F) (g : MineBuf F) (hg : ∀ i ∈ (mineSl b).view.set, g i = mineOf X i) :
    ((mineSl b).view.loc (c : Thread nD τ) ↦[(mineSl b).view.set]{fullShare} g : sProp 𝕄)
      ⊢ iprop(((mineSl b).view.loc (c : Thread nD τ) ↦[(mineSl b).view.set]{shr 0} mineOf X)
        ∗ ((mineSl b).view.loc (c : Thread nD τ) ↦[(mineSl b).view.set]{shr 1} mineOf X)
        ∗ ((mineSl b).view.loc (c : Thread nD τ) ↦[(mineSl b).view.set]{shr 2} mineOf X)
        ∗ ((mineSl b).view.loc (c : Thread nD τ) ↦[(mineSl b).view.set]{shr 3} mineOf X)
        ∗ ((mineSl b).view.loc (c : Thread nD τ) ↦[(mineSl b).view.set]{shr 4} mineOf X)
        ∗ ((mineSl b).view.loc (c : Thread nD τ) ↦[(mineSl b).view.set]{shr 5} mineOf X)
        ∗ ((mineSl b).view.loc (c : Thread nD τ) ↦[(mineSl b).view.set]{shr 6} mineOf X)
        ∗ ((mineSl b).view.loc (c : Thread nD τ) ↦[(mineSl b).view.set]{shr 7} mineOf X)) :=
  Entails.of_eq ((pointsTo_congr hg).trans (shares8 fullShare))

theorem row_rejoin (c : Dev nD) (b : Fin 2) (X : XBlk F) :
    iprop(((mineSl b).view.loc (c : Thread nD τ) ↦[(mineSl b).view.set]{shr 0} mineOf X)
        ∗ ((mineSl b).view.loc (c : Thread nD τ) ↦[(mineSl b).view.set]{shr 1} mineOf X)
        ∗ ((mineSl b).view.loc (c : Thread nD τ) ↦[(mineSl b).view.set]{shr 2} mineOf X)
        ∗ ((mineSl b).view.loc (c : Thread nD τ) ↦[(mineSl b).view.set]{shr 3} mineOf X)
        ∗ ((mineSl b).view.loc (c : Thread nD τ) ↦[(mineSl b).view.set]{shr 4} mineOf X)
        ∗ ((mineSl b).view.loc (c : Thread nD τ) ↦[(mineSl b).view.set]{shr 5} mineOf X)
        ∗ ((mineSl b).view.loc (c : Thread nD τ) ↦[(mineSl b).view.set]{shr 6} mineOf X)
        ∗ ((mineSl b).view.loc (c : Thread nD τ) ↦[(mineSl b).view.set]{shr 7} mineOf X))
      ⊢ ((mineSl b).view.loc (c : Thread nD τ) ↦[(mineSl b).view.set]{fullShare} mineOf X : sProp 𝕄) :=
  Entails.of_eq (shares8 fullShare).symm

/-- The slot a copy of device c's row b has landed in, on device p, is what that landing owes p. -/
theorem landing (c p : Dev nD) (b : Fin 2) (fd : CommBuf F) :
    ((commSl c b).view.loc (p : Thread nD τ) ↦[(commSl c b).view.set]{fullShare}
        ((commSl c b).view.write (Elt F) fd ((mineSl b).view.read (Elt F) (mineOf (xOf m c))) Finset.univ) : sProp 𝕄)
      ⊢ (sched m).payload (recvCell p b c) 0 c :=
  (landed p (Xs m) c b fd).trans (Entails.of_eq (payload_recv' m p b c c).symm)

theorem halfM_disjoint : Disjoint (halfM 0).view.set (halfM 1).view.set := by
  rw [Finset.disjoint_left]
  intro i h0 h1
  rw [mem_halfM] at h0 h1
  have e0 : ((0 : Fin 2).val) = 0 := rfl
  have e1 : ((1 : Fin 2).val) = 1 := rfl
  omega

theorem halfM_union : (halfM 0).view.set ∪ (halfM 1).view.set = (Finset.univ : Finset S8x2x1x512.Idx) := by
  ext i
  rw [Finset.mem_union, mem_halfM, mem_halfM]
  have e0 : ((0 : Fin 2).val) = 0 := rfl
  have e1 : ((1 : Fin 2).val) = 1 := rfl
  have h : (i 1).val < 2 := (i 1).isLt
  simp only [Finset.mem_univ, iff_true]
  omega

/-- The two halves, each at contents of its own, are the whole table at some contents. -/
theorem halves_join (c : Dev nD) (f g : CommBuf F) :
    iprop(((halfM 0).view.loc (c : Thread nD τ) ↦[(halfM 0).view.set]{fullShare} f)
        ∗ ((halfM 1).view.loc (c : Thread nD τ) ↦[(halfM 1).view.set]{fullShare} g))
      ⊢ (iprop(∃ h : CommBuf F, (c : Thread nD τ).loc cc0_scratch1 ↦{fullShare} h) : sProp 𝕄) := by
  refine (pointsTo_join (ℓ := (c : Thread nD τ).loc cc0_scratch1) halfM_disjoint).trans ?_
  rw [halfM_union]
  iintro H
  iexists _
  iexact H

/-- The terms a run of the body leaves for the two stores are the row sums by definition. -/
example (X : XBlk F) :
    k0_pay4 (k0_pay1 (View.readAt (Elt F) (xM : Memref sig .tc .vmem S1024x1024 .f32).view rTop.toLoadRect X)) (FloatOps.ofBits .f32 1098907648#32)
      = sTop X := rfl
example (X : XBlk F) :
    k0_pay8 (View.readAt (Elt F) (xM : Memref sig .tc .vmem S1024x1024 .f32).view rBot.toLoadRect X) = sBot X := rfl

end Cert.Kernel.Sm
end
-- ==== Proof.W.SendRule.lean ====
/-
  One copy of a row of the own row sums into a peer's slot, as a rule of the protocol: the departure's share of
  the source row comes back with the departure, the slot filled goes to the peer with the landing.
-/
import proofs.«901053_g7700000000001054_dist_softmax_colshard_i_m1024_n1024_v7x_i8_bf16_1_alg».proof.Proof.W.Ghost
import proofs.«901053_g7700000000001054_dist_softmax_colshard_i_m1024_n1024_v7x_i8_bf16_1_alg».proof.Proof.W.Glue2

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

set_option maxHeartbeats 4000000 in
/-- Device c's copy of row b of its row sums into slot [c, b] of device p (addressed as n, n = p): it pays the one duty
    of its own send cell (c, b, p) and the one duty of p's receive cell (p, b, c). -/
theorem wp_send_slot (κ₁ κ₂ : ℕ) (c p n : Dev nD) (b : Fin 2) (hn : n = p) (hpc : p ≠ c)
    {hsc : (commSl c b : Memref sig (Dev.tc n : Thread nD τ).2.kind .vmem S1x512 .f32).view.ref.isScScratch = false}
    {hsrc : (mineSl b : Memref sig .tc .vmem S1x512 .f32).view.WordExact} {hdst : (commSl c b : Memref sig .tc .vmem S1x512 .f32).view.WordExact}
    {hsem : DmaTarget.Typed .vmem (.dma (recvS b c)) (.remote (Dev.tc n : Thread nD τ) (commSl c b : Memref sig .tc .vmem S1x512 .f32) (.dma (sendS b p)) hsc)}
    {α : Type} {Q : α → sProp 𝕄} {k : PUnit → Prog (TpuEff nD τ sig (Elt F) Λ₀ .tc) α}
    (fd : CommBuf F) (O : CellTallies nD τ sig Unit) (W : Waits sig Unit) :
    iprop(cellInv ER (sched m) κ₁ (sendCell c b p) ∗ cellInv ER (sched m) κ₂ (recvCell p b c)
        ∗ ((mineSl b).view.loc (c : Thread nD τ) ↦[(mineSl b).view.set]{shr p} mineOf (xOf m c))
        ∗ ((commSl c b).view.loc (p : Thread nD τ) ↦[(commSl c b).view.set]{fullShare} fd)
        ∗ owes (c : Thread nD τ) (O + tallyAt (recvCell p b c) () Ncr) W
        ∗ dutyTok ER (sendCell c b p) 0 p ∗ reached ER (sendCell c b p) 0
        ∗ dutyTok ER (recvCell p b c) 0 c ∗ reached ER (recvCell p b c) 0)
      ⊢ iprop(((cred (tallyAt (sendCell c b p) () Ncr) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mineSl b) (.remote (Dev.tc n : Thread nD τ) (commSl c b) (.dma (sendS b p)) hsc) (.dma (recvS b c)) hsrc hdst hsem) k) Q) := by
  subst hn
  exact Rounds.wp_send_pointsTo 𝒱₀ ER (sched m) (c : Thread nD τ) none (κ₁ := κ₁) (κ₂ := κ₂)
    (c' := (Dev.tc n : Thread nD τ)) (src := mineSl b) (dst := commSl c b) (hsc := hsc) (sS := .dma (sendS b n)) (sem := .dma (recvS b c))
    (hsrc := hsrc) (hdst := hdst) (hsem := hsem) (k := k) (q := shr n) (fs := mineOf (xOf m c))
    (r₁ := 0) (r₂ := 0) (d₁ := n) (d₂ := c) (fd := fd)
    (by rw [duties_send m c b n hpc]; exact Finset.mem_singleton_self _)
    (by rw [duties_recv m n b c (Ne.symm hpc)]; exact Finset.mem_singleton_self _)
    () () Ncr rfl (amount_send m c b n n) (amount_recv m n b c c) O rfl (W := W)
    (by rw [payload_send'])
    (landing m c n b fd)

/-- Row 0 of the own table after its store, restated at the row sums and cut into the eight shares. -/
theorem row0_shares (c : Dev nD) (X : XBlk F) (f0 : MineBuf F) :
    ((mineSl 0).view.loc (c : Thread nD τ) ↦[(mineSl 0).view.set]{fullShare}
        (View.write (Elt F) ((Memref.whole cc0_scratch0 : Memref sig .tc .vmem S2x1x512 .f32).access (Rect.unit (s := S2x1x512) ![0, 0, 0] S1x1x512.size inb_S2x1x512_S1x1x512_0_0_0)) f0 (sTop X) Finset.univ) : sProp 𝕄)
      ⊢ iprop(((mineSl 0).view.loc (c : Thread nD τ) ↦[(mineSl 0).view.set]{shr 0} mineOf X) ∗ ((mineSl 0).view.loc (c : Thread nD τ) ↦[(mineSl 0).view.set]{shr 1} mineOf X) ∗ ((mineSl 0).view.loc (c : Thread nD τ) ↦[(mineSl 0).view.set]{shr 2} mineOf X) ∗ ((mineSl 0).view.loc (c : Thread nD τ) ↦[(mineSl 0).view.set]{shr 3} mineOf X) ∗ ((mineSl 0).view.loc (c : Thread nD τ) ↦[(mineSl 0).view.set]{shr 4} mineOf X) ∗ ((mineSl 0).view.loc (c : Thread nD τ) ↦[(mineSl 0).view.set]{shr 5} mineOf X) ∗ ((mineSl 0).view.loc (c : Thread nD τ) ↦[(mineSl 0).view.set]{shr 6} mineOf X) ∗ ((mineSl 0).view.loc (c : Thread nD τ) ↦[(mineSl 0).view.set]{shr 7} mineOf X)) :=
  row_restate c 0 X _ (row0_agree X f0)
/-- Row 1 of the own table after its store, restated at the row sums and cut into the eight shares. -/
theorem row1_shares (c : Dev nD) (X : XBlk F) (f0 : MineBuf F) :
    ((mineSl 1).view.loc (c : Thread nD τ) ↦[(mineSl 1).view.set]{fullShare}
        (View.write (Elt F) ((Memref.whole cc0_scratch0 : Memref sig .tc .vmem S2x1x512 .f32).access (Rect.unit (s := S2x1x512) ![1, 0, 0] S1x1x512.size inb_S2x1x512_S1x1x512_1_0_0)) f0 (sBot X) Finset.univ) : sProp 𝕄)
      ⊢ iprop(((mineSl 1).view.loc (c : Thread nD τ) ↦[(mineSl 1).view.set]{shr 0} mineOf X) ∗ ((mineSl 1).view.loc (c : Thread nD τ) ↦[(mineSl 1).view.set]{shr 1} mineOf X) ∗ ((mineSl 1).view.loc (c : Thread nD τ) ↦[(mineSl 1).view.set]{shr 2} mineOf X) ∗ ((mineSl 1).view.loc (c : Thread nD τ) ↦[(mineSl 1).view.set]{shr 3} mineOf X) ∗ ((mineSl 1).view.loc (c : Thread nD τ) ↦[(mineSl 1).view.set]{shr 4} mineOf X) ∗ ((mineSl 1).view.loc (c : Thread nD τ) ↦[(mineSl 1).view.set]{shr 5} mineOf X) ∗ ((mineSl 1).view.loc (c : Thread nD τ) ↦[(mineSl 1).view.set]{shr 6} mineOf X) ∗ ((mineSl 1).view.loc (c : Thread nD τ) ↦[(mineSl 1).view.set]{shr 7} mineOf X)) :=
  row_restate c 1 X _ (row1_agree X f0)

/-- What a device owes, with a zero put in front (so that a last remaining tally is still a sum's last summand). -/
theorem owes_zero_add (c : Dev nD) (O : CellTallies nD τ sig Unit) (W : Waits sig Unit) :
    (owes (c : Thread nD τ) O W : sProp 𝕄) ⊢ owes (c : Thread nD τ) (0 + O) W := Entails.of_eq (by rw [zero_add])

end Cert.Kernel.Sm

end
-- ==== Proof.W.BodyEnd.lean ====
/-
  The end of a device's body: a send or receive cell whose one round is consumed, or that never had a duty, is closed, and
  its semaphore at zero is the device's again.
-/
import proofs.«901053_g7700000000001054_dist_softmax_colshard_i_m1024_n1024_v7x_i8_bf16_1_alg».proof.Proof.W.Ghost

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The diagonal cells, a device's copy to itself or from itself, have no duty at round 0. -/
theorem duties_send_self (c : Dev nD) (b : Fin 2) : (sched (F := F) m).duties (sendCell c b c) 0 = ∅ := by
  dsimp only [sched]; rw [if_pos ⟨rfl, rfl⟩]
  show (if 2 ≤ (sendS b c).val ∧ pOf (sendS b c) ≠ c then {pOf (sendS b c)} else ∅) = _
  rw [pOf_send, if_neg (fun h => h.2 rfl)]
theorem duties_recv_self (c : Dev nD) (b : Fin 2) : (sched (F := F) m).duties (recvCell c b c) 0 = ∅ := by
  dsimp only [sched]; rw [if_pos ⟨rfl, rfl⟩]
  show (if 2 ≤ (recvS b c).val ∧ pOf (recvS b c) ≠ c then {pOf (recvS b c)} else ∅) = _
  rw [pOf_recv, if_neg (fun h => h.2 rfl)]

/-- From round R on a send cell has no duty: any cell from round 1, a diagonal one from round 0. -/
theorem no_duty_send (c : Dev nD) (b : Fin 2) (p : Dev nD) (R : ℕ) (hR : p = c ∨ 1 ≤ R) :
    ∀ r, R ≤ r → (sched (F := F) m).duties (sendCell c b p) r = ∅ := fun r hr => by
  rcases Nat.eq_zero_or_pos r with h0 | h1
  · subst h0
    rcases hR with rfl | h
    · exact duties_send_self m p b
    · omega
  · exact duties_later m _ r h1
theorem no_duty_recv (c : Dev nD) (b : Fin 2) (q : Dev nD) (R : ℕ) (hR : q = c ∨ 1 ≤ R) :
    ∀ r, R ≤ r → (sched (F := F) m).duties (recvCell c b q) r = ∅ := fun r hr => by
  rcases Nat.eq_zero_or_pos r with h0 | h1
  · subst h0
    rcases hR with rfl | h
    · exact duties_recv_self m q b
    · omega
  · exact duties_later m _ r h1

/-- Closing a send cell at a position with nothing taken: its counter at zero comes back. -/
theorem close_send (κ : ℕ) (c : Dev nD) (b : Fin 2) (p : Dev nD) (R : ℕ) (hR : p = c ∨ 1 ≤ R) :
    iprop(cellInv ER (sched m) κ (sendCell c b p) ∗ atPos ER (sendCell c b p) R ∅ 0) ⊢ iprop(|={Set.univ}=> semVal (sendCell c b p) 0) :=
  Rounds.cell_close ER (sched m) (Set.mem_univ κ) (fun h => h) (R := R) (no_duty_send m c b p R hR)

/-- Closing a receive cell. -/
theorem close_recv (κ : ℕ) (c : Dev nD) (b : Fin 2) (q : Dev nD) (R : ℕ) (hR : q = c ∨ 1 ≤ R) :
    iprop(cellInv ER (sched m) κ (recvCell c b q) ∗ atPos ER (recvCell c b q) R ∅ 0) ⊢ iprop(|={Set.univ}=> semVal (recvCell c b q) 0) :=
  Rounds.cell_close ER (sched m) (Set.mem_univ κ) (fun h => h) (R := R) (no_duty_recv m c b q R hR)

end Cert.Kernel.Sm

end
-- ==== Proof.W.Glue3.lean ====
/-
  The device's own slot of the table of everybody's row sums after its local store of a row of its own table, and the
  elements a load of a half of that table reads.
-/
import proofs.«901053_g7700000000001054_dist_softmax_colshard_i_m1024_n1024_v7x_i8_bf16_1_alg».proof.Proof.W.Glue2
import Idealize.ShloMosaic.Lib.Pipeline.Value
import Idealize.ShloMosaic.Lib.Ring

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The own slot after the local store; the half of the table a load reads -/

/-- A 1 x 1 x 512 vector as 1 x 512 and then as 1 x 1 x 1 x 512 reads the same entries. -/
theorem pay5_apply (v : Vec F S1x1x512 .f32) (r : Fin 512) :
    k0_pay5 v (ValueIdx.ix4 (0 : Fin 1) (0 : Fin 1) (0 : Fin 1) r) = v (ValueIdx.ix3 (0 : Fin 1) (0 : Fin 1) r) := by
  unfold k0_pay5
  refine (shapeCast_apply _ shapeCasts_S1x512_S1x1x1x512 _ (ValueIdx.ix2 (0 : Fin 1) r) (by
    rw [Shape.rowMajor_val_four, Shape.rowMajor_val_two]
    show 0 * 512 + r.val = ((0 * 1 + 0) * 1 + 0) * 512 + r.val
    omega)).trans ?_
  exact shapeCast_apply _ shapeCasts_S1x1x512_S1x512 _ (ValueIdx.ix3 (0 : Fin 1) (0 : Fin 1) r) (by
    rw [Shape.rowMajor_val_three, Shape.rowMajor_val_two]
    show (0 * 1 + 0) * 512 + r.val = 0 * 512 + r.val
    omega)

theorem pay9_apply (v : Vec F S1x1x512 .f32) (r : Fin 512) :
    k0_pay9 v (ValueIdx.ix4 (0 : Fin 1) (0 : Fin 1) (0 : Fin 1) r) = v (ValueIdx.ix3 (0 : Fin 1) (0 : Fin 1) r) := by
  unfold k0_pay9
  refine (shapeCast_apply _ shapeCasts_S1x512_S1x1x1x512 _ (ValueIdx.ix2 (0 : Fin 1) r) (by
    rw [Shape.rowMajor_val_four, Shape.rowMajor_val_two]
    show 0 * 512 + r.val = ((0 * 1 + 0) * 1 + 0) * 512 + r.val
    omega)).trans ?_
  exact shapeCast_apply _ shapeCasts_S1x1x512_S1x512 _ (ValueIdx.ix3 (0 : Fin 1) (0 : Fin 1) r) (by
    rw [Shape.rowMajor_val_three, Shape.rowMajor_val_two]
    show (0 * 1 + 0) * 512 + r.val = 0 * 512 + r.val
    omega)

/-- A load of row 0 of the own table reads its entries. -/
theorem row0_read (g : MineBuf F) (r : Fin 512) :
    View.readAt (Elt F) (Memref.whole cc0_scratch0 : Memref sig .tc .vmem S2x1x512 .f32).view
        (Rect.unit (s := S2x1x512) ![0, 0, 0] S1x1x512.size inb_S2x1x512_S1x1x512_0_0_0).toLoadRect g
        (ValueIdx.ix3 (0 : Fin 1) (0 : Fin 1) r)
      = g (ValueIdx.ix3 (0 : Fin 2) (0 : Fin 1) r) := by
  rw [View.readAt_apply, View.read_apply]
  show g _ = g _
  refine congrArg g (funext fun a => Fin.ext ?_)
  match a with
  | ⟨0, _⟩ => show 0 + 1 * 0 = 0; omega
  | ⟨1, _⟩ => show 0 + 1 * 0 = 0; omega
  | ⟨2, _⟩ => show 0 + 1 * r.val = r.val; omega

theorem row1_read (g : MineBuf F) (r : Fin 512) :
    View.readAt (Elt F) (Memref.whole cc0_scratch0 : Memref sig .tc .vmem S2x1x512 .f32).view
        (Rect.unit (s := S2x1x512) ![1, 0, 0] S1x1x512.size inb_S2x1x512_S1x1x512_1_0_0).toLoadRect g
        (ValueIdx.ix3 (0 : Fin 1) (0 : Fin 1) r)
      = g (ValueIdx.ix3 (1 : Fin 2) (0 : Fin 1) r) := by
  rw [View.readAt_apply, View.read_apply]
  show g _ = g _
  refine congrArg g (funext fun a => Fin.ext ?_)
  match a with
  | ⟨0, _⟩ => show 1 + 1 * 0 = 1; omega
  | ⟨1, _⟩ => show 0 + 1 * 0 = 0; omega
  | ⟨2, _⟩ => show 0 + 1 * r.val = r.val; omega

/-- A 1 x 1 x 1 x 512 vector that reads row b of device c's own row sums, stored at [c, b, 0, 0], leaves on slot [c, b]
    what the table of everybody's row sums holds there. -/
theorem own_slot_agree (c : Dev nD) (b : Fin 2) (off : Fin 4 → Nat) (ho : off = ![c.val, b.val, 0, 0])
    (h : ∀ a, off a + S1x1x1x512.size a ≤ S8x2x1x512.size a) (fc : CommBuf F) (w : S1x1x1x512.Idx → F .f32) (X : XBlk F)
    (hw : ∀ r : Fin 512, w (ValueIdx.ix4 (0 : Fin 1) (0 : Fin 1) (0 : Fin 1) r) = mineOf X (ValueIdx.ix3 b (0 : Fin 1) r))
    (Ys : Dev nD → XBlk F) (hY : Ys c = X) :
    ∀ i ∈ (commSl c b).view.set,
      View.write (Elt F) ((Memref.whole cc0_scratch1 : Memref sig .tc .vmem S8x2x1x512 .f32).access
        (Rect.unit (s := S8x2x1x512) off S1x1x1x512.size h)) fc w Finset.univ i = commOf Ys i := by
  subst ho
  intro i hi
  have h2 : ((Memref.whole cc0_scratch1 : Memref sig .tc .vmem S8x2x1x512 .f32).access
      (Rect.unit (s := S8x2x1x512) ![c.val, b.val, 0, 0] S1x1x1x512.size h)).set = (commSl c b).view.set :=
    (View.set_slice_whole ..).trans (commSl_set c b).symm
  rw [← h2] at hi
  obtain ⟨y, -, rfl⟩ := Finset.mem_map.mp hi
  have h0 : (y 0).val < 1 := (y 0).isLt
  have h1 : (y 1).val < 1 := (y 1).isLt
  have h2' : (y 2).val < 1 := (y 2).isLt
  have hemb : ((Memref.whole cc0_scratch1 : Memref sig .tc .vmem S8x2x1x512 .f32).access
      (Rect.unit (s := S8x2x1x512) ![c.val, b.val, 0, 0] S1x1x1x512.size h)).emb y
        = ValueIdx.ix4 (c : Fin 8) b (0 : Fin 1) (⟨(y 3).val, (y 3).isLt⟩ : Fin 512) :=
    funext fun a => Fin.ext (by
      match a with
      | ⟨0, _⟩ => show c.val + 1 * (y 0).val = c.val; omega
      | ⟨1, _⟩ => show b.val + 1 * (y 1).val = b.val; omega
      | ⟨2, _⟩ => show 0 + 1 * (y 2).val = 0; omega
      | ⟨3, _⟩ => show 0 + 1 * (y 3).val = (y 3).val; omega)
  have hy : y = ValueIdx.ix4 (0 : Fin 1) (0 : Fin 1) (0 : Fin 1) (⟨(y 3).val, (y 3).isLt⟩ : Fin 512) :=
    funext fun a => Fin.ext (by
      match a with
      | ⟨0, _⟩ => show (y 0).val = 0; omega
      | ⟨1, _⟩ => show (y 1).val = 0; omega
      | ⟨2, _⟩ => show (y 2).val = 0; omega
      | ⟨3, _⟩ => rfl)
  rw [View.write_emb_of_mem _ _ (Finset.mem_univ y), hemb]
  show w y = mineOf (Ys c) (ValueIdx.ix3 b (0 : Fin 1) (⟨(y 3).val, (y 3).isLt⟩ : Fin 512))
  rw [hY]
  exact (congrArg w hy).trans (hw _)

/-- The device's own slot of half 0 after its local store holds its own row sums of that half. -/
theorem own_slot0 (c : Dev nD) (fc : CommBuf F) (h : ∀ a, (k0_off17 c) a + S1x1x1x512.size a ≤ S8x2x1x512.size a) :
    (((commSl c 0).view.loc (c : Thread nD τ) ↦[(commSl c 0).view.set]{fullShare}
        (View.write (Elt F) ((Memref.whole cc0_scratch1 : Memref sig .tc .vmem S8x2x1x512 .f32).access
            (Rect.unit (s := S8x2x1x512) (k0_off17 c) S1x1x1x512.size h)) fc
          (k0_pay5 (View.readAt (Elt F) (Memref.whole cc0_scratch0 : Memref sig .tc .vmem S2x1x512 .f32).view
            (Rect.unit (s := S2x1x512) ![0, 0, 0] S1x1x512.size inb_S2x1x512_S1x1x512_0_0_0).toLoadRect (mineOf (xOf m c)))) Finset.univ)) : sProp 𝕄)
      ⊢ ((commSl c 0).view.loc (c : Thread nD τ) ↦[(commSl c 0).view.set]{fullShare} commOf (Xs m)) :=
  Entails.of_eq (slot_congr c c 0 _ _ (own_slot_agree c 0 (k0_off17 c) (k0_off17_eq c) h fc _ (xOf m c)
    (fun r => (pay5_apply _ r).trans (row0_read _ r)) (Xs m) rfl))

/-- The device's own slot of half 1 after its local store holds its own row sums of that half. -/
theorem own_slot1 (c : Dev nD) (fc : CommBuf F) (h : ∀ a, (k0_off34 c) a + S1x1x1x512.size a ≤ S8x2x1x512.size a) :
    (((commSl c 1).view.loc (c : Thread nD τ) ↦[(commSl c 1).view.set]{fullShare}
        (View.write (Elt F) ((Memref.whole cc0_scratch1 : Memref sig .tc .vmem S8x2x1x512 .f32).access
            (Rect.unit (s := S8x2x1x512) (k0_off34 c) S1x1x1x512.size h)) fc
          (k0_pay9 (View.readAt (Elt F) (Memref.whole cc0_scratch0 : Memref sig .tc .vmem S2x1x512 .f32).view
            (Rect.unit (s := S2x1x512) ![1, 0, 0] S1x1x512.size inb_S2x1x512_S1x1x512_1_0_0).toLoadRect (mineOf (xOf m c)))) Finset.univ)) : sProp 𝕄)
      ⊢ ((commSl c 1).view.loc (c : Thread nD τ) ↦[(commSl c 1).view.set]{fullShare} commOf (Xs m)) :=
  Entails.of_eq (slot_congr c c 1 _ _ (own_slot_agree c 1 (k0_off34 c) (k0_off34_eq c) h fc _ (xOf m c)
    (fun r => (pay9_apply _ r).trans (row1_read _ r)) (Xs m) rfl))

/-- The elements a load of half b of the table reads are elements of that half. -/
theorem half_access_sub0 :
    ((Memref.whole cc0_scratch1 : Memref sig .tc .vmem S8x2x1x512 .f32).access
      (Rect.unit (s := S8x2x1x512) ![0, 0, 0, 0] S8x1x1x512.size inb_S8x2x1x512_S8x1x1x512_0_0_0_0)).set ⊆ (halfM 0).view.set :=
  Finset.Subset.refl _

theorem half_access_sub1 :
    ((Memref.whole cc0_scratch1 : Memref sig .tc .vmem S8x2x1x512 .f32).access
      (Rect.unit (s := S8x2x1x512) ![0, 1, 0, 0] S8x1x1x512.size inb_S8x2x1x512_S8x1x1x512_0_1_0_0)).set ⊆ (halfM 1).view.set :=
  Finset.Subset.refl _

theorem half_setOn_sub0 :
    (Memref.whole cc0_scratch1 : Memref sig .tc .vmem S8x2x1x512 .f32).view.setOn
      (Rect.unit (s := S8x2x1x512) ![0, 0, 0, 0] S8x1x1x512.size inb_S8x2x1x512_S8x1x1x512_0_0_0_0).set ⊆ (halfM 0).view.set := by
  rw [halfM_set]
  show Finset.map (Function.Embedding.refl _) _ ⊆ _
  rw [Finset.map_refl]
  exact Finset.Subset.refl _

theorem half_setOn_sub1 :
    (Memref.whole cc0_scratch1 : Memref sig .tc .vmem S8x2x1x512 .f32).view.setOn
      (Rect.unit (s := S8x2x1x512) ![0, 1, 0, 0] S8x1x1x512.size inb_S8x2x1x512_S8x1x1x512_0_1_0_0).set ⊆ (halfM 1).view.set := by
  rw [halfM_set]
  show Finset.map (Function.Embedding.refl _) _ ⊆ _
  rw [Finset.map_refl]
  exact Finset.Subset.refl _

end Cert.Kernel.Sm
end
-- ==== Proof.W.OutFinal.lean ====
/-
  The result block after the body's four stores: an entry reads the last store of its half, so the block holds the
  scaled halves, which is the device's result; and what a load of a half reads between the stores.
-/
import proofs.«901053_g7700000000001054_dist_softmax_colshard_i_m1024_n1024_v7x_i8_bf16_1_alg».proof.Proof.W.Glue3
import Idealize.ShloMosaic.Lib.WritesUnit
import Idealize.ShloMosaic.Lib.Pipeline.FrameBody
import Idealize.ShloMosaic.Lib.Ring

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## The result block after the body's four stores -/

/-- After four stores of half blocks — bottom, top, bottom, top, the last store first in the list — an entry reads the
    last store of its half. -/
theorem read_four (v : View sig .tc .vmem S1024x1024 .bf16) (g0 : v.ty.Contents (Elt F))
    (wB wT wB' wT' : FVec F S512x1024 .bf16) (i : S1024x1024.Idx) :
    v.read (Elt F) (v.writes (Elt F) g0 [⟨rBot, wB⟩, ⟨rTop, wT⟩, ⟨rBot, wB'⟩, ⟨rTop, wT'⟩]) i
      = if h : (i 0).val < 512 then wT (ValueIdx.ix2 (⟨(i 0).val, h⟩ : Fin 512) (i 1))
        else wB (ValueIdx.ix2 (⟨(i 0).val - 512, by have : (i 0).val < 1024 := (i 0).isLt; omega⟩ : Fin 512) (i 1)) := by
  have hi0 : (i 0).val < 1024 := (i 0).isLt
  by_cases h : (i 0).val < 512
  · rw [dif_pos h]
    refine (View.read_writes_cons_rows_of_not_mem (o := 512) (W := 512) v g0 inb_S1024x1024_S512x1024_512_0 wB
      [⟨rTop, wT⟩, ⟨rBot, wB'⟩, ⟨rTop, wT'⟩] i rfl rfl (Or.inl h)).trans ?_
    exact View.read_writes_cons_rows_of_mem (o := 0) v g0 inb_S1024x1024_S512x1024_0_0 wT [⟨rBot, wB'⟩, ⟨rTop, wT'⟩] i
      (ValueIdx.ix2 (⟨(i 0).val, h⟩ : Fin 512) (i 1)) rfl (by show (i 0).val = 0 + (i 0).val; omega) rfl
  · rw [dif_neg h]
    exact View.read_writes_cons_rows_of_mem (o := 512) v g0 inb_S1024x1024_S512x1024_512_0 wB
      [⟨rTop, wT⟩, ⟨rBot, wB'⟩, ⟨rTop, wT'⟩] i
      (ValueIdx.ix2 (⟨(i 0).val - 512, by omega⟩ : Fin 512) (i 1)) rfl (by show (i 0).val = 512 + ((i 0).val - 512); omega) rfl

/-- After the four stores into the result block — the two halves of exp (x - 16), then the two halves scaled — the
    block holds the later two, whatever the earlier two and the prior contents were. -/
theorem out_agree (g0 : OBlk F) (wB wT wB' wT' : FVec F S512x1024 .bf16) (Ys : Dev nD → XBlk F) (c : Dev nD)
    (hB : wB = oBot Ys c) (hT : wT = oTop Ys c) :
    ∀ i ∈ (oM : Memref sig .tc .vmem S1024x1024 .bf16).view.set,
      (oM : Memref sig .tc .vmem S1024x1024 .bf16).view.writes (Elt F) g0
          [⟨rBot, wB⟩, ⟨rTop, wT⟩, ⟨rBot, wB'⟩, ⟨rTop, wT'⟩] i
        = outOf Ys c i := by
  intro i _
  subst hB hT
  refine (congrFun (View.read_whole (Val := Elt F) cc0_stg1_0 _) i).symm.trans ?_
  exact read_four (View.whole cc0_stg1_0) g0 _ _ wB' wT' i

/-- So the result block held after the four stores is held at the result. -/
theorem out_settle (c : Dev nD) (g0 : OBlk F) (wB wT wB' wT' : FVec F S512x1024 .bf16)
    (hB : wB = oBot (fun q => xOf m q) c) (hT : wT = oTop (fun q => xOf m q) c) :
    ((oM : Memref sig .tc .vmem S1024x1024 .bf16).view.loc (c : Thread nD τ) ↦[(oM : Memref sig .tc .vmem S1024x1024 .bf16).view.set]{fullShare}
        (oM : Memref sig .tc .vmem S1024x1024 .bf16).view.writes (Elt F) g0
          [⟨rBot, wB⟩, ⟨rTop, wT⟩, ⟨rBot, wB'⟩, ⟨rTop, wT'⟩] : sProp 𝕄)
      ⊢ ((oM : Memref sig .tc .vmem S1024x1024 .bf16).view.loc (c : Thread nD τ) ↦[(oM : Memref sig .tc .vmem S1024x1024 .bf16).view.set]{fullShare}
          outOf (fun q => xOf m q) c) :=
  Entails.of_eq (pointsTo_congr (out_agree g0 wB wT wB' wT' (fun q => xOf m q) c hB hT))

/-! ## Covered loads of the halves of the result block -/

theorem rBot_rTop_disjoint : Disjoint (rBot : Rect S1024x1024).set (rTop : Rect S1024x1024).toLoadRect.set :=
  Rect.unit_disjoint (0 : Fin 2) (Or.inr (by decide))

theorem rTop_rBot_disjoint : Disjoint (rTop : Rect S1024x1024).set (rBot : Rect S1024x1024).toLoadRect.set :=
  Rect.unit_disjoint (0 : Fin 2) (Or.inl (by decide))

/-- A load of the top half after a store of the top half and then one of the bottom half reads the top half's store. -/
theorem readCov_top [∀ e, Nonempty (Elt F e)] (v : View sig .tc .vmem S1024x1024 .bf16) (wB wT : FVec F S512x1024 .bf16) :
    View.readCov (Val := Elt F) v [⟨rBot, wB⟩, ⟨rTop, wT⟩] (rTop : Rect S1024x1024).toLoadRect = wT :=
  (View.readCov_cons_of_disjoint (Val := Elt F) v ⟨rBot, wB⟩ [⟨rTop, wT⟩] (rTop : Rect S1024x1024).toLoadRect rBot_rTop_disjoint).trans
    (View.readCov_cons_toLoadRect (Val := Elt F) v rTop wT [])

/-- A load of the bottom half after stores of the top, the bottom and the top half again reads the bottom half's store. -/
theorem readCov_bot [∀ e, Nonempty (Elt F e)] (v : View sig .tc .vmem S1024x1024 .bf16) (wT2 wB wT : FVec F S512x1024 .bf16) :
    View.readCov (Val := Elt F) v [⟨rTop, wT2⟩, ⟨rBot, wB⟩, ⟨rTop, wT⟩] (rBot : Rect S1024x1024).toLoadRect = wB :=
  (View.readCov_cons_of_disjoint (Val := Elt F) v ⟨rTop, wT2⟩ [⟨rBot, wB⟩, ⟨rTop, wT⟩] (rBot : Rect S1024x1024).toLoadRect rTop_rBot_disjoint).trans
    (View.readCov_cons_toLoadRect (Val := Elt F) v rBot wB [⟨rTop, wT⟩])

end Cert.Kernel.Sm
end
-- ==== Proof.W.Body0.lean ====
/-
  The kernel body on device 0, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.W.BodyWrap
import proofs.«901053_g7700000000001054_dist_softmax_colshard_i_m1024_n1024_v7x_i8_bf16_1_alg».proof.Proof.W.BodyPieces
import proofs.«901053_g7700000000001054_dist_softmax_colshard_i_m1024_n1024_v7x_i8_bf16_1_alg».proof.Proof.W.OpenKit
import proofs.«901053_g7700000000001054_dist_softmax_colshard_i_m1024_n1024_v7x_i8_bf16_1_alg».proof.Proof.W.Canon
import proofs.«901053_g7700000000001054_dist_softmax_colshard_i_m1024_n1024_v7x_i8_bf16_1_alg».proof.Proof.W.SendRule
import proofs.«901053_g7700000000001054_dist_softmax_colshard_i_m1024_n1024_v7x_i8_bf16_1_alg».proof.Proof.W.BodyEnd
import proofs.«901053_g7700000000001054_dist_softmax_colshard_i_m1024_n1024_v7x_i8_bf16_1_alg».proof.Proof.W.Glue3
import proofs.«901053_g7700000000001054_dist_softmax_colshard_i_m1024_n1024_v7x_i8_bf16_1_alg».proof.Proof.W.OutFinal

noncomputable section

namespace Cert.Kernel.Sm

set_option maxRecDepth 8000

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_0 (K : Dev nD × Fin 33 → ℕ) (W : Waits sig Unit) (Kt : PUnit → sProp 𝕄) :
    iprop(bodyPreE m K 0 W ∗ (bodyPostE m 0 -∗ Kt ⟨⟩))
      ⊢ wp frame (wpE (defs₀ (F := F)) 𝒱₀ ((0 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((0 : Dev nD) : Thread nD τ) (.reg barS) () (recvOwed 0) := mayWait_recvOwed 0
  -- the precondition taken apart
  unfold bodyPreE ghost linear creds scratches
  rw [erase_chain_0, erase_chain_0, pos_chain, O₀_chain_0]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb1, Htr10, Htr11, Hts01, Hts11⟩, ⟨Htb2, Htr20, Htr21, Hts02, Hts12⟩, ⟨Htb3, Htr30, Htr31, Hts03, Hts13⟩, ⟨Htb4, Htr40, Htr41, Hts04, Hts14⟩, ⟨Htb5, Htr50, Htr51, Hts05, Hts15⟩, ⟨Htb6, Htr60, Htr61, Hts06, Hts16⟩, ⟨Htb7, Htr70, Htr71, Hts07, Hts17⟩⟩⟩,
    ⟨Hcb, ⟨Hcv01, Hcv11⟩, ⟨Hcv02, Hcv12⟩, ⟨Hcv03, Hcv13⟩, ⟨Hcv04, Hcv14⟩, ⟨Hcv05, Hcv15⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 0 f0) $$ Hm
  icases Hm' with ⟨Hm0, Hm1⟩
  ihave Hc' := (comm_split_ex (F := F) 0) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr10 := (inv_recv m K 1 0 0) $$ HR
  ihave #HIr11 := (inv_recv m K 1 1 0) $$ HR
  ihave #HIr20 := (inv_recv m K 2 0 0) $$ HR
  ihave #HIr21 := (inv_recv m K 2 1 0) $$ HR
  ihave #HIr30 := (inv_recv m K 3 0 0) $$ HR
  ihave #HIr31 := (inv_recv m K 3 1 0) $$ HR
  ihave #HIr40 := (inv_recv m K 4 0 0) $$ HR
  ihave #HIr41 := (inv_recv m K 4 1 0) $$ HR
  ihave #HIr50 := (inv_recv m K 5 0 0) $$ HR
  ihave #HIr51 := (inv_recv m K 5 1 0) $$ HR
  ihave #HIr60 := (inv_recv m K 6 0 0) $$ HR
  ihave #HIr61 := (inv_recv m K 6 1 0) $$ HR
  ihave #HIr70 := (inv_recv m K 7 0 0) $$ HR
  ihave #HIr71 := (inv_recv m K 7 1 0) $$ HR
  ihave #HIs01 := (inv_send m K 0 0 1) $$ HR
  ihave #HIs02 := (inv_send m K 0 0 2) $$ HR
  ihave #HIs03 := (inv_send m K 0 0 3) $$ HR
  ihave #HIs04 := (inv_send m K 0 0 4) $$ HR
  ihave #HIs05 := (inv_send m K 0 0 5) $$ HR
  ihave #HIs06 := (inv_send m K 0 0 6) $$ HR
  ihave #HIs07 := (inv_send m K 0 0 7) $$ HR
  ihave #HIs11 := (inv_send m K 0 1 1) $$ HR
  ihave #HIs12 := (inv_send m K 0 1 2) $$ HR
  ihave #HIs13 := (inv_send m K 0 1 3) $$ HR
  ihave #HIs14 := (inv_send m K 0 1 4) $$ HR
  ihave #HIs15 := (inv_send m K 0 1 5) $$ HR
  ihave #HIs16 := (inv_send m K 0 1 6) $$ HR
  ihave #HIs17 := (inv_send m K 0 1 7) $$ HR
  ihave #HIv01 := (inv_recv m K 0 0 1) $$ HR
  ihave #HIv02 := (inv_recv m K 0 0 2) $$ HR
  ihave #HIv03 := (inv_recv m K 0 0 3) $$ HR
  ihave #HIv04 := (inv_recv m K 0 0 4) $$ HR
  ihave #HIv05 := (inv_recv m K 0 0 5) $$ HR
  ihave #HIv06 := (inv_recv m K 0 0 6) $$ HR
  ihave #HIv07 := (inv_recv m K 0 0 7) $$ HR
  ihave #HIv11 := (inv_recv m K 0 1 1) $$ HR
  ihave #HIv12 := (inv_recv m K 0 1 2) $$ HR
  ihave #HIv13 := (inv_recv m K 0 1 3) $$ HR
  ihave #HIv14 := (inv_recv m K 0 1 4) $$ HR
  ihave #HIv15 := (inv_recv m K 0 1 5) $$ HR
  ihave #HIv16 := (inv_recv m K 0 1 6) $$ HR
  ihave #HIv17 := (inv_recv m K 0 1 7) $$ HR
  ihave #Hrb1 := (reached_bar m K 1) $$ HR
  ihave #Hrb2 := (reached_bar m K 2) $$ HR
  ihave #Hrb3 := (reached_bar m K 3) $$ HR
  ihave #Hrb4 := (reached_bar m K 4) $$ HR
  ihave #Hrb5 := (reached_bar m K 5) $$ HR
  ihave #Hrb6 := (reached_bar m K 6) $$ HR
  ihave #Hrb7 := (reached_bar m K 7) $$ HR
  ihave #Hrr10 := (reached_recv m K 1 0 0) $$ HR
  ihave #Hrr11 := (reached_recv m K 1 1 0) $$ HR
  ihave #Hrr20 := (reached_recv m K 2 0 0) $$ HR
  ihave #Hrr21 := (reached_recv m K 2 1 0) $$ HR
  ihave #Hrr30 := (reached_recv m K 3 0 0) $$ HR
  ihave #Hrr31 := (reached_recv m K 3 1 0) $$ HR
  ihave #Hrr40 := (reached_recv m K 4 0 0) $$ HR
  ihave #Hrr41 := (reached_recv m K 4 1 0) $$ HR
  ihave #Hrr50 := (reached_recv m K 5 0 0) $$ HR
  ihave #Hrr51 := (reached_recv m K 5 1 0) $$ HR
  ihave #Hrr60 := (reached_recv m K 6 0 0) $$ HR
  ihave #Hrr61 := (reached_recv m K 6 1 0) $$ HR
  ihave #Hrr70 := (reached_recv m K 7 0 0) $$ HR
  ihave #Hrr71 := (reached_recv m K 7 1 0) $$ HR
  ihave #Hrs01 := (reached_send m K 0 0 1) $$ HR
  ihave #Hrs02 := (reached_send m K 0 0 2) $$ HR
  ihave #Hrs03 := (reached_send m K 0 0 3) $$ HR
  ihave #Hrs04 := (reached_send m K 0 0 4) $$ HR
  ihave #Hrs05 := (reached_send m K 0 0 5) $$ HR
  ihave #Hrs06 := (reached_send m K 0 0 6) $$ HR
  ihave #Hrs07 := (reached_send m K 0 0 7) $$ HR
  ihave #Hrs11 := (reached_send m K 0 1 1) $$ HR
  ihave #Hrs12 := (reached_send m K 0 1 2) $$ HR
  ihave #Hrs13 := (reached_send m K 0 1 3) $$ HR
  ihave #Hrs14 := (reached_send m K 0 1 4) $$ HR
  ihave #Hrs15 := (reached_send m K 0 1 5) $$ HR
  ihave #Hrs16 := (reached_send m K 0 1 6) $$ HR
  ihave #Hrs17 := (reached_send m K 0 1 7) $$ HR
  -- the diagonal cells' invariants (never used by a copy; closed at the end)
  ihave #HIs00 := (inv_send m K 0 0 0) $$ HR
  ihave #HIs10 := (inv_send m K 0 1 0) $$ HR
  ihave #HIv00 := (inv_recv m K 0 0 0) $$ HR
  ihave #HIv10 := (inv_recv m K 0 1 0) $$ HR
  iclear HR
  rw [cc0_body_eq_skeleton]; unfold cc0_body_skel
  -- the device's own two slots of its table, at their contents
  icases Hc00 with ⟨%fc0, Hc00⟩
  icases Hc01 with ⟨%fc1, Hc01⟩
  -- the seven barrier units, the first half's exponentials and row sums, the barrier wait
  sl_exec_parts
  -- what the barrier brought: the peers' slots for this device; what is still owed, in paying order; the first row in shares
  ihave HO := (owes_pay_0 (F := F) _) $$ HO
  ihave Hp := (Entails.of_eq (erase_chain_0 _)) $$ Hab_pay1
  icases Hp with ⟨⟨⟨%fd10, Hd10⟩, ⟨%fd11, Hd11⟩⟩, ⟨⟨%fd20, Hd20⟩, ⟨%fd21, Hd21⟩⟩, ⟨⟨%fd30, Hd30⟩, ⟨%fd31, Hd31⟩⟩, ⟨⟨%fd40, Hd40⟩, ⟨%fd41, Hd41⟩⟩, ⟨⟨%fd50, Hd50⟩, ⟨%fd51, Hd51⟩⟩, ⟨⟨%fd60, Hd60⟩, ⟨%fd61, Hd61⟩⟩, ⟨⟨%fd70, Hd70⟩, ⟨%fd71, Hd71⟩⟩⟩
  ihave Hm0s : iprop(((mineSl 0).view.loc ((0 : Dev nD) : Thread nD τ) ↦[(mineSl 0).view.set]{shr 0} mineOf (xOf m 0)) ∗ ((mineSl 0).view.loc ((0 : Dev nD) : Thread nD τ) ↦[(mineSl 0).view.set]{shr 1} mineOf (xOf m 0)) ∗ ((mineSl 0).view.loc ((0 : Dev nD) : Thread nD τ) ↦[(mineSl 0).view.set]{shr 2} mineOf (xOf m 0)) ∗ ((mineSl 0).view.loc ((0 : Dev nD) : Thread nD τ) ↦[(mineSl 0).view.set]{shr 3} mineOf (xOf m 0)) ∗ ((mineSl 0).view.loc ((0 : Dev nD) : Thread nD τ) ↦[(mineSl 0).view.set]{shr 4} mineOf (xOf m 0)) ∗ ((mineSl 0).view.loc ((0 : Dev nD) : Thread nD τ) ↦[(mineSl 0).view.set]{shr 5} mineOf (xOf m 0)) ∗ ((mineSl 0).view.loc ((0 : Dev nD) : Thread nD τ) ↦[(mineSl 0).view.set]{shr 6} mineOf (xOf m 0)) ∗ ((mineSl 0).view.loc ((0 : Dev nD) : Thread nD τ) ↦[(mineSl 0).view.set]{shr 7} mineOf (xOf m 0))) $$ [Hm0]
  · iapply (row0_shares (F := F) (0 : Dev nD) (xOf m 0) f0); iexact Hm0
  icases Hm0s with ⟨Hm0_0, Hm0_1, Hm0_2, Hm0_3, Hm0_4, Hm0_5, Hm0_6, Hm0_7⟩
  -- the seven copies of the first row
  iapply (wp_send_slot m _ _ 0 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 0 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 0 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 0 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 0 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 0 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 0 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((0 : Dev nD) : Thread nD τ) ↦[(mineSl 1).view.set]{shr 0} mineOf (xOf m 0)) ∗ ((mineSl 1).view.loc ((0 : Dev nD) : Thread nD τ) ↦[(mineSl 1).view.set]{shr 1} mineOf (xOf m 0)) ∗ ((mineSl 1).view.loc ((0 : Dev nD) : Thread nD τ) ↦[(mineSl 1).view.set]{shr 2} mineOf (xOf m 0)) ∗ ((mineSl 1).view.loc ((0 : Dev nD) : Thread nD τ) ↦[(mineSl 1).view.set]{shr 3} mineOf (xOf m 0)) ∗ ((mineSl 1).view.loc ((0 : Dev nD) : Thread nD τ) ↦[(mineSl 1).view.set]{shr 4} mineOf (xOf m 0)) ∗ ((mineSl 1).view.loc ((0 : Dev nD) : Thread nD τ) ↦[(mineSl 1).view.set]{shr 5} mineOf (xOf m 0)) ∗ ((mineSl 1).view.loc ((0 : Dev nD) : Thread nD τ) ↦[(mineSl 1).view.set]{shr 6} mineOf (xOf m 0)) ∗ ((mineSl 1).view.loc ((0 : Dev nD) : Thread nD τ) ↦[(mineSl 1).view.set]{shr 7} mineOf (xOf m 0))) $$ [Hm1]
  · iapply (row1_shares (F := F) (0 : Dev nD) (xOf m 0) f0); iexact Hm1
  icases Hm1s with ⟨Hm1_0, Hm1_1, Hm1_2, Hm1_3, Hm1_4, Hm1_5, Hm1_6, Hm1_7⟩
  iapply (wp_send_slot m _ _ 0 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 0 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 0 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 0 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 0 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  iapply (wp_send_slot m _ _ 0 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (0 : Dev nD) _ _) $$ HO
  iapply (wp_send_slot m _ _ 0 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 0 0).view.loc ((0 : Dev nD) : Thread nD τ) ↦[(commSl 0 0).view.set]{fullShare} commOf (Xs m)) $$ [Hc00]
  · iapply (own_slot0 (F := F) m (0 : Dev nD) fc0 _); iexact Hc00
  ihave Hh0 : ((halfM 0).view.loc ((0 : Dev nD) : Thread nD τ) ↦[(halfM 0).view.set]{fullShare} commOf (Xs m)) $$ [Hown0 Hav01_pay1 Hav02_pay1 Hav03_pay1 Hav04_pay1 Hav05_pay1 Hav06_pay1 Hav07_pay1]
  · iapply (half_join (F := F) (0 : Dev nD) 0 (commOf (Xs m)))
    isplitl [Hown0]; · iexact Hown0
    isplitl [Hav01_pay1]; · iexact Hav01_pay1
    isplitl [Hav02_pay1]; · iexact Hav02_pay1
    isplitl [Hav03_pay1]; · iexact Hav03_pay1
    isplitl [Hav04_pay1]; · iexact Hav04_pay1
    isplitl [Hav05_pay1]; · iexact Hav05_pay1
    isplitl [Hav06_pay1]; · iexact Hav06_pay1
    iexact Hav07_pay1
  have hsub0a := half_access_sub0
  have hsub0b := half_setOn_sub0
  sl_exec_parts
  -- the second half likewise; then the departures' waits
  ihave Hown1 : ((commSl 0 1).view.loc ((0 : Dev nD) : Thread nD τ) ↦[(commSl 0 1).view.set]{fullShare} commOf (Xs m)) $$ [Hc01]
  · iapply (own_slot1 (F := F) m (0 : Dev nD) fc1 _); iexact Hc01
  ihave Hh1 : ((halfM 1).view.loc ((0 : Dev nD) : Thread nD τ) ↦[(halfM 1).view.set]{fullShare} commOf (Xs m)) $$ [Hown1 Hav11_pay1 Hav12_pay1 Hav13_pay1 Hav14_pay1 Hav15_pay1 Hav16_pay1 Hav17_pay1]
  · iapply (half_join (F := F) (0 : Dev nD) 1 (commOf (Xs m)))
    isplitl [Hown1]; · iexact Hown1
    isplitl [Hav11_pay1]; · iexact Hav11_pay1
    isplitl [Hav12_pay1]; · iexact Hav12_pay1
    isplitl [Hav13_pay1]; · iexact Hav13_pay1
    isplitl [Hav14_pay1]; · iexact Hav14_pay1
    isplitl [Hav15_pay1]; · iexact Hav15_pay1
    isplitl [Hav16_pay1]; · iexact Hav16_pay1
    iexact Hav17_pay1
  have hsub1a := half_access_sub1
  have hsub1b := half_setOn_sub1
  sl_exec_parts
  -- the cells closed
  imod (close_send m _ 0 0 0 0 (.inl rfl)) $$ [Has00] with Hzs00
  · isplitr; · iexact HIs00
    iexact Has00
  imod (close_send m _ 0 0 1 1 (.inr le_rfl)) $$ [Has01] with Hzs01
  · isplitr; · iexact HIs01
    iexact Has01
  imod (close_send m _ 0 0 2 1 (.inr le_rfl)) $$ [Has02] with Hzs02
  · isplitr; · iexact HIs02
    iexact Has02
  imod (close_send m _ 0 0 3 1 (.inr le_rfl)) $$ [Has03] with Hzs03
  · isplitr; · iexact HIs03
    iexact Has03
  imod (close_send m _ 0 0 4 1 (.inr le_rfl)) $$ [Has04] with Hzs04
  · isplitr; · iexact HIs04
    iexact Has04
  imod (close_send m _ 0 0 5 1 (.inr le_rfl)) $$ [Has05] with Hzs05
  · isplitr; · iexact HIs05
    iexact Has05
  imod (close_send m _ 0 0 6 1 (.inr le_rfl)) $$ [Has06] with Hzs06
  · isplitr; · iexact HIs06
    iexact Has06
  imod (close_send m _ 0 0 7 1 (.inr le_rfl)) $$ [Has07] with Hzs07
  · isplitr; · iexact HIs07
    iexact Has07
  imod (close_send m _ 0 1 0 0 (.inl rfl)) $$ [Has10] with Hzs10
  · isplitr; · iexact HIs10
    iexact Has10
  imod (close_send m _ 0 1 1 1 (.inr le_rfl)) $$ [Has11] with Hzs11
  · isplitr; · iexact HIs11
    iexact Has11
  imod (close_send m _ 0 1 2 1 (.inr le_rfl)) $$ [Has12] with Hzs12
  · isplitr; · iexact HIs12
    iexact Has12
  imod (close_send m _ 0 1 3 1 (.inr le_rfl)) $$ [Has13] with Hzs13
  · isplitr; · iexact HIs13
    iexact Has13
  imod (close_send m _ 0 1 4 1 (.inr le_rfl)) $$ [Has14] with Hzs14
  · isplitr; · iexact HIs14
    iexact Has14
  imod (close_send m _ 0 1 5 1 (.inr le_rfl)) $$ [Has15] with Hzs15
  · isplitr; · iexact HIs15
    iexact Has15
  imod (close_send m _ 0 1 6 1 (.inr le_rfl)) $$ [Has16] with Hzs16
  · isplitr; · iexact HIs16
    iexact Has16
  imod (close_send m _ 0 1 7 1 (.inr le_rfl)) $$ [Has17] with Hzs17
  · isplitr; · iexact HIs17
    iexact Has17
  imod (close_recv m _ 0 0 0 0 (.inl rfl)) $$ [Hav00] with Hzv00
  · isplitr; · iexact HIv00
    iexact Hav00
  imod (close_recv m _ 0 0 1 1 (.inr le_rfl)) $$ [Hav01] with Hzv01
  · isplitr; · iexact HIv01
    iexact Hav01
  imod (close_recv m _ 0 0 2 1 (.inr le_rfl)) $$ [Hav02] with Hzv02
  · isplitr; · iexact HIv02
    iexact Hav02
  imod (close_recv m _ 0 0 3 1 (.inr le_rfl)) $$ [Hav03] with Hzv03
  · isplitr; · iexact HIv03
    iexact Hav03
  imod (close_recv m _ 0 0 4 1 (.inr le_rfl)) $$ [Hav04] with Hzv04
  · isplitr; · iexact HIv04
    iexact Hav04
  imod (close_recv m _ 0 0 5 1 (.inr le_rfl)) $$ [Hav05] with Hzv05
  · isplitr; · iexact HIv05
    iexact Hav05
  imod (close_recv m _ 0 0 6 1 (.inr le_rfl)) $$ [Hav06] with Hzv06
  · isplitr; · iexact HIv06
    iexact Hav06
  imod (close_recv m _ 0 0 7 1 (.inr le_rfl)) $$ [Hav07] with Hzv07
  · isplitr; · iexact HIv07
    iexact Hav07
  imod (close_recv m _ 0 1 0 0 (.inl rfl)) $$ [Hav10] with Hzv10
  · isplitr; · iexact HIv10
    iexact Hav10
  imod (close_recv m _ 0 1 1 1 (.inr le_rfl)) $$ [Hav11] with Hzv11
  · isplitr; · iexact HIv11
    iexact Hav11
  imod (close_recv m _ 0 1 2 1 (.inr le_rfl)) $$ [Hav12] with Hzv12
  · isplitr; · iexact HIv12
    iexact Hav12
  imod (close_recv m _ 0 1 3 1 (.inr le_rfl)) $$ [Hav13] with Hzv13
  · isplitr; · iexact HIv13
    iexact Hav13
  imod (close_recv m _ 0 1 4 1 (.inr le_rfl)) $$ [Hav14] with Hzv14
  · isplitr; · iexact HIv14
    iexact Hav14
  imod (close_recv m _ 0 1 5 1 (.inr le_rfl)) $$ [Hav15] with Hzv15
  · isplitr; · iexact HIv15
    iexact Hav15
  imod (close_recv m _ 0 1 6 1 (.inr le_rfl)) $$ [Hav16] with Hzv16
  · isplitr; · iexact HIv16
    iexact Hav16
  imod (close_recv m _ 0 1 7 1 (.inr le_rfl)) $$ [Hav17] with Hzv17
  · isplitr; · iexact HIv17
    iexact Hav17
  -- the two tables whole again
  ihave Hrow0 : ((mineSl 0).view.loc ((0 : Dev nD) : Thread nD τ) ↦[(mineSl 0).view.set]{fullShare} mineOf (xOf m 0)) $$ [Hm0_0 Has01_pay1 Has02_pay1 Has03_pay1 Has04_pay1 Has05_pay1 Has06_pay1 Has07_pay1]
  · iapply (row_rejoin (F := F) (0 : Dev nD) 0 (xOf m 0))
    isplitl [Hm0_0]; · iexact Hm0_0
    isplitl [Has01_pay1]; · iexact Has01_pay1
    isplitl [Has02_pay1]; · iexact Has02_pay1
    isplitl [Has03_pay1]; · iexact Has03_pay1
    isplitl [Has04_pay1]; · iexact Has04_pay1
    isplitl [Has05_pay1]; · iexact Has05_pay1
    isplitl [Has06_pay1]; · iexact Has06_pay1
    iexact Has07_pay1
  ihave Hrow1 : ((mineSl 1).view.loc ((0 : Dev nD) : Thread nD τ) ↦[(mineSl 1).view.set]{fullShare} mineOf (xOf m 0)) $$ [Hm1_0 Has11_pay1 Has12_pay1 Has13_pay1 Has14_pay1 Has15_pay1 Has16_pay1 Has17_pay1]
  · iapply (row_rejoin (F := F) (0 : Dev nD) 1 (xOf m 0))
    isplitl [Hm1_0]; · iexact Hm1_0
    isplitl [Has11_pay1]; · iexact Has11_pay1
    isplitl [Has12_pay1]; · iexact Has12_pay1
    isplitl [Has13_pay1]; · iexact Has13_pay1
    isplitl [Has14_pay1]; · iexact Has14_pay1
    isplitl [Has15_pay1]; · iexact Has15_pay1
    isplitl [Has16_pay1]; · iexact Has16_pay1
    iexact Has17_pay1
  ihave Hmine := (mine_join (F := F) (0 : Dev nD) (mineOf (xOf m 0))) $$ [Hrow0 Hrow1]
  · isplitl [Hrow0]; · iexact Hrow0
    iexact Hrow1
  ihave Hcomm := (halves_join (F := F) (0 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((0 : Dev nD) : Thread nD τ) ↦[(oM : Memref sig .tc .vmem S1024x1024 .bf16).view.set]{fullShare} outOf (fun q => xOf m q) 0) $$ [Ho]
  · have hT : body_0.sl.r_2 m = oTop (fun q => xOf m q) (0 : Dev nD) := by
      sl_unfold_run_names
      exact congrArg₂ k0_pay10 rfl (readCov_top _ _ _)
    have hB : k0_pay13 (body_0.sl.r_3 m) k0_pay12 (body_0.sl.v183 m) = oBot (fun q => xOf m q) (0 : Dev nD) := by
      sl_unfold_run_names
      exact congrArg₂ (fun a b => k0_pay13 (k0_pay11 a) k0_pay12 b) rfl (readCov_bot _ _ _ _)
    iapply (out_settle (F := F) m (0 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.Kernel.Sm

end
-- ==== Proof.W.Body1.lean ====
/-
  The kernel body on device 1, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.W.BodyWrap
import proofs.«901053_g7700000000001054_dist_softmax_colshard_i_m1024_n1024_v7x_i8_bf16_1_alg».proof.Proof.W.BodyPieces
import proofs.«901053_g7700000000001054_dist_softmax_colshard_i_m1024_n1024_v7x_i8_bf16_1_alg».proof.Proof.W.OpenKit
import proofs.«901053_g7700000000001054_dist_softmax_colshard_i_m1024_n1024_v7x_i8_bf16_1_alg».proof.Proof.W.Canon
import proofs.«901053_g7700000000001054_dist_softmax_colshard_i_m1024_n1024_v7x_i8_bf16_1_alg».proof.Proof.W.SendRule
import proofs.«901053_g7700000000001054_dist_softmax_colshard_i_m1024_n1024_v7x_i8_bf16_1_alg».proof.Proof.W.BodyEnd
import proofs.«901053_g7700000000001054_dist_softmax_colshard_i_m1024_n1024_v7x_i8_bf16_1_alg».proof.Proof.W.Glue3
import proofs.«901053_g7700000000001054_dist_softmax_colshard_i_m1024_n1024_v7x_i8_bf16_1_alg».proof.Proof.W.OutFinal

noncomputable section

namespace Cert.Kernel.Sm

set_option maxRecDepth 8000

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_1 (K : Dev nD × Fin 33 → ℕ) (W : Waits sig Unit) (Kt : PUnit → sProp 𝕄) :
    iprop(bodyPreE m K 1 W ∗ (bodyPostE m 1 -∗ Kt ⟨⟩))
      ⊢ wp frame (wpE (defs₀ (F := F)) 𝒱₀ ((1 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((1 : Dev nD) : Thread nD τ) (.reg barS) () (recvOwed 1) := mayWait_recvOwed 1
  -- the precondition taken apart
  unfold bodyPreE ghost linear creds scratches
  rw [erase_chain_1, erase_chain_1, pos_chain, O₀_chain_1]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb2, Htr20, Htr21, Hts02, Hts12⟩, ⟨Htb3, Htr30, Htr31, Hts03, Hts13⟩, ⟨Htb4, Htr40, Htr41, Hts04, Hts14⟩, ⟨Htb5, Htr50, Htr51, Hts05, Hts15⟩, ⟨Htb6, Htr60, Htr61, Hts06, Hts16⟩, ⟨Htb7, Htr70, Htr71, Hts07, Hts17⟩⟩⟩,
    ⟨Hcb, ⟨Hcv00, Hcv10⟩, ⟨Hcv02, Hcv12⟩, ⟨Hcv03, Hcv13⟩, ⟨Hcv04, Hcv14⟩, ⟨Hcv05, Hcv15⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 1 f0) $$ Hm
  icases Hm' with ⟨Hm0, Hm1⟩
  ihave Hc' := (comm_split_ex (F := F) 1) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 1) $$ HR
  ihave #HIr01 := (inv_recv m K 0 1 1) $$ HR
  ihave #HIr20 := (inv_recv m K 2 0 1) $$ HR
  ihave #HIr21 := (inv_recv m K 2 1 1) $$ HR
  ihave #HIr30 := (inv_recv m K 3 0 1) $$ HR
  ihave #HIr31 := (inv_recv m K 3 1 1) $$ HR
  ihave #HIr40 := (inv_recv m K 4 0 1) $$ HR
  ihave #HIr41 := (inv_recv m K 4 1 1) $$ HR
  ihave #HIr50 := (inv_recv m K 5 0 1) $$ HR
  ihave #HIr51 := (inv_recv m K 5 1 1) $$ HR
  ihave #HIr60 := (inv_recv m K 6 0 1) $$ HR
  ihave #HIr61 := (inv_recv m K 6 1 1) $$ HR
  ihave #HIr70 := (inv_recv m K 7 0 1) $$ HR
  ihave #HIr71 := (inv_recv m K 7 1 1) $$ HR
  ihave #HIs00 := (inv_send m K 1 0 0) $$ HR
  ihave #HIs02 := (inv_send m K 1 0 2) $$ HR
  ihave #HIs03 := (inv_send m K 1 0 3) $$ HR
  ihave #HIs04 := (inv_send m K 1 0 4) $$ HR
  ihave #HIs05 := (inv_send m K 1 0 5) $$ HR
  ihave #HIs06 := (inv_send m K 1 0 6) $$ HR
  ihave #HIs07 := (inv_send m K 1 0 7) $$ HR
  ihave #HIs10 := (inv_send m K 1 1 0) $$ HR
  ihave #HIs12 := (inv_send m K 1 1 2) $$ HR
  ihave #HIs13 := (inv_send m K 1 1 3) $$ HR
  ihave #HIs14 := (inv_send m K 1 1 4) $$ HR
  ihave #HIs15 := (inv_send m K 1 1 5) $$ HR
  ihave #HIs16 := (inv_send m K 1 1 6) $$ HR
  ihave #HIs17 := (inv_send m K 1 1 7) $$ HR
  ihave #HIv00 := (inv_recv m K 1 0 0) $$ HR
  ihave #HIv02 := (inv_recv m K 1 0 2) $$ HR
  ihave #HIv03 := (inv_recv m K 1 0 3) $$ HR
  ihave #HIv04 := (inv_recv m K 1 0 4) $$ HR
  ihave #HIv05 := (inv_recv m K 1 0 5) $$ HR
  ihave #HIv06 := (inv_recv m K 1 0 6) $$ HR
  ihave #HIv07 := (inv_recv m K 1 0 7) $$ HR
  ihave #HIv10 := (inv_recv m K 1 1 0) $$ HR
  ihave #HIv12 := (inv_recv m K 1 1 2) $$ HR
  ihave #HIv13 := (inv_recv m K 1 1 3) $$ HR
  ihave #HIv14 := (inv_recv m K 1 1 4) $$ HR
  ihave #HIv15 := (inv_recv m K 1 1 5) $$ HR
  ihave #HIv16 := (inv_recv m K 1 1 6) $$ HR
  ihave #HIv17 := (inv_recv m K 1 1 7) $$ HR
  ihave #Hrb0 := (reached_bar m K 0) $$ HR
  ihave #Hrb2 := (reached_bar m K 2) $$ HR
  ihave #Hrb3 := (reached_bar m K 3) $$ HR
  ihave #Hrb4 := (reached_bar m K 4) $$ HR
  ihave #Hrb5 := (reached_bar m K 5) $$ HR
  ihave #Hrb6 := (reached_bar m K 6) $$ HR
  ihave #Hrb7 := (reached_bar m K 7) $$ HR
  ihave #Hrr00 := (reached_recv m K 0 0 1) $$ HR
  ihave #Hrr01 := (reached_recv m K 0 1 1) $$ HR
  ihave #Hrr20 := (reached_recv m K 2 0 1) $$ HR
  ihave #Hrr21 := (reached_recv m K 2 1 1) $$ HR
  ihave #Hrr30 := (reached_recv m K 3 0 1) $$ HR
  ihave #Hrr31 := (reached_recv m K 3 1 1) $$ HR
  ihave #Hrr40 := (reached_recv m K 4 0 1) $$ HR
  ihave #Hrr41 := (reached_recv m K 4 1 1) $$ HR
  ihave #Hrr50 := (reached_recv m K 5 0 1) $$ HR
  ihave #Hrr51 := (reached_recv m K 5 1 1) $$ HR
  ihave #Hrr60 := (reached_recv m K 6 0 1) $$ HR
  ihave #Hrr61 := (reached_recv m K 6 1 1) $$ HR
  ihave #Hrr70 := (reached_recv m K 7 0 1) $$ HR
  ihave #Hrr71 := (reached_recv m K 7 1 1) $$ HR
  ihave #Hrs00 := (reached_send m K 1 0 0) $$ HR
  ihave #Hrs02 := (reached_send m K 1 0 2) $$ HR
  ihave #Hrs03 := (reached_send m K 1 0 3) $$ HR
  ihave #Hrs04 := (reached_send m K 1 0 4) $$ HR
  ihave #Hrs05 := (reached_send m K 1 0 5) $$ HR
  ihave #Hrs06 := (reached_send m K 1 0 6) $$ HR
  ihave #Hrs07 := (reached_send m K 1 0 7) $$ HR
  ihave #Hrs10 := (reached_send m K 1 1 0) $$ HR
  ihave #Hrs12 := (reached_send m K 1 1 2) $$ HR
  ihave #Hrs13 := (reached_send m K 1 1 3) $$ HR
  ihave #Hrs14 := (reached_send m K 1 1 4) $$ HR
  ihave #Hrs15 := (reached_send m K 1 1 5) $$ HR
  ihave #Hrs16 := (reached_send m K 1 1 6) $$ HR
  ihave #Hrs17 := (reached_send m K 1 1 7) $$ HR
  -- the diagonal cells' invariants (never used by a copy; closed at the end)
  ihave #HIs01 := (inv_send m K 1 0 1) $$ HR
  ihave #HIs11 := (inv_send m K 1 1 1) $$ HR
  ihave #HIv01 := (inv_recv m K 1 0 1) $$ HR
  ihave #HIv11 := (inv_recv m K 1 1 1) $$ HR
  iclear HR
  rw [cc0_body_eq_skeleton]; unfold cc0_body_skel
  -- the device's own two slots of its table, at their contents
  icases Hc10 with ⟨%fc0, Hc10⟩
  icases Hc11 with ⟨%fc1, Hc11⟩
  -- the seven barrier units, the first half's exponentials and row sums, the barrier wait
  sl_exec_parts
  -- what the barrier brought: the peers' slots for this device; what is still owed, in paying order; the first row in shares
  ihave HO := (owes_pay_1 (F := F) _) $$ HO
  ihave Hp := (Entails.of_eq (erase_chain_1 _)) $$ Hab_pay1
  icases Hp with ⟨⟨⟨%fd00, Hd00⟩, ⟨%fd01, Hd01⟩⟩, ⟨⟨%fd20, Hd20⟩, ⟨%fd21, Hd21⟩⟩, ⟨⟨%fd30, Hd30⟩, ⟨%fd31, Hd31⟩⟩, ⟨⟨%fd40, Hd40⟩, ⟨%fd41, Hd41⟩⟩, ⟨⟨%fd50, Hd50⟩, ⟨%fd51, Hd51⟩⟩, ⟨⟨%fd60, Hd60⟩, ⟨%fd61, Hd61⟩⟩, ⟨⟨%fd70, Hd70⟩, ⟨%fd71, Hd71⟩⟩⟩
  ihave Hm0s : iprop(((mineSl 0).view.loc ((1 : Dev nD) : Thread nD τ) ↦[(mineSl 0).view.set]{shr 0} mineOf (xOf m 1)) ∗ ((mineSl 0).view.loc ((1 : Dev nD) : Thread nD τ) ↦[(mineSl 0).view.set]{shr 1} mineOf (xOf m 1)) ∗ ((mineSl 0).view.loc ((1 : Dev nD) : Thread nD τ) ↦[(mineSl 0).view.set]{shr 2} mineOf (xOf m 1)) ∗ ((mineSl 0).view.loc ((1 : Dev nD) : Thread nD τ) ↦[(mineSl 0).view.set]{shr 3} mineOf (xOf m 1)) ∗ ((mineSl 0).view.loc ((1 : Dev nD) : Thread nD τ) ↦[(mineSl 0).view.set]{shr 4} mineOf (xOf m 1)) ∗ ((mineSl 0).view.loc ((1 : Dev nD) : Thread nD τ) ↦[(mineSl 0).view.set]{shr 5} mineOf (xOf m 1)) ∗ ((mineSl 0).view.loc ((1 : Dev nD) : Thread nD τ) ↦[(mineSl 0).view.set]{shr 6} mineOf (xOf m 1)) ∗ ((mineSl 0).view.loc ((1 : Dev nD) : Thread nD τ) ↦[(mineSl 0).view.set]{shr 7} mineOf (xOf m 1))) $$ [Hm0]
  · iapply (row0_shares (F := F) (1 : Dev nD) (xOf m 1) f0); iexact Hm0
  icases Hm0s with ⟨Hm0_0, Hm0_1, Hm0_2, Hm0_3, Hm0_4, Hm0_5, Hm0_6, Hm0_7⟩
  -- the seven copies of the first row
  iapply (wp_send_slot m _ _ 1 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 1 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 1 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 1 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 1 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 1 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 1 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((1 : Dev nD) : Thread nD τ) ↦[(mineSl 1).view.set]{shr 0} mineOf (xOf m 1)) ∗ ((mineSl 1).view.loc ((1 : Dev nD) : Thread nD τ) ↦[(mineSl 1).view.set]{shr 1} mineOf (xOf m 1)) ∗ ((mineSl 1).view.loc ((1 : Dev nD) : Thread nD τ) ↦[(mineSl 1).view.set]{shr 2} mineOf (xOf m 1)) ∗ ((mineSl 1).view.loc ((1 : Dev nD) : Thread nD τ) ↦[(mineSl 1).view.set]{shr 3} mineOf (xOf m 1)) ∗ ((mineSl 1).view.loc ((1 : Dev nD) : Thread nD τ) ↦[(mineSl 1).view.set]{shr 4} mineOf (xOf m 1)) ∗ ((mineSl 1).view.loc ((1 : Dev nD) : Thread nD τ) ↦[(mineSl 1).view.set]{shr 5} mineOf (xOf m 1)) ∗ ((mineSl 1).view.loc ((1 : Dev nD) : Thread nD τ) ↦[(mineSl 1).view.set]{shr 6} mineOf (xOf m 1)) ∗ ((mineSl 1).view.loc ((1 : Dev nD) : Thread nD τ) ↦[(mineSl 1).view.set]{shr 7} mineOf (xOf m 1))) $$ [Hm1]
  · iapply (row1_shares (F := F) (1 : Dev nD) (xOf m 1) f0); iexact Hm1
  icases Hm1s with ⟨Hm1_0, Hm1_1, Hm1_2, Hm1_3, Hm1_4, Hm1_5, Hm1_6, Hm1_7⟩
  iapply (wp_send_slot m _ _ 1 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 1 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 1 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 1 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 1 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  iapply (wp_send_slot m _ _ 1 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (1 : Dev nD) _ _) $$ HO
  iapply (wp_send_slot m _ _ 1 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 1 0).view.loc ((1 : Dev nD) : Thread nD τ) ↦[(commSl 1 0).view.set]{fullShare} commOf (Xs m)) $$ [Hc10]
  · iapply (own_slot0 (F := F) m (1 : Dev nD) fc0 _); iexact Hc10
  ihave Hh0 : ((halfM 0).view.loc ((1 : Dev nD) : Thread nD τ) ↦[(halfM 0).view.set]{fullShare} commOf (Xs m)) $$ [Hav00_pay1 Hown0 Hav02_pay1 Hav03_pay1 Hav04_pay1 Hav05_pay1 Hav06_pay1 Hav07_pay1]
  · iapply (half_join (F := F) (1 : Dev nD) 0 (commOf (Xs m)))
    isplitl [Hav00_pay1]; · iexact Hav00_pay1
    isplitl [Hown0]; · iexact Hown0
    isplitl [Hav02_pay1]; · iexact Hav02_pay1
    isplitl [Hav03_pay1]; · iexact Hav03_pay1
    isplitl [Hav04_pay1]; · iexact Hav04_pay1
    isplitl [Hav05_pay1]; · iexact Hav05_pay1
    isplitl [Hav06_pay1]; · iexact Hav06_pay1
    iexact Hav07_pay1
  have hsub0a := half_access_sub0
  have hsub0b := half_setOn_sub0
  sl_exec_parts
  -- the second half likewise; then the departures' waits
  ihave Hown1 : ((commSl 1 1).view.loc ((1 : Dev nD) : Thread nD τ) ↦[(commSl 1 1).view.set]{fullShare} commOf (Xs m)) $$ [Hc11]
  · iapply (own_slot1 (F := F) m (1 : Dev nD) fc1 _); iexact Hc11
  ihave Hh1 : ((halfM 1).view.loc ((1 : Dev nD) : Thread nD τ) ↦[(halfM 1).view.set]{fullShare} commOf (Xs m)) $$ [Hav10_pay1 Hown1 Hav12_pay1 Hav13_pay1 Hav14_pay1 Hav15_pay1 Hav16_pay1 Hav17_pay1]
  · iapply (half_join (F := F) (1 : Dev nD) 1 (commOf (Xs m)))
    isplitl [Hav10_pay1]; · iexact Hav10_pay1
    isplitl [Hown1]; · iexact Hown1
    isplitl [Hav12_pay1]; · iexact Hav12_pay1
    isplitl [Hav13_pay1]; · iexact Hav13_pay1
    isplitl [Hav14_pay1]; · iexact Hav14_pay1
    isplitl [Hav15_pay1]; · iexact Hav15_pay1
    isplitl [Hav16_pay1]; · iexact Hav16_pay1
    iexact Hav17_pay1
  have hsub1a := half_access_sub1
  have hsub1b := half_setOn_sub1
  sl_exec_parts
  -- the cells closed
  imod (close_send m _ 1 0 0 1 (.inr le_rfl)) $$ [Has00] with Hzs00
  · isplitr; · iexact HIs00
    iexact Has00
  imod (close_send m _ 1 0 1 0 (.inl rfl)) $$ [Has01] with Hzs01
  · isplitr; · iexact HIs01
    iexact Has01
  imod (close_send m _ 1 0 2 1 (.inr le_rfl)) $$ [Has02] with Hzs02
  · isplitr; · iexact HIs02
    iexact Has02
  imod (close_send m _ 1 0 3 1 (.inr le_rfl)) $$ [Has03] with Hzs03
  · isplitr; · iexact HIs03
    iexact Has03
  imod (close_send m _ 1 0 4 1 (.inr le_rfl)) $$ [Has04] with Hzs04
  · isplitr; · iexact HIs04
    iexact Has04
  imod (close_send m _ 1 0 5 1 (.inr le_rfl)) $$ [Has05] with Hzs05
  · isplitr; · iexact HIs05
    iexact Has05
  imod (close_send m _ 1 0 6 1 (.inr le_rfl)) $$ [Has06] with Hzs06
  · isplitr; · iexact HIs06
    iexact Has06
  imod (close_send m _ 1 0 7 1 (.inr le_rfl)) $$ [Has07] with Hzs07
  · isplitr; · iexact HIs07
    iexact Has07
  imod (close_send m _ 1 1 0 1 (.inr le_rfl)) $$ [Has10] with Hzs10
  · isplitr; · iexact HIs10
    iexact Has10
  imod (close_send m _ 1 1 1 0 (.inl rfl)) $$ [Has11] with Hzs11
  · isplitr; · iexact HIs11
    iexact Has11
  imod (close_send m _ 1 1 2 1 (.inr le_rfl)) $$ [Has12] with Hzs12
  · isplitr; · iexact HIs12
    iexact Has12
  imod (close_send m _ 1 1 3 1 (.inr le_rfl)) $$ [Has13] with Hzs13
  · isplitr; · iexact HIs13
    iexact Has13
  imod (close_send m _ 1 1 4 1 (.inr le_rfl)) $$ [Has14] with Hzs14
  · isplitr; · iexact HIs14
    iexact Has14
  imod (close_send m _ 1 1 5 1 (.inr le_rfl)) $$ [Has15] with Hzs15
  · isplitr; · iexact HIs15
    iexact Has15
  imod (close_send m _ 1 1 6 1 (.inr le_rfl)) $$ [Has16] with Hzs16
  · isplitr; · iexact HIs16
    iexact Has16
  imod (close_send m _ 1 1 7 1 (.inr le_rfl)) $$ [Has17] with Hzs17
  · isplitr; · iexact HIs17
    iexact Has17
  imod (close_recv m _ 1 0 0 1 (.inr le_rfl)) $$ [Hav00] with Hzv00
  · isplitr; · iexact HIv00
    iexact Hav00
  imod (close_recv m _ 1 0 1 0 (.inl rfl)) $$ [Hav01] with Hzv01
  · isplitr; · iexact HIv01
    iexact Hav01
  imod (close_recv m _ 1 0 2 1 (.inr le_rfl)) $$ [Hav02] with Hzv02
  · isplitr; · iexact HIv02
    iexact Hav02
  imod (close_recv m _ 1 0 3 1 (.inr le_rfl)) $$ [Hav03] with Hzv03
  · isplitr; · iexact HIv03
    iexact Hav03
  imod (close_recv m _ 1 0 4 1 (.inr le_rfl)) $$ [Hav04] with Hzv04
  · isplitr; · iexact HIv04
    iexact Hav04
  imod (close_recv m _ 1 0 5 1 (.inr le_rfl)) $$ [Hav05] with Hzv05
  · isplitr; · iexact HIv05
    iexact Hav05
  imod (close_recv m _ 1 0 6 1 (.inr le_rfl)) $$ [Hav06] with Hzv06
  · isplitr; · iexact HIv06
    iexact Hav06
  imod (close_recv m _ 1 0 7 1 (.inr le_rfl)) $$ [Hav07] with Hzv07
  · isplitr; · iexact HIv07
    iexact Hav07
  imod (close_recv m _ 1 1 0 1 (.inr le_rfl)) $$ [Hav10] with Hzv10
  · isplitr; · iexact HIv10
    iexact Hav10
  imod (close_recv m _ 1 1 1 0 (.inl rfl)) $$ [Hav11] with Hzv11
  · isplitr; · iexact HIv11
    iexact Hav11
  imod (close_recv m _ 1 1 2 1 (.inr le_rfl)) $$ [Hav12] with Hzv12
  · isplitr; · iexact HIv12
    iexact Hav12
  imod (close_recv m _ 1 1 3 1 (.inr le_rfl)) $$ [Hav13] with Hzv13
  · isplitr; · iexact HIv13
    iexact Hav13
  imod (close_recv m _ 1 1 4 1 (.inr le_rfl)) $$ [Hav14] with Hzv14
  · isplitr; · iexact HIv14
    iexact Hav14
  imod (close_recv m _ 1 1 5 1 (.inr le_rfl)) $$ [Hav15] with Hzv15
  · isplitr; · iexact HIv15
    iexact Hav15
  imod (close_recv m _ 1 1 6 1 (.inr le_rfl)) $$ [Hav16] with Hzv16
  · isplitr; · iexact HIv16
    iexact Hav16
  imod (close_recv m _ 1 1 7 1 (.inr le_rfl)) $$ [Hav17] with Hzv17
  · isplitr; · iexact HIv17
    iexact Hav17
  -- the two tables whole again
  ihave Hrow0 : ((mineSl 0).view.loc ((1 : Dev nD) : Thread nD τ) ↦[(mineSl 0).view.set]{fullShare} mineOf (xOf m 1)) $$ [Has00_pay1 Hm0_1 Has02_pay1 Has03_pay1 Has04_pay1 Has05_pay1 Has06_pay1 Has07_pay1]
  · iapply (row_rejoin (F := F) (1 : Dev nD) 0 (xOf m 1))
    isplitl [Has00_pay1]; · iexact Has00_pay1
    isplitl [Hm0_1]; · iexact Hm0_1
    isplitl [Has02_pay1]; · iexact Has02_pay1
    isplitl [Has03_pay1]; · iexact Has03_pay1
    isplitl [Has04_pay1]; · iexact Has04_pay1
    isplitl [Has05_pay1]; · iexact Has05_pay1
    isplitl [Has06_pay1]; · iexact Has06_pay1
    iexact Has07_pay1
  ihave Hrow1 : ((mineSl 1).view.loc ((1 : Dev nD) : Thread nD τ) ↦[(mineSl 1).view.set]{fullShare} mineOf (xOf m 1)) $$ [Has10_pay1 Hm1_1 Has12_pay1 Has13_pay1 Has14_pay1 Has15_pay1 Has16_pay1 Has17_pay1]
  · iapply (row_rejoin (F := F) (1 : Dev nD) 1 (xOf m 1))
    isplitl [Has10_pay1]; · iexact Has10_pay1
    isplitl [Hm1_1]; · iexact Hm1_1
    isplitl [Has12_pay1]; · iexact Has12_pay1
    isplitl [Has13_pay1]; · iexact Has13_pay1
    isplitl [Has14_pay1]; · iexact Has14_pay1
    isplitl [Has15_pay1]; · iexact Has15_pay1
    isplitl [Has16_pay1]; · iexact Has16_pay1
    iexact Has17_pay1
  ihave Hmine := (mine_join (F := F) (1 : Dev nD) (mineOf (xOf m 1))) $$ [Hrow0 Hrow1]
  · isplitl [Hrow0]; · iexact Hrow0
    iexact Hrow1
  ihave Hcomm := (halves_join (F := F) (1 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((1 : Dev nD) : Thread nD τ) ↦[(oM : Memref sig .tc .vmem S1024x1024 .bf16).view.set]{fullShare} outOf (fun q => xOf m q) 1) $$ [Ho]
  · have hT : body_1.sl.r_2 m = oTop (fun q => xOf m q) (1 : Dev nD) := by
      sl_unfold_run_names
      exact congrArg₂ k0_pay10 rfl (readCov_top _ _ _)
    have hB : k0_pay13 (body_1.sl.r_3 m) k0_pay12 (body_1.sl.v183 m) = oBot (fun q => xOf m q) (1 : Dev nD) := by
      sl_unfold_run_names
      exact congrArg₂ (fun a b => k0_pay13 (k0_pay11 a) k0_pay12 b) rfl (readCov_bot _ _ _ _)
    iapply (out_settle (F := F) m (1 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.Kernel.Sm

end
-- ==== Proof.W.Body2.lean ====
/-
  The kernel body on device 2, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.W.BodyWrap
import proofs.«901053_g7700000000001054_dist_softmax_colshard_i_m1024_n1024_v7x_i8_bf16_1_alg».proof.Proof.W.BodyPieces
import proofs.«901053_g7700000000001054_dist_softmax_colshard_i_m1024_n1024_v7x_i8_bf16_1_alg».proof.Proof.W.OpenKit
import proofs.«901053_g7700000000001054_dist_softmax_colshard_i_m1024_n1024_v7x_i8_bf16_1_alg».proof.Proof.W.Canon
import proofs.«901053_g7700000000001054_dist_softmax_colshard_i_m1024_n1024_v7x_i8_bf16_1_alg».proof.Proof.W.SendRule
import proofs.«901053_g7700000000001054_dist_softmax_colshard_i_m1024_n1024_v7x_i8_bf16_1_alg».proof.Proof.W.BodyEnd
import proofs.«901053_g7700000000001054_dist_softmax_colshard_i_m1024_n1024_v7x_i8_bf16_1_alg».proof.Proof.W.Glue3
import proofs.«901053_g7700000000001054_dist_softmax_colshard_i_m1024_n1024_v7x_i8_bf16_1_alg».proof.Proof.W.OutFinal

noncomputable section

namespace Cert.Kernel.Sm

set_option maxRecDepth 8000

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_2 (K : Dev nD × Fin 33 → ℕ) (W : Waits sig Unit) (Kt : PUnit → sProp 𝕄) :
    iprop(bodyPreE m K 2 W ∗ (bodyPostE m 2 -∗ Kt ⟨⟩))
      ⊢ wp frame (wpE (defs₀ (F := F)) 𝒱₀ ((2 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((2 : Dev nD) : Thread nD τ) (.reg barS) () (recvOwed 2) := mayWait_recvOwed 2
  -- the precondition taken apart
  unfold bodyPreE ghost linear creds scratches
  rw [erase_chain_2, erase_chain_2, pos_chain, O₀_chain_2]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb3, Htr30, Htr31, Hts03, Hts13⟩, ⟨Htb4, Htr40, Htr41, Hts04, Hts14⟩, ⟨Htb5, Htr50, Htr51, Hts05, Hts15⟩, ⟨Htb6, Htr60, Htr61, Hts06, Hts16⟩, ⟨Htb7, Htr70, Htr71, Hts07, Hts17⟩⟩⟩,
    ⟨Hcb, ⟨Hcv00, Hcv10⟩, ⟨Hcv01, Hcv11⟩, ⟨Hcv03, Hcv13⟩, ⟨Hcv04, Hcv14⟩, ⟨Hcv05, Hcv15⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 2 f0) $$ Hm
  icases Hm' with ⟨Hm0, Hm1⟩
  ihave Hc' := (comm_split_ex (F := F) 2) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 2) $$ HR
  ihave #HIr01 := (inv_recv m K 0 1 2) $$ HR
  ihave #HIr10 := (inv_recv m K 1 0 2) $$ HR
  ihave #HIr11 := (inv_recv m K 1 1 2) $$ HR
  ihave #HIr30 := (inv_recv m K 3 0 2) $$ HR
  ihave #HIr31 := (inv_recv m K 3 1 2) $$ HR
  ihave #HIr40 := (inv_recv m K 4 0 2) $$ HR
  ihave #HIr41 := (inv_recv m K 4 1 2) $$ HR
  ihave #HIr50 := (inv_recv m K 5 0 2) $$ HR
  ihave #HIr51 := (inv_recv m K 5 1 2) $$ HR
  ihave #HIr60 := (inv_recv m K 6 0 2) $$ HR
  ihave #HIr61 := (inv_recv m K 6 1 2) $$ HR
  ihave #HIr70 := (inv_recv m K 7 0 2) $$ HR
  ihave #HIr71 := (inv_recv m K 7 1 2) $$ HR
  ihave #HIs00 := (inv_send m K 2 0 0) $$ HR
  ihave #HIs01 := (inv_send m K 2 0 1) $$ HR
  ihave #HIs03 := (inv_send m K 2 0 3) $$ HR
  ihave #HIs04 := (inv_send m K 2 0 4) $$ HR
  ihave #HIs05 := (inv_send m K 2 0 5) $$ HR
  ihave #HIs06 := (inv_send m K 2 0 6) $$ HR
  ihave #HIs07 := (inv_send m K 2 0 7) $$ HR
  ihave #HIs10 := (inv_send m K 2 1 0) $$ HR
  ihave #HIs11 := (inv_send m K 2 1 1) $$ HR
  ihave #HIs13 := (inv_send m K 2 1 3) $$ HR
  ihave #HIs14 := (inv_send m K 2 1 4) $$ HR
  ihave #HIs15 := (inv_send m K 2 1 5) $$ HR
  ihave #HIs16 := (inv_send m K 2 1 6) $$ HR
  ihave #HIs17 := (inv_send m K 2 1 7) $$ HR
  ihave #HIv00 := (inv_recv m K 2 0 0) $$ HR
  ihave #HIv01 := (inv_recv m K 2 0 1) $$ HR
  ihave #HIv03 := (inv_recv m K 2 0 3) $$ HR
  ihave #HIv04 := (inv_recv m K 2 0 4) $$ HR
  ihave #HIv05 := (inv_recv m K 2 0 5) $$ HR
  ihave #HIv06 := (inv_recv m K 2 0 6) $$ HR
  ihave #HIv07 := (inv_recv m K 2 0 7) $$ HR
  ihave #HIv10 := (inv_recv m K 2 1 0) $$ HR
  ihave #HIv11 := (inv_recv m K 2 1 1) $$ HR
  ihave #HIv13 := (inv_recv m K 2 1 3) $$ HR
  ihave #HIv14 := (inv_recv m K 2 1 4) $$ HR
  ihave #HIv15 := (inv_recv m K 2 1 5) $$ HR
  ihave #HIv16 := (inv_recv m K 2 1 6) $$ HR
  ihave #HIv17 := (inv_recv m K 2 1 7) $$ HR
  ihave #Hrb0 := (reached_bar m K 0) $$ HR
  ihave #Hrb1 := (reached_bar m K 1) $$ HR
  ihave #Hrb3 := (reached_bar m K 3) $$ HR
  ihave #Hrb4 := (reached_bar m K 4) $$ HR
  ihave #Hrb5 := (reached_bar m K 5) $$ HR
  ihave #Hrb6 := (reached_bar m K 6) $$ HR
  ihave #Hrb7 := (reached_bar m K 7) $$ HR
  ihave #Hrr00 := (reached_recv m K 0 0 2) $$ HR
  ihave #Hrr01 := (reached_recv m K 0 1 2) $$ HR
  ihave #Hrr10 := (reached_recv m K 1 0 2) $$ HR
  ihave #Hrr11 := (reached_recv m K 1 1 2) $$ HR
  ihave #Hrr30 := (reached_recv m K 3 0 2) $$ HR
  ihave #Hrr31 := (reached_recv m K 3 1 2) $$ HR
  ihave #Hrr40 := (reached_recv m K 4 0 2) $$ HR
  ihave #Hrr41 := (reached_recv m K 4 1 2) $$ HR
  ihave #Hrr50 := (reached_recv m K 5 0 2) $$ HR
  ihave #Hrr51 := (reached_recv m K 5 1 2) $$ HR
  ihave #Hrr60 := (reached_recv m K 6 0 2) $$ HR
  ihave #Hrr61 := (reached_recv m K 6 1 2) $$ HR
  ihave #Hrr70 := (reached_recv m K 7 0 2) $$ HR
  ihave #Hrr71 := (reached_recv m K 7 1 2) $$ HR
  ihave #Hrs00 := (reached_send m K 2 0 0) $$ HR
  ihave #Hrs01 := (reached_send m K 2 0 1) $$ HR
  ihave #Hrs03 := (reached_send m K 2 0 3) $$ HR
  ihave #Hrs04 := (reached_send m K 2 0 4) $$ HR
  ihave #Hrs05 := (reached_send m K 2 0 5) $$ HR
  ihave #Hrs06 := (reached_send m K 2 0 6) $$ HR
  ihave #Hrs07 := (reached_send m K 2 0 7) $$ HR
  ihave #Hrs10 := (reached_send m K 2 1 0) $$ HR
  ihave #Hrs11 := (reached_send m K 2 1 1) $$ HR
  ihave #Hrs13 := (reached_send m K 2 1 3) $$ HR
  ihave #Hrs14 := (reached_send m K 2 1 4) $$ HR
  ihave #Hrs15 := (reached_send m K 2 1 5) $$ HR
  ihave #Hrs16 := (reached_send m K 2 1 6) $$ HR
  ihave #Hrs17 := (reached_send m K 2 1 7) $$ HR
  -- the diagonal cells' invariants (never used by a copy; closed at the end)
  ihave #HIs02 := (inv_send m K 2 0 2) $$ HR
  ihave #HIs12 := (inv_send m K 2 1 2) $$ HR
  ihave #HIv02 := (inv_recv m K 2 0 2) $$ HR
  ihave #HIv12 := (inv_recv m K 2 1 2) $$ HR
  iclear HR
  rw [cc0_body_eq_skeleton]; unfold cc0_body_skel
  -- the device's own two slots of its table, at their contents
  icases Hc20 with ⟨%fc0, Hc20⟩
  icases Hc21 with ⟨%fc1, Hc21⟩
  -- the seven barrier units, the first half's exponentials and row sums, the barrier wait
  sl_exec_parts
  -- what the barrier brought: the peers' slots for this device; what is still owed, in paying order; the first row in shares
  ihave HO := (owes_pay_2 (F := F) _) $$ HO
  ihave Hp := (Entails.of_eq (erase_chain_2 _)) $$ Hab_pay1
  icases Hp with ⟨⟨⟨%fd00, Hd00⟩, ⟨%fd01, Hd01⟩⟩, ⟨⟨%fd10, Hd10⟩, ⟨%fd11, Hd11⟩⟩, ⟨⟨%fd30, Hd30⟩, ⟨%fd31, Hd31⟩⟩, ⟨⟨%fd40, Hd40⟩, ⟨%fd41, Hd41⟩⟩, ⟨⟨%fd50, Hd50⟩, ⟨%fd51, Hd51⟩⟩, ⟨⟨%fd60, Hd60⟩, ⟨%fd61, Hd61⟩⟩, ⟨⟨%fd70, Hd70⟩, ⟨%fd71, Hd71⟩⟩⟩
  ihave Hm0s : iprop(((mineSl 0).view.loc ((2 : Dev nD) : Thread nD τ) ↦[(mineSl 0).view.set]{shr 0} mineOf (xOf m 2)) ∗ ((mineSl 0).view.loc ((2 : Dev nD) : Thread nD τ) ↦[(mineSl 0).view.set]{shr 1} mineOf (xOf m 2)) ∗ ((mineSl 0).view.loc ((2 : Dev nD) : Thread nD τ) ↦[(mineSl 0).view.set]{shr 2} mineOf (xOf m 2)) ∗ ((mineSl 0).view.loc ((2 : Dev nD) : Thread nD τ) ↦[(mineSl 0).view.set]{shr 3} mineOf (xOf m 2)) ∗ ((mineSl 0).view.loc ((2 : Dev nD) : Thread nD τ) ↦[(mineSl 0).view.set]{shr 4} mineOf (xOf m 2)) ∗ ((mineSl 0).view.loc ((2 : Dev nD) : Thread nD τ) ↦[(mineSl 0).view.set]{shr 5} mineOf (xOf m 2)) ∗ ((mineSl 0).view.loc ((2 : Dev nD) : Thread nD τ) ↦[(mineSl 0).view.set]{shr 6} mineOf (xOf m 2)) ∗ ((mineSl 0).view.loc ((2 : Dev nD) : Thread nD τ) ↦[(mineSl 0).view.set]{shr 7} mineOf (xOf m 2))) $$ [Hm0]
  · iapply (row0_shares (F := F) (2 : Dev nD) (xOf m 2) f0); iexact Hm0
  icases Hm0s with ⟨Hm0_0, Hm0_1, Hm0_2, Hm0_3, Hm0_4, Hm0_5, Hm0_6, Hm0_7⟩
  -- the seven copies of the first row
  iapply (wp_send_slot m _ _ 2 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 2 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 2 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 2 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 2 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 2 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 2 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((2 : Dev nD) : Thread nD τ) ↦[(mineSl 1).view.set]{shr 0} mineOf (xOf m 2)) ∗ ((mineSl 1).view.loc ((2 : Dev nD) : Thread nD τ) ↦[(mineSl 1).view.set]{shr 1} mineOf (xOf m 2)) ∗ ((mineSl 1).view.loc ((2 : Dev nD) : Thread nD τ) ↦[(mineSl 1).view.set]{shr 2} mineOf (xOf m 2)) ∗ ((mineSl 1).view.loc ((2 : Dev nD) : Thread nD τ) ↦[(mineSl 1).view.set]{shr 3} mineOf (xOf m 2)) ∗ ((mineSl 1).view.loc ((2 : Dev nD) : Thread nD τ) ↦[(mineSl 1).view.set]{shr 4} mineOf (xOf m 2)) ∗ ((mineSl 1).view.loc ((2 : Dev nD) : Thread nD τ) ↦[(mineSl 1).view.set]{shr 5} mineOf (xOf m 2)) ∗ ((mineSl 1).view.loc ((2 : Dev nD) : Thread nD τ) ↦[(mineSl 1).view.set]{shr 6} mineOf (xOf m 2)) ∗ ((mineSl 1).view.loc ((2 : Dev nD) : Thread nD τ) ↦[(mineSl 1).view.set]{shr 7} mineOf (xOf m 2))) $$ [Hm1]
  · iapply (row1_shares (F := F) (2 : Dev nD) (xOf m 2) f0); iexact Hm1
  icases Hm1s with ⟨Hm1_0, Hm1_1, Hm1_2, Hm1_3, Hm1_4, Hm1_5, Hm1_6, Hm1_7⟩
  iapply (wp_send_slot m _ _ 2 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 2 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 2 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 2 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 2 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  iapply (wp_send_slot m _ _ 2 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (2 : Dev nD) _ _) $$ HO
  iapply (wp_send_slot m _ _ 2 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 2 0).view.loc ((2 : Dev nD) : Thread nD τ) ↦[(commSl 2 0).view.set]{fullShare} commOf (Xs m)) $$ [Hc20]
  · iapply (own_slot0 (F := F) m (2 : Dev nD) fc0 _); iexact Hc20
  ihave Hh0 : ((halfM 0).view.loc ((2 : Dev nD) : Thread nD τ) ↦[(halfM 0).view.set]{fullShare} commOf (Xs m)) $$ [Hav00_pay1 Hav01_pay1 Hown0 Hav03_pay1 Hav04_pay1 Hav05_pay1 Hav06_pay1 Hav07_pay1]
  · iapply (half_join (F := F) (2 : Dev nD) 0 (commOf (Xs m)))
    isplitl [Hav00_pay1]; · iexact Hav00_pay1
    isplitl [Hav01_pay1]; · iexact Hav01_pay1
    isplitl [Hown0]; · iexact Hown0
    isplitl [Hav03_pay1]; · iexact Hav03_pay1
    isplitl [Hav04_pay1]; · iexact Hav04_pay1
    isplitl [Hav05_pay1]; · iexact Hav05_pay1
    isplitl [Hav06_pay1]; · iexact Hav06_pay1
    iexact Hav07_pay1
  have hsub0a := half_access_sub0
  have hsub0b := half_setOn_sub0
  sl_exec_parts
  -- the second half likewise; then the departures' waits
  ihave Hown1 : ((commSl 2 1).view.loc ((2 : Dev nD) : Thread nD τ) ↦[(commSl 2 1).view.set]{fullShare} commOf (Xs m)) $$ [Hc21]
  · iapply (own_slot1 (F := F) m (2 : Dev nD) fc1 _); iexact Hc21
  ihave Hh1 : ((halfM 1).view.loc ((2 : Dev nD) : Thread nD τ) ↦[(halfM 1).view.set]{fullShare} commOf (Xs m)) $$ [Hav10_pay1 Hav11_pay1 Hown1 Hav13_pay1 Hav14_pay1 Hav15_pay1 Hav16_pay1 Hav17_pay1]
  · iapply (half_join (F := F) (2 : Dev nD) 1 (commOf (Xs m)))
    isplitl [Hav10_pay1]; · iexact Hav10_pay1
    isplitl [Hav11_pay1]; · iexact Hav11_pay1
    isplitl [Hown1]; · iexact Hown1
    isplitl [Hav13_pay1]; · iexact Hav13_pay1
    isplitl [Hav14_pay1]; · iexact Hav14_pay1
    isplitl [Hav15_pay1]; · iexact Hav15_pay1
    isplitl [Hav16_pay1]; · iexact Hav16_pay1
    iexact Hav17_pay1
  have hsub1a := half_access_sub1
  have hsub1b := half_setOn_sub1
  sl_exec_parts
  -- the cells closed
  imod (close_send m _ 2 0 0 1 (.inr le_rfl)) $$ [Has00] with Hzs00
  · isplitr; · iexact HIs00
    iexact Has00
  imod (close_send m _ 2 0 1 1 (.inr le_rfl)) $$ [Has01] with Hzs01
  · isplitr; · iexact HIs01
    iexact Has01
  imod (close_send m _ 2 0 2 0 (.inl rfl)) $$ [Has02] with Hzs02
  · isplitr; · iexact HIs02
    iexact Has02
  imod (close_send m _ 2 0 3 1 (.inr le_rfl)) $$ [Has03] with Hzs03
  · isplitr; · iexact HIs03
    iexact Has03
  imod (close_send m _ 2 0 4 1 (.inr le_rfl)) $$ [Has04] with Hzs04
  · isplitr; · iexact HIs04
    iexact Has04
  imod (close_send m _ 2 0 5 1 (.inr le_rfl)) $$ [Has05] with Hzs05
  · isplitr; · iexact HIs05
    iexact Has05
  imod (close_send m _ 2 0 6 1 (.inr le_rfl)) $$ [Has06] with Hzs06
  · isplitr; · iexact HIs06
    iexact Has06
  imod (close_send m _ 2 0 7 1 (.inr le_rfl)) $$ [Has07] with Hzs07
  · isplitr; · iexact HIs07
    iexact Has07
  imod (close_send m _ 2 1 0 1 (.inr le_rfl)) $$ [Has10] with Hzs10
  · isplitr; · iexact HIs10
    iexact Has10
  imod (close_send m _ 2 1 1 1 (.inr le_rfl)) $$ [Has11] with Hzs11
  · isplitr; · iexact HIs11
    iexact Has11
  imod (close_send m _ 2 1 2 0 (.inl rfl)) $$ [Has12] with Hzs12
  · isplitr; · iexact HIs12
    iexact Has12
  imod (close_send m _ 2 1 3 1 (.inr le_rfl)) $$ [Has13] with Hzs13
  · isplitr; · iexact HIs13
    iexact Has13
  imod (close_send m _ 2 1 4 1 (.inr le_rfl)) $$ [Has14] with Hzs14
  · isplitr; · iexact HIs14
    iexact Has14
  imod (close_send m _ 2 1 5 1 (.inr le_rfl)) $$ [Has15] with Hzs15
  · isplitr; · iexact HIs15
    iexact Has15
  imod (close_send m _ 2 1 6 1 (.inr le_rfl)) $$ [Has16] with Hzs16
  · isplitr; · iexact HIs16
    iexact Has16
  imod (close_send m _ 2 1 7 1 (.inr le_rfl)) $$ [Has17] with Hzs17
  · isplitr; · iexact HIs17
    iexact Has17
  imod (close_recv m _ 2 0 0 1 (.inr le_rfl)) $$ [Hav00] with Hzv00
  · isplitr; · iexact HIv00
    iexact Hav00
  imod (close_recv m _ 2 0 1 1 (.inr le_rfl)) $$ [Hav01] with Hzv01
  · isplitr; · iexact HIv01
    iexact Hav01
  imod (close_recv m _ 2 0 2 0 (.inl rfl)) $$ [Hav02] with Hzv02
  · isplitr; · iexact HIv02
    iexact Hav02
  imod (close_recv m _ 2 0 3 1 (.inr le_rfl)) $$ [Hav03] with Hzv03
  · isplitr; · iexact HIv03
    iexact Hav03
  imod (close_recv m _ 2 0 4 1 (.inr le_rfl)) $$ [Hav04] with Hzv04
  · isplitr; · iexact HIv04
    iexact Hav04
  imod (close_recv m _ 2 0 5 1 (.inr le_rfl)) $$ [Hav05] with Hzv05
  · isplitr; · iexact HIv05
    iexact Hav05
  imod (close_recv m _ 2 0 6 1 (.inr le_rfl)) $$ [Hav06] with Hzv06
  · isplitr; · iexact HIv06
    iexact Hav06
  imod (close_recv m _ 2 0 7 1 (.inr le_rfl)) $$ [Hav07] with Hzv07
  · isplitr; · iexact HIv07
    iexact Hav07
  imod (close_recv m _ 2 1 0 1 (.inr le_rfl)) $$ [Hav10] with Hzv10
  · isplitr; · iexact HIv10
    iexact Hav10
  imod (close_recv m _ 2 1 1 1 (.inr le_rfl)) $$ [Hav11] with Hzv11
  · isplitr; · iexact HIv11
    iexact Hav11
  imod (close_recv m _ 2 1 2 0 (.inl rfl)) $$ [Hav12] with Hzv12
  · isplitr; · iexact HIv12
    iexact Hav12
  imod (close_recv m _ 2 1 3 1 (.inr le_rfl)) $$ [Hav13] with Hzv13
  · isplitr; · iexact HIv13
    iexact Hav13
  imod (close_recv m _ 2 1 4 1 (.inr le_rfl)) $$ [Hav14] with Hzv14
  · isplitr; · iexact HIv14
    iexact Hav14
  imod (close_recv m _ 2 1 5 1 (.inr le_rfl)) $$ [Hav15] with Hzv15
  · isplitr; · iexact HIv15
    iexact Hav15
  imod (close_recv m _ 2 1 6 1 (.inr le_rfl)) $$ [Hav16] with Hzv16
  · isplitr; · iexact HIv16
    iexact Hav16
  imod (close_recv m _ 2 1 7 1 (.inr le_rfl)) $$ [Hav17] with Hzv17
  · isplitr; · iexact HIv17
    iexact Hav17
  -- the two tables whole again
  ihave Hrow0 : ((mineSl 0).view.loc ((2 : Dev nD) : Thread nD τ) ↦[(mineSl 0).view.set]{fullShare} mineOf (xOf m 2)) $$ [Has00_pay1 Has01_pay1 Hm0_2 Has03_pay1 Has04_pay1 Has05_pay1 Has06_pay1 Has07_pay1]
  · iapply (row_rejoin (F := F) (2 : Dev nD) 0 (xOf m 2))
    isplitl [Has00_pay1]; · iexact Has00_pay1
    isplitl [Has01_pay1]; · iexact Has01_pay1
    isplitl [Hm0_2]; · iexact Hm0_2
    isplitl [Has03_pay1]; · iexact Has03_pay1
    isplitl [Has04_pay1]; · iexact Has04_pay1
    isplitl [Has05_pay1]; · iexact Has05_pay1
    isplitl [Has06_pay1]; · iexact Has06_pay1
    iexact Has07_pay1
  ihave Hrow1 : ((mineSl 1).view.loc ((2 : Dev nD) : Thread nD τ) ↦[(mineSl 1).view.set]{fullShare} mineOf (xOf m 2)) $$ [Has10_pay1 Has11_pay1 Hm1_2 Has13_pay1 Has14_pay1 Has15_pay1 Has16_pay1 Has17_pay1]
  · iapply (row_rejoin (F := F) (2 : Dev nD) 1 (xOf m 2))
    isplitl [Has10_pay1]; · iexact Has10_pay1
    isplitl [Has11_pay1]; · iexact Has11_pay1
    isplitl [Hm1_2]; · iexact Hm1_2
    isplitl [Has13_pay1]; · iexact Has13_pay1
    isplitl [Has14_pay1]; · iexact Has14_pay1
    isplitl [Has15_pay1]; · iexact Has15_pay1
    isplitl [Has16_pay1]; · iexact Has16_pay1
    iexact Has17_pay1
  ihave Hmine := (mine_join (F := F) (2 : Dev nD) (mineOf (xOf m 2))) $$ [Hrow0 Hrow1]
  · isplitl [Hrow0]; · iexact Hrow0
    iexact Hrow1
  ihave Hcomm := (halves_join (F := F) (2 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((2 : Dev nD) : Thread nD τ) ↦[(oM : Memref sig .tc .vmem S1024x1024 .bf16).view.set]{fullShare} outOf (fun q => xOf m q) 2) $$ [Ho]
  · have hT : body_2.sl.r_2 m = oTop (fun q => xOf m q) (2 : Dev nD) := by
      sl_unfold_run_names
      exact congrArg₂ k0_pay10 rfl (readCov_top _ _ _)
    have hB : k0_pay13 (body_2.sl.r_3 m) k0_pay12 (body_2.sl.v183 m) = oBot (fun q => xOf m q) (2 : Dev nD) := by
      sl_unfold_run_names
      exact congrArg₂ (fun a b => k0_pay13 (k0_pay11 a) k0_pay12 b) rfl (readCov_bot _ _ _ _)
    iapply (out_settle (F := F) m (2 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.Kernel.Sm

end
-- ==== Proof.W.Body3.lean ====
/-
  The kernel body on device 3, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.W.BodyWrap
import proofs.«901053_g7700000000001054_dist_softmax_colshard_i_m1024_n1024_v7x_i8_bf16_1_alg».proof.Proof.W.BodyPieces
import proofs.«901053_g7700000000001054_dist_softmax_colshard_i_m1024_n1024_v7x_i8_bf16_1_alg».proof.Proof.W.OpenKit
import proofs.«901053_g7700000000001054_dist_softmax_colshard_i_m1024_n1024_v7x_i8_bf16_1_alg».proof.Proof.W.Canon
import proofs.«901053_g7700000000001054_dist_softmax_colshard_i_m1024_n1024_v7x_i8_bf16_1_alg».proof.Proof.W.SendRule
import proofs.«901053_g7700000000001054_dist_softmax_colshard_i_m1024_n1024_v7x_i8_bf16_1_alg».proof.Proof.W.BodyEnd
import proofs.«901053_g7700000000001054_dist_softmax_colshard_i_m1024_n1024_v7x_i8_bf16_1_alg».proof.Proof.W.Glue3
import proofs.«901053_g7700000000001054_dist_softmax_colshard_i_m1024_n1024_v7x_i8_bf16_1_alg».proof.Proof.W.OutFinal

noncomputable section

namespace Cert.Kernel.Sm

set_option maxRecDepth 8000

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_3 (K : Dev nD × Fin 33 → ℕ) (W : Waits sig Unit) (Kt : PUnit → sProp 𝕄) :
    iprop(bodyPreE m K 3 W ∗ (bodyPostE m 3 -∗ Kt ⟨⟩))
      ⊢ wp frame (wpE (defs₀ (F := F)) 𝒱₀ ((3 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((3 : Dev nD) : Thread nD τ) (.reg barS) () (recvOwed 3) := mayWait_recvOwed 3
  -- the precondition taken apart
  unfold bodyPreE ghost linear creds scratches
  rw [erase_chain_3, erase_chain_3, pos_chain, O₀_chain_3]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb2, Htr20, Htr21, Hts02, Hts12⟩, ⟨Htb4, Htr40, Htr41, Hts04, Hts14⟩, ⟨Htb5, Htr50, Htr51, Hts05, Hts15⟩, ⟨Htb6, Htr60, Htr61, Hts06, Hts16⟩, ⟨Htb7, Htr70, Htr71, Hts07, Hts17⟩⟩⟩,
    ⟨Hcb, ⟨Hcv00, Hcv10⟩, ⟨Hcv01, Hcv11⟩, ⟨Hcv02, Hcv12⟩, ⟨Hcv04, Hcv14⟩, ⟨Hcv05, Hcv15⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 3 f0) $$ Hm
  icases Hm' with ⟨Hm0, Hm1⟩
  ihave Hc' := (comm_split_ex (F := F) 3) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 3) $$ HR
  ihave #HIr01 := (inv_recv m K 0 1 3) $$ HR
  ihave #HIr10 := (inv_recv m K 1 0 3) $$ HR
  ihave #HIr11 := (inv_recv m K 1 1 3) $$ HR
  ihave #HIr20 := (inv_recv m K 2 0 3) $$ HR
  ihave #HIr21 := (inv_recv m K 2 1 3) $$ HR
  ihave #HIr40 := (inv_recv m K 4 0 3) $$ HR
  ihave #HIr41 := (inv_recv m K 4 1 3) $$ HR
  ihave #HIr50 := (inv_recv m K 5 0 3) $$ HR
  ihave #HIr51 := (inv_recv m K 5 1 3) $$ HR
  ihave #HIr60 := (inv_recv m K 6 0 3) $$ HR
  ihave #HIr61 := (inv_recv m K 6 1 3) $$ HR
  ihave #HIr70 := (inv_recv m K 7 0 3) $$ HR
  ihave #HIr71 := (inv_recv m K 7 1 3) $$ HR
  ihave #HIs00 := (inv_send m K 3 0 0) $$ HR
  ihave #HIs01 := (inv_send m K 3 0 1) $$ HR
  ihave #HIs02 := (inv_send m K 3 0 2) $$ HR
  ihave #HIs04 := (inv_send m K 3 0 4) $$ HR
  ihave #HIs05 := (inv_send m K 3 0 5) $$ HR
  ihave #HIs06 := (inv_send m K 3 0 6) $$ HR
  ihave #HIs07 := (inv_send m K 3 0 7) $$ HR
  ihave #HIs10 := (inv_send m K 3 1 0) $$ HR
  ihave #HIs11 := (inv_send m K 3 1 1) $$ HR
  ihave #HIs12 := (inv_send m K 3 1 2) $$ HR
  ihave #HIs14 := (inv_send m K 3 1 4) $$ HR
  ihave #HIs15 := (inv_send m K 3 1 5) $$ HR
  ihave #HIs16 := (inv_send m K 3 1 6) $$ HR
  ihave #HIs17 := (inv_send m K 3 1 7) $$ HR
  ihave #HIv00 := (inv_recv m K 3 0 0) $$ HR
  ihave #HIv01 := (inv_recv m K 3 0 1) $$ HR
  ihave #HIv02 := (inv_recv m K 3 0 2) $$ HR
  ihave #HIv04 := (inv_recv m K 3 0 4) $$ HR
  ihave #HIv05 := (inv_recv m K 3 0 5) $$ HR
  ihave #HIv06 := (inv_recv m K 3 0 6) $$ HR
  ihave #HIv07 := (inv_recv m K 3 0 7) $$ HR
  ihave #HIv10 := (inv_recv m K 3 1 0) $$ HR
  ihave #HIv11 := (inv_recv m K 3 1 1) $$ HR
  ihave #HIv12 := (inv_recv m K 3 1 2) $$ HR
  ihave #HIv14 := (inv_recv m K 3 1 4) $$ HR
  ihave #HIv15 := (inv_recv m K 3 1 5) $$ HR
  ihave #HIv16 := (inv_recv m K 3 1 6) $$ HR
  ihave #HIv17 := (inv_recv m K 3 1 7) $$ HR
  ihave #Hrb0 := (reached_bar m K 0) $$ HR
  ihave #Hrb1 := (reached_bar m K 1) $$ HR
  ihave #Hrb2 := (reached_bar m K 2) $$ HR
  ihave #Hrb4 := (reached_bar m K 4) $$ HR
  ihave #Hrb5 := (reached_bar m K 5) $$ HR
  ihave #Hrb6 := (reached_bar m K 6) $$ HR
  ihave #Hrb7 := (reached_bar m K 7) $$ HR
  ihave #Hrr00 := (reached_recv m K 0 0 3) $$ HR
  ihave #Hrr01 := (reached_recv m K 0 1 3) $$ HR
  ihave #Hrr10 := (reached_recv m K 1 0 3) $$ HR
  ihave #Hrr11 := (reached_recv m K 1 1 3) $$ HR
  ihave #Hrr20 := (reached_recv m K 2 0 3) $$ HR
  ihave #Hrr21 := (reached_recv m K 2 1 3) $$ HR
  ihave #Hrr40 := (reached_recv m K 4 0 3) $$ HR
  ihave #Hrr41 := (reached_recv m K 4 1 3) $$ HR
  ihave #Hrr50 := (reached_recv m K 5 0 3) $$ HR
  ihave #Hrr51 := (reached_recv m K 5 1 3) $$ HR
  ihave #Hrr60 := (reached_recv m K 6 0 3) $$ HR
  ihave #Hrr61 := (reached_recv m K 6 1 3) $$ HR
  ihave #Hrr70 := (reached_recv m K 7 0 3) $$ HR
  ihave #Hrr71 := (reached_recv m K 7 1 3) $$ HR
  ihave #Hrs00 := (reached_send m K 3 0 0) $$ HR
  ihave #Hrs01 := (reached_send m K 3 0 1) $$ HR
  ihave #Hrs02 := (reached_send m K 3 0 2) $$ HR
  ihave #Hrs04 := (reached_send m K 3 0 4) $$ HR
  ihave #Hrs05 := (reached_send m K 3 0 5) $$ HR
  ihave #Hrs06 := (reached_send m K 3 0 6) $$ HR
  ihave #Hrs07 := (reached_send m K 3 0 7) $$ HR
  ihave #Hrs10 := (reached_send m K 3 1 0) $$ HR
  ihave #Hrs11 := (reached_send m K 3 1 1) $$ HR
  ihave #Hrs12 := (reached_send m K 3 1 2) $$ HR
  ihave #Hrs14 := (reached_send m K 3 1 4) $$ HR
  ihave #Hrs15 := (reached_send m K 3 1 5) $$ HR
  ihave #Hrs16 := (reached_send m K 3 1 6) $$ HR
  ihave #Hrs17 := (reached_send m K 3 1 7) $$ HR
  -- the diagonal cells' invariants (never used by a copy; closed at the end)
  ihave #HIs03 := (inv_send m K 3 0 3) $$ HR
  ihave #HIs13 := (inv_send m K 3 1 3) $$ HR
  ihave #HIv03 := (inv_recv m K 3 0 3) $$ HR
  ihave #HIv13 := (inv_recv m K 3 1 3) $$ HR
  iclear HR
  rw [cc0_body_eq_skeleton]; unfold cc0_body_skel
  -- the device's own two slots of its table, at their contents
  icases Hc30 with ⟨%fc0, Hc30⟩
  icases Hc31 with ⟨%fc1, Hc31⟩
  -- the seven barrier units, the first half's exponentials and row sums, the barrier wait
  sl_exec_parts
  -- what the barrier brought: the peers' slots for this device; what is still owed, in paying order; the first row in shares
  ihave HO := (owes_pay_3 (F := F) _) $$ HO
  ihave Hp := (Entails.of_eq (erase_chain_3 _)) $$ Hab_pay1
  icases Hp with ⟨⟨⟨%fd00, Hd00⟩, ⟨%fd01, Hd01⟩⟩, ⟨⟨%fd10, Hd10⟩, ⟨%fd11, Hd11⟩⟩, ⟨⟨%fd20, Hd20⟩, ⟨%fd21, Hd21⟩⟩, ⟨⟨%fd40, Hd40⟩, ⟨%fd41, Hd41⟩⟩, ⟨⟨%fd50, Hd50⟩, ⟨%fd51, Hd51⟩⟩, ⟨⟨%fd60, Hd60⟩, ⟨%fd61, Hd61⟩⟩, ⟨⟨%fd70, Hd70⟩, ⟨%fd71, Hd71⟩⟩⟩
  ihave Hm0s : iprop(((mineSl 0).view.loc ((3 : Dev nD) : Thread nD τ) ↦[(mineSl 0).view.set]{shr 0} mineOf (xOf m 3)) ∗ ((mineSl 0).view.loc ((3 : Dev nD) : Thread nD τ) ↦[(mineSl 0).view.set]{shr 1} mineOf (xOf m 3)) ∗ ((mineSl 0).view.loc ((3 : Dev nD) : Thread nD τ) ↦[(mineSl 0).view.set]{shr 2} mineOf (xOf m 3)) ∗ ((mineSl 0).view.loc ((3 : Dev nD) : Thread nD τ) ↦[(mineSl 0).view.set]{shr 3} mineOf (xOf m 3)) ∗ ((mineSl 0).view.loc ((3 : Dev nD) : Thread nD τ) ↦[(mineSl 0).view.set]{shr 4} mineOf (xOf m 3)) ∗ ((mineSl 0).view.loc ((3 : Dev nD) : Thread nD τ) ↦[(mineSl 0).view.set]{shr 5} mineOf (xOf m 3)) ∗ ((mineSl 0).view.loc ((3 : Dev nD) : Thread nD τ) ↦[(mineSl 0).view.set]{shr 6} mineOf (xOf m 3)) ∗ ((mineSl 0).view.loc ((3 : Dev nD) : Thread nD τ) ↦[(mineSl 0).view.set]{shr 7} mineOf (xOf m 3))) $$ [Hm0]
  · iapply (row0_shares (F := F) (3 : Dev nD) (xOf m 3) f0); iexact Hm0
  icases Hm0s with ⟨Hm0_0, Hm0_1, Hm0_2, Hm0_3, Hm0_4, Hm0_5, Hm0_6, Hm0_7⟩
  -- the seven copies of the first row
  iapply (wp_send_slot m _ _ 3 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 3 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 3 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 3 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 3 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 3 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 3 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((3 : Dev nD) : Thread nD τ) ↦[(mineSl 1).view.set]{shr 0} mineOf (xOf m 3)) ∗ ((mineSl 1).view.loc ((3 : Dev nD) : Thread nD τ) ↦[(mineSl 1).view.set]{shr 1} mineOf (xOf m 3)) ∗ ((mineSl 1).view.loc ((3 : Dev nD) : Thread nD τ) ↦[(mineSl 1).view.set]{shr 2} mineOf (xOf m 3)) ∗ ((mineSl 1).view.loc ((3 : Dev nD) : Thread nD τ) ↦[(mineSl 1).view.set]{shr 3} mineOf (xOf m 3)) ∗ ((mineSl 1).view.loc ((3 : Dev nD) : Thread nD τ) ↦[(mineSl 1).view.set]{shr 4} mineOf (xOf m 3)) ∗ ((mineSl 1).view.loc ((3 : Dev nD) : Thread nD τ) ↦[(mineSl 1).view.set]{shr 5} mineOf (xOf m 3)) ∗ ((mineSl 1).view.loc ((3 : Dev nD) : Thread nD τ) ↦[(mineSl 1).view.set]{shr 6} mineOf (xOf m 3)) ∗ ((mineSl 1).view.loc ((3 : Dev nD) : Thread nD τ) ↦[(mineSl 1).view.set]{shr 7} mineOf (xOf m 3))) $$ [Hm1]
  · iapply (row1_shares (F := F) (3 : Dev nD) (xOf m 3) f0); iexact Hm1
  icases Hm1s with ⟨Hm1_0, Hm1_1, Hm1_2, Hm1_3, Hm1_4, Hm1_5, Hm1_6, Hm1_7⟩
  iapply (wp_send_slot m _ _ 3 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 3 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 3 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 3 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 3 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  iapply (wp_send_slot m _ _ 3 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (3 : Dev nD) _ _) $$ HO
  iapply (wp_send_slot m _ _ 3 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 3 0).view.loc ((3 : Dev nD) : Thread nD τ) ↦[(commSl 3 0).view.set]{fullShare} commOf (Xs m)) $$ [Hc30]
  · iapply (own_slot0 (F := F) m (3 : Dev nD) fc0 _); iexact Hc30
  ihave Hh0 : ((halfM 0).view.loc ((3 : Dev nD) : Thread nD τ) ↦[(halfM 0).view.set]{fullShare} commOf (Xs m)) $$ [Hav00_pay1 Hav01_pay1 Hav02_pay1 Hown0 Hav04_pay1 Hav05_pay1 Hav06_pay1 Hav07_pay1]
  · iapply (half_join (F := F) (3 : Dev nD) 0 (commOf (Xs m)))
    isplitl [Hav00_pay1]; · iexact Hav00_pay1
    isplitl [Hav01_pay1]; · iexact Hav01_pay1
    isplitl [Hav02_pay1]; · iexact Hav02_pay1
    isplitl [Hown0]; · iexact Hown0
    isplitl [Hav04_pay1]; · iexact Hav04_pay1
    isplitl [Hav05_pay1]; · iexact Hav05_pay1
    isplitl [Hav06_pay1]; · iexact Hav06_pay1
    iexact Hav07_pay1
  have hsub0a := half_access_sub0
  have hsub0b := half_setOn_sub0
  sl_exec_parts
  -- the second half likewise; then the departures' waits
  ihave Hown1 : ((commSl 3 1).view.loc ((3 : Dev nD) : Thread nD τ) ↦[(commSl 3 1).view.set]{fullShare} commOf (Xs m)) $$ [Hc31]
  · iapply (own_slot1 (F := F) m (3 : Dev nD) fc1 _); iexact Hc31
  ihave Hh1 : ((halfM 1).view.loc ((3 : Dev nD) : Thread nD τ) ↦[(halfM 1).view.set]{fullShare} commOf (Xs m)) $$ [Hav10_pay1 Hav11_pay1 Hav12_pay1 Hown1 Hav14_pay1 Hav15_pay1 Hav16_pay1 Hav17_pay1]
  · iapply (half_join (F := F) (3 : Dev nD) 1 (commOf (Xs m)))
    isplitl [Hav10_pay1]; · iexact Hav10_pay1
    isplitl [Hav11_pay1]; · iexact Hav11_pay1
    isplitl [Hav12_pay1]; · iexact Hav12_pay1
    isplitl [Hown1]; · iexact Hown1
    isplitl [Hav14_pay1]; · iexact Hav14_pay1
    isplitl [Hav15_pay1]; · iexact Hav15_pay1
    isplitl [Hav16_pay1]; · iexact Hav16_pay1
    iexact Hav17_pay1
  have hsub1a := half_access_sub1
  have hsub1b := half_setOn_sub1
  sl_exec_parts
  -- the cells closed
  imod (close_send m _ 3 0 0 1 (.inr le_rfl)) $$ [Has00] with Hzs00
  · isplitr; · iexact HIs00
    iexact Has00
  imod (close_send m _ 3 0 1 1 (.inr le_rfl)) $$ [Has01] with Hzs01
  · isplitr; · iexact HIs01
    iexact Has01
  imod (close_send m _ 3 0 2 1 (.inr le_rfl)) $$ [Has02] with Hzs02
  · isplitr; · iexact HIs02
    iexact Has02
  imod (close_send m _ 3 0 3 0 (.inl rfl)) $$ [Has03] with Hzs03
  · isplitr; · iexact HIs03
    iexact Has03
  imod (close_send m _ 3 0 4 1 (.inr le_rfl)) $$ [Has04] with Hzs04
  · isplitr; · iexact HIs04
    iexact Has04
  imod (close_send m _ 3 0 5 1 (.inr le_rfl)) $$ [Has05] with Hzs05
  · isplitr; · iexact HIs05
    iexact Has05
  imod (close_send m _ 3 0 6 1 (.inr le_rfl)) $$ [Has06] with Hzs06
  · isplitr; · iexact HIs06
    iexact Has06
  imod (close_send m _ 3 0 7 1 (.inr le_rfl)) $$ [Has07] with Hzs07
  · isplitr; · iexact HIs07
    iexact Has07
  imod (close_send m _ 3 1 0 1 (.inr le_rfl)) $$ [Has10] with Hzs10
  · isplitr; · iexact HIs10
    iexact Has10
  imod (close_send m _ 3 1 1 1 (.inr le_rfl)) $$ [Has11] with Hzs11
  · isplitr; · iexact HIs11
    iexact Has11
  imod (close_send m _ 3 1 2 1 (.inr le_rfl)) $$ [Has12] with Hzs12
  · isplitr; · iexact HIs12
    iexact Has12
  imod (close_send m _ 3 1 3 0 (.inl rfl)) $$ [Has13] with Hzs13
  · isplitr; · iexact HIs13
    iexact Has13
  imod (close_send m _ 3 1 4 1 (.inr le_rfl)) $$ [Has14] with Hzs14
  · isplitr; · iexact HIs14
    iexact Has14
  imod (close_send m _ 3 1 5 1 (.inr le_rfl)) $$ [Has15] with Hzs15
  · isplitr; · iexact HIs15
    iexact Has15
  imod (close_send m _ 3 1 6 1 (.inr le_rfl)) $$ [Has16] with Hzs16
  · isplitr; · iexact HIs16
    iexact Has16
  imod (close_send m _ 3 1 7 1 (.inr le_rfl)) $$ [Has17] with Hzs17
  · isplitr; · iexact HIs17
    iexact Has17
  imod (close_recv m _ 3 0 0 1 (.inr le_rfl)) $$ [Hav00] with Hzv00
  · isplitr; · iexact HIv00
    iexact Hav00
  imod (close_recv m _ 3 0 1 1 (.inr le_rfl)) $$ [Hav01] with Hzv01
  · isplitr; · iexact HIv01
    iexact Hav01
  imod (close_recv m _ 3 0 2 1 (.inr le_rfl)) $$ [Hav02] with Hzv02
  · isplitr; · iexact HIv02
    iexact Hav02
  imod (close_recv m _ 3 0 3 0 (.inl rfl)) $$ [Hav03] with Hzv03
  · isplitr; · iexact HIv03
    iexact Hav03
  imod (close_recv m _ 3 0 4 1 (.inr le_rfl)) $$ [Hav04] with Hzv04
  · isplitr; · iexact HIv04
    iexact Hav04
  imod (close_recv m _ 3 0 5 1 (.inr le_rfl)) $$ [Hav05] with Hzv05
  · isplitr; · iexact HIv05
    iexact Hav05
  imod (close_recv m _ 3 0 6 1 (.inr le_rfl)) $$ [Hav06] with Hzv06
  · isplitr; · iexact HIv06
    iexact Hav06
  imod (close_recv m _ 3 0 7 1 (.inr le_rfl)) $$ [Hav07] with Hzv07
  · isplitr; · iexact HIv07
    iexact Hav07
  imod (close_recv m _ 3 1 0 1 (.inr le_rfl)) $$ [Hav10] with Hzv10
  · isplitr; · iexact HIv10
    iexact Hav10
  imod (close_recv m _ 3 1 1 1 (.inr le_rfl)) $$ [Hav11] with Hzv11
  · isplitr; · iexact HIv11
    iexact Hav11
  imod (close_recv m _ 3 1 2 1 (.inr le_rfl)) $$ [Hav12] with Hzv12
  · isplitr; · iexact HIv12
    iexact Hav12
  imod (close_recv m _ 3 1 3 0 (.inl rfl)) $$ [Hav13] with Hzv13
  · isplitr; · iexact HIv13
    iexact Hav13
  imod (close_recv m _ 3 1 4 1 (.inr le_rfl)) $$ [Hav14] with Hzv14
  · isplitr; · iexact HIv14
    iexact Hav14
  imod (close_recv m _ 3 1 5 1 (.inr le_rfl)) $$ [Hav15] with Hzv15
  · isplitr; · iexact HIv15
    iexact Hav15
  imod (close_recv m _ 3 1 6 1 (.inr le_rfl)) $$ [Hav16] with Hzv16
  · isplitr; · iexact HIv16
    iexact Hav16
  imod (close_recv m _ 3 1 7 1 (.inr le_rfl)) $$ [Hav17] with Hzv17
  · isplitr; · iexact HIv17
    iexact Hav17
  -- the two tables whole again
  ihave Hrow0 : ((mineSl 0).view.loc ((3 : Dev nD) : Thread nD τ) ↦[(mineSl 0).view.set]{fullShare} mineOf (xOf m 3)) $$ [Has00_pay1 Has01_pay1 Has02_pay1 Hm0_3 Has04_pay1 Has05_pay1 Has06_pay1 Has07_pay1]
  · iapply (row_rejoin (F := F) (3 : Dev nD) 0 (xOf m 3))
    isplitl [Has00_pay1]; · iexact Has00_pay1
    isplitl [Has01_pay1]; · iexact Has01_pay1
    isplitl [Has02_pay1]; · iexact Has02_pay1
    isplitl [Hm0_3]; · iexact Hm0_3
    isplitl [Has04_pay1]; · iexact Has04_pay1
    isplitl [Has05_pay1]; · iexact Has05_pay1
    isplitl [Has06_pay1]; · iexact Has06_pay1
    iexact Has07_pay1
  ihave Hrow1 : ((mineSl 1).view.loc ((3 : Dev nD) : Thread nD τ) ↦[(mineSl 1).view.set]{fullShare} mineOf (xOf m 3)) $$ [Has10_pay1 Has11_pay1 Has12_pay1 Hm1_3 Has14_pay1 Has15_pay1 Has16_pay1 Has17_pay1]
  · iapply (row_rejoin (F := F) (3 : Dev nD) 1 (xOf m 3))
    isplitl [Has10_pay1]; · iexact Has10_pay1
    isplitl [Has11_pay1]; · iexact Has11_pay1
    isplitl [Has12_pay1]; · iexact Has12_pay1
    isplitl [Hm1_3]; · iexact Hm1_3
    isplitl [Has14_pay1]; · iexact Has14_pay1
    isplitl [Has15_pay1]; · iexact Has15_pay1
    isplitl [Has16_pay1]; · iexact Has16_pay1
    iexact Has17_pay1
  ihave Hmine := (mine_join (F := F) (3 : Dev nD) (mineOf (xOf m 3))) $$ [Hrow0 Hrow1]
  · isplitl [Hrow0]; · iexact Hrow0
    iexact Hrow1
  ihave Hcomm := (halves_join (F := F) (3 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((3 : Dev nD) : Thread nD τ) ↦[(oM : Memref sig .tc .vmem S1024x1024 .bf16).view.set]{fullShare} outOf (fun q => xOf m q) 3) $$ [Ho]
  · have hT : body_3.sl.r_2 m = oTop (fun q => xOf m q) (3 : Dev nD) := by
      sl_unfold_run_names
      exact congrArg₂ k0_pay10 rfl (readCov_top _ _ _)
    have hB : k0_pay13 (body_3.sl.r_3 m) k0_pay12 (body_3.sl.v183 m) = oBot (fun q => xOf m q) (3 : Dev nD) := by
      sl_unfold_run_names
      exact congrArg₂ (fun a b => k0_pay13 (k0_pay11 a) k0_pay12 b) rfl (readCov_bot _ _ _ _)
    iapply (out_settle (F := F) m (3 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.Kernel.Sm

end
-- ==== Proof.W.Body4.lean ====
/-
  The kernel body on device 4, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.W.BodyWrap
import proofs.«901053_g7700000000001054_dist_softmax_colshard_i_m1024_n1024_v7x_i8_bf16_1_alg».proof.Proof.W.BodyPieces
import proofs.«901053_g7700000000001054_dist_softmax_colshard_i_m1024_n1024_v7x_i8_bf16_1_alg».proof.Proof.W.OpenKit
import proofs.«901053_g7700000000001054_dist_softmax_colshard_i_m1024_n1024_v7x_i8_bf16_1_alg».proof.Proof.W.Canon
import proofs.«901053_g7700000000001054_dist_softmax_colshard_i_m1024_n1024_v7x_i8_bf16_1_alg».proof.Proof.W.SendRule
import proofs.«901053_g7700000000001054_dist_softmax_colshard_i_m1024_n1024_v7x_i8_bf16_1_alg».proof.Proof.W.BodyEnd
import proofs.«901053_g7700000000001054_dist_softmax_colshard_i_m1024_n1024_v7x_i8_bf16_1_alg».proof.Proof.W.Glue3
import proofs.«901053_g7700000000001054_dist_softmax_colshard_i_m1024_n1024_v7x_i8_bf16_1_alg».proof.Proof.W.OutFinal

noncomputable section

namespace Cert.Kernel.Sm

set_option maxRecDepth 8000

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_4 (K : Dev nD × Fin 33 → ℕ) (W : Waits sig Unit) (Kt : PUnit → sProp 𝕄) :
    iprop(bodyPreE m K 4 W ∗ (bodyPostE m 4 -∗ Kt ⟨⟩))
      ⊢ wp frame (wpE (defs₀ (F := F)) 𝒱₀ ((4 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((4 : Dev nD) : Thread nD τ) (.reg barS) () (recvOwed 4) := mayWait_recvOwed 4
  -- the precondition taken apart
  unfold bodyPreE ghost linear creds scratches
  rw [erase_chain_4, erase_chain_4, pos_chain, O₀_chain_4]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb2, Htr20, Htr21, Hts02, Hts12⟩, ⟨Htb3, Htr30, Htr31, Hts03, Hts13⟩, ⟨Htb5, Htr50, Htr51, Hts05, Hts15⟩, ⟨Htb6, Htr60, Htr61, Hts06, Hts16⟩, ⟨Htb7, Htr70, Htr71, Hts07, Hts17⟩⟩⟩,
    ⟨Hcb, ⟨Hcv00, Hcv10⟩, ⟨Hcv01, Hcv11⟩, ⟨Hcv02, Hcv12⟩, ⟨Hcv03, Hcv13⟩, ⟨Hcv05, Hcv15⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 4 f0) $$ Hm
  icases Hm' with ⟨Hm0, Hm1⟩
  ihave Hc' := (comm_split_ex (F := F) 4) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 4) $$ HR
  ihave #HIr01 := (inv_recv m K 0 1 4) $$ HR
  ihave #HIr10 := (inv_recv m K 1 0 4) $$ HR
  ihave #HIr11 := (inv_recv m K 1 1 4) $$ HR
  ihave #HIr20 := (inv_recv m K 2 0 4) $$ HR
  ihave #HIr21 := (inv_recv m K 2 1 4) $$ HR
  ihave #HIr30 := (inv_recv m K 3 0 4) $$ HR
  ihave #HIr31 := (inv_recv m K 3 1 4) $$ HR
  ihave #HIr50 := (inv_recv m K 5 0 4) $$ HR
  ihave #HIr51 := (inv_recv m K 5 1 4) $$ HR
  ihave #HIr60 := (inv_recv m K 6 0 4) $$ HR
  ihave #HIr61 := (inv_recv m K 6 1 4) $$ HR
  ihave #HIr70 := (inv_recv m K 7 0 4) $$ HR
  ihave #HIr71 := (inv_recv m K 7 1 4) $$ HR
  ihave #HIs00 := (inv_send m K 4 0 0) $$ HR
  ihave #HIs01 := (inv_send m K 4 0 1) $$ HR
  ihave #HIs02 := (inv_send m K 4 0 2) $$ HR
  ihave #HIs03 := (inv_send m K 4 0 3) $$ HR
  ihave #HIs05 := (inv_send m K 4 0 5) $$ HR
  ihave #HIs06 := (inv_send m K 4 0 6) $$ HR
  ihave #HIs07 := (inv_send m K 4 0 7) $$ HR
  ihave #HIs10 := (inv_send m K 4 1 0) $$ HR
  ihave #HIs11 := (inv_send m K 4 1 1) $$ HR
  ihave #HIs12 := (inv_send m K 4 1 2) $$ HR
  ihave #HIs13 := (inv_send m K 4 1 3) $$ HR
  ihave #HIs15 := (inv_send m K 4 1 5) $$ HR
  ihave #HIs16 := (inv_send m K 4 1 6) $$ HR
  ihave #HIs17 := (inv_send m K 4 1 7) $$ HR
  ihave #HIv00 := (inv_recv m K 4 0 0) $$ HR
  ihave #HIv01 := (inv_recv m K 4 0 1) $$ HR
  ihave #HIv02 := (inv_recv m K 4 0 2) $$ HR
  ihave #HIv03 := (inv_recv m K 4 0 3) $$ HR
  ihave #HIv05 := (inv_recv m K 4 0 5) $$ HR
  ihave #HIv06 := (inv_recv m K 4 0 6) $$ HR
  ihave #HIv07 := (inv_recv m K 4 0 7) $$ HR
  ihave #HIv10 := (inv_recv m K 4 1 0) $$ HR
  ihave #HIv11 := (inv_recv m K 4 1 1) $$ HR
  ihave #HIv12 := (inv_recv m K 4 1 2) $$ HR
  ihave #HIv13 := (inv_recv m K 4 1 3) $$ HR
  ihave #HIv15 := (inv_recv m K 4 1 5) $$ HR
  ihave #HIv16 := (inv_recv m K 4 1 6) $$ HR
  ihave #HIv17 := (inv_recv m K 4 1 7) $$ HR
  ihave #Hrb0 := (reached_bar m K 0) $$ HR
  ihave #Hrb1 := (reached_bar m K 1) $$ HR
  ihave #Hrb2 := (reached_bar m K 2) $$ HR
  ihave #Hrb3 := (reached_bar m K 3) $$ HR
  ihave #Hrb5 := (reached_bar m K 5) $$ HR
  ihave #Hrb6 := (reached_bar m K 6) $$ HR
  ihave #Hrb7 := (reached_bar m K 7) $$ HR
  ihave #Hrr00 := (reached_recv m K 0 0 4) $$ HR
  ihave #Hrr01 := (reached_recv m K 0 1 4) $$ HR
  ihave #Hrr10 := (reached_recv m K 1 0 4) $$ HR
  ihave #Hrr11 := (reached_recv m K 1 1 4) $$ HR
  ihave #Hrr20 := (reached_recv m K 2 0 4) $$ HR
  ihave #Hrr21 := (reached_recv m K 2 1 4) $$ HR
  ihave #Hrr30 := (reached_recv m K 3 0 4) $$ HR
  ihave #Hrr31 := (reached_recv m K 3 1 4) $$ HR
  ihave #Hrr50 := (reached_recv m K 5 0 4) $$ HR
  ihave #Hrr51 := (reached_recv m K 5 1 4) $$ HR
  ihave #Hrr60 := (reached_recv m K 6 0 4) $$ HR
  ihave #Hrr61 := (reached_recv m K 6 1 4) $$ HR
  ihave #Hrr70 := (reached_recv m K 7 0 4) $$ HR
  ihave #Hrr71 := (reached_recv m K 7 1 4) $$ HR
  ihave #Hrs00 := (reached_send m K 4 0 0) $$ HR
  ihave #Hrs01 := (reached_send m K 4 0 1) $$ HR
  ihave #Hrs02 := (reached_send m K 4 0 2) $$ HR
  ihave #Hrs03 := (reached_send m K 4 0 3) $$ HR
  ihave #Hrs05 := (reached_send m K 4 0 5) $$ HR
  ihave #Hrs06 := (reached_send m K 4 0 6) $$ HR
  ihave #Hrs07 := (reached_send m K 4 0 7) $$ HR
  ihave #Hrs10 := (reached_send m K 4 1 0) $$ HR
  ihave #Hrs11 := (reached_send m K 4 1 1) $$ HR
  ihave #Hrs12 := (reached_send m K 4 1 2) $$ HR
  ihave #Hrs13 := (reached_send m K 4 1 3) $$ HR
  ihave #Hrs15 := (reached_send m K 4 1 5) $$ HR
  ihave #Hrs16 := (reached_send m K 4 1 6) $$ HR
  ihave #Hrs17 := (reached_send m K 4 1 7) $$ HR
  -- the diagonal cells' invariants (never used by a copy; closed at the end)
  ihave #HIs04 := (inv_send m K 4 0 4) $$ HR
  ihave #HIs14 := (inv_send m K 4 1 4) $$ HR
  ihave #HIv04 := (inv_recv m K 4 0 4) $$ HR
  ihave #HIv14 := (inv_recv m K 4 1 4) $$ HR
  iclear HR
  rw [cc0_body_eq_skeleton]; unfold cc0_body_skel
  -- the device's own two slots of its table, at their contents
  icases Hc40 with ⟨%fc0, Hc40⟩
  icases Hc41 with ⟨%fc1, Hc41⟩
  -- the seven barrier units, the first half's exponentials and row sums, the barrier wait
  sl_exec_parts
  -- what the barrier brought: the peers' slots for this device; what is still owed, in paying order; the first row in shares
  ihave HO := (owes_pay_4 (F := F) _) $$ HO
  ihave Hp := (Entails.of_eq (erase_chain_4 _)) $$ Hab_pay1
  icases Hp with ⟨⟨⟨%fd00, Hd00⟩, ⟨%fd01, Hd01⟩⟩, ⟨⟨%fd10, Hd10⟩, ⟨%fd11, Hd11⟩⟩, ⟨⟨%fd20, Hd20⟩, ⟨%fd21, Hd21⟩⟩, ⟨⟨%fd30, Hd30⟩, ⟨%fd31, Hd31⟩⟩, ⟨⟨%fd50, Hd50⟩, ⟨%fd51, Hd51⟩⟩, ⟨⟨%fd60, Hd60⟩, ⟨%fd61, Hd61⟩⟩, ⟨⟨%fd70, Hd70⟩, ⟨%fd71, Hd71⟩⟩⟩
  ihave Hm0s : iprop(((mineSl 0).view.loc ((4 : Dev nD) : Thread nD τ) ↦[(mineSl 0).view.set]{shr 0} mineOf (xOf m 4)) ∗ ((mineSl 0).view.loc ((4 : Dev nD) : Thread nD τ) ↦[(mineSl 0).view.set]{shr 1} mineOf (xOf m 4)) ∗ ((mineSl 0).view.loc ((4 : Dev nD) : Thread nD τ) ↦[(mineSl 0).view.set]{shr 2} mineOf (xOf m 4)) ∗ ((mineSl 0).view.loc ((4 : Dev nD) : Thread nD τ) ↦[(mineSl 0).view.set]{shr 3} mineOf (xOf m 4)) ∗ ((mineSl 0).view.loc ((4 : Dev nD) : Thread nD τ) ↦[(mineSl 0).view.set]{shr 4} mineOf (xOf m 4)) ∗ ((mineSl 0).view.loc ((4 : Dev nD) : Thread nD τ) ↦[(mineSl 0).view.set]{shr 5} mineOf (xOf m 4)) ∗ ((mineSl 0).view.loc ((4 : Dev nD) : Thread nD τ) ↦[(mineSl 0).view.set]{shr 6} mineOf (xOf m 4)) ∗ ((mineSl 0).view.loc ((4 : Dev nD) : Thread nD τ) ↦[(mineSl 0).view.set]{shr 7} mineOf (xOf m 4))) $$ [Hm0]
  · iapply (row0_shares (F := F) (4 : Dev nD) (xOf m 4) f0); iexact Hm0
  icases Hm0s with ⟨Hm0_0, Hm0_1, Hm0_2, Hm0_3, Hm0_4, Hm0_5, Hm0_6, Hm0_7⟩
  -- the seven copies of the first row
  iapply (wp_send_slot m _ _ 4 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 4 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 4 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 4 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 4 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 4 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 4 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((4 : Dev nD) : Thread nD τ) ↦[(mineSl 1).view.set]{shr 0} mineOf (xOf m 4)) ∗ ((mineSl 1).view.loc ((4 : Dev nD) : Thread nD τ) ↦[(mineSl 1).view.set]{shr 1} mineOf (xOf m 4)) ∗ ((mineSl 1).view.loc ((4 : Dev nD) : Thread nD τ) ↦[(mineSl 1).view.set]{shr 2} mineOf (xOf m 4)) ∗ ((mineSl 1).view.loc ((4 : Dev nD) : Thread nD τ) ↦[(mineSl 1).view.set]{shr 3} mineOf (xOf m 4)) ∗ ((mineSl 1).view.loc ((4 : Dev nD) : Thread nD τ) ↦[(mineSl 1).view.set]{shr 4} mineOf (xOf m 4)) ∗ ((mineSl 1).view.loc ((4 : Dev nD) : Thread nD τ) ↦[(mineSl 1).view.set]{shr 5} mineOf (xOf m 4)) ∗ ((mineSl 1).view.loc ((4 : Dev nD) : Thread nD τ) ↦[(mineSl 1).view.set]{shr 6} mineOf (xOf m 4)) ∗ ((mineSl 1).view.loc ((4 : Dev nD) : Thread nD τ) ↦[(mineSl 1).view.set]{shr 7} mineOf (xOf m 4))) $$ [Hm1]
  · iapply (row1_shares (F := F) (4 : Dev nD) (xOf m 4) f0); iexact Hm1
  icases Hm1s with ⟨Hm1_0, Hm1_1, Hm1_2, Hm1_3, Hm1_4, Hm1_5, Hm1_6, Hm1_7⟩
  iapply (wp_send_slot m _ _ 4 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 4 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 4 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 4 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 4 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  iapply (wp_send_slot m _ _ 4 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (4 : Dev nD) _ _) $$ HO
  iapply (wp_send_slot m _ _ 4 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 4 0).view.loc ((4 : Dev nD) : Thread nD τ) ↦[(commSl 4 0).view.set]{fullShare} commOf (Xs m)) $$ [Hc40]
  · iapply (own_slot0 (F := F) m (4 : Dev nD) fc0 _); iexact Hc40
  ihave Hh0 : ((halfM 0).view.loc ((4 : Dev nD) : Thread nD τ) ↦[(halfM 0).view.set]{fullShare} commOf (Xs m)) $$ [Hav00_pay1 Hav01_pay1 Hav02_pay1 Hav03_pay1 Hown0 Hav05_pay1 Hav06_pay1 Hav07_pay1]
  · iapply (half_join (F := F) (4 : Dev nD) 0 (commOf (Xs m)))
    isplitl [Hav00_pay1]; · iexact Hav00_pay1
    isplitl [Hav01_pay1]; · iexact Hav01_pay1
    isplitl [Hav02_pay1]; · iexact Hav02_pay1
    isplitl [Hav03_pay1]; · iexact Hav03_pay1
    isplitl [Hown0]; · iexact Hown0
    isplitl [Hav05_pay1]; · iexact Hav05_pay1
    isplitl [Hav06_pay1]; · iexact Hav06_pay1
    iexact Hav07_pay1
  have hsub0a := half_access_sub0
  have hsub0b := half_setOn_sub0
  sl_exec_parts
  -- the second half likewise; then the departures' waits
  ihave Hown1 : ((commSl 4 1).view.loc ((4 : Dev nD) : Thread nD τ) ↦[(commSl 4 1).view.set]{fullShare} commOf (Xs m)) $$ [Hc41]
  · iapply (own_slot1 (F := F) m (4 : Dev nD) fc1 _); iexact Hc41
  ihave Hh1 : ((halfM 1).view.loc ((4 : Dev nD) : Thread nD τ) ↦[(halfM 1).view.set]{fullShare} commOf (Xs m)) $$ [Hav10_pay1 Hav11_pay1 Hav12_pay1 Hav13_pay1 Hown1 Hav15_pay1 Hav16_pay1 Hav17_pay1]
  · iapply (half_join (F := F) (4 : Dev nD) 1 (commOf (Xs m)))
    isplitl [Hav10_pay1]; · iexact Hav10_pay1
    isplitl [Hav11_pay1]; · iexact Hav11_pay1
    isplitl [Hav12_pay1]; · iexact Hav12_pay1
    isplitl [Hav13_pay1]; · iexact Hav13_pay1
    isplitl [Hown1]; · iexact Hown1
    isplitl [Hav15_pay1]; · iexact Hav15_pay1
    isplitl [Hav16_pay1]; · iexact Hav16_pay1
    iexact Hav17_pay1
  have hsub1a := half_access_sub1
  have hsub1b := half_setOn_sub1
  sl_exec_parts
  -- the cells closed
  imod (close_send m _ 4 0 0 1 (.inr le_rfl)) $$ [Has00] with Hzs00
  · isplitr; · iexact HIs00
    iexact Has00
  imod (close_send m _ 4 0 1 1 (.inr le_rfl)) $$ [Has01] with Hzs01
  · isplitr; · iexact HIs01
    iexact Has01
  imod (close_send m _ 4 0 2 1 (.inr le_rfl)) $$ [Has02] with Hzs02
  · isplitr; · iexact HIs02
    iexact Has02
  imod (close_send m _ 4 0 3 1 (.inr le_rfl)) $$ [Has03] with Hzs03
  · isplitr; · iexact HIs03
    iexact Has03
  imod (close_send m _ 4 0 4 0 (.inl rfl)) $$ [Has04] with Hzs04
  · isplitr; · iexact HIs04
    iexact Has04
  imod (close_send m _ 4 0 5 1 (.inr le_rfl)) $$ [Has05] with Hzs05
  · isplitr; · iexact HIs05
    iexact Has05
  imod (close_send m _ 4 0 6 1 (.inr le_rfl)) $$ [Has06] with Hzs06
  · isplitr; · iexact HIs06
    iexact Has06
  imod (close_send m _ 4 0 7 1 (.inr le_rfl)) $$ [Has07] with Hzs07
  · isplitr; · iexact HIs07
    iexact Has07
  imod (close_send m _ 4 1 0 1 (.inr le_rfl)) $$ [Has10] with Hzs10
  · isplitr; · iexact HIs10
    iexact Has10
  imod (close_send m _ 4 1 1 1 (.inr le_rfl)) $$ [Has11] with Hzs11
  · isplitr; · iexact HIs11
    iexact Has11
  imod (close_send m _ 4 1 2 1 (.inr le_rfl)) $$ [Has12] with Hzs12
  · isplitr; · iexact HIs12
    iexact Has12
  imod (close_send m _ 4 1 3 1 (.inr le_rfl)) $$ [Has13] with Hzs13
  · isplitr; · iexact HIs13
    iexact Has13
  imod (close_send m _ 4 1 4 0 (.inl rfl)) $$ [Has14] with Hzs14
  · isplitr; · iexact HIs14
    iexact Has14
  imod (close_send m _ 4 1 5 1 (.inr le_rfl)) $$ [Has15] with Hzs15
  · isplitr; · iexact HIs15
    iexact Has15
  imod (close_send m _ 4 1 6 1 (.inr le_rfl)) $$ [Has16] with Hzs16
  · isplitr; · iexact HIs16
    iexact Has16
  imod (close_send m _ 4 1 7 1 (.inr le_rfl)) $$ [Has17] with Hzs17
  · isplitr; · iexact HIs17
    iexact Has17
  imod (close_recv m _ 4 0 0 1 (.inr le_rfl)) $$ [Hav00] with Hzv00
  · isplitr; · iexact HIv00
    iexact Hav00
  imod (close_recv m _ 4 0 1 1 (.inr le_rfl)) $$ [Hav01] with Hzv01
  · isplitr; · iexact HIv01
    iexact Hav01
  imod (close_recv m _ 4 0 2 1 (.inr le_rfl)) $$ [Hav02] with Hzv02
  · isplitr; · iexact HIv02
    iexact Hav02
  imod (close_recv m _ 4 0 3 1 (.inr le_rfl)) $$ [Hav03] with Hzv03
  · isplitr; · iexact HIv03
    iexact Hav03
  imod (close_recv m _ 4 0 4 0 (.inl rfl)) $$ [Hav04] with Hzv04
  · isplitr; · iexact HIv04
    iexact Hav04
  imod (close_recv m _ 4 0 5 1 (.inr le_rfl)) $$ [Hav05] with Hzv05
  · isplitr; · iexact HIv05
    iexact Hav05
  imod (close_recv m _ 4 0 6 1 (.inr le_rfl)) $$ [Hav06] with Hzv06
  · isplitr; · iexact HIv06
    iexact Hav06
  imod (close_recv m _ 4 0 7 1 (.inr le_rfl)) $$ [Hav07] with Hzv07
  · isplitr; · iexact HIv07
    iexact Hav07
  imod (close_recv m _ 4 1 0 1 (.inr le_rfl)) $$ [Hav10] with Hzv10
  · isplitr; · iexact HIv10
    iexact Hav10
  imod (close_recv m _ 4 1 1 1 (.inr le_rfl)) $$ [Hav11] with Hzv11
  · isplitr; · iexact HIv11
    iexact Hav11
  imod (close_recv m _ 4 1 2 1 (.inr le_rfl)) $$ [Hav12] with Hzv12
  · isplitr; · iexact HIv12
    iexact Hav12
  imod (close_recv m _ 4 1 3 1 (.inr le_rfl)) $$ [Hav13] with Hzv13
  · isplitr; · iexact HIv13
    iexact Hav13
  imod (close_recv m _ 4 1 4 0 (.inl rfl)) $$ [Hav14] with Hzv14
  · isplitr; · iexact HIv14
    iexact Hav14
  imod (close_recv m _ 4 1 5 1 (.inr le_rfl)) $$ [Hav15] with Hzv15
  · isplitr; · iexact HIv15
    iexact Hav15
  imod (close_recv m _ 4 1 6 1 (.inr le_rfl)) $$ [Hav16] with Hzv16
  · isplitr; · iexact HIv16
    iexact Hav16
  imod (close_recv m _ 4 1 7 1 (.inr le_rfl)) $$ [Hav17] with Hzv17
  · isplitr; · iexact HIv17
    iexact Hav17
  -- the two tables whole again
  ihave Hrow0 : ((mineSl 0).view.loc ((4 : Dev nD) : Thread nD τ) ↦[(mineSl 0).view.set]{fullShare} mineOf (xOf m 4)) $$ [Has00_pay1 Has01_pay1 Has02_pay1 Has03_pay1 Hm0_4 Has05_pay1 Has06_pay1 Has07_pay1]
  · iapply (row_rejoin (F := F) (4 : Dev nD) 0 (xOf m 4))
    isplitl [Has00_pay1]; · iexact Has00_pay1
    isplitl [Has01_pay1]; · iexact Has01_pay1
    isplitl [Has02_pay1]; · iexact Has02_pay1
    isplitl [Has03_pay1]; · iexact Has03_pay1
    isplitl [Hm0_4]; · iexact Hm0_4
    isplitl [Has05_pay1]; · iexact Has05_pay1
    isplitl [Has06_pay1]; · iexact Has06_pay1
    iexact Has07_pay1
  ihave Hrow1 : ((mineSl 1).view.loc ((4 : Dev nD) : Thread nD τ) ↦[(mineSl 1).view.set]{fullShare} mineOf (xOf m 4)) $$ [Has10_pay1 Has11_pay1 Has12_pay1 Has13_pay1 Hm1_4 Has15_pay1 Has16_pay1 Has17_pay1]
  · iapply (row_rejoin (F := F) (4 : Dev nD) 1 (xOf m 4))
    isplitl [Has10_pay1]; · iexact Has10_pay1
    isplitl [Has11_pay1]; · iexact Has11_pay1
    isplitl [Has12_pay1]; · iexact Has12_pay1
    isplitl [Has13_pay1]; · iexact Has13_pay1
    isplitl [Hm1_4]; · iexact Hm1_4
    isplitl [Has15_pay1]; · iexact Has15_pay1
    isplitl [Has16_pay1]; · iexact Has16_pay1
    iexact Has17_pay1
  ihave Hmine := (mine_join (F := F) (4 : Dev nD) (mineOf (xOf m 4))) $$ [Hrow0 Hrow1]
  · isplitl [Hrow0]; · iexact Hrow0
    iexact Hrow1
  ihave Hcomm := (halves_join (F := F) (4 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((4 : Dev nD) : Thread nD τ) ↦[(oM : Memref sig .tc .vmem S1024x1024 .bf16).view.set]{fullShare} outOf (fun q => xOf m q) 4) $$ [Ho]
  · have hT : body_4.sl.r_2 m = oTop (fun q => xOf m q) (4 : Dev nD) := by
      sl_unfold_run_names
      exact congrArg₂ k0_pay10 rfl (readCov_top _ _ _)
    have hB : k0_pay13 (body_4.sl.r_3 m) k0_pay12 (body_4.sl.v183 m) = oBot (fun q => xOf m q) (4 : Dev nD) := by
      sl_unfold_run_names
      exact congrArg₂ (fun a b => k0_pay13 (k0_pay11 a) k0_pay12 b) rfl (readCov_bot _ _ _ _)
    iapply (out_settle (F := F) m (4 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.Kernel.Sm

end
-- ==== Proof.W.Body5.lean ====
/-
  The kernel body on device 5, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.W.BodyWrap
import proofs.«901053_g7700000000001054_dist_softmax_colshard_i_m1024_n1024_v7x_i8_bf16_1_alg».proof.Proof.W.BodyPieces
import proofs.«901053_g7700000000001054_dist_softmax_colshard_i_m1024_n1024_v7x_i8_bf16_1_alg».proof.Proof.W.OpenKit
import proofs.«901053_g7700000000001054_dist_softmax_colshard_i_m1024_n1024_v7x_i8_bf16_1_alg».proof.Proof.W.Canon
import proofs.«901053_g7700000000001054_dist_softmax_colshard_i_m1024_n1024_v7x_i8_bf16_1_alg».proof.Proof.W.SendRule
import proofs.«901053_g7700000000001054_dist_softmax_colshard_i_m1024_n1024_v7x_i8_bf16_1_alg».proof.Proof.W.BodyEnd
import proofs.«901053_g7700000000001054_dist_softmax_colshard_i_m1024_n1024_v7x_i8_bf16_1_alg».proof.Proof.W.Glue3
import proofs.«901053_g7700000000001054_dist_softmax_colshard_i_m1024_n1024_v7x_i8_bf16_1_alg».proof.Proof.W.OutFinal

noncomputable section

namespace Cert.Kernel.Sm

set_option maxRecDepth 8000

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_5 (K : Dev nD × Fin 33 → ℕ) (W : Waits sig Unit) (Kt : PUnit → sProp 𝕄) :
    iprop(bodyPreE m K 5 W ∗ (bodyPostE m 5 -∗ Kt ⟨⟩))
      ⊢ wp frame (wpE (defs₀ (F := F)) 𝒱₀ ((5 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((5 : Dev nD) : Thread nD τ) (.reg barS) () (recvOwed 5) := mayWait_recvOwed 5
  -- the precondition taken apart
  unfold bodyPreE ghost linear creds scratches
  rw [erase_chain_5, erase_chain_5, pos_chain, O₀_chain_5]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb2, Htr20, Htr21, Hts02, Hts12⟩, ⟨Htb3, Htr30, Htr31, Hts03, Hts13⟩, ⟨Htb4, Htr40, Htr41, Hts04, Hts14⟩, ⟨Htb6, Htr60, Htr61, Hts06, Hts16⟩, ⟨Htb7, Htr70, Htr71, Hts07, Hts17⟩⟩⟩,
    ⟨Hcb, ⟨Hcv00, Hcv10⟩, ⟨Hcv01, Hcv11⟩, ⟨Hcv02, Hcv12⟩, ⟨Hcv03, Hcv13⟩, ⟨Hcv04, Hcv14⟩, ⟨Hcv06, Hcv16⟩, ⟨Hcv07, Hcv17⟩⟩, #Hlev, ⟨⟨%f0, Hm⟩, Hc⟩, HO, Hx, ⟨%g0, Ho⟩⟩, Hk⟩
  -- the two scratch tables by rows and by slots
  ihave Hm' := (mine_split 5 f0) $$ Hm
  icases Hm' with ⟨Hm0, Hm1⟩
  ihave Hc' := (comm_split_ex (F := F) 5) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 5) $$ HR
  ihave #HIr01 := (inv_recv m K 0 1 5) $$ HR
  ihave #HIr10 := (inv_recv m K 1 0 5) $$ HR
  ihave #HIr11 := (inv_recv m K 1 1 5) $$ HR
  ihave #HIr20 := (inv_recv m K 2 0 5) $$ HR
  ihave #HIr21 := (inv_recv m K 2 1 5) $$ HR
  ihave #HIr30 := (inv_recv m K 3 0 5) $$ HR
  ihave #HIr31 := (inv_recv m K 3 1 5) $$ HR
  ihave #HIr40 := (inv_recv m K 4 0 5) $$ HR
  ihave #HIr41 := (inv_recv m K 4 1 5) $$ HR
  ihave #HIr60 := (inv_recv m K 6 0 5) $$ HR
  ihave #HIr61 := (inv_recv m K 6 1 5) $$ HR
  ihave #HIr70 := (inv_recv m K 7 0 5) $$ HR
  ihave #HIr71 := (inv_recv m K 7 1 5) $$ HR
  ihave #HIs00 := (inv_send m K 5 0 0) $$ HR
  ihave #HIs01 := (inv_send m K 5 0 1) $$ HR
  ihave #HIs02 := (inv_send m K 5 0 2) $$ HR
  ihave #HIs03 := (inv_send m K 5 0 3) $$ HR
  ihave #HIs04 := (inv_send m K 5 0 4) $$ HR
  ihave #HIs06 := (inv_send m K 5 0 6) $$ HR
  ihave #HIs07 := (inv_send m K 5 0 7) $$ HR
  ihave #HIs10 := (inv_send m K 5 1 0) $$ HR
  ihave #HIs11 := (inv_send m K 5 1 1) $$ HR
  ihave #HIs12 := (inv_send m K 5 1 2) $$ HR
  ihave #HIs13 := (inv_send m K 5 1 3) $$ HR
  ihave #HIs14 := (inv_send m K 5 1 4) $$ HR
  ihave #HIs16 := (inv_send m K 5 1 6) $$ HR
  ihave #HIs17 := (inv_send m K 5 1 7) $$ HR
  ihave #HIv00 := (inv_recv m K 5 0 0) $$ HR
  ihave #HIv01 := (inv_recv m K 5 0 1) $$ HR
  ihave #HIv02 := (inv_recv m K 5 0 2) $$ HR
  ihave #HIv03 := (inv_recv m K 5 0 3) $$ HR
  ihave #HIv04 := (inv_recv m K 5 0 4) $$ HR
  ihave #HIv06 := (inv_recv m K 5 0 6) $$ HR
  ihave #HIv07 := (inv_recv m K 5 0 7) $$ HR
  ihave #HIv10 := (inv_recv m K 5 1 0) $$ HR
  ihave #HIv11 := (inv_recv m K 5 1 1) $$ HR
  ihave #HIv12 := (inv_recv m K 5 1 2) $$ HR
  ihave #HIv13 := (inv_recv m K 5 1 3) $$ HR
  ihave #HIv14 := (inv_recv m K 5 1 4) $$ HR
  ihave #HIv16 := (inv_recv m K 5 1 6) $$ HR
  ihave #HIv17 := (inv_recv m K 5 1 7) $$ HR
  ihave #Hrb0 := (reached_bar m K 0) $$ HR
  ihave #Hrb1 := (reached_bar m K 1) $$ HR
  ihave #Hrb2 := (reached_bar m K 2) $$ HR
  ihave #Hrb3 := (reached_bar m K 3) $$ HR
  ihave #Hrb4 := (reached_bar m K 4) $$ HR
  ihave #Hrb6 := (reached_bar m K 6) $$ HR
  ihave #Hrb7 := (reached_bar m K 7) $$ HR
  ihave #Hrr00 := (reached_recv m K 0 0 5) $$ HR
  ihave #Hrr01 := (reached_recv m K 0 1 5) $$ HR
  ihave #Hrr10 := (reached_recv m K 1 0 5) $$ HR
  ihave #Hrr11 := (reached_recv m K 1 1 5) $$ HR
  ihave #Hrr20 := (reached_recv m K 2 0 5) $$ HR
  ihave #Hrr21 := (reached_recv m K 2 1 5) $$ HR
  ihave #Hrr30 := (reached_recv m K 3 0 5) $$ HR
  ihave #Hrr31 := (reached_recv m K 3 1 5) $$ HR
  ihave #Hrr40 := (reached_recv m K 4 0 5) $$ HR
  ihave #Hrr41 := (reached_recv m K 4 1 5) $$ HR
  ihave #Hrr60 := (reached_recv m K 6 0 5) $$ HR
  ihave #Hrr61 := (reached_recv m K 6 1 5) $$ HR
  ihave #Hrr70 := (reached_recv m K 7 0 5) $$ HR
  ihave #Hrr71 := (reached_recv m K 7 1 5) $$ HR
  ihave #Hrs00 := (reached_send m K 5 0 0) $$ HR
  ihave #Hrs01 := (reached_send m K 5 0 1) $$ HR
  ihave #Hrs02 := (reached_send m K 5 0 2) $$ HR
  ihave #Hrs03 := (reached_send m K 5 0 3) $$ HR
  ihave #Hrs04 := (reached_send m K 5 0 4) $$ HR
  ihave #Hrs06 := (reached_send m K 5 0 6) $$ HR
  ihave #Hrs07 := (reached_send m K 5 0 7) $$ HR
  ihave #Hrs10 := (reached_send m K 5 1 0) $$ HR
  ihave #Hrs11 := (reached_send m K 5 1 1) $$ HR
  ihave #Hrs12 := (reached_send m K 5 1 2) $$ HR
  ihave #Hrs13 := (reached_send m K 5 1 3) $$ HR
  ihave #Hrs14 := (reached_send m K 5 1 4) $$ HR
  ihave #Hrs16 := (reached_send m K 5 1 6) $$ HR
  ihave #Hrs17 := (reached_send m K 5 1 7) $$ HR
  -- the diagonal cells' invariants (never used by a copy; closed at the end)
  ihave #HIs05 := (inv_send m K 5 0 5) $$ HR
  ihave #HIs15 := (inv_send m K 5 1 5) $$ HR
  ihave #HIv05 := (inv_recv m K 5 0 5) $$ HR
  ihave #HIv15 := (inv_recv m K 5 1 5) $$ HR
  iclear HR
  rw [cc0_body_eq_skeleton]; unfold cc0_body_skel
  -- the device's own two slots of its table, at their contents
  icases Hc50 with ⟨%fc0, Hc50⟩
  icases Hc51 with ⟨%fc1, Hc51⟩
  -- the seven barrier units, the first half's exponentials and row sums, the barrier wait
  sl_exec_parts
  -- what the barrier brought: the peers' slots for this device; what is still owed, in paying order; the first row in shares
  ihave HO := (owes_pay_5 (F := F) _) $$ HO
  ihave Hp := (Entails.of_eq (erase_chain_5 _)) $$ Hab_pay1
  icases Hp with ⟨⟨⟨%fd00, Hd00⟩, ⟨%fd01, Hd01⟩⟩, ⟨⟨%fd10, Hd10⟩, ⟨%fd11, Hd11⟩⟩, ⟨⟨%fd20, Hd20⟩, ⟨%fd21, Hd21⟩⟩, ⟨⟨%fd30, Hd30⟩, ⟨%fd31, Hd31⟩⟩, ⟨⟨%fd40, Hd40⟩, ⟨%fd41, Hd41⟩⟩, ⟨⟨%fd60, Hd60⟩, ⟨%fd61, Hd61⟩⟩, ⟨⟨%fd70, Hd70⟩, ⟨%fd71, Hd71⟩⟩⟩
  ihave Hm0s : iprop(((mineSl 0).view.loc ((5 : Dev nD) : Thread nD τ) ↦[(mineSl 0).view.set]{shr 0} mineOf (xOf m 5)) ∗ ((mineSl 0).view.loc ((5 : Dev nD) : Thread nD τ) ↦[(mineSl 0).view.set]{shr 1} mineOf (xOf m 5)) ∗ ((mineSl 0).view.loc ((5 : Dev nD) : Thread nD τ) ↦[(mineSl 0).view.set]{shr 2} mineOf (xOf m 5)) ∗ ((mineSl 0).view.loc ((5 : Dev nD) : Thread nD τ) ↦[(mineSl 0).view.set]{shr 3} mineOf (xOf m 5)) ∗ ((mineSl 0).view.loc ((5 : Dev nD) : Thread nD τ) ↦[(mineSl 0).view.set]{shr 4} mineOf (xOf m 5)) ∗ ((mineSl 0).view.loc ((5 : Dev nD) : Thread nD τ) ↦[(mineSl 0).view.set]{shr 5} mineOf (xOf m 5)) ∗ ((mineSl 0).view.loc ((5 : Dev nD) : Thread nD τ) ↦[(mineSl 0).view.set]{shr 6} mineOf (xOf m 5)) ∗ ((mineSl 0).view.loc ((5 : Dev nD) : Thread nD τ) ↦[(mineSl 0).view.set]{shr 7} mineOf (xOf m 5))) $$ [Hm0]
  · iapply (row0_shares (F := F) (5 : Dev nD) (xOf m 5) f0); iexact Hm0
  icases Hm0s with ⟨Hm0_0, Hm0_1, Hm0_2, Hm0_3, Hm0_4, Hm0_5, Hm0_6, Hm0_7⟩
  -- the seven copies of the first row
  iapply (wp_send_slot m _ _ 5 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 5 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 5 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 5 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 5 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 5 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  iapply (wp_send_slot m _ _ 5 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((5 : Dev nD) : Thread nD τ) ↦[(mineSl 1).view.set]{shr 0} mineOf (xOf m 5)) ∗ ((mineSl 1).view.loc ((5 : Dev nD) : Thread nD τ) ↦[(mineSl 1).view.set]{shr 1} mineOf (xOf m 5)) ∗ ((mineSl 1).view.loc ((5 : Dev nD) : Thread nD τ) ↦[(mineSl 1).view.set]{shr 2} mineOf (xOf m 5)) ∗ ((mineSl 1).view.loc ((5 : Dev nD) : Thread nD τ) ↦[(mineSl 1).view.set]{shr 3} mineOf (xOf m 5)) ∗ ((mineSl 1).view.loc ((5 : Dev nD) : Thread nD τ) ↦[(mineSl 1).view.set]{shr 4} mineOf (xOf m 5)) ∗ ((mineSl 1).view.loc ((5 : Dev nD) : Thread nD τ) ↦[(mineSl 1).view.set]{shr 5} mineOf (xOf m 5)) ∗ ((mineSl 1).view.loc ((5 : Dev nD) : Thread nD τ) ↦[(mineSl 1).view.set]{shr 6} mineOf (xOf m 5)) ∗ ((mineSl 1).view.loc ((5 : Dev nD) : Thread nD τ) ↦[(mineSl 1).view.set]{shr 7} mineOf (xOf m 5))) $$ [Hm1]
  · iapply (row1_shares (F := F) (5 : Dev nD) (xOf m 5) f0); iexact Hm1
  icases Hm1s with ⟨Hm1_0, Hm1_1, Hm1_2, Hm1_3, Hm1_4, Hm1_5, Hm1_6, Hm1_7⟩
  iapply (wp_send_slot m _ _ 5 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 5 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 5 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 5 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 5 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 5 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  ihave HO := (owes_zero_add (F := F) (5 : Dev nD) _ _) $$ HO
  iapply (wp_send_slot m _ _ 5 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 5 0).view.loc ((5 : Dev nD) : Thread nD τ) ↦[(commSl 5 0).view.set]{fullShare} commOf (Xs m)) $$ [Hc50]
  · iapply (own_slot0 (F := F) m (5 : Dev nD) fc0 _); iexact Hc50
  ihave Hh0 : ((halfM 0).view.loc ((5 : Dev nD) : Thread nD τ) ↦[(halfM 0).view.set]{fullShare} commOf (Xs m)) $$ [Hav00_pay1 Hav01_pay1 Hav02_pay1 Hav03_pay1 Hav04_pay1 Hown0 Hav06_pay1 Hav07_pay1]
  · iapply (half_join (F := F) (5 : Dev nD) 0 (commOf (Xs m)))
    isplitl [Hav00_pay1]; · iexact Hav00_pay1
    isplitl [Hav01_pay1]; · iexact Hav01_pay1
    isplitl [Hav02_pay1]; · iexact Hav02_pay1
    isplitl [Hav03_pay1]; · iexact Hav03_pay1
    isplitl [Hav04_pay1]; · iexact Hav04_pay1
    isplitl [Hown0]; · iexact Hown0
    isplitl [Hav06_pay1]; · iexact Hav06_pay1
    iexact Hav07_pay1
  have hsub0a := half_access_sub0
  have hsub0b := half_setOn_sub0
  sl_exec_parts
  -- the second half likewise; then the departures' waits
  ihave Hown1 : ((commSl 5 1).view.loc ((5 : Dev nD) : Thread nD τ) ↦[(commSl 5 1).view.set]{fullShare} commOf (Xs m)) $$ [Hc51]
  · iapply (own_slot1 (F := F) m (5 : Dev nD) fc1 _); iexact Hc51
  ihave Hh1 : ((halfM 1).view.loc ((5 : Dev nD) : Thread nD τ) ↦[(halfM 1).view.set]{fullShare} commOf (Xs m)) $$ [Hav10_pay1 Hav11_pay1 Hav12_pay1 Hav13_pay1 Hav14_pay1 Hown1 Hav16_pay1 Hav17_pay1]
  · iapply (half_join (F := F) (5 : Dev nD) 1 (commOf (Xs m)))
    isplitl [Hav10_pay1]; · iexact Hav10_pay1
    isplitl [Hav11_pay1]; · iexact Hav11_pay1
    isplitl [Hav12_pay1]; · iexact Hav12_pay1
    isplitl [Hav13_pay1]; · iexact Hav13_pay1
    isplitl [Hav14_pay1]; · iexact Hav14_pay1
    isplitl [Hown1]; · iexact Hown1
    isplitl [Hav16_pay1]; · iexact Hav16_pay1
    iexact Hav17_pay1
  have hsub1a := half_access_sub1
  have hsub1b := half_setOn_sub1
  sl_exec_parts
  -- the cells closed
  imod (close_send m _ 5 0 0 1 (.inr le_rfl)) $$ [Has00] with Hzs00
  · isplitr; · iexact HIs00
    iexact Has00
  imod (close_send m _ 5 0 1 1 (.inr le_rfl)) $$ [Has01] with Hzs01
  · isplitr; · iexact HIs01
    iexact Has01
  imod (close_send m _ 5 0 2 1 (.inr le_rfl)) $$ [Has02] with Hzs02
  · isplitr; · iexact HIs02
    iexact Has02
  imod (close_send m _ 5 0 3 1 (.inr le_rfl)) $$ [Has03] with Hzs03
  · isplitr; · iexact HIs03
    iexact Has03
  imod (close_send m _ 5 0 4 1 (.inr le_rfl)) $$ [Has04] with Hzs04
  · isplitr; · iexact HIs04
    iexact Has04
  imod (close_send m _ 5 0 5 0 (.inl rfl)) $$ [Has05] with Hzs05
  · isplitr; · iexact HIs05
    iexact Has05
  imod (close_send m _ 5 0 6 1 (.inr le_rfl)) $$ [Has06] with Hzs06
  · isplitr; · iexact HIs06
    iexact Has06
  imod (close_send m _ 5 0 7 1 (.inr le_rfl)) $$ [Has07] with Hzs07
  · isplitr; · iexact HIs07
    iexact Has07
  imod (close_send m _ 5 1 0 1 (.inr le_rfl)) $$ [Has10] with Hzs10
  · isplitr; · iexact HIs10
    iexact Has10
  imod (close_send m _ 5 1 1 1 (.inr le_rfl)) $$ [Has11] with Hzs11
  · isplitr; · iexact HIs11
    iexact Has11
  imod (close_send m _ 5 1 2 1 (.inr le_rfl)) $$ [Has12] with Hzs12
  · isplitr; · iexact HIs12
    iexact Has12
  imod (close_send m _ 5 1 3 1 (.inr le_rfl)) $$ [Has13] with Hzs13
  · isplitr; · iexact HIs13
    iexact Has13
  imod (close_send m _ 5 1 4 1 (.inr le_rfl)) $$ [Has14] with Hzs14
  · isplitr; · iexact HIs14
    iexact Has14
  imod (close_send m _ 5 1 5 0 (.inl rfl)) $$ [Has15] with Hzs15
  · isplitr; · iexact HIs15
    iexact Has15
  imod (close_send m _ 5 1 6 1 (.inr le_rfl)) $$ [Has16] with Hzs16
  · isplitr; · iexact HIs16
    iexact Has16
  imod (close_send m _ 5 1 7 1 (.inr le_rfl)) $$ [Has17] with Hzs17
  · isplitr; · iexact HIs17
    iexact Has17
  imod (close_recv m _ 5 0 0 1 (.inr le_rfl)) $$ [Hav00] with Hzv00
  · isplitr; · iexact HIv00
    iexact Hav00
  imod (close_recv m _ 5 0 1 1 (.inr le_rfl)) $$ [Hav01] with Hzv01
  · isplitr; · iexact HIv01
    iexact Hav01
  imod (close_recv m _ 5 0 2 1 (.inr le_rfl)) $$ [Hav02] with Hzv02
  · isplitr; · iexact HIv02
    iexact Hav02
  imod (close_recv m _ 5 0 3 1 (.inr le_rfl)) $$ [Hav03] with Hzv03
  · isplitr; · iexact HIv03
    iexact Hav03
  imod (close_recv m _ 5 0 4 1 (.inr le_rfl)) $$ [Hav04] with Hzv04
  · isplitr; · iexact HIv04
    iexact Hav04
  imod (close_recv m _ 5 0 5 0 (.inl rfl)) $$ [Hav05] with Hzv05
  · isplitr; · iexact HIv05
    iexact Hav05
  imod (close_recv m _ 5 0 6 1 (.inr le_rfl)) $$ [Hav06] with Hzv06
  · isplitr; · iexact HIv06
    iexact Hav06
  imod (close_recv m _ 5 0 7 1 (.inr le_rfl)) $$ [Hav07] with Hzv07
  · isplitr; · iexact HIv07
    iexact Hav07
  imod (close_recv m _ 5 1 0 1 (.inr le_rfl)) $$ [Hav10] with Hzv10
  · isplitr; · iexact HIv10
    iexact Hav10
  imod (close_recv m _ 5 1 1 1 (.inr le_rfl)) $$ [Hav11] with Hzv11
  · isplitr; · iexact HIv11
    iexact Hav11
  imod (close_recv m _ 5 1 2 1 (.inr le_rfl)) $$ [Hav12] with Hzv12
  · isplitr; · iexact HIv12
    iexact Hav12
  imod (close_recv m _ 5 1 3 1 (.inr le_rfl)) $$ [Hav13] with Hzv13
  · isplitr; · iexact HIv13
    iexact Hav13
  imod (close_recv m _ 5 1 4 1 (.inr le_rfl)) $$ [Hav14] with Hzv14
  · isplitr; · iexact HIv14
    iexact Hav14
  imod (close_recv m _ 5 1 5 0 (.inl rfl)) $$ [Hav15] with Hzv15
  · isplitr; · iexact HIv15
    iexact Hav15
  imod (close_recv m _ 5 1 6 1 (.inr le_rfl)) $$ [Hav16] with Hzv16
  · isplitr; · iexact HIv16
    iexact Hav16
  imod (close_recv m _ 5 1 7 1 (.inr le_rfl)) $$ [Hav17] with Hzv17
  · isplitr; · iexact HIv17
    iexact Hav17
  -- the two tables whole again
  ihave Hrow0 : ((mineSl 0).view.loc ((5 : Dev nD) : Thread nD τ) ↦[(mineSl 0).view.set]{fullShare} mineOf (xOf m 5)) $$ [Has00_pay1 Has01_pay1 Has02_pay1 Has03_pay1 Has04_pay1 Hm0_5 Has06_pay1 Has07_pay1]
  · iapply (row_rejoin (F := F) (5 : Dev nD) 0 (xOf m 5))
    isplitl [Has00_pay1]; · iexact Has00_pay1
    isplitl [Has01_pay1]; · iexact Has01_pay1
    isplitl [Has02_pay1]; · iexact Has02_pay1
    isplitl [Has03_pay1]; · iexact Has03_pay1
    isplitl [Has04_pay1]; · iexact Has04_pay1
    isplitl [Hm0_5]; · iexact Hm0_5
    isplitl [Has06_pay1]; · iexact Has06_pay1
    iexact Has07_pay1
  ihave Hrow1 : ((mineSl 1).view.loc ((5 : Dev nD) : Thread nD τ) ↦[(mineSl 1).view.set]{fullShare} mineOf (xOf m 5)) $$ [Has10_pay1 Has11_pay1 Has12_pay1 Has13_pay1 Has14_pay1 Hm1_5 Has16_pay1 Has17_pay1]
  · iapply (row_rejoin (F := F) (5 : Dev nD) 1 (xOf m 5))
    isplitl [Has10_pay1]; · iexact Has10_pay1
    isplitl [Has11_pay1]; · iexact Has11_pay1
    isplitl [Has12_pay1]; · iexact Has12_pay1
    isplitl [Has13_pay1]; · iexact Has13_pay1
    isplitl [Has14_pay1]; · iexact Has14_pay1
    isplitl [Hm1_5]; · iexact Hm1_5
    isplitl [Has16_pay1]; · iexact Has16_pay1
    iexact Has17_pay1
  ihave Hmine := (mine_join (F := F) (5 : Dev nD) (mineOf (xOf m 5))) $$ [Hrow0 Hrow1]
  · isplitl [Hrow0]; · iexact Hrow0
    iexact Hrow1
  ihave Hcomm := (halves_join (F := F) (5 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((5 : Dev nD) : Thread nD τ) ↦[(oM : Memref sig .tc .vmem S1024x1024 .bf16).view.set]{fullShare} outOf (fun q => xOf m q) 5) $$ [Ho]
  · have hT : body_5.sl.r_2 m = oTop (fun q => xOf m q) (5 : Dev nD) := by
      sl_unfold_run_names
      exact congrArg₂ k0_pay10 rfl (readCov_top _ _ _)
    have hB : k0_pay13 (body_5.sl.r_3 m) k0_pay12 (body_5.sl.v183 m) = oBot (fun q => xOf m q) (5 : Dev nD) := by
      sl_unfold_run_names
      exact congrArg₂ (fun a b => k0_pay13 (k0_pay11 a) k0_pay12 b) rfl (readCov_bot _ _ _ _)
    iapply (out_settle (F := F) m (5 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.Kernel.Sm

end
-- ==== Proof.W.Body6.lean ====
/-
  The kernel body on device 6, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.W.BodyWrap
import proofs.«901053_g7700000000001054_dist_softmax_colshard_i_m1024_n1024_v7x_i8_bf16_1_alg».proof.Proof.W.BodyPieces
import proofs.«901053_g7700000000001054_dist_softmax_colshard_i_m1024_n1024_v7x_i8_bf16_1_alg».proof.Proof.W.OpenKit
import proofs.«901053_g7700000000001054_dist_softmax_colshard_i_m1024_n1024_v7x_i8_bf16_1_alg».proof.Proof.W.Canon
import proofs.«901053_g7700000000001054_dist_softmax_colshard_i_m1024_n1024_v7x_i8_bf16_1_alg».proof.Proof.W.SendRule
import proofs.«901053_g7700000000001054_dist_softmax_colshard_i_m1024_n1024_v7x_i8_bf16_1_alg».proof.Proof.W.BodyEnd
import proofs.«901053_g7700000000001054_dist_softmax_colshard_i_m1024_n1024_v7x_i8_bf16_1_alg».proof.Proof.W.Glue3
import proofs.«901053_g7700000000001054_dist_softmax_colshard_i_m1024_n1024_v7x_i8_bf16_1_alg».proof.Proof.W.OutFinal

noncomputable section

namespace Cert.Kernel.Sm

set_option maxRecDepth 8000

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_6 (K : Dev nD × Fin 33 → ℕ) (W : Waits sig Unit) (Kt : PUnit → sProp 𝕄) :
    iprop(bodyPreE m K 6 W ∗ (bodyPostE m 6 -∗ Kt ⟨⟩))
      ⊢ wp frame (wpE (defs₀ (F := F)) 𝒱₀ ((6 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((6 : Dev nD) : Thread nD τ) (.reg barS) () (recvOwed 6) := mayWait_recvOwed 6
  -- the precondition taken apart
  unfold bodyPreE ghost linear creds scratches
  rw [erase_chain_6, erase_chain_6, pos_chain, O₀_chain_6]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb2, Htr20, Htr21, Hts02, Hts12⟩, ⟨Htb3, Htr30, Htr31, Hts03, Hts13⟩, ⟨Htb4, Htr40, Htr41, Hts04, Hts14⟩, ⟨Htb5, Htr50, Htr51, Hts05, Hts15⟩, ⟨Htb7, Htr70, Htr71, Hts07, Hts17⟩⟩⟩,
    ⟨Hcb, ⟨Hcv00, Hcv10⟩, ⟨Hcv01, Hcv11⟩, ⟨Hcv02, Hcv12⟩, ⟨Hcv03, Hcv13⟩, ⟨Hcv04, Hcv14⟩, ⟨Hcv05, Hcv15⟩, ⟨Hcv07, Hcv17⟩⟩, #Hlev, ⟨⟨%f0, Hm⟩, Hc⟩, HO, Hx, ⟨%g0, Ho⟩⟩, Hk⟩
  -- the two scratch tables by rows and by slots
  ihave Hm' := (mine_split 6 f0) $$ Hm
  icases Hm' with ⟨Hm0, Hm1⟩
  ihave Hc' := (comm_split_ex (F := F) 6) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 6) $$ HR
  ihave #HIr01 := (inv_recv m K 0 1 6) $$ HR
  ihave #HIr10 := (inv_recv m K 1 0 6) $$ HR
  ihave #HIr11 := (inv_recv m K 1 1 6) $$ HR
  ihave #HIr20 := (inv_recv m K 2 0 6) $$ HR
  ihave #HIr21 := (inv_recv m K 2 1 6) $$ HR
  ihave #HIr30 := (inv_recv m K 3 0 6) $$ HR
  ihave #HIr31 := (inv_recv m K 3 1 6) $$ HR
  ihave #HIr40 := (inv_recv m K 4 0 6) $$ HR
  ihave #HIr41 := (inv_recv m K 4 1 6) $$ HR
  ihave #HIr50 := (inv_recv m K 5 0 6) $$ HR
  ihave #HIr51 := (inv_recv m K 5 1 6) $$ HR
  ihave #HIr70 := (inv_recv m K 7 0 6) $$ HR
  ihave #HIr71 := (inv_recv m K 7 1 6) $$ HR
  ihave #HIs00 := (inv_send m K 6 0 0) $$ HR
  ihave #HIs01 := (inv_send m K 6 0 1) $$ HR
  ihave #HIs02 := (inv_send m K 6 0 2) $$ HR
  ihave #HIs03 := (inv_send m K 6 0 3) $$ HR
  ihave #HIs04 := (inv_send m K 6 0 4) $$ HR
  ihave #HIs05 := (inv_send m K 6 0 5) $$ HR
  ihave #HIs07 := (inv_send m K 6 0 7) $$ HR
  ihave #HIs10 := (inv_send m K 6 1 0) $$ HR
  ihave #HIs11 := (inv_send m K 6 1 1) $$ HR
  ihave #HIs12 := (inv_send m K 6 1 2) $$ HR
  ihave #HIs13 := (inv_send m K 6 1 3) $$ HR
  ihave #HIs14 := (inv_send m K 6 1 4) $$ HR
  ihave #HIs15 := (inv_send m K 6 1 5) $$ HR
  ihave #HIs17 := (inv_send m K 6 1 7) $$ HR
  ihave #HIv00 := (inv_recv m K 6 0 0) $$ HR
  ihave #HIv01 := (inv_recv m K 6 0 1) $$ HR
  ihave #HIv02 := (inv_recv m K 6 0 2) $$ HR
  ihave #HIv03 := (inv_recv m K 6 0 3) $$ HR
  ihave #HIv04 := (inv_recv m K 6 0 4) $$ HR
  ihave #HIv05 := (inv_recv m K 6 0 5) $$ HR
  ihave #HIv07 := (inv_recv m K 6 0 7) $$ HR
  ihave #HIv10 := (inv_recv m K 6 1 0) $$ HR
  ihave #HIv11 := (inv_recv m K 6 1 1) $$ HR
  ihave #HIv12 := (inv_recv m K 6 1 2) $$ HR
  ihave #HIv13 := (inv_recv m K 6 1 3) $$ HR
  ihave #HIv14 := (inv_recv m K 6 1 4) $$ HR
  ihave #HIv15 := (inv_recv m K 6 1 5) $$ HR
  ihave #HIv17 := (inv_recv m K 6 1 7) $$ HR
  ihave #Hrb0 := (reached_bar m K 0) $$ HR
  ihave #Hrb1 := (reached_bar m K 1) $$ HR
  ihave #Hrb2 := (reached_bar m K 2) $$ HR
  ihave #Hrb3 := (reached_bar m K 3) $$ HR
  ihave #Hrb4 := (reached_bar m K 4) $$ HR
  ihave #Hrb5 := (reached_bar m K 5) $$ HR
  ihave #Hrb7 := (reached_bar m K 7) $$ HR
  ihave #Hrr00 := (reached_recv m K 0 0 6) $$ HR
  ihave #Hrr01 := (reached_recv m K 0 1 6) $$ HR
  ihave #Hrr10 := (reached_recv m K 1 0 6) $$ HR
  ihave #Hrr11 := (reached_recv m K 1 1 6) $$ HR
  ihave #Hrr20 := (reached_recv m K 2 0 6) $$ HR
  ihave #Hrr21 := (reached_recv m K 2 1 6) $$ HR
  ihave #Hrr30 := (reached_recv m K 3 0 6) $$ HR
  ihave #Hrr31 := (reached_recv m K 3 1 6) $$ HR
  ihave #Hrr40 := (reached_recv m K 4 0 6) $$ HR
  ihave #Hrr41 := (reached_recv m K 4 1 6) $$ HR
  ihave #Hrr50 := (reached_recv m K 5 0 6) $$ HR
  ihave #Hrr51 := (reached_recv m K 5 1 6) $$ HR
  ihave #Hrr70 := (reached_recv m K 7 0 6) $$ HR
  ihave #Hrr71 := (reached_recv m K 7 1 6) $$ HR
  ihave #Hrs00 := (reached_send m K 6 0 0) $$ HR
  ihave #Hrs01 := (reached_send m K 6 0 1) $$ HR
  ihave #Hrs02 := (reached_send m K 6 0 2) $$ HR
  ihave #Hrs03 := (reached_send m K 6 0 3) $$ HR
  ihave #Hrs04 := (reached_send m K 6 0 4) $$ HR
  ihave #Hrs05 := (reached_send m K 6 0 5) $$ HR
  ihave #Hrs07 := (reached_send m K 6 0 7) $$ HR
  ihave #Hrs10 := (reached_send m K 6 1 0) $$ HR
  ihave #Hrs11 := (reached_send m K 6 1 1) $$ HR
  ihave #Hrs12 := (reached_send m K 6 1 2) $$ HR
  ihave #Hrs13 := (reached_send m K 6 1 3) $$ HR
  ihave #Hrs14 := (reached_send m K 6 1 4) $$ HR
  ihave #Hrs15 := (reached_send m K 6 1 5) $$ HR
  ihave #Hrs17 := (reached_send m K 6 1 7) $$ HR
  -- the diagonal cells' invariants (never used by a copy; closed at the end)
  ihave #HIs06 := (inv_send m K 6 0 6) $$ HR
  ihave #HIs16 := (inv_send m K 6 1 6) $$ HR
  ihave #HIv06 := (inv_recv m K 6 0 6) $$ HR
  ihave #HIv16 := (inv_recv m K 6 1 6) $$ HR
  iclear HR
  rw [cc0_body_eq_skeleton]; unfold cc0_body_skel
  -- the device's own two slots of its table, at their contents
  icases Hc60 with ⟨%fc0, Hc60⟩
  icases Hc61 with ⟨%fc1, Hc61⟩
  -- the seven barrier units, the first half's exponentials and row sums, the barrier wait
  sl_exec_parts
  -- what the barrier brought: the peers' slots for this device; what is still owed, in paying order; the first row in shares
  ihave HO := (owes_pay_6 (F := F) _) $$ HO
  ihave Hp := (Entails.of_eq (erase_chain_6 _)) $$ Hab_pay1
  icases Hp with ⟨⟨⟨%fd00, Hd00⟩, ⟨%fd01, Hd01⟩⟩, ⟨⟨%fd10, Hd10⟩, ⟨%fd11, Hd11⟩⟩, ⟨⟨%fd20, Hd20⟩, ⟨%fd21, Hd21⟩⟩, ⟨⟨%fd30, Hd30⟩, ⟨%fd31, Hd31⟩⟩, ⟨⟨%fd40, Hd40⟩, ⟨%fd41, Hd41⟩⟩, ⟨⟨%fd50, Hd50⟩, ⟨%fd51, Hd51⟩⟩, ⟨⟨%fd70, Hd70⟩, ⟨%fd71, Hd71⟩⟩⟩
  ihave Hm0s : iprop(((mineSl 0).view.loc ((6 : Dev nD) : Thread nD τ) ↦[(mineSl 0).view.set]{shr 0} mineOf (xOf m 6)) ∗ ((mineSl 0).view.loc ((6 : Dev nD) : Thread nD τ) ↦[(mineSl 0).view.set]{shr 1} mineOf (xOf m 6)) ∗ ((mineSl 0).view.loc ((6 : Dev nD) : Thread nD τ) ↦[(mineSl 0).view.set]{shr 2} mineOf (xOf m 6)) ∗ ((mineSl 0).view.loc ((6 : Dev nD) : Thread nD τ) ↦[(mineSl 0).view.set]{shr 3} mineOf (xOf m 6)) ∗ ((mineSl 0).view.loc ((6 : Dev nD) : Thread nD τ) ↦[(mineSl 0).view.set]{shr 4} mineOf (xOf m 6)) ∗ ((mineSl 0).view.loc ((6 : Dev nD) : Thread nD τ) ↦[(mineSl 0).view.set]{shr 5} mineOf (xOf m 6)) ∗ ((mineSl 0).view.loc ((6 : Dev nD) : Thread nD τ) ↦[(mineSl 0).view.set]{shr 6} mineOf (xOf m 6)) ∗ ((mineSl 0).view.loc ((6 : Dev nD) : Thread nD τ) ↦[(mineSl 0).view.set]{shr 7} mineOf (xOf m 6))) $$ [Hm0]
  · iapply (row0_shares (F := F) (6 : Dev nD) (xOf m 6) f0); iexact Hm0
  icases Hm0s with ⟨Hm0_0, Hm0_1, Hm0_2, Hm0_3, Hm0_4, Hm0_5, Hm0_6, Hm0_7⟩
  -- the seven copies of the first row
  iapply (wp_send_slot m _ _ 6 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 6 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 6 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 6 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 6 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 6 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 6 7 _ 0 (dev16_c _) (by decide) fd70 _ _) $$ [Hm0_7 Hd70 HO Hts07 Htr70]
  · isplitr; · iexact HIs07
    isplitr; · iexact HIr70
    isplitl [Hm0_7]; · iexact Hm0_7
    isplitl [Hd70]; · iexact Hd70
    isplitl [HO]; · iexact HO
    isplitl [Hts07]; · iexact Hts07
    isplitr; · iexact Hrs07
    isplitl [Htr70]; · iexact Htr70
    iexact Hrr70
  iintro ⟨Hcs07, HO⟩
  sl_exec_parts
  -- the second row in shares, its seven copies
  ihave Hm1s : iprop(((mineSl 1).view.loc ((6 : Dev nD) : Thread nD τ) ↦[(mineSl 1).view.set]{shr 0} mineOf (xOf m 6)) ∗ ((mineSl 1).view.loc ((6 : Dev nD) : Thread nD τ) ↦[(mineSl 1).view.set]{shr 1} mineOf (xOf m 6)) ∗ ((mineSl 1).view.loc ((6 : Dev nD) : Thread nD τ) ↦[(mineSl 1).view.set]{shr 2} mineOf (xOf m 6)) ∗ ((mineSl 1).view.loc ((6 : Dev nD) : Thread nD τ) ↦[(mineSl 1).view.set]{shr 3} mineOf (xOf m 6)) ∗ ((mineSl 1).view.loc ((6 : Dev nD) : Thread nD τ) ↦[(mineSl 1).view.set]{shr 4} mineOf (xOf m 6)) ∗ ((mineSl 1).view.loc ((6 : Dev nD) : Thread nD τ) ↦[(mineSl 1).view.set]{shr 5} mineOf (xOf m 6)) ∗ ((mineSl 1).view.loc ((6 : Dev nD) : Thread nD τ) ↦[(mineSl 1).view.set]{shr 6} mineOf (xOf m 6)) ∗ ((mineSl 1).view.loc ((6 : Dev nD) : Thread nD τ) ↦[(mineSl 1).view.set]{shr 7} mineOf (xOf m 6))) $$ [Hm1]
  · iapply (row1_shares (F := F) (6 : Dev nD) (xOf m 6) f0); iexact Hm1
  icases Hm1s with ⟨Hm1_0, Hm1_1, Hm1_2, Hm1_3, Hm1_4, Hm1_5, Hm1_6, Hm1_7⟩
  iapply (wp_send_slot m _ _ 6 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 6 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 6 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 6 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 6 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 6 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  ihave HO := (owes_zero_add (F := F) (6 : Dev nD) _ _) $$ HO
  iapply (wp_send_slot m _ _ 6 7 _ 1 (dev24_c _) (by decide) fd71 _ _) $$ [Hm1_7 Hd71 HO Hts17 Htr71]
  · isplitr; · iexact HIs17
    isplitr; · iexact HIr71
    isplitl [Hm1_7]; · iexact Hm1_7
    isplitl [Hd71]; · iexact Hd71
    isplitl [HO]; · iexact HO
    isplitl [Hts17]; · iexact Hts17
    isplitr; · iexact Hrs17
    isplitl [Htr71]; · iexact Htr71
    iexact Hrr71
  iintro ⟨Hcs17, HO⟩
  sl_exec_parts
  -- the first half of the table whole: the seven landings and the own slot; its sum, the first half of the result
  ihave Hown0 : ((commSl 6 0).view.loc ((6 : Dev nD) : Thread nD τ) ↦[(commSl 6 0).view.set]{fullShare} commOf (Xs m)) $$ [Hc60]
  · iapply (own_slot0 (F := F) m (6 : Dev nD) fc0 _); iexact Hc60
  ihave Hh0 : ((halfM 0).view.loc ((6 : Dev nD) : Thread nD τ) ↦[(halfM 0).view.set]{fullShare} commOf (Xs m)) $$ [Hav00_pay1 Hav01_pay1 Hav02_pay1 Hav03_pay1 Hav04_pay1 Hav05_pay1 Hown0 Hav07_pay1]
  · iapply (half_join (F := F) (6 : Dev nD) 0 (commOf (Xs m)))
    isplitl [Hav00_pay1]; · iexact Hav00_pay1
    isplitl [Hav01_pay1]; · iexact Hav01_pay1
    isplitl [Hav02_pay1]; · iexact Hav02_pay1
    isplitl [Hav03_pay1]; · iexact Hav03_pay1
    isplitl [Hav04_pay1]; · iexact Hav04_pay1
    isplitl [Hav05_pay1]; · iexact Hav05_pay1
    isplitl [Hown0]; · iexact Hown0
    iexact Hav07_pay1
  have hsub0a := half_access_sub0
  have hsub0b := half_setOn_sub0
  sl_exec_parts
  -- the second half likewise; then the departures' waits
  ihave Hown1 : ((commSl 6 1).view.loc ((6 : Dev nD) : Thread nD τ) ↦[(commSl 6 1).view.set]{fullShare} commOf (Xs m)) $$ [Hc61]
  · iapply (own_slot1 (F := F) m (6 : Dev nD) fc1 _); iexact Hc61
  ihave Hh1 : ((halfM 1).view.loc ((6 : Dev nD) : Thread nD τ) ↦[(halfM 1).view.set]{fullShare} commOf (Xs m)) $$ [Hav10_pay1 Hav11_pay1 Hav12_pay1 Hav13_pay1 Hav14_pay1 Hav15_pay1 Hown1 Hav17_pay1]
  · iapply (half_join (F := F) (6 : Dev nD) 1 (commOf (Xs m)))
    isplitl [Hav10_pay1]; · iexact Hav10_pay1
    isplitl [Hav11_pay1]; · iexact Hav11_pay1
    isplitl [Hav12_pay1]; · iexact Hav12_pay1
    isplitl [Hav13_pay1]; · iexact Hav13_pay1
    isplitl [Hav14_pay1]; · iexact Hav14_pay1
    isplitl [Hav15_pay1]; · iexact Hav15_pay1
    isplitl [Hown1]; · iexact Hown1
    iexact Hav17_pay1
  have hsub1a := half_access_sub1
  have hsub1b := half_setOn_sub1
  sl_exec_parts
  -- the cells closed
  imod (close_send m _ 6 0 0 1 (.inr le_rfl)) $$ [Has00] with Hzs00
  · isplitr; · iexact HIs00
    iexact Has00
  imod (close_send m _ 6 0 1 1 (.inr le_rfl)) $$ [Has01] with Hzs01
  · isplitr; · iexact HIs01
    iexact Has01
  imod (close_send m _ 6 0 2 1 (.inr le_rfl)) $$ [Has02] with Hzs02
  · isplitr; · iexact HIs02
    iexact Has02
  imod (close_send m _ 6 0 3 1 (.inr le_rfl)) $$ [Has03] with Hzs03
  · isplitr; · iexact HIs03
    iexact Has03
  imod (close_send m _ 6 0 4 1 (.inr le_rfl)) $$ [Has04] with Hzs04
  · isplitr; · iexact HIs04
    iexact Has04
  imod (close_send m _ 6 0 5 1 (.inr le_rfl)) $$ [Has05] with Hzs05
  · isplitr; · iexact HIs05
    iexact Has05
  imod (close_send m _ 6 0 6 0 (.inl rfl)) $$ [Has06] with Hzs06
  · isplitr; · iexact HIs06
    iexact Has06
  imod (close_send m _ 6 0 7 1 (.inr le_rfl)) $$ [Has07] with Hzs07
  · isplitr; · iexact HIs07
    iexact Has07
  imod (close_send m _ 6 1 0 1 (.inr le_rfl)) $$ [Has10] with Hzs10
  · isplitr; · iexact HIs10
    iexact Has10
  imod (close_send m _ 6 1 1 1 (.inr le_rfl)) $$ [Has11] with Hzs11
  · isplitr; · iexact HIs11
    iexact Has11
  imod (close_send m _ 6 1 2 1 (.inr le_rfl)) $$ [Has12] with Hzs12
  · isplitr; · iexact HIs12
    iexact Has12
  imod (close_send m _ 6 1 3 1 (.inr le_rfl)) $$ [Has13] with Hzs13
  · isplitr; · iexact HIs13
    iexact Has13
  imod (close_send m _ 6 1 4 1 (.inr le_rfl)) $$ [Has14] with Hzs14
  · isplitr; · iexact HIs14
    iexact Has14
  imod (close_send m _ 6 1 5 1 (.inr le_rfl)) $$ [Has15] with Hzs15
  · isplitr; · iexact HIs15
    iexact Has15
  imod (close_send m _ 6 1 6 0 (.inl rfl)) $$ [Has16] with Hzs16
  · isplitr; · iexact HIs16
    iexact Has16
  imod (close_send m _ 6 1 7 1 (.inr le_rfl)) $$ [Has17] with Hzs17
  · isplitr; · iexact HIs17
    iexact Has17
  imod (close_recv m _ 6 0 0 1 (.inr le_rfl)) $$ [Hav00] with Hzv00
  · isplitr; · iexact HIv00
    iexact Hav00
  imod (close_recv m _ 6 0 1 1 (.inr le_rfl)) $$ [Hav01] with Hzv01
  · isplitr; · iexact HIv01
    iexact Hav01
  imod (close_recv m _ 6 0 2 1 (.inr le_rfl)) $$ [Hav02] with Hzv02
  · isplitr; · iexact HIv02
    iexact Hav02
  imod (close_recv m _ 6 0 3 1 (.inr le_rfl)) $$ [Hav03] with Hzv03
  · isplitr; · iexact HIv03
    iexact Hav03
  imod (close_recv m _ 6 0 4 1 (.inr le_rfl)) $$ [Hav04] with Hzv04
  · isplitr; · iexact HIv04
    iexact Hav04
  imod (close_recv m _ 6 0 5 1 (.inr le_rfl)) $$ [Hav05] with Hzv05
  · isplitr; · iexact HIv05
    iexact Hav05
  imod (close_recv m _ 6 0 6 0 (.inl rfl)) $$ [Hav06] with Hzv06
  · isplitr; · iexact HIv06
    iexact Hav06
  imod (close_recv m _ 6 0 7 1 (.inr le_rfl)) $$ [Hav07] with Hzv07
  · isplitr; · iexact HIv07
    iexact Hav07
  imod (close_recv m _ 6 1 0 1 (.inr le_rfl)) $$ [Hav10] with Hzv10
  · isplitr; · iexact HIv10
    iexact Hav10
  imod (close_recv m _ 6 1 1 1 (.inr le_rfl)) $$ [Hav11] with Hzv11
  · isplitr; · iexact HIv11
    iexact Hav11
  imod (close_recv m _ 6 1 2 1 (.inr le_rfl)) $$ [Hav12] with Hzv12
  · isplitr; · iexact HIv12
    iexact Hav12
  imod (close_recv m _ 6 1 3 1 (.inr le_rfl)) $$ [Hav13] with Hzv13
  · isplitr; · iexact HIv13
    iexact Hav13
  imod (close_recv m _ 6 1 4 1 (.inr le_rfl)) $$ [Hav14] with Hzv14
  · isplitr; · iexact HIv14
    iexact Hav14
  imod (close_recv m _ 6 1 5 1 (.inr le_rfl)) $$ [Hav15] with Hzv15
  · isplitr; · iexact HIv15
    iexact Hav15
  imod (close_recv m _ 6 1 6 0 (.inl rfl)) $$ [Hav16] with Hzv16
  · isplitr; · iexact HIv16
    iexact Hav16
  imod (close_recv m _ 6 1 7 1 (.inr le_rfl)) $$ [Hav17] with Hzv17
  · isplitr; · iexact HIv17
    iexact Hav17
  -- the two tables whole again
  ihave Hrow0 : ((mineSl 0).view.loc ((6 : Dev nD) : Thread nD τ) ↦[(mineSl 0).view.set]{fullShare} mineOf (xOf m 6)) $$ [Has00_pay1 Has01_pay1 Has02_pay1 Has03_pay1 Has04_pay1 Has05_pay1 Hm0_6 Has07_pay1]
  · iapply (row_rejoin (F := F) (6 : Dev nD) 0 (xOf m 6))
    isplitl [Has00_pay1]; · iexact Has00_pay1
    isplitl [Has01_pay1]; · iexact Has01_pay1
    isplitl [Has02_pay1]; · iexact Has02_pay1
    isplitl [Has03_pay1]; · iexact Has03_pay1
    isplitl [Has04_pay1]; · iexact Has04_pay1
    isplitl [Has05_pay1]; · iexact Has05_pay1
    isplitl [Hm0_6]; · iexact Hm0_6
    iexact Has07_pay1
  ihave Hrow1 : ((mineSl 1).view.loc ((6 : Dev nD) : Thread nD τ) ↦[(mineSl 1).view.set]{fullShare} mineOf (xOf m 6)) $$ [Has10_pay1 Has11_pay1 Has12_pay1 Has13_pay1 Has14_pay1 Has15_pay1 Hm1_6 Has17_pay1]
  · iapply (row_rejoin (F := F) (6 : Dev nD) 1 (xOf m 6))
    isplitl [Has10_pay1]; · iexact Has10_pay1
    isplitl [Has11_pay1]; · iexact Has11_pay1
    isplitl [Has12_pay1]; · iexact Has12_pay1
    isplitl [Has13_pay1]; · iexact Has13_pay1
    isplitl [Has14_pay1]; · iexact Has14_pay1
    isplitl [Has15_pay1]; · iexact Has15_pay1
    isplitl [Hm1_6]; · iexact Hm1_6
    iexact Has17_pay1
  ihave Hmine := (mine_join (F := F) (6 : Dev nD) (mineOf (xOf m 6))) $$ [Hrow0 Hrow1]
  · isplitl [Hrow0]; · iexact Hrow0
    iexact Hrow1
  ihave Hcomm := (halves_join (F := F) (6 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((6 : Dev nD) : Thread nD τ) ↦[(oM : Memref sig .tc .vmem S1024x1024 .bf16).view.set]{fullShare} outOf (fun q => xOf m q) 6) $$ [Ho]
  · have hT : body_6.sl.r_2 m = oTop (fun q => xOf m q) (6 : Dev nD) := by
      sl_unfold_run_names
      exact congrArg₂ k0_pay10 rfl (readCov_top _ _ _)
    have hB : k0_pay13 (body_6.sl.r_3 m) k0_pay12 (body_6.sl.v183 m) = oBot (fun q => xOf m q) (6 : Dev nD) := by
      sl_unfold_run_names
      exact congrArg₂ (fun a b => k0_pay13 (k0_pay11 a) k0_pay12 b) rfl (readCov_bot _ _ _ _)
    iapply (out_settle (F := F) m (6 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.Kernel.Sm

end
-- ==== Proof.W.Body7.lean ====
/-
  The kernel body on device 7, run from the ghost state the launch deals it to the state it hands back:
  the barrier units, the two rows of row sums copied to the seven peers, the seven landings of each half joined
  with the own slot, the halves' sums, the result block; then every cell closed and the tables whole again.
-/
import proofs.«901053_g7700000000001054_dist_softmax_colshard_i_m1024_n1024_v7x_i8_bf16_1_alg».proof.Proof.W.BodyWrap
import proofs.«901053_g7700000000001054_dist_softmax_colshard_i_m1024_n1024_v7x_i8_bf16_1_alg».proof.Proof.W.BodyPieces
import proofs.«901053_g7700000000001054_dist_softmax_colshard_i_m1024_n1024_v7x_i8_bf16_1_alg».proof.Proof.W.OpenKit
import proofs.«901053_g7700000000001054_dist_softmax_colshard_i_m1024_n1024_v7x_i8_bf16_1_alg».proof.Proof.W.Canon
import proofs.«901053_g7700000000001054_dist_softmax_colshard_i_m1024_n1024_v7x_i8_bf16_1_alg».proof.Proof.W.SendRule
import proofs.«901053_g7700000000001054_dist_softmax_colshard_i_m1024_n1024_v7x_i8_bf16_1_alg».proof.Proof.W.BodyEnd
import proofs.«901053_g7700000000001054_dist_softmax_colshard_i_m1024_n1024_v7x_i8_bf16_1_alg».proof.Proof.W.Glue3
import proofs.«901053_g7700000000001054_dist_softmax_colshard_i_m1024_n1024_v7x_i8_bf16_1_alg».proof.Proof.W.OutFinal

noncomputable section

namespace Cert.Kernel.Sm

set_option maxRecDepth 8000

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

attribute [local sl_canon] mem2_c mem4_c mem6_c mem8_c mem10_c mem12_c mem14_c mem16_c mem19_c mem21_c mem23_c mem25_c mem27_c mem29_c mem31_c mem33_c mem35_c mem36_c mem37_c mem38_c mem39_c mem40_c mem41_c mem42_c mem43_c mem44_c mem45_c mem46_c mem47_c mem48_c mem49_c mem50_c mem17_c mem34_c sem1_c sem3_c sem5_c sem7_c sem9_c sem11_c sem13_c sem15_c sem18_c sem20_c sem22_c sem24_c sem26_c sem28_c sem30_c sem32_c dev1_c dev2_c dev3_c dev4_c dev5_c dev6_c dev7_c dev8_c dev9_c dev10_c dev11_c dev12_c dev13_c dev14_c dev15_c dev16_c dev17_c dev18_c dev19_c dev20_c dev21_c dev22_c dev23_c dev24_c
attribute [local sl_rounds] duties_bar duties_send duties_recv amount_bar amount_send amount_recv payload_bar' payload_send' payload_recv' expect_bar expect_send expect_recv

set_option sl_exec.stepHeartbeats 1000000 in
set_option maxHeartbeats 4000000 in
theorem body_7 (K : Dev nD × Fin 33 → ℕ) (W : Waits sig Unit) (Kt : PUnit → sProp 𝕄) :
    iprop(bodyPreE m K 7 W ∗ (bodyPostE m 7 -∗ Kt ⟨⟩))
      ⊢ wp frame (wpE (defs₀ (F := F)) 𝒱₀ ((7 : Dev nD) : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  have hmw : (levAts L lv : sProp 𝕄) ⊢ MayWait ((7 : Dev nD) : Thread nD τ) (.reg barS) () (recvOwed 7) := mayWait_recvOwed 7
  -- the precondition taken apart
  unfold bodyPreE ghost linear creds scratches
  rw [erase_chain_7, erase_chain_7, pos_chain, O₀_chain_7]
  unfold payToks
  iintro ⟨⟨⟨#HR, ⟨Hab, Has00, Has01, Has02, Has03, Has04, Has05, Has06, Has07, Has10, Has11, Has12, Has13, Has14, Has15, Has16, Has17, Hav00, Hav01, Hav02, Hav03, Hav04, Hav05, Hav06, Hav07, Hav10, Hav11, Hav12, Hav13, Hav14, Hav15, Hav16, Hav17⟩,
      ⟨⟨Htb0, Htr00, Htr01, Hts00, Hts10⟩, ⟨Htb1, Htr10, Htr11, Hts01, Hts11⟩, ⟨Htb2, Htr20, Htr21, Hts02, Hts12⟩, ⟨Htb3, Htr30, Htr31, Hts03, Hts13⟩, ⟨Htb4, Htr40, Htr41, Hts04, Hts14⟩, ⟨Htb5, Htr50, Htr51, Hts05, Hts15⟩, ⟨Htb6, Htr60, Htr61, Hts06, Hts16⟩⟩⟩,
    ⟨Hcb, ⟨Hcv00, Hcv10⟩, ⟨Hcv01, Hcv11⟩, ⟨Hcv02, Hcv12⟩, ⟨Hcv03, Hcv13⟩, ⟨Hcv04, Hcv14⟩, ⟨Hcv05, Hcv15⟩, ⟨Hcv06, Hcv16⟩⟩, #Hlev, ⟨⟨%f0, Hm⟩, Hc⟩, HO, Hx, ⟨%g0, Ho⟩⟩, Hk⟩
  -- the two scratch tables by rows and by slots
  ihave Hm' := (mine_split 7 f0) $$ Hm
  icases Hm' with ⟨Hm0, Hm1⟩
  ihave Hc' := (comm_split_ex (F := F) 7) $$ Hc
  icases Hc' with ⟨Hc00, Hc01, Hc10, Hc11, Hc20, Hc21, Hc30, Hc31, Hc40, Hc41, Hc50, Hc51, Hc60, Hc61, Hc70, Hc71⟩
  -- the invariants and reached marks of the cells the body touches
  ihave #HIb0 := (inv_bar m K 0) $$ HR
  ihave #HIb1 := (inv_bar m K 1) $$ HR
  ihave #HIb2 := (inv_bar m K 2) $$ HR
  ihave #HIb3 := (inv_bar m K 3) $$ HR
  ihave #HIb4 := (inv_bar m K 4) $$ HR
  ihave #HIb5 := (inv_bar m K 5) $$ HR
  ihave #HIb6 := (inv_bar m K 6) $$ HR
  ihave #HIb7 := (inv_bar m K 7) $$ HR
  ihave #HIr00 := (inv_recv m K 0 0 7) $$ HR
  ihave #HIr01 := (inv_recv m K 0 1 7) $$ HR
  ihave #HIr10 := (inv_recv m K 1 0 7) $$ HR
  ihave #HIr11 := (inv_recv m K 1 1 7) $$ HR
  ihave #HIr20 := (inv_recv m K 2 0 7) $$ HR
  ihave #HIr21 := (inv_recv m K 2 1 7) $$ HR
  ihave #HIr30 := (inv_recv m K 3 0 7) $$ HR
  ihave #HIr31 := (inv_recv m K 3 1 7) $$ HR
  ihave #HIr40 := (inv_recv m K 4 0 7) $$ HR
  ihave #HIr41 := (inv_recv m K 4 1 7) $$ HR
  ihave #HIr50 := (inv_recv m K 5 0 7) $$ HR
  ihave #HIr51 := (inv_recv m K 5 1 7) $$ HR
  ihave #HIr60 := (inv_recv m K 6 0 7) $$ HR
  ihave #HIr61 := (inv_recv m K 6 1 7) $$ HR
  ihave #HIs00 := (inv_send m K 7 0 0) $$ HR
  ihave #HIs01 := (inv_send m K 7 0 1) $$ HR
  ihave #HIs02 := (inv_send m K 7 0 2) $$ HR
  ihave #HIs03 := (inv_send m K 7 0 3) $$ HR
  ihave #HIs04 := (inv_send m K 7 0 4) $$ HR
  ihave #HIs05 := (inv_send m K 7 0 5) $$ HR
  ihave #HIs06 := (inv_send m K 7 0 6) $$ HR
  ihave #HIs10 := (inv_send m K 7 1 0) $$ HR
  ihave #HIs11 := (inv_send m K 7 1 1) $$ HR
  ihave #HIs12 := (inv_send m K 7 1 2) $$ HR
  ihave #HIs13 := (inv_send m K 7 1 3) $$ HR
  ihave #HIs14 := (inv_send m K 7 1 4) $$ HR
  ihave #HIs15 := (inv_send m K 7 1 5) $$ HR
  ihave #HIs16 := (inv_send m K 7 1 6) $$ HR
  ihave #HIv00 := (inv_recv m K 7 0 0) $$ HR
  ihave #HIv01 := (inv_recv m K 7 0 1) $$ HR
  ihave #HIv02 := (inv_recv m K 7 0 2) $$ HR
  ihave #HIv03 := (inv_recv m K 7 0 3) $$ HR
  ihave #HIv04 := (inv_recv m K 7 0 4) $$ HR
  ihave #HIv05 := (inv_recv m K 7 0 5) $$ HR
  ihave #HIv06 := (inv_recv m K 7 0 6) $$ HR
  ihave #HIv10 := (inv_recv m K 7 1 0) $$ HR
  ihave #HIv11 := (inv_recv m K 7 1 1) $$ HR
  ihave #HIv12 := (inv_recv m K 7 1 2) $$ HR
  ihave #HIv13 := (inv_recv m K 7 1 3) $$ HR
  ihave #HIv14 := (inv_recv m K 7 1 4) $$ HR
  ihave #HIv15 := (inv_recv m K 7 1 5) $$ HR
  ihave #HIv16 := (inv_recv m K 7 1 6) $$ HR
  ihave #Hrb0 := (reached_bar m K 0) $$ HR
  ihave #Hrb1 := (reached_bar m K 1) $$ HR
  ihave #Hrb2 := (reached_bar m K 2) $$ HR
  ihave #Hrb3 := (reached_bar m K 3) $$ HR
  ihave #Hrb4 := (reached_bar m K 4) $$ HR
  ihave #Hrb5 := (reached_bar m K 5) $$ HR
  ihave #Hrb6 := (reached_bar m K 6) $$ HR
  ihave #Hrr00 := (reached_recv m K 0 0 7) $$ HR
  ihave #Hrr01 := (reached_recv m K 0 1 7) $$ HR
  ihave #Hrr10 := (reached_recv m K 1 0 7) $$ HR
  ihave #Hrr11 := (reached_recv m K 1 1 7) $$ HR
  ihave #Hrr20 := (reached_recv m K 2 0 7) $$ HR
  ihave #Hrr21 := (reached_recv m K 2 1 7) $$ HR
  ihave #Hrr30 := (reached_recv m K 3 0 7) $$ HR
  ihave #Hrr31 := (reached_recv m K 3 1 7) $$ HR
  ihave #Hrr40 := (reached_recv m K 4 0 7) $$ HR
  ihave #Hrr41 := (reached_recv m K 4 1 7) $$ HR
  ihave #Hrr50 := (reached_recv m K 5 0 7) $$ HR
  ihave #Hrr51 := (reached_recv m K 5 1 7) $$ HR
  ihave #Hrr60 := (reached_recv m K 6 0 7) $$ HR
  ihave #Hrr61 := (reached_recv m K 6 1 7) $$ HR
  ihave #Hrs00 := (reached_send m K 7 0 0) $$ HR
  ihave #Hrs01 := (reached_send m K 7 0 1) $$ HR
  ihave #Hrs02 := (reached_send m K 7 0 2) $$ HR
  ihave #Hrs03 := (reached_send m K 7 0 3) $$ HR
  ihave #Hrs04 := (reached_send m K 7 0 4) $$ HR
  ihave #Hrs05 := (reached_send m K 7 0 5) $$ HR
  ihave #Hrs06 := (reached_send m K 7 0 6) $$ HR
  ihave #Hrs10 := (reached_send m K 7 1 0) $$ HR
  ihave #Hrs11 := (reached_send m K 7 1 1) $$ HR
  ihave #Hrs12 := (reached_send m K 7 1 2) $$ HR
  ihave #Hrs13 := (reached_send m K 7 1 3) $$ HR
  ihave #Hrs14 := (reached_send m K 7 1 4) $$ HR
  ihave #Hrs15 := (reached_send m K 7 1 5) $$ HR
  ihave #Hrs16 := (reached_send m K 7 1 6) $$ HR
  -- the diagonal cells' invariants (never used by a copy; closed at the end)
  ihave #HIs07 := (inv_send m K 7 0 7) $$ HR
  ihave #HIs17 := (inv_send m K 7 1 7) $$ HR
  ihave #HIv07 := (inv_recv m K 7 0 7) $$ HR
  ihave #HIv17 := (inv_recv m K 7 1 7) $$ HR
  iclear HR
  rw [cc0_body_eq_skeleton]; unfold cc0_body_skel
  -- the device's own two slots of its table, at their contents
  icases Hc70 with ⟨%fc0, Hc70⟩
  icases Hc71 with ⟨%fc1, Hc71⟩
  -- the seven barrier units, the first half's exponentials and row sums, the barrier wait
  sl_exec_parts
  -- what the barrier brought: the peers' slots for this device; what is still owed, in paying order; the first row in shares
  ihave HO := (owes_pay_7 (F := F) _) $$ HO
  ihave Hp := (Entails.of_eq (erase_chain_7 _)) $$ Hab_pay1
  icases Hp with ⟨⟨⟨%fd00, Hd00⟩, ⟨%fd01, Hd01⟩⟩, ⟨⟨%fd10, Hd10⟩, ⟨%fd11, Hd11⟩⟩, ⟨⟨%fd20, Hd20⟩, ⟨%fd21, Hd21⟩⟩, ⟨⟨%fd30, Hd30⟩, ⟨%fd31, Hd31⟩⟩, ⟨⟨%fd40, Hd40⟩, ⟨%fd41, Hd41⟩⟩, ⟨⟨%fd50, Hd50⟩, ⟨%fd51, Hd51⟩⟩, ⟨⟨%fd60, Hd60⟩, ⟨%fd61, Hd61⟩⟩⟩
  ihave Hm0s : iprop(((mineSl 0).view.loc ((7 : Dev nD) : Thread nD τ) ↦[(mineSl 0).view.set]{shr 0} mineOf (xOf m 7)) ∗ ((mineSl 0).view.loc ((7 : Dev nD) : Thread nD τ) ↦[(mineSl 0).view.set]{shr 1} mineOf (xOf m 7)) ∗ ((mineSl 0).view.loc ((7 : Dev nD) : Thread nD τ) ↦[(mineSl 0).view.set]{shr 2} mineOf (xOf m 7)) ∗ ((mineSl 0).view.loc ((7 : Dev nD) : Thread nD τ) ↦[(mineSl 0).view.set]{shr 3} mineOf (xOf m 7)) ∗ ((mineSl 0).view.loc ((7 : Dev nD) : Thread nD τ) ↦[(mineSl 0).view.set]{shr 4} mineOf (xOf m 7)) ∗ ((mineSl 0).view.loc ((7 : Dev nD) : Thread nD τ) ↦[(mineSl 0).view.set]{shr 5} mineOf (xOf m 7)) ∗ ((mineSl 0).view.loc ((7 : Dev nD) : Thread nD τ) ↦[(mineSl 0).view.set]{shr 6} mineOf (xOf m 7)) ∗ ((mineSl 0).view.loc ((7 : Dev nD) : Thread nD τ) ↦[(mineSl 0).view.set]{shr 7} mineOf (xOf m 7))) $$ [Hm0]
  · iapply (row0_shares (F := F) (7 : Dev nD) (xOf m 7) f0); iexact Hm0
  icases Hm0s with ⟨Hm0_0, Hm0_1, Hm0_2, Hm0_3, Hm0_4, Hm0_5, Hm0_6, Hm0_7⟩
  -- the seven copies of the first row
  iapply (wp_send_slot m _ _ 7 0 _ 0 (dev9_c _) (by decide) fd00 _ _) $$ [Hm0_0 Hd00 HO Hts00 Htr00]
  · isplitr; · iexact HIs00
    isplitr; · iexact HIr00
    isplitl [Hm0_0]; · iexact Hm0_0
    isplitl [Hd00]; · iexact Hd00
    isplitl [HO]; · iexact HO
    isplitl [Hts00]; · iexact Hts00
    isplitr; · iexact Hrs00
    isplitl [Htr00]; · iexact Htr00
    iexact Hrr00
  iintro ⟨Hcs00, HO⟩
  sl_exec_parts
  iapply (wp_send_slot m _ _ 7 1 _ 0 (dev10_c _) (by decide) fd10 _ _) $$ [Hm0_1 Hd10 HO Hts01 Htr10]
  · isplitr; · iexact HIs01
    isplitr; · iexact HIr10
    isplitl [Hm0_1]; · iexact Hm0_1
    isplitl [Hd10]; · iexact Hd10
    isplitl [HO]; · iexact HO
    isplitl [Hts01]; · iexact Hts01
    isplitr; · iexact Hrs01
    isplitl [Htr10]; · iexact Htr10
    iexact Hrr10
  iintro ⟨Hcs01, HO⟩
  sl_exec_parts
  iapply (wp_send_slot m _ _ 7 2 _ 0 (dev11_c _) (by decide) fd20 _ _) $$ [Hm0_2 Hd20 HO Hts02 Htr20]
  · isplitr; · iexact HIs02
    isplitr; · iexact HIr20
    isplitl [Hm0_2]; · iexact Hm0_2
    isplitl [Hd20]; · iexact Hd20
    isplitl [HO]; · iexact HO
    isplitl [Hts02]; · iexact Hts02
    isplitr; · iexact Hrs02
    isplitl [Htr20]; · iexact Htr20
    iexact Hrr20
  iintro ⟨Hcs02, HO⟩
  sl_exec_parts
  iapply (wp_send_slot m _ _ 7 3 _ 0 (dev12_c _) (by decide) fd30 _ _) $$ [Hm0_3 Hd30 HO Hts03 Htr30]
  · isplitr; · iexact HIs03
    isplitr; · iexact HIr30
    isplitl [Hm0_3]; · iexact Hm0_3
    isplitl [Hd30]; · iexact Hd30
    isplitl [HO]; · iexact HO
    isplitl [Hts03]; · iexact Hts03
    isplitr; · iexact Hrs03
    isplitl [Htr30]; · iexact Htr30
    iexact Hrr30
  iintro ⟨Hcs03, HO⟩
  sl_exec_parts
  iapply (wp_send_slot m _ _ 7 4 _ 0 (dev13_c _) (by decide) fd40 _ _) $$ [Hm0_4 Hd40 HO Hts04 Htr40]
  · isplitr; · iexact HIs04
    isplitr; · iexact HIr40
    isplitl [Hm0_4]; · iexact Hm0_4
    isplitl [Hd40]; · iexact Hd40
    isplitl [HO]; · iexact HO
    isplitl [Hts04]; · iexact Hts04
    isplitr; · iexact Hrs04
    isplitl [Htr40]; · iexact Htr40
    iexact Hrr40
  iintro ⟨Hcs04, HO⟩
  sl_exec_parts
  iapply (wp_send_slot m _ _ 7 5 _ 0 (dev14_c _) (by decide) fd50 _ _) $$ [Hm0_5 Hd50 HO Hts05 Htr50]
  · isplitr; · iexact HIs05
    isplitr; · iexact HIr50
    isplitl [Hm0_5]; · iexact Hm0_5
    isplitl [Hd50]; · iexact Hd50
    isplitl [HO]; · iexact HO
    isplitl [Hts05]; · iexact Hts05
    isplitr; · iexact Hrs05
    isplitl [Htr50]; · iexact Htr50
    iexact Hrr50
  iintro ⟨Hcs05, HO⟩
  sl_exec_parts
  iapply (wp_send_slot m _ _ 7 6 _ 0 (dev15_c _) (by decide) fd60 _ _) $$ [Hm0_6 Hd60 HO Hts06 Htr60]
  · isplitr; · iexact HIs06
    isplitr; · iexact HIr60
    isplitl [Hm0_6]; · iexact Hm0_6
    isplitl [Hd60]; · iexact Hd60
    isplitl [HO]; · iexact HO
    isplitl [Hts06]; · iexact Hts06
    isplitr; · iexact Hrs06
    isplitl [Htr60]; · iexact Htr60
    iexact Hrr60
  iintro ⟨Hcs06, HO⟩
  sl_exec_parts
  -- the second row in shares, its seven copies
  ihave Hm1s : iprop(((mineSl 1).view.loc ((7 : Dev nD) : Thread nD τ) ↦[(mineSl 1).view.set]{shr 0} mineOf (xOf m 7)) ∗ ((mineSl 1).view.loc ((7 : Dev nD) : Thread nD τ) ↦[(mineSl 1).view.set]{shr 1} mineOf (xOf m 7)) ∗ ((mineSl 1).view.loc ((7 : Dev nD) : Thread nD τ) ↦[(mineSl 1).view.set]{shr 2} mineOf (xOf m 7)) ∗ ((mineSl 1).view.loc ((7 : Dev nD) : Thread nD τ) ↦[(mineSl 1).view.set]{shr 3} mineOf (xOf m 7)) ∗ ((mineSl 1).view.loc ((7 : Dev nD) : Thread nD τ) ↦[(mineSl 1).view.set]{shr 4} mineOf (xOf m 7)) ∗ ((mineSl 1).view.loc ((7 : Dev nD) : Thread nD τ) ↦[(mineSl 1).view.set]{shr 5} mineOf (xOf m 7)) ∗ ((mineSl 1).view.loc ((7 : Dev nD) : Thread nD τ) ↦[(mineSl 1).view.set]{shr 6} mineOf (xOf m 7)) ∗ ((mineSl 1).view.loc ((7 : Dev nD) : Thread nD τ) ↦[(mineSl 1).view.set]{shr 7} mineOf (xOf m 7))) $$ [Hm1]
  · iapply (row1_shares (F := F) (7 : Dev nD) (xOf m 7) f0); iexact Hm1
  icases Hm1s with ⟨Hm1_0, Hm1_1, Hm1_2, Hm1_3, Hm1_4, Hm1_5, Hm1_6, Hm1_7⟩
  iapply (wp_send_slot m _ _ 7 0 _ 1 (dev17_c _) (by decide) fd01 _ _) $$ [Hm1_0 Hd01 HO Hts10 Htr01]
  · isplitr; · iexact HIs10
    isplitr; · iexact HIr01
    isplitl [Hm1_0]; · iexact Hm1_0
    isplitl [Hd01]; · iexact Hd01
    isplitl [HO]; · iexact HO
    isplitl [Hts10]; · iexact Hts10
    isplitr; · iexact Hrs10
    isplitl [Htr01]; · iexact Htr01
    iexact Hrr01
  iintro ⟨Hcs10, HO⟩
  sl_exec_parts
  iapply (wp_send_slot m _ _ 7 1 _ 1 (dev18_c _) (by decide) fd11 _ _) $$ [Hm1_1 Hd11 HO Hts11 Htr11]
  · isplitr; · iexact HIs11
    isplitr; · iexact HIr11
    isplitl [Hm1_1]; · iexact Hm1_1
    isplitl [Hd11]; · iexact Hd11
    isplitl [HO]; · iexact HO
    isplitl [Hts11]; · iexact Hts11
    isplitr; · iexact Hrs11
    isplitl [Htr11]; · iexact Htr11
    iexact Hrr11
  iintro ⟨Hcs11, HO⟩
  sl_exec_parts
  iapply (wp_send_slot m _ _ 7 2 _ 1 (dev19_c _) (by decide) fd21 _ _) $$ [Hm1_2 Hd21 HO Hts12 Htr21]
  · isplitr; · iexact HIs12
    isplitr; · iexact HIr21
    isplitl [Hm1_2]; · iexact Hm1_2
    isplitl [Hd21]; · iexact Hd21
    isplitl [HO]; · iexact HO
    isplitl [Hts12]; · iexact Hts12
    isplitr; · iexact Hrs12
    isplitl [Htr21]; · iexact Htr21
    iexact Hrr21
  iintro ⟨Hcs12, HO⟩
  sl_exec_parts
  iapply (wp_send_slot m _ _ 7 3 _ 1 (dev20_c _) (by decide) fd31 _ _) $$ [Hm1_3 Hd31 HO Hts13 Htr31]
  · isplitr; · iexact HIs13
    isplitr; · iexact HIr31
    isplitl [Hm1_3]; · iexact Hm1_3
    isplitl [Hd31]; · iexact Hd31
    isplitl [HO]; · iexact HO
    isplitl [Hts13]; · iexact Hts13
    isplitr; · iexact Hrs13
    isplitl [Htr31]; · iexact Htr31
    iexact Hrr31
  iintro ⟨Hcs13, HO⟩
  sl_exec_parts
  iapply (wp_send_slot m _ _ 7 4 _ 1 (dev21_c _) (by decide) fd41 _ _) $$ [Hm1_4 Hd41 HO Hts14 Htr41]
  · isplitr; · iexact HIs14
    isplitr; · iexact HIr41
    isplitl [Hm1_4]; · iexact Hm1_4
    isplitl [Hd41]; · iexact Hd41
    isplitl [HO]; · iexact HO
    isplitl [Hts14]; · iexact Hts14
    isplitr; · iexact Hrs14
    isplitl [Htr41]; · iexact Htr41
    iexact Hrr41
  iintro ⟨Hcs14, HO⟩
  sl_exec_parts
  iapply (wp_send_slot m _ _ 7 5 _ 1 (dev22_c _) (by decide) fd51 _ _) $$ [Hm1_5 Hd51 HO Hts15 Htr51]
  · isplitr; · iexact HIs15
    isplitr; · iexact HIr51
    isplitl [Hm1_5]; · iexact Hm1_5
    isplitl [Hd51]; · iexact Hd51
    isplitl [HO]; · iexact HO
    isplitl [Hts15]; · iexact Hts15
    isplitr; · iexact Hrs15
    isplitl [Htr51]; · iexact Htr51
    iexact Hrr51
  iintro ⟨Hcs15, HO⟩
  sl_exec_parts
  ihave HO := (owes_zero_add (F := F) (7 : Dev nD) _ _) $$ HO
  iapply (wp_send_slot m _ _ 7 6 _ 1 (dev23_c _) (by decide) fd61 _ _) $$ [Hm1_6 Hd61 HO Hts16 Htr61]
  · isplitr; · iexact HIs16
    isplitr; · iexact HIr61
    isplitl [Hm1_6]; · iexact Hm1_6
    isplitl [Hd61]; · iexact Hd61
    isplitl [HO]; · iexact HO
    isplitl [Hts16]; · iexact Hts16
    isplitr; · iexact Hrs16
    isplitl [Htr61]; · iexact Htr61
    iexact Hrr61
  iintro ⟨Hcs16, HO⟩
  sl_exec_parts
  -- the first half of the table whole: the seven landings and the own slot; its sum, the first half of the result
  ihave Hown0 : ((commSl 7 0).view.loc ((7 : Dev nD) : Thread nD τ) ↦[(commSl 7 0).view.set]{fullShare} commOf (Xs m)) $$ [Hc70]
  · iapply (own_slot0 (F := F) m (7 : Dev nD) fc0 _); iexact Hc70
  ihave Hh0 : ((halfM 0).view.loc ((7 : Dev nD) : Thread nD τ) ↦[(halfM 0).view.set]{fullShare} commOf (Xs m)) $$ [Hav00_pay1 Hav01_pay1 Hav02_pay1 Hav03_pay1 Hav04_pay1 Hav05_pay1 Hav06_pay1 Hown0]
  · iapply (half_join (F := F) (7 : Dev nD) 0 (commOf (Xs m)))
    isplitl [Hav00_pay1]; · iexact Hav00_pay1
    isplitl [Hav01_pay1]; · iexact Hav01_pay1
    isplitl [Hav02_pay1]; · iexact Hav02_pay1
    isplitl [Hav03_pay1]; · iexact Hav03_pay1
    isplitl [Hav04_pay1]; · iexact Hav04_pay1
    isplitl [Hav05_pay1]; · iexact Hav05_pay1
    isplitl [Hav06_pay1]; · iexact Hav06_pay1
    iexact Hown0
  have hsub0a := half_access_sub0
  have hsub0b := half_setOn_sub0
  sl_exec_parts
  -- the second half likewise; then the departures' waits
  ihave Hown1 : ((commSl 7 1).view.loc ((7 : Dev nD) : Thread nD τ) ↦[(commSl 7 1).view.set]{fullShare} commOf (Xs m)) $$ [Hc71]
  · iapply (own_slot1 (F := F) m (7 : Dev nD) fc1 _); iexact Hc71
  ihave Hh1 : ((halfM 1).view.loc ((7 : Dev nD) : Thread nD τ) ↦[(halfM 1).view.set]{fullShare} commOf (Xs m)) $$ [Hav10_pay1 Hav11_pay1 Hav12_pay1 Hav13_pay1 Hav14_pay1 Hav15_pay1 Hav16_pay1 Hown1]
  · iapply (half_join (F := F) (7 : Dev nD) 1 (commOf (Xs m)))
    isplitl [Hav10_pay1]; · iexact Hav10_pay1
    isplitl [Hav11_pay1]; · iexact Hav11_pay1
    isplitl [Hav12_pay1]; · iexact Hav12_pay1
    isplitl [Hav13_pay1]; · iexact Hav13_pay1
    isplitl [Hav14_pay1]; · iexact Hav14_pay1
    isplitl [Hav15_pay1]; · iexact Hav15_pay1
    isplitl [Hav16_pay1]; · iexact Hav16_pay1
    iexact Hown1
  have hsub1a := half_access_sub1
  have hsub1b := half_setOn_sub1
  sl_exec_parts
  -- the cells closed
  imod (close_send m _ 7 0 0 1 (.inr le_rfl)) $$ [Has00] with Hzs00
  · isplitr; · iexact HIs00
    iexact Has00
  imod (close_send m _ 7 0 1 1 (.inr le_rfl)) $$ [Has01] with Hzs01
  · isplitr; · iexact HIs01
    iexact Has01
  imod (close_send m _ 7 0 2 1 (.inr le_rfl)) $$ [Has02] with Hzs02
  · isplitr; · iexact HIs02
    iexact Has02
  imod (close_send m _ 7 0 3 1 (.inr le_rfl)) $$ [Has03] with Hzs03
  · isplitr; · iexact HIs03
    iexact Has03
  imod (close_send m _ 7 0 4 1 (.inr le_rfl)) $$ [Has04] with Hzs04
  · isplitr; · iexact HIs04
    iexact Has04
  imod (close_send m _ 7 0 5 1 (.inr le_rfl)) $$ [Has05] with Hzs05
  · isplitr; · iexact HIs05
    iexact Has05
  imod (close_send m _ 7 0 6 1 (.inr le_rfl)) $$ [Has06] with Hzs06
  · isplitr; · iexact HIs06
    iexact Has06
  imod (close_send m _ 7 0 7 0 (.inl rfl)) $$ [Has07] with Hzs07
  · isplitr; · iexact HIs07
    iexact Has07
  imod (close_send m _ 7 1 0 1 (.inr le_rfl)) $$ [Has10] with Hzs10
  · isplitr; · iexact HIs10
    iexact Has10
  imod (close_send m _ 7 1 1 1 (.inr le_rfl)) $$ [Has11] with Hzs11
  · isplitr; · iexact HIs11
    iexact Has11
  imod (close_send m _ 7 1 2 1 (.inr le_rfl)) $$ [Has12] with Hzs12
  · isplitr; · iexact HIs12
    iexact Has12
  imod (close_send m _ 7 1 3 1 (.inr le_rfl)) $$ [Has13] with Hzs13
  · isplitr; · iexact HIs13
    iexact Has13
  imod (close_send m _ 7 1 4 1 (.inr le_rfl)) $$ [Has14] with Hzs14
  · isplitr; · iexact HIs14
    iexact Has14
  imod (close_send m _ 7 1 5 1 (.inr le_rfl)) $$ [Has15] with Hzs15
  · isplitr; · iexact HIs15
    iexact Has15
  imod (close_send m _ 7 1 6 1 (.inr le_rfl)) $$ [Has16] with Hzs16
  · isplitr; · iexact HIs16
    iexact Has16
  imod (close_send m _ 7 1 7 0 (.inl rfl)) $$ [Has17] with Hzs17
  · isplitr; · iexact HIs17
    iexact Has17
  imod (close_recv m _ 7 0 0 1 (.inr le_rfl)) $$ [Hav00] with Hzv00
  · isplitr; · iexact HIv00
    iexact Hav00
  imod (close_recv m _ 7 0 1 1 (.inr le_rfl)) $$ [Hav01] with Hzv01
  · isplitr; · iexact HIv01
    iexact Hav01
  imod (close_recv m _ 7 0 2 1 (.inr le_rfl)) $$ [Hav02] with Hzv02
  · isplitr; · iexact HIv02
    iexact Hav02
  imod (close_recv m _ 7 0 3 1 (.inr le_rfl)) $$ [Hav03] with Hzv03
  · isplitr; · iexact HIv03
    iexact Hav03
  imod (close_recv m _ 7 0 4 1 (.inr le_rfl)) $$ [Hav04] with Hzv04
  · isplitr; · iexact HIv04
    iexact Hav04
  imod (close_recv m _ 7 0 5 1 (.inr le_rfl)) $$ [Hav05] with Hzv05
  · isplitr; · iexact HIv05
    iexact Hav05
  imod (close_recv m _ 7 0 6 1 (.inr le_rfl)) $$ [Hav06] with Hzv06
  · isplitr; · iexact HIv06
    iexact Hav06
  imod (close_recv m _ 7 0 7 0 (.inl rfl)) $$ [Hav07] with Hzv07
  · isplitr; · iexact HIv07
    iexact Hav07
  imod (close_recv m _ 7 1 0 1 (.inr le_rfl)) $$ [Hav10] with Hzv10
  · isplitr; · iexact HIv10
    iexact Hav10
  imod (close_recv m _ 7 1 1 1 (.inr le_rfl)) $$ [Hav11] with Hzv11
  · isplitr; · iexact HIv11
    iexact Hav11
  imod (close_recv m _ 7 1 2 1 (.inr le_rfl)) $$ [Hav12] with Hzv12
  · isplitr; · iexact HIv12
    iexact Hav12
  imod (close_recv m _ 7 1 3 1 (.inr le_rfl)) $$ [Hav13] with Hzv13
  · isplitr; · iexact HIv13
    iexact Hav13
  imod (close_recv m _ 7 1 4 1 (.inr le_rfl)) $$ [Hav14] with Hzv14
  · isplitr; · iexact HIv14
    iexact Hav14
  imod (close_recv m _ 7 1 5 1 (.inr le_rfl)) $$ [Hav15] with Hzv15
  · isplitr; · iexact HIv15
    iexact Hav15
  imod (close_recv m _ 7 1 6 1 (.inr le_rfl)) $$ [Hav16] with Hzv16
  · isplitr; · iexact HIv16
    iexact Hav16
  imod (close_recv m _ 7 1 7 0 (.inl rfl)) $$ [Hav17] with Hzv17
  · isplitr; · iexact HIv17
    iexact Hav17
  -- the two tables whole again
  ihave Hrow0 : ((mineSl 0).view.loc ((7 : Dev nD) : Thread nD τ) ↦[(mineSl 0).view.set]{fullShare} mineOf (xOf m 7)) $$ [Has00_pay1 Has01_pay1 Has02_pay1 Has03_pay1 Has04_pay1 Has05_pay1 Has06_pay1 Hm0_7]
  · iapply (row_rejoin (F := F) (7 : Dev nD) 0 (xOf m 7))
    isplitl [Has00_pay1]; · iexact Has00_pay1
    isplitl [Has01_pay1]; · iexact Has01_pay1
    isplitl [Has02_pay1]; · iexact Has02_pay1
    isplitl [Has03_pay1]; · iexact Has03_pay1
    isplitl [Has04_pay1]; · iexact Has04_pay1
    isplitl [Has05_pay1]; · iexact Has05_pay1
    isplitl [Has06_pay1]; · iexact Has06_pay1
    iexact Hm0_7
  ihave Hrow1 : ((mineSl 1).view.loc ((7 : Dev nD) : Thread nD τ) ↦[(mineSl 1).view.set]{fullShare} mineOf (xOf m 7)) $$ [Has10_pay1 Has11_pay1 Has12_pay1 Has13_pay1 Has14_pay1 Has15_pay1 Has16_pay1 Hm1_7]
  · iapply (row_rejoin (F := F) (7 : Dev nD) 1 (xOf m 7))
    isplitl [Has10_pay1]; · iexact Has10_pay1
    isplitl [Has11_pay1]; · iexact Has11_pay1
    isplitl [Has12_pay1]; · iexact Has12_pay1
    isplitl [Has13_pay1]; · iexact Has13_pay1
    isplitl [Has14_pay1]; · iexact Has14_pay1
    isplitl [Has15_pay1]; · iexact Has15_pay1
    isplitl [Has16_pay1]; · iexact Has16_pay1
    iexact Hm1_7
  ihave Hmine := (mine_join (F := F) (7 : Dev nD) (mineOf (xOf m 7))) $$ [Hrow0 Hrow1]
  · isplitl [Hrow0]; · iexact Hrow0
    iexact Hrow1
  ihave Hcomm := (halves_join (F := F) (7 : Dev nD) (commOf (Xs m)) (commOf (Xs m))) $$ [Hh0 Hh1]
  · isplitl [Hh0]; · iexact Hh0
    iexact Hh1
  -- the result block
  ihave Hout : ((oM : Memref sig .tc .vmem S1024x1024 .bf16).view.loc ((7 : Dev nD) : Thread nD τ) ↦[(oM : Memref sig .tc .vmem S1024x1024 .bf16).view.set]{fullShare} outOf (fun q => xOf m q) 7) $$ [Ho]
  · have hT : body_7.sl.r_2 m = oTop (fun q => xOf m q) (7 : Dev nD) := by
      sl_unfold_run_names
      exact congrArg₂ k0_pay10 rfl (readCov_top _ _ _)
    have hB : k0_pay13 (body_7.sl.r_3 m) k0_pay12 (body_7.sl.v183 m) = oBot (fun q => xOf m q) (7 : Dev nD) := by
      sl_unfold_run_names
      exact congrArg₂ (fun a b => k0_pay13 (k0_pay11 a) k0_pay12 b) rfl (readCov_bot _ _ _ _)
    iapply (out_settle (F := F) m (7 : Dev nD) g0 _ _ _ _ hB hT)
    iexact Ho
  rw [wp_ret]
  imodintro
  iapply Hk
  unfold bodyPostE Φ₁ scratches
  rw [sems_chain]
  isplitl [Hmine Hcomm Hzs00 Hzs01 Hzs02 Hzs03 Hzs04 Hzs05 Hzs06 Hzs07 Hzs10 Hzs11 Hzs12 Hzs13 Hzs14 Hzs15 Hzs16 Hzs17 Hzv00 Hzv01 Hzv02 Hzv03 Hzv04 Hzv05 Hzv06 Hzv07 Hzv10 Hzv11 Hzv12 Hzv13 Hzv14 Hzv15 Hzv16 Hzv17]
  · isplitl [Hmine Hcomm]
    · isplitl [Hmine]
      · iexists _; iexact Hmine
      · iexact Hcomm
    isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs06]; · iexact Hzs06
    isplitl [Hzs07]; · iexact Hzs07
    isplitl [Hzs10]; · iexact Hzs10
    isplitl [Hzs11]; · iexact Hzs11
    isplitl [Hzs12]; · iexact Hzs12
    isplitl [Hzs13]; · iexact Hzs13
    isplitl [Hzs14]; · iexact Hzs14
    isplitl [Hzs15]; · iexact Hzs15
    isplitl [Hzs16]; · iexact Hzs16
    isplitl [Hzs17]; · iexact Hzs17
    isplitl [Hzv00]; · iexact Hzv00
    isplitl [Hzv01]; · iexact Hzv01
    isplitl [Hzv02]; · iexact Hzv02
    isplitl [Hzv03]; · iexact Hzv03
    isplitl [Hzv04]; · iexact Hzv04
    isplitl [Hzv05]; · iexact Hzv05
    isplitl [Hzv06]; · iexact Hzv06
    isplitl [Hzv07]; · iexact Hzv07
    isplitl [Hzv10]; · iexact Hzv10
    isplitl [Hzv11]; · iexact Hzv11
    isplitl [Hzv12]; · iexact Hzv12
    isplitl [Hzv13]; · iexact Hzv13
    isplitl [Hzv14]; · iexact Hzv14
    isplitl [Hzv15]; · iexact Hzv15
    isplitl [Hzv16]; · iexact Hzv16
    iexact Hzv17
  isplitl [HO]; · iexists _; iexact HO
  isplitl [Hx]; · iexact Hx
  iexact Hout

end Cert.Kernel.Sm

end
-- ==== Proof.W.BodyAll.lean ====
/-
  The kernel body's proof on every device, from its proof on each of the eight.
-/
import proofs.«901053_g7700000000001054_dist_softmax_colshard_i_m1024_n1024_v7x_i8_bf16_1_alg».proof.Proof.W.BodyWrap
import proofs.«901053_g7700000000001054_dist_softmax_colshard_i_m1024_n1024_v7x_i8_bf16_1_alg».proof.Proof.W.Body0
import proofs.«901053_g7700000000001054_dist_softmax_colshard_i_m1024_n1024_v7x_i8_bf16_1_alg».proof.Proof.W.Body1
import proofs.«901053_g7700000000001054_dist_softmax_colshard_i_m1024_n1024_v7x_i8_bf16_1_alg».proof.Proof.W.Body2
import proofs.«901053_g7700000000001054_dist_softmax_colshard_i_m1024_n1024_v7x_i8_bf16_1_alg».proof.Proof.W.Body3
import proofs.«901053_g7700000000001054_dist_softmax_colshard_i_m1024_n1024_v7x_i8_bf16_1_alg».proof.Proof.W.Body4
import proofs.«901053_g7700000000001054_dist_softmax_colshard_i_m1024_n1024_v7x_i8_bf16_1_alg».proof.Proof.W.Body5
import proofs.«901053_g7700000000001054_dist_softmax_colshard_i_m1024_n1024_v7x_i8_bf16_1_alg».proof.Proof.W.Body6
import proofs.«901053_g7700000000001054_dist_softmax_colshard_i_m1024_n1024_v7x_i8_bf16_1_alg».proof.Proof.W.Body7

noncomputable section

namespace Cert.Kernel.Sm

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- The kernel body's obligation on every device: the eight devices one by one. -/
theorem body_all (c : Dev nD) : BodyObligation (dats (F := F) m ρ 0 c) (defs₀ (F := F)) 𝒱₀ () Set.univ := by
  have h8 : ∀ c : Dev nD, c = 0 ∨ c = 1 ∨ c = 2 ∨ c = 3 ∨ c = 4 ∨ c = 5 ∨ c = 6 ∨ c = 7 := by decide
  rcases h8 c with rfl | rfl | rfl | rfl | rfl | rfl | rfl | rfl
  · exact body_obligation_of m ρ 0 (body_0 m)
  · exact body_obligation_of m ρ 1 (body_1 m)
  · exact body_obligation_of m ρ 2 (body_2 m)
  · exact body_obligation_of m ρ 3 (body_3 m)
  · exact body_obligation_of m ρ 4 (body_4 m)
  · exact body_obligation_of m ρ 5 (body_5 m)
  · exact body_obligation_of m ρ 6 (body_6 m)
  · exact body_obligation_of m ρ 7 (body_7 m)

end Cert.Kernel.Sm

end
-- ==== Proof.lean ====
/-
  The proof of `Cert.Claim`: the softmax along the rows of a 1024 x 8192 array whose columns are cut into eight blocks of 1024,
  one block a device, is on every device that device's block of the softmax of the whole array.

  A device forms e = exp (x - 16) of its block and the sums of e along each row of the block. The eight devices meet on the
  barrier semaphore, then each copies its 1024 row sums, as two rows of 512, into the slot reserved for it in every other
  device's table; a device adds the eight partial sums of a row and multiplies its e by the reciprocal of the total.
  The run of the eight kernels is proved under the rounds discipline: a device waits on a cell only while all it still owes
  sits at cells of a higher level (staging and send cells below barrier cells below receive cells), so every fair execution
  terminates, and every final state has each device's result block equal to a pure function of the eight input blocks and its
  input block unchanged. That is proved once for any float instance, from the kernel body's proof on each of the eight
  devices, and read twice: at the word level for the kernel as printed and at the ideal instance for its idealization, which
  rewrote no operation. At the ideal instance, with every input a real, exp (x - 16) / Σ exp (x - 16) = exp (x - max) / Σ exp (x - max)
  row by row, the sum over the 8192 columns being the sum over the eight blocks of the sums over a block: so each device's
  result block is its block of the reference's result. The reference's frame is its own run with the result dropped.
-/
import proofs.«901053_g7700000000001054_dist_softmax_colshard_i_m1024_n1024_v7x_i8_bf16_1_alg».proof.Defs
import proofs.«901053_g7700000000001054_dist_softmax_colshard_i_m1024_n1024_v7x_i8_bf16_1_alg».proof.Proof.Gen.Kernel
import proofs.«901053_g7700000000001054_dist_softmax_colshard_i_m1024_n1024_v7x_i8_bf16_1_alg».proof.Proof.Gen.Kernel.Skeleton
import proofs.«901053_g7700000000001054_dist_softmax_colshard_i_m1024_n1024_v7x_i8_bf16_1_alg».proof.Proof.Gen.Kernel.Launch
import proofs.«901053_g7700000000001054_dist_softmax_colshard_i_m1024_n1024_v7x_i8_bf16_1_alg».proof.Proof.Gen.Kernel.Points
import proofs.«901053_g7700000000001054_dist_softmax_colshard_i_m1024_n1024_v7x_i8_bf16_1_alg».proof.Proof.Gen.Kernel.Frame
import proofs.«901053_g7700000000001054_dist_softmax_colshard_i_m1024_n1024_v7x_i8_bf16_1_alg».proof.Proof.Gen.KernelIdeal
import proofs.«901053_g7700000000001054_dist_softmax_colshard_i_m1024_n1024_v7x_i8_bf16_1_alg».proof.Proof.Gen.KernelIdeal.Skeleton
import proofs.«901053_g7700000000001054_dist_softmax_colshard_i_m1024_n1024_v7x_i8_bf16_1_alg».proof.Proof.Gen.KernelIdeal.Launch
import proofs.«901053_g7700000000001054_dist_softmax_colshard_i_m1024_n1024_v7x_i8_bf16_1_alg».proof.Proof.Gen.KernelIdeal.Points
import proofs.«901053_g7700000000001054_dist_softmax_colshard_i_m1024_n1024_v7x_i8_bf16_1_alg».proof.Proof.Gen.KernelIdeal.Frame
import proofs.«901053_g7700000000001054_dist_softmax_colshard_i_m1024_n1024_v7x_i8_bf16_1_alg».proof.Proof.Gen.ReferenceIdeal
import proofs.«901053_g7700000000001054_dist_softmax_colshard_i_m1024_n1024_v7x_i8_bf16_1_alg».proof.Proof.Gen.Pre_finite_inputs_Kernel
import proofs.«901053_g7700000000001054_dist_softmax_colshard_i_m1024_n1024_v7x_i8_bf16_1_alg».proof.Proof.Gen.Pre_finite_inputs_ReferenceIdeal
import proofs.«901053_g7700000000001054_dist_softmax_colshard_i_m1024_n1024_v7x_i8_bf16_1_alg».proof.Proof.Assemble
import proofs.«901053_g7700000000001054_dist_softmax_colshard_i_m1024_n1024_v7x_i8_bf16_1_alg».proof.Proof.BodyAll
import proofs.«901053_g7700000000001054_dist_softmax_colshard_i_m1024_n1024_v7x_i8_bf16_1_alg».proof.Proof.W.BodyAll
import Idealize.ShloMosaic.Adequacy
import Idealize.ShloMosaic.Init

noncomputable section

namespace Cert.Proof

open Idealize.ShloMosaic Idealize.SL.Sem

theorem claim : Cert.Claim :=
  claim_of (fun m ρ c => Cert.KernelIdeal.Sm.body_all m ρ c) (fun m ρ c => Cert.Kernel.Sm.body_all m ρ c)

end Cert.Proof

end
